-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v227)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v227) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v282) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S3x128 : Shape := ⟨2, ![3, 128]⟩
abbrev S128x1 : Shape := ⟨2, ![128, 1]⟩
abbrev S1 : Shape := ⟨1, ![1]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_v63 : IVec S_ 1) (main_v67 : IVec S800000 1) (main_v68 : IVec S1x800000 32) : IVec S_ 1 :=
  let main_v69 : IVec S800000 32 := shapeCast S800000 main_v68 shapeCasts_S1x800000_S800000
  let main_c_25 : IVec S_ 32 := constantI S_ 32 50000#32
  let main_v70 : IVec S800000 32 := broadcastInDim S800000 ![] bcast_S_S800000 main_c_25
  let main_v71 : IVec S800000 1 := cmpi .slt main_v69 main_v70
  let main_v72 : IVec S800000 1 := andi main_v67 main_v71
  let main_c_26 : IVec S_ 1 := constantI S_ 1 1#1
  let main_v73 : IVec S_ 1 := (fun x v => Host.reduce IntOp.andi x v reducesTo_S800000_S_d0 h_S_) main_v72 main_c_26
  let main_v74 : IVec S_ 1 := andi main_v63 main_v73
  main_v74

def fn_part3 {F : FTy → Type} [FloatOps F] (main_arg1 : IVec S2x800000 32) (main_arg13 : FVec F S128x1 .f32) (main_arg14 : FVec F S1 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S128x1 .f32 := Host.absf main_arg13
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : IVec S1x800000 32 := (extractStridedSlice S1x800000 ![0, 0] · slices_S2x800000_S1x800000_0_0) main_arg1
  let main_v65 : IVec S800000 32 := shapeCast S800000 main_v64 shapeCasts_S1x800000_S800000
  let main_c_24 : IVec S_ 32 := constantI S_ 32 0#32
  let main_v66 : IVec S800000 32 := broadcastInDim S800000 ![] bcast_S_S800000 main_c_24
  let main_v67 : IVec S800000 1 := cmpi .sge main_v65 main_v66
  let main_v68 : IVec S1x800000 32 := (extractStridedSlice S1x800000 ![0, 0] · slices_S2x800000_S1x800000_0_0) main_arg1
  fn_part4 (F := F) main_v63 main_v67 main_v68

def fn_part2 {F : FTy → Type} [FloatOps F] (main_arg1 : IVec S2x800000 32) (main_arg9 : FVec F S2x128x128 .f32) (main_arg10 : FVec F S2x128 .f32) (main_arg11 : FVec F S2x128 .f32) (main_arg12 : FVec F S2x128 .f32) (main_arg13 : FVec F S128x1 .f32) (main_arg14 : FVec F S1 .f32) (main_v33 : IVec S_ 1) : IVec S_ 1 :=
  let main_v34 : FVec F S2x128x128 .f32 := Host.absf main_arg9
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg12
  let main_cst_18 : FVec F S_ .f32 := constant S_ .f32 0x7F800000#32
  let main_v50 : FVec F S2x128 .f32 := broadcastInDim S2x128 ![] bcast_S_S2x128 main_cst_18
  fn_part3 (F := F) main_arg1 main_arg13 main_arg14 main_v48 main_v49 main_v50

def fn_part1 {F : FTy → Type} [FloatOps F] (main_arg1 : IVec S2x800000 32) (main_arg6 : FVec F S2x128 .f32) (main_arg7 : FVec F S3x128 .f32) (main_arg8 : FVec F S3x128 .f32) (main_arg9 : FVec F S2x128x128 .f32) (main_arg10 : FVec F S2x128 .f32) (main_arg11 : FVec F S2x128 .f32) (main_arg12 : FVec F S2x128 .f32) (main_arg13 : FVec F S128x1 .f32) (main_arg14 : FVec F S1 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S2x128x128 .f32) (main_arg6 : FVec F S2x128 .f32) (main_arg7 : FVec F S3x128 .f32) (main_arg8 : FVec F S3x128 .f32) (main_arg9 : FVec F S2x128x128 .f32) (main_arg10 : FVec F S2x128 .f32) (main_arg11 : FVec F S2x128 .f32) (main_arg12 : FVec F S2x128 .f32) (main_arg13 : FVec F S128x1 .f32) (main_arg14 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg1 main_arg6 main_arg7 main_arg8 main_arg9 main_arg10 main_arg11 main_arg12 main_arg13 main_arg14 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S3x128 : Shape := ⟨2, ![3, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S1x1 : Shape := ⟨2, ![1, 1]⟩
abbrev S800000x128 : Shape := ⟨2, ![800000, 128]⟩
abbrev S5000x1 : Shape := ⟨2, ![5000, 1]⟩
abbrev S32 : Shape := ⟨1, ![32]⟩
abbrev S32x128 : Shape := ⟨2, ![32, 128]⟩
abbrev S32x1 : Shape := ⟨2, ![32, 1]⟩

abbrev nBuf : Space → Nat
  | .hbm => 399
  | .vmem => 78
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S2x128x128, .f32⟩
  | 6 => ⟨S2x128, .f32⟩
  | 7 => ⟨S3x128, .f32⟩
  | 8 => ⟨S3x128, .f32⟩
  | 9 => ⟨S2x128x128, .f32⟩
  | 10 => ⟨S2x128, .f32⟩
  | 11 => ⟨S2x128, .f32⟩
  | 12 => ⟨S2x128, .f32⟩
  | 13 => ⟨S128x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S50000, .f32⟩
  | 30 => ⟨S50000x1, .f32⟩
  | 31 => ⟨S1x128x128, .f32⟩
  | 32 => ⟨S128x128, .f32⟩
  | 33 => ⟨S1x128x128, .f32⟩
  | 34 => ⟨S128x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000, .f32⟩
  | 62 => ⟨S800000, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S1, .i32⟩
  | 72 => ⟨S_, .i32⟩
  | 73 => ⟨S800000x1, .i32⟩
  | 74 => ⟨S800000x1, .i1⟩
  | 75 => ⟨S1x1, .i32⟩
  | 76 => ⟨S800000x1, .i32⟩
  | 77 => ⟨S800000x1, .i1⟩
  | 78 => ⟨S800000x1, .i1⟩
  | 79 => ⟨S_, .i1⟩
  | 80 => ⟨S800000, .i1⟩
  | 81 => ⟨S800000x128, .f32⟩
  | 82 => ⟨S800000x128, .i1⟩
  | 83 => ⟨S_, .f32⟩
  | 84 => ⟨S800000x128, .f32⟩
  | 85 => ⟨S800000x128, .f32⟩
  | 86 => ⟨S800000x1, .f32⟩
  | 87 => ⟨S800000x128, .f32⟩
  | 88 => ⟨S800000x128, .f32⟩
  | 89 => ⟨S_, .f32⟩
  | 90 => ⟨S50000x128, .f32⟩
  | 91 => ⟨S800000x1, .i32⟩
  | 92 => ⟨S50000x128, .f32⟩
  | 93 => ⟨S1x128, .f32⟩
  | 94 => ⟨S50000x128, .f32⟩
  | 95 => ⟨S1x128, .f32⟩
  | 96 => ⟨S1x128, .f32⟩
  | 97 => ⟨S128, .f32⟩
  | 98 => ⟨S_, .f32⟩
  | 99 => ⟨S128, .f32⟩
  | 100 => ⟨S128, .f32⟩
  | 101 => ⟨S128, .f32⟩
  | 102 => ⟨S_, .f32⟩
  | 103 => ⟨S128, .f32⟩
  | 104 => ⟨S128, .f32⟩
  | 105 => ⟨S128, .f32⟩
  | 106 => ⟨S128, .f32⟩
  | 107 => ⟨S1x128, .f32⟩
  | 108 => ⟨S1x128, .f32⟩
  | 109 => ⟨S1x128, .f32⟩
  | 110 => ⟨S1x128, .f32⟩
  | 111 => ⟨S50000x128, .f32⟩
  | 112 => ⟨S1x128, .f32⟩
  | 113 => ⟨S128, .f32⟩
  | 114 => ⟨S1x128, .f32⟩
  | 115 => ⟨S128, .f32⟩
  | 116 => ⟨S50000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S_, .i32⟩
  | 127 => ⟨S800000, .i32⟩
  | _ => ⟨S50000x64, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S1, .i32⟩
  | 17 => ⟨S_, .i32⟩
  | 18 => ⟨S800000x1, .i32⟩
  | 19 => ⟨S800000x1, .i1⟩
  | 20 => ⟨S1x1, .i32⟩
  | 21 => ⟨S800000x1, .i32⟩
  | 22 => ⟨S800000x1, .i1⟩
  | 23 => ⟨S800000x1, .i1⟩
  | 24 => ⟨S_, .i1⟩
  | 25 => ⟨S800000, .i1⟩
  | 26 => ⟨S800000x128, .f32⟩
  | 27 => ⟨S800000x128, .i1⟩
  | 28 => ⟨S_, .f32⟩
  | 29 => ⟨S800000x128, .f32⟩
  | 30 => ⟨S800000x128, .f32⟩
  | 31 => ⟨S800000x1, .f32⟩
  | 32 => ⟨S800000x128, .f32⟩
  | 33 => ⟨S800000x128, .f32⟩
  | 34 => ⟨S_, .f32⟩
  | 35 => ⟨S50000x128, .f32⟩
  | 36 => ⟨S800000x1, .i32⟩
  | 37 => ⟨S50000x128, .f32⟩
  | 38 => ⟨S1x128, .f32⟩
  | 39 => ⟨S50000x128, .f32⟩
  | 40 => ⟨S1x128, .f32⟩
  | 41 => ⟨S1x128, .f32⟩
  | 42 => ⟨S128, .f32⟩
  | 43 => ⟨S_, .f32⟩
  | 44 => ⟨S128, .f32⟩
  | 45 => ⟨S128, .f32⟩
  | 46 => ⟨S128, .f32⟩
  | 47 => ⟨S_, .f32⟩
  | 48 => ⟨S128, .f32⟩
  | 49 => ⟨S128, .f32⟩
  | 50 => ⟨S128, .f32⟩
  | 51 => ⟨S128, .f32⟩
  | 52 => ⟨S1x128, .f32⟩
  | 53 => ⟨S1x128, .f32⟩
  | 54 => ⟨S1x128, .f32⟩
  | 55 => ⟨S1x128, .f32⟩
  | 56 => ⟨S50000x128, .f32⟩
  | 57 => ⟨S1x128, .f32⟩
  | 58 => ⟨S128, .f32⟩
  | 59 => ⟨S1x128, .f32⟩
  | 60 => ⟨S128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000, .f32⟩
  | 80 => ⟨S800000, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S1, .i32⟩
  | 90 => ⟨S_, .i32⟩
  | 91 => ⟨S800000x1, .i32⟩
  | 92 => ⟨S800000x1, .i1⟩
  | 93 => ⟨S1x1, .i32⟩
  | 94 => ⟨S800000x1, .i32⟩
  | 95 => ⟨S800000x1, .i1⟩
  | 96 => ⟨S800000x1, .i1⟩
  | 97 => ⟨S_, .i1⟩
  | 98 => ⟨S800000, .i1⟩
  | 99 => ⟨S800000x128, .f32⟩
  | 100 => ⟨S800000x128, .i1⟩
  | 101 => ⟨S_, .f32⟩
  | 102 => ⟨S800000x128, .f32⟩
  | 103 => ⟨S800000x128, .f32⟩
  | 104 => ⟨S800000x1, .f32⟩
  | 105 => ⟨S800000x128, .f32⟩
  | 106 => ⟨S800000x128, .f32⟩
  | 107 => ⟨S_, .f32⟩
  | 108 => ⟨S50000x128, .f32⟩
  | 109 => ⟨S800000x1, .i32⟩
  | 110 => ⟨S50000x128, .f32⟩
  | 111 => ⟨S1x128, .f32⟩
  | 112 => ⟨S50000x128, .f32⟩
  | 113 => ⟨S1x128, .f32⟩
  | 114 => ⟨S1x128, .f32⟩
  | 115 => ⟨S128, .f32⟩
  | 116 => ⟨S_, .f32⟩
  | 117 => ⟨S128, .f32⟩
  | 118 => ⟨S128, .f32⟩
  | 119 => ⟨S128, .f32⟩
  | 120 => ⟨S_, .f32⟩
  | 121 => ⟨S128, .f32⟩
  | 122 => ⟨S128, .f32⟩
  | 123 => ⟨S128, .f32⟩
  | 124 => ⟨S128, .f32⟩
  | 125 => ⟨S1x128, .f32⟩
  | 126 => ⟨S1x128, .f32⟩
  | 127 => ⟨S1x128, .f32⟩
  | _ => ⟨S50000x64, .f32⟩

abbrev hbmTy0_2 (i : Nat) : BufTy := match i % 128 with
  | 0 => ⟨S1x128, .f32⟩
  | 1 => ⟨S50000x128, .f32⟩
  | 2 => ⟨S_, .f32⟩
  | 3 => ⟨S50000, .f32⟩
  | 4 => ⟨S_, .f32⟩
  | 5 => ⟨S32, .f32⟩
  | 6 => ⟨S50000x1, .i32⟩
  | 7 => ⟨S32, .f32⟩
  | 8 => ⟨S_, .f32⟩
  | 9 => ⟨S32x128, .f32⟩
  | 10 => ⟨S50000x1, .i32⟩
  | 11 => ⟨S32x128, .f32⟩
  | 12 => ⟨S_, .f32⟩
  | 13 => ⟨S32, .f32⟩
  | 14 => ⟨S32, .f32⟩
  | 15 => ⟨S32x1, .f32⟩
  | 16 => ⟨S32x128, .f32⟩
  | 17 => ⟨S32x128, .f32⟩
  | 18 => ⟨S1x128x128, .f32⟩
  | 19 => ⟨S128x128, .f32⟩
  | 20 => ⟨S32x128, .f32⟩
  | 21 => ⟨S1x128, .f32⟩
  | 22 => ⟨S128, .f32⟩
  | 23 => ⟨S1x128, .f32⟩
  | 24 => ⟨S32x128, .f32⟩
  | 25 => ⟨S32x128, .f32⟩
  | 26 => ⟨S_, .f32⟩
  | 27 => ⟨S128, .f32⟩
  | 28 => ⟨S_, .f32⟩
  | 29 => ⟨S128, .f32⟩
  | 30 => ⟨S128, .f32⟩
  | 31 => ⟨S_, .i32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S32x128, .f32⟩
  | 39 => ⟨S32x128, .f32⟩
  | 40 => ⟨S32x128, .f32⟩
  | 41 => ⟨S_, .f32⟩
  | 42 => ⟨S_, .f32⟩
  | 43 => ⟨S_, .f32⟩
  | 44 => ⟨S_, .f32⟩
  | 45 => ⟨S128, .f32⟩
  | 46 => ⟨S128, .f32⟩
  | 47 => ⟨S128, .f32⟩
  | 48 => ⟨S_, .f32⟩
  | 49 => ⟨S_, .i1⟩
  | 50 => ⟨S_, .f32⟩
  | 51 => ⟨S_, .f32⟩
  | 52 => ⟨S128, .f32⟩
  | 53 => ⟨S128, .f32⟩
  | 54 => ⟨S1x128, .f32⟩
  | 55 => ⟨S32x128, .f32⟩
  | 56 => ⟨S32x128, .f32⟩
  | 57 => ⟨S_, .f32⟩
  | 58 => ⟨S128, .f32⟩
  | 59 => ⟨S128, .f32⟩
  | 60 => ⟨S128, .f32⟩
  | 61 => ⟨S1x128, .f32⟩
  | 62 => ⟨S32x128, .f32⟩
  | 63 => ⟨S32x128, .f32⟩
  | 64 => ⟨S1x128, .f32⟩
  | 65 => ⟨S128, .f32⟩
  | 66 => ⟨S1x128, .f32⟩
  | 67 => ⟨S32x128, .f32⟩
  | 68 => ⟨S32x128, .f32⟩
  | 69 => ⟨S1x128, .f32⟩
  | 70 => ⟨S128, .f32⟩
  | 71 => ⟨S1x128, .f32⟩
  | 72 => ⟨S32x128, .f32⟩
  | 73 => ⟨S32x128, .f32⟩
  | 74 => ⟨S_, .f32⟩
  | 75 => ⟨S32x128, .f32⟩
  | 76 => ⟨S32x128, .f32⟩
  | 77 => ⟨S1x128x128, .f32⟩
  | 78 => ⟨S128x128, .f32⟩
  | 79 => ⟨S32x128, .f32⟩
  | 80 => ⟨S1x128, .f32⟩
  | 81 => ⟨S128, .f32⟩
  | 82 => ⟨S1x128, .f32⟩
  | 83 => ⟨S32x128, .f32⟩
  | 84 => ⟨S32x128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S32x128, .f32⟩
  | 98 => ⟨S32x128, .f32⟩
  | 99 => ⟨S32x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S32x128, .f32⟩
  | 115 => ⟨S32x128, .f32⟩
  | 116 => ⟨S_, .f32⟩
  | 117 => ⟨S128, .f32⟩
  | 118 => ⟨S128, .f32⟩
  | 119 => ⟨S128, .f32⟩
  | 120 => ⟨S1x128, .f32⟩
  | 121 => ⟨S32x128, .f32⟩
  | 122 => ⟨S32x128, .f32⟩
  | 123 => ⟨S1x128, .f32⟩
  | 124 => ⟨S128, .f32⟩
  | 125 => ⟨S1x128, .f32⟩
  | 126 => ⟨S32x128, .f32⟩
  | 127 => ⟨S32x128, .f32⟩
  | _ => ⟨S50000x64, .f32⟩

abbrev hbmTy0_3 (i : Nat) : BufTy := match i % 128 with
  | 0 => ⟨S1x128, .f32⟩
  | 1 => ⟨S128, .f32⟩
  | 2 => ⟨S1x128, .f32⟩
  | 3 => ⟨S32x128, .f32⟩
  | 4 => ⟨S32x128, .f32⟩
  | 5 => ⟨S_, .f32⟩
  | 6 => ⟨S32x128, .f32⟩
  | 7 => ⟨S32x128, .f32⟩
  | 8 => ⟨S32x1, .f32⟩
  | 9 => ⟨S1x1, .f32⟩
  | 10 => ⟨S32x1, .f32⟩
  | 11 => ⟨S32x1, .f32⟩
  | 12 => ⟨S_, .f32⟩
  | 13 => ⟨S32x1, .f32⟩
  | 14 => ⟨S32x1, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S5000x1, .f32⟩
  | .local _ .vmem, ⟨37, _⟩ => ⟨S5000x1, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S1x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S5000x128, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S1x128, .f32⟩
  | .local _ .vmem, ⟨62, _⟩ => ⟨S5000x1, .f32⟩
  | .local _ .vmem, ⟨63, _⟩ => ⟨S5000x1, .f32⟩
  | .local _ .vmem, ⟨64, _⟩ => ⟨S5000x128, .f32⟩
  | .local _ .vmem, ⟨65, _⟩ => ⟨S5000x128, .f32⟩
  | .local _ .vmem, ⟨66, _⟩ => ⟨S1x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S1x128, .f32⟩
  | .local _ .vmem, ⟨73, _⟩ => ⟨S1x128, .f32⟩
  | .local _ .vmem, ⟨74, _⟩ => ⟨S1x128, .f32⟩
  | .local _ .vmem, ⟨75, _⟩ => ⟨S1x128, .f32⟩
  | .local _ .vmem, ⟨76, _⟩ => ⟨S5000x128, .f32⟩
  | .local _ .vmem, ⟨77, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_3 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_call0_c : Ref sig .tc := ⟨.hbm, 63, rfl⟩
abbrev main_call0_v0 : Ref sig .tc := ⟨.hbm, 64, rfl⟩
abbrev main_call0_v1 : Ref sig .tc := ⟨.hbm, 65, rfl⟩
abbrev main_call0_c_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_c_1 : Ref sig .tc := ⟨.hbm, 71, rfl⟩
abbrev main_call0_c_2 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_3 : Ref sig .tc := ⟨.hbm, 79, rfl⟩
abbrev main_call0_v12 : Ref sig .tc := ⟨.hbm, 80, rfl⟩
abbrev main_call0_v13 : Ref sig .tc := ⟨.hbm, 81, rfl⟩
abbrev main_call0_v14 : Ref sig .tc := ⟨.hbm, 82, rfl⟩
abbrev main_call0_cst : Ref sig .tc := ⟨.hbm, 83, rfl⟩
abbrev main_call0_v15 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_5 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49_0 : Ref sig .tc := ⟨.hbm, 94, rfl⟩
abbrev main_v49_1 : Ref sig .tc := ⟨.hbm, 95, rfl⟩
abbrev main_v49_2 : Ref sig .tc := ⟨.hbm, 96, rfl⟩
abbrev main_v50 : Ref sig .tc := ⟨.hbm, 97, rfl⟩
abbrev main_cst_6 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_7 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_c_8 : Ref sig .tc := ⟨.hbm, 117, rfl⟩
abbrev main_v68 : Ref sig .tc := ⟨.hbm, 118, rfl⟩
abbrev main_v69 : Ref sig .tc := ⟨.hbm, 119, rfl⟩
abbrev main_c_9 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_c_10 : Ref sig .tc := ⟨.hbm, 126, rfl⟩
abbrev main_v75 : Ref sig .tc := ⟨.hbm, 127, rfl⟩
abbrev main_v76 : Ref sig .tc := ⟨.hbm, 128, rfl⟩
abbrev main_c_11 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_call1_c : Ref sig .tc := ⟨.hbm, 136, rfl⟩
abbrev main_call1_v0 : Ref sig .tc := ⟨.hbm, 137, rfl⟩
abbrev main_call1_v1 : Ref sig .tc := ⟨.hbm, 138, rfl⟩
abbrev main_call1_c_0 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_call1_v5 : Ref sig .tc := ⟨.hbm, 143, rfl⟩
abbrev main_call1_c_1 : Ref sig .tc := ⟨.hbm, 144, rfl⟩
abbrev main_call1_c_2 : Ref sig .tc := ⟨.hbm, 145, rfl⟩
abbrev main_call1_v6 : Ref sig .tc := ⟨.hbm, 146, rfl⟩
abbrev main_call1_v7 : Ref sig .tc := ⟨.hbm, 147, rfl⟩
abbrev main_call1_v8 : Ref sig .tc := ⟨.hbm, 148, rfl⟩
abbrev main_call1_v9 : Ref sig .tc := ⟨.hbm, 149, rfl⟩
abbrev main_call1_v10 : Ref sig .tc := ⟨.hbm, 150, rfl⟩
abbrev main_call1_v11 : Ref sig .tc := ⟨.hbm, 151, rfl⟩
abbrev main_call1_c_3 : Ref sig .tc := ⟨.hbm, 152, rfl⟩
abbrev main_call1_v12 : Ref sig .tc := ⟨.hbm, 153, rfl⟩
abbrev main_call1_v13 : Ref sig .tc := ⟨.hbm, 154, rfl⟩
abbrev main_call1_v14 : Ref sig .tc := ⟨.hbm, 155, rfl⟩
abbrev main_call1_cst : Ref sig .tc := ⟨.hbm, 156, rfl⟩
abbrev main_call1_v15 : Ref sig .tc := ⟨.hbm, 157, rfl⟩
abbrev main_v83 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_cst_12 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91_0 : Ref sig .tc := ⟨.hbm, 167, rfl⟩
abbrev main_v91_1 : Ref sig .tc := ⟨.hbm, 168, rfl⟩
abbrev main_v91_2 : Ref sig .tc := ⟨.hbm, 169, rfl⟩
abbrev main_v92 : Ref sig .tc := ⟨.hbm, 170, rfl⟩
abbrev main_cst_13 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_cst_14 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_c_15 : Ref sig .tc := ⟨.hbm, 190, rfl⟩
abbrev main_v110 : Ref sig .tc := ⟨.hbm, 191, rfl⟩
abbrev main_v111 : Ref sig .tc := ⟨.hbm, 192, rfl⟩
abbrev main_c_16 : Ref sig .tc := ⟨.hbm, 193, rfl⟩
abbrev main_v112 : Ref sig .tc := ⟨.hbm, 194, rfl⟩
abbrev main_v113 : Ref sig .tc := ⟨.hbm, 195, rfl⟩
abbrev main_v114 : Ref sig .tc := ⟨.hbm, 196, rfl⟩
abbrev main_v115 : Ref sig .tc := ⟨.hbm, 197, rfl⟩
abbrev main_v116 : Ref sig .tc := ⟨.hbm, 198, rfl⟩
abbrev main_c_17 : Ref sig .tc := ⟨.hbm, 199, rfl⟩
abbrev main_v117 : Ref sig .tc := ⟨.hbm, 200, rfl⟩
abbrev main_v118 : Ref sig .tc := ⟨.hbm, 201, rfl⟩
abbrev main_c_18 : Ref sig .tc := ⟨.hbm, 202, rfl⟩
abbrev main_v119 : Ref sig .tc := ⟨.hbm, 203, rfl⟩
abbrev main_v120 : Ref sig .tc := ⟨.hbm, 204, rfl⟩
abbrev main_v121 : Ref sig .tc := ⟨.hbm, 205, rfl⟩
abbrev main_v122 : Ref sig .tc := ⟨.hbm, 206, rfl⟩
abbrev main_v123 : Ref sig .tc := ⟨.hbm, 207, rfl⟩
abbrev main_v124 : Ref sig .tc := ⟨.hbm, 208, rfl⟩
abbrev main_call2_c : Ref sig .tc := ⟨.hbm, 209, rfl⟩
abbrev main_call2_v0 : Ref sig .tc := ⟨.hbm, 210, rfl⟩
abbrev main_call2_v1 : Ref sig .tc := ⟨.hbm, 211, rfl⟩
abbrev main_call2_c_0 : Ref sig .tc := ⟨.hbm, 212, rfl⟩
abbrev main_call2_v2 : Ref sig .tc := ⟨.hbm, 213, rfl⟩
abbrev main_call2_v3 : Ref sig .tc := ⟨.hbm, 214, rfl⟩
abbrev main_call2_v4 : Ref sig .tc := ⟨.hbm, 215, rfl⟩
abbrev main_call2_v5 : Ref sig .tc := ⟨.hbm, 216, rfl⟩
abbrev main_call2_c_1 : Ref sig .tc := ⟨.hbm, 217, rfl⟩
abbrev main_call2_c_2 : Ref sig .tc := ⟨.hbm, 218, rfl⟩
abbrev main_call2_v6 : Ref sig .tc := ⟨.hbm, 219, rfl⟩
abbrev main_call2_v7 : Ref sig .tc := ⟨.hbm, 220, rfl⟩
abbrev main_call2_v8 : Ref sig .tc := ⟨.hbm, 221, rfl⟩
abbrev main_call2_v9 : Ref sig .tc := ⟨.hbm, 222, rfl⟩
abbrev main_call2_v10 : Ref sig .tc := ⟨.hbm, 223, rfl⟩
abbrev main_call2_v11 : Ref sig .tc := ⟨.hbm, 224, rfl⟩
abbrev main_call2_c_3 : Ref sig .tc := ⟨.hbm, 225, rfl⟩
abbrev main_call2_v12 : Ref sig .tc := ⟨.hbm, 226, rfl⟩
abbrev main_call2_v13 : Ref sig .tc := ⟨.hbm, 227, rfl⟩
abbrev main_call2_v14 : Ref sig .tc := ⟨.hbm, 228, rfl⟩
abbrev main_call2_cst : Ref sig .tc := ⟨.hbm, 229, rfl⟩
abbrev main_call2_v15 : Ref sig .tc := ⟨.hbm, 230, rfl⟩
abbrev main_v125 : Ref sig .tc := ⟨.hbm, 231, rfl⟩
abbrev main_v126 : Ref sig .tc := ⟨.hbm, 232, rfl⟩
abbrev main_v127 : Ref sig .tc := ⟨.hbm, 233, rfl⟩
abbrev main_v128 : Ref sig .tc := ⟨.hbm, 234, rfl⟩
abbrev main_cst_19 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_v133_0 : Ref sig .tc := ⟨.hbm, 240, rfl⟩
abbrev main_v133_1 : Ref sig .tc := ⟨.hbm, 241, rfl⟩
abbrev main_v133_2 : Ref sig .tc := ⟨.hbm, 242, rfl⟩
abbrev main_v134 : Ref sig .tc := ⟨.hbm, 243, rfl⟩
abbrev main_cst_20 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_cst_21 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_cst_22 : Ref sig .tc := ⟨.hbm, 258, rfl⟩
abbrev main_v147 : Ref sig .tc := ⟨.hbm, 259, rfl⟩
abbrev main_cst_23 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_cst_24 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_cst_25 : Ref sig .tc := ⟨.hbm, 268, rfl⟩
abbrev main_v154 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩
abbrev main_v160 : Ref sig .tc := ⟨.hbm, 275, rfl⟩
abbrev main_v161 : Ref sig .tc := ⟨.hbm, 276, rfl⟩
abbrev main_v162 : Ref sig .tc := ⟨.hbm, 277, rfl⟩
abbrev main_v163 : Ref sig .tc := ⟨.hbm, 278, rfl⟩
abbrev main_v164 : Ref sig .tc := ⟨.hbm, 279, rfl⟩
abbrev main_v165 : Ref sig .tc := ⟨.hbm, 280, rfl⟩
abbrev main_v166 : Ref sig .tc := ⟨.hbm, 281, rfl⟩
abbrev main_cst_26 : Ref sig .tc := ⟨.hbm, 282, rfl⟩
abbrev main_v167 : Ref sig .tc := ⟨.hbm, 283, rfl⟩
abbrev main_cst_27 : Ref sig .tc := ⟨.hbm, 284, rfl⟩
abbrev main_v168 : Ref sig .tc := ⟨.hbm, 285, rfl⟩
abbrev main_v169 : Ref sig .tc := ⟨.hbm, 286, rfl⟩
abbrev main_c_28 : Ref sig .tc := ⟨.hbm, 287, rfl⟩
abbrev main_call3_cst : Ref sig .tc := ⟨.hbm, 288, rfl⟩
abbrev main_call3_v0 : Ref sig .tc := ⟨.hbm, 289, rfl⟩
abbrev main_call3_v1 : Ref sig .tc := ⟨.hbm, 290, rfl⟩
abbrev main_call3_cst_0 : Ref sig .tc := ⟨.hbm, 291, rfl⟩
abbrev main_call3_v2 : Ref sig .tc := ⟨.hbm, 292, rfl⟩
abbrev main_call3_v3 : Ref sig .tc := ⟨.hbm, 293, rfl⟩
abbrev main_call3_v4 : Ref sig .tc := ⟨.hbm, 294, rfl⟩
abbrev main_call3_v5 : Ref sig .tc := ⟨.hbm, 295, rfl⟩
abbrev main_call3_v6 : Ref sig .tc := ⟨.hbm, 296, rfl⟩
abbrev main_call3_v7 : Ref sig .tc := ⟨.hbm, 297, rfl⟩
abbrev main_call3_cst_1 : Ref sig .tc := ⟨.hbm, 298, rfl⟩
abbrev main_call3_v8 : Ref sig .tc := ⟨.hbm, 299, rfl⟩
abbrev main_call3_cst_2 : Ref sig .tc := ⟨.hbm, 300, rfl⟩
abbrev main_call3_v9 : Ref sig .tc := ⟨.hbm, 301, rfl⟩
abbrev main_call3_v10 : Ref sig .tc := ⟨.hbm, 302, rfl⟩
abbrev main_call3_v11 : Ref sig .tc := ⟨.hbm, 303, rfl⟩
abbrev main_call3_cst_3 : Ref sig .tc := ⟨.hbm, 304, rfl⟩
abbrev main_call3_v12 : Ref sig .tc := ⟨.hbm, 305, rfl⟩
abbrev main_call3_cst_4 : Ref sig .tc := ⟨.hbm, 306, rfl⟩
abbrev main_call3_call0_v0 : Ref sig .tc := ⟨.hbm, 307, rfl⟩
abbrev main_call3_call0_v1 : Ref sig .tc := ⟨.hbm, 308, rfl⟩
abbrev main_v170 : Ref sig .tc := ⟨.hbm, 309, rfl⟩
abbrev main_v171 : Ref sig .tc := ⟨.hbm, 310, rfl⟩
abbrev main_v172 : Ref sig .tc := ⟨.hbm, 311, rfl⟩
abbrev main_v173 : Ref sig .tc := ⟨.hbm, 312, rfl⟩
abbrev main_cst_29 : Ref sig .tc := ⟨.hbm, 313, rfl⟩
abbrev main_v174 : Ref sig .tc := ⟨.hbm, 314, rfl⟩
abbrev main_v175 : Ref sig .tc := ⟨.hbm, 315, rfl⟩
abbrev main_v176 : Ref sig .tc := ⟨.hbm, 316, rfl⟩
abbrev main_v177 : Ref sig .tc := ⟨.hbm, 317, rfl⟩
abbrev main_v178 : Ref sig .tc := ⟨.hbm, 318, rfl⟩
abbrev main_v179 : Ref sig .tc := ⟨.hbm, 319, rfl⟩
abbrev main_v180 : Ref sig .tc := ⟨.hbm, 320, rfl⟩
abbrev main_v181 : Ref sig .tc := ⟨.hbm, 321, rfl⟩
abbrev main_v182 : Ref sig .tc := ⟨.hbm, 322, rfl⟩
abbrev main_v183 : Ref sig .tc := ⟨.hbm, 323, rfl⟩
abbrev main_v184 : Ref sig .tc := ⟨.hbm, 324, rfl⟩
abbrev main_v185 : Ref sig .tc := ⟨.hbm, 325, rfl⟩
abbrev main_v186 : Ref sig .tc := ⟨.hbm, 326, rfl⟩
abbrev main_v187 : Ref sig .tc := ⟨.hbm, 327, rfl⟩
abbrev main_v188 : Ref sig .tc := ⟨.hbm, 328, rfl⟩
abbrev main_v189 : Ref sig .tc := ⟨.hbm, 329, rfl⟩
abbrev main_call4_cst : Ref sig .tc := ⟨.hbm, 330, rfl⟩
abbrev main_call4_v0 : Ref sig .tc := ⟨.hbm, 331, rfl⟩
abbrev main_v190 : Ref sig .tc := ⟨.hbm, 332, rfl⟩
abbrev main_v191 : Ref sig .tc := ⟨.hbm, 333, rfl⟩
abbrev main_v192 : Ref sig .tc := ⟨.hbm, 334, rfl⟩
abbrev main_v193 : Ref sig .tc := ⟨.hbm, 335, rfl⟩
abbrev main_v194 : Ref sig .tc := ⟨.hbm, 336, rfl⟩
abbrev main_v195 : Ref sig .tc := ⟨.hbm, 337, rfl⟩
abbrev main_v196 : Ref sig .tc := ⟨.hbm, 338, rfl⟩
abbrev main_v197 : Ref sig .tc := ⟨.hbm, 339, rfl⟩
abbrev main_v198 : Ref sig .tc := ⟨.hbm, 340, rfl⟩
abbrev main_cst_30 : Ref sig .tc := ⟨.hbm, 341, rfl⟩
abbrev main_v199 : Ref sig .tc := ⟨.hbm, 342, rfl⟩
abbrev main_cst_31 : Ref sig .tc := ⟨.hbm, 343, rfl⟩
abbrev main_v200 : Ref sig .tc := ⟨.hbm, 344, rfl⟩
abbrev main_v201 : Ref sig .tc := ⟨.hbm, 345, rfl⟩
abbrev main_c_32 : Ref sig .tc := ⟨.hbm, 346, rfl⟩
abbrev main_call5_cst : Ref sig .tc := ⟨.hbm, 347, rfl⟩
abbrev main_call5_v0 : Ref sig .tc := ⟨.hbm, 348, rfl⟩
abbrev main_call5_v1 : Ref sig .tc := ⟨.hbm, 349, rfl⟩
abbrev main_call5_cst_0 : Ref sig .tc := ⟨.hbm, 350, rfl⟩
abbrev main_call5_v2 : Ref sig .tc := ⟨.hbm, 351, rfl⟩
abbrev main_call5_v3 : Ref sig .tc := ⟨.hbm, 352, rfl⟩
abbrev main_call5_v4 : Ref sig .tc := ⟨.hbm, 353, rfl⟩
abbrev main_call5_v5 : Ref sig .tc := ⟨.hbm, 354, rfl⟩
abbrev main_call5_v6 : Ref sig .tc := ⟨.hbm, 355, rfl⟩
abbrev main_call5_v7 : Ref sig .tc := ⟨.hbm, 356, rfl⟩
abbrev main_call5_cst_1 : Ref sig .tc := ⟨.hbm, 357, rfl⟩
abbrev main_call5_v8 : Ref sig .tc := ⟨.hbm, 358, rfl⟩
abbrev main_call5_cst_2 : Ref sig .tc := ⟨.hbm, 359, rfl⟩
abbrev main_call5_v9 : Ref sig .tc := ⟨.hbm, 360, rfl⟩
abbrev main_call5_v10 : Ref sig .tc := ⟨.hbm, 361, rfl⟩
abbrev main_call5_v11 : Ref sig .tc := ⟨.hbm, 362, rfl⟩
abbrev main_call5_cst_3 : Ref sig .tc := ⟨.hbm, 363, rfl⟩
abbrev main_call5_v12 : Ref sig .tc := ⟨.hbm, 364, rfl⟩
abbrev main_call5_cst_4 : Ref sig .tc := ⟨.hbm, 365, rfl⟩
abbrev main_call5_call0_v0 : Ref sig .tc := ⟨.hbm, 366, rfl⟩
abbrev main_call5_call0_v1 : Ref sig .tc := ⟨.hbm, 367, rfl⟩
abbrev main_v202 : Ref sig .tc := ⟨.hbm, 368, rfl⟩
abbrev main_v203 : Ref sig .tc := ⟨.hbm, 369, rfl⟩
abbrev main_v204 : Ref sig .tc := ⟨.hbm, 370, rfl⟩
abbrev main_v205 : Ref sig .tc := ⟨.hbm, 371, rfl⟩
abbrev main_cst_33 : Ref sig .tc := ⟨.hbm, 372, rfl⟩
abbrev main_v206 : Ref sig .tc := ⟨.hbm, 373, rfl⟩
abbrev main_v207 : Ref sig .tc := ⟨.hbm, 374, rfl⟩
abbrev main_v208 : Ref sig .tc := ⟨.hbm, 375, rfl⟩
abbrev main_v209 : Ref sig .tc := ⟨.hbm, 376, rfl⟩
abbrev main_v210 : Ref sig .tc := ⟨.hbm, 377, rfl⟩
abbrev main_v211 : Ref sig .tc := ⟨.hbm, 378, rfl⟩
abbrev main_v212 : Ref sig .tc := ⟨.hbm, 379, rfl⟩
abbrev main_v213 : Ref sig .tc := ⟨.hbm, 380, rfl⟩
abbrev main_v214 : Ref sig .tc := ⟨.hbm, 381, rfl⟩
abbrev main_v215 : Ref sig .tc := ⟨.hbm, 382, rfl⟩
abbrev main_v216 : Ref sig .tc := ⟨.hbm, 383, rfl⟩
abbrev main_v217 : Ref sig .tc := ⟨.hbm, 384, rfl⟩
abbrev main_v218 : Ref sig .tc := ⟨.hbm, 385, rfl⟩
abbrev main_v219 : Ref sig .tc := ⟨.hbm, 386, rfl⟩
abbrev main_v220 : Ref sig .tc := ⟨.hbm, 387, rfl⟩
abbrev main_v221 : Ref sig .tc := ⟨.hbm, 388, rfl⟩
abbrev main_call6_cst : Ref sig .tc := ⟨.hbm, 389, rfl⟩
abbrev main_call6_v0 : Ref sig .tc := ⟨.hbm, 390, rfl⟩
abbrev main_v222 : Ref sig .tc := ⟨.hbm, 391, rfl⟩
abbrev main_v223 : Ref sig .tc := ⟨.hbm, 392, rfl⟩
abbrev main_v224 : Ref sig .tc := ⟨.hbm, 393, rfl⟩
abbrev main_v225 : Ref sig .tc := ⟨.hbm, 394, rfl⟩
abbrev main_v226 : Ref sig .tc := ⟨.hbm, 395, rfl⟩
abbrev main_call7_cst : Ref sig .tc := ⟨.hbm, 396, rfl⟩
abbrev main_call7_v0 : Ref sig .tc := ⟨.hbm, 397, rfl⟩
abbrev main_v227 : Ref sig .tc := ⟨.hbm, 398, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg6_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg2_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc4_stg4_0 : Ref sig .tc := ⟨.vmem, 38, rfl⟩
abbrev cc4_stg4_1 : Ref sig .tc := ⟨.vmem, 39, rfl⟩
abbrev cc4_stg5_0 : Ref sig .tc := ⟨.vmem, 40, rfl⟩
abbrev cc4_stg6_0 : Ref sig .tc := ⟨.vmem, 41, rfl⟩
abbrev cc4_scratch0 : Ref sig .tc := ⟨.vmem, 42, rfl⟩
abbrev cc4_scratch1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg2_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg3_1 : Ref sig .tc := ⟨.vmem, 63, rfl⟩
abbrev cc7_stg4_0 : Ref sig .tc := ⟨.vmem, 64, rfl⟩
abbrev cc7_stg4_1 : Ref sig .tc := ⟨.vmem, 65, rfl⟩
abbrev cc7_stg5_0 : Ref sig .tc := ⟨.vmem, 66, rfl⟩
abbrev cc7_stg6_0 : Ref sig .tc := ⟨.vmem, 67, rfl⟩
abbrev cc7_scratch0 : Ref sig .tc := ⟨.vmem, 68, rfl⟩
abbrev cc7_scratch1 : Ref sig .tc := ⟨.vmem, 69, rfl⟩
abbrev cc8_stg0_0 : Ref sig .tc := ⟨.vmem, 70, rfl⟩
abbrev cc8_stg0_1 : Ref sig .tc := ⟨.vmem, 71, rfl⟩
abbrev cc8_stg1_0 : Ref sig .tc := ⟨.vmem, 72, rfl⟩
abbrev cc8_stg2_0 : Ref sig .tc := ⟨.vmem, 73, rfl⟩
abbrev cc8_stg3_0 : Ref sig .tc := ⟨.vmem, 74, rfl⟩
abbrev cc8_stg4_0 : Ref sig .tc := ⟨.vmem, 75, rfl⟩
abbrev cc8_stg5_0 : Ref sig .tc := ⟨.vmem, 76, rfl⟩
abbrev cc8_stg5_1 : Ref sig .tc := ⟨.vmem, 77, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37
abbrev cc4_sem5_0 : DmaSem sig := 38
abbrev cc4_sem6_0 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc7_sem0_0 : DmaSem sig := 53
abbrev cc7_sem0_1 : DmaSem sig := 54
abbrev cc7_sem1_0 : DmaSem sig := 55
abbrev cc7_sem1_1 : DmaSem sig := 56
abbrev cc7_sem2_0 : DmaSem sig := 57
abbrev cc7_sem3_0 : DmaSem sig := 58
abbrev cc7_sem3_1 : DmaSem sig := 59
abbrev cc7_sem4_0 : DmaSem sig := 60
abbrev cc7_sem4_1 : DmaSem sig := 61
abbrev cc7_sem5_0 : DmaSem sig := 62
abbrev cc7_sem6_0 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem4_0 : DmaSem sig := 69
abbrev cc8_sem5_0 : DmaSem sig := 70
abbrev cc8_sem5_1 : DmaSem sig := 71

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_19 : BitVec 32 := 0#32
  let v34 : BitVec 1 := Scalar.cmpi .ne v33 c0_i32_19
  v34

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_19 : BitVec 32 := 0#32
  let v34 : BitVec 1 := Scalar.cmpi .ne v33 c0_i32_19
  v34

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def k7_cond2 (i : grid7.Coords) : BitVec 1 :=
  let arg0 : BitVec 32 := BitVec.ofNat 32 (i 0).val
  let c9_i32 : BitVec 32 := 9#32
  let v32 : BitVec 1 := Scalar.cmpi .eq arg0 c9_i32
  let v33 : BitVec 32 := Scalar.extui v32
  let c0_i32_19 : BitVec 32 := 0#32
  let v34 : BitVec 1 := Scalar.cmpi .ne v33 c0_i32_19
  v34

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x1 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S5000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  slices_S2x128_S1x128_0_0 : S2x128.Slices ![0, 0] S1x128
  shapeCasts_S1x128_S128 : S1x128.ShapeCasts S128
  slices_S2x128_S1x128_1_0 : S2x128.Slices ![1, 0] S1x128
  slices_S3x128_S1x128_0_0 : S3x128.Slices ![0, 0] S1x128
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  reduces_S5000x128_S128 : S5000x128.Reduces [0] S128
  bcast_S_S128 : S_.BroadcastsInDim S128 (![] : Fin 0 → Fin S128.rank)
  slices_S3x128_S1x128_1_0 : S3x128.Slices ![1, 0] S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128_S1x128_2_0 : S3x128.Slices ![2, 0] S1x128
  bcast_S_S32 : S_.BroadcastsInDim S32 (![] : Fin 0 → Fin S32.rank)
  bcast_S50000_S50000x1_0 : S50000.BroadcastsInDim S50000x1 (![0] : Fin 1 → Fin S50000x1.rank)
  bcast_S_S32x128 : S_.BroadcastsInDim S32x128 (![] : Fin 0 → Fin S32x128.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  reducesTo_S32x128_S128_d0 : S32x128.ReducesTo [0] S128
  bcast_S_S1x128 : S_.BroadcastsInDim S1x128 (![] : Fin 0 → Fin S1x128.rank)
  bcast_S1x1_S32x1_0_1 : S1x1.BroadcastsInDim S32x1 (![0, 1] : Fin 2 → Fin S32x1.rank)
  bcast_S_S32x1 : S_.BroadcastsInDim S32x1 (![] : Fin 0 → Fin S32x1.rank)
  scatter_S50000_S800000x1_S800000_n_0_0_1_wf : ScatterDims.WF S50000 S800000x1 S800000 [] [0] [0] 1
  dot_S5000x64_S64x128_S5000x128_1_0_0_1_n_n_wf : DotDims.WF S5000x64 S64x128 S5000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  scatter_S32_S50000x1_S50000_n_0_0_1_wf : ScatterDims.WF S32 S50000x1 S50000 [] [0] [0] 1
  scatter_S32x128_S50000x1_S50000x128_1_0_0_1_wf : ScatterDims.WF S32x128 S50000x1 S50000x128 [1] [0] [0] 1
  dot_S32x128_S128x128_S32x128_1_0_0_1_n_n_wf : DotDims.WF S32x128 S128x128 S32x128 [1] [0] [0] [1] [] []
  dot_S32x128_S128x1_S32x1_1_0_0_1_n_n_wf : DotDims.WF S32x128 S128x1 S32x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x1.size a ≤ S50000x1.size a
  hwx7_3 : ∀ i : grid7.Coords, EltTy.bits .f32 = 32 ∨ (Rect.block (s := S50000x1) S5000x1.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x128.size a ≤ S50000x128.size a
  hwx7_4 : ∀ i : grid7.Coords, EltTy.bits .f32 = 32 ∨ (Rect.block (s := S50000x128) S5000x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S50000x128.size a
  hwx8_5 : ∀ i : grid8.Coords, EltTy.bits .f32 = 32 ∨ (Rect.block (s := S50000x128) S5000x128.size (cc8_transform_5 i) (hinb8_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x128_S128x1_S32x1_1_0_0_1_n_n : DotDims S32x128 S128x1 S32x1 where
  lhsContracting := [1]
  rhsContracting := [0]
  lhsNonContracting := [0]
  rhsNonContracting := [1]
  lhsBatch := []
  rhsBatch := []
  wf := dot_S32x128_S128x1_S32x1_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v49_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v49_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v89) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v90) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v12) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v91_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v91_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v91_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun i => !(k4_cond2 i == 1#1) | 6 => fun i => !(k4_cond2 i == 1#1) | ⟨_ + 7, h⟩ => absurd h (Nat.not_lt.2 (Nat.le_add_left _ _))

abbrev win5_0 : Pipeline.Window sig grid5 :=
  Pipeline.Window.ofSpec (Memref.whole main_v91_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v100) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v101) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v102) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v103) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v104) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v104) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v16) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v109) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v131) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v109) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v132) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v12) S5000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v133_0) S5000x128.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v133_1) S1x128.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v133_2) S1x128.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev idle7 : Fin 7 → grid7.Coords → Bool := fun | 0 => fun _ => false | 1 => fun _ => false | 2 => fun _ => false | 3 => fun _ => false | 4 => fun _ => false | 5 => fun i => !(k7_cond2 i == 1#1) | 6 => fun i => !(k7_cond2 i == 1#1) | ⟨_ + 7, h⟩ => absurd h (Nat.not_lt.2 (Nat.le_add_left _ _))

abbrev win8_0 : Pipeline.Window sig grid8 :=
  Pipeline.Window.ofSpec (Memref.whole main_v133_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v142) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v143) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v144) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v145) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v146) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S2x128x128 : Shape := ⟨3, ![2, 128, 128]⟩
abbrev S2x128 : Shape := ⟨2, ![2, 128]⟩
abbrev S3x128 : Shape := ⟨2, ![3, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128x128 : Shape := ⟨3, ![1, 128, 128]⟩
abbrev S128x128 : Shape := ⟨2, ![128, 128]⟩
abbrev S1x128 : Shape := ⟨2, ![1, 128]⟩
abbrev S50000x128 : Shape := ⟨2, ![50000, 128]⟩
abbrev S800000x128 : Shape := ⟨2, ![800000, 128]⟩
abbrev S50000x1 : Shape := ⟨2, ![50000, 1]⟩
abbrev S32 : Shape := ⟨1, ![32]⟩
abbrev S32x128 : Shape := ⟨2, ![32, 128]⟩
abbrev S32x1 : Shape := ⟨2, ![32, 1]⟩
abbrev S1x1 : Shape := ⟨2, ![1, 1]⟩

abbrev nBuf : Space → Nat
  | .hbm => 463
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S2x128x128, .f32⟩
  | 6 => ⟨S2x128, .f32⟩
  | 7 => ⟨S3x128, .f32⟩
  | 8 => ⟨S3x128, .f32⟩
  | 9 => ⟨S2x128x128, .f32⟩
  | 10 => ⟨S2x128, .f32⟩
  | 11 => ⟨S2x128, .f32⟩
  | 12 => ⟨S2x128, .f32⟩
  | 13 => ⟨S128x1, .f32⟩
  | 14 => ⟨S1, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000, .f32⟩
  | 21 => ⟨S_, .f32⟩
  | 22 => ⟨S50000, .f32⟩
  | 23 => ⟨S800000x1, .i32⟩
  | 24 => ⟨S50000, .f32⟩
  | 25 => ⟨S_, .f32⟩
  | 26 => ⟨S50000, .f32⟩
  | 27 => ⟨S50000, .f32⟩
  | 28 => ⟨S50000, .f32⟩
  | 29 => ⟨S1x128x128, .f32⟩
  | 30 => ⟨S128x128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S128, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000, .f32⟩
  | 56 => ⟨S800000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x128, .f32⟩
  | 66 => ⟨S800000x1, .f32⟩
  | 67 => ⟨S800000x128, .f32⟩
  | 68 => ⟨S800000x128, .f32⟩
  | 69 => ⟨S_, .f32⟩
  | 70 => ⟨S50000x128, .f32⟩
  | 71 => ⟨S800000x1, .i32⟩
  | 72 => ⟨S50000x128, .f32⟩
  | 73 => ⟨S50000, .f32⟩
  | 74 => ⟨S50000x1, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S128, .f32⟩
  | 83 => ⟨S1x128, .f32⟩
  | 84 => ⟨S128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S50000x128, .f32⟩
  | 98 => ⟨S50000x128, .f32⟩
  | 99 => ⟨S50000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S50000x128, .f32⟩
  | 115 => ⟨S50000x128, .f32⟩
  | 116 => ⟨S_, .f32⟩
  | 117 => ⟨S128, .f32⟩
  | 118 => ⟨S128, .f32⟩
  | 119 => ⟨S128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S1x128, .f32⟩
  | 127 => ⟨S50000x128, .f32⟩
  | _ => ⟨S50000x64, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S50000x128, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000, .f32⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x1, .f32⟩
  | 34 => ⟨S800000x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S1x128, .f32⟩
  | 49 => ⟨S128, .f32⟩
  | 50 => ⟨S1x128, .f32⟩
  | 51 => ⟨S128, .f32⟩
  | 52 => ⟨S_, .f32⟩
  | 53 => ⟨S128, .f32⟩
  | 54 => ⟨S_, .f32⟩
  | 55 => ⟨S128, .f32⟩
  | 56 => ⟨S128, .f32⟩
  | 57 => ⟨S_, .i32⟩
  | 58 => ⟨S_, .f32⟩
  | 59 => ⟨S128, .f32⟩
  | 60 => ⟨S1x128, .f32⟩
  | 61 => ⟨S_, .f32⟩
  | 62 => ⟨S1x128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S_, .f32⟩
  | 69 => ⟨S_, .f32⟩
  | 70 => ⟨S_, .f32⟩
  | 71 => ⟨S128, .f32⟩
  | 72 => ⟨S128, .f32⟩
  | 73 => ⟨S128, .f32⟩
  | 74 => ⟨S_, .f32⟩
  | 75 => ⟨S_, .i1⟩
  | 76 => ⟨S_, .f32⟩
  | 77 => ⟨S_, .f32⟩
  | 78 => ⟨S128, .f32⟩
  | 79 => ⟨S128, .f32⟩
  | 80 => ⟨S1x128, .f32⟩
  | 81 => ⟨S50000x128, .f32⟩
  | 82 => ⟨S50000x128, .f32⟩
  | 83 => ⟨S_, .f32⟩
  | 84 => ⟨S128, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S50000x128, .f32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000, .f32⟩
  | 118 => ⟨S800000, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x64, .f32⟩

abbrev hbmTy0_2 (i : Nat) : BufTy := match i % 128 with
  | 0 => ⟨S800000x1, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000, .f32⟩
  | 8 => ⟨S50000x1, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S1x128, .f32⟩
  | 16 => ⟨S128, .f32⟩
  | 17 => ⟨S1x128, .f32⟩
  | 18 => ⟨S128, .f32⟩
  | 19 => ⟨S_, .f32⟩
  | 20 => ⟨S128, .f32⟩
  | 21 => ⟨S_, .f32⟩
  | 22 => ⟨S128, .f32⟩
  | 23 => ⟨S128, .f32⟩
  | 24 => ⟨S_, .i32⟩
  | 25 => ⟨S_, .f32⟩
  | 26 => ⟨S128, .f32⟩
  | 27 => ⟨S1x128, .f32⟩
  | 28 => ⟨S_, .f32⟩
  | 29 => ⟨S1x128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S_, .f32⟩
  | 36 => ⟨S_, .f32⟩
  | 37 => ⟨S_, .f32⟩
  | 38 => ⟨S128, .f32⟩
  | 39 => ⟨S128, .f32⟩
  | 40 => ⟨S128, .f32⟩
  | 41 => ⟨S_, .f32⟩
  | 42 => ⟨S_, .i1⟩
  | 43 => ⟨S_, .f32⟩
  | 44 => ⟨S_, .f32⟩
  | 45 => ⟨S128, .f32⟩
  | 46 => ⟨S128, .f32⟩
  | 47 => ⟨S1x128, .f32⟩
  | 48 => ⟨S50000x128, .f32⟩
  | 49 => ⟨S50000x128, .f32⟩
  | 50 => ⟨S_, .f32⟩
  | 51 => ⟨S128, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S1x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S_, .f32⟩
  | 67 => ⟨S50000, .f32⟩
  | 68 => ⟨S_, .f32⟩
  | 69 => ⟨S32, .f32⟩
  | 70 => ⟨S50000x1, .i32⟩
  | 71 => ⟨S32, .f32⟩
  | 72 => ⟨S_, .f32⟩
  | 73 => ⟨S32x128, .f32⟩
  | 74 => ⟨S50000x1, .i32⟩
  | 75 => ⟨S32x128, .f32⟩
  | 76 => ⟨S_, .f32⟩
  | 77 => ⟨S32, .f32⟩
  | 78 => ⟨S32, .f32⟩
  | 79 => ⟨S32x1, .f32⟩
  | 80 => ⟨S32x128, .f32⟩
  | 81 => ⟨S32x128, .f32⟩
  | 82 => ⟨S1x128x128, .f32⟩
  | 83 => ⟨S128x128, .f32⟩
  | 84 => ⟨S32x128, .f32⟩
  | 85 => ⟨S1x128, .f32⟩
  | 86 => ⟨S128, .f32⟩
  | 87 => ⟨S1x128, .f32⟩
  | 88 => ⟨S32x128, .f32⟩
  | 89 => ⟨S32x128, .f32⟩
  | 90 => ⟨S1x128, .f32⟩
  | 91 => ⟨S128, .f32⟩
  | 92 => ⟨S1x128, .f32⟩
  | 93 => ⟨S128, .f32⟩
  | 94 => ⟨S_, .f32⟩
  | 95 => ⟨S128, .f32⟩
  | 96 => ⟨S_, .f32⟩
  | 97 => ⟨S128, .f32⟩
  | 98 => ⟨S128, .f32⟩
  | 99 => ⟨S_, .i32⟩
  | 100 => ⟨S_, .f32⟩
  | 101 => ⟨S128, .f32⟩
  | 102 => ⟨S1x128, .f32⟩
  | 103 => ⟨S_, .f32⟩
  | 104 => ⟨S1x128, .f32⟩
  | 105 => ⟨S1x128, .f32⟩
  | 106 => ⟨S32x128, .f32⟩
  | 107 => ⟨S32x128, .f32⟩
  | 108 => ⟨S32x128, .f32⟩
  | 109 => ⟨S_, .f32⟩
  | 110 => ⟨S_, .f32⟩
  | 111 => ⟨S_, .f32⟩
  | 112 => ⟨S_, .f32⟩
  | 113 => ⟨S128, .f32⟩
  | 114 => ⟨S128, .f32⟩
  | 115 => ⟨S128, .f32⟩
  | 116 => ⟨S_, .f32⟩
  | 117 => ⟨S_, .i1⟩
  | 118 => ⟨S_, .f32⟩
  | 119 => ⟨S_, .f32⟩
  | 120 => ⟨S128, .f32⟩
  | 121 => ⟨S128, .f32⟩
  | 122 => ⟨S1x128, .f32⟩
  | 123 => ⟨S32x128, .f32⟩
  | 124 => ⟨S32x128, .f32⟩
  | 125 => ⟨S_, .f32⟩
  | 126 => ⟨S128, .f32⟩
  | 127 => ⟨S128, .f32⟩
  | _ => ⟨S50000x64, .f32⟩

abbrev hbmTy0_3 (i : Nat) : BufTy := match i % 128 with
  | 0 => ⟨S128, .f32⟩
  | 1 => ⟨S1x128, .f32⟩
  | 2 => ⟨S32x128, .f32⟩
  | 3 => ⟨S32x128, .f32⟩
  | 4 => ⟨S1x128, .f32⟩
  | 5 => ⟨S32x128, .f32⟩
  | 6 => ⟨S32x128, .f32⟩
  | 7 => ⟨S1x128, .f32⟩
  | 8 => ⟨S32x128, .f32⟩
  | 9 => ⟨S32x128, .f32⟩
  | 10 => ⟨S_, .f32⟩
  | 11 => ⟨S32x128, .f32⟩
  | 12 => ⟨S32x128, .f32⟩
  | 13 => ⟨S1x128x128, .f32⟩
  | 14 => ⟨S128x128, .f32⟩
  | 15 => ⟨S32x128, .f32⟩
  | 16 => ⟨S1x128, .f32⟩
  | 17 => ⟨S128, .f32⟩
  | 18 => ⟨S1x128, .f32⟩
  | 19 => ⟨S32x128, .f32⟩
  | 20 => ⟨S32x128, .f32⟩
  | 21 => ⟨S1x128, .f32⟩
  | 22 => ⟨S128, .f32⟩
  | 23 => ⟨S1x128, .f32⟩
  | 24 => ⟨S128, .f32⟩
  | 25 => ⟨S_, .f32⟩
  | 26 => ⟨S128, .f32⟩
  | 27 => ⟨S_, .f32⟩
  | 28 => ⟨S128, .f32⟩
  | 29 => ⟨S128, .f32⟩
  | 30 => ⟨S_, .i32⟩
  | 31 => ⟨S_, .f32⟩
  | 32 => ⟨S128, .f32⟩
  | 33 => ⟨S1x128, .f32⟩
  | 34 => ⟨S_, .f32⟩
  | 35 => ⟨S1x128, .f32⟩
  | 36 => ⟨S1x128, .f32⟩
  | 37 => ⟨S32x128, .f32⟩
  | 38 => ⟨S32x128, .f32⟩
  | 39 => ⟨S32x128, .f32⟩
  | 40 => ⟨S_, .f32⟩
  | 41 => ⟨S_, .f32⟩
  | 42 => ⟨S_, .f32⟩
  | 43 => ⟨S_, .f32⟩
  | 44 => ⟨S128, .f32⟩
  | 45 => ⟨S128, .f32⟩
  | 46 => ⟨S128, .f32⟩
  | 47 => ⟨S_, .f32⟩
  | 48 => ⟨S_, .i1⟩
  | 49 => ⟨S_, .f32⟩
  | 50 => ⟨S_, .f32⟩
  | 51 => ⟨S128, .f32⟩
  | 52 => ⟨S128, .f32⟩
  | 53 => ⟨S1x128, .f32⟩
  | 54 => ⟨S32x128, .f32⟩
  | 55 => ⟨S32x128, .f32⟩
  | 56 => ⟨S_, .f32⟩
  | 57 => ⟨S128, .f32⟩
  | 58 => ⟨S128, .f32⟩
  | 59 => ⟨S128, .f32⟩
  | 60 => ⟨S1x128, .f32⟩
  | 61 => ⟨S32x128, .f32⟩
  | 62 => ⟨S32x128, .f32⟩
  | 63 => ⟨S1x128, .f32⟩
  | 64 => ⟨S32x128, .f32⟩
  | 65 => ⟨S32x128, .f32⟩
  | 66 => ⟨S1x128, .f32⟩
  | 67 => ⟨S32x128, .f32⟩
  | 68 => ⟨S32x128, .f32⟩
  | 69 => ⟨S_, .f32⟩
  | 70 => ⟨S32x128, .f32⟩
  | 71 => ⟨S32x128, .f32⟩
  | 72 => ⟨S32x1, .f32⟩
  | 73 => ⟨S1x1, .f32⟩
  | 74 => ⟨S32x1, .f32⟩
  | 75 => ⟨S32x1, .f32⟩
  | 76 => ⟨S_, .f32⟩
  | 77 => ⟨S32x1, .f32⟩
  | 78 => ⟨S32x1, .f32⟩
  | _ => ⟨S50000x64, .f32⟩

abbrev hbmTy (i : Nat) : BufTy := match i / 128 with
  | 0 => hbmTy0_0 i
  | 1 => hbmTy0_1 i
  | 2 => hbmTy0_2 i
  | 3 => hbmTy0_3 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_c : Ref sig .tc := ⟨.hbm, 38, rfl⟩
abbrev main_v20 : Ref sig .tc := ⟨.hbm, 39, rfl⟩
abbrev main_v21 : Ref sig .tc := ⟨.hbm, 40, rfl⟩
abbrev main_c_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_3 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_8 : Ref sig .tc := ⟨.hbm, 85, rfl⟩
abbrev main_v60 : Ref sig .tc := ⟨.hbm, 86, rfl⟩
abbrev main_cst_9 : Ref sig .tc := ⟨.hbm, 87, rfl⟩
abbrev main_v61 : Ref sig .tc := ⟨.hbm, 88, rfl⟩
abbrev main_v62 : Ref sig .tc := ⟨.hbm, 89, rfl⟩
abbrev main_c_10 : Ref sig .tc := ⟨.hbm, 90, rfl⟩
abbrev main_call0_cst : Ref sig .tc := ⟨.hbm, 91, rfl⟩
abbrev main_call0_v0 : Ref sig .tc := ⟨.hbm, 92, rfl⟩
abbrev main_call0_v1 : Ref sig .tc := ⟨.hbm, 93, rfl⟩
abbrev main_call0_cst_0 : Ref sig .tc := ⟨.hbm, 94, rfl⟩
abbrev main_call0_v2 : Ref sig .tc := ⟨.hbm, 95, rfl⟩
abbrev main_call0_v3 : Ref sig .tc := ⟨.hbm, 96, rfl⟩
abbrev main_call0_v4 : Ref sig .tc := ⟨.hbm, 97, rfl⟩
abbrev main_call0_v5 : Ref sig .tc := ⟨.hbm, 98, rfl⟩
abbrev main_call0_v6 : Ref sig .tc := ⟨.hbm, 99, rfl⟩
abbrev main_call0_v7 : Ref sig .tc := ⟨.hbm, 100, rfl⟩
abbrev main_call0_cst_1 : Ref sig .tc := ⟨.hbm, 101, rfl⟩
abbrev main_call0_v8 : Ref sig .tc := ⟨.hbm, 102, rfl⟩
abbrev main_call0_cst_2 : Ref sig .tc := ⟨.hbm, 103, rfl⟩
abbrev main_call0_v9 : Ref sig .tc := ⟨.hbm, 104, rfl⟩
abbrev main_call0_v10 : Ref sig .tc := ⟨.hbm, 105, rfl⟩
abbrev main_call0_v11 : Ref sig .tc := ⟨.hbm, 106, rfl⟩
abbrev main_call0_cst_3 : Ref sig .tc := ⟨.hbm, 107, rfl⟩
abbrev main_call0_v12 : Ref sig .tc := ⟨.hbm, 108, rfl⟩
abbrev main_call0_cst_4 : Ref sig .tc := ⟨.hbm, 109, rfl⟩
abbrev main_call0_call0_v0 : Ref sig .tc := ⟨.hbm, 110, rfl⟩
abbrev main_call0_call0_v1 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_11 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_call1_cst : Ref sig .tc := ⟨.hbm, 129, rfl⟩
abbrev main_call1_v0 : Ref sig .tc := ⟨.hbm, 130, rfl⟩
abbrev main_v79 : Ref sig .tc := ⟨.hbm, 131, rfl⟩
abbrev main_v80 : Ref sig .tc := ⟨.hbm, 132, rfl⟩
abbrev main_c_12 : Ref sig .tc := ⟨.hbm, 133, rfl⟩
abbrev main_v81 : Ref sig .tc := ⟨.hbm, 134, rfl⟩
abbrev main_v82 : Ref sig .tc := ⟨.hbm, 135, rfl⟩
abbrev main_c_13 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_c_14 : Ref sig .tc := ⟨.hbm, 142, rfl⟩
abbrev main_v88 : Ref sig .tc := ⟨.hbm, 143, rfl⟩
abbrev main_v89 : Ref sig .tc := ⟨.hbm, 144, rfl⟩
abbrev main_c_15 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_c_16 : Ref sig .tc := ⟨.hbm, 152, rfl⟩
abbrev main_v96 : Ref sig .tc := ⟨.hbm, 153, rfl⟩
abbrev main_v97 : Ref sig .tc := ⟨.hbm, 154, rfl⟩
abbrev main_c_17 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_cst_18 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_cst_19 : Ref sig .tc := ⟨.hbm, 180, rfl⟩
abbrev main_v121 : Ref sig .tc := ⟨.hbm, 181, rfl⟩
abbrev main_cst_20 : Ref sig .tc := ⟨.hbm, 182, rfl⟩
abbrev main_v122 : Ref sig .tc := ⟨.hbm, 183, rfl⟩
abbrev main_v123 : Ref sig .tc := ⟨.hbm, 184, rfl⟩
abbrev main_c_21 : Ref sig .tc := ⟨.hbm, 185, rfl⟩
abbrev main_call2_cst : Ref sig .tc := ⟨.hbm, 186, rfl⟩
abbrev main_call2_v0 : Ref sig .tc := ⟨.hbm, 187, rfl⟩
abbrev main_call2_v1 : Ref sig .tc := ⟨.hbm, 188, rfl⟩
abbrev main_call2_cst_0 : Ref sig .tc := ⟨.hbm, 189, rfl⟩
abbrev main_call2_v2 : Ref sig .tc := ⟨.hbm, 190, rfl⟩
abbrev main_call2_v3 : Ref sig .tc := ⟨.hbm, 191, rfl⟩
abbrev main_call2_v4 : Ref sig .tc := ⟨.hbm, 192, rfl⟩
abbrev main_call2_v5 : Ref sig .tc := ⟨.hbm, 193, rfl⟩
abbrev main_call2_v6 : Ref sig .tc := ⟨.hbm, 194, rfl⟩
abbrev main_call2_v7 : Ref sig .tc := ⟨.hbm, 195, rfl⟩
abbrev main_call2_cst_1 : Ref sig .tc := ⟨.hbm, 196, rfl⟩
abbrev main_call2_v8 : Ref sig .tc := ⟨.hbm, 197, rfl⟩
abbrev main_call2_cst_2 : Ref sig .tc := ⟨.hbm, 198, rfl⟩
abbrev main_call2_v9 : Ref sig .tc := ⟨.hbm, 199, rfl⟩
abbrev main_call2_v10 : Ref sig .tc := ⟨.hbm, 200, rfl⟩
abbrev main_call2_v11 : Ref sig .tc := ⟨.hbm, 201, rfl⟩
abbrev main_call2_cst_3 : Ref sig .tc := ⟨.hbm, 202, rfl⟩
abbrev main_call2_v12 : Ref sig .tc := ⟨.hbm, 203, rfl⟩
abbrev main_call2_cst_4 : Ref sig .tc := ⟨.hbm, 204, rfl⟩
abbrev main_call2_call0_v0 : Ref sig .tc := ⟨.hbm, 205, rfl⟩
abbrev main_call2_call0_v1 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_cst_22 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_call3_cst : Ref sig .tc := ⟨.hbm, 224, rfl⟩
abbrev main_call3_v0 : Ref sig .tc := ⟨.hbm, 225, rfl⟩
abbrev main_v140 : Ref sig .tc := ⟨.hbm, 226, rfl⟩
abbrev main_v141 : Ref sig .tc := ⟨.hbm, 227, rfl⟩
abbrev main_c_23 : Ref sig .tc := ⟨.hbm, 228, rfl⟩
abbrev main_v142 : Ref sig .tc := ⟨.hbm, 229, rfl⟩
abbrev main_v143 : Ref sig .tc := ⟨.hbm, 230, rfl⟩
abbrev main_c_24 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_c_25 : Ref sig .tc := ⟨.hbm, 237, rfl⟩
abbrev main_v149 : Ref sig .tc := ⟨.hbm, 238, rfl⟩
abbrev main_v150 : Ref sig .tc := ⟨.hbm, 239, rfl⟩
abbrev main_c_26 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_c_27 : Ref sig .tc := ⟨.hbm, 247, rfl⟩
abbrev main_v157 : Ref sig .tc := ⟨.hbm, 248, rfl⟩
abbrev main_v158 : Ref sig .tc := ⟨.hbm, 249, rfl⟩
abbrev main_c_28 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_v164 : Ref sig .tc := ⟨.hbm, 256, rfl⟩
abbrev main_v165 : Ref sig .tc := ⟨.hbm, 257, rfl⟩
abbrev main_v166 : Ref sig .tc := ⟨.hbm, 258, rfl⟩
abbrev main_cst_29 : Ref sig .tc := ⟨.hbm, 259, rfl⟩
abbrev main_v167 : Ref sig .tc := ⟨.hbm, 260, rfl⟩
abbrev main_v168 : Ref sig .tc := ⟨.hbm, 261, rfl⟩
abbrev main_v169 : Ref sig .tc := ⟨.hbm, 262, rfl⟩
abbrev main_v170 : Ref sig .tc := ⟨.hbm, 263, rfl⟩
abbrev main_v171 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_v176 : Ref sig .tc := ⟨.hbm, 269, rfl⟩
abbrev main_v177 : Ref sig .tc := ⟨.hbm, 270, rfl⟩
abbrev main_v178 : Ref sig .tc := ⟨.hbm, 271, rfl⟩
abbrev main_v179 : Ref sig .tc := ⟨.hbm, 272, rfl⟩
abbrev main_v180 : Ref sig .tc := ⟨.hbm, 273, rfl⟩
abbrev main_v181 : Ref sig .tc := ⟨.hbm, 274, rfl⟩
abbrev main_cst_30 : Ref sig .tc := ⟨.hbm, 275, rfl⟩
abbrev main_v182 : Ref sig .tc := ⟨.hbm, 276, rfl⟩
abbrev main_cst_31 : Ref sig .tc := ⟨.hbm, 277, rfl⟩
abbrev main_v183 : Ref sig .tc := ⟨.hbm, 278, rfl⟩
abbrev main_v184 : Ref sig .tc := ⟨.hbm, 279, rfl⟩
abbrev main_c_32 : Ref sig .tc := ⟨.hbm, 280, rfl⟩
abbrev main_call4_cst : Ref sig .tc := ⟨.hbm, 281, rfl⟩
abbrev main_call4_v0 : Ref sig .tc := ⟨.hbm, 282, rfl⟩
abbrev main_call4_v1 : Ref sig .tc := ⟨.hbm, 283, rfl⟩
abbrev main_call4_cst_0 : Ref sig .tc := ⟨.hbm, 284, rfl⟩
abbrev main_call4_v2 : Ref sig .tc := ⟨.hbm, 285, rfl⟩
abbrev main_call4_v3 : Ref sig .tc := ⟨.hbm, 286, rfl⟩
abbrev main_call4_v4 : Ref sig .tc := ⟨.hbm, 287, rfl⟩
abbrev main_call4_v5 : Ref sig .tc := ⟨.hbm, 288, rfl⟩
abbrev main_call4_v6 : Ref sig .tc := ⟨.hbm, 289, rfl⟩
abbrev main_call4_v7 : Ref sig .tc := ⟨.hbm, 290, rfl⟩
abbrev main_call4_cst_1 : Ref sig .tc := ⟨.hbm, 291, rfl⟩
abbrev main_call4_v8 : Ref sig .tc := ⟨.hbm, 292, rfl⟩
abbrev main_call4_cst_2 : Ref sig .tc := ⟨.hbm, 293, rfl⟩
abbrev main_call4_v9 : Ref sig .tc := ⟨.hbm, 294, rfl⟩
abbrev main_call4_v10 : Ref sig .tc := ⟨.hbm, 295, rfl⟩
abbrev main_call4_v11 : Ref sig .tc := ⟨.hbm, 296, rfl⟩
abbrev main_call4_cst_3 : Ref sig .tc := ⟨.hbm, 297, rfl⟩
abbrev main_call4_v12 : Ref sig .tc := ⟨.hbm, 298, rfl⟩
abbrev main_call4_cst_4 : Ref sig .tc := ⟨.hbm, 299, rfl⟩
abbrev main_call4_call0_v0 : Ref sig .tc := ⟨.hbm, 300, rfl⟩
abbrev main_call4_call0_v1 : Ref sig .tc := ⟨.hbm, 301, rfl⟩
abbrev main_v185 : Ref sig .tc := ⟨.hbm, 302, rfl⟩
abbrev main_v186 : Ref sig .tc := ⟨.hbm, 303, rfl⟩
abbrev main_v187 : Ref sig .tc := ⟨.hbm, 304, rfl⟩
abbrev main_v188 : Ref sig .tc := ⟨.hbm, 305, rfl⟩
abbrev main_cst_33 : Ref sig .tc := ⟨.hbm, 306, rfl⟩
abbrev main_v189 : Ref sig .tc := ⟨.hbm, 307, rfl⟩
abbrev main_v190 : Ref sig .tc := ⟨.hbm, 308, rfl⟩
abbrev main_v191 : Ref sig .tc := ⟨.hbm, 309, rfl⟩
abbrev main_v192 : Ref sig .tc := ⟨.hbm, 310, rfl⟩
abbrev main_v193 : Ref sig .tc := ⟨.hbm, 311, rfl⟩
abbrev main_v194 : Ref sig .tc := ⟨.hbm, 312, rfl⟩
abbrev main_v195 : Ref sig .tc := ⟨.hbm, 313, rfl⟩
abbrev main_v196 : Ref sig .tc := ⟨.hbm, 314, rfl⟩
abbrev main_v197 : Ref sig .tc := ⟨.hbm, 315, rfl⟩
abbrev main_v198 : Ref sig .tc := ⟨.hbm, 316, rfl⟩
abbrev main_v199 : Ref sig .tc := ⟨.hbm, 317, rfl⟩
abbrev main_v200 : Ref sig .tc := ⟨.hbm, 318, rfl⟩
abbrev main_call5_cst : Ref sig .tc := ⟨.hbm, 319, rfl⟩
abbrev main_call5_v0 : Ref sig .tc := ⟨.hbm, 320, rfl⟩
abbrev main_v201 : Ref sig .tc := ⟨.hbm, 321, rfl⟩
abbrev main_cst_34 : Ref sig .tc := ⟨.hbm, 322, rfl⟩
abbrev main_v202 : Ref sig .tc := ⟨.hbm, 323, rfl⟩
abbrev main_cst_35 : Ref sig .tc := ⟨.hbm, 324, rfl⟩
abbrev main_v203 : Ref sig .tc := ⟨.hbm, 325, rfl⟩
abbrev main_v204 : Ref sig .tc := ⟨.hbm, 326, rfl⟩
abbrev main_v205 : Ref sig .tc := ⟨.hbm, 327, rfl⟩
abbrev main_cst_36 : Ref sig .tc := ⟨.hbm, 328, rfl⟩
abbrev main_v206 : Ref sig .tc := ⟨.hbm, 329, rfl⟩
abbrev main_v207 : Ref sig .tc := ⟨.hbm, 330, rfl⟩
abbrev main_v208 : Ref sig .tc := ⟨.hbm, 331, rfl⟩
abbrev main_cst_37 : Ref sig .tc := ⟨.hbm, 332, rfl⟩
abbrev main_v209 : Ref sig .tc := ⟨.hbm, 333, rfl⟩
abbrev main_v210 : Ref sig .tc := ⟨.hbm, 334, rfl⟩
abbrev main_v211 : Ref sig .tc := ⟨.hbm, 335, rfl⟩
abbrev main_v212 : Ref sig .tc := ⟨.hbm, 336, rfl⟩
abbrev main_v213 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_v217 : Ref sig .tc := ⟨.hbm, 341, rfl⟩
abbrev main_v218 : Ref sig .tc := ⟨.hbm, 342, rfl⟩
abbrev main_v219 : Ref sig .tc := ⟨.hbm, 343, rfl⟩
abbrev main_v220 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_v224 : Ref sig .tc := ⟨.hbm, 348, rfl⟩
abbrev main_v225 : Ref sig .tc := ⟨.hbm, 349, rfl⟩
abbrev main_cst_38 : Ref sig .tc := ⟨.hbm, 350, rfl⟩
abbrev main_v226 : Ref sig .tc := ⟨.hbm, 351, rfl⟩
abbrev main_cst_39 : Ref sig .tc := ⟨.hbm, 352, rfl⟩
abbrev main_v227 : Ref sig .tc := ⟨.hbm, 353, rfl⟩
abbrev main_v228 : Ref sig .tc := ⟨.hbm, 354, rfl⟩
abbrev main_c_40 : Ref sig .tc := ⟨.hbm, 355, rfl⟩
abbrev main_call6_cst : Ref sig .tc := ⟨.hbm, 356, rfl⟩
abbrev main_call6_v0 : Ref sig .tc := ⟨.hbm, 357, rfl⟩
abbrev main_call6_v1 : Ref sig .tc := ⟨.hbm, 358, rfl⟩
abbrev main_call6_cst_0 : Ref sig .tc := ⟨.hbm, 359, rfl⟩
abbrev main_call6_v2 : Ref sig .tc := ⟨.hbm, 360, rfl⟩
abbrev main_call6_v3 : Ref sig .tc := ⟨.hbm, 361, rfl⟩
abbrev main_call6_v4 : Ref sig .tc := ⟨.hbm, 362, rfl⟩
abbrev main_call6_v5 : Ref sig .tc := ⟨.hbm, 363, rfl⟩
abbrev main_call6_v6 : Ref sig .tc := ⟨.hbm, 364, rfl⟩
abbrev main_call6_v7 : Ref sig .tc := ⟨.hbm, 365, rfl⟩
abbrev main_call6_cst_1 : Ref sig .tc := ⟨.hbm, 366, rfl⟩
abbrev main_call6_v8 : Ref sig .tc := ⟨.hbm, 367, rfl⟩
abbrev main_call6_cst_2 : Ref sig .tc := ⟨.hbm, 368, rfl⟩
abbrev main_call6_v9 : Ref sig .tc := ⟨.hbm, 369, rfl⟩
abbrev main_call6_v10 : Ref sig .tc := ⟨.hbm, 370, rfl⟩
abbrev main_call6_v11 : Ref sig .tc := ⟨.hbm, 371, rfl⟩
abbrev main_call6_cst_3 : Ref sig .tc := ⟨.hbm, 372, rfl⟩
abbrev main_call6_v12 : Ref sig .tc := ⟨.hbm, 373, rfl⟩
abbrev main_call6_cst_4 : Ref sig .tc := ⟨.hbm, 374, rfl⟩
abbrev main_call6_call0_v0 : Ref sig .tc := ⟨.hbm, 375, rfl⟩
abbrev main_call6_call0_v1 : Ref sig .tc := ⟨.hbm, 376, rfl⟩
abbrev main_v229 : Ref sig .tc := ⟨.hbm, 377, rfl⟩
abbrev main_v230 : Ref sig .tc := ⟨.hbm, 378, rfl⟩
abbrev main_v231 : Ref sig .tc := ⟨.hbm, 379, rfl⟩
abbrev main_v232 : Ref sig .tc := ⟨.hbm, 380, rfl⟩
abbrev main_cst_41 : Ref sig .tc := ⟨.hbm, 381, rfl⟩
abbrev main_v233 : Ref sig .tc := ⟨.hbm, 382, rfl⟩
abbrev main_v234 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_v238 : Ref sig .tc := ⟨.hbm, 387, rfl⟩
abbrev main_v239 : Ref sig .tc := ⟨.hbm, 388, rfl⟩
abbrev main_v240 : Ref sig .tc := ⟨.hbm, 389, rfl⟩
abbrev main_v241 : Ref sig .tc := ⟨.hbm, 390, rfl⟩
abbrev main_v242 : Ref sig .tc := ⟨.hbm, 391, rfl⟩
abbrev main_v243 : Ref sig .tc := ⟨.hbm, 392, rfl⟩
abbrev main_v244 : Ref sig .tc := ⟨.hbm, 393, rfl⟩
abbrev main_call7_cst : Ref sig .tc := ⟨.hbm, 394, rfl⟩
abbrev main_call7_v0 : Ref sig .tc := ⟨.hbm, 395, rfl⟩
abbrev main_v245 : Ref sig .tc := ⟨.hbm, 396, rfl⟩
abbrev main_v246 : Ref sig .tc := ⟨.hbm, 397, rfl⟩
abbrev main_v247 : Ref sig .tc := ⟨.hbm, 398, rfl⟩
abbrev main_v248 : Ref sig .tc := ⟨.hbm, 399, rfl⟩
abbrev main_v249 : Ref sig .tc := ⟨.hbm, 400, rfl⟩
abbrev main_v250 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_v254 : Ref sig .tc := ⟨.hbm, 405, rfl⟩
abbrev main_v255 : Ref sig .tc := ⟨.hbm, 406, rfl⟩
abbrev main_v256 : Ref sig .tc := ⟨.hbm, 407, rfl⟩
abbrev main_v257 : Ref sig .tc := ⟨.hbm, 408, rfl⟩
abbrev main_cst_42 : Ref sig .tc := ⟨.hbm, 409, rfl⟩
abbrev main_v258 : Ref sig .tc := ⟨.hbm, 410, rfl⟩
abbrev main_cst_43 : Ref sig .tc := ⟨.hbm, 411, rfl⟩
abbrev main_v259 : Ref sig .tc := ⟨.hbm, 412, rfl⟩
abbrev main_v260 : Ref sig .tc := ⟨.hbm, 413, rfl⟩
abbrev main_c_44 : Ref sig .tc := ⟨.hbm, 414, rfl⟩
abbrev main_call8_cst : Ref sig .tc := ⟨.hbm, 415, rfl⟩
abbrev main_call8_v0 : Ref sig .tc := ⟨.hbm, 416, rfl⟩
abbrev main_call8_v1 : Ref sig .tc := ⟨.hbm, 417, rfl⟩
abbrev main_call8_cst_0 : Ref sig .tc := ⟨.hbm, 418, rfl⟩
abbrev main_call8_v2 : Ref sig .tc := ⟨.hbm, 419, rfl⟩
abbrev main_call8_v3 : Ref sig .tc := ⟨.hbm, 420, rfl⟩
abbrev main_call8_v4 : Ref sig .tc := ⟨.hbm, 421, rfl⟩
abbrev main_call8_v5 : Ref sig .tc := ⟨.hbm, 422, rfl⟩
abbrev main_call8_v6 : Ref sig .tc := ⟨.hbm, 423, rfl⟩
abbrev main_call8_v7 : Ref sig .tc := ⟨.hbm, 424, rfl⟩
abbrev main_call8_cst_1 : Ref sig .tc := ⟨.hbm, 425, rfl⟩
abbrev main_call8_v8 : Ref sig .tc := ⟨.hbm, 426, rfl⟩
abbrev main_call8_cst_2 : Ref sig .tc := ⟨.hbm, 427, rfl⟩
abbrev main_call8_v9 : Ref sig .tc := ⟨.hbm, 428, rfl⟩
abbrev main_call8_v10 : Ref sig .tc := ⟨.hbm, 429, rfl⟩
abbrev main_call8_v11 : Ref sig .tc := ⟨.hbm, 430, rfl⟩
abbrev main_call8_cst_3 : Ref sig .tc := ⟨.hbm, 431, rfl⟩
abbrev main_call8_v12 : Ref sig .tc := ⟨.hbm, 432, rfl⟩
abbrev main_call8_cst_4 : Ref sig .tc := ⟨.hbm, 433, rfl⟩
abbrev main_call8_call0_v0 : Ref sig .tc := ⟨.hbm, 434, rfl⟩
abbrev main_call8_call0_v1 : Ref sig .tc := ⟨.hbm, 435, rfl⟩
abbrev main_v261 : Ref sig .tc := ⟨.hbm, 436, rfl⟩
abbrev main_v262 : Ref sig .tc := ⟨.hbm, 437, rfl⟩
abbrev main_v263 : Ref sig .tc := ⟨.hbm, 438, rfl⟩
abbrev main_v264 : Ref sig .tc := ⟨.hbm, 439, rfl⟩
abbrev main_cst_45 : Ref sig .tc := ⟨.hbm, 440, rfl⟩
abbrev main_v265 : Ref sig .tc := ⟨.hbm, 441, rfl⟩
abbrev main_v266 : Ref sig .tc := ⟨.hbm, 442, rfl⟩
abbrev main_v267 : Ref sig .tc := ⟨.hbm, 443, rfl⟩
abbrev main_v268 : Ref sig .tc := ⟨.hbm, 444, rfl⟩
abbrev main_v269 : Ref sig .tc := ⟨.hbm, 445, rfl⟩
abbrev main_v270 : Ref sig .tc := ⟨.hbm, 446, rfl⟩
abbrev main_v271 : Ref sig .tc := ⟨.hbm, 447, rfl⟩
abbrev main_v272 : Ref sig .tc := ⟨.hbm, 448, rfl⟩
abbrev main_v273 : Ref sig .tc := ⟨.hbm, 449, rfl⟩
abbrev main_v274 : Ref sig .tc := ⟨.hbm, 450, rfl⟩
abbrev main_v275 : Ref sig .tc := ⟨.hbm, 451, rfl⟩
abbrev main_v276 : Ref sig .tc := ⟨.hbm, 452, rfl⟩
abbrev main_call9_cst : Ref sig .tc := ⟨.hbm, 453, rfl⟩
abbrev main_call9_v0 : Ref sig .tc := ⟨.hbm, 454, rfl⟩
abbrev main_v277 : Ref sig .tc := ⟨.hbm, 455, rfl⟩
abbrev main_v278 : Ref sig .tc := ⟨.hbm, 456, rfl⟩
abbrev main_v279 : Ref sig .tc := ⟨.hbm, 457, rfl⟩
abbrev main_v280 : Ref sig .tc := ⟨.hbm, 458, rfl⟩
abbrev main_v281 : Ref sig .tc := ⟨.hbm, 459, rfl⟩
abbrev main_call10_cst : Ref sig .tc := ⟨.hbm, 460, rfl⟩
abbrev main_call10_v0 : Ref sig .tc := ⟨.hbm, 461, rfl⟩
abbrev main_v282 : Ref sig .tc := ⟨.hbm, 462, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S2x128x128_S1x128x128_0_0_0 : S2x128x128.Slices ![0, 0, 0] S1x128x128
  shapeCasts_S1x128x128_S128x128 : S1x128x128.ShapeCasts S128x128
  slices_S2x128x128_S1x128x128_1_0_0 : S2x128x128.Slices ![1, 0, 0] S1x128x128
  slices_S2x128_S1x128_0_0 : S2x128.Slices ![0, 0] S1x128
  shapeCasts_S1x128_S128 : S1x128.ShapeCasts S128
  slices_S2x128_S1x128_1_0 : S2x128.Slices ![1, 0] S1x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128_S1x128_0_0 : S3x128.Slices ![0, 0] S1x128
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128_S1x128_1_0 : S3x128.Slices ![1, 0] S1x128
  slices_S3x128_S1x128_2_0 : S3x128.Slices ![2, 0] S1x128
  bcast_S_S32 : S_.BroadcastsInDim S32 (![] : Fin 0 → Fin S32.rank)
  bcast_S_S32x128 : S_.BroadcastsInDim S32x128 (![] : Fin 0 → Fin S32x128.rank)
  bcast_S32_S32x1_0 : S32.BroadcastsInDim S32x1 (![0] : Fin 1 → Fin S32x1.rank)
  bcast_S32x1_S32x128_0_1 : S32x1.BroadcastsInDim S32x128 (![0, 1] : Fin 2 → Fin S32x128.rank)
  bcast_S1x128_S32x128_0_1 : S1x128.BroadcastsInDim S32x128 (![0, 1] : Fin 2 → Fin S32x128.rank)
  reducesTo_S32x128_S128_d0 : S32x128.ReducesTo [0] S128
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  bcast_S_S32x1 : S_.BroadcastsInDim S32x1 (![] : Fin 0 → Fin S32x1.rank)
  scatter_S50000_S800000x1_S800000_n_0_0_1_wf : ScatterDims.WF S50000 S800000x1 S800000 [] [0] [0] 1
  dot_S50000x64_S64x128_S50000x128_1_0_0_1_n_n_wf : DotDims.WF S50000x64 S64x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  scatter_S32_S50000x1_S50000_n_0_0_1_wf : ScatterDims.WF S32 S50000x1 S50000 [] [0] [0] 1
  scatter_S32x128_S50000x1_S50000x128_1_0_0_1_wf : ScatterDims.WF S32x128 S50000x1 S50000x128 [1] [0] [0] 1
  dot_S32x128_S128x128_S32x128_1_0_0_1_n_n_wf : DotDims.WF S32x128 S128x128 S32x128 [1] [0] [0] [1] [] []
  dot_S32x128_S128x1_S32x1_1_0_0_1_n_n_wf : DotDims.WF S32x128 S128x1 S32x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S32_S50000x1_S50000_n_0_0_1 : ScatterDims S32 S50000x1 S50000 where
  updateWindowDims := []
  insertedWindowDims := [0]
  scatterDimsToOperandDims := [0]
  indexVectorDim := 1
  wf := scatter_S32_S50000x1_S50000_n_0_0_1_wf
def scatter_S32x128_S50000x1_S50000x128_1_0_0_1 : ScatterDims S32x128 S50000x1 S50000x128 where
  updateWindowDims := [1]
  insertedWindowDims := [0]
  scatterDimsToOperandDims := [0]
  indexVectorDim := 1
  wf := scatter_S32x128_S50000x1_S50000x128_1_0_0_1_wf
def dot_S32x128_S128x128_S32x128_1_0_0_1_n_n : DotDims S32x128 S128x128 S32x128 where
  lhsContracting := [1]
  rhsContracting := [0]
  lhsNonContracting := [0]
  rhsNonContracting := [1]
  lhsBatch := []
  rhsBatch := []
  wf := dot_S32x128_S128x128_S32x128_1_0_0_1_n_n_wf
def dot_S32x128_S128x1_S32x1_1_0_0_1_n_n : DotDims S32x128 S128x1 S32x1 where
  lhsContracting := [1]
  rhsContracting := [0]
  lhsNonContracting := [0]
  rhsNonContracting := [1]
  lhsBatch := []
  rhsBatch := []
  wf := dot_S32x128_S128x1_S32x1_1_0_0_1_n_n_wf

class Facts : Prop extends Facts₀ where

variable [Facts]
-- ==== Proof.K.R0.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 0: one matrix product per grid point, at the region-entry contents `V`

Each grid point multiplies the point's row block (window 0) by the weight matrix (window 1, the same block at
every point) and overwrites the point's output block (window 2) with the product. -/

/-! ## What each window's array holds for a point -/

/-- The block of window `w` belonging to point `t`, read from the window's array as `V` gives it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block is in its staging buffer at every point: for any proof data over `V`'s array whose body leaves
    that buffer as it found it, the buffer holds the point's block before the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is fetched at the first point only; its block index never moves, and the body leaves the
    buffer alone, so the buffer holds the matrix at every later point too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The one store of the body -/

/-- The rectangles the body loads and stores through: each is its whole buffer. -/
abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x128 := Rect.unit (s := S5000x128) ![0, 0] S5000x128.size inb_S5000x128_S5000x128_0_0

/-- What the output buffer reads after the body, as a function of what the two input buffers read: the single
    store's payload (the matrix product of the two loaded values) laid over the whole buffer. -/
def out0_2 (x0 : Vec F S5000x64 .f32) (x1 : Vec F S64x128 .f32) : Vec F S5000x128 .f32 :=
  View.canon [⟨r0_2, k0_pay1 (View.ld x0 r0_0) (View.ld x1 r0_1)⟩]

/-- That store's rectangle has as many indices as the buffer, so every index of the buffer lies in it. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The body's triple -/

set_option maxHeartbeats 1000000 in
/-- The body on whole staging memrefs: given the two inputs at contents `x0`, `x1` and the output at any contents,
    it ends with the inputs unchanged and the output reading `out0_2 x0 x1`. The body loads both inputs whole,
    loads the output (the value is not used), and stores the product over the whole output. -/
theorem sound_kernel0 (c : Dev nD) (E : Set ℕ) (i : grid0.Coords) (arg1 : Memref sig .tc .vmem S5000x64 .f32) (harg1 : arg1.IsWhole)
    (arg2 : Memref sig .tc .vmem S64x128 .f32) (harg2 : arg2.IsWhole) (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

/-! ## The pipeline's proof data -/

/-- The proof data of pipeline 0 on core c at the region-entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem recorded_eq0 (c : Dev nD) (t : Fin (cfg0.N + 1)) : (dat0 V c).recorded t = Set.univ := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each input's buffer: the point's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is handed at point `t`: the invariant, the core's debts, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' buffers hold their blocks, the output's holds anything, so the body's
    triple applies; the invariant and the debts are carried across untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The invariant is the same assertion at every point, so entering and leaving the region are identities. -/
theorem hin0 (c : Dev nD) : (Pipeline.ΦA spec0 c : sProp 𝕄) ⊢ (dat0 V c).Φ 0 := by
  show (Pipeline.ΦA spec0 c : sProp 𝕄) ⊢ Pipeline.ΦA spec0 c
  exact BI.Entails.refl _

theorem hout0 (c : Dev nD) : (dat0 V c).Φ (Fin.last cfg0.N) ⊢ (Pipeline.ΦA spec0 c : sProp 𝕄) := by
  show (Pipeline.ΦA spec0 c : sProp 𝕄) ⊢ Pipeline.ΦA spec0 c
  exact BI.Entails.refl _

end Cert.Kernel.Reg

end
-- ==== Proof.K.R1a.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (the accumulators are zeroed under it), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the body's second conditional (the accumulators are copied out under it). -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last point the two statistics outputs are idle and not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last point they are live. -/
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel

/-! ## Views and memrefs the contents are stated through -/

abbrev VO1_4 : View sig .tc .vmem S5000x128 .f32 := (Memref.whole cc1_stg4_0 : Memref sig .tc .vmem S5000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
/-- The two carried accumulators: whole scoped buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)
abbrev hs1_3 (t : Fin cfg1.N) : (st1_3 t).IsWhole := hstage1_3 ((cfg1.slots t 3).cast nbuf1_3)
abbrev hs1_4 (t : Fin cfg1.N) : (st1_4 t).IsWhole := hstage1_4 ((cfg1.slots t 4).cast nbuf1_4)
abbrev hs1_5 (t : Fin cfg1.N) : (st1_5 t).IsWhole := hstage1_5 ((cfg1.slots t 5).cast nbuf1_5)
abbrev hs1_6 (t : Fin cfg1.N) : (st1_6 t).IsWhole := hstage1_6 ((cfg1.slots t 6).cast nbuf1_6)

/-- The class invariant with the two accumulators split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

set_option maxHeartbeats 1000000 in
/-- The body at the FIRST point (the accumulators zeroed, nothing copied out), on whole memrefs: the four inputs at
    their contents, the block output at anything, the two statistics outputs at contents handed back untouched, the two
    accumulators at anything; it runs to the continuation holding the inputs as they were, the block output and the two
    accumulators each with its pieces written (the lists the run finds). -/
noncomputable def kernelRun1_A (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ (∃ d, owns (c : Thread nD τ) a8 fullShare d) ∗ (∃ d, owns (c : Thread nD τ) a9 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc1__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at a MIDDLE point (nothing zeroed, nothing copied out), on whole memrefs: as at the first point, but the
    two accumulators at the contents the point before left. -/
noncomputable def kernelRun1_B (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc1__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6; obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at the LAST point (nothing zeroed, the accumulators copied out), on whole memrefs: the two accumulators at
    the contents the point before left, every output at anything; every output and both accumulators end with their
    pieces written. -/
noncomputable def kernelRun1_C (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ (∃ d, owns (c : Thread nD τ) a6 fullShare d) ∗ (∃ d, owns (c : Thread nD τ) a7 fullShare d) ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc1__combine_kernel i a1 ha1 a2 ha2 a3 ha3 a4 ha4 a5 ha5 a6 ha6 a7 ha7 a8 ha8 a9 ha9) K } := by
  refine ⟨?_, ?_, ?_, ?_, ?_, fun E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves in the outputs and in the carried accumulators -/

/-- At the first point the body's store into the block output covers its buffer. -/
theorem cover1_A_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) (y : S5000x128.Idx) :
    ∃ pc ∈ (kernelRun1_A c i a1 ha1 a2 ha2 a3 ha3 a4 ha4 a5 ha5 a6 ha6 a7 ha7 a8 ha8 a9 ha9 hc0 hc1 x0 x1 x2 x3).1, y ∈ pc.1.set :=
  View.cover_of_tiledL (kernelRun1_A c i a1 ha1 a2 ha2 a3 ha3 a4 ha4 a5 ha5 a6 ha6 a7 ha7 a8 ha8 a9 ha9 hc0 hc1 x0 x1 x2 x3).1 S5000x128.size (by sl_kernel_rfl) y

/-- What the first point leaves in the block output's staging buffer: its pieces read back. -/
noncomputable def out1_A_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) : Vec F S5000x128 .f32 :=
  VO1_4.read (Elt F) (VO1_4.writes (Elt F) VO1_4.junk (kernelRun1_A c i a1 ha1 a2 ha2 a3 ha3 a4 ha4 a5 ha5 a6 ha6 a7 ha7 a8 ha8 a9 ha9 hc0 hc1 x0 x1 x2 x3).1)

/-- At the first point the stores into the sum accumulator cover it. -/
theorem scover1_A_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) (y : S1x128.Idx) :
    ∃ pc ∈ (kernelRun1_A c i a1 ha1 a2 ha2 a3 ha3 a4 ha4 a5 ha5 a6 ha6 a7 ha7 a8 ha8 a9 ha9 hc0 hc1 x0 x1 x2 x3).2.1, y ∈ pc.1.set :=
  View.cover_of_tiledL (kernelRun1_A c i a1 ha1 a2 ha2 a3 ha3 a4 ha4 a5 ha5 a6 ha6 a7 ha7 a8 ha8 a9 ha9 hc0 hc1 x0 x1 x2 x3).2.1 S1x128.size (by sl_kernel_rfl) y

/-- What the first point leaves in the sum accumulator. -/
noncomputable def sout1_A_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) : Vec F S1x128 .f32 :=
  VS1_0.read (Elt F) (VS1_0.writes (Elt F) VS1_0.junk (kernelRun1_A c i a1 ha1 a2 ha2 a3 ha3 a4 ha4 a5 ha5 a6 ha6 a7 ha7 a8 ha8 a9 ha9 hc0 hc1 x0 x1 x2 x3).2.1)

/-- At the first point the stores into the sum-of-squares accumulator cover it. -/
theorem scover1_A_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) (y : S1x128.Idx) :
    ∃ pc ∈ (kernelRun1_A c i a1 ha1 a2 ha2 a3 ha3 a4 ha4 a5 ha5 a6 ha6 a7 ha7 a8 ha8 a9 ha9 hc0 hc1 x0 x1 x2 x3).2.2.1, y ∈ pc.1.set :=
  View.cover_of_tiledL (kernelRun1_A c i a1 ha1 a2 ha2 a3 ha3 a4 ha4 a5 ha5 a6 ha6 a7 ha7 a8 ha8 a9 ha9 hc0 hc1 x0 x1 x2 x3).2.2.1 S1x128.size (by sl_kernel_rfl) y

/-- What the first point leaves in the sum-of-squares accumulator. -/
noncomputable def sout1_A_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) : Vec F S1x128 .f32 :=
  VS1_1.read (Elt F) (VS1_1.writes (Elt F) VS1_1.junk (kernelRun1_A c i a1 ha1 a2 ha2 a3 ha3 a4 ha4 a5 ha5 a6 ha6 a7 ha7 a8 ha8 a9 ha9 hc0 hc1 x0 x1 x2 x3).2.2.1)

/-- At a middle point the body's store into the block output covers its buffer. -/
theorem cover1_B_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun1_B c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun1_B c i a1 ha1 a2 ha2 a3 ha3 a4 ha4 a5 ha5 a6 ha6 a7 ha7 a8 ha8 a9 ha9 hc0 hc1 x0 x1 x2 x3 xs0 xs1).1 S5000x128.size (by sl_kernel_rfl) y

/-- What a middle point leaves in the block output's staging buffer. -/
noncomputable def out1_B_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO1_4.read (Elt F) (VO1_4.writes (Elt F) VO1_4.junk (kernelRun1_B c i a1 ha1 a2 ha2 a3 ha3 a4 ha4 a5 ha5 a6 ha6 a7 ha7 a8 ha8 a9 ha9 hc0 hc1 x0 x1 x2 x3 xs0 xs1).1)

/-- At a middle point the store into the sum accumulator covers it. -/
theorem scover1_B_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_B c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun1_B c i a1 ha1 a2 ha2 a3 ha3 a4 ha4 a5 ha5 a6 ha6 a7 ha7 a8 ha8 a9 ha9 hc0 hc1 x0 x1 x2 x3 xs0 xs1).2.1 S1x128.size (by sl_kernel_rfl) y

/-- What a middle point leaves in the sum accumulator. -/
noncomputable def sout1_B_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS1_0.read (Elt F) (VS1_0.writes (Elt F) VS1_0.junk (kernelRun1_B c i a1 ha1 a2 ha2 a3 ha3 a4 ha4 a5 ha5 a6 ha6 a7 ha7 a8 ha8 a9 ha9 hc0 hc1 x0 x1 x2 x3 xs0 xs1).2.1)

/-- At a middle point the store into the sum-of-squares accumulator covers it. -/
theorem scover1_B_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_B c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun1_B c i a1 ha1 a2 ha2 a3 ha3 a4 ha4 a5 ha5 a6 ha6 a7 ha7 a8 ha8 a9 ha9 hc0 hc1 x0 x1 x2 x3 xs0 xs1).2.2.1 S1x128.size (by sl_kernel_rfl) y

/-- What a middle point leaves in the sum-of-squares accumulator. -/
noncomputable def sout1_B_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS1_1.read (Elt F) (VS1_1.writes (Elt F) VS1_1.junk (kernelRun1_B c i a1 ha1 a2 ha2 a3 ha3 a4 ha4 a5 ha5 a6 ha6 a7 ha7 a8 ha8 a9 ha9 hc0 hc1 x0 x1 x2 x3 xs0 xs1).2.2.1)

/-- At the last point the body's store into the block output covers its buffer. -/
theorem cover1_C_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun1_C c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun1_C c i a1 ha1 a2 ha2 a3 ha3 a4 ha4 a5 ha5 a6 ha6 a7 ha7 a8 ha8 a9 ha9 hc0 hc1 x0 x1 x2 x3 xs0 xs1).1 S5000x128.size (by sl_kernel_rfl) y

/-- What the last point leaves in the block output's staging buffer. -/
noncomputable def out1_C_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO1_4.read (Elt F) (VO1_4.writes (Elt F) VO1_4.junk (kernelRun1_C c i a1 ha1 a2 ha2 a3 ha3 a4 ha4 a5 ha5 a6 ha6 a7 ha7 a8 ha8 a9 ha9 hc0 hc1 x0 x1 x2 x3 xs0 xs1).1)

/-- At the last point the copy into the sum output covers its buffer. -/
theorem cover1_C_5 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_C c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun1_C c i a1 ha1 a2 ha2 a3 ha3 a4 ha4 a5 ha5 a6 ha6 a7 ha7 a8 ha8 a9 ha9 hc0 hc1 x0 x1 x2 x3 xs0 xs1).2.1 S1x128.size (by sl_kernel_rfl) y

/-- What the last point leaves in the sum output's staging buffer. -/
noncomputable def out1_C_5 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO1_5.read (Elt F) (VO1_5.writes (Elt F) VO1_5.junk (kernelRun1_C c i a1 ha1 a2 ha2 a3 ha3 a4 ha4 a5 ha5 a6 ha6 a7 ha7 a8 ha8 a9 ha9 hc0 hc1 x0 x1 x2 x3 xs0 xs1).2.1)

/-- At the last point the copy into the sum-of-squares output covers its buffer. -/
theorem cover1_C_6 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_C c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun1_C c i a1 ha1 a2 ha2 a3 ha3 a4 ha4 a5 ha5 a6 ha6 a7 ha7 a8 ha8 a9 ha9 hc0 hc1 x0 x1 x2 x3 xs0 xs1).2.2.1 S1x128.size (by sl_kernel_rfl) y

/-- What the last point leaves in the sum-of-squares output's staging buffer. -/
noncomputable def out1_C_6 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO1_6.read (Elt F) (VO1_6.writes (Elt F) VO1_6.junk (kernelRun1_C c i a1 ha1 a2 ha2 a3 ha3 a4 ha4 a5 ha5 a6 ha6 a7 ha7 a8 ha8 a9 ha9 hc0 hc1 x0 x1 x2 x3 xs0 xs1).2.2.1)

/-- At the last point the store into the sum accumulator covers it. -/
theorem scover1_C_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_C c i a1 ha1 a2 ha2 a3 ha3 a4 ha4 a5 ha5 a6 ha6 a7 ha7 a8 ha8 a9 ha9 hc0 hc1 x0 x1 x2 x3 xs0 xs1).2.2.2.1, y ∈ pc.1.set :=
  View.cover_of_tiledL (kernelRun1_C c i a1 ha1 a2 ha2 a3 ha3 a4 ha4 a5 ha5 a6 ha6 a7 ha7 a8 ha8 a9 ha9 hc0 hc1 x0 x1 x2 x3 xs0 xs1).2.2.2.1 S1x128.size (by sl_kernel_rfl) y

/-- What the last point leaves in the sum accumulator. -/
noncomputable def sout1_C_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS1_0.read (Elt F) (VS1_0.writes (Elt F) VS1_0.junk (kernelRun1_C c i a1 ha1 a2 ha2 a3 ha3 a4 ha4 a5 ha5 a6 ha6 a7 ha7 a8 ha8 a9 ha9 hc0 hc1 x0 x1 x2 x3 xs0 xs1).2.2.2.1)

/-- At the last point the store into the sum-of-squares accumulator covers it. -/
theorem scover1_C_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_C c i a1 ha1 a2 ha2 a3 ha3 a4 ha4 a5 ha5 a6 ha6 a7 ha7 a8 ha8 a9 ha9 hc0 hc1 x0 x1 x2 x3 xs0 xs1).2.2.2.2.1, y ∈ pc.1.set :=
  View.cover_of_tiledL (kernelRun1_C c i a1 ha1 a2 ha2 a3 ha3 a4 ha4 a5 ha5 a6 ha6 a7 ha7 a8 ha8 a9 ha9 hc0 hc1 x0 x1 x2 x3 xs0 xs1).2.2.2.2.1 S1x128.size (by sl_kernel_rfl) y

/-- What the last point leaves in the sum-of-squares accumulator. -/
noncomputable def sout1_C_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS1_1.read (Elt F) (VS1_1.writes (Elt F) VS1_1.junk (kernelRun1_C c i a1 ha1 a2 ha2 a3 ha3 a4 ha4 a5 ha5 a6 ha6 a7 ha7 a8 ha8 a9 ha9 hc0 hc1 x0 x1 x2 x3 xs0 xs1).2.2.2.2.1)

end Cert.Kernel.Reg

end
-- ==== Proof.K.R1.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import proofs.«422700_j84035330113950_1_alg».proof.Proof.K.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging memref at point `t`, spelled as the pipeline passes it. -/
abbrev ms1_0 (t : Fin cfg1.N) : Memref sig .tc .vmem S5000x128 .f32 := win1_0.stage (cfg1.slots t 0)
abbrev ms1_1 (t : Fin cfg1.N) : Memref sig .tc .vmem S5000x128 .f32 := win1_1.stage (cfg1.slots t 1)
abbrev ms1_2 (t : Fin cfg1.N) : Memref sig .tc .vmem S1x128 .f32 := win1_2.stage (cfg1.slots t 2)
abbrev ms1_3 (t : Fin cfg1.N) : Memref sig .tc .vmem S5000x1 .f32 := win1_3.stage (cfg1.slots t 3)
abbrev ms1_4 (t : Fin cfg1.N) : Memref sig .tc .vmem S5000x128 .f32 := win1_4.stage (cfg1.slots t 4)
abbrev ms1_5 (t : Fin cfg1.N) : Memref sig .tc .vmem S1x128 .f32 := win1_5.stage (cfg1.slots t 5)
abbrev ms1_6 (t : Fin cfg1.N) : Memref sig .tc .vmem S1x128 .f32 := win1_6.stage (cfg1.slots t 6)

/-! ## What the outputs and the accumulators hold after each point -/

/-- THE ACCUMULATION. After the body at position `n`: the block output's buffer, the two statistics outputs' buffers
    (copied out at the last point only; before it these two components merely repeat the accumulators and nothing
    consults them), and the two accumulators: the first point's case from anything, every later point's case over
    what the point before left in the accumulators. -/
noncomputable def outsAt1 (c : Dev nD) : (n : ℕ) → n < cfg1.N → Vec F S5000x128 .f32 × Vec F S1x128 .f32 × Vec F S1x128 .f32 × Vec F S1x128 .f32 × Vec F S1x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : n + 1 = 9 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2)
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2)

/-- `outsAt1` at the first point. -/
theorem outsAt1_A (c : Dev nD) (t : Fin cfg1.N) (h0 : t.val = 0) (h1 : ¬t.val = 9) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 9) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 9) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The inputs' staging buffers -/

/-- An input window's current staging buffer holds its block at every point, fetched there or not (an unfetched
    window's block index has not moved), for any proof data whose array is the region-entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The invariant -/

/-- The region invariant before position `n`: before the first point the class's (every scratch at anything);
    afterwards the two accumulators at what the point before left, the rest of the scoped buffers unopened, the
    generator register at some state. -/
noncomputable def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.2.1 ∗ owns (c : Thread nD τ) scM1_1 fullShare (outsAt1 V c n hn).2.2.2.2) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.2.1 ∗ owns (c : Thread nD τ) scM1_1 fullShare (outsAt1 V c n hn).2.2.2.2) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.2.1 ∗ owns (c : Thread nD τ) scM1_1 fullShare (outsAt1 V c (n - 1) (by omega)).2.2.2.2) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of pipeline 1 on core c at the region-entry contents V. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem recorded_eq1 (c : Dev nD) (t : Fin (cfg1.N + 1)) : (dat1 V c).recorded t = Set.univ := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
noncomputable def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 4800000 in
/-- The body at any point: the inputs' memrefs hold their blocks; the closed forms of the two conditions say which of
    the three cases the point is in, and that case's run applies; the invariant hands the body the two accumulators (at
    anything at the first point, afterwards at what the point before left) and takes them back at this point's
    contents; the statistics outputs' buffers are handed back untouched before the last point; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val = 0
  · have h1 : ¬t.val = 9 := by omega
    rw [Dat.leavesExact_idle (dat1 V c) 5 t (idleAt1_5 t (fun h => h1 ((hcond1_1 t).mp h))) (noFlush1_5 t (fun h => h1 ((hcond1_1 t).mp h)))]
    rw [Dat.leavesExact_idle (dat1 V c) 6 t (idleAt1_6 t (fun h => h1 ((hcond1_1 t).mp h))) (noFlush1_6 t (fun h => h1 ((hcond1_1 t).mp h)))]
    rw [outsAt1_A V c t h0 h1]
    unfold out1_A_4 sout1_A_0 sout1_A_1; (try dsimp only)
    rw [PhiS1_castSucc V c t, PhiS1_zero V c _ _ h0, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _)
    isplitl [H5]; · iexists _; iexact H5
    iexists _; iexact H6
  · by_cases h1 : t.val = 9
    · rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_4 out1_C_5 out1_C_6 sout1_C_0 sout1_C_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold out1_B_4 sout1_B_0 sout1_B_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _)
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 10 := N_1; omega)

end Cert.Kernel.Reg

end
-- ==== Proof.K.R2.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the BatchNorm+ReLU kernel `cc2__bn_relu_kernel` (pipeline 2), at the entry contents `V`

Six windows on a grid of ten points: window 0 is the pre-normalisation block (rows `5000 t … 5000 t + 4999`), windows
1 to 4 are the four `[1,128]` rows (mean, variance, scale, shift; their block index never moves), window 5 is the
output block. The body reads the five input buffers whole and overwrites the output buffer whole with
`max (((x - mean) * rsqrt (var + ε)) * scale + shift, 0)`. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there or
    not: where it did not, the block index has not moved since the last fetch and the body left the buffer as it was.
    Stated for any proof data whose array is `V`'s (`hA`) and whose body leaves the block in place (`hafter`). -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole `[5000,128]` buffer, as one rectangle. -/
abbrev r2_0 : Rect S5000x128 := Rect.unit (s := S5000x128) ![0, 0] S5000x128.size inb_S5000x128_S5000x128_0_0
/-- The whole `[1,128]` buffer, as one rectangle. -/
abbrev r2_1 : Rect S1x128 := Rect.unit (s := S1x128) ![0, 0] S1x128.size inb_S1x128_S1x128_0_0

/-! ## What the body leaves in the output window's buffer -/

/-- Window 5's staging buffer after the body, from the five input blocks in WINDOW order (`x0` the data block, `x1`
    the mean row, `x2` the variance row, `x3` the scale row, `x4` the shift row): its one store, over the whole buffer.
    The payload takes the variance row before the mean row. -/
def out2_5 (x0 : Vec F S5000x128 .f32) (x1 x2 x3 x4 : Vec F S1x128 .f32) : Vec F S5000x128 .f32 :=
  View.canon [⟨r2_0, k2_pay1 (View.ld x0 r2_0) (View.ld x2 r2_1) (View.ld x1 r2_1) (View.ld x3 r2_1) (View.ld x4 r2_1)⟩]

/-- The one store is of the whole buffer, so it covers it. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the five inputs' at read contents `x0 … x4` (window order) and the
    output's at anything, runs to the continuation holding the inputs' as they were and the output's at `out2_5` of
    the inputs': the six whole-buffer loads read what is held, and the one store covers the output buffer. -/
theorem sound_kernel2 (c : Dev nD) (E : Set ℕ) (i : grid2.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__bn_relu_kernel i arg0 harg0 arg1 harg1 arg2 harg2 arg3 harg3 arg4 harg4 arg5 harg5) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core c at the region-entry contents V. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]
/-- Every window is held at the full share. -/
theorem q_eq2 (c : Dev nD) (w : Fin cfg2.W) : (dat2 V c).q w = fullShare := by
  dsimp only [dat2]
/-- The core owes nothing at any boundary. -/
theorem owed_eq2 (c : Dev nD) (t : Fin (cfg2.N + 1)) : (dat2 V c).owed t = 0 := by
  dsimp only [dat2]
/-- Nothing is excluded from the record at any boundary. -/
theorem recorded_eq2 (c : Dev nD) (t : Fin (cfg2.N + 1)) : (dat2 V c).recorded t = Set.univ := by
  dsimp only [dat2]

/-! What the body leaves, window by window: each input's buffer at its block, the output's at `out2_5` of the blocks. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debt, and the six current staging buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' staging buffers hold their blocks, so the body's triple applies; the invariant and
    the core's debt pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Entering and leaving the region: the invariant is the class's own at every boundary -/

theorem hin2 (c : Dev nD) : (Pipeline.ΦA spec2 c : sProp 𝕄) ⊢ (dat2 V c).Φ 0 := BIBase.Entails.rfl
theorem hout2 (c : Dev nD) : (dat2 V c).Φ (Fin.last cfg2.N) ⊢ (Pipeline.ΦA spec2 c : sProp 𝕄) := BIBase.Entails.rfl

end Cert.Kernel.Reg

end
-- ==== Proof.K.R3.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 3: one matrix product per grid point, at the region-entry contents `V`

Each grid point multiplies the point's row block (window 0) by the weight matrix (window 1, the same block at
every point) and overwrites the point's output block (window 2) with the product. -/

/-! ## What each window's array holds for a point -/

/-- The block of window `w` belonging to point `t`, read from the window's array as `V` gives it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block is in its staging buffer at every point: for any proof data over `V`'s array whose body leaves
    that buffer as it found it, the buffer holds the point's block before the body runs. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix is fetched at the first point only; its block index never moves, and the body leaves the
    buffer alone, so the buffer holds the matrix at every later point too. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The one store of the body -/

/-- The rectangles the body loads and stores through: each is its whole buffer. -/
abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x128 := Rect.unit (s := S5000x128) ![0, 0] S5000x128.size inb_S5000x128_S5000x128_0_0

/-- What the output buffer reads after the body, as a function of what the two input buffers read: the single
    store's payload (the matrix product of the two loaded values) laid over the whole buffer. -/
def out3_2 (x0 : Vec F S5000x128 .f32) (x1 : Vec F S128x128 .f32) : Vec F S5000x128 .f32 :=
  View.canon [⟨r3_2, k3_pay1 (View.ld x0 r3_0) (View.ld x1 r3_1)⟩]

/-- That store's rectangle has as many indices as the buffer, so every index of the buffer lies in it. -/
theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

/-! ## The body's triple -/

set_option maxHeartbeats 1000000 in
/-- The body on whole staging memrefs: given the two inputs at contents `x0`, `x1` and the output at any contents,
    it ends with the inputs unchanged and the output reading `out3_2 x0 x1`. The body loads both inputs whole,
    loads the output (the value is not used), and stores the product over the whole output. -/
theorem sound_kernel3 (c : Dev nD) (E : Set ℕ) (i : grid3.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_2 _)

/-! ## The pipeline's proof data -/

/-- The proof data of pipeline 3 on core c at the region-entry contents V. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem recorded_eq3 (c : Dev nD) (t : Fin (cfg3.N + 1)) : (dat3 V c).recorded t = Set.univ := by
  dsimp only [dat3]

/-- What the body leaves in each window's buffer. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- What the body finds in each input's buffer: the point's block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is handed at point `t`: the invariant, the core's debts, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: both inputs' buffers hold their blocks, the output's holds anything, so the body's
    triple applies; the invariant and the debts are carried across untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- The invariant is the same assertion at every point, so entering and leaving the region are identities. -/
theorem hin3 (c : Dev nD) : (Pipeline.ΦA spec3 c : sProp 𝕄) ⊢ (dat3 V c).Φ 0 := by
  show (Pipeline.ΦA spec3 c : sProp 𝕄) ⊢ Pipeline.ΦA spec3 c
  exact BI.Entails.refl _

theorem hout3 (c : Dev nD) : (dat3 V c).Φ (Fin.last cfg3.N) ⊢ (Pipeline.ΦA spec3 c : sProp 𝕄) := by
  show (Pipeline.ΦA spec3 c : sProp 𝕄) ⊢ Pipeline.ΦA spec3 c
  exact BI.Entails.refl _

end Cert.Kernel.Reg

end
-- ==== Proof.K.R4a.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (the accumulators are zeroed under it), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The condition of the body's second conditional (the accumulators are copied out under it). -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- Away from the last point the two statistics outputs are idle and not written back. -/
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
/-- At the last point they are live. -/
theorem liveAt4_5 : ∀ t : Fin cfg4.N, cond4_1 (grid4.coords t) → cfg4.idle 5 (grid4.coords t) = false := by decide +kernel
theorem liveAt4_6 : ∀ t : Fin cfg4.N, cond4_1 (grid4.coords t) → cfg4.idle 6 (grid4.coords t) = false := by decide +kernel

/-! ## Views and memrefs the contents are stated through -/

abbrev VO4_4 : View sig .tc .vmem S5000x128 .f32 := (Memref.whole cc4_stg4_0 : Memref sig .tc .vmem S5000x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
/-- The two carried accumulators: whole scoped buffers of the kernel's own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

abbrev hs4_0 (t : Fin cfg4.N) : (st4_0 t).IsWhole := hstage4_0 ((cfg4.slots t 0).cast nbuf4_0)
abbrev hs4_1 (t : Fin cfg4.N) : (st4_1 t).IsWhole := hstage4_1 ((cfg4.slots t 1).cast nbuf4_1)
abbrev hs4_2 (t : Fin cfg4.N) : (st4_2 t).IsWhole := hstage4_2 ((cfg4.slots t 2).cast nbuf4_2)
abbrev hs4_3 (t : Fin cfg4.N) : (st4_3 t).IsWhole := hstage4_3 ((cfg4.slots t 3).cast nbuf4_3)
abbrev hs4_4 (t : Fin cfg4.N) : (st4_4 t).IsWhole := hstage4_4 ((cfg4.slots t 4).cast nbuf4_4)
abbrev hs4_5 (t : Fin cfg4.N) : (st4_5 t).IsWhole := hstage4_5 ((cfg4.slots t 5).cast nbuf4_5)
abbrev hs4_6 (t : Fin cfg4.N) : (st4_6 t).IsWhole := hstage4_6 ((cfg4.slots t 6).cast nbuf4_6)

/-- The class invariant with the two accumulators split out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

set_option maxHeartbeats 1000000 in
/-- The body at the FIRST point (the accumulators zeroed, nothing copied out), on whole memrefs: the four inputs at
    their contents, the block output at anything, the two statistics outputs at contents handed back untouched, the two
    accumulators at anything; it runs to the continuation holding the inputs as they were, the block output and the two
    accumulators each with its pieces written (the lists the run finds). -/
noncomputable def kernelRun4_A (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ (∃ d, owns (c : Thread nD τ) a8 fullShare d) ∗ (∃ d, owns (c : Thread nD τ) a9 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc4__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc4__combine_kernel_eq_skeleton]; unfold cc4__combine_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at a MIDDLE point (nothing zeroed, nothing copied out), on whole memrefs: as at the first point, but the
    two accumulators at the contents the point before left. -/
noncomputable def kernelRun4_B (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc4__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc4__combine_kernel_eq_skeleton]; unfold cc4__combine_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6; obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at the LAST point (nothing zeroed, the accumulators copied out), on whole memrefs: the two accumulators at
    the contents the point before left, every output at anything; every output and both accumulators end with their
    pieces written. -/
noncomputable def kernelRun4_C (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ (∃ d, owns (c : Thread nD τ) a6 fullShare d) ∗ (∃ d, owns (c : Thread nD τ) a7 fullShare d) ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc4__combine_kernel i a1 ha1 a2 ha2 a3 ha3 a4 ha4 a5 ha5 a6 ha6 a7 ha7 a8 ha8 a9 ha9) K } := by
  refine ⟨?_, ?_, ?_, ?_, ?_, fun E K => ?run⟩
  case run =>
    simp only [cc4__combine_kernel_eq_skeleton]; unfold cc4__combine_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves in the outputs and in the carried accumulators -/

/-- At the first point the body's store into the block output covers its buffer. -/
theorem cover4_A_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) (y : S5000x128.Idx) :
    ∃ pc ∈ (kernelRun4_A c i a1 ha1 a2 ha2 a3 ha3 a4 ha4 a5 ha5 a6 ha6 a7 ha7 a8 ha8 a9 ha9 hc0 hc1 x0 x1 x2 x3).1, y ∈ pc.1.set :=
  View.cover_of_tiledL (kernelRun4_A c i a1 ha1 a2 ha2 a3 ha3 a4 ha4 a5 ha5 a6 ha6 a7 ha7 a8 ha8 a9 ha9 hc0 hc1 x0 x1 x2 x3).1 S5000x128.size (by sl_kernel_rfl) y

/-- What the first point leaves in the block output's staging buffer: its pieces read back. -/
noncomputable def out4_A_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) : Vec F S5000x128 .f32 :=
  VO4_4.read (Elt F) (VO4_4.writes (Elt F) VO4_4.junk (kernelRun4_A c i a1 ha1 a2 ha2 a3 ha3 a4 ha4 a5 ha5 a6 ha6 a7 ha7 a8 ha8 a9 ha9 hc0 hc1 x0 x1 x2 x3).1)

/-- At the first point the stores into the sum accumulator cover it. -/
theorem scover4_A_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) (y : S1x128.Idx) :
    ∃ pc ∈ (kernelRun4_A c i a1 ha1 a2 ha2 a3 ha3 a4 ha4 a5 ha5 a6 ha6 a7 ha7 a8 ha8 a9 ha9 hc0 hc1 x0 x1 x2 x3).2.1, y ∈ pc.1.set :=
  View.cover_of_tiledL (kernelRun4_A c i a1 ha1 a2 ha2 a3 ha3 a4 ha4 a5 ha5 a6 ha6 a7 ha7 a8 ha8 a9 ha9 hc0 hc1 x0 x1 x2 x3).2.1 S1x128.size (by sl_kernel_rfl) y

/-- What the first point leaves in the sum accumulator. -/
noncomputable def sout4_A_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) : Vec F S1x128 .f32 :=
  VS4_0.read (Elt F) (VS4_0.writes (Elt F) VS4_0.junk (kernelRun4_A c i a1 ha1 a2 ha2 a3 ha3 a4 ha4 a5 ha5 a6 ha6 a7 ha7 a8 ha8 a9 ha9 hc0 hc1 x0 x1 x2 x3).2.1)

/-- At the first point the stores into the sum-of-squares accumulator cover it. -/
theorem scover4_A_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) (y : S1x128.Idx) :
    ∃ pc ∈ (kernelRun4_A c i a1 ha1 a2 ha2 a3 ha3 a4 ha4 a5 ha5 a6 ha6 a7 ha7 a8 ha8 a9 ha9 hc0 hc1 x0 x1 x2 x3).2.2.1, y ∈ pc.1.set :=
  View.cover_of_tiledL (kernelRun4_A c i a1 ha1 a2 ha2 a3 ha3 a4 ha4 a5 ha5 a6 ha6 a7 ha7 a8 ha8 a9 ha9 hc0 hc1 x0 x1 x2 x3).2.2.1 S1x128.size (by sl_kernel_rfl) y

/-- What the first point leaves in the sum-of-squares accumulator. -/
noncomputable def sout4_A_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) : Vec F S1x128 .f32 :=
  VS4_1.read (Elt F) (VS4_1.writes (Elt F) VS4_1.junk (kernelRun4_A c i a1 ha1 a2 ha2 a3 ha3 a4 ha4 a5 ha5 a6 ha6 a7 ha7 a8 ha8 a9 ha9 hc0 hc1 x0 x1 x2 x3).2.2.1)

/-- At a middle point the body's store into the block output covers its buffer. -/
theorem cover4_B_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun4_B c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun4_B c i a1 ha1 a2 ha2 a3 ha3 a4 ha4 a5 ha5 a6 ha6 a7 ha7 a8 ha8 a9 ha9 hc0 hc1 x0 x1 x2 x3 xs0 xs1).1 S5000x128.size (by sl_kernel_rfl) y

/-- What a middle point leaves in the block output's staging buffer. -/
noncomputable def out4_B_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO4_4.read (Elt F) (VO4_4.writes (Elt F) VO4_4.junk (kernelRun4_B c i a1 ha1 a2 ha2 a3 ha3 a4 ha4 a5 ha5 a6 ha6 a7 ha7 a8 ha8 a9 ha9 hc0 hc1 x0 x1 x2 x3 xs0 xs1).1)

/-- At a middle point the store into the sum accumulator covers it. -/
theorem scover4_B_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_B c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun4_B c i a1 ha1 a2 ha2 a3 ha3 a4 ha4 a5 ha5 a6 ha6 a7 ha7 a8 ha8 a9 ha9 hc0 hc1 x0 x1 x2 x3 xs0 xs1).2.1 S1x128.size (by sl_kernel_rfl) y

/-- What a middle point leaves in the sum accumulator. -/
noncomputable def sout4_B_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS4_0.read (Elt F) (VS4_0.writes (Elt F) VS4_0.junk (kernelRun4_B c i a1 ha1 a2 ha2 a3 ha3 a4 ha4 a5 ha5 a6 ha6 a7 ha7 a8 ha8 a9 ha9 hc0 hc1 x0 x1 x2 x3 xs0 xs1).2.1)

/-- At a middle point the store into the sum-of-squares accumulator covers it. -/
theorem scover4_B_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_B c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun4_B c i a1 ha1 a2 ha2 a3 ha3 a4 ha4 a5 ha5 a6 ha6 a7 ha7 a8 ha8 a9 ha9 hc0 hc1 x0 x1 x2 x3 xs0 xs1).2.2.1 S1x128.size (by sl_kernel_rfl) y

/-- What a middle point leaves in the sum-of-squares accumulator. -/
noncomputable def sout4_B_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS4_1.read (Elt F) (VS4_1.writes (Elt F) VS4_1.junk (kernelRun4_B c i a1 ha1 a2 ha2 a3 ha3 a4 ha4 a5 ha5 a6 ha6 a7 ha7 a8 ha8 a9 ha9 hc0 hc1 x0 x1 x2 x3 xs0 xs1).2.2.1)

/-- At the last point the body's store into the block output covers its buffer. -/
theorem cover4_C_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun4_C c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun4_C c i a1 ha1 a2 ha2 a3 ha3 a4 ha4 a5 ha5 a6 ha6 a7 ha7 a8 ha8 a9 ha9 hc0 hc1 x0 x1 x2 x3 xs0 xs1).1 S5000x128.size (by sl_kernel_rfl) y

/-- What the last point leaves in the block output's staging buffer. -/
noncomputable def out4_C_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO4_4.read (Elt F) (VO4_4.writes (Elt F) VO4_4.junk (kernelRun4_C c i a1 ha1 a2 ha2 a3 ha3 a4 ha4 a5 ha5 a6 ha6 a7 ha7 a8 ha8 a9 ha9 hc0 hc1 x0 x1 x2 x3 xs0 xs1).1)

/-- At the last point the copy into the sum output covers its buffer. -/
theorem cover4_C_5 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_C c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun4_C c i a1 ha1 a2 ha2 a3 ha3 a4 ha4 a5 ha5 a6 ha6 a7 ha7 a8 ha8 a9 ha9 hc0 hc1 x0 x1 x2 x3 xs0 xs1).2.1 S1x128.size (by sl_kernel_rfl) y

/-- What the last point leaves in the sum output's staging buffer. -/
noncomputable def out4_C_5 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO4_5.read (Elt F) (VO4_5.writes (Elt F) VO4_5.junk (kernelRun4_C c i a1 ha1 a2 ha2 a3 ha3 a4 ha4 a5 ha5 a6 ha6 a7 ha7 a8 ha8 a9 ha9 hc0 hc1 x0 x1 x2 x3 xs0 xs1).2.1)

/-- At the last point the copy into the sum-of-squares output covers its buffer. -/
theorem cover4_C_6 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_C c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun4_C c i a1 ha1 a2 ha2 a3 ha3 a4 ha4 a5 ha5 a6 ha6 a7 ha7 a8 ha8 a9 ha9 hc0 hc1 x0 x1 x2 x3 xs0 xs1).2.2.1 S1x128.size (by sl_kernel_rfl) y

/-- What the last point leaves in the sum-of-squares output's staging buffer. -/
noncomputable def out4_C_6 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO4_6.read (Elt F) (VO4_6.writes (Elt F) VO4_6.junk (kernelRun4_C c i a1 ha1 a2 ha2 a3 ha3 a4 ha4 a5 ha5 a6 ha6 a7 ha7 a8 ha8 a9 ha9 hc0 hc1 x0 x1 x2 x3 xs0 xs1).2.2.1)

/-- At the last point the store into the sum accumulator covers it. -/
theorem scover4_C_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_C c i a1 ha1 a2 ha2 a3 ha3 a4 ha4 a5 ha5 a6 ha6 a7 ha7 a8 ha8 a9 ha9 hc0 hc1 x0 x1 x2 x3 xs0 xs1).2.2.2.1, y ∈ pc.1.set :=
  View.cover_of_tiledL (kernelRun4_C c i a1 ha1 a2 ha2 a3 ha3 a4 ha4 a5 ha5 a6 ha6 a7 ha7 a8 ha8 a9 ha9 hc0 hc1 x0 x1 x2 x3 xs0 xs1).2.2.2.1 S1x128.size (by sl_kernel_rfl) y

/-- What the last point leaves in the sum accumulator. -/
noncomputable def sout4_C_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS4_0.read (Elt F) (VS4_0.writes (Elt F) VS4_0.junk (kernelRun4_C c i a1 ha1 a2 ha2 a3 ha3 a4 ha4 a5 ha5 a6 ha6 a7 ha7 a8 ha8 a9 ha9 hc0 hc1 x0 x1 x2 x3 xs0 xs1).2.2.2.1)

/-- At the last point the store into the sum-of-squares accumulator covers it. -/
theorem scover4_C_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_C c i a1 ha1 a2 ha2 a3 ha3 a4 ha4 a5 ha5 a6 ha6 a7 ha7 a8 ha8 a9 ha9 hc0 hc1 x0 x1 x2 x3 xs0 xs1).2.2.2.2.1, y ∈ pc.1.set :=
  View.cover_of_tiledL (kernelRun4_C c i a1 ha1 a2 ha2 a3 ha3 a4 ha4 a5 ha5 a6 ha6 a7 ha7 a8 ha8 a9 ha9 hc0 hc1 x0 x1 x2 x3 xs0 xs1).2.2.2.2.1 S1x128.size (by sl_kernel_rfl) y

/-- What the last point leaves in the sum-of-squares accumulator. -/
noncomputable def sout4_C_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS4_1.read (Elt F) (VS4_1.writes (Elt F) VS4_1.junk (kernelRun4_C c i a1 ha1 a2 ha2 a3 ha3 a4 ha4 a5 ha5 a6 ha6 a7 ha7 a8 ha8 a9 ha9 hc0 hc1 x0 x1 x2 x3 xs0 xs1).2.2.2.2.1)

end Cert.Kernel.Reg

end
-- ==== Proof.K.R4.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import proofs.«422700_j84035330113950_1_alg».proof.Proof.K.R4a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each window's current staging memref at point `t`, spelled as the pipeline passes it. -/
abbrev ms4_0 (t : Fin cfg4.N) : Memref sig .tc .vmem S5000x128 .f32 := win4_0.stage (cfg4.slots t 0)
abbrev ms4_1 (t : Fin cfg4.N) : Memref sig .tc .vmem S5000x128 .f32 := win4_1.stage (cfg4.slots t 1)
abbrev ms4_2 (t : Fin cfg4.N) : Memref sig .tc .vmem S1x128 .f32 := win4_2.stage (cfg4.slots t 2)
abbrev ms4_3 (t : Fin cfg4.N) : Memref sig .tc .vmem S5000x1 .f32 := win4_3.stage (cfg4.slots t 3)
abbrev ms4_4 (t : Fin cfg4.N) : Memref sig .tc .vmem S5000x128 .f32 := win4_4.stage (cfg4.slots t 4)
abbrev ms4_5 (t : Fin cfg4.N) : Memref sig .tc .vmem S1x128 .f32 := win4_5.stage (cfg4.slots t 5)
abbrev ms4_6 (t : Fin cfg4.N) : Memref sig .tc .vmem S1x128 .f32 := win4_6.stage (cfg4.slots t 6)

/-! ## What the outputs and the accumulators hold after each point -/

/-- THE ACCUMULATION. After the body at position `n`: the block output's buffer, the two statistics outputs' buffers
    (copied out at the last point only; before it these two components merely repeat the accumulators and nothing
    consults them), and the two accumulators: the first point's case from anything, every later point's case over
    what the point before left in the accumulators. -/
noncomputable def outsAt4 (c : Dev nD) : (n : ℕ) → n < cfg4.N → Vec F S5000x128 .f32 × Vec F S1x128 .f32 × Vec F S1x128 .f32 × Vec F S1x128 .f32 × Vec F S1x128 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h1 : n + 1 = 9 then
      (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)
    else
      (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)

/-- `outsAt4` at the first point. -/
theorem outsAt4_A (c : Dev nD) (t : Fin cfg4.N) (h0 : t.val = 0) (h1 : ¬t.val = 9) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact absurd h0 (Nat.succ_ne_zero n)

/-- `outsAt4` at a middle point: over what the point before left. -/
theorem outsAt4_B (c : Dev nD) (t : Fin cfg4.N) (h0 : ¬t.val = 0) (h1 : ¬t.val = 9) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt4` at the last point: over what the point before left. -/
theorem outsAt4_C (c : Dev nD) (t : Fin cfg4.N) (h0 : ¬t.val = 0) (h1 : t.val = 9) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The inputs' staging buffers -/

/-- An input window's current staging buffer holds its block at every point, fetched there or not (an unfetched
    window's block index has not moved), for any proof data whose array is the region-entry contents and whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The invariant -/

/-- The region invariant before position `n`: before the first point the class's (every scratch at anything);
    afterwards the two accumulators at what the point before left, the rest of the scoped buffers unopened, the
    generator register at some state. -/
noncomputable def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core c at the region-entry contents V. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]
theorem recorded_eq4 (c : Dev nD) (t : Fin (cfg4.N + 1)) : (dat4 V c).recorded t = Set.univ := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, -/
noncomputable def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
noncomputable def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t ∗ (dat4 V c).leavesExact 3 t
    ∗ (dat4 V c).leavesExact 4 t ∗ (dat4 V c).leavesExact 5 t ∗ (dat4 V c).leavesExact 6 t)

set_option maxHeartbeats 4800000 in
/-- The body at any point: the inputs' memrefs hold their blocks; the closed forms of the two conditions say which of
    the three cases the point is in, and that case's run applies; the invariant hands the body the two accumulators (at
    anything at the first point, afterwards at what the point before left) and takes them back at this point's
    contents; the statistics outputs' buffers are handed back untouched before the last point; nothing is owed. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  by_cases h0 : t.val = 0
  · have h1 : ¬t.val = 9 := by omega
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [outsAt4_A V c t h0 h1]
    unfold out4_A_4 sout4_A_0 sout4_A_1; (try dsimp only)
    rw [PhiS4_castSucc V c t, PhiS4_zero V c _ _ h0, PhiA4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _)
          unfold owns; iexists _; isplitr
          swap; · iexact HS1
          ipureintro; exact View.read_writes_of_cover _ _ _ _ _ (scover4_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _ _ _ _ _ _)
    isplitl [H5]; · iexists _; iexact H5
    iexists _; iexact H6
  · by_cases h1 : t.val = 9
    · rw [show (dat4 V c).leavesExact 5 t = owns (c : Thread nD τ) (ms4_5 t) fullShare ((dat4 V c).after 5 t) from by
        unfold Dat.leavesExact; rw [liveAt4_5 t ((hcond4_1 t).mpr h1)], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      rw [outsAt4_C V c t h0 h1]
      unfold out4_C_4 out4_C_5 out4_C_6 sout4_C_0 sout4_C_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _)
      unfold owns; iexists _; isplitr
      swap; · iexact H6
      ipureintro; exact View.read_writes_of_cover _ _ _ _ _ (cover4_C_6 c _ _ _ _ _ _ _ _ _ _ _ _ _ _ _ _ _ _ _ _ _ _ _ _ _ _ _)
    · rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [outsAt4_B V c t h0 h1]
      unfold out4_B_4 sout4_B_0 sout4_B_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B_4 c _ _ _ _ _ _ _ _ _ _ _ _ _ _ _ _ _ _ _ _ _ _ _ _ _ _ _)
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulators' named contents are forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ (Pipeline.ΦA spec4 c : sProp 𝕄) :=
  Phi_out4 V c _ (by rw [Fin.val_last]; have : cfg4.N = 10 := N_4; omega)

end Cert.Kernel.Reg

end
-- ==== Proof.K.R5.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: the BatchNorm+ReLU kernel `cc5__bn_relu_kernel` (pipeline 5), at the entry contents `V`

Six windows on a grid of ten points: window 0 is the pre-normalisation block (rows `5000 t … 5000 t + 4999`), windows
1 to 4 are the four `[1,128]` rows (mean, variance, scale, shift; their block index never moves), window 5 is the
output block. The body reads the five input buffers whole and overwrites the output buffer whole with
`max (((x - mean) * rsqrt (var + ε)) * scale + shift, 0)`. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at every point, whether the pipeline fetched it there or
    not: where it did not, the block index has not moved since the last fetch and the body left the buffer as it was.
    Stated for any proof data whose array is `V`'s (`hA`) and whose body leaves the block in place (`hafter`). -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole `[5000,128]` buffer, as one rectangle. -/
abbrev r5_0 : Rect S5000x128 := Rect.unit (s := S5000x128) ![0, 0] S5000x128.size inb_S5000x128_S5000x128_0_0
/-- The whole `[1,128]` buffer, as one rectangle. -/
abbrev r5_1 : Rect S1x128 := Rect.unit (s := S1x128) ![0, 0] S1x128.size inb_S1x128_S1x128_0_0

/-! ## What the body leaves in the output window's buffer -/

/-- Window 5's staging buffer after the body, from the five input blocks in WINDOW order (`x0` the data block, `x1`
    the mean row, `x2` the variance row, `x3` the scale row, `x4` the shift row): its one store, over the whole buffer.
    The payload takes the variance row before the mean row. -/
def out5_5 (x0 : Vec F S5000x128 .f32) (x1 x2 x3 x4 : Vec F S1x128 .f32) : Vec F S5000x128 .f32 :=
  View.canon [⟨r5_0, k5_pay1 (View.ld x0 r5_0) (View.ld x2 r5_1) (View.ld x1 r5_1) (View.ld x3 r5_1) (View.ld x4 r5_1)⟩]

/-- The one store is of the whole buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the five inputs' at read contents `x0 … x4` (window order) and the
    output's at anything, runs to the continuation holding the inputs' as they were and the output's at `out5_5` of
    the inputs': the six whole-buffer loads read what is held, and the one store covers the output buffer. -/
theorem sound_kernel5 (c : Dev nD) (E : Set ℕ) (i : grid5.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out5_5 x0 x1 x2 x3 x4)) -∗ K ⟨⟩))
      ⊢ wp frame (wpE (defs₀ (F := F)) Variants.none c none) E (cc5__bn_relu_kernel i arg0 harg0 arg1 harg1 arg2 harg2 arg3 harg3 arg4 harg4 arg5 harg5) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core c at the region-entry contents V. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]
/-- Every window is held at the full share. -/
theorem q_eq5 (c : Dev nD) (w : Fin cfg5.W) : (dat5 V c).q w = fullShare := by
  dsimp only [dat5]
/-- The core owes nothing at any boundary. -/
theorem owed_eq5 (c : Dev nD) (t : Fin (cfg5.N + 1)) : (dat5 V c).owed t = 0 := by
  dsimp only [dat5]
/-- Nothing is excluded from the record at any boundary. -/
theorem recorded_eq5 (c : Dev nD) (t : Fin (cfg5.N + 1)) : (dat5 V c).recorded t = Set.univ := by
  dsimp only [dat5]

/-! What the body leaves, window by window: each input's buffer at its block, the output's at `out5_5` of the blocks. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-! Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's debt, and the six current staging buffers, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' staging buffers hold their blocks, so the body's triple applies; the invariant and
    the core's debt pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Entering and leaving the region: the invariant is the class's own at every boundary -/

theorem hin5 (c : Dev nD) : (Pipeline.ΦA spec5 c : sProp 𝕄) ⊢ (dat5 V c).Φ 0 := BIBase.Entails.rfl
theorem hout5 (c : Dev nD) : (dat5 V c).Φ (Fin.last cfg5.N) ⊢ (Pipeline.ΦA spec5 c : sProp 𝕄) := BIBase.Entails.rfl

end Cert.Kernel.Reg

end
-- ==== Proof.K.R6.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 6: one matrix product per grid point, at the region-entry contents `V`

Each grid point multiplies the point's row block (window 0) by the weight matrix (window 1, the same block at
every point) and overwrites the point's output block (window 2) with the product. -/

/-! ## What each window's array holds for a point -/

/-- The block of window `w` belonging to point `t`, read from the window's array as `V` gives it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row block is in its staging buffer at every point: for any proof data over `V`'s array whose body leaves
    that buffer as it found it, the buffer holds the point's block before the body runs. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight matrix is fetched at the first point only; its block index never moves, and the body leaves the
    buffer alone, so the buffer holds the matrix at every later point too. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The one store of the body -/

/-- The rectangles the body loads and stores through: each is its whole buffer. -/
abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S5000x128 := Rect.unit (s := S5000x128) ![0, 0] S5000x128.size inb_S5000x128_S5000x128_0_0

/-- What the output buffer reads after the body, as a function of what the two input buffers read: the single
    store's payload (the matrix product of the two loaded values) laid over the whole buffer. -/
def out6_2 (x0 : Vec F S5000x128 .f32) (x1 : Vec F S128x128 .f32) : Vec F S5000x128 .f32 :=
  View.canon [⟨r6_2, k6_pay1 (View.ld x0 r6_0) (View.ld x1 r6_1)⟩]

/-- That store's rectangle has as many indices as the buffer, so every index of the buffer lies in it. -/
theorem cover6_2 (p0 : Vec F S5000x128 .f32) (y : S5000x128.Idx) :
    ∃ pc ∈ ([⟨r6_2, p0⟩] : List (View.Piece (Elt F) S5000x128 .f32)), y ∈ pc.1.set :=
  View.cover_of_tiled [⟨r6_2, p0⟩] S5000x128.size (by rfl) y

/-! ## The body's triple -/

set_option maxHeartbeats 1000000 in
/-- The body on whole staging memrefs: given the two inputs at contents `x0`, `x1` and the output at any contents,
    it ends with the inputs unchanged and the output reading `out6_2 x0 x1`. The body loads both inputs whole,
    loads the output (the value is not used), and stores the product over the whole output. -/
theorem sound_kernel6 (c : Dev nD) (E : Set ℕ) (i : grid6.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_2 _)

/-! ## The pipeline's proof data -/

/-- The proof data of pipeline 6 on core c at the region-entry contents V. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem q_eq6 (c : Dev nD) (w : Fin cfg6.W) : (dat6 V c).q w = fullShare := by
  dsimp only [dat6]

theorem owed_eq6 (c : Dev nD) (t : Fin (cfg6.N + 1)) : (dat6 V c).owed t = 0 := by
  dsimp only [dat6]

theorem recorded_eq6 (c : Dev nD) (t : Fin (cfg6.N + 1)) : (dat6 V c).recorded t = Set.univ := by
  dsimp only [dat6]

/-- What the body leaves in each window's buffer. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- What the body finds in each input's buffer: the point's block. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

/-- What the body is handed at point `t`: the invariant, the core's debts, and each window's current buffer. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- What it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: both inputs' buffers hold their blocks, the output's holds anything, so the body's
    triple applies; the invariant and the debts are carried across untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- The invariant is the same assertion at every point, so entering and leaving the region are identities. -/
theorem hin6 (c : Dev nD) : (Pipeline.ΦA spec6 c : sProp 𝕄) ⊢ (dat6 V c).Φ 0 := by
  show (Pipeline.ΦA spec6 c : sProp 𝕄) ⊢ Pipeline.ΦA spec6 c
  exact BI.Entails.refl _

theorem hout6 (c : Dev nD) : (dat6 V c).Φ (Fin.last cfg6.N) ⊢ (Pipeline.ΦA spec6 c : sProp 𝕄) := by
  show (Pipeline.ΦA spec6 c : sProp 𝕄) ⊢ Pipeline.ΦA spec6 c
  exact BI.Entails.refl _

end Cert.Kernel.Reg

end
-- ==== Proof.K.R7a.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (the accumulators are zeroed under it), from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val = 0 :=
  (by decide +kernel : ∀ t : Fin grid7.N, cond7_0 (grid7.coords t) ↔ t.val = 0)

/-- The condition of the body's second conditional (the accumulators are copied out under it). -/
abbrev cond7_1 (i : grid7.Coords) : Prop := k7_cond2 i = 1#1
/-- It holds at the last point only. -/
theorem hcond7_1 : ∀ t : Fin cfg7.N, cond7_1 (grid7.coords t) ↔ t.val = 9 :=
  (by decide +kernel : ∀ t : Fin grid7.N, cond7_1 (grid7.coords t) ↔ t.val = 9)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
/-- Away from the last point the two statistics outputs are idle and not written back. -/
theorem idleAt7_5 : ∀ t : Fin cfg7.N, ¬cond7_1 (grid7.coords t) → cfg7.idle 5 (grid7.coords t) = true := by decide +kernel
theorem noFlush7_5 : ∀ t : Fin cfg7.N, ¬cond7_1 (grid7.coords t) → (cfg7.win 5).flush t = false := by decide +kernel
theorem idleAt7_6 : ∀ t : Fin cfg7.N, ¬cond7_1 (grid7.coords t) → cfg7.idle 6 (grid7.coords t) = true := by decide +kernel
theorem noFlush7_6 : ∀ t : Fin cfg7.N, ¬cond7_1 (grid7.coords t) → (cfg7.win 6).flush t = false := by decide +kernel
/-- At the last point they are live. -/
theorem liveAt7_5 : ∀ t : Fin cfg7.N, cond7_1 (grid7.coords t) → cfg7.idle 5 (grid7.coords t) = false := by decide +kernel
theorem liveAt7_6 : ∀ t : Fin cfg7.N, cond7_1 (grid7.coords t) → cfg7.idle 6 (grid7.coords t) = false := by decide +kernel

/-! ## Views and memrefs the contents are stated through -/

abbrev VO7_4 : View sig .tc .vmem S5000x128 .f32 := (Memref.whole cc7_stg4_0 : Memref sig .tc .vmem S5000x128 .f32).view
abbrev VO7_5 : View sig .tc .vmem S1x128 .f32 := (Memref.whole cc7_stg5_0 : Memref sig .tc .vmem S1x128 .f32).view
abbrev VO7_6 : View sig .tc .vmem S1x128 .f32 := (Memref.whole cc7_stg6_0 : Memref sig .tc .vmem S1x128 .f32).view
/-- The two carried accumulators: whole scoped buffers of the kernel's own. -/
abbrev scM7_0 : Memref sig .tc .vmem S1x128 .f32 := Memref.whole cc7_scratch0
abbrev scM7_1 : Memref sig .tc .vmem S1x128 .f32 := Memref.whole cc7_scratch1
abbrev VS7_0 : View sig .tc .vmem S1x128 .f32 := scM7_0.view
abbrev VS7_1 : View sig .tc .vmem S1x128 .f32 := scM7_1.view

abbrev hs7_0 (t : Fin cfg7.N) : (st7_0 t).IsWhole := hstage7_0 ((cfg7.slots t 0).cast nbuf7_0)
abbrev hs7_1 (t : Fin cfg7.N) : (st7_1 t).IsWhole := hstage7_1 ((cfg7.slots t 1).cast nbuf7_1)
abbrev hs7_2 (t : Fin cfg7.N) : (st7_2 t).IsWhole := hstage7_2 ((cfg7.slots t 2).cast nbuf7_2)
abbrev hs7_3 (t : Fin cfg7.N) : (st7_3 t).IsWhole := hstage7_3 ((cfg7.slots t 3).cast nbuf7_3)
abbrev hs7_4 (t : Fin cfg7.N) : (st7_4 t).IsWhole := hstage7_4 ((cfg7.slots t 4).cast nbuf7_4)
abbrev hs7_5 (t : Fin cfg7.N) : (st7_5 t).IsWhole := hstage7_5 ((cfg7.slots t 5).cast nbuf7_5)
abbrev hs7_6 (t : Fin cfg7.N) : (st7_6 t).IsWhole := hstage7_6 ((cfg7.slots t 6).cast nbuf7_6)

/-- The class invariant with the two accumulators split out as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

set_option maxHeartbeats 1000000 in
/-- The body at the FIRST point (the accumulators zeroed, nothing copied out), on whole memrefs: the four inputs at
    their contents, the block output at anything, the two statistics outputs at contents handed back untouched, the two
    accumulators at anything; it runs to the continuation holding the inputs as they were, the block output and the two
    accumulators each with its pieces written (the lists the run finds). -/
noncomputable def kernelRun7_A (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ (∃ d, owns (c : Thread nD τ) a8 fullShare d) ∗ (∃ d, owns (c : Thread nD τ) a9 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc7__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc7__combine_kernel_eq_skeleton]; unfold cc7__combine_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at a MIDDLE point (nothing zeroed, nothing copied out), on whole memrefs: as at the first point, but the
    two accumulators at the contents the point before left. -/
noncomputable def kernelRun7_B (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc7__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc7__combine_kernel_eq_skeleton]; unfold cc7__combine_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6; obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at the LAST point (nothing zeroed, the accumulators copied out), on whole memrefs: the two accumulators at
    the contents the point before left, every output at anything; every output and both accumulators end with their
    pieces written. -/
noncomputable def kernelRun7_C (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ (∃ d, owns (c : Thread nD τ) a6 fullShare d) ∗ (∃ d, owns (c : Thread nD τ) a7 fullShare d) ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc7__combine_kernel i a1 ha1 a2 ha2 a3 ha3 a4 ha4 a5 ha5 a6 ha6 a7 ha7 a8 ha8 a9 ha9) K } := by
  refine ⟨?_, ?_, ?_, ?_, ?_, fun E K => ?run⟩
  case run =>
    simp only [cc7__combine_kernel_eq_skeleton]; unfold cc7__combine_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves in the outputs and in the carried accumulators -/

/-- At the first point the body's store into the block output covers its buffer. -/
theorem cover7_A_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) (y : S5000x128.Idx) :
    ∃ pc ∈ (kernelRun7_A c i a1 ha1 a2 ha2 a3 ha3 a4 ha4 a5 ha5 a6 ha6 a7 ha7 a8 ha8 a9 ha9 hc0 hc1 x0 x1 x2 x3).1, y ∈ pc.1.set :=
  View.cover_of_tiledL (kernelRun7_A c i a1 ha1 a2 ha2 a3 ha3 a4 ha4 a5 ha5 a6 ha6 a7 ha7 a8 ha8 a9 ha9 hc0 hc1 x0 x1 x2 x3).1 S5000x128.size (by sl_kernel_rfl) y

/-- What the first point leaves in the block output's staging buffer: its pieces read back. -/
noncomputable def out7_A_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) : Vec F S5000x128 .f32 :=
  VO7_4.read (Elt F) (VO7_4.writes (Elt F) VO7_4.junk (kernelRun7_A c i a1 ha1 a2 ha2 a3 ha3 a4 ha4 a5 ha5 a6 ha6 a7 ha7 a8 ha8 a9 ha9 hc0 hc1 x0 x1 x2 x3).1)

/-- At the first point the stores into the sum accumulator cover it. -/
theorem scover7_A_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) (y : S1x128.Idx) :
    ∃ pc ∈ (kernelRun7_A c i a1 ha1 a2 ha2 a3 ha3 a4 ha4 a5 ha5 a6 ha6 a7 ha7 a8 ha8 a9 ha9 hc0 hc1 x0 x1 x2 x3).2.1, y ∈ pc.1.set :=
  View.cover_of_tiledL (kernelRun7_A c i a1 ha1 a2 ha2 a3 ha3 a4 ha4 a5 ha5 a6 ha6 a7 ha7 a8 ha8 a9 ha9 hc0 hc1 x0 x1 x2 x3).2.1 S1x128.size (by sl_kernel_rfl) y

/-- What the first point leaves in the sum accumulator. -/
noncomputable def sout7_A_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) : Vec F S1x128 .f32 :=
  VS7_0.read (Elt F) (VS7_0.writes (Elt F) VS7_0.junk (kernelRun7_A c i a1 ha1 a2 ha2 a3 ha3 a4 ha4 a5 ha5 a6 ha6 a7 ha7 a8 ha8 a9 ha9 hc0 hc1 x0 x1 x2 x3).2.1)

/-- At the first point the stores into the sum-of-squares accumulator cover it. -/
theorem scover7_A_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) (y : S1x128.Idx) :
    ∃ pc ∈ (kernelRun7_A c i a1 ha1 a2 ha2 a3 ha3 a4 ha4 a5 ha5 a6 ha6 a7 ha7 a8 ha8 a9 ha9 hc0 hc1 x0 x1 x2 x3).2.2.1, y ∈ pc.1.set :=
  View.cover_of_tiledL (kernelRun7_A c i a1 ha1 a2 ha2 a3 ha3 a4 ha4 a5 ha5 a6 ha6 a7 ha7 a8 ha8 a9 ha9 hc0 hc1 x0 x1 x2 x3).2.2.1 S1x128.size (by sl_kernel_rfl) y

/-- What the first point leaves in the sum-of-squares accumulator. -/
noncomputable def sout7_A_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) : Vec F S1x128 .f32 :=
  VS7_1.read (Elt F) (VS7_1.writes (Elt F) VS7_1.junk (kernelRun7_A c i a1 ha1 a2 ha2 a3 ha3 a4 ha4 a5 ha5 a6 ha6 a7 ha7 a8 ha8 a9 ha9 hc0 hc1 x0 x1 x2 x3).2.2.1)

/-- At a middle point the body's store into the block output covers its buffer. -/
theorem cover7_B_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun7_B c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun7_B c i a1 ha1 a2 ha2 a3 ha3 a4 ha4 a5 ha5 a6 ha6 a7 ha7 a8 ha8 a9 ha9 hc0 hc1 x0 x1 x2 x3 xs0 xs1).1 S5000x128.size (by sl_kernel_rfl) y

/-- What a middle point leaves in the block output's staging buffer. -/
noncomputable def out7_B_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO7_4.read (Elt F) (VO7_4.writes (Elt F) VO7_4.junk (kernelRun7_B c i a1 ha1 a2 ha2 a3 ha3 a4 ha4 a5 ha5 a6 ha6 a7 ha7 a8 ha8 a9 ha9 hc0 hc1 x0 x1 x2 x3 xs0 xs1).1)

/-- At a middle point the store into the sum accumulator covers it. -/
theorem scover7_B_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_B c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun7_B c i a1 ha1 a2 ha2 a3 ha3 a4 ha4 a5 ha5 a6 ha6 a7 ha7 a8 ha8 a9 ha9 hc0 hc1 x0 x1 x2 x3 xs0 xs1).2.1 S1x128.size (by sl_kernel_rfl) y

/-- What a middle point leaves in the sum accumulator. -/
noncomputable def sout7_B_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS7_0.read (Elt F) (VS7_0.writes (Elt F) VS7_0.junk (kernelRun7_B c i a1 ha1 a2 ha2 a3 ha3 a4 ha4 a5 ha5 a6 ha6 a7 ha7 a8 ha8 a9 ha9 hc0 hc1 x0 x1 x2 x3 xs0 xs1).2.1)

/-- At a middle point the store into the sum-of-squares accumulator covers it. -/
theorem scover7_B_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_B c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun7_B c i a1 ha1 a2 ha2 a3 ha3 a4 ha4 a5 ha5 a6 ha6 a7 ha7 a8 ha8 a9 ha9 hc0 hc1 x0 x1 x2 x3 xs0 xs1).2.2.1 S1x128.size (by sl_kernel_rfl) y

/-- What a middle point leaves in the sum-of-squares accumulator. -/
noncomputable def sout7_B_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS7_1.read (Elt F) (VS7_1.writes (Elt F) VS7_1.junk (kernelRun7_B c i a1 ha1 a2 ha2 a3 ha3 a4 ha4 a5 ha5 a6 ha6 a7 ha7 a8 ha8 a9 ha9 hc0 hc1 x0 x1 x2 x3 xs0 xs1).2.2.1)

/-- At the last point the body's store into the block output covers its buffer. -/
theorem cover7_C_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun7_C c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun7_C c i a1 ha1 a2 ha2 a3 ha3 a4 ha4 a5 ha5 a6 ha6 a7 ha7 a8 ha8 a9 ha9 hc0 hc1 x0 x1 x2 x3 xs0 xs1).1 S5000x128.size (by sl_kernel_rfl) y

/-- What the last point leaves in the block output's staging buffer. -/
noncomputable def out7_C_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO7_4.read (Elt F) (VO7_4.writes (Elt F) VO7_4.junk (kernelRun7_C c i a1 ha1 a2 ha2 a3 ha3 a4 ha4 a5 ha5 a6 ha6 a7 ha7 a8 ha8 a9 ha9 hc0 hc1 x0 x1 x2 x3 xs0 xs1).1)

/-- At the last point the copy into the sum output covers its buffer. -/
theorem cover7_C_5 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_C c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun7_C c i a1 ha1 a2 ha2 a3 ha3 a4 ha4 a5 ha5 a6 ha6 a7 ha7 a8 ha8 a9 ha9 hc0 hc1 x0 x1 x2 x3 xs0 xs1).2.1 S1x128.size (by sl_kernel_rfl) y

/-- What the last point leaves in the sum output's staging buffer. -/
noncomputable def out7_C_5 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO7_5.read (Elt F) (VO7_5.writes (Elt F) VO7_5.junk (kernelRun7_C c i a1 ha1 a2 ha2 a3 ha3 a4 ha4 a5 ha5 a6 ha6 a7 ha7 a8 ha8 a9 ha9 hc0 hc1 x0 x1 x2 x3 xs0 xs1).2.1)

/-- At the last point the copy into the sum-of-squares output covers its buffer. -/
theorem cover7_C_6 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_C c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun7_C c i a1 ha1 a2 ha2 a3 ha3 a4 ha4 a5 ha5 a6 ha6 a7 ha7 a8 ha8 a9 ha9 hc0 hc1 x0 x1 x2 x3 xs0 xs1).2.2.1 S1x128.size (by sl_kernel_rfl) y

/-- What the last point leaves in the sum-of-squares output's staging buffer. -/
noncomputable def out7_C_6 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO7_6.read (Elt F) (VO7_6.writes (Elt F) VO7_6.junk (kernelRun7_C c i a1 ha1 a2 ha2 a3 ha3 a4 ha4 a5 ha5 a6 ha6 a7 ha7 a8 ha8 a9 ha9 hc0 hc1 x0 x1 x2 x3 xs0 xs1).2.2.1)

/-- At the last point the store into the sum accumulator covers it. -/
theorem scover7_C_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_C c i a1 ha1 a2 ha2 a3 ha3 a4 ha4 a5 ha5 a6 ha6 a7 ha7 a8 ha8 a9 ha9 hc0 hc1 x0 x1 x2 x3 xs0 xs1).2.2.2.1, y ∈ pc.1.set :=
  View.cover_of_tiledL (kernelRun7_C c i a1 ha1 a2 ha2 a3 ha3 a4 ha4 a5 ha5 a6 ha6 a7 ha7 a8 ha8 a9 ha9 hc0 hc1 x0 x1 x2 x3 xs0 xs1).2.2.2.1 S1x128.size (by sl_kernel_rfl) y

/-- What the last point leaves in the sum accumulator. -/
noncomputable def sout7_C_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS7_0.read (Elt F) (VS7_0.writes (Elt F) VS7_0.junk (kernelRun7_C c i a1 ha1 a2 ha2 a3 ha3 a4 ha4 a5 ha5 a6 ha6 a7 ha7 a8 ha8 a9 ha9 hc0 hc1 x0 x1 x2 x3 xs0 xs1).2.2.2.1)

/-- At the last point the store into the sum-of-squares accumulator covers it. -/
theorem scover7_C_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_C c i a1 ha1 a2 ha2 a3 ha3 a4 ha4 a5 ha5 a6 ha6 a7 ha7 a8 ha8 a9 ha9 hc0 hc1 x0 x1 x2 x3 xs0 xs1).2.2.2.2.1, y ∈ pc.1.set :=
  View.cover_of_tiledL (kernelRun7_C c i a1 ha1 a2 ha2 a3 ha3 a4 ha4 a5 ha5 a6 ha6 a7 ha7 a8 ha8 a9 ha9 hc0 hc1 x0 x1 x2 x3 xs0 xs1).2.2.2.2.1 S1x128.size (by sl_kernel_rfl) y

/-- What the last point leaves in the sum-of-squares accumulator. -/
noncomputable def sout7_C_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS7_1.read (Elt F) (VS7_1.writes (Elt F) VS7_1.junk (kernelRun7_C c i a1 ha1 a2 ha2 a3 ha3 a4 ha4 a5 ha5 a6 ha6 a7 ha7 a8 ha8 a9 ha9 hc0 hc1 x0 x1 x2 x3 xs0 xs1).2.2.2.2.1)

end Cert.Kernel.Reg

end
-- ==== Proof.K.R7.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import proofs.«422700_j84035330113950_1_alg».proof.Proof.K.R7a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each window's current staging memref at point `t`, spelled as the pipeline passes it. -/
abbrev ms7_0 (t : Fin cfg7.N) : Memref sig .tc .vmem S5000x128 .f32 := win7_0.stage (cfg7.slots t 0)
abbrev ms7_1 (t : Fin cfg7.N) : Memref sig .tc .vmem S5000x128 .f32 := win7_1.stage (cfg7.slots t 1)
abbrev ms7_2 (t : Fin cfg7.N) : Memref sig .tc .vmem S1x128 .f32 := win7_2.stage (cfg7.slots t 2)
abbrev ms7_3 (t : Fin cfg7.N) : Memref sig .tc .vmem S5000x1 .f32 := win7_3.stage (cfg7.slots t 3)
abbrev ms7_4 (t : Fin cfg7.N) : Memref sig .tc .vmem S5000x128 .f32 := win7_4.stage (cfg7.slots t 4)
abbrev ms7_5 (t : Fin cfg7.N) : Memref sig .tc .vmem S1x128 .f32 := win7_5.stage (cfg7.slots t 5)
abbrev ms7_6 (t : Fin cfg7.N) : Memref sig .tc .vmem S1x128 .f32 := win7_6.stage (cfg7.slots t 6)

/-! ## What the outputs and the accumulators hold after each point -/

/-- THE ACCUMULATION. After the body at position `n`: the block output's buffer, the two statistics outputs' buffers
    (copied out at the last point only; before it these two components merely repeat the accumulators and nothing
    consults them), and the two accumulators: the first point's case from anything, every later point's case over
    what the point before left in the accumulators. -/
noncomputable def outsAt7 (c : Dev nD) : (n : ℕ) → n < cfg7.N → Vec F S5000x128 .f32 × Vec F S1x128 .f32 × Vec F S1x128 .f32 × Vec F S1x128 .f32 × Vec F S1x128 .f32
  | 0, hn => (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩))
  | n + 1, hn =>
    if h1 : n + 1 = 9 then
      (out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)
    else
      (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)

/-- `outsAt7` at the first point. -/
theorem outsAt7_A (c : Dev nD) (t : Fin cfg7.N) (h0 : t.val = 0) (h1 : ¬t.val = 9) :
    outsAt7 V c t.val t.isLt = (out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)) := by
  obtain ⟨n, hn⟩ := t
  cases n with
  | zero => exact rfl
  | succ n => exact absurd h0 (Nat.succ_ne_zero n)

/-- `outsAt7` at a middle point: over what the point before left. -/
theorem outsAt7_B (c : Dev nD) (t : Fin cfg7.N) (h0 : ¬t.val = 0) (h1 : ¬t.val = 9) :
    outsAt7 V c t.val t.isLt = (out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt7` at the last point: over what the point before left. -/
theorem outsAt7_C (c : Dev nD) (t : Fin cfg7.N) (h0 : ¬t.val = 0) (h1 : t.val = 9) :
    outsAt7 V c t.val t.isLt = (out7_C_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The inputs' staging buffers -/

/-- An input window's current staging buffer holds its block at every point, fetched there or not (an unfetched
    window's block index has not moved), for any proof data whose array is the region-entry contents and whose body
    leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The invariant -/

/-- The region invariant before position `n`: before the first point the class's (every scratch at anything);
    afterwards the two accumulators at what the point before left, the rest of the scoped buffers unopened, the
    generator register at some state. -/
noncomputable def PhiS7 (c : Dev nD) : (n : ℕ) → n ≤ cfg7.N → sProp 𝕄
  | 0, _ => Pipeline.ΦA spec7 c
  | n + 1, hn => iprop(iprop(iprop(owns (c : Thread nD τ) scM7_0 fullShare (outsAt7 V c n hn).2.2.2.1 ∗ owns (c : Thread nD τ) scM7_1 fullShare (outsAt7 V c n hn).2.2.2.2) ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (outsAt7 V c n hn).2.2.2.1 ∗ owns (c : Thread nD τ) scM7_1 fullShare (outsAt7 V c n hn).2.2.2.2) ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (outsAt7 V c (n - 1) (by omega)).2.2.2.1 ∗ owns (c : Thread nD τ) scM7_1 fullShare (outsAt7 V c (n - 1) (by omega)).2.2.2.2) ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- The proof data of pipeline 7 on core c at the region-entry contents V. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by
  dsimp only [dat7]
theorem owed_eq7 (c : Dev nD) (t : Fin (cfg7.N + 1)) : (dat7 V c).owed t = 0 := by
  dsimp only [dat7]
theorem recorded_eq7 (c : Dev nD) (t : Fin (cfg7.N + 1)) : (dat7 V c).recorded t = Set.univ := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`, -/
noncomputable def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
noncomputable def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t ∗ (dat7 V c).leavesExact 3 t
    ∗ (dat7 V c).leavesExact 4 t ∗ (dat7 V c).leavesExact 5 t ∗ (dat7 V c).leavesExact 6 t)

set_option maxHeartbeats 4800000 in
/-- The body at any point: the inputs' memrefs hold their blocks; the closed forms of the two conditions say which of
    the three cases the point is in, and that case's run applies; the invariant hands the body the two accumulators (at
    anything at the first point, afterwards at what the point before left) and takes them back at this point's
    contents; the statistics outputs' buffers are handed back untouched before the last point; nothing is owed. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 10 := lt_of_lt_of_eq t.isLt (show cfg7.N = 10 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  by_cases h0 : t.val = 0
  · have h1 : ¬t.val = 9 := by omega
    rw [Dat.leavesExact_idle (dat7 V c) 5 t (idleAt7_5 t (fun h => h1 ((hcond7_1 t).mp h))) (noFlush7_5 t (fun h => h1 ((hcond7_1 t).mp h)))]
    rw [Dat.leavesExact_idle (dat7 V c) 6 t (idleAt7_6 t (fun h => h1 ((hcond7_1 t).mp h))) (noFlush7_6 t (fun h => h1 ((hcond7_1 t).mp h)))]
    rw [outsAt7_A V c t h0 h1]
    unfold out7_A_4 sout7_A_0 sout7_A_1; (try dsimp only)
    rw [PhiS7_castSucc V c t, PhiS7_zero V c _ _ h0, PhiA7_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_A c (grid7.coords t) _ _ _ _ _ _ _ _ _ _ _ _ _ _ _ _ _ _ ((hcond7_0 t).mpr h0) (fun h => h1 ((hcond7_1 t).mp h)) (iblk7 V c 0 t) (iblk7 V c 1 t) (iblk7 V c 2 t) (iblk7 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover7_A_0 c _ _ _ _ _ _ _ _ _ _ _ _ _ _ _ _ _ _ _ _ _ _ _ _ _)
          unfold owns; iexists _; isplitr
          swap; · iexact HS1
          ipureintro; exact View.read_writes_of_cover _ _ _ _ _ (scover7_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_A_4 c _ _ _ _ _ _ _ _ _ _ _ _ _ _ _ _ _ _ _ _ _ _ _ _ _)
    isplitl [H5]; · iexists _; iexact H5
    iexists _; iexact H6
  · by_cases h1 : t.val = 9
    · rw [show (dat7 V c).leavesExact 5 t = owns (c : Thread nD τ) (ms7_5 t) fullShare ((dat7 V c).after 5 t) from by
        unfold Dat.leavesExact; rw [liveAt7_5 t ((hcond7_1 t).mpr h1)], after7_5]
      rw [show (dat7 V c).leavesExact 6 t = owns (c : Thread nD τ) (ms7_6 t) fullShare ((dat7 V c).after 6 t) from by
        unfold Dat.leavesExact; rw [liveAt7_6 t ((hcond7_1 t).mpr h1)], after7_6]
      rw [outsAt7_C V c t h0 h1]
      unfold out7_C_4 out7_C_5 out7_C_6 sout7_C_0 sout7_C_1; (try dsimp only)
      rw [PhiS7_castSucc V c t, PhiS7_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_C c (grid7.coords t) _ _ _ _ _ _ _ _ _ _ _ _ _ _ _ _ _ _ (fun h => h0 ((hcond7_0 t).mp h)) ((hcond7_1 t).mpr h1) (iblk7 V c 0 t) (iblk7 V c 1 t) (iblk7 V c 2 t) (iblk7 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_C_0 c _ _ _ _ _ _ _ _ _ _ _ _ _ _ _ _ _ _ _ _ _ _ _ _ _ _ _)
            unfold owns; iexists _; isplitr
            swap; · iexact HS1
            ipureintro; exact View.read_writes_of_cover _ _ _ _ _ (scover7_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover7_C_5 c _ _ _ _ _ _ _ _ _ _ _ _ _ _ _ _ _ _ _ _ _ _ _ _ _ _ _)
      unfold owns; iexists _; isplitr
      swap; · iexact H6
      ipureintro; exact View.read_writes_of_cover _ _ _ _ _ (cover7_C_6 c _ _ _ _ _ _ _ _ _ _ _ _ _ _ _ _ _ _ _ _ _ _ _ _ _ _ _)
    · rw [Dat.leavesExact_idle (dat7 V c) 5 t (idleAt7_5 t (fun h => h1 ((hcond7_1 t).mp h))) (noFlush7_5 t (fun h => h1 ((hcond7_1 t).mp h)))]
      rw [Dat.leavesExact_idle (dat7 V c) 6 t (idleAt7_6 t (fun h => h1 ((hcond7_1 t).mp h))) (noFlush7_6 t (fun h => h1 ((hcond7_1 t).mp h)))]
      rw [outsAt7_B V c t h0 h1]
      unfold out7_B_4 sout7_B_0 sout7_B_1; (try dsimp only)
      rw [PhiS7_castSucc V c t, PhiS7_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_B c (grid7.coords t) _ _ _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_B_0 c _ _ _ _ _ _ _ _ _ _ _ _ _ _ _ _ _ _ _ _ _ _ _ _ _ _ _)
            unfold owns; iexists _; isplitr
            swap; · iexact HS1
            ipureintro; exact View.read_writes_of_cover _ _ _ _ _ (scover7_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_B_4 c _ _ _ _ _ _ _ _ _ _ _ _ _ _ _ _ _ _ _ _ _ _ _ _ _ _ _)
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulators' named contents are forgotten. -/
theorem Phi_out7 (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout7 (c : Dev nD) : (dat7 V c).Φ (Fin.last cfg7.N) ⊢ (Pipeline.ΦA spec7 c : sProp 𝕄) :=
  Phi_out7 V c _ (by rw [Fin.val_last]; have : cfg7.N = 10 := N_7; omega)

end Cert.Kernel.Reg

end
-- ==== Proof.K.R8.lean ====
import proofs.«422700_j84035330113950_1_alg».proof.Proof.Gen.Kernel.Launch
import proofs.«422700_j84035330113950_1_alg».proof.Proof.Gen.Kernel.Skeleton
import proofs.«422700_j84035330113950_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 8: the BatchNorm+ReLU kernel `cc8__bn_relu_kernel` (pipeline 8), at the entry contents `V`

Six windows on a grid of ten points: window 0 is the pre-normalisation block (rows `5000 t … 5000 t + 4999`), windows
1 to 4 are the four `[1,128]` rows (mean, variance, scale, shift; their block index never moves), window 5 is the
output block. The body reads the five input buffers whole and overwrites the output buffer whole with
`max (((x - mean) * rsqrt (var + ε)) * scale + shift, 0)`. -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! An input window's current staging buffer holds its block at every point, whether the pipeline fetched it there or
    not: where it did not, the block index has not moved since the last fetch and the body left the buffer as it was.
    Stated for any proof data whose array is `V`'s (`hA`) and whose body leaves the block in place (`hafter`). -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole `[5000,128]` buffer, as one rectangle. -/
abbrev r8_0 : Rect S5000x128 := Rect.unit (s := S5000x128) ![0, 0] S5000x128.size inb_S5000x128_S5000x128_0_0
/-- The whole `[1,128]` buffer, as one rectangle. -/
abbrev r8_1 : Rect S1x128 := Rect.unit (s := S1x128) ![0, 0] S1x128.size inb_S1x128_S1x128_0_0

/-! ## What the body leaves in the output window's buffer -/

/-- Window 5's staging buffer after the body, from the five input blocks in WINDOW order (`x0` the data block, `x1`
    the mean row, `x2` the variance row, `x3` the scale row, `x4` the shift row): its one store, over the whole buffer.
    The payload takes the variance row before the mean row. -/
def out8_5 (x0 : Vec F S5000x128 .f32) (x1 x2 x3 x4 : Vec F S1x128 .f32) : Vec F S5000x128 .f32 :=
  View.canon [⟨r8_0, k8_pay1 (View.ld x0 r8_0) (View.ld x2 r8_1) (View.ld x1 r8_1) (View.ld x3 r8_1) (View.ld x4 r8_1)⟩]

/-- The one store is of the whole buffer, so it covers it. -/
theorem cover8_5 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 1000000 in
/-- The kernel body on whole staging memrefs, the five inputs' at read contents `x0 … x4` (window order) and the
    output's at anything, runs to the continuation holding the inputs' as they were and the output's at `out8_5` of
    the inputs': the six whole-buffer loads read what is held, and the one store covers the output buffer. -/
theorem sound_kernel8 (c : Dev nD) (E : Set ℕ) (i : grid8.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out8_5 x0 x1 x2 x3 x4)) -∗ K ⟨⟩))
      ⊢ wp frame (wpE (defs₀ (F := F)) Variants.none c none) E (cc8__bn_relu_kernel i arg0 harg0 arg1 harg1 arg2 harg2 arg3 harg3 arg4 harg4 arg5 harg5) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core c at the region-entry contents V. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]
/-- Every window is held at the full share. -/
theorem q_eq8 (c : Dev nD) (w : Fin cfg8.W) : (dat8 V c).q w = fullShare := by
  dsimp only [dat8]
/-- The core owes nothing at any boundary. -/
theorem owed_eq8 (c : Dev nD) (t : Fin (cfg8.N + 1)) : (dat8 V c).owed t = 0 := by
  dsimp only [dat8]
/-- Nothing is excluded from the record at any boundary. -/
theorem recorded_eq8 (c : Dev nD) (t : Fin (cfg8.N + 1)) : (dat8 V c).recorded t = Set.univ := by
  dsimp only [dat8]

/-! What the body leaves, window by window: each input's buffer at its block, the output's at `out8_5` of the blocks. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

/-! Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`: the invariant, the core's debt, and the six current staging buffers, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' staging buffers hold their blocks, so the body's triple applies; the invariant and
    the core's debt pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Entering and leaving the region: the invariant is the class's own at every boundary -/

theorem hin8 (c : Dev nD) : (Pipeline.ΦA spec8 c : sProp 𝕄) ⊢ (dat8 V c).Φ 0 := BIBase.Entails.rfl
theorem hout8 (c : Dev nD) : (dat8 V c).Φ (Fin.last cfg8.N) ⊢ (Pipeline.ΦA spec8 c : sProp 𝕄) := BIBase.Entails.rfl

end Cert.Kernel.Reg

end
-- ==== Proof.K.RunBase.lean ====
import proofs.«422700_j84035330113950_1_alg».proof.Proof.RegionsKernel
import proofs.«422700_j84035330113950_1_alg».proof.Proof.K.R0
import proofs.«422700_j84035330113950_1_alg».proof.Proof.K.R1
import proofs.«422700_j84035330113950_1_alg».proof.Proof.K.R2
import proofs.«422700_j84035330113950_1_alg».proof.Proof.K.R3
import proofs.«422700_j84035330113950_1_alg».proof.Proof.K.R4
import proofs.«422700_j84035330113950_1_alg».proof.Proof.K.R5
import proofs.«422700_j84035330113950_1_alg».proof.Proof.K.R6
import proofs.«422700_j84035330113950_1_alg».proof.Proof.K.R7
import proofs.«422700_j84035330113950_1_alg».proof.Proof.K.R8
import Idealize.ShloMosaic.Lib.Pipeline.FrameSuffix
import Idealize.ShloMosaic.Lib.Pipeline.RegionsLoop
import Idealize.ShloMosaic.Lib.Pipeline.Regions
import Idealize.ShloMosaic.Lib.Pipeline.Frame

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The contents the nine regions leave, stage by stage

Region `k` is entered at the valuation `V_j` (j = 1, 5, 7, 9, 13, 15, 17, 21, 23), which reads the unknowns only at
items before it. So the unknowns are fixed one region at a time: stage `k + 1` sets item `J_k`
(2, 6, 8, 10, 14, 16, 18, 22, 24) to what pipeline `k` leaves when entered at `V_j` read at stage `k`, and keeps every
other item of stage `k`. -/

/-- Stage 1: item 2 is what pipeline 0 leaves, entered at `V1`; every other item is the launch contents. -/
def o1 : Gen.Outs (F := F) := fun J r c =>
  if J = 2 then Pipeline.withArrays spec0 c (Gen.V1 m c)
      (fun w => (dat0 (fun c b => Gen.V1 m c b) c).arrAt w cfg0.N) (Proc.devRef .tc r)
  else m ((c : Thread nD τ).loc r)
/-- Stage 2: item 6 is what pipeline 1 leaves, entered at `V5` read at stage 1. -/
def o2 : Gen.Outs (F := F) := fun J r c =>
  if J = 6 then Pipeline.withArrays spec1 c (Gen.V5 m (o1 m) c)
      (fun w => (dat1 (fun c b => Gen.V5 m (o1 m) c b) c).arrAt w cfg1.N) (Proc.devRef .tc r)
  else o1 m J r c
/-- Stage 3: item 8 is what pipeline 2 leaves, entered at `V7` read at stage 2. -/
def o3 : Gen.Outs (F := F) := fun J r c =>
  if J = 8 then Pipeline.withArrays spec2 c (Gen.V7 m (o2 m) c)
      (fun w => (dat2 (fun c b => Gen.V7 m (o2 m) c b) c).arrAt w cfg2.N) (Proc.devRef .tc r)
  else o2 m J r c
/-- Stage 4: item 10 is what pipeline 3 leaves, entered at `V9` read at stage 3. -/
def o4 : Gen.Outs (F := F) := fun J r c =>
  if J = 10 then Pipeline.withArrays spec3 c (Gen.V9 m (o3 m) c)
      (fun w => (dat3 (fun c b => Gen.V9 m (o3 m) c b) c).arrAt w cfg3.N) (Proc.devRef .tc r)
  else o3 m J r c
/-- Stage 5: item 14 is what pipeline 4 leaves, entered at `V13` read at stage 4. -/
def o5 : Gen.Outs (F := F) := fun J r c =>
  if J = 14 then Pipeline.withArrays spec4 c (Gen.V13 m (o4 m) c)
      (fun w => (dat4 (fun c b => Gen.V13 m (o4 m) c b) c).arrAt w cfg4.N) (Proc.devRef .tc r)
  else o4 m J r c
/-- Stage 6: item 16 is what pipeline 5 leaves, entered at `V15` read at stage 5. -/
def o6 : Gen.Outs (F := F) := fun J r c =>
  if J = 16 then Pipeline.withArrays spec5 c (Gen.V15 m (o5 m) c)
      (fun w => (dat5 (fun c b => Gen.V15 m (o5 m) c b) c).arrAt w cfg5.N) (Proc.devRef .tc r)
  else o5 m J r c
/-- Stage 7: item 18 is what pipeline 6 leaves, entered at `V17` read at stage 6. -/
def o7 : Gen.Outs (F := F) := fun J r c =>
  if J = 18 then Pipeline.withArrays spec6 c (Gen.V17 m (o6 m) c)
      (fun w => (dat6 (fun c b => Gen.V17 m (o6 m) c b) c).arrAt w cfg6.N) (Proc.devRef .tc r)
  else o6 m J r c
/-- Stage 8: item 22 is what pipeline 7 leaves, entered at `V21` read at stage 7. -/
def o8 : Gen.Outs (F := F) := fun J r c =>
  if J = 22 then Pipeline.withArrays spec7 c (Gen.V21 m (o7 m) c)
      (fun w => (dat7 (fun c b => Gen.V21 m (o7 m) c b) c).arrAt w cfg7.N) (Proc.devRef .tc r)
  else o7 m J r c
/-- Stage 9: item 24 is what pipeline 8 leaves, entered at `V23` read at stage 8. -/
def o9 : Gen.Outs (F := F) := fun J r c =>
  if J = 24 then Pipeline.withArrays spec8 c (Gen.V23 m (o8 m) c)
      (fun w => (dat8 (fun c b => Gen.V23 m (o8 m) c b) c).arrAt w cfg8.N) (Proc.devRef .tc r)
  else o8 m J r c

/-- THE REGIONS' OUTPUTS: the last stage. -/
def outs : Gen.Outs (F := F) := o9 m

/-! ## A stage at its own item, and off it -/

theorem o1_at (r : Ref sig .tc) (c : Dev nD) : o1 m 2 r c = Pipeline.withArrays spec0 c (Gen.V1 m c)
    (fun w => (dat0 (fun c b => Gen.V1 m c b) c).arrAt w cfg0.N) (Proc.devRef .tc r) := by
  unfold o1; exact if_pos rfl
theorem o2_at (r : Ref sig .tc) (c : Dev nD) : o2 m 6 r c = Pipeline.withArrays spec1 c (Gen.V5 m (o1 m) c)
    (fun w => (dat1 (fun c b => Gen.V5 m (o1 m) c b) c).arrAt w cfg1.N) (Proc.devRef .tc r) := by
  unfold o2; exact if_pos rfl
theorem o3_at (r : Ref sig .tc) (c : Dev nD) : o3 m 8 r c = Pipeline.withArrays spec2 c (Gen.V7 m (o2 m) c)
    (fun w => (dat2 (fun c b => Gen.V7 m (o2 m) c b) c).arrAt w cfg2.N) (Proc.devRef .tc r) := by
  unfold o3; exact if_pos rfl
theorem o4_at (r : Ref sig .tc) (c : Dev nD) : o4 m 10 r c = Pipeline.withArrays spec3 c (Gen.V9 m (o3 m) c)
    (fun w => (dat3 (fun c b => Gen.V9 m (o3 m) c b) c).arrAt w cfg3.N) (Proc.devRef .tc r) := by
  unfold o4; exact if_pos rfl
theorem o5_at (r : Ref sig .tc) (c : Dev nD) : o5 m 14 r c = Pipeline.withArrays spec4 c (Gen.V13 m (o4 m) c)
    (fun w => (dat4 (fun c b => Gen.V13 m (o4 m) c b) c).arrAt w cfg4.N) (Proc.devRef .tc r) := by
  unfold o5; exact if_pos rfl
theorem o6_at (r : Ref sig .tc) (c : Dev nD) : o6 m 16 r c = Pipeline.withArrays spec5 c (Gen.V15 m (o5 m) c)
    (fun w => (dat5 (fun c b => Gen.V15 m (o5 m) c b) c).arrAt w cfg5.N) (Proc.devRef .tc r) := by
  unfold o6; exact if_pos rfl
theorem o7_at (r : Ref sig .tc) (c : Dev nD) : o7 m 18 r c = Pipeline.withArrays spec6 c (Gen.V17 m (o6 m) c)
    (fun w => (dat6 (fun c b => Gen.V17 m (o6 m) c b) c).arrAt w cfg6.N) (Proc.devRef .tc r) := by
  unfold o7; exact if_pos rfl
theorem o8_at (r : Ref sig .tc) (c : Dev nD) : o8 m 22 r c = Pipeline.withArrays spec7 c (Gen.V21 m (o7 m) c)
    (fun w => (dat7 (fun c b => Gen.V21 m (o7 m) c b) c).arrAt w cfg7.N) (Proc.devRef .tc r) := by
  unfold o8; exact if_pos rfl
theorem o9_at (r : Ref sig .tc) (c : Dev nD) : o9 m 24 r c = Pipeline.withArrays spec8 c (Gen.V23 m (o8 m) c)
    (fun w => (dat8 (fun c b => Gen.V23 m (o8 m) c b) c).arrAt w cfg8.N) (Proc.devRef .tc r) := by
  unfold o9; exact if_pos rfl

theorem o2_ne {J : ℕ} (h : J ≠ 6) : o2 m J = o1 m J := by funext r c; unfold o2; exact if_neg h
theorem o3_ne {J : ℕ} (h : J ≠ 8) : o3 m J = o2 m J := by funext r c; unfold o3; exact if_neg h
theorem o4_ne {J : ℕ} (h : J ≠ 10) : o4 m J = o3 m J := by funext r c; unfold o4; exact if_neg h
theorem o5_ne {J : ℕ} (h : J ≠ 14) : o5 m J = o4 m J := by funext r c; unfold o5; exact if_neg h
theorem o6_ne {J : ℕ} (h : J ≠ 16) : o6 m J = o5 m J := by funext r c; unfold o6; exact if_neg h
theorem o7_ne {J : ℕ} (h : J ≠ 18) : o7 m J = o6 m J := by funext r c; unfold o7; exact if_neg h
theorem o8_ne {J : ℕ} (h : J ≠ 22) : o8 m J = o7 m J := by funext r c; unfold o8; exact if_neg h
theorem o9_ne {J : ℕ} (h : J ≠ 24) : o9 m J = o8 m J := by funext r c; unfold o9; exact if_neg h

/-! ## The last stage agrees with stage `k` at every item stage `k` has fixed -/

theorem outs_o8 {J : ℕ} (h : J < 24) : outs m J = o8 m J := o9_ne m (by omega)
theorem outs_o7 {J : ℕ} (h : J < 22) : outs m J = o7 m J := (outs_o8 m (by omega)).trans (o8_ne m (by omega))
theorem outs_o6 {J : ℕ} (h : J < 18) : outs m J = o6 m J := (outs_o7 m (by omega)).trans (o7_ne m (by omega))
theorem outs_o5 {J : ℕ} (h : J < 16) : outs m J = o5 m J := (outs_o6 m (by omega)).trans (o6_ne m (by omega))
theorem outs_o4 {J : ℕ} (h : J < 14) : outs m J = o4 m J := (outs_o5 m (by omega)).trans (o5_ne m (by omega))
theorem outs_o3 {J : ℕ} (h : J < 10) : outs m J = o3 m J := (outs_o4 m (by omega)).trans (o4_ne m (by omega))
theorem outs_o2 {J : ℕ} (h : J < 8) : outs m J = o2 m J := (outs_o3 m (by omega)).trans (o3_ne m (by omega))
theorem outs_o1 {J : ℕ} (h : J < 6) : outs m J = o1 m J := (outs_o2 m (by omega)).trans (o2_ne m (by omega))

/-! ## A region's entry valuation reads the unknowns only at the items before it -/

theorem V5_congr {o o' : Gen.Outs (F := F)} (h : ∀ J, J < 6 → o J = o' J) (c : Dev nD) : Gen.V5 m o c = Gen.V5 m o' c := by
  unfold Gen.V5 Gen.V4 Gen.V3 Gen.V2; rw [h 2 (by decide)]
theorem V7_congr {o o' : Gen.Outs (F := F)} (h : ∀ J, J < 8 → o J = o' J) (c : Dev nD) : Gen.V7 m o c = Gen.V7 m o' c := by
  unfold Gen.V7 Gen.V6; rw [V5_congr m (fun J hJ => h J (by omega)) c, h 6 (by decide)]
theorem V9_congr {o o' : Gen.Outs (F := F)} (h : ∀ J, J < 10 → o J = o' J) (c : Dev nD) : Gen.V9 m o c = Gen.V9 m o' c := by
  unfold Gen.V9 Gen.V8; rw [V7_congr m (fun J hJ => h J (by omega)) c, h 8 (by decide)]
theorem V13_congr {o o' : Gen.Outs (F := F)} (h : ∀ J, J < 14 → o J = o' J) (c : Dev nD) : Gen.V13 m o c = Gen.V13 m o' c := by
  unfold Gen.V13 Gen.V12 Gen.V11 Gen.V10; rw [V9_congr m (fun J hJ => h J (by omega)) c, h 10 (by decide)]
theorem V15_congr {o o' : Gen.Outs (F := F)} (h : ∀ J, J < 16 → o J = o' J) (c : Dev nD) : Gen.V15 m o c = Gen.V15 m o' c := by
  unfold Gen.V15 Gen.V14; rw [V13_congr m (fun J hJ => h J (by omega)) c, h 14 (by decide)]
theorem V17_congr {o o' : Gen.Outs (F := F)} (h : ∀ J, J < 18 → o J = o' J) (c : Dev nD) : Gen.V17 m o c = Gen.V17 m o' c := by
  unfold Gen.V17 Gen.V16; rw [V15_congr m (fun J hJ => h J (by omega)) c, h 16 (by decide)]
theorem V21_congr {o o' : Gen.Outs (F := F)} (h : ∀ J, J < 22 → o J = o' J) (c : Dev nD) : Gen.V21 m o c = Gen.V21 m o' c := by
  unfold Gen.V21 Gen.V20 Gen.V19 Gen.V18; rw [V17_congr m (fun J hJ => h J (by omega)) c, h 18 (by decide)]
theorem V23_congr {o o' : Gen.Outs (F := F)} (h : ∀ J, J < 24 → o J = o' J) (c : Dev nD) : Gen.V23 m o c = Gen.V23 m o' c := by
  unfold Gen.V23 Gen.V22; rw [V21_congr m (fun J hJ => h J (by omega)) c, h 22 (by decide)]

/-! ## The nine equations: each region's entry contents, read at the last stage, are those its stage was built from -/

theorem outs_1 : (fun (c : Dev nD) (b : Ref sig .tc) => Gen.V5 m (outs m) c b) = fun (c : Dev nD) (b : Ref sig .tc) => Gen.V5 m (o1 m) c b := by
  funext c b; rw [V5_congr m (fun J hJ => outs_o1 m hJ) c]
theorem outs_2 : (fun (c : Dev nD) (b : Ref sig .tc) => Gen.V7 m (outs m) c b) = fun (c : Dev nD) (b : Ref sig .tc) => Gen.V7 m (o2 m) c b := by
  funext c b; rw [V7_congr m (fun J hJ => outs_o2 m hJ) c]
theorem outs_3 : (fun (c : Dev nD) (b : Ref sig .tc) => Gen.V9 m (outs m) c b) = fun (c : Dev nD) (b : Ref sig .tc) => Gen.V9 m (o3 m) c b := by
  funext c b; rw [V9_congr m (fun J hJ => outs_o3 m hJ) c]
theorem outs_4 : (fun (c : Dev nD) (b : Ref sig .tc) => Gen.V13 m (outs m) c b) = fun (c : Dev nD) (b : Ref sig .tc) => Gen.V13 m (o4 m) c b := by
  funext c b; rw [V13_congr m (fun J hJ => outs_o4 m hJ) c]
theorem outs_5 : (fun (c : Dev nD) (b : Ref sig .tc) => Gen.V15 m (outs m) c b) = fun (c : Dev nD) (b : Ref sig .tc) => Gen.V15 m (o5 m) c b := by
  funext c b; rw [V15_congr m (fun J hJ => outs_o5 m hJ) c]
theorem outs_6 : (fun (c : Dev nD) (b : Ref sig .tc) => Gen.V17 m (outs m) c b) = fun (c : Dev nD) (b : Ref sig .tc) => Gen.V17 m (o6 m) c b := by
  funext c b; rw [V17_congr m (fun J hJ => outs_o6 m hJ) c]
theorem outs_7 : (fun (c : Dev nD) (b : Ref sig .tc) => Gen.V21 m (outs m) c b) = fun (c : Dev nD) (b : Ref sig .tc) => Gen.V21 m (o7 m) c b := by
  funext c b; rw [V21_congr m (fun J hJ => outs_o7 m hJ) c]
theorem outs_8 : (fun (c : Dev nD) (b : Ref sig .tc) => Gen.V23 m (outs m) c b) = fun (c : Dev nD) (b : Ref sig .tc) => Gen.V23 m (o8 m) c b := by
  funext c b; rw [V23_congr m (fun J hJ => outs_o8 m hJ) c]

/-! # The thread state between items, and the four entailments of a region in abstract form -/

/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)

/-- A core owing nothing, whatever it has recorded, owes within the bound of proof data that owe nothing at `t`
    and bound nothing there. -/
theorem owesAt_in {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩
  iexists W
  isplitr
  · ipureintro; exact fun _ _ => Or.inl trivial
  iexact HO

/-- And back: the bound is forgotten. -/
theorem owesAt_out {cfg : Cfg sig Λ₀} {c : Dev nD} (dat : Dat τ (Elt F) Unit ℕ (UR sig nD τ) ℕ cfg c) (t : Fin (cfg.N + 1))
    (ho : dat.owed t = 0) :
    (dat.owesAt () t : sProp 𝕄) ⊢ iprop(∃ W, owes (c : Thread nD τ) (0 : CellTallies nD τ sig Unit) W) := by
  unfold Pipeline.Dat.owesAt Pipeline.owesWithin
  rw [ho]
  iintro ⟨%W, -, HO⟩
  iexists W
  iexact HO

/-- ENTRY, sorted: the held buffers split into the arrays `A` and the rest; no table; the `owes` within the first
    bound; the generator register passes to the invariant. The kernel's own semaphores (none) and the level facts
    are not needed. -/
theorem entry_of (c : Dev nD) {Hd A Rest Pf OW OS LA : sProp 𝕄} (hsplit : Hd ⊢ iprop(A ∗ Rest))
    (hpf : (BI.emp : sProp 𝕄) ⊢ Pf)
    (how : (iprop(∃ W, owes (c : Thread nD τ) (0 : CellTallies nD τ sig Unit) W) : sProp 𝕄) ⊢ OW) :
    iprop((Hd ∗ R c) ∗ OS ∗ LA) ⊢ |={Set.univ}=> iprop(A ∗ Pf ∗ OW ∗ (∃ r, prngReg c r) ∗ Rest) := by
  iintro ⟨⟨Hub, Hp, HO⟩, -, -⟩
  ihave H := hsplit $$ Hub
  icases H with ⟨Ha, Hrest⟩
  imodintro
  isplitl [Ha]; · iexact Ha
  isplitr; · iapply hpf; iempintro
  isplitl [HO]; · iapply how; iexact HO
  isplitl [Hp]; · iexact Hp
  iexact Hrest

/-- The invariant at the first point: the class invariant (the scoped buffers no window stages, the generator
    register) and then whatever the proof data's first invariant asks of it. -/
theorem hin_of {gr W : Nat} (win : Fin W → Pipeline.WinSpec sig gr) (c : Dev nD) {Pf Φ0 : sProp 𝕄}
    (h : (Pipeline.ΦA win c : sProp 𝕄) ⊢ Φ0) :
    iprop((∃ r, prngReg c r) ∗ Pf ∗ Pipeline.scopedRest win c) ⊢ Φ0 := by
  have h1 : (iprop((∃ r, prngReg c r) ∗ Pf ∗ Pipeline.scopedRest win c) : sProp 𝕄)
      ⊢ iprop(Pipeline.scopedRest win c ∗ ∃ r, prngReg c r) := by
    iintro ⟨Hp, -, Hr⟩
    isplitl [Hr]; · iexact Hr
    iexact Hp
  exact h1.trans h

/-- The invariant at the last point gives the class invariant back: the generator register, no semaphore, the
    scoped buffers. -/
theorem hout_of {gr W : Nat} (win : Fin W → Pipeline.WinSpec sig gr) (c : Dev nD) {ΦN : sProp 𝕄}
    (h : ΦN ⊢ (Pipeline.ΦA win c : sProp 𝕄)) :
    ΦN ⊢ iprop((∃ r, prngReg c r) ∗ Pipeline.ownSems0 (fun k : PEmpty => k.elim) c ∗ Pipeline.scopedRest win c) := by
  have h2 : (iprop(Pipeline.scopedRest win c ∗ ∃ r, prngReg c r) : sProp 𝕄)
      ⊢ iprop((∃ r, prngReg c r) ∗ BI.emp ∗ Pipeline.scopedRest win c) := by
    iintro ⟨Hr, Hp⟩
    isplitl [Hp]; · iexact Hp
    isplitr; · iempintro
    iexact Hr
  rw [Pipeline.ownSems0_none]
  exact h.trans h2

/-- EXIT, sorted: the arrays and the rest join into the held buffers at the exit contents; the generator register
    and the `owes` (its bound forgotten) ride on. -/
theorem exit_of (c : Dev nD) {A OWN Rest Hd' : sProp 𝕄} (hjoin : iprop(A ∗ Rest) ⊢ Hd')
    (how : OWN ⊢ (iprop(∃ W, owes (c : Thread nD τ) (0 : CellTallies nD τ sig Unit) W) : sProp 𝕄)) :
    iprop(A ∗ OWN ∗ (∃ r, prngReg c r) ∗ Rest) ⊢ |={Set.univ}=> iprop(Hd' ∗ R c) := by
  iintro ⟨Ha, HO, HY, Hrest⟩
  imodintro
  isplitl [Ha Hrest]
  · iapply hjoin; isplitl [Ha] <;> iassumption
  isplitl [HY]; · iexact HY
  iapply how; iexact HO

/-- An input window's array ends as it was entered. -/
theorem arrAt_in_eq {cfg : Cfg sig Λ₀} {c : Dev nD} (dat : Dat τ (Elt F) Unit ℕ (UR sig nD τ) ℕ cfg c) (w : Fin cfg.W)
    (hin : (cfg.win w).isOut = false) {x : Buf (Elt F) ((cfg.win w).arr.view.loc (c.tc : Thread nD τ))} (hA : dat.A w = x) :
    dat.arrAt w cfg.N = x := (dat.arrAt_in w hin cfg.N).trans hA

/-! # The proof data family -/

/-- Every pipeline's proof data, each at its region's entry contents — a literal `match`, so that the pinned
    configuration at a numeral reduces to the printed one. -/
def pdats : (p : Fin 9) → (c : Dev nD) → Dat τ (Elt F) Unit ℕ (UR sig nD τ) ℕ (Pipeline.pin (pcfgs (F := F)) Gen.adm p) c
  | ⟨0, _⟩ => fun c => dat0 (fun c b => Gen.V1 m c b) c
  | ⟨1, _⟩ => fun c => dat1 (fun c b => Gen.V5 m (outs m) c b) c
  | ⟨2, _⟩ => fun c => dat2 (fun c b => Gen.V7 m (outs m) c b) c
  | ⟨3, _⟩ => fun c => dat3 (fun c b => Gen.V9 m (outs m) c b) c
  | ⟨4, _⟩ => fun c => dat4 (fun c b => Gen.V13 m (outs m) c b) c
  | ⟨5, _⟩ => fun c => dat5 (fun c b => Gen.V15 m (outs m) c b) c
  | ⟨6, _⟩ => fun c => dat6 (fun c b => Gen.V17 m (outs m) c b) c
  | ⟨7, _⟩ => fun c => dat7 (fun c b => Gen.V21 m (outs m) c b) c
  | ⟨8, _⟩ => fun c => dat8 (fun c b => Gen.V23 m (outs m) c b) c

end Cert.Kernel.Run

end
-- ==== Proof.K.RunR0.lean ====
import proofs.«422700_j84035330113950_1_alg».proof.Proof.K.RunBase

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 0 (item 1): entered at `V1`, left at `V2` -/

/-- What the last stage holds at item 2 for each array of pipeline 0: what the pipeline leaves there. -/
theorem outs0_arr (c : Dev nD) (w : Fin cfg0.W) :
    outs m 2 (Pipeline.arrRef spec0 w) c = (dat0 (fun c b => Gen.V1 m c b) c).arrAt w cfg0.N :=
  (congrFun (congrFun (outs_o1 m (J := 2) (by decide)) _) c).trans ((o1_at m _ c).trans
    (Pipeline.withArrays_arr spec0 launch0.win.arr_inj c _ _ w))

/-- The exit valuation at the output's array. -/
theorem V2_at (o : Gen.Outs (F := F)) (c : Dev nD) : Gen.V2 m o c main_v25 = o 2 main_v25 c := by
  simp only [Gen.V2, Function.update_self]

/-- At the exit each array of the pipeline holds what the pipeline leaves: an input what it held, the output the
    unknown of item 2. -/
theorem hF0 (c : Dev nD) : ∀ w : Fin cfg0.W,
    (dat0 (fun c b => Gen.V1 m c b) c).arrAt w cfg0.N = Gen.V2 m (outs m) c (Pipeline.arrRef spec0 w)
  | ⟨0, _⟩ => (arrAt_in_eq _ _ rfl (A_eq0 (fun c b => Gen.V1 m c b) c _)).trans (Gen.V2_of m (outs m) c (Pipeline.arrRef spec0 0) (by decide)).symm
  | ⟨1, _⟩ => (arrAt_in_eq _ _ rfl (A_eq0 (fun c b => Gen.V1 m c b) c _)).trans (Gen.V2_of m (outs m) c (Pipeline.arrRef spec0 1) (by decide)).symm
  | ⟨2, _⟩ => (outs0_arr m c 2).symm.trans (V2_at m (outs m) c).symm

/-- Every other buffer is as entered. -/
theorem hrest0 (c : Dev nD) (b : Ref sig .tc) (hb : b ∉ Finset.univ.image (Pipeline.arrRef spec0)) :
    Gen.V2 m (outs m) c b = Gen.V1 m c b :=
  Gen.V2_of m (outs m) c b fun hmem => hb (by
    rw [List.mem_singleton] at hmem; subst hmem
    exact Finset.mem_image.mpr ⟨2, Finset.mem_univ _, rfl⟩)

set_option backward.isDefEq.respectTransparency.types false in
/-- The held buffers at `V1` are pipeline 0's arrays at its entry contents and the rest. -/
theorem hsplit0 (c : Dev nD) : (StableHlo.held (c : Thread nD τ) (Pipeline.ucRefs τ sig) (Gen.V1 m c) : sProp 𝕄)
    ⊢ iprop((pdats m 0 c).arrays ((pdats m 0 c).arrAt · 0)
        ∗ Pipeline.unscopedRest (Ix := Unit) (Name := ℕ) (U := UR sig nD τ) (Lvl := ℕ) spec0 c (fun b => Gen.V1 m c b)) := by
  have h := Pipeline.arrays_of_unscopedBufs (p := 0) (pcfgs (F := F)) Gen.adm (pdats m) launch0.win launch0.arr_whole c
    ((pdats m 0 c).share_full fun w => q_eq0 (fun c b => Gen.V1 m c b) c w) (fun b => Gen.V1 m c b)
    fun w => A_eq0 (fun c b => Gen.V1 m c b) c w
  rw [Pipeline.unscopedBufs_held] at h
  exact h

set_option backward.isDefEq.respectTransparency.types false in
/-- Its arrays at what it leaves and the rest are the held buffers at `V2`. -/
theorem hjoin0 (c : Dev nD) : iprop((pdats m 0 c).arrays ((pdats m 0 c).arrAt · cfg0.N)
      ∗ Pipeline.unscopedRest (Ix := Unit) (Name := ℕ) (U := UR sig nD τ) (Lvl := ℕ) spec0 c (fun b => Gen.V1 m c b))
    ⊢ (StableHlo.held (c : Thread nD τ) (Pipeline.ucRefs τ sig) (Gen.V2 m (outs m) c) : sProp 𝕄) := by
  have h := Pipeline.unscopedBufs_of_arrays (p := 0) (pcfgs (F := F)) Gen.adm (Ix := Unit) (Name := ℕ) (U := UR sig nD τ) (Lvl := ℕ)
    launch0.win launch0.arr_whole c (pdats m) ((pdats m 0 c).share_full fun w => q_eq0 (fun c b => Gen.V1 m c b) c w)
    (fun b => Gen.V1 m c b) (fun b => Gen.V2 m (outs m) c b) ((pdats m 0 c).arrAt · cfg0.N) (hF0 m c) (hrest0 m c)
  rw [Pipeline.unscopedBufs_held] at h
  exact h

set_option backward.isDefEq.respectTransparency.types false in
/-- REGION 0 over the thread state. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => Gen.V1 m c b) c).loose
  hwaits := Pipeline.hwaits_of_owed_zero _ _ _ _ L lv 0 fun c t => owed_eq0 (fun c b => Gen.V1 m c b) c t
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := entry_of c (hsplit0 m c)
    (by unfold Pipeline.prefHeld; rw [show (Finset.univ : Finset (Fin 0)) = ∅ from rfl, BI.bigSep_empty] <;> exact .rfl)
    (owesAt_in (pdats m 0 c) 0 (owed_eq0 (fun c b => Gen.V1 m c b) c _) (recorded_eq0 (fun c b => Gen.V1 m c b) c _))
  hin c := hin_of spec0 c (hin0 (fun c b => Gen.V1 m c b) c)
  hout c := hout_of spec0 c (hout0 (fun c b => Gen.V1 m c b) c)
  hexit c := exit_of c (hjoin0 m c) (owesAt_out (pdats m 0 c) _ (owed_eq0 (fun c b => Gen.V1 m c b) c _))

end Cert.Kernel.Run

end
-- ==== Proof.K.RunR1.lean ====
import proofs.«422700_j84035330113950_1_alg».proof.Proof.K.RunBase

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 1 (item 5): entered at `V5`, left at `V6` -/

/-- What the last stage holds at item 6 for each array of pipeline 1: what the pipeline leaves there. -/
theorem outs1_arr (c : Dev nD) (w : Fin cfg1.W) :
    outs m 6 (Pipeline.arrRef spec1 w) c = (dat1 (fun c b => Gen.V5 m (outs m) c b) c).arrAt w cfg1.N :=
  (congrFun (congrFun (outs_o2 m (J := 6) (by decide)) _) c).trans ((o2_at m _ c).trans
    ((Pipeline.withArrays_arr spec1 launch1.win.arr_inj c _ _ w).trans
      (congrArg (fun V => (dat1 V c).arrAt w cfg1.N) (outs_1 m)).symm))

/-- The exit valuation at the three outputs' arrays. -/
theorem V6_at0 (o : Gen.Outs (F := F)) (c : Dev nD) : Gen.V6 m o c main_v49_0 = o 6 main_v49_0 c := by
  simp only [Gen.V6, Function.update_self,
    Function.update_of_ne (StableHlo.devRef_ne_of_ne (by decide) : (Proc.devRef .tc main_v49_0 : DevRef τ sig) ≠ Proc.devRef .tc main_v49_1),
    Function.update_of_ne (StableHlo.devRef_ne_of_ne (by decide) : (Proc.devRef .tc main_v49_0 : DevRef τ sig) ≠ Proc.devRef .tc main_v49_2)]
theorem V6_at1 (o : Gen.Outs (F := F)) (c : Dev nD) : Gen.V6 m o c main_v49_1 = o 6 main_v49_1 c := by
  simp only [Gen.V6, Function.update_self,
    Function.update_of_ne (StableHlo.devRef_ne_of_ne (by decide) : (Proc.devRef .tc main_v49_1 : DevRef τ sig) ≠ Proc.devRef .tc main_v49_2)]
theorem V6_at2 (o : Gen.Outs (F := F)) (c : Dev nD) : Gen.V6 m o c main_v49_2 = o 6 main_v49_2 c := by
  simp only [Gen.V6, Function.update_self]

/-- At the exit each array of the pipeline holds what the pipeline leaves: an input what it held, an output the
    unknown of item 6. One lemma per window. -/
theorem hF1_0 (c : Dev nD) : (dat1 (fun c b => Gen.V5 m (outs m) c b) c).arrAt 0 cfg1.N = Gen.V6 m (outs m) c (Pipeline.arrRef spec1 0) :=
  (arrAt_in_eq _ 0 rfl (A_eq1 (fun c b => Gen.V5 m (outs m) c b) c 0)).trans (Gen.V6_of m (outs m) c (Pipeline.arrRef spec1 0) (by decide)).symm
theorem hF1_1 (c : Dev nD) : (dat1 (fun c b => Gen.V5 m (outs m) c b) c).arrAt 1 cfg1.N = Gen.V6 m (outs m) c (Pipeline.arrRef spec1 1) :=
  (arrAt_in_eq _ 1 rfl (A_eq1 (fun c b => Gen.V5 m (outs m) c b) c 1)).trans (Gen.V6_of m (outs m) c (Pipeline.arrRef spec1 1) (by decide)).symm
theorem hF1_2 (c : Dev nD) : (dat1 (fun c b => Gen.V5 m (outs m) c b) c).arrAt 2 cfg1.N = Gen.V6 m (outs m) c (Pipeline.arrRef spec1 2) :=
  (arrAt_in_eq _ 2 rfl (A_eq1 (fun c b => Gen.V5 m (outs m) c b) c 2)).trans (Gen.V6_of m (outs m) c (Pipeline.arrRef spec1 2) (by decide)).symm
theorem hF1_3 (c : Dev nD) : (dat1 (fun c b => Gen.V5 m (outs m) c b) c).arrAt 3 cfg1.N = Gen.V6 m (outs m) c (Pipeline.arrRef spec1 3) :=
  (arrAt_in_eq _ 3 rfl (A_eq1 (fun c b => Gen.V5 m (outs m) c b) c 3)).trans (Gen.V6_of m (outs m) c (Pipeline.arrRef spec1 3) (by decide)).symm
theorem hF1_4 (c : Dev nD) : (dat1 (fun c b => Gen.V5 m (outs m) c b) c).arrAt 4 cfg1.N = Gen.V6 m (outs m) c (Pipeline.arrRef spec1 4) :=
  (outs1_arr m c 4).symm.trans (V6_at0 m (outs m) c).symm
theorem hF1_5 (c : Dev nD) : (dat1 (fun c b => Gen.V5 m (outs m) c b) c).arrAt 5 cfg1.N = Gen.V6 m (outs m) c (Pipeline.arrRef spec1 5) :=
  (outs1_arr m c 5).symm.trans (V6_at1 m (outs m) c).symm
theorem hF1_6 (c : Dev nD) : (dat1 (fun c b => Gen.V5 m (outs m) c b) c).arrAt 6 cfg1.N = Gen.V6 m (outs m) c (Pipeline.arrRef spec1 6) :=
  (outs1_arr m c 6).symm.trans (V6_at2 m (outs m) c).symm
theorem hF1 (c : Dev nD) : ∀ w : Fin cfg1.W,
    (dat1 (fun c b => Gen.V5 m (outs m) c b) c).arrAt w cfg1.N = Gen.V6 m (outs m) c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c

/-- Every other buffer is as entered. -/
theorem hrest1 (c : Dev nD) (b : Ref sig .tc) (hb : b ∉ Finset.univ.image (Pipeline.arrRef spec1)) :
    Gen.V6 m (outs m) c b = Gen.V5 m (outs m) c b :=
  Gen.V6_of m (outs m) c b fun hmem => hb (by
    simp only [List.mem_cons, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)

set_option backward.isDefEq.respectTransparency.types false in
/-- The held buffers at `V5` are pipeline 1's arrays at its entry contents and the rest. -/
theorem hsplit1 (c : Dev nD) : (StableHlo.held (c : Thread nD τ) (Pipeline.ucRefs τ sig) (Gen.V5 m (outs m) c) : sProp 𝕄)
    ⊢ iprop((pdats m 1 c).arrays ((pdats m 1 c).arrAt · 0)
        ∗ Pipeline.unscopedRest (Ix := Unit) (Name := ℕ) (U := UR sig nD τ) (Lvl := ℕ) spec1 c (fun b => Gen.V5 m (outs m) c b)) := by
  have h := Pipeline.arrays_of_unscopedBufs (p := 1) (pcfgs (F := F)) Gen.adm (pdats m) launch1.win launch1.arr_whole c
    ((pdats m 1 c).share_full fun w => q_eq1 (fun c b => Gen.V5 m (outs m) c b) c w) (fun b => Gen.V5 m (outs m) c b)
    fun w => A_eq1 (fun c b => Gen.V5 m (outs m) c b) c w
  rw [Pipeline.unscopedBufs_held] at h
  exact h

set_option backward.isDefEq.respectTransparency.types false in
/-- Its arrays at what it leaves and the rest are the held buffers at `V6`. -/
theorem hjoin1 (c : Dev nD) : iprop((pdats m 1 c).arrays ((pdats m 1 c).arrAt · cfg1.N)
      ∗ Pipeline.unscopedRest (Ix := Unit) (Name := ℕ) (U := UR sig nD τ) (Lvl := ℕ) spec1 c (fun b => Gen.V5 m (outs m) c b))
    ⊢ (StableHlo.held (c : Thread nD τ) (Pipeline.ucRefs τ sig) (Gen.V6 m (outs m) c) : sProp 𝕄) := by
  have h := Pipeline.unscopedBufs_of_arrays (p := 1) (pcfgs (F := F)) Gen.adm (Ix := Unit) (Name := ℕ) (U := UR sig nD τ) (Lvl := ℕ)
    launch1.win launch1.arr_whole c (pdats m) ((pdats m 1 c).share_full fun w => q_eq1 (fun c b => Gen.V5 m (outs m) c b) c w)
    (fun b => Gen.V5 m (outs m) c b) (fun b => Gen.V6 m (outs m) c b) ((pdats m 1 c).arrAt · cfg1.N) (hF1 m c) (hrest1 m c)
  rw [Pipeline.unscopedBufs_held] at h
  exact h

set_option backward.isDefEq.respectTransparency.types false in
/-- REGION 1 over the thread state. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => Gen.V5 m (outs m) c b) c).loose
  hwaits := Pipeline.hwaits_of_owed_zero _ _ _ _ L lv 1 fun c t => owed_eq1 (fun c b => Gen.V5 m (outs m) c b) c t
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V5 m (outs m) c b)
  hentry c := entry_of c (hsplit1 m c)
    (by unfold Pipeline.prefHeld; rw [show (Finset.univ : Finset (Fin 0)) = ∅ from rfl, BI.bigSep_empty] <;> exact .rfl)
    (owesAt_in (pdats m 1 c) 0 (owed_eq1 (fun c b => Gen.V5 m (outs m) c b) c _) (recorded_eq1 (fun c b => Gen.V5 m (outs m) c b) c _))
  hin c := hin_of spec1 c (hin1 (fun c b => Gen.V5 m (outs m) c b) c)
  hout c := hout_of spec1 c (hout1 (fun c b => Gen.V5 m (outs m) c b) c)
  hexit c := exit_of c (hjoin1 m c) (owesAt_out (pdats m 1 c) _ (owed_eq1 (fun c b => Gen.V5 m (outs m) c b) c _))

end Cert.Kernel.Run

end
-- ==== Proof.K.RunR2.lean ====
import proofs.«422700_j84035330113950_1_alg».proof.Proof.K.RunBase

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 2 (item 7): entered at `V7`, left at `V8` -/

/-- What the last stage holds at item 8 for each array of pipeline 2: what the pipeline leaves there. -/
theorem outs2_arr (c : Dev nD) (w : Fin cfg2.W) :
    outs m 8 (Pipeline.arrRef spec2 w) c = (dat2 (fun c b => Gen.V7 m (outs m) c b) c).arrAt w cfg2.N :=
  (congrFun (congrFun (outs_o3 m (J := 8) (by decide)) _) c).trans ((o3_at m _ c).trans
    ((Pipeline.withArrays_arr spec2 launch2.win.arr_inj c _ _ w).trans
      (congrArg (fun V => (dat2 V c).arrAt w cfg2.N) (outs_2 m)).symm))

/-- The exit valuation at the output's array. -/
theorem V8_at (o : Gen.Outs (F := F)) (c : Dev nD) : Gen.V8 m o c main_v62 = o 8 main_v62 c := by
  simp only [Gen.V8, Function.update_self]

/-- At the exit each array of the pipeline holds what the pipeline leaves: an input what it held, the output the
    unknown of item 8. One lemma per window. -/
theorem hF2_0 (c : Dev nD) : (dat2 (fun c b => Gen.V7 m (outs m) c b) c).arrAt 0 cfg2.N = Gen.V8 m (outs m) c (Pipeline.arrRef spec2 0) :=
  (arrAt_in_eq _ 0 rfl (A_eq2 (fun c b => Gen.V7 m (outs m) c b) c 0)).trans (Gen.V8_of m (outs m) c (Pipeline.arrRef spec2 0) (by decide)).symm
theorem hF2_1 (c : Dev nD) : (dat2 (fun c b => Gen.V7 m (outs m) c b) c).arrAt 1 cfg2.N = Gen.V8 m (outs m) c (Pipeline.arrRef spec2 1) :=
  (arrAt_in_eq _ 1 rfl (A_eq2 (fun c b => Gen.V7 m (outs m) c b) c 1)).trans (Gen.V8_of m (outs m) c (Pipeline.arrRef spec2 1) (by decide)).symm
theorem hF2_2 (c : Dev nD) : (dat2 (fun c b => Gen.V7 m (outs m) c b) c).arrAt 2 cfg2.N = Gen.V8 m (outs m) c (Pipeline.arrRef spec2 2) :=
  (arrAt_in_eq _ 2 rfl (A_eq2 (fun c b => Gen.V7 m (outs m) c b) c 2)).trans (Gen.V8_of m (outs m) c (Pipeline.arrRef spec2 2) (by decide)).symm
theorem hF2_3 (c : Dev nD) : (dat2 (fun c b => Gen.V7 m (outs m) c b) c).arrAt 3 cfg2.N = Gen.V8 m (outs m) c (Pipeline.arrRef spec2 3) :=
  (arrAt_in_eq _ 3 rfl (A_eq2 (fun c b => Gen.V7 m (outs m) c b) c 3)).trans (Gen.V8_of m (outs m) c (Pipeline.arrRef spec2 3) (by decide)).symm
theorem hF2_4 (c : Dev nD) : (dat2 (fun c b => Gen.V7 m (outs m) c b) c).arrAt 4 cfg2.N = Gen.V8 m (outs m) c (Pipeline.arrRef spec2 4) :=
  (arrAt_in_eq _ 4 rfl (A_eq2 (fun c b => Gen.V7 m (outs m) c b) c 4)).trans (Gen.V8_of m (outs m) c (Pipeline.arrRef spec2 4) (by decide)).symm
theorem hF2_5 (c : Dev nD) : (dat2 (fun c b => Gen.V7 m (outs m) c b) c).arrAt 5 cfg2.N = Gen.V8 m (outs m) c (Pipeline.arrRef spec2 5) :=
  (outs2_arr m c 5).symm.trans (V8_at m (outs m) c).symm
theorem hF2 (c : Dev nD) : ∀ w : Fin cfg2.W,
    (dat2 (fun c b => Gen.V7 m (outs m) c b) c).arrAt w cfg2.N = Gen.V8 m (outs m) c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c

/-- Every other buffer is as entered. -/
theorem hrest2 (c : Dev nD) (b : Ref sig .tc) (hb : b ∉ Finset.univ.image (Pipeline.arrRef spec2)) :
    Gen.V8 m (outs m) c b = Gen.V7 m (outs m) c b :=
  Gen.V8_of m (outs m) c b fun hmem => hb (by
    rw [List.mem_singleton] at hmem; subst hmem
    exact Finset.mem_image.mpr ⟨5, Finset.mem_univ _, rfl⟩)

set_option backward.isDefEq.respectTransparency.types false in
/-- The held buffers at `V7` are pipeline 2's arrays at its entry contents and the rest. -/
theorem hsplit2 (c : Dev nD) : (StableHlo.held (c : Thread nD τ) (Pipeline.ucRefs τ sig) (Gen.V7 m (outs m) c) : sProp 𝕄)
    ⊢ iprop((pdats m 2 c).arrays ((pdats m 2 c).arrAt · 0)
        ∗ Pipeline.unscopedRest (Ix := Unit) (Name := ℕ) (U := UR sig nD τ) (Lvl := ℕ) spec2 c (fun b => Gen.V7 m (outs m) c b)) := by
  have h := Pipeline.arrays_of_unscopedBufs (p := 2) (pcfgs (F := F)) Gen.adm (pdats m) launch2.win launch2.arr_whole c
    ((pdats m 2 c).share_full fun w => q_eq2 (fun c b => Gen.V7 m (outs m) c b) c w) (fun b => Gen.V7 m (outs m) c b)
    fun w => A_eq2 (fun c b => Gen.V7 m (outs m) c b) c w
  rw [Pipeline.unscopedBufs_held] at h
  exact h

set_option backward.isDefEq.respectTransparency.types false in
/-- Its arrays at what it leaves and the rest are the held buffers at `V8`. -/
theorem hjoin2 (c : Dev nD) : iprop((pdats m 2 c).arrays ((pdats m 2 c).arrAt · cfg2.N)
      ∗ Pipeline.unscopedRest (Ix := Unit) (Name := ℕ) (U := UR sig nD τ) (Lvl := ℕ) spec2 c (fun b => Gen.V7 m (outs m) c b))
    ⊢ (StableHlo.held (c : Thread nD τ) (Pipeline.ucRefs τ sig) (Gen.V8 m (outs m) c) : sProp 𝕄) := by
  have h := Pipeline.unscopedBufs_of_arrays (p := 2) (pcfgs (F := F)) Gen.adm (Ix := Unit) (Name := ℕ) (U := UR sig nD τ) (Lvl := ℕ)
    launch2.win launch2.arr_whole c (pdats m) ((pdats m 2 c).share_full fun w => q_eq2 (fun c b => Gen.V7 m (outs m) c b) c w)
    (fun b => Gen.V7 m (outs m) c b) (fun b => Gen.V8 m (outs m) c b) ((pdats m 2 c).arrAt · cfg2.N) (hF2 m c) (hrest2 m c)
  rw [Pipeline.unscopedBufs_held] at h
  exact h

set_option backward.isDefEq.respectTransparency.types false in
/-- REGION 2 over the thread state. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => Gen.V7 m (outs m) c b) c).loose
  hwaits := Pipeline.hwaits_of_owed_zero _ _ _ _ L lv 2 fun c t => owed_eq2 (fun c b => Gen.V7 m (outs m) c b) c t
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V7 m (outs m) c b)
  hentry c := entry_of c (hsplit2 m c)
    (by unfold Pipeline.prefHeld; rw [show (Finset.univ : Finset (Fin 0)) = ∅ from rfl, BI.bigSep_empty] <;> exact .rfl)
    (owesAt_in (pdats m 2 c) 0 (owed_eq2 (fun c b => Gen.V7 m (outs m) c b) c _) (recorded_eq2 (fun c b => Gen.V7 m (outs m) c b) c _))
  hin c := hin_of spec2 c (hin2 (fun c b => Gen.V7 m (outs m) c b) c)
  hout c := hout_of spec2 c (hout2 (fun c b => Gen.V7 m (outs m) c b) c)
  hexit c := exit_of c (hjoin2 m c) (owesAt_out (pdats m 2 c) _ (owed_eq2 (fun c b => Gen.V7 m (outs m) c b) c _))

end Cert.Kernel.Run

end
-- ==== Proof.K.RunR3.lean ====
import proofs.«422700_j84035330113950_1_alg».proof.Proof.K.RunBase

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 3 (item 9): entered at `V9`, left at `V10` -/

/-- What the last stage holds at item 10 for each array of pipeline 3: what the pipeline leaves there. -/
theorem outs3_arr (c : Dev nD) (w : Fin cfg3.W) :
    outs m 10 (Pipeline.arrRef spec3 w) c = (dat3 (fun c b => Gen.V9 m (outs m) c b) c).arrAt w cfg3.N :=
  (congrFun (congrFun (outs_o4 m (J := 10) (by decide)) _) c).trans ((o4_at m _ c).trans
    ((Pipeline.withArrays_arr spec3 launch3.win.arr_inj c _ _ w).trans
      (congrArg (fun V => (dat3 V c).arrAt w cfg3.N) (outs_3 m)).symm))

/-- The exit valuation at the output's array. -/
theorem V10_at (o : Gen.Outs (F := F)) (c : Dev nD) : Gen.V10 m o c main_v67 = o 10 main_v67 c := by
  simp only [Gen.V10, Function.update_self]

/-- At the exit each array of the pipeline holds what the pipeline leaves: an input what it held, the output the
    unknown of item 10. One lemma per window. -/
theorem hF3_0 (c : Dev nD) : (dat3 (fun c b => Gen.V9 m (outs m) c b) c).arrAt 0 cfg3.N = Gen.V10 m (outs m) c (Pipeline.arrRef spec3 0) :=
  (arrAt_in_eq _ 0 rfl (A_eq3 (fun c b => Gen.V9 m (outs m) c b) c 0)).trans (Gen.V10_of m (outs m) c (Pipeline.arrRef spec3 0) (by decide)).symm
theorem hF3_1 (c : Dev nD) : (dat3 (fun c b => Gen.V9 m (outs m) c b) c).arrAt 1 cfg3.N = Gen.V10 m (outs m) c (Pipeline.arrRef spec3 1) :=
  (arrAt_in_eq _ 1 rfl (A_eq3 (fun c b => Gen.V9 m (outs m) c b) c 1)).trans (Gen.V10_of m (outs m) c (Pipeline.arrRef spec3 1) (by decide)).symm
theorem hF3_2 (c : Dev nD) : (dat3 (fun c b => Gen.V9 m (outs m) c b) c).arrAt 2 cfg3.N = Gen.V10 m (outs m) c (Pipeline.arrRef spec3 2) :=
  (outs3_arr m c 2).symm.trans (V10_at m (outs m) c).symm
theorem hF3 (c : Dev nD) : ∀ w : Fin cfg3.W,
    (dat3 (fun c b => Gen.V9 m (outs m) c b) c).arrAt w cfg3.N = Gen.V10 m (outs m) c (Pipeline.arrRef spec3 w)
  | ⟨0, _⟩ => hF3_0 m c
  | ⟨1, _⟩ => hF3_1 m c
  | ⟨2, _⟩ => hF3_2 m c

/-- Every other buffer is as entered. -/
theorem hrest3 (c : Dev nD) (b : Ref sig .tc) (hb : b ∉ Finset.univ.image (Pipeline.arrRef spec3)) :
    Gen.V10 m (outs m) c b = Gen.V9 m (outs m) c b :=
  Gen.V10_of m (outs m) c b fun hmem => hb (by
    rw [List.mem_singleton] at hmem; subst hmem
    exact Finset.mem_image.mpr ⟨2, Finset.mem_univ _, rfl⟩)

set_option backward.isDefEq.respectTransparency.types false in
/-- The held buffers at `V9` are pipeline 3's arrays at its entry contents and the rest. -/
theorem hsplit3 (c : Dev nD) : (StableHlo.held (c : Thread nD τ) (Pipeline.ucRefs τ sig) (Gen.V9 m (outs m) c) : sProp 𝕄)
    ⊢ iprop((pdats m 3 c).arrays ((pdats m 3 c).arrAt · 0)
        ∗ Pipeline.unscopedRest (Ix := Unit) (Name := ℕ) (U := UR sig nD τ) (Lvl := ℕ) spec3 c (fun b => Gen.V9 m (outs m) c b)) := by
  have h := Pipeline.arrays_of_unscopedBufs (p := 3) (pcfgs (F := F)) Gen.adm (pdats m) launch3.win launch3.arr_whole c
    ((pdats m 3 c).share_full fun w => q_eq3 (fun c b => Gen.V9 m (outs m) c b) c w) (fun b => Gen.V9 m (outs m) c b)
    fun w => A_eq3 (fun c b => Gen.V9 m (outs m) c b) c w
  rw [Pipeline.unscopedBufs_held] at h
  exact h

set_option backward.isDefEq.respectTransparency.types false in
/-- Its arrays at what it leaves and the rest are the held buffers at `V10`. -/
theorem hjoin3 (c : Dev nD) : iprop((pdats m 3 c).arrays ((pdats m 3 c).arrAt · cfg3.N)
      ∗ Pipeline.unscopedRest (Ix := Unit) (Name := ℕ) (U := UR sig nD τ) (Lvl := ℕ) spec3 c (fun b => Gen.V9 m (outs m) c b))
    ⊢ (StableHlo.held (c : Thread nD τ) (Pipeline.ucRefs τ sig) (Gen.V10 m (outs m) c) : sProp 𝕄) := by
  have h := Pipeline.unscopedBufs_of_arrays (p := 3) (pcfgs (F := F)) Gen.adm (Ix := Unit) (Name := ℕ) (U := UR sig nD τ) (Lvl := ℕ)
    launch3.win launch3.arr_whole c (pdats m) ((pdats m 3 c).share_full fun w => q_eq3 (fun c b => Gen.V9 m (outs m) c b) c w)
    (fun b => Gen.V9 m (outs m) c b) (fun b => Gen.V10 m (outs m) c b) ((pdats m 3 c).arrAt · cfg3.N) (hF3 m c) (hrest3 m c)
  rw [Pipeline.unscopedBufs_held] at h
  exact h

set_option backward.isDefEq.respectTransparency.types false in
/-- REGION 3 over the thread state. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => Gen.V9 m (outs m) c b) c).loose
  hwaits := Pipeline.hwaits_of_owed_zero _ _ _ _ L lv 3 fun c t => owed_eq3 (fun c b => Gen.V9 m (outs m) c b) c t
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => Gen.V9 m (outs m) c b)
  hentry c := entry_of c (hsplit3 m c)
    (by unfold Pipeline.prefHeld; rw [show (Finset.univ : Finset (Fin 0)) = ∅ from rfl, BI.bigSep_empty] <;> exact .rfl)
    (owesAt_in (pdats m 3 c) 0 (owed_eq3 (fun c b => Gen.V9 m (outs m) c b) c _) (recorded_eq3 (fun c b => Gen.V9 m (outs m) c b) c _))
  hin c := hin_of spec3 c (hin3 (fun c b => Gen.V9 m (outs m) c b) c)
  hout c := hout_of spec3 c (hout3 (fun c b => Gen.V9 m (outs m) c b) c)
  hexit c := exit_of c (hjoin3 m c) (owesAt_out (pdats m 3 c) _ (owed_eq3 (fun c b => Gen.V9 m (outs m) c b) c _))

end Cert.Kernel.Run

end
-- ==== Proof.K.RunR4.lean ====
import proofs.«422700_j84035330113950_1_alg».proof.Proof.K.RunBase

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 4 (item 13): entered at `V13`, left at `V14` -/

/-- What the last stage holds at item 14 for each array of pipeline 4: what the pipeline leaves there. -/
theorem outs4_arr (c : Dev nD) (w : Fin cfg4.W) :
    outs m 14 (Pipeline.arrRef spec4 w) c = (dat4 (fun c b => Gen.V13 m (outs m) c b) c).arrAt w cfg4.N :=
  (congrFun (congrFun (outs_o5 m (J := 14) (by decide)) _) c).trans ((o5_at m _ c).trans
    ((Pipeline.withArrays_arr spec4 launch4.win.arr_inj c _ _ w).trans
      (congrArg (fun V => (dat4 V c).arrAt w cfg4.N) (outs_4 m)).symm))

/-- The exit valuation at the three outputs' arrays. -/
theorem V14_at0 (o : Gen.Outs (F := F)) (c : Dev nD) : Gen.V14 m o c main_v91_0 = o 14 main_v91_0 c := by
  simp only [Gen.V14, Function.update_self,
    Function.update_of_ne (StableHlo.devRef_ne_of_ne (by decide) : (Proc.devRef .tc main_v91_0 : DevRef τ sig) ≠ Proc.devRef .tc main_v91_1),
    Function.update_of_ne (StableHlo.devRef_ne_of_ne (by decide) : (Proc.devRef .tc main_v91_0 : DevRef τ sig) ≠ Proc.devRef .tc main_v91_2)]
theorem V14_at1 (o : Gen.Outs (F := F)) (c : Dev nD) : Gen.V14 m o c main_v91_1 = o 14 main_v91_1 c := by
  simp only [Gen.V14, Function.update_self,
    Function.update_of_ne (StableHlo.devRef_ne_of_ne (by decide) : (Proc.devRef .tc main_v91_1 : DevRef τ sig) ≠ Proc.devRef .tc main_v91_2)]
theorem V14_at2 (o : Gen.Outs (F := F)) (c : Dev nD) : Gen.V14 m o c main_v91_2 = o 14 main_v91_2 c := by
  simp only [Gen.V14, Function.update_self]

/-- At the exit each array of the pipeline holds what the pipeline leaves: an input what it held, an output the
    unknown of item 14. One lemma per window. -/
theorem hF4_0 (c : Dev nD) : (dat4 (fun c b => Gen.V13 m (outs m) c b) c).arrAt 0 cfg4.N = Gen.V14 m (outs m) c (Pipeline.arrRef spec4 0) :=
  (arrAt_in_eq _ 0 rfl (A_eq4 (fun c b => Gen.V13 m (outs m) c b) c 0)).trans (Gen.V14_of m (outs m) c (Pipeline.arrRef spec4 0) (by decide)).symm
theorem hF4_1 (c : Dev nD) : (dat4 (fun c b => Gen.V13 m (outs m) c b) c).arrAt 1 cfg4.N = Gen.V14 m (outs m) c (Pipeline.arrRef spec4 1) :=
  (arrAt_in_eq _ 1 rfl (A_eq4 (fun c b => Gen.V13 m (outs m) c b) c 1)).trans (Gen.V14_of m (outs m) c (Pipeline.arrRef spec4 1) (by decide)).symm
theorem hF4_2 (c : Dev nD) : (dat4 (fun c b => Gen.V13 m (outs m) c b) c).arrAt 2 cfg4.N = Gen.V14 m (outs m) c (Pipeline.arrRef spec4 2) :=
  (arrAt_in_eq _ 2 rfl (A_eq4 (fun c b => Gen.V13 m (outs m) c b) c 2)).trans (Gen.V14_of m (outs m) c (Pipeline.arrRef spec4 2) (by decide)).symm
theorem hF4_3 (c : Dev nD) : (dat4 (fun c b => Gen.V13 m (outs m) c b) c).arrAt 3 cfg4.N = Gen.V14 m (outs m) c (Pipeline.arrRef spec4 3) :=
  (arrAt_in_eq _ 3 rfl (A_eq4 (fun c b => Gen.V13 m (outs m) c b) c 3)).trans (Gen.V14_of m (outs m) c (Pipeline.arrRef spec4 3) (by decide)).symm
theorem hF4_4 (c : Dev nD) : (dat4 (fun c b => Gen.V13 m (outs m) c b) c).arrAt 4 cfg4.N = Gen.V14 m (outs m) c (Pipeline.arrRef spec4 4) :=
  (outs4_arr m c 4).symm.trans (V14_at0 m (outs m) c).symm
theorem hF4_5 (c : Dev nD) : (dat4 (fun c b => Gen.V13 m (outs m) c b) c).arrAt 5 cfg4.N = Gen.V14 m (outs m) c (Pipeline.arrRef spec4 5) :=
  (outs4_arr m c 5).symm.trans (V14_at1 m (outs m) c).symm
theorem hF4_6 (c : Dev nD) : (dat4 (fun c b => Gen.V13 m (outs m) c b) c).arrAt 6 cfg4.N = Gen.V14 m (outs m) c (Pipeline.arrRef spec4 6) :=
  (outs4_arr m c 6).symm.trans (V14_at2 m (outs m) c).symm
theorem hF4 (c : Dev nD) : ∀ w : Fin cfg4.W,
    (dat4 (fun c b => Gen.V13 m (outs m) c b) c).arrAt w cfg4.N = Gen.V14 m (outs m) c (Pipeline.arrRef spec4 w)
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
  | ⟨6, _⟩ => hF4_6 m c

/-- Every other buffer is as entered. -/
theorem hrest4 (c : Dev nD) (b : Ref sig .tc) (hb : b ∉ Finset.univ.image (Pipeline.arrRef spec4)) :
    Gen.V14 m (outs m) c b = Gen.V13 m (outs m) c b :=
  Gen.V14_of m (outs m) c b fun hmem => hb (by
    simp only [List.mem_cons, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)

set_option backward.isDefEq.respectTransparency.types false in
/-- The held buffers at `V13` are pipeline 4's arrays at its entry contents and the rest. -/
theorem hsplit4 (c : Dev nD) : (StableHlo.held (c : Thread nD τ) (Pipeline.ucRefs τ sig) (Gen.V13 m (outs m) c) : sProp 𝕄)
    ⊢ iprop((pdats m 4 c).arrays ((pdats m 4 c).arrAt · 0)
        ∗ Pipeline.unscopedRest (Ix := Unit) (Name := ℕ) (U := UR sig nD τ) (Lvl := ℕ) spec4 c (fun b => Gen.V13 m (outs m) c b)) := by
  have h := Pipeline.arrays_of_unscopedBufs (p := 4) (pcfgs (F := F)) Gen.adm (pdats m) launch4.win launch4.arr_whole c
    ((pdats m 4 c).share_full fun w => q_eq4 (fun c b => Gen.V13 m (outs m) c b) c w) (fun b => Gen.V13 m (outs m) c b)
    fun w => A_eq4 (fun c b => Gen.V13 m (outs m) c b) c w
  rw [Pipeline.unscopedBufs_held] at h
  exact h

set_option backward.isDefEq.respectTransparency.types false in
/-- Its arrays at what it leaves and the rest are the held buffers at `V14`. -/
theorem hjoin4 (c : Dev nD) : iprop((pdats m 4 c).arrays ((pdats m 4 c).arrAt · cfg4.N)
      ∗ Pipeline.unscopedRest (Ix := Unit) (Name := ℕ) (U := UR sig nD τ) (Lvl := ℕ) spec4 c (fun b => Gen.V13 m (outs m) c b))
    ⊢ (StableHlo.held (c : Thread nD τ) (Pipeline.ucRefs τ sig) (Gen.V14 m (outs m) c) : sProp 𝕄) := by
  have h := Pipeline.unscopedBufs_of_arrays (p := 4) (pcfgs (F := F)) Gen.adm (Ix := Unit) (Name := ℕ) (U := UR sig nD τ) (Lvl := ℕ)
    launch4.win launch4.arr_whole c (pdats m) ((pdats m 4 c).share_full fun w => q_eq4 (fun c b => Gen.V13 m (outs m) c b) c w)
    (fun b => Gen.V13 m (outs m) c b) (fun b => Gen.V14 m (outs m) c b) ((pdats m 4 c).arrAt · cfg4.N) (hF4 m c) (hrest4 m c)
  rw [Pipeline.unscopedBufs_held] at h
  exact h

set_option backward.isDefEq.respectTransparency.types false in
/-- REGION 4 over the thread state. -/
def reg4 : Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (fun c b => Gen.V13 m (outs m) c b) c).loose
  hwaits := Pipeline.hwaits_of_owed_zero _ _ _ _ L lv 4 fun c t => owed_eq4 (fun c b => Gen.V13 m (outs m) c b) c t
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => Gen.V13 m (outs m) c b)
  hentry c := entry_of c (hsplit4 m c)
    (by unfold Pipeline.prefHeld; rw [show (Finset.univ : Finset (Fin 0)) = ∅ from rfl, BI.bigSep_empty] <;> exact .rfl)
    (owesAt_in (pdats m 4 c) 0 (owed_eq4 (fun c b => Gen.V13 m (outs m) c b) c _) (recorded_eq4 (fun c b => Gen.V13 m (outs m) c b) c _))
  hin c := hin_of spec4 c (hin4 (fun c b => Gen.V13 m (outs m) c b) c)
  hout c := hout_of spec4 c (hout4 (fun c b => Gen.V13 m (outs m) c b) c)
  hexit c := exit_of c (hjoin4 m c) (owesAt_out (pdats m 4 c) _ (owed_eq4 (fun c b => Gen.V13 m (outs m) c b) c _))

end Cert.Kernel.Run

end
-- ==== Proof.K.RunR5.lean ====
import proofs.«422700_j84035330113950_1_alg».proof.Proof.K.RunBase

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 5 (item 15): entered at `V15`, left at `V16` -/

/-- What the last stage holds at item 16 for each array of pipeline 5: what the pipeline leaves there. -/
theorem outs5_arr (c : Dev nD) (w : Fin cfg5.W) :
    outs m 16 (Pipeline.arrRef spec5 w) c = (dat5 (fun c b => Gen.V15 m (outs m) c b) c).arrAt w cfg5.N :=
  (congrFun (congrFun (outs_o6 m (J := 16) (by decide)) _) c).trans ((o6_at m _ c).trans
    ((Pipeline.withArrays_arr spec5 launch5.win.arr_inj c _ _ w).trans
      (congrArg (fun V => (dat5 V c).arrAt w cfg5.N) (outs_5 m)).symm))

/-- The exit valuation at the output's array. -/
theorem V16_at (o : Gen.Outs (F := F)) (c : Dev nD) : Gen.V16 m o c main_v104 = o 16 main_v104 c := by
  simp only [Gen.V16, Function.update_self]

/-- At the exit each array of the pipeline holds what the pipeline leaves: an input what it held, the output the
    unknown of item 16. One lemma per window. -/
theorem hF5_0 (c : Dev nD) : (dat5 (fun c b => Gen.V15 m (outs m) c b) c).arrAt 0 cfg5.N = Gen.V16 m (outs m) c (Pipeline.arrRef spec5 0) :=
  (arrAt_in_eq _ 0 rfl (A_eq5 (fun c b => Gen.V15 m (outs m) c b) c 0)).trans (Gen.V16_of m (outs m) c (Pipeline.arrRef spec5 0) (by decide)).symm
theorem hF5_1 (c : Dev nD) : (dat5 (fun c b => Gen.V15 m (outs m) c b) c).arrAt 1 cfg5.N = Gen.V16 m (outs m) c (Pipeline.arrRef spec5 1) :=
  (arrAt_in_eq _ 1 rfl (A_eq5 (fun c b => Gen.V15 m (outs m) c b) c 1)).trans (Gen.V16_of m (outs m) c (Pipeline.arrRef spec5 1) (by decide)).symm
theorem hF5_2 (c : Dev nD) : (dat5 (fun c b => Gen.V15 m (outs m) c b) c).arrAt 2 cfg5.N = Gen.V16 m (outs m) c (Pipeline.arrRef spec5 2) :=
  (arrAt_in_eq _ 2 rfl (A_eq5 (fun c b => Gen.V15 m (outs m) c b) c 2)).trans (Gen.V16_of m (outs m) c (Pipeline.arrRef spec5 2) (by decide)).symm
theorem hF5_3 (c : Dev nD) : (dat5 (fun c b => Gen.V15 m (outs m) c b) c).arrAt 3 cfg5.N = Gen.V16 m (outs m) c (Pipeline.arrRef spec5 3) :=
  (arrAt_in_eq _ 3 rfl (A_eq5 (fun c b => Gen.V15 m (outs m) c b) c 3)).trans (Gen.V16_of m (outs m) c (Pipeline.arrRef spec5 3) (by decide)).symm
theorem hF5_4 (c : Dev nD) : (dat5 (fun c b => Gen.V15 m (outs m) c b) c).arrAt 4 cfg5.N = Gen.V16 m (outs m) c (Pipeline.arrRef spec5 4) :=
  (arrAt_in_eq _ 4 rfl (A_eq5 (fun c b => Gen.V15 m (outs m) c b) c 4)).trans (Gen.V16_of m (outs m) c (Pipeline.arrRef spec5 4) (by decide)).symm
theorem hF5_5 (c : Dev nD) : (dat5 (fun c b => Gen.V15 m (outs m) c b) c).arrAt 5 cfg5.N = Gen.V16 m (outs m) c (Pipeline.arrRef spec5 5) :=
  (outs5_arr m c 5).symm.trans (V16_at m (outs m) c).symm
theorem hF5 (c : Dev nD) : ∀ w : Fin cfg5.W,
    (dat5 (fun c b => Gen.V15 m (outs m) c b) c).arrAt w cfg5.N = Gen.V16 m (outs m) c (Pipeline.arrRef spec5 w)
  | ⟨0, _⟩ => hF5_0 m c
  | ⟨1, _⟩ => hF5_1 m c
  | ⟨2, _⟩ => hF5_2 m c
  | ⟨3, _⟩ => hF5_3 m c
  | ⟨4, _⟩ => hF5_4 m c
  | ⟨5, _⟩ => hF5_5 m c

/-- Every other buffer is as entered. -/
theorem hrest5 (c : Dev nD) (b : Ref sig .tc) (hb : b ∉ Finset.univ.image (Pipeline.arrRef spec5)) :
    Gen.V16 m (outs m) c b = Gen.V15 m (outs m) c b :=
  Gen.V16_of m (outs m) c b fun hmem => hb (by
    rw [List.mem_singleton] at hmem; subst hmem
    exact Finset.mem_image.mpr ⟨5, Finset.mem_univ _, rfl⟩)

set_option backward.isDefEq.respectTransparency.types false in
/-- The held buffers at `V15` are pipeline 5's arrays at its entry contents and the rest. -/
theorem hsplit5 (c : Dev nD) : (StableHlo.held (c : Thread nD τ) (Pipeline.ucRefs τ sig) (Gen.V15 m (outs m) c) : sProp 𝕄)
    ⊢ iprop((pdats m 5 c).arrays ((pdats m 5 c).arrAt · 0)
        ∗ Pipeline.unscopedRest (Ix := Unit) (Name := ℕ) (U := UR sig nD τ) (Lvl := ℕ) spec5 c (fun b => Gen.V15 m (outs m) c b)) := by
  have h := Pipeline.arrays_of_unscopedBufs (p := 5) (pcfgs (F := F)) Gen.adm (pdats m) launch5.win launch5.arr_whole c
    ((pdats m 5 c).share_full fun w => q_eq5 (fun c b => Gen.V15 m (outs m) c b) c w) (fun b => Gen.V15 m (outs m) c b)
    fun w => A_eq5 (fun c b => Gen.V15 m (outs m) c b) c w
  rw [Pipeline.unscopedBufs_held] at h
  exact h

set_option backward.isDefEq.respectTransparency.types false in
/-- Its arrays at what it leaves and the rest are the held buffers at `V16`. -/
theorem hjoin5 (c : Dev nD) : iprop((pdats m 5 c).arrays ((pdats m 5 c).arrAt · cfg5.N)
      ∗ Pipeline.unscopedRest (Ix := Unit) (Name := ℕ) (U := UR sig nD τ) (Lvl := ℕ) spec5 c (fun b => Gen.V15 m (outs m) c b))
    ⊢ (StableHlo.held (c : Thread nD τ) (Pipeline.ucRefs τ sig) (Gen.V16 m (outs m) c) : sProp 𝕄) := by
  have h := Pipeline.unscopedBufs_of_arrays (p := 5) (pcfgs (F := F)) Gen.adm (Ix := Unit) (Name := ℕ) (U := UR sig nD τ) (Lvl := ℕ)
    launch5.win launch5.arr_whole c (pdats m) ((pdats m 5 c).share_full fun w => q_eq5 (fun c b => Gen.V15 m (outs m) c b) c w)
    (fun b => Gen.V15 m (outs m) c b) (fun b => Gen.V16 m (outs m) c b) ((pdats m 5 c).arrAt · cfg5.N) (hF5 m c) (hrest5 m c)
  rw [Pipeline.unscopedBufs_held] at h
  exact h

set_option backward.isDefEq.respectTransparency.types false in
/-- REGION 5 over the thread state. -/
def reg5 : Pipeline.RegionSeg (pcfgs (F := F)) Gen.adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (fun c b => Gen.V15 m (outs m) c b) c).loose
  hwaits := Pipeline.hwaits_of_owed_zero _ _ _ _ L lv 5 fun c t => owed_eq5 (fun c b => Gen.V15 m (outs m) c b) c t
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => Gen.V15 m (outs m) c b)
  hentry c := entry_of c (hsplit5 m c)
    (by unfold Pipeline.prefHeld; rw [show (Finset.univ : Finset (Fin 0)) = ∅ from rfl, BI.bigSep_empty] <;> exact .rfl)
    (owesAt_in (pdats m 5 c) 0 (owed_eq5 (fun c b => Gen.V15 m (outs m) c b) c _) (recorded_eq5 (fun c b => Gen.V15 m (outs m) c b) c _))
  hin c := hin_of spec5 c (hin5 (fun c b => Gen.V15 m (outs m) c b) c)
  hout c := hout_of spec5 c (hout5 (fun c b => Gen.V15 m (outs m) c b) c)
  hexit c := exit_of c (hjoin5 m c) (owesAt_out (pdats m 5 c) _ (owed_eq5 (fun c b => Gen.V15 m (outs m) c b) c _))

end Cert.Kernel.Run

end
-- ==== Proof.K.RunR6.lean ====
import proofs.«422700_j84035330113950_1_alg».proof.Proof.K.RunBase

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 6 (item 17): entered at `V17`, left at `V18` -/

/-- What the last stage holds at item 18 for each array of pipeline 6: what the pipeline leaves there. -/
theorem outs6_arr (c : Dev nD) (w : Fin cfg6.W) :
    outs m 18 (Pipeline.arrRef spec6 w) c = (dat6 (fun c b => Gen.V17 m (outs m) c b) c).arrAt w cfg6.N :=
  (congrFun (congrFun (outs_o7 m (J := 18) (by decide)) _) c).trans ((o7_at m _ c).trans
    ((Pipeline.withArrays_arr spec6 launch6.win.arr_inj c _ _ w).trans
      (congrArg (fun V => (dat6 V c).arrAt w cfg6.N) (outs_6 m)).symm))

/-- The exit valuation at the output's array. -/
theorem V18_at (o : Gen.Outs (F := F)) (c : Dev nD) : Gen.V18 m o c main_v109 = o 18 main_v109 c := by
  simp only [Gen.V18, Function.update_self]

/-- At the exit each array of the pipeline holds what the pipeline leaves: an input what it held, the output the
    unknown of item 18. One lemma per window. -/
theorem hF6_0 (c : Dev nD) : (dat6 (fun c b => Gen.V17 m (outs m) c b) c).arrAt 0 cfg6.N = Gen.V18 m (outs m) c (Pipeline.arrRef spec6 0) :=
  (arrAt_in_eq _ 0 rfl (A_eq6 (fun c b => Gen.V17 m (outs m) c b) c 0)).trans (Gen.V18_of m (outs m) c (Pipeline.arrRef spec6 0) (by decide)).symm
theorem hF6_1 (c : Dev nD) : (dat6 (fun c b => Gen.V17 m (outs m) c b) c).arrAt 1 cfg6.N = Gen.V18 m (outs m) c (Pipeline.arrRef spec6 1) :=
  (arrAt_in_eq _ 1 rfl (A_eq6 (fun c b => Gen.V17 m (outs m) c b) c 1)).trans (Gen.V18_of m (outs m) c (Pipeline.arrRef spec6 1) (by decide)).symm
theorem hF6_2 (c : Dev nD) : (dat6 (fun c b => Gen.V17 m (outs m) c b) c).arrAt 2 cfg6.N = Gen.V18 m (outs m) c (Pipeline.arrRef spec6 2) :=
  (outs6_arr m c 2).symm.trans (V18_at m (outs m) c).symm
theorem hF6 (c : Dev nD) : ∀ w : Fin cfg6.W,
    (dat6 (fun c b => Gen.V17 m (outs m) c b) c).arrAt w cfg6.N = Gen.V18 m (outs m) c (Pipeline.arrRef spec6 w)
  | ⟨0, _⟩ => hF6_0 m c
  | ⟨1, _⟩ => hF6_1 m c
  | ⟨2, _⟩ => hF6_2 m c

/-- Every other buffer is as entered. -/
theorem hrest6 (c : Dev nD) (b : Ref sig .tc) (hb : b ∉ Finset.univ.image (Pipeline.arrRef spec6)) :
    Gen.V18 m (outs m) c b = Gen.V17 m (outs m) c b :=
  Gen.V18_of m (outs m) c b fun hmem => hb (by
    rw [List.mem_singleton] at hmem; subst hmem
    exact Finset.mem_image.mpr ⟨2, Finset.mem_univ _, rfl⟩)

set_option backward.isDefEq.respectTransparency.types false in
/-- The held buffers at `V17` are pipeline 6's arrays at its entry contents and the rest. -/
theorem hsplit6 (c : Dev nD) : (StableHlo.held (c : Thread nD τ) (Pipeline.ucRefs τ sig) (Gen.V17 m (outs m) c) : sProp 𝕄)
    ⊢ iprop((pdats m 6 c).arrays ((pdats m 6 c).arrAt · 0)
        ∗ Pipeline.unscopedRest (Ix := Unit) (Name := ℕ) (U := UR sig nD τ) (Lvl := ℕ) spec6 c (fun b => Gen.V17 m (outs m) c b)) := by
  have h := Pipeline.arrays_of_unscopedBufs (p := 6) (pcfgs (F := F)) Gen.adm (pdats m) launch6.win launch6.arr_whole c
    ((pdats m 6 c).share_full fun w => q_eq6 (fun c b => Gen.V17 m (outs m) c b) c w) (fun b => Gen.V17 m (outs m) c b)
    fun w => A_eq6 (fun c b => Gen.V17 m (outs m) c b) c w
  rw [Pipeline.unscopedBufs_held] at h
  exact h

set_option backward.isDefEq.respectTransparency.types false in
/-- Its arrays at what it leaves and the rest are the held buffers at `V18`. -/
theorem hjoin6 (c : Dev nD) : iprop((pdats m 6 c).arrays ((pdats m 6 c).arrAt · cfg6.N)
      ∗ Pipeline.unscopedRest (Ix := Unit) (Name := ℕ) (U := UR sig nD τ) (Lvl := ℕ) spec6 c (fun b => Gen.V17 m (outs m) c b))
    ⊢ (StableHlo.held (c : Thread nD τ) (Pipeline.ucRefs τ sig) (Gen.V18 m (outs m) c) : sProp 𝕄) := by
  have h := Pipeline.unscopedBufs_of_arrays (p := 6) (pcfgs (F := F)) Gen.adm (Ix := Unit) (Name := ℕ) (U := UR sig nD τ) (Lvl := ℕ)
    launch6.win launch6.arr_whole c (pdats m) ((pdats m 6 c).share_full fun w => q_eq6 (fun c b => Gen.V17 m (outs m) c b) c w)
    (fun b => Gen.V17 m (outs m) c b) (fun b => Gen.V18 m (outs m) c b) ((pdats m 6 c).arrAt · cfg6.N) (hF6 m c) (hrest6 m c)
  rw [Pipeline.unscopedBufs_held] at h
  exact h

set_option backward.isDefEq.respectTransparency.types false in
/-- REGION 6 over the thread state. -/
def reg6 : Pipeline.RegionSeg (pcfgs (F := F)) Gen.adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (fun c b => Gen.V17 m (outs m) c b) c).loose
  hwaits := Pipeline.hwaits_of_owed_zero _ _ _ _ L lv 6 fun c t => owed_eq6 (fun c b => Gen.V17 m (outs m) c b) c t
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := UR sig nD τ) (Lvl := ℕ) spec6 c (fun b => Gen.V17 m (outs m) c b)
  hentry c := entry_of c (hsplit6 m c)
    (by unfold Pipeline.prefHeld; rw [show (Finset.univ : Finset (Fin 0)) = ∅ from rfl, BI.bigSep_empty] <;> exact .rfl)
    (owesAt_in (pdats m 6 c) 0 (owed_eq6 (fun c b => Gen.V17 m (outs m) c b) c _) (recorded_eq6 (fun c b => Gen.V17 m (outs m) c b) c _))
  hin c := hin_of spec6 c (hin6 (fun c b => Gen.V17 m (outs m) c b) c)
  hout c := hout_of spec6 c (hout6 (fun c b => Gen.V17 m (outs m) c b) c)
  hexit c := exit_of c (hjoin6 m c) (owesAt_out (pdats m 6 c) _ (owed_eq6 (fun c b => Gen.V17 m (outs m) c b) c _))

end Cert.Kernel.Run

end
-- ==== Proof.K.RunR7.lean ====
import proofs.«422700_j84035330113950_1_alg».proof.Proof.K.RunBase

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 7 (item 21): entered at `V21`, left at `V22` -/

/-- What the last stage holds at item 22 for each array of pipeline 7: what the pipeline leaves there. -/
theorem outs7_arr (c : Dev nD) (w : Fin cfg7.W) :
    outs m 22 (Pipeline.arrRef spec7 w) c = (dat7 (fun c b => Gen.V21 m (outs m) c b) c).arrAt w cfg7.N :=
  (congrFun (congrFun (outs_o8 m (J := 22) (by decide)) _) c).trans ((o8_at m _ c).trans
    ((Pipeline.withArrays_arr spec7 launch7.win.arr_inj c _ _ w).trans
      (congrArg (fun V => (dat7 V c).arrAt w cfg7.N) (outs_7 m)).symm))

/-- The exit valuation at the three outputs' arrays. -/
theorem V22_at0 (o : Gen.Outs (F := F)) (c : Dev nD) : Gen.V22 m o c main_v133_0 = o 22 main_v133_0 c := by
  simp only [Gen.V22, Function.update_self,
    Function.update_of_ne (StableHlo.devRef_ne_of_ne (by decide) : (Proc.devRef .tc main_v133_0 : DevRef τ sig) ≠ Proc.devRef .tc main_v133_1),
    Function.update_of_ne (StableHlo.devRef_ne_of_ne (by decide) : (Proc.devRef .tc main_v133_0 : DevRef τ sig) ≠ Proc.devRef .tc main_v133_2)]
theorem V22_at1 (o : Gen.Outs (F := F)) (c : Dev nD) : Gen.V22 m o c main_v133_1 = o 22 main_v133_1 c := by
  simp only [Gen.V22, Function.update_self,
    Function.update_of_ne (StableHlo.devRef_ne_of_ne (by decide) : (Proc.devRef .tc main_v133_1 : DevRef τ sig) ≠ Proc.devRef .tc main_v133_2)]
theorem V22_at2 (o : Gen.Outs (F := F)) (c : Dev nD) : Gen.V22 m o c main_v133_2 = o 22 main_v133_2 c := by
  simp only [Gen.V22, Function.update_self]

/-- At the exit each array of the pipeline holds what the pipeline leaves: an input what it held, an output the
    unknown of item 22. One lemma per window. -/
theorem hF7_0 (c : Dev nD) : (dat7 (fun c b => Gen.V21 m (outs m) c b) c).arrAt 0 cfg7.N = Gen.V22 m (outs m) c (Pipeline.arrRef spec7 0) :=
  (arrAt_in_eq _ 0 rfl (A_eq7 (fun c b => Gen.V21 m (outs m) c b) c 0)).trans (Gen.V22_of m (outs m) c (Pipeline.arrRef spec7 0) (by decide)).symm
theorem hF7_1 (c : Dev nD) : (dat7 (fun c b => Gen.V21 m (outs m) c b) c).arrAt 1 cfg7.N = Gen.V22 m (outs m) c (Pipeline.arrRef spec7 1) :=
  (arrAt_in_eq _ 1 rfl (A_eq7 (fun c b => Gen.V21 m (outs m) c b) c 1)).trans (Gen.V22_of m (outs m) c (Pipeline.arrRef spec7 1) (by decide)).symm
theorem hF7_2 (c : Dev nD) : (dat7 (fun c b => Gen.V21 m (outs m) c b) c).arrAt 2 cfg7.N = Gen.V22 m (outs m) c (Pipeline.arrRef spec7 2) :=
  (arrAt_in_eq _ 2 rfl (A_eq7 (fun c b => Gen.V21 m (outs m) c b) c 2)).trans (Gen.V22_of m (outs m) c (Pipeline.arrRef spec7 2) (by decide)).symm
theorem hF7_3 (c : Dev nD) : (dat7 (fun c b => Gen.V21 m (outs m) c b) c).arrAt 3 cfg7.N = Gen.V22 m (outs m) c (Pipeline.arrRef spec7 3) :=
  (arrAt_in_eq _ 3 rfl (A_eq7 (fun c b => Gen.V21 m (outs m) c b) c 3)).trans (Gen.V22_of m (outs m) c (Pipeline.arrRef spec7 3) (by decide)).symm
theorem hF7_4 (c : Dev nD) : (dat7 (fun c b => Gen.V21 m (outs m) c b) c).arrAt 4 cfg7.N = Gen.V22 m (outs m) c (Pipeline.arrRef spec7 4) :=
  (outs7_arr m c 4).symm.trans (V22_at0 m (outs m) c).symm
theorem hF7_5 (c : Dev nD) : (dat7 (fun c b => Gen.V21 m (outs m) c b) c).arrAt 5 cfg7.N = Gen.V22 m (outs m) c (Pipeline.arrRef spec7 5) :=
  (outs7_arr m c 5).symm.trans (V22_at1 m (outs m) c).symm
theorem hF7_6 (c : Dev nD) : (dat7 (fun c b => Gen.V21 m (outs m) c b) c).arrAt 6 cfg7.N = Gen.V22 m (outs m) c (Pipeline.arrRef spec7 6) :=
  (outs7_arr m c 6).symm.trans (V22_at2 m (outs m) c).symm
theorem hF7 (c : Dev nD) : ∀ w : Fin cfg7.W,
    (dat7 (fun c b => Gen.V21 m (outs m) c b) c).arrAt w cfg7.N = Gen.V22 m (outs m) c (Pipeline.arrRef spec7 w)
  | ⟨0, _⟩ => hF7_0 m c
  | ⟨1, _⟩ => hF7_1 m c
  | ⟨2, _⟩ => hF7_2 m c
  | ⟨3, _⟩ => hF7_3 m c
  | ⟨4, _⟩ => hF7_4 m c
  | ⟨5, _⟩ => hF7_5 m c
  | ⟨6, _⟩ => hF7_6 m c

/-- Every other buffer is as entered. -/
theorem hrest7 (c : Dev nD) (b : Ref sig .tc) (hb : b ∉ Finset.univ.image (Pipeline.arrRef spec7)) :
    Gen.V22 m (outs m) c b = Gen.V21 m (outs m) c b :=
  Gen.V22_of m (outs m) c b fun hmem => hb (by
    simp only [List.mem_cons, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)

set_option backward.isDefEq.respectTransparency.types false in
/-- The held buffers at `V21` are pipeline 7's arrays at its entry contents and the rest. -/
theorem hsplit7 (c : Dev nD) : (StableHlo.held (c : Thread nD τ) (Pipeline.ucRefs τ sig) (Gen.V21 m (outs m) c) : sProp 𝕄)
    ⊢ iprop((pdats m 7 c).arrays ((pdats m 7 c).arrAt · 0)
        ∗ Pipeline.unscopedRest (Ix := Unit) (Name := ℕ) (U := UR sig nD τ) (Lvl := ℕ) spec7 c (fun b => Gen.V21 m (outs m) c b)) := by
  have h := Pipeline.arrays_of_unscopedBufs (p := 7) (pcfgs (F := F)) Gen.adm (pdats m) launch7.win launch7.arr_whole c
    ((pdats m 7 c).share_full fun w => q_eq7 (fun c b => Gen.V21 m (outs m) c b) c w) (fun b => Gen.V21 m (outs m) c b)
    fun w => A_eq7 (fun c b => Gen.V21 m (outs m) c b) c w
  rw [Pipeline.unscopedBufs_held] at h
  exact h

set_option backward.isDefEq.respectTransparency.types false in
/-- Its arrays at what it leaves and the rest are the held buffers at `V22`. -/
theorem hjoin7 (c : Dev nD) : iprop((pdats m 7 c).arrays ((pdats m 7 c).arrAt · cfg7.N)
      ∗ Pipeline.unscopedRest (Ix := Unit) (Name := ℕ) (U := UR sig nD τ) (Lvl := ℕ) spec7 c (fun b => Gen.V21 m (outs m) c b))
    ⊢ (StableHlo.held (c : Thread nD τ) (Pipeline.ucRefs τ sig) (Gen.V22 m (outs m) c) : sProp 𝕄) := by
  have h := Pipeline.unscopedBufs_of_arrays (p := 7) (pcfgs (F := F)) Gen.adm (Ix := Unit) (Name := ℕ) (U := UR sig nD τ) (Lvl := ℕ)
    launch7.win launch7.arr_whole c (pdats m) ((pdats m 7 c).share_full fun w => q_eq7 (fun c b => Gen.V21 m (outs m) c b) c w)
    (fun b => Gen.V21 m (outs m) c b) (fun b => Gen.V22 m (outs m) c b) ((pdats m 7 c).arrAt · cfg7.N) (hF7 m c) (hrest7 m c)
  rw [Pipeline.unscopedBufs_held] at h
  exact h

set_option backward.isDefEq.respectTransparency.types false in
/-- REGION 7 over the thread state. -/
def reg7 : Pipeline.RegionSeg (pcfgs (F := F)) Gen.adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (fun c b => Gen.V21 m (outs m) c b) c).loose
  hwaits := Pipeline.hwaits_of_owed_zero _ _ _ _ L lv 7 fun c t => owed_eq7 (fun c b => Gen.V21 m (outs m) c b) c t
  pre c := iprop(StableHlo.held (c : Thread nD τ) (Pipeline.ucRefs τ sig) (Gen.V21 m (outs m) c) ∗ R c)
  post c := iprop(StableHlo.held (c : Thread nD τ) (Pipeline.ucRefs τ sig) (Gen.V22 m (outs m) c) ∗ R c)
  X c := iprop(∃ r, prngReg c r)
  Y c := iprop(∃ r, prngReg c r)
  Z c := Pipeline.unscopedRest (Ix := Unit) (Name := ℕ) (U := UR sig nD τ) (Lvl := ℕ) spec7 c (fun b => Gen.V21 m (outs m) c b)
  hentry c := entry_of c (hsplit7 m c)
    (by unfold Pipeline.prefHeld; rw [show (Finset.univ : Finset (Fin 0)) = ∅ from rfl, BI.bigSep_empty] <;> exact .rfl)
    (owesAt_in (pdats m 7 c) 0 (owed_eq7 (fun c b => Gen.V21 m (outs m) c b) c _) (recorded_eq7 (fun c b => Gen.V21 m (outs m) c b) c _))
  hin c := hin_of spec7 c (hin7 (fun c b => Gen.V21 m (outs m) c b) c)
  hout c := hout_of spec7 c (hout7 (fun c b => Gen.V21 m (outs m) c b) c)
  hexit c := exit_of c (hjoin7 m c) (owesAt_out (pdats m 7 c) _ (owed_eq7 (fun c b => Gen.V21 m (outs m) c b) c _))

end Cert.Kernel.Run

end
-- ==== Proof.K.RunR8.lean ====
import proofs.«422700_j84035330113950_1_alg».proof.Proof.K.RunBase

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 8 (item 23): entered at `V23`, left at `V24` -/

/-- The regions' outputs are the last stage. -/
theorem outs_o9 (J : ℕ) : outs m J = o9 m J := rfl

/-- What the last stage holds at item 24 for each array of pipeline 8: what the pipeline leaves there. -/
theorem outs8_arr (c : Dev nD) (w : Fin cfg8.W) :
    outs m 24 (Pipeline.arrRef spec8 w) c = (dat8 (fun c b => Gen.V23 m (outs m) c b) c).arrAt w cfg8.N :=
  (congrFun (congrFun (outs_o9 m 24) _) c).trans ((o9_at m _ c).trans
    ((Pipeline.withArrays_arr spec8 launch8.win.arr_inj c _ _ w).trans
      (congrArg (fun V => (dat8 V c).arrAt w cfg8.N) (outs_8 m)).symm))

/-- The exit valuation at the output's array. -/
theorem V24_at (o : Gen.Outs (F := F)) (c : Dev nD) : Gen.V24 m o c main_v146 = o 24 main_v146 c := by
  simp only [Gen.V24, Function.update_self]

/-- At the exit each array of the pipeline holds what the pipeline leaves: an input what it held, the output the
    unknown of item 24. One lemma per window. -/
theorem hF8_0 (c : Dev nD) : (dat8 (fun c b => Gen.V23 m (outs m) c b) c).arrAt 0 cfg8.N = Gen.V24 m (outs m) c (Pipeline.arrRef spec8 0) :=
  (arrAt_in_eq _ 0 rfl (A_eq8 (fun c b => Gen.V23 m (outs m) c b) c 0)).trans (Gen.V24_of m (outs m) c (Pipeline.arrRef spec8 0) (by decide)).symm
theorem hF8_1 (c : Dev nD) : (dat8 (fun c b => Gen.V23 m (outs m) c b) c).arrAt 1 cfg8.N = Gen.V24 m (outs m) c (Pipeline.arrRef spec8 1) :=
  (arrAt_in_eq _ 1 rfl (A_eq8 (fun c b => Gen.V23 m (outs m) c b) c 1)).trans (Gen.V24_of m (outs m) c (Pipeline.arrRef spec8 1) (by decide)).symm
theorem hF8_2 (c : Dev nD) : (dat8 (fun c b => Gen.V23 m (outs m) c b) c).arrAt 2 cfg8.N = Gen.V24 m (outs m) c (Pipeline.arrRef spec8 2) :=
  (arrAt_in_eq _ 2 rfl (A_eq8 (fun c b => Gen.V23 m (outs m) c b) c 2)).trans (Gen.V24_of m (outs m) c (Pipeline.arrRef spec8 2) (by decide)).symm
theorem hF8_3 (c : Dev nD) : (dat8 (fun c b => Gen.V23 m (outs m) c b) c).arrAt 3 cfg8.N = Gen.V24 m (outs m) c (Pipeline.arrRef spec8 3) :=
  (arrAt_in_eq _ 3 rfl (A_eq8 (fun c b => Gen.V23 m (outs m) c b) c 3)).trans (Gen.V24_of m (outs m) c (Pipeline.arrRef spec8 3) (by decide)).symm
theorem hF8_4 (c : Dev nD) : (dat8 (fun c b => Gen.V23 m (outs m) c b) c).arrAt 4 cfg8.N = Gen.V24 m (outs m) c (Pipeline.arrRef spec8 4) :=
  (arrAt_in_eq _ 4 rfl (A_eq8 (fun c b => Gen.V23 m (outs m) c b) c 4)).trans (Gen.V24_of m (outs m) c (Pipeline.arrRef spec8 4) (by decide)).symm
theorem hF8_5 (c : Dev nD) : (dat8 (fun c b => Gen.V23 m (outs m) c b) c).arrAt 5 cfg8.N = Gen.V24 m (outs m) c (Pipeline.arrRef spec8 5) :=
  (outs8_arr m c 5).symm.trans (V24_at m (outs m) c).symm
theorem hF8 (c : Dev nD) : ∀ w : Fin cfg8.W,
    (dat8 (fun c b => Gen.V23 m (outs m) c b) c).arrAt w cfg8.N = Gen.V24 m (outs m) c (Pipeline.arrRef spec8 w)
  | ⟨0, _⟩ => hF8_0 m c
  | ⟨1, _⟩ => hF8_1 m c
  | ⟨2, _⟩ => hF8_2 m c
  | ⟨3, _⟩ => hF8_3 m c
  | ⟨4, _⟩ => hF8_4 m c
  | ⟨5, _⟩ => hF8_5 m c

/-- Every other buffer is as entered. -/
theorem hrest8 (c : Dev nD) (b : Ref sig .tc) (hb : b ∉ Finset.univ.image (Pipeline.arrRef spec8)) :
    Gen.V24 m (outs m) c b = Gen.V23 m (outs m) c b :=
  Gen.V24_of m (outs m) c b fun hmem => hb (by
    rw [List.mem_singleton] at hmem; subst hmem
    exact Finset.mem_image.mpr ⟨5, Finset.mem_univ _, rfl⟩)

set_option backward.isDefEq.respectTransparency.types false in
/-- The held buffers at `V23` are pipeline 8's arrays at its entry contents and the rest. -/
theorem hsplit8 (c : Dev nD) : (StableHlo.held (c : Thread nD τ) (Pipeline.ucRefs τ sig) (Gen.V23 m (outs m) c) : sProp 𝕄)
    ⊢ iprop((pdats m 8 c).arrays ((pdats m 8 c).arrAt · 0)
        ∗ Pipeline.unscopedRest (Ix := Unit) (Name := ℕ) (U := UR sig nD τ) (Lvl := ℕ) spec8 c (fun b => Gen.V23 m (outs m) c b)) := by
  have h := Pipeline.arrays_of_unscopedBufs (p := 8) (pcfgs (F := F)) Gen.adm (pdats m) launch8.win launch8.arr_whole c
    ((pdats m 8 c).share_full fun w => q_eq8 (fun c b => Gen.V23 m (outs m) c b) c w) (fun b => Gen.V23 m (outs m) c b)
    fun w => A_eq8 (fun c b => Gen.V23 m (outs m) c b) c w
  rw [Pipeline.unscopedBufs_held] at h
  exact h

set_option backward.isDefEq.respectTransparency.types false in
/-- Its arrays at what it leaves and the rest are the held buffers at `V24`. -/
theorem hjoin8 (c : Dev nD) : iprop((pdats m 8 c).arrays ((pdats m 8 c).arrAt · cfg8.N)
      ∗ Pipeline.unscopedRest (Ix := Unit) (Name := ℕ) (U := UR sig nD τ) (Lvl := ℕ) spec8 c (fun b => Gen.V23 m (outs m) c b))
    ⊢ (StableHlo.held (c : Thread nD τ) (Pipeline.ucRefs τ sig) (Gen.V24 m (outs m) c) : sProp 𝕄) := by
  have h := Pipeline.unscopedBufs_of_arrays (p := 8) (pcfgs (F := F)) Gen.adm (Ix := Unit) (Name := ℕ) (U := UR sig nD τ) (Lvl := ℕ)
    launch8.win launch8.arr_whole c (pdats m) ((pdats m 8 c).share_full fun w => q_eq8 (fun c b => Gen.V23 m (outs m) c b) c w)
    (fun b => Gen.V23 m (outs m) c b) (fun b => Gen.V24 m (outs m) c b) ((pdats m 8 c).arrAt · cfg8.N) (hF8 m c) (hrest8 m c)
  rw [Pipeline.unscopedBufs_held] at h
  exact h

set_option backward.isDefEq.respectTransparency.types false in
/-- REGION 8 over the thread state. -/
def reg8 : Pipeline.RegionSeg (pcfgs (F := F)) Gen.adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (fun c b => Gen.V23 m (outs m) c b) c).loose
  hwaits := Pipeline.hwaits_of_owed_zero _ _ _ _ L lv 8 fun c t => owed_eq8 (fun c b => Gen.V23 m (outs m) c b) c t
  pre c := iprop(StableHlo.held (c : Thread nD τ) (Pipeline.ucRefs τ sig) (Gen.V23 m (outs m) c) ∗ R c)
  post c := iprop(StableHlo.held (c : Thread nD τ) (Pipeline.ucRefs τ sig) (Gen.V24 m (outs m) c) ∗ R c)
  X c := iprop(∃ r, prngReg c r)
  Y c := iprop(∃ r, prngReg c r)
  Z c := Pipeline.unscopedRest (Ix := Unit) (Name := ℕ) (U := UR sig nD τ) (Lvl := ℕ) spec8 c (fun b => Gen.V23 m (outs m) c b)
  hentry c := entry_of c (hsplit8 m c)
    (by unfold Pipeline.prefHeld; rw [show (Finset.univ : Finset (Fin 0)) = ∅ from rfl, BI.bigSep_empty] <;> exact .rfl)
    (owesAt_in (pdats m 8 c) 0 (owed_eq8 (fun c b => Gen.V23 m (outs m) c b) c _) (recorded_eq8 (fun c b => Gen.V23 m (outs m) c b) c _))
  hin c := hin_of spec8 c (hin8 (fun c b => Gen.V23 m (outs m) c b) c)
  hout c := hout_of spec8 c (hout8 (fun c b => Gen.V23 m (outs m) c b) c)
  hexit c := exit_of c (hjoin8 m c) (owesAt_out (pdats m 8 c) _ (owed_eq8 (fun c b => Gen.V23 m (outs m) c b) c _))

end Cert.Kernel.Run

end
-- ==== Proof.K.Run.lean ====
import proofs.«422700_j84035330113950_1_alg».proof.Proof.K.RunR0
import proofs.«422700_j84035330113950_1_alg».proof.Proof.K.RunR1
import proofs.«422700_j84035330113950_1_alg».proof.Proof.K.RunR2
import proofs.«422700_j84035330113950_1_alg».proof.Proof.K.RunR3
import proofs.«422700_j84035330113950_1_alg».proof.Proof.K.RunR4
import proofs.«422700_j84035330113950_1_alg».proof.Proof.K.RunR5
import proofs.«422700_j84035330113950_1_alg».proof.Proof.K.RunR6
import proofs.«422700_j84035330113950_1_alg».proof.Proof.K.RunR7
import proofs.«422700_j84035330113950_1_alg».proof.Proof.K.RunR8

set_option maxRecDepth 16384

noncomputable section

namespace Cert.Kernel.Run

open Cert.Kernel Cert.Kernel.Gen Cert.Kernel.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # THE RUN of @main: the nine regions' records under the conditional frame -/

/-- The launch element is the pipeline library's own, and no ghost resource is dealt. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The rest state ends owing nothing: the generator register is dropped. -/
theorem hR (c : Dev nD) : R c ⊢ (iprop(∃ W, owes (c : Thread nD τ) (0 : CellTallies nD τ sig Unit) W) : sProp 𝕄) := by
  iintro ⟨-, H⟩; iexact H

set_option backward.isDefEq.respectTransparency.types false in
/-- THE FRAME: the frame claim's statement at any `F`. Every weakly fair execution of @main from memory `m` with
    zero counters terminates, and every final memory holds each argument array as launched: the conditional frame,
    given the nine regions' records, each entered from and left at the thread state the frame names. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond (m := m) (EP := emb₁) (ι := ()) (𝒱₀ := Variants.none) (L := L) (lv := lv) (hL := fun _ _ => rfl) (ρ := ρ)
    (outs := outs m) (pdats := pdats m) (O₀ := fun _ => 0) (G := fun _ => (BI.emp : sProp 𝕄))
    (u₀ := initOf (Pipeline.cells cfgs cellOf_inj) (Pipeline.launchToks cfgs cellOf_inj)) (hu₀ := hu₀)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE9 := fun c => hR c)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)

/-! # The run read in full: every unscoped buffer at the last valuation -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Every weakly fair execution of @main from memory `m` with zero counters terminates, and every final
    memory holds every unscoped buffer of every core at the last valuation `V34` read at the regions' outputs:
    the launch over @main's 34 items (25 host stretches, the nine regions' records), the last thread state read
    against the final state. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Gen.V34 m (outs m) c b) := by
  refine Pipeline.θ_run_regions_kit_dev (pcfgs (F := F)) Gen.adm (pdats m) () cellOf_inj emb₁ defs₀ Variants.none L lv m ρ main
    (Gen.segs m (outs m) Variants.none L lv (fun _ c => R c) () (pdats m)
      (reg0 m) (reg1 m) (reg2 m) (reg3 m) (reg4 m) (reg5 m) (reg6 m) (reg7 m) (reg8 m))
    (fun c Q => by
      rewrite [main_chain c, Pipeline.Seg.run_eq_chain,
        show (Gen.segs m (outs m) Variants.none L lv (fun _ c => R c) () (pdats m)
            (reg0 m) (reg1 m) (reg2 m) (reg3 m) (reg4 m) (reg5 m) (reg6 m) (reg7 m) (reg8 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4,
          StableHlo.seq hostOps9_5,
          StableHlo.seq hostOps9_6,
          StableHlo.seq hostOps9_7,
          StableHlo.seq hostOps9_8,
          StableHlo.seq hostOps9_9 ] from rfl]
      with_reducible exact .rfl)
    (fun c => by simp only [Gen.segs, Pipeline.Seg.pipes_host, Pipeline.Seg.pipes_region, Pipeline.Seg.pipes_nil]; decide)
    (fun _ => 0) (fun _ _ => rfl) (fun _ => (BI.emp : sProp 𝕄))
    (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V34 m (outs m) c))
    (hch := fun c => ⟨.rfl, .rfl, .rfl, .rfl, .rfl, .rfl, .rfl, .rfl, .rfl, .rfl, .rfl, .rfl, .rfl, .rfl, .rfl, .rfl, .rfl,
      .rfl, .rfl, .rfl, .rfl, .rfl, .rfl, .rfl, .rfl, .rfl, .rfl, .rfl, .rfl, .rfl, .rfl, .rfl, .rfl, .rfl,
      sep_mono .rfl (hR c)⟩)
    (hinit := by
      refine Pipeline.initEach L lv fun c => ?_
      rw [← Pipeline.unscopedBufs_held (Ix := Unit) (Name := ℕ) (U := UR sig nD τ) (Lvl := ℕ) c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V34 m (outs m) c b)
    (hfin := fun c s' => by
      iintro ⟨Hh, HSI⟩
      unfold StableHlo.held
      imodintro
      iapply (pointsTo_read_all (Pipeline.ucRefs τ sig) (fun b => (((c : Thread nD τ)).1, b)) (Gen.V34 m (outs m) c) s')
      isplitl [Hh] <;> iassumption)
    (hQ := fun _ h => h)

/-- THE RESULT: the run read at the result buffer and at the fifteen arguments — the result holds the last valuation's
    contents there, each argument its launch contents (no item writes an argument). -/
theorem result (ρ : Dev nD → PrngReg) :
    θ_run defs (onTc (τ := τ) (main (F := F))) ⟨m, fun _ => 0, ρ⟩ (fun r => ∀ c : Dev nD,
      r.2.mem ((c.tc : Thread nD τ).loc main_v227) = Gen.V34 m (outs m) c main_v227
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  OrdCont.mono (θ_run defs (onTc (τ := τ) (main (F := F))) ⟨m, fun _ => 0, ρ⟩) (fun r h c =>
    ⟨h c _ (mem_uc main_v227 (by decide)),
      (h c _ (mem_uc main_arg0 (by decide))).trans (Gen.V34_main_arg0 m (outs m) c),
      (h c _ (mem_uc main_arg1 (by decide))).trans (Gen.V34_main_arg1 m (outs m) c),
      (h c _ (mem_uc main_arg2 (by decide))).trans (Gen.V34_main_arg2 m (outs m) c),
      (h c _ (mem_uc main_arg3 (by decide))).trans (Gen.V34_main_arg3 m (outs m) c),
      (h c _ (mem_uc main_arg4 (by decide))).trans (Gen.V34_main_arg4 m (outs m) c),
      (h c _ (mem_uc main_arg5 (by decide))).trans (Gen.V34_main_arg5 m (outs m) c),
      (h c _ (mem_uc main_arg6 (by decide))).trans (Gen.V34_main_arg6 m (outs m) c),
      (h c _ (mem_uc main_arg7 (by decide))).trans (Gen.V34_main_arg7 m (outs m) c),
      (h c _ (mem_uc main_arg8 (by decide))).trans (Gen.V34_main_arg8 m (outs m) c),
      (h c _ (mem_uc main_arg9 (by decide))).trans (Gen.V34_main_arg9 m (outs m) c),
      (h c _ (mem_uc main_arg10 (by decide))).trans (Gen.V34_main_arg10 m (outs m) c),
      (h c _ (mem_uc main_arg11 (by decide))).trans (Gen.V34_main_arg11 m (outs m) c),
      (h c _ (mem_uc main_arg12 (by decide))).trans (Gen.V34_main_arg12 m (outs m) c),
      (h c _ (mem_uc main_arg13 (by decide))).trans (Gen.V34_main_arg13 m (outs m) c),
      (h c _ (mem_uc main_arg14 (by decide))).trans (Gen.V34_main_arg14 m (outs m) c)⟩) (run_all m ρ)

end Cert.Kernel.Run

end
-- ==== Proof.KI.R0.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 0: one matrix product per grid point, at the region-entry contents `V`

Each grid point multiplies the point's row block (window 0) by the weight matrix (window 1, the same block at
every point) and overwrites the point's output block (window 2) with the product. -/

/-! ## What each window's array holds for a point -/

/-- The block of window `w` belonging to point `t`, read from the window's array as `V` gives it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block is in its staging buffer at every point: for any proof data over `V`'s array whose body leaves
    that buffer as it found it, the buffer holds the point's block before the body runs. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is fetched at the first point only; its block index never moves, and the body leaves the
    buffer alone, so the buffer holds the matrix at every later point too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The one store of the body -/

/-- The rectangles the body loads and stores through: each is its whole buffer. -/
abbrev r0_0 : Rect S5000x64 := Rect.unit (s := S5000x64) ![0, 0] S5000x64.size inb_S5000x64_S5000x64_0_0
abbrev r0_1 : Rect S64x128 := Rect.unit (s := S64x128) ![0, 0] S64x128.size inb_S64x128_S64x128_0_0
abbrev r0_2 : Rect S5000x128 := Rect.unit (s := S5000x128) ![0, 0] S5000x128.size inb_S5000x128_S5000x128_0_0

/-- What the output buffer reads after the body, as a function of what the two input buffers read: the single
    store's payload (the matrix product of the two loaded values) laid over the whole buffer. -/
def out0_2 (x0 : Vec F S5000x64 .f32) (x1 : Vec F S64x128 .f32) : Vec F S5000x128 .f32 :=
  View.canon [⟨r0_2, k0_pay1 (View.ld x0 r0_0) (View.ld x1 r0_1)⟩]

/-- That store's rectangle has as many indices as the buffer, so every index of the buffer lies in it. -/
theorem cover0_2 (p0 : Vec F S5000x128 .f32) (y : S5000x128.Idx) :
    ∃ pc ∈ ([⟨r0_2, p0⟩] : List (View.Piece (Elt F) S5000x128 .f32)), y ∈ pc.1.set :=
  View.cover_of_tiled [⟨r0_2, p0⟩] S5000x128.size (by rfl) y

/-! ## The body's triple -/

set_option maxHeartbeats 1000000 in
/-- The body on whole staging memrefs: given the two inputs at contents `x0`, `x1` and the output at any contents,
    it ends with the inputs unchanged and the output reading `out0_2 x0 x1`. The body loads both inputs whole,
    loads the output (the value is not used), and stores the product over the whole output. -/
theorem sound_kernel0 (c : Dev nD) (E : Set ℕ) (i : grid0.Coords) (arg1 : Memref sig .tc .vmem S5000x64 .f32) (harg1 : arg1.IsWhole)
    (arg2 : Memref sig .tc .vmem S64x128 .f32) (harg2 : arg2.IsWhole) (arg3 : Memref sig .tc .vmem S5000x128 .f32) (harg3 : arg3.IsWhole)
    (x0 : Vec F S5000x64 .f32) (x1 : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

/-! ## The pipeline's proof data -/

/-- The proof data of pipeline 0 on core c at the region-entry contents V. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := by
  dsimp only [dat0]

theorem owed_eq0 (c : Dev nD) (t : Fin (cfg0.N + 1)) : (dat0 V c).owed t = 0 := by
  dsimp only [dat0]

theorem recorded_eq0 (c : Dev nD) (t : Fin (cfg0.N + 1)) : (dat0 V c).recorded t = Set.univ := by
  dsimp only [dat0]

/-- What the body leaves in each window's buffer. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- What the body finds in each input's buffer: the point's block. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is handed at point `t`: the invariant, the core's debts, and each window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: both inputs' buffers hold their blocks, the output's holds anything, so the body's
    triple applies; the invariant and the debts are carried across untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- The invariant is the same assertion at every point, so entering and leaving the region are identities. -/
theorem hin0 (c : Dev nD) : (Pipeline.ΦA spec0 c : sProp 𝕄) ⊢ (dat0 V c).Φ 0 := by
  show (Pipeline.ΦA spec0 c : sProp 𝕄) ⊢ Pipeline.ΦA spec0 c
  exact BI.Entails.refl _

theorem hout0 (c : Dev nD) : (dat0 V c).Φ (Fin.last cfg0.N) ⊢ (Pipeline.ΦA spec0 c : sProp 𝕄) := by
  show (Pipeline.ΦA spec0 c : sProp 𝕄) ⊢ Pipeline.ΦA spec0 c
  exact BI.Entails.refl _

end Cert.KernelIdeal.Reg

end
-- ==== Proof.KI.R1a.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (the accumulators are zeroed under it), from the grid coordinates. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the body's second conditional (the accumulators are copied out under it). -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last point the two statistics outputs are idle and not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
/-- At the last point they are live. -/
theorem liveAt1_5 : ∀ t : Fin cfg1.N, cond1_1 (grid1.coords t) → cfg1.idle 5 (grid1.coords t) = false := by decide +kernel
theorem liveAt1_6 : ∀ t : Fin cfg1.N, cond1_1 (grid1.coords t) → cfg1.idle 6 (grid1.coords t) = false := by decide +kernel

/-! ## Views and memrefs the contents are stated through -/

abbrev VO1_4 : View sig .tc .vmem S5000x128 .f32 := (Memref.whole cc1_stg4_0 : Memref sig .tc .vmem S5000x128 .f32).view
abbrev VO1_5 : View sig .tc .vmem S1x128 .f32 := (Memref.whole cc1_stg5_0 : Memref sig .tc .vmem S1x128 .f32).view
abbrev VO1_6 : View sig .tc .vmem S1x128 .f32 := (Memref.whole cc1_stg6_0 : Memref sig .tc .vmem S1x128 .f32).view
/-- The two carried accumulators: whole scoped buffers of the kernel's own. -/
abbrev scM1_0 : Memref sig .tc .vmem S1x128 .f32 := Memref.whole cc1_scratch0
abbrev scM1_1 : Memref sig .tc .vmem S1x128 .f32 := Memref.whole cc1_scratch1
abbrev VS1_0 : View sig .tc .vmem S1x128 .f32 := scM1_0.view
abbrev VS1_1 : View sig .tc .vmem S1x128 .f32 := scM1_1.view

abbrev hs1_0 (t : Fin cfg1.N) : (st1_0 t).IsWhole := hstage1_0 ((cfg1.slots t 0).cast nbuf1_0)
abbrev hs1_1 (t : Fin cfg1.N) : (st1_1 t).IsWhole := hstage1_1 ((cfg1.slots t 1).cast nbuf1_1)
abbrev hs1_2 (t : Fin cfg1.N) : (st1_2 t).IsWhole := hstage1_2 ((cfg1.slots t 2).cast nbuf1_2)
abbrev hs1_3 (t : Fin cfg1.N) : (st1_3 t).IsWhole := hstage1_3 ((cfg1.slots t 3).cast nbuf1_3)
abbrev hs1_4 (t : Fin cfg1.N) : (st1_4 t).IsWhole := hstage1_4 ((cfg1.slots t 4).cast nbuf1_4)
abbrev hs1_5 (t : Fin cfg1.N) : (st1_5 t).IsWhole := hstage1_5 ((cfg1.slots t 5).cast nbuf1_5)
abbrev hs1_6 (t : Fin cfg1.N) : (st1_6 t).IsWhole := hstage1_6 ((cfg1.slots t 6).cast nbuf1_6)

/-- The class invariant with the two accumulators split out as memrefs owned at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

set_option maxHeartbeats 1000000 in
/-- The body at the FIRST point (the accumulators zeroed, nothing copied out), on whole memrefs: the four inputs at
    their contents, the block output at anything, the two statistics outputs at contents handed back untouched, the two
    accumulators at anything; it runs to the continuation holding the inputs as they were, the block output and the two
    accumulators each with its pieces written (the lists the run finds). -/
noncomputable def kernelRun1_A (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ (∃ d, owns (c : Thread nD τ) a8 fullShare d) ∗ (∃ d, owns (c : Thread nD τ) a9 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc1__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at a MIDDLE point (nothing zeroed, nothing copied out), on whole memrefs: as at the first point, but the
    two accumulators at the contents the point before left. -/
noncomputable def kernelRun1_B (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc1__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6; obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at the LAST point (nothing zeroed, the accumulators copied out), on whole memrefs: the two accumulators at
    the contents the point before left, every output at anything; every output and both accumulators end with their
    pieces written. -/
noncomputable def kernelRun1_C (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ (∃ d, owns (c : Thread nD τ) a6 fullShare d) ∗ (∃ d, owns (c : Thread nD τ) a7 fullShare d) ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc1__combine_kernel i a1 ha1 a2 ha2 a3 ha3 a4 ha4 a5 ha5 a6 ha6 a7 ha7 a8 ha8 a9 ha9) K } := by
  refine ⟨?_, ?_, ?_, ?_, ?_, fun E K => ?run⟩
  case run =>
    simp only [cc1__combine_kernel_eq_skeleton]; unfold cc1__combine_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves in the outputs and in the carried accumulators -/

/-- At the first point the body's store into the block output covers its buffer. -/
theorem cover1_A_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) (y : S5000x128.Idx) :
    ∃ pc ∈ (kernelRun1_A c i a1 ha1 a2 ha2 a3 ha3 a4 ha4 a5 ha5 a6 ha6 a7 ha7 a8 ha8 a9 ha9 hc0 hc1 x0 x1 x2 x3).1, y ∈ pc.1.set :=
  View.cover_of_tiledL (kernelRun1_A c i a1 ha1 a2 ha2 a3 ha3 a4 ha4 a5 ha5 a6 ha6 a7 ha7 a8 ha8 a9 ha9 hc0 hc1 x0 x1 x2 x3).1 S5000x128.size (by sl_kernel_rfl) y

/-- What the first point leaves in the block output's staging buffer: its pieces read back. -/
noncomputable def out1_A_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) : Vec F S5000x128 .f32 :=
  VO1_4.read (Elt F) (VO1_4.writes (Elt F) VO1_4.junk (kernelRun1_A c i a1 ha1 a2 ha2 a3 ha3 a4 ha4 a5 ha5 a6 ha6 a7 ha7 a8 ha8 a9 ha9 hc0 hc1 x0 x1 x2 x3).1)

/-- At the first point the stores into the sum accumulator cover it. -/
theorem scover1_A_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) (y : S1x128.Idx) :
    ∃ pc ∈ (kernelRun1_A c i a1 ha1 a2 ha2 a3 ha3 a4 ha4 a5 ha5 a6 ha6 a7 ha7 a8 ha8 a9 ha9 hc0 hc1 x0 x1 x2 x3).2.1, y ∈ pc.1.set :=
  View.cover_of_tiledL (kernelRun1_A c i a1 ha1 a2 ha2 a3 ha3 a4 ha4 a5 ha5 a6 ha6 a7 ha7 a8 ha8 a9 ha9 hc0 hc1 x0 x1 x2 x3).2.1 S1x128.size (by sl_kernel_rfl) y

/-- What the first point leaves in the sum accumulator. -/
noncomputable def sout1_A_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) : Vec F S1x128 .f32 :=
  VS1_0.read (Elt F) (VS1_0.writes (Elt F) VS1_0.junk (kernelRun1_A c i a1 ha1 a2 ha2 a3 ha3 a4 ha4 a5 ha5 a6 ha6 a7 ha7 a8 ha8 a9 ha9 hc0 hc1 x0 x1 x2 x3).2.1)

/-- At the first point the stores into the sum-of-squares accumulator cover it. -/
theorem scover1_A_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) (y : S1x128.Idx) :
    ∃ pc ∈ (kernelRun1_A c i a1 ha1 a2 ha2 a3 ha3 a4 ha4 a5 ha5 a6 ha6 a7 ha7 a8 ha8 a9 ha9 hc0 hc1 x0 x1 x2 x3).2.2.1, y ∈ pc.1.set :=
  View.cover_of_tiledL (kernelRun1_A c i a1 ha1 a2 ha2 a3 ha3 a4 ha4 a5 ha5 a6 ha6 a7 ha7 a8 ha8 a9 ha9 hc0 hc1 x0 x1 x2 x3).2.2.1 S1x128.size (by sl_kernel_rfl) y

/-- What the first point leaves in the sum-of-squares accumulator. -/
noncomputable def sout1_A_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) : Vec F S1x128 .f32 :=
  VS1_1.read (Elt F) (VS1_1.writes (Elt F) VS1_1.junk (kernelRun1_A c i a1 ha1 a2 ha2 a3 ha3 a4 ha4 a5 ha5 a6 ha6 a7 ha7 a8 ha8 a9 ha9 hc0 hc1 x0 x1 x2 x3).2.2.1)

/-- At a middle point the body's store into the block output covers its buffer. -/
theorem cover1_B_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun1_B c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun1_B c i a1 ha1 a2 ha2 a3 ha3 a4 ha4 a5 ha5 a6 ha6 a7 ha7 a8 ha8 a9 ha9 hc0 hc1 x0 x1 x2 x3 xs0 xs1).1 S5000x128.size (by sl_kernel_rfl) y

/-- What a middle point leaves in the block output's staging buffer. -/
noncomputable def out1_B_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO1_4.read (Elt F) (VO1_4.writes (Elt F) VO1_4.junk (kernelRun1_B c i a1 ha1 a2 ha2 a3 ha3 a4 ha4 a5 ha5 a6 ha6 a7 ha7 a8 ha8 a9 ha9 hc0 hc1 x0 x1 x2 x3 xs0 xs1).1)

/-- At a middle point the store into the sum accumulator covers it. -/
theorem scover1_B_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_B c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun1_B c i a1 ha1 a2 ha2 a3 ha3 a4 ha4 a5 ha5 a6 ha6 a7 ha7 a8 ha8 a9 ha9 hc0 hc1 x0 x1 x2 x3 xs0 xs1).2.1 S1x128.size (by sl_kernel_rfl) y

/-- What a middle point leaves in the sum accumulator. -/
noncomputable def sout1_B_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS1_0.read (Elt F) (VS1_0.writes (Elt F) VS1_0.junk (kernelRun1_B c i a1 ha1 a2 ha2 a3 ha3 a4 ha4 a5 ha5 a6 ha6 a7 ha7 a8 ha8 a9 ha9 hc0 hc1 x0 x1 x2 x3 xs0 xs1).2.1)

/-- At a middle point the store into the sum-of-squares accumulator covers it. -/
theorem scover1_B_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_B c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun1_B c i a1 ha1 a2 ha2 a3 ha3 a4 ha4 a5 ha5 a6 ha6 a7 ha7 a8 ha8 a9 ha9 hc0 hc1 x0 x1 x2 x3 xs0 xs1).2.2.1 S1x128.size (by sl_kernel_rfl) y

/-- What a middle point leaves in the sum-of-squares accumulator. -/
noncomputable def sout1_B_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS1_1.read (Elt F) (VS1_1.writes (Elt F) VS1_1.junk (kernelRun1_B c i a1 ha1 a2 ha2 a3 ha3 a4 ha4 a5 ha5 a6 ha6 a7 ha7 a8 ha8 a9 ha9 hc0 hc1 x0 x1 x2 x3 xs0 xs1).2.2.1)

/-- At the last point the body's store into the block output covers its buffer. -/
theorem cover1_C_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun1_C c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun1_C c i a1 ha1 a2 ha2 a3 ha3 a4 ha4 a5 ha5 a6 ha6 a7 ha7 a8 ha8 a9 ha9 hc0 hc1 x0 x1 x2 x3 xs0 xs1).1 S5000x128.size (by sl_kernel_rfl) y

/-- What the last point leaves in the block output's staging buffer. -/
noncomputable def out1_C_4 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO1_4.read (Elt F) (VO1_4.writes (Elt F) VO1_4.junk (kernelRun1_C c i a1 ha1 a2 ha2 a3 ha3 a4 ha4 a5 ha5 a6 ha6 a7 ha7 a8 ha8 a9 ha9 hc0 hc1 x0 x1 x2 x3 xs0 xs1).1)

/-- At the last point the copy into the sum output covers its buffer. -/
theorem cover1_C_5 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_C c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun1_C c i a1 ha1 a2 ha2 a3 ha3 a4 ha4 a5 ha5 a6 ha6 a7 ha7 a8 ha8 a9 ha9 hc0 hc1 x0 x1 x2 x3 xs0 xs1).2.1 S1x128.size (by sl_kernel_rfl) y

/-- What the last point leaves in the sum output's staging buffer. -/
noncomputable def out1_C_5 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO1_5.read (Elt F) (VO1_5.writes (Elt F) VO1_5.junk (kernelRun1_C c i a1 ha1 a2 ha2 a3 ha3 a4 ha4 a5 ha5 a6 ha6 a7 ha7 a8 ha8 a9 ha9 hc0 hc1 x0 x1 x2 x3 xs0 xs1).2.1)

/-- At the last point the copy into the sum-of-squares output covers its buffer. -/
theorem cover1_C_6 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_C c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun1_C c i a1 ha1 a2 ha2 a3 ha3 a4 ha4 a5 ha5 a6 ha6 a7 ha7 a8 ha8 a9 ha9 hc0 hc1 x0 x1 x2 x3 xs0 xs1).2.2.1 S1x128.size (by sl_kernel_rfl) y

/-- What the last point leaves in the sum-of-squares output's staging buffer. -/
noncomputable def out1_C_6 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO1_6.read (Elt F) (VO1_6.writes (Elt F) VO1_6.junk (kernelRun1_C c i a1 ha1 a2 ha2 a3 ha3 a4 ha4 a5 ha5 a6 ha6 a7 ha7 a8 ha8 a9 ha9 hc0 hc1 x0 x1 x2 x3 xs0 xs1).2.2.1)

/-- At the last point the store into the sum accumulator covers it. -/
theorem scover1_C_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_C c i a1 ha1 a2 ha2 a3 ha3 a4 ha4 a5 ha5 a6 ha6 a7 ha7 a8 ha8 a9 ha9 hc0 hc1 x0 x1 x2 x3 xs0 xs1).2.2.2.1, y ∈ pc.1.set :=
  View.cover_of_tiledL (kernelRun1_C c i a1 ha1 a2 ha2 a3 ha3 a4 ha4 a5 ha5 a6 ha6 a7 ha7 a8 ha8 a9 ha9 hc0 hc1 x0 x1 x2 x3 xs0 xs1).2.2.2.1 S1x128.size (by sl_kernel_rfl) y

/-- What the last point leaves in the sum accumulator. -/
noncomputable def sout1_C_0 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS1_0.read (Elt F) (VS1_0.writes (Elt F) VS1_0.junk (kernelRun1_C c i a1 ha1 a2 ha2 a3 ha3 a4 ha4 a5 ha5 a6 ha6 a7 ha7 a8 ha8 a9 ha9 hc0 hc1 x0 x1 x2 x3 xs0 xs1).2.2.2.1)

/-- At the last point the store into the sum-of-squares accumulator covers it. -/
theorem scover1_C_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun1_C c i a1 ha1 a2 ha2 a3 ha3 a4 ha4 a5 ha5 a6 ha6 a7 ha7 a8 ha8 a9 ha9 hc0 hc1 x0 x1 x2 x3 xs0 xs1).2.2.2.2.1, y ∈ pc.1.set :=
  View.cover_of_tiledL (kernelRun1_C c i a1 ha1 a2 ha2 a3 ha3 a4 ha4 a5 ha5 a6 ha6 a7 ha7 a8 ha8 a9 ha9 hc0 hc1 x0 x1 x2 x3 xs0 xs1).2.2.2.2.1 S1x128.size (by sl_kernel_rfl) y

/-- What the last point leaves in the sum-of-squares accumulator. -/
noncomputable def sout1_C_1 (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS1_1.read (Elt F) (VS1_1.writes (Elt F) VS1_1.junk (kernelRun1_C c i a1 ha1 a2 ha2 a3 ha3 a4 ha4 a5 ha5 a6 ha6 a7 ha7 a8 ha8 a9 ha9 hc0 hc1 x0 x1 x2 x3 xs0 xs1).2.2.2.2.1)

end Cert.KernelIdeal.Reg

end
-- ==== Proof.KI.R1.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import proofs.«422700_j84035330113950_1_alg».proof.Proof.KI.R1a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each window's current staging memref at point `t`, spelled as the pipeline passes it. -/
abbrev ms1_0 (t : Fin cfg1.N) : Memref sig .tc .vmem S5000x128 .f32 := win1_0.stage (cfg1.slots t 0)
abbrev ms1_1 (t : Fin cfg1.N) : Memref sig .tc .vmem S5000x128 .f32 := win1_1.stage (cfg1.slots t 1)
abbrev ms1_2 (t : Fin cfg1.N) : Memref sig .tc .vmem S1x128 .f32 := win1_2.stage (cfg1.slots t 2)
abbrev ms1_3 (t : Fin cfg1.N) : Memref sig .tc .vmem S5000x1 .f32 := win1_3.stage (cfg1.slots t 3)
abbrev ms1_4 (t : Fin cfg1.N) : Memref sig .tc .vmem S5000x128 .f32 := win1_4.stage (cfg1.slots t 4)
abbrev ms1_5 (t : Fin cfg1.N) : Memref sig .tc .vmem S1x128 .f32 := win1_5.stage (cfg1.slots t 5)
abbrev ms1_6 (t : Fin cfg1.N) : Memref sig .tc .vmem S1x128 .f32 := win1_6.stage (cfg1.slots t 6)

/-! ## What the outputs and the accumulators hold after each point -/

/-- THE ACCUMULATION. After the body at position `n`: the block output's buffer, the two statistics outputs' buffers
    (copied out at the last point only; before it these two components merely repeat the accumulators and nothing
    consults them), and the two accumulators: the first point's case from anything, every later point's case over
    what the point before left in the accumulators. -/
noncomputable def outsAt1 (c : Dev nD) : (n : ℕ) → n < cfg1.N → Vec F S5000x128 .f32 × Vec F S1x128 .f32 × Vec F S1x128 .f32 × Vec F S1x128 .f32 × Vec F S1x128 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h1 : n + 1 = 9 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2)
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.2.1 (outsAt1 c n (Nat.lt_of_succ_lt hn)).2.2.2.2)

/-- `outsAt1` at the first point. -/
theorem outsAt1_A (c : Dev nD) (t : Fin cfg1.N) (h0 : t.val = 0) (h1 : ¬t.val = 9) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 9) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 9) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, out1_C_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2, sout1_C_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The inputs' staging buffers -/

/-- An input window's current staging buffer holds its block at every point, fetched there or not (an unfetched
    window's block index has not moved), for any proof data whose array is the region-entry contents and whose body
    leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The invariant -/

/-- The region invariant before position `n`: before the first point the class's (every scratch at anything);
    afterwards the two accumulators at what the point before left, the rest of the scoped buffers unopened, the
    generator register at some state. -/
noncomputable def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.2.1 ∗ owns (c : Thread nD τ) scM1_1 fullShare (outsAt1 V c n hn).2.2.2.2) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare (outsAt1 V c n hn).2.2.2.1 ∗ owns (c : Thread nD τ) scM1_1 fullShare (outsAt1 V c n hn).2.2.2.2) ∗ Pipeline.scopedRestBut (Ix := Unit) (Name := ℕ) (U := UR sig nD τ) (Lvl := ℕ) (Val := Elt F) spec1 c [cc1_scratch0, cc1_scratch1]) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.2.1 ∗ owns (c : Thread nD τ) scM1_1 fullShare (outsAt1 V c (n - 1) (by omega)).2.2.2.2) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-! ## The pipeline's proof data -/

/-- The proof data of pipeline 1 on core c at the region-entry contents V. -/
noncomputable def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem q_eq1 (c : Dev nD) (w : Fin cfg1.W) : (dat1 V c).q w = fullShare := by
  dsimp only [dat1]
theorem owed_eq1 (c : Dev nD) (t : Fin (cfg1.N + 1)) : (dat1 V c).owed t = 0 := by
  dsimp only [dat1]
theorem recorded_eq1 (c : Dev nD) (t : Fin (cfg1.N + 1)) : (dat1 V c).recorded t = Set.univ := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, -/
noncomputable def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
noncomputable def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t ∗ (dat1 V c).leavesExact 5 t ∗ (dat1 V c).leavesExact 6 t)

set_option maxHeartbeats 4800000 in
/-- The body at any point: the inputs' memrefs hold their blocks; the closed forms of the two conditions say which of
    the three cases the point is in, and that case's run applies; the invariant hands the body the two accumulators (at
    anything at the first point, afterwards at what the point before left) and takes them back at this point's
    contents; the statistics outputs' buffers are handed back untouched before the last point; nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  by_cases h0 : t.val = 0
  · have h1 : ¬t.val = 9 := by omega
    rw [Dat.leavesExact_idle (dat1 V c) 5 t (idleAt1_5 t (fun h => h1 ((hcond1_1 t).mp h))) (noFlush1_5 t (fun h => h1 ((hcond1_1 t).mp h)))]
    rw [Dat.leavesExact_idle (dat1 V c) 6 t (idleAt1_6 t (fun h => h1 ((hcond1_1 t).mp h))) (noFlush1_6 t (fun h => h1 ((hcond1_1 t).mp h)))]
    rw [outsAt1_A V c t h0 h1]
    unfold out1_A_4 sout1_A_0 sout1_A_1; (try dsimp only)
    rw [PhiS1_castSucc V c t, PhiS1_zero V c _ _ h0, PhiA1_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A c (grid1.coords t) _ _ _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover1_A_4 c _ _ _ _ _ _ _ _ _ _ _ _ _ _ _ _ _ _ _ _ _ _ _ _ _)
    isplitl [H5]; · iexists _; iexact H5
    iexists _; iexact H6
  · by_cases h1 : t.val = 9
    · rw [show (dat1 V c).leavesExact 5 t = owns (c : Thread nD τ) (ms1_5 t) fullShare ((dat1 V c).after 5 t) from by
        unfold Dat.leavesExact; rw [liveAt1_5 t ((hcond1_1 t).mpr h1)], after1_5]
      rw [show (dat1 V c).leavesExact 6 t = owns (c : Thread nD τ) (ms1_6 t) fullShare ((dat1 V c).after 6 t) from by
        unfold Dat.leavesExact; rw [liveAt1_6 t ((hcond1_1 t).mpr h1)], after1_6]
      rw [outsAt1_C V c t h0 h1]
      unfold out1_C_4 out1_C_5 out1_C_6 sout1_C_0 sout1_C_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C c (grid1.coords t) _ _ _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _)
            unfold owns; iexists _; isplitr
            swap; · iexact HS1
            ipureintro; exact View.read_writes_of_cover _ _ _ _ _ (scover1_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover1_C_5 c _ _ _ _ _ _ _ _ _ _ _ _ _ _ _ _ _ _ _ _ _ _ _ _ _ _ _)
      unfold owns; iexists _; isplitr
      swap; · iexact H6
      ipureintro; exact View.read_writes_of_cover _ _ _ _ _ (cover1_C_6 c _ _ _ _ _ _ _ _ _ _ _ _ _ _ _ _ _ _ _ _ _ _ _ _ _ _ _)
    · rw [Dat.leavesExact_idle (dat1 V c) 5 t (idleAt1_5 t (fun h => h1 ((hcond1_1 t).mp h))) (noFlush1_5 t (fun h => h1 ((hcond1_1 t).mp h)))]
      rw [Dat.leavesExact_idle (dat1 V c) 6 t (idleAt1_6 t (fun h => h1 ((hcond1_1 t).mp h))) (noFlush1_6 t (fun h => h1 ((hcond1_1 t).mp h)))]
      rw [outsAt1_B V c t h0 h1]
      unfold out1_B_4 sout1_B_0 sout1_B_1; (try dsimp only)
      rw [PhiS1_castSucc V c t, PhiS1_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B c (grid1.coords t) _ _ _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _)
            unfold owns; iexists _; isplitr
            swap; · iexact HS1
            ipureintro; exact View.read_writes_of_cover _ _ _ _ _ (scover1_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _ _ _ _)
      isplitl [H5]; · iexists _; iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout1 (c : Dev nD) : (dat1 V c).Φ (Fin.last cfg1.N) ⊢ (Pipeline.ΦA spec1 c : sProp 𝕄) :=
  Phi_out1 V c _ (by rw [Fin.val_last]; have : cfg1.N = 10 := N_1; omega)

end Cert.KernelIdeal.Reg

end
-- ==== Proof.KI.R2.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: the BatchNorm+ReLU kernel `cc2__bn_relu_kernel` (pipeline 2), at the entry contents `V`

Six windows on a grid of ten points: window 0 is the pre-normalisation block (rows `5000 t … 5000 t + 4999`), windows
1 to 4 are the four `[1,128]` rows (mean, variance, scale, shift; their block index never moves), window 5 is the
output block. The body reads the five input buffers whole and overwrites the output buffer whole with
`max (((x - mean) * rsqrt (var + ε)) * scale + shift, 0)`. -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's current staging buffer holds its block at every point, whether the pipeline fetched it there or
    not: where it did not, the block index has not moved since the last fetch and the body left the buffer as it was.
    Stated for any proof data whose array is `V`'s (`hA`) and whose body leaves the block in place (`hafter`). -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

/-- The whole `[5000,128]` buffer, as one rectangle. -/
abbrev r2_0 : Rect S5000x128 := Rect.unit (s := S5000x128) ![0, 0] S5000x128.size inb_S5000x128_S5000x128_0_0
/-- The whole `[1,128]` buffer, as one rectangle. -/
abbrev r2_1 : Rect S1x128 := Rect.unit (s := S1x128) ![0, 0] S1x128.size inb_S1x128_S1x128_0_0

/-! ## What the body leaves in the output window's buffer -/

/-- Window 5's staging buffer after the body, from the five input blocks in WINDOW order (`x0` the data block, `x1`
    the mean row, `x2` the variance row, `x3` the scale row, `x4` the shift row): its one store, over the whole buffer.
    The payload takes the variance row before the mean row. -/
def out2_5 (x0 : Vec F S5000x128 .f32) (x1 x2 x3 x4 : Vec F S1x128 .f32) : Vec F S5000x128 .f32 :=
  View.canon [⟨r2_0, k2_pay1 (View.ld x0 r2_0) (View.ld x2 r2_1) (View.ld x1 r2_1) (View.ld x3 r2_1) (View.ld x4 r2_1)⟩]

/-- The one store is of the whole buffer, so it covers it. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel body on whole staging memrefs, the five inputs' at read contents `x0 … x4` (window order) and the
    output's at anything, runs to the continuation holding the inputs' as they were and the output's at `out2_5` of
    the inputs': the six whole-buffer loads read what is held, and the one store covers the output buffer. -/
theorem sound_kernel2 (c : Dev nD) (E : Set ℕ) (i : grid2.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out2_5 x0 x1 x2 x3 x4)) -∗ K ⟨⟩))
      ⊢ wp frame (wpE (defs₀ (F := F)) Variants.none c none) E (cc2__bn_relu_kernel i arg0 harg0 arg1 harg1 arg2 harg2 arg3 harg3 arg4 harg4 arg5 harg5) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core c at the region-entry contents V. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]
/-- Every window is held at the full share. -/
theorem q_eq2 (c : Dev nD) (w : Fin cfg2.W) : (dat2 V c).q w = fullShare := by
  dsimp only [dat2]
/-- The core owes nothing at any boundary. -/
theorem owed_eq2 (c : Dev nD) (t : Fin (cfg2.N + 1)) : (dat2 V c).owed t = 0 := by
  dsimp only [dat2]
/-- Nothing is excluded from the record at any boundary. -/
theorem recorded_eq2 (c : Dev nD) (t : Fin (cfg2.N + 1)) : (dat2 V c).recorded t = Set.univ := by
  dsimp only [dat2]

/-! What the body leaves, window by window: each input's buffer at its block, the output's at `out2_5` of the blocks. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

/-! Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debt, and the six current staging buffers, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' staging buffers hold their blocks, so the body's triple applies; the invariant and
    the core's debt pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## Entering and leaving the region: the invariant is the class's own at every boundary -/

theorem hin2 (c : Dev nD) : (Pipeline.ΦA spec2 c : sProp 𝕄) ⊢ (dat2 V c).Φ 0 := BIBase.Entails.rfl
theorem hout2 (c : Dev nD) : (dat2 V c).Φ (Fin.last cfg2.N) ⊢ (Pipeline.ΦA spec2 c : sProp 𝕄) := BIBase.Entails.rfl

end Cert.KernelIdeal.Reg

end
-- ==== Proof.KI.R3.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 3: one matrix product per grid point, at the region-entry contents `V`

Each grid point multiplies the point's row block (window 0) by the weight matrix (window 1, the same block at
every point) and overwrites the point's output block (window 2) with the product. -/

/-! ## What each window's array holds for a point -/

/-- The block of window `w` belonging to point `t`, read from the window's array as `V` gives it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The row block is in its staging buffer at every point: for any proof data over `V`'s array whose body leaves
    that buffer as it found it, the buffer holds the point's block before the body runs. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight matrix is fetched at the first point only; its block index never moves, and the body leaves the
    buffer alone, so the buffer holds the matrix at every later point too. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The one store of the body -/

/-- The rectangles the body loads and stores through: each is its whole buffer. -/
abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0
abbrev r3_2 : Rect S5000x128 := Rect.unit (s := S5000x128) ![0, 0] S5000x128.size inb_S5000x128_S5000x128_0_0

/-- What the output buffer reads after the body, as a function of what the two input buffers read: the single
    store's payload (the matrix product of the two loaded values) laid over the whole buffer. -/
def out3_2 (x0 : Vec F S5000x128 .f32) (x1 : Vec F S128x128 .f32) : Vec F S5000x128 .f32 :=
  View.canon [⟨r3_2, k3_pay1 (View.ld x0 r3_0) (View.ld x1 r3_1)⟩]

/-- That store's rectangle has as many indices as the buffer, so every index of the buffer lies in it. -/
theorem cover3_2 (p0 : Vec F S5000x128 .f32) (y : S5000x128.Idx) :
    ∃ pc ∈ ([⟨r3_2, p0⟩] : List (View.Piece (Elt F) S5000x128 .f32)), y ∈ pc.1.set :=
  View.cover_of_tiled [⟨r3_2, p0⟩] S5000x128.size (by rfl) y

/-! ## The body's triple -/

set_option maxHeartbeats 1000000 in
/-- The body on whole staging memrefs: given the two inputs at contents `x0`, `x1` and the output at any contents,
    it ends with the inputs unchanged and the output reading `out3_2 x0 x1`. The body loads both inputs whole,
    loads the output (the value is not used), and stores the product over the whole output. -/
theorem sound_kernel3 (c : Dev nD) (E : Set ℕ) (i : grid3.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_2 _)

/-! ## The pipeline's proof data -/

/-- The proof data of pipeline 3 on core c at the region-entry contents V. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := by
  dsimp only [dat3]

theorem owed_eq3 (c : Dev nD) (t : Fin (cfg3.N + 1)) : (dat3 V c).owed t = 0 := by
  dsimp only [dat3]

theorem recorded_eq3 (c : Dev nD) (t : Fin (cfg3.N + 1)) : (dat3 V c).recorded t = Set.univ := by
  dsimp only [dat3]

/-- What the body leaves in each window's buffer. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- What the body finds in each input's buffer: the point's block. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is handed at point `t`: the invariant, the core's debts, and each window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: both inputs' buffers hold their blocks, the output's holds anything, so the body's
    triple applies; the invariant and the debts are carried across untouched. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

/-! ## The invariant at the region's two ends -/

/-- The invariant is the same assertion at every point, so entering and leaving the region are identities. -/
theorem hin3 (c : Dev nD) : (Pipeline.ΦA spec3 c : sProp 𝕄) ⊢ (dat3 V c).Φ 0 := by
  show (Pipeline.ΦA spec3 c : sProp 𝕄) ⊢ Pipeline.ΦA spec3 c
  exact BI.Entails.refl _

theorem hout3 (c : Dev nD) : (dat3 V c).Φ (Fin.last cfg3.N) ⊢ (Pipeline.ΦA spec3 c : sProp 𝕄) := by
  show (Pipeline.ΦA spec3 c : sProp 𝕄) ⊢ Pipeline.ΦA spec3 c
  exact BI.Entails.refl _

end Cert.KernelIdeal.Reg

end
-- ==== Proof.KI.R4a.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (the accumulators are zeroed under it), from the grid coordinates. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)

/-- The condition of the body's second conditional (the accumulators are copied out under it). -/
abbrev cond4_1 (i : grid4.Coords) : Prop := k4_cond2 i = 1#1
/-- It holds at the last point only. -/
theorem hcond4_1 : ∀ t : Fin cfg4.N, cond4_1 (grid4.coords t) ↔ t.val = 9 :=
  (by decide +kernel : ∀ t : Fin grid4.N, cond4_1 (grid4.coords t) ↔ t.val = 9)

/-! ## Where the windows are idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
/-- Away from the last point the two statistics outputs are idle and not written back. -/
theorem idleAt4_5 : ∀ t : Fin cfg4.N, ¬cond4_1 (grid4.coords t) → cfg4.idle 5 (grid4.coords t) = true := by decide +kernel
theorem noFlush4_5 : ∀ t : Fin cfg4.N, ¬cond4_1 (grid4.coords t) → (cfg4.win 5).flush t = false := by decide +kernel
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
/-- At the last point they are live. -/
theorem liveAt4_5 : ∀ t : Fin cfg4.N, cond4_1 (grid4.coords t) → cfg4.idle 5 (grid4.coords t) = false := by decide +kernel
theorem liveAt4_6 : ∀ t : Fin cfg4.N, cond4_1 (grid4.coords t) → cfg4.idle 6 (grid4.coords t) = false := by decide +kernel

/-! ## Views and memrefs the contents are stated through -/

abbrev VO4_4 : View sig .tc .vmem S5000x128 .f32 := (Memref.whole cc4_stg4_0 : Memref sig .tc .vmem S5000x128 .f32).view
abbrev VO4_5 : View sig .tc .vmem S1x128 .f32 := (Memref.whole cc4_stg5_0 : Memref sig .tc .vmem S1x128 .f32).view
abbrev VO4_6 : View sig .tc .vmem S1x128 .f32 := (Memref.whole cc4_stg6_0 : Memref sig .tc .vmem S1x128 .f32).view
/-- The two carried accumulators: whole scoped buffers of the kernel's own. -/
abbrev scM4_0 : Memref sig .tc .vmem S1x128 .f32 := Memref.whole cc4_scratch0
abbrev scM4_1 : Memref sig .tc .vmem S1x128 .f32 := Memref.whole cc4_scratch1
abbrev VS4_0 : View sig .tc .vmem S1x128 .f32 := scM4_0.view
abbrev VS4_1 : View sig .tc .vmem S1x128 .f32 := scM4_1.view

abbrev hs4_0 (t : Fin cfg4.N) : (st4_0 t).IsWhole := hstage4_0 ((cfg4.slots t 0).cast nbuf4_0)
abbrev hs4_1 (t : Fin cfg4.N) : (st4_1 t).IsWhole := hstage4_1 ((cfg4.slots t 1).cast nbuf4_1)
abbrev hs4_2 (t : Fin cfg4.N) : (st4_2 t).IsWhole := hstage4_2 ((cfg4.slots t 2).cast nbuf4_2)
abbrev hs4_3 (t : Fin cfg4.N) : (st4_3 t).IsWhole := hstage4_3 ((cfg4.slots t 3).cast nbuf4_3)
abbrev hs4_4 (t : Fin cfg4.N) : (st4_4 t).IsWhole := hstage4_4 ((cfg4.slots t 4).cast nbuf4_4)
abbrev hs4_5 (t : Fin cfg4.N) : (st4_5 t).IsWhole := hstage4_5 ((cfg4.slots t 5).cast nbuf4_5)
abbrev hs4_6 (t : Fin cfg4.N) : (st4_6 t).IsWhole := hstage4_6 ((cfg4.slots t 6).cast nbuf4_6)

/-- The class invariant with the two accumulators split out as memrefs owned at some contents. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

set_option maxHeartbeats 1000000 in
/-- The body at the FIRST point (the accumulators zeroed, nothing copied out), on whole memrefs: the four inputs at
    their contents, the block output at anything, the two statistics outputs at contents handed back untouched, the two
    accumulators at anything; it runs to the continuation holding the inputs as they were, the block output and the two
    accumulators each with its pieces written (the lists the run finds). -/
noncomputable def kernelRun4_A (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ (∃ d, owns (c : Thread nD τ) a8 fullShare d) ∗ (∃ d, owns (c : Thread nD τ) a9 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc4__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc4__combine_kernel_eq_skeleton]; unfold cc4__combine_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at a MIDDLE point (nothing zeroed, nothing copied out), on whole memrefs: as at the first point, but the
    two accumulators at the contents the point before left. -/
noncomputable def kernelRun4_B (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc4__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc4__combine_kernel_eq_skeleton]; unfold cc4__combine_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6; obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at the LAST point (nothing zeroed, the accumulators copied out), on whole memrefs: the two accumulators at
    the contents the point before left, every output at anything; every output and both accumulators end with their
    pieces written. -/
noncomputable def kernelRun4_C (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ (∃ d, owns (c : Thread nD τ) a6 fullShare d) ∗ (∃ d, owns (c : Thread nD τ) a7 fullShare d) ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc4__combine_kernel i a1 ha1 a2 ha2 a3 ha3 a4 ha4 a5 ha5 a6 ha6 a7 ha7 a8 ha8 a9 ha9) K } := by
  refine ⟨?_, ?_, ?_, ?_, ?_, fun E K => ?run⟩
  case run =>
    simp only [cc4__combine_kernel_eq_skeleton]; unfold cc4__combine_kernel_skel
    simp only [k4_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves in the outputs and in the carried accumulators -/

/-- At the first point the body's store into the block output covers its buffer. -/
theorem cover4_A_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) (y : S5000x128.Idx) :
    ∃ pc ∈ (kernelRun4_A c i a1 ha1 a2 ha2 a3 ha3 a4 ha4 a5 ha5 a6 ha6 a7 ha7 a8 ha8 a9 ha9 hc0 hc1 x0 x1 x2 x3).1, y ∈ pc.1.set :=
  View.cover_of_tiledL (kernelRun4_A c i a1 ha1 a2 ha2 a3 ha3 a4 ha4 a5 ha5 a6 ha6 a7 ha7 a8 ha8 a9 ha9 hc0 hc1 x0 x1 x2 x3).1 S5000x128.size (by sl_kernel_rfl) y

/-- What the first point leaves in the block output's staging buffer: its pieces read back. -/
noncomputable def out4_A_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) : Vec F S5000x128 .f32 :=
  VO4_4.read (Elt F) (VO4_4.writes (Elt F) VO4_4.junk (kernelRun4_A c i a1 ha1 a2 ha2 a3 ha3 a4 ha4 a5 ha5 a6 ha6 a7 ha7 a8 ha8 a9 ha9 hc0 hc1 x0 x1 x2 x3).1)

/-- At the first point the stores into the sum accumulator cover it. -/
theorem scover4_A_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) (y : S1x128.Idx) :
    ∃ pc ∈ (kernelRun4_A c i a1 ha1 a2 ha2 a3 ha3 a4 ha4 a5 ha5 a6 ha6 a7 ha7 a8 ha8 a9 ha9 hc0 hc1 x0 x1 x2 x3).2.1, y ∈ pc.1.set :=
  View.cover_of_tiledL (kernelRun4_A c i a1 ha1 a2 ha2 a3 ha3 a4 ha4 a5 ha5 a6 ha6 a7 ha7 a8 ha8 a9 ha9 hc0 hc1 x0 x1 x2 x3).2.1 S1x128.size (by sl_kernel_rfl) y

/-- What the first point leaves in the sum accumulator. -/
noncomputable def sout4_A_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) : Vec F S1x128 .f32 :=
  VS4_0.read (Elt F) (VS4_0.writes (Elt F) VS4_0.junk (kernelRun4_A c i a1 ha1 a2 ha2 a3 ha3 a4 ha4 a5 ha5 a6 ha6 a7 ha7 a8 ha8 a9 ha9 hc0 hc1 x0 x1 x2 x3).2.1)

/-- At the first point the stores into the sum-of-squares accumulator cover it. -/
theorem scover4_A_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) (y : S1x128.Idx) :
    ∃ pc ∈ (kernelRun4_A c i a1 ha1 a2 ha2 a3 ha3 a4 ha4 a5 ha5 a6 ha6 a7 ha7 a8 ha8 a9 ha9 hc0 hc1 x0 x1 x2 x3).2.2.1, y ∈ pc.1.set :=
  View.cover_of_tiledL (kernelRun4_A c i a1 ha1 a2 ha2 a3 ha3 a4 ha4 a5 ha5 a6 ha6 a7 ha7 a8 ha8 a9 ha9 hc0 hc1 x0 x1 x2 x3).2.2.1 S1x128.size (by sl_kernel_rfl) y

/-- What the first point leaves in the sum-of-squares accumulator. -/
noncomputable def sout4_A_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) : Vec F S1x128 .f32 :=
  VS4_1.read (Elt F) (VS4_1.writes (Elt F) VS4_1.junk (kernelRun4_A c i a1 ha1 a2 ha2 a3 ha3 a4 ha4 a5 ha5 a6 ha6 a7 ha7 a8 ha8 a9 ha9 hc0 hc1 x0 x1 x2 x3).2.2.1)

/-- At a middle point the body's store into the block output covers its buffer. -/
theorem cover4_B_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun4_B c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun4_B c i a1 ha1 a2 ha2 a3 ha3 a4 ha4 a5 ha5 a6 ha6 a7 ha7 a8 ha8 a9 ha9 hc0 hc1 x0 x1 x2 x3 xs0 xs1).1 S5000x128.size (by sl_kernel_rfl) y

/-- What a middle point leaves in the block output's staging buffer. -/
noncomputable def out4_B_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO4_4.read (Elt F) (VO4_4.writes (Elt F) VO4_4.junk (kernelRun4_B c i a1 ha1 a2 ha2 a3 ha3 a4 ha4 a5 ha5 a6 ha6 a7 ha7 a8 ha8 a9 ha9 hc0 hc1 x0 x1 x2 x3 xs0 xs1).1)

/-- At a middle point the store into the sum accumulator covers it. -/
theorem scover4_B_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_B c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun4_B c i a1 ha1 a2 ha2 a3 ha3 a4 ha4 a5 ha5 a6 ha6 a7 ha7 a8 ha8 a9 ha9 hc0 hc1 x0 x1 x2 x3 xs0 xs1).2.1 S1x128.size (by sl_kernel_rfl) y

/-- What a middle point leaves in the sum accumulator. -/
noncomputable def sout4_B_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS4_0.read (Elt F) (VS4_0.writes (Elt F) VS4_0.junk (kernelRun4_B c i a1 ha1 a2 ha2 a3 ha3 a4 ha4 a5 ha5 a6 ha6 a7 ha7 a8 ha8 a9 ha9 hc0 hc1 x0 x1 x2 x3 xs0 xs1).2.1)

/-- At a middle point the store into the sum-of-squares accumulator covers it. -/
theorem scover4_B_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_B c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun4_B c i a1 ha1 a2 ha2 a3 ha3 a4 ha4 a5 ha5 a6 ha6 a7 ha7 a8 ha8 a9 ha9 hc0 hc1 x0 x1 x2 x3 xs0 xs1).2.2.1 S1x128.size (by sl_kernel_rfl) y

/-- What a middle point leaves in the sum-of-squares accumulator. -/
noncomputable def sout4_B_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS4_1.read (Elt F) (VS4_1.writes (Elt F) VS4_1.junk (kernelRun4_B c i a1 ha1 a2 ha2 a3 ha3 a4 ha4 a5 ha5 a6 ha6 a7 ha7 a8 ha8 a9 ha9 hc0 hc1 x0 x1 x2 x3 xs0 xs1).2.2.1)

/-- At the last point the body's store into the block output covers its buffer. -/
theorem cover4_C_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun4_C c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun4_C c i a1 ha1 a2 ha2 a3 ha3 a4 ha4 a5 ha5 a6 ha6 a7 ha7 a8 ha8 a9 ha9 hc0 hc1 x0 x1 x2 x3 xs0 xs1).1 S5000x128.size (by sl_kernel_rfl) y

/-- What the last point leaves in the block output's staging buffer. -/
noncomputable def out4_C_4 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO4_4.read (Elt F) (VO4_4.writes (Elt F) VO4_4.junk (kernelRun4_C c i a1 ha1 a2 ha2 a3 ha3 a4 ha4 a5 ha5 a6 ha6 a7 ha7 a8 ha8 a9 ha9 hc0 hc1 x0 x1 x2 x3 xs0 xs1).1)

/-- At the last point the copy into the sum output covers its buffer. -/
theorem cover4_C_5 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_C c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun4_C c i a1 ha1 a2 ha2 a3 ha3 a4 ha4 a5 ha5 a6 ha6 a7 ha7 a8 ha8 a9 ha9 hc0 hc1 x0 x1 x2 x3 xs0 xs1).2.1 S1x128.size (by sl_kernel_rfl) y

/-- What the last point leaves in the sum output's staging buffer. -/
noncomputable def out4_C_5 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO4_5.read (Elt F) (VO4_5.writes (Elt F) VO4_5.junk (kernelRun4_C c i a1 ha1 a2 ha2 a3 ha3 a4 ha4 a5 ha5 a6 ha6 a7 ha7 a8 ha8 a9 ha9 hc0 hc1 x0 x1 x2 x3 xs0 xs1).2.1)

/-- At the last point the copy into the sum-of-squares output covers its buffer. -/
theorem cover4_C_6 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_C c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun4_C c i a1 ha1 a2 ha2 a3 ha3 a4 ha4 a5 ha5 a6 ha6 a7 ha7 a8 ha8 a9 ha9 hc0 hc1 x0 x1 x2 x3 xs0 xs1).2.2.1 S1x128.size (by sl_kernel_rfl) y

/-- What the last point leaves in the sum-of-squares output's staging buffer. -/
noncomputable def out4_C_6 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO4_6.read (Elt F) (VO4_6.writes (Elt F) VO4_6.junk (kernelRun4_C c i a1 ha1 a2 ha2 a3 ha3 a4 ha4 a5 ha5 a6 ha6 a7 ha7 a8 ha8 a9 ha9 hc0 hc1 x0 x1 x2 x3 xs0 xs1).2.2.1)

/-- At the last point the store into the sum accumulator covers it. -/
theorem scover4_C_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_C c i a1 ha1 a2 ha2 a3 ha3 a4 ha4 a5 ha5 a6 ha6 a7 ha7 a8 ha8 a9 ha9 hc0 hc1 x0 x1 x2 x3 xs0 xs1).2.2.2.1, y ∈ pc.1.set :=
  View.cover_of_tiledL (kernelRun4_C c i a1 ha1 a2 ha2 a3 ha3 a4 ha4 a5 ha5 a6 ha6 a7 ha7 a8 ha8 a9 ha9 hc0 hc1 x0 x1 x2 x3 xs0 xs1).2.2.2.1 S1x128.size (by sl_kernel_rfl) y

/-- What the last point leaves in the sum accumulator. -/
noncomputable def sout4_C_0 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS4_0.read (Elt F) (VS4_0.writes (Elt F) VS4_0.junk (kernelRun4_C c i a1 ha1 a2 ha2 a3 ha3 a4 ha4 a5 ha5 a6 ha6 a7 ha7 a8 ha8 a9 ha9 hc0 hc1 x0 x1 x2 x3 xs0 xs1).2.2.2.1)

/-- At the last point the store into the sum-of-squares accumulator covers it. -/
theorem scover4_C_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun4_C c i a1 ha1 a2 ha2 a3 ha3 a4 ha4 a5 ha5 a6 ha6 a7 ha7 a8 ha8 a9 ha9 hc0 hc1 x0 x1 x2 x3 xs0 xs1).2.2.2.2.1, y ∈ pc.1.set :=
  View.cover_of_tiledL (kernelRun4_C c i a1 ha1 a2 ha2 a3 ha3 a4 ha4 a5 ha5 a6 ha6 a7 ha7 a8 ha8 a9 ha9 hc0 hc1 x0 x1 x2 x3 xs0 xs1).2.2.2.2.1 S1x128.size (by sl_kernel_rfl) y

/-- What the last point leaves in the sum-of-squares accumulator. -/
noncomputable def sout4_C_1 (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS4_1.read (Elt F) (VS4_1.writes (Elt F) VS4_1.junk (kernelRun4_C c i a1 ha1 a2 ha2 a3 ha3 a4 ha4 a5 ha5 a6 ha6 a7 ha7 a8 ha8 a9 ha9 hc0 hc1 x0 x1 x2 x3 xs0 xs1).2.2.2.2.1)

end Cert.KernelIdeal.Reg

end
-- ==== Proof.KI.R4.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import proofs.«422700_j84035330113950_1_alg».proof.Proof.KI.R4a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each window's current staging memref at point `t`, spelled as the pipeline passes it. -/
abbrev ms4_0 (t : Fin cfg4.N) : Memref sig .tc .vmem S5000x128 .f32 := win4_0.stage (cfg4.slots t 0)
abbrev ms4_1 (t : Fin cfg4.N) : Memref sig .tc .vmem S5000x128 .f32 := win4_1.stage (cfg4.slots t 1)
abbrev ms4_2 (t : Fin cfg4.N) : Memref sig .tc .vmem S1x128 .f32 := win4_2.stage (cfg4.slots t 2)
abbrev ms4_3 (t : Fin cfg4.N) : Memref sig .tc .vmem S5000x1 .f32 := win4_3.stage (cfg4.slots t 3)
abbrev ms4_4 (t : Fin cfg4.N) : Memref sig .tc .vmem S5000x128 .f32 := win4_4.stage (cfg4.slots t 4)
abbrev ms4_5 (t : Fin cfg4.N) : Memref sig .tc .vmem S1x128 .f32 := win4_5.stage (cfg4.slots t 5)
abbrev ms4_6 (t : Fin cfg4.N) : Memref sig .tc .vmem S1x128 .f32 := win4_6.stage (cfg4.slots t 6)

/-! ## What the outputs and the accumulators hold after each point -/

/-- THE ACCUMULATION. After the body at position `n`: the block output's buffer, the two statistics outputs' buffers
    (copied out at the last point only; before it these two components merely repeat the accumulators and nothing
    consults them), and the two accumulators: the first point's case from anything, every later point's case over
    what the point before left in the accumulators. -/
noncomputable def outsAt4 (c : Dev nD) : (n : ℕ) → n < cfg4.N → Vec F S5000x128 .f32 × Vec F S1x128 .f32 × Vec F S1x128 .f32 × Vec F S1x128 .f32 × Vec F S1x128 .f32
  | 0, hn => (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩))
  | n + 1, hn =>
    if h1 : n + 1 = 9 then
      (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)
    else
      (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 c n (Nat.lt_of_succ_lt hn)).2.2.2.1 (outsAt4 c n (Nat.lt_of_succ_lt hn)).2.2.2.2)

/-- `outsAt4` at the first point. -/
theorem outsAt4_A (c : Dev nD) (t : Fin cfg4.N) (h0 : t.val = 0) (h1 : ¬t.val = 9) :
    outsAt4 V c t.val t.isLt = (out4_A_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)) := by
  obtain ⟨n, hn⟩ := t
  cases n with
  | zero => exact rfl
  | succ n => exact absurd h0 (Nat.succ_ne_zero n)

/-- `outsAt4` at a middle point: over what the point before left. -/
theorem outsAt4_B (c : Dev nD) (t : Fin cfg4.N) (h0 : ¬t.val = 0) (h1 : ¬t.val = 9) :
    outsAt4 V c t.val t.isLt = (out4_B_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt4` at the last point: over what the point before left. -/
theorem outsAt4_C (c : Dev nD) (t : Fin cfg4.N) (h0 : ¬t.val = 0) (h1 : t.val = 9) :
    outsAt4 V c t.val t.isLt = (out4_C_4 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The inputs' staging buffers -/

/-- An input window's current staging buffer holds its block at every point, fetched there or not (an unfetched
    window's block index has not moved), for any proof data whose array is the region-entry contents and whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-! ## The invariant -/

/-- The region invariant before position `n`: before the first point the class's (every scratch at anything);
    afterwards the two accumulators at what the point before left, the rest of the scoped buffers unopened, the
    generator register at some state. -/
noncomputable def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (outsAt4 V c n hn).2.2.2.1 ∗ owns (c : Thread nD τ) scM4_1 fullShare (outsAt4 V c n hn).2.2.2.2) ∗ Pipeline.scopedRestBut (Ix := Unit) (Name := ℕ) (U := UR sig nD τ) (Lvl := ℕ) (Val := Elt F) spec4 c [cc4_scratch0, cc4_scratch1]) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.2.1 ∗ owns (c : Thread nD τ) scM4_1 fullShare (outsAt4 V c (n - 1) (by omega)).2.2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-! ## The pipeline's proof data -/

/-- The proof data of pipeline 4 on core c at the region-entry contents V. -/
noncomputable def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => (outsAt4 V c t.val t.isLt).1
    | ⟨5, _⟩ => (outsAt4 V c t.val t.isLt).2.1
    | ⟨6, _⟩ => (outsAt4 V c t.val t.isLt).2.2.1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem q_eq4 (c : Dev nD) (w : Fin cfg4.W) : (dat4 V c).q w = fullShare := by
  dsimp only [dat4]
theorem owed_eq4 (c : Dev nD) (t : Fin (cfg4.N + 1)) : (dat4 V c).owed t = 0 := by
  dsimp only [dat4]
theorem recorded_eq4 (c : Dev nD) (t : Fin (cfg4.N + 1)) : (dat4 V c).recorded t = Set.univ := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = (outsAt4 V c t.val t.isLt).1 := by dsimp only [dat4]
theorem after4_5 (c : Dev nD) (t : Fin cfg4.N) : (dat4 V c).after 5 t = (outsAt4 V c t.val t.isLt).2.1 := by dsimp only [dat4]
theorem after4_6 (c : Dev nD) (t : Fin cfg4.N) : (dat4 V c).after 6 t = (outsAt4 V c t.val t.isLt).2.2.1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-! ## The body obligation, at a generic point -/

/-- What the body is called with at point `t`, -/
noncomputable def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d)))

/-- and what it returns. -/
noncomputable def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t ∗ (dat4 V c).leavesExact 3 t
    ∗ (dat4 V c).leavesExact 4 t ∗ (dat4 V c).leavesExact 5 t ∗ (dat4 V c).leavesExact 6 t)

set_option maxHeartbeats 4800000 in
/-- The body at any point: the inputs' memrefs hold their blocks; the closed forms of the two conditions say which of
    the three cases the point is in, and that case's run applies; the invariant hands the body the two accumulators (at
    anything at the first point, afterwards at what the point before left) and takes them back at this point's
    contents; the statistics outputs' buffers are handed back untouched before the last point; nothing is owed. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  have hN : t.val < 10 := lt_of_lt_of_eq t.isLt (show cfg4.N = 10 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  by_cases h0 : t.val = 0
  · have h1 : ¬t.val = 9 := by omega
    rw [Dat.leavesExact_idle (dat4 V c) 5 t (idleAt4_5 t (fun h => h1 ((hcond4_1 t).mp h))) (noFlush4_5 t (fun h => h1 ((hcond4_1 t).mp h)))]
    rw [Dat.leavesExact_idle (dat4 V c) 6 t (idleAt4_6 t (fun h => h1 ((hcond4_1 t).mp h))) (noFlush4_6 t (fun h => h1 ((hcond4_1 t).mp h)))]
    rw [outsAt4_A V c t h0 h1]
    unfold out4_A_4 sout4_A_0 sout4_A_1; (try dsimp only)
    rw [PhiS4_castSucc V c t, PhiS4_zero V c _ _ h0, PhiA4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun4_A c (grid4.coords t) _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _)
          unfold owns; iexists _; isplitr
          swap; · iexact HS1
          ipureintro; exact View.read_writes_of_cover _ _ _ _ _ (scover4_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover4_A_4 c _ _ _ _ _ _ _ _ _ _ _ _ _ _ _ _ _ _ _ _ _ _ _ _ _)
    isplitl [H5]; · iexists _; iexact H5
    iexists _; iexact H6
  · by_cases h1 : t.val = 9
    · rw [show (dat4 V c).leavesExact 5 t = owns (c : Thread nD τ) (ms4_5 t) fullShare ((dat4 V c).after 5 t) from by
        unfold Dat.leavesExact; rw [liveAt4_5 t ((hcond4_1 t).mpr h1)], after4_5]
      rw [show (dat4 V c).leavesExact 6 t = owns (c : Thread nD τ) (ms4_6 t) fullShare ((dat4 V c).after 6 t) from by
        unfold Dat.leavesExact; rw [liveAt4_6 t ((hcond4_1 t).mpr h1)], after4_6]
      rw [outsAt4_C V c t h0 h1]
      unfold out4_C_4 out4_C_5 out4_C_6 sout4_C_0 sout4_C_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_C c (grid4.coords t) _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _)
            unfold owns; iexists _; isplitr
            swap; · iexact HS1
            ipureintro; exact View.read_writes_of_cover _ _ _ _ _ (scover4_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _)
      unfold owns; iexists _; isplitr
      swap; · iexact H6
      ipureintro; exact View.read_writes_of_cover _ _ _ _ _ (cover4_C_6 c _ _ _ _ _ _ _ _ _ _ _ _ _ _ _ _ _ _ _ _ _ _ _ _ _ _ _)
    · rw [Dat.leavesExact_idle (dat4 V c) 5 t (idleAt4_5 t (fun h => h1 ((hcond4_1 t).mp h))) (noFlush4_5 t (fun h => h1 ((hcond4_1 t).mp h)))]
      rw [Dat.leavesExact_idle (dat4 V c) 6 t (idleAt4_6 t (fun h => h1 ((hcond4_1 t).mp h))) (noFlush4_6 t (fun h => h1 ((hcond4_1 t).mp h)))]
      rw [outsAt4_B V c t h0 h1]
      unfold out4_B_4 sout4_B_0 sout4_B_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun4_B c (grid4.coords t) _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _)
            unfold owns; iexists _; isplitr
            swap; · iexact HS1
            ipureintro; exact View.read_writes_of_cover _ _ _ _ _ (scover4_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover4_B_4 c _ _ _ _ _ _ _ _ _ _ _ _ _ _ _ _ _ _ _ _ _ _ _ _ _ _ _)
      isplitl [H5]; · iexists _; iexact H5
      iexists _; iexact H6

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulators' named contents are forgotten. -/
theorem Phi_out4 (c : Dev nD) (t : Fin (cfg4.N + 1)) (ht : t.val ≠ 0) : (dat4 V c).Φ t ⊢ (Pipeline.ΦA spec4 c : sProp 𝕄) := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout4 (c : Dev nD) : (dat4 V c).Φ (Fin.last cfg4.N) ⊢ (Pipeline.ΦA spec4 c : sProp 𝕄) :=
  Phi_out4 V c _ (by rw [Fin.val_last]; have : cfg4.N = 10 := N_4; omega)

end Cert.KernelIdeal.Reg

end
-- ==== Proof.KI.R5.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: the BatchNorm+ReLU kernel `cc5__bn_relu_kernel` (pipeline 5), at the entry contents `V`

Six windows on a grid of ten points: window 0 is the pre-normalisation block (rows `5000 t … 5000 t + 4999`), windows
1 to 4 are the four `[1,128]` rows (mean, variance, scale, shift; their block index never moves), window 5 is the
output block. The body reads the five input buffers whole and overwrites the output buffer whole with
`max (((x - mean) * rsqrt (var + ε)) * scale + shift, 0)`. -/

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! An input window's current staging buffer holds its block at every point, whether the pipeline fetched it there or
    not: where it did not, the block index has not moved since the last fetch and the body left the buffer as it was.
    Stated for any proof data whose array is `V`'s (`hA`) and whose body leaves the block in place (`hafter`). -/

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses -/

/-- The whole `[5000,128]` buffer, as one rectangle. -/
abbrev r5_0 : Rect S5000x128 := Rect.unit (s := S5000x128) ![0, 0] S5000x128.size inb_S5000x128_S5000x128_0_0
/-- The whole `[1,128]` buffer, as one rectangle. -/
abbrev r5_1 : Rect S1x128 := Rect.unit (s := S1x128) ![0, 0] S1x128.size inb_S1x128_S1x128_0_0

/-! ## What the body leaves in the output window's buffer -/

/-- Window 5's staging buffer after the body, from the five input blocks in WINDOW order (`x0` the data block, `x1`
    the mean row, `x2` the variance row, `x3` the scale row, `x4` the shift row): its one store, over the whole buffer.
    The payload takes the variance row before the mean row. -/
def out5_5 (x0 : Vec F S5000x128 .f32) (x1 x2 x3 x4 : Vec F S1x128 .f32) : Vec F S5000x128 .f32 :=
  View.canon [⟨r5_0, k5_pay1 (View.ld x0 r5_0) (View.ld x2 r5_1) (View.ld x1 r5_1) (View.ld x3 r5_1) (View.ld x4 r5_1)⟩]

/-- The one store is of the whole buffer, so it covers it. -/
theorem cover5_5 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel body on whole staging memrefs, the five inputs' at read contents `x0 … x4` (window order) and the
    output's at anything, runs to the continuation holding the inputs' as they were and the output's at `out5_5` of
    the inputs': the six whole-buffer loads read what is held, and the one store covers the output buffer. -/
theorem sound_kernel5 (c : Dev nD) (E : Set ℕ) (i : grid5.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out5_5 x0 x1 x2 x3 x4)) -∗ K ⟨⟩))
      ⊢ wp frame (wpE (defs₀ (F := F)) Variants.none c none) E (cc5__bn_relu_kernel i arg0 harg0 arg1 harg1 arg2 harg2 arg3 harg3 arg4 harg4 arg5 harg5) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The pipeline's proof data -/

/-- The proof data of pipeline 5 on core c at the region-entry contents V. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]
/-- Every window is held at the full share. -/
theorem q_eq5 (c : Dev nD) (w : Fin cfg5.W) : (dat5 V c).q w = fullShare := by
  dsimp only [dat5]
/-- The core owes nothing at any boundary. -/
theorem owed_eq5 (c : Dev nD) (t : Fin (cfg5.N + 1)) : (dat5 V c).owed t = 0 := by
  dsimp only [dat5]
/-- Nothing is excluded from the record at any boundary. -/
theorem recorded_eq5 (c : Dev nD) (t : Fin (cfg5.N + 1)) : (dat5 V c).recorded t = Set.univ := by
  dsimp only [dat5]

/-! What the body leaves, window by window: each input's buffer at its block, the output's at `out5_5` of the blocks. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) :
    (dat5 V c).after 5 t = out5_5 (iblk5 V c 0 t) (iblk5 V c 1 t) (iblk5 V c 2 t) (iblk5 V c 3 t) (iblk5 V c 4 t) := by dsimp only [dat5]

/-! Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's debt, and the six current staging buffers, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' staging buffers hold their blocks, so the body's triple applies; the invariant and
    the core's debt pass through untouched. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

/-! ## Entering and leaving the region: the invariant is the class's own at every boundary -/

theorem hin5 (c : Dev nD) : (Pipeline.ΦA spec5 c : sProp 𝕄) ⊢ (dat5 V c).Φ 0 := BIBase.Entails.rfl
theorem hout5 (c : Dev nD) : (dat5 V c).Φ (Fin.last cfg5.N) ⊢ (Pipeline.ΦA spec5 c : sProp 𝕄) := BIBase.Entails.rfl

end Cert.KernelIdeal.Reg

end
-- ==== Proof.KI.R6.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Pipeline 6: one matrix product per grid point, at the region-entry contents `V`

Each grid point multiplies the point's row block (window 0) by the weight matrix (window 1, the same block at
every point) and overwrites the point's output block (window 2) with the product. -/

/-! ## What each window's array holds for a point -/

/-- The block of window `w` belonging to point `t`, read from the window's array as `V` gives it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The row block is in its staging buffer at every point: for any proof data over `V`'s array whose body leaves
    that buffer as it found it, the buffer holds the point's block before the body runs. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- The weight matrix is fetched at the first point only; its block index never moves, and the body leaves the
    buffer alone, so the buffer holds the matrix at every later point too. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The one store of the body -/

/-- The rectangles the body loads and stores through: each is its whole buffer. -/
abbrev r6_0 : Rect S5000x128 := Rect.unit (s := S5000x128) ![0, 0] S5000x128.size inb_S5000x128_S5000x128_0_0
abbrev r6_1 : Rect S128x128 := Rect.unit (s := S128x128) ![0, 0] S128x128.size inb_S128x128_S128x128_0_0
abbrev r6_2 : Rect S5000x128 := Rect.unit (s := S5000x128) ![0, 0] S5000x128.size inb_S5000x128_S5000x128_0_0

/-- What the output buffer reads after the body, as a function of what the two input buffers read: the single
    store's payload (the matrix product of the two loaded values) laid over the whole buffer. -/
def out6_2 (x0 : Vec F S5000x128 .f32) (x1 : Vec F S128x128 .f32) : Vec F S5000x128 .f32 :=
  View.canon [⟨r6_2, k6_pay1 (View.ld x0 r6_0) (View.ld x1 r6_1)⟩]

/-- That store's rectangle has as many indices as the buffer, so every index of the buffer lies in it. -/
theorem cover6_2 (p0 : Vec F S5000x128 .f32) (y : S5000x128.Idx) :
    ∃ pc ∈ ([⟨r6_2, p0⟩] : List (View.Piece (Elt F) S5000x128 .f32)), y ∈ pc.1.set :=
  View.cover_of_tiled [⟨r6_2, p0⟩] S5000x128.size (by rfl) y

/-! ## The body's triple -/

set_option maxHeartbeats 1000000 in
/-- The body on whole staging memrefs: given the two inputs at contents `x0`, `x1` and the output at any contents,
    it ends with the inputs unchanged and the output reading `out6_2 x0 x1`. The body loads both inputs whole,
    loads the output (the value is not used), and stores the product over the whole output. -/
theorem sound_kernel6 (c : Dev nD) (E : Set ℕ) (i : grid6.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out6_2 x0 x1)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f1, %hf1, H1⟩, ⟨%f2, %hf2, H2⟩, ⟨%d3, %f3, -, H3⟩, Hk⟩
  subst hf1
  subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_2 _)

/-! ## The pipeline's proof data -/

/-- The proof data of pipeline 6 on core c at the region-entry contents V. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem q_eq6 (c : Dev nD) (w : Fin cfg6.W) : (dat6 V c).q w = fullShare := by
  dsimp only [dat6]

theorem owed_eq6 (c : Dev nD) (t : Fin (cfg6.N + 1)) : (dat6 V c).owed t = 0 := by
  dsimp only [dat6]

theorem recorded_eq6 (c : Dev nD) (t : Fin (cfg6.N + 1)) : (dat6 V c).recorded t = Set.univ := by
  dsimp only [dat6]

/-- What the body leaves in each window's buffer. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- What the body finds in each input's buffer: the point's block. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation -/

/-- What the body is handed at point `t`: the invariant, the core's debts, and each window's current buffer. -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

/-- What it hands back. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

/-- The body at any point: both inputs' buffers hold their blocks, the output's holds anything, so the body's
    triple applies; the invariant and the debts are carried across untouched. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

/-! ## The invariant at the region's two ends -/

/-- The invariant is the same assertion at every point, so entering and leaving the region are identities. -/
theorem hin6 (c : Dev nD) : (Pipeline.ΦA spec6 c : sProp 𝕄) ⊢ (dat6 V c).Φ 0 := by
  show (Pipeline.ΦA spec6 c : sProp 𝕄) ⊢ Pipeline.ΦA spec6 c
  exact BI.Entails.refl _

theorem hout6 (c : Dev nD) : (dat6 V c).Φ (Fin.last cfg6.N) ⊢ (Pipeline.ΦA spec6 c : sProp 𝕄) := by
  show (Pipeline.ΦA spec6 c : sProp 𝕄) ⊢ Pipeline.ΦA spec6 c
  exact BI.Entails.refl _

end Cert.KernelIdeal.Reg

end
-- ==== Proof.KI.R7a.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's first conditional (the accumulators are zeroed under it), from the grid coordinates. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val = 0 :=
  (by decide +kernel : ∀ t : Fin grid7.N, cond7_0 (grid7.coords t) ↔ t.val = 0)

/-- The condition of the body's second conditional (the accumulators are copied out under it). -/
abbrev cond7_1 (i : grid7.Coords) : Prop := k7_cond2 i = 1#1
/-- It holds at the last point only. -/
theorem hcond7_1 : ∀ t : Fin cfg7.N, cond7_1 (grid7.coords t) ↔ t.val = 9 :=
  (by decide +kernel : ∀ t : Fin grid7.N, cond7_1 (grid7.coords t) ↔ t.val = 9)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
theorem liveAt7_3 : ∀ t : Fin cfg7.N, cfg7.idle 3 (grid7.coords t) = false := by decide +kernel
theorem liveAt7_4 : ∀ t : Fin cfg7.N, cfg7.idle 4 (grid7.coords t) = false := by decide +kernel
/-- Away from the last point the two statistics outputs are idle and not written back. -/
theorem idleAt7_5 : ∀ t : Fin cfg7.N, ¬cond7_1 (grid7.coords t) → cfg7.idle 5 (grid7.coords t) = true := by decide +kernel
theorem noFlush7_5 : ∀ t : Fin cfg7.N, ¬cond7_1 (grid7.coords t) → (cfg7.win 5).flush t = false := by decide +kernel
theorem idleAt7_6 : ∀ t : Fin cfg7.N, ¬cond7_1 (grid7.coords t) → cfg7.idle 6 (grid7.coords t) = true := by decide +kernel
theorem noFlush7_6 : ∀ t : Fin cfg7.N, ¬cond7_1 (grid7.coords t) → (cfg7.win 6).flush t = false := by decide +kernel
/-- At the last point they are live. -/
theorem liveAt7_5 : ∀ t : Fin cfg7.N, cond7_1 (grid7.coords t) → cfg7.idle 5 (grid7.coords t) = false := by decide +kernel
theorem liveAt7_6 : ∀ t : Fin cfg7.N, cond7_1 (grid7.coords t) → cfg7.idle 6 (grid7.coords t) = false := by decide +kernel

/-! ## Views and memrefs the contents are stated through -/

abbrev VO7_4 : View sig .tc .vmem S5000x128 .f32 := (Memref.whole cc7_stg4_0 : Memref sig .tc .vmem S5000x128 .f32).view
abbrev VO7_5 : View sig .tc .vmem S1x128 .f32 := (Memref.whole cc7_stg5_0 : Memref sig .tc .vmem S1x128 .f32).view
abbrev VO7_6 : View sig .tc .vmem S1x128 .f32 := (Memref.whole cc7_stg6_0 : Memref sig .tc .vmem S1x128 .f32).view
/-- The two carried accumulators: whole scoped buffers of the kernel's own. -/
abbrev scM7_0 : Memref sig .tc .vmem S1x128 .f32 := Memref.whole cc7_scratch0
abbrev scM7_1 : Memref sig .tc .vmem S1x128 .f32 := Memref.whole cc7_scratch1
abbrev VS7_0 : View sig .tc .vmem S1x128 .f32 := scM7_0.view
abbrev VS7_1 : View sig .tc .vmem S1x128 .f32 := scM7_1.view

abbrev hs7_0 (t : Fin cfg7.N) : (st7_0 t).IsWhole := hstage7_0 ((cfg7.slots t 0).cast nbuf7_0)
abbrev hs7_1 (t : Fin cfg7.N) : (st7_1 t).IsWhole := hstage7_1 ((cfg7.slots t 1).cast nbuf7_1)
abbrev hs7_2 (t : Fin cfg7.N) : (st7_2 t).IsWhole := hstage7_2 ((cfg7.slots t 2).cast nbuf7_2)
abbrev hs7_3 (t : Fin cfg7.N) : (st7_3 t).IsWhole := hstage7_3 ((cfg7.slots t 3).cast nbuf7_3)
abbrev hs7_4 (t : Fin cfg7.N) : (st7_4 t).IsWhole := hstage7_4 ((cfg7.slots t 4).cast nbuf7_4)
abbrev hs7_5 (t : Fin cfg7.N) : (st7_5 t).IsWhole := hstage7_5 ((cfg7.slots t 5).cast nbuf7_5)
abbrev hs7_6 (t : Fin cfg7.N) : (st7_6 t).IsWhole := hstage7_6 ((cfg7.slots t 6).cast nbuf7_6)

/-- The class invariant with the two accumulators split out as memrefs owned at some contents. -/
theorem PhiA7_eq (c : Dev nD) :
    (Pipeline.ΦA spec7 c : sProp 𝕄)
      = iprop(iprop(iprop((∃ d, owns (c : Thread nD τ) scM7_0 fullShare d) ∗ (∃ d, owns (c : Thread nD τ) scM7_1 fullShare d))
          ∗ Pipeline.scopedRestBut (Ix := Unit) (Name := ℕ) (U := UR sig nD τ) (Lvl := ℕ) (Val := Elt F) spec7 c [cc7_scratch0, cc7_scratch1]) ∗ (∃ r, prngReg c r)) := by
  unfold Pipeline.ΦA; rw [scopedRest7_split]; simp only [scM7_0, scM7_1, owns_whole]; try rfl

set_option maxHeartbeats 1000000 in
/-- The body at the FIRST point (the accumulators zeroed, nothing copied out), on whole memrefs: the four inputs at
    their contents, the block output at anything, the two statistics outputs at contents handed back untouched, the two
    accumulators at anything; it runs to the continuation holding the inputs as they were, the block output and the two
    accumulators each with its pieces written (the lists the run finds). -/
noncomputable def kernelRun7_A (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ (∃ d, owns (c : Thread nD τ) a8 fullShare d) ∗ (∃ d, owns (c : Thread nD τ) a9 fullShare d)
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc7__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc7__combine_kernel_eq_skeleton]; unfold cc7__combine_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%ds0, %fs0, -, HS0⟩, ⟨%ds1, %fs1, -, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at a MIDDLE point (nothing zeroed, nothing copied out), on whole memrefs: as at the first point, but the
    two accumulators at the contents the point before left. -/
noncomputable def kernelRun7_B (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (LS0 : List (View.Piece (Elt F) S1x128 .f32)), { LS1 : List (View.Piece (Elt F) S1x128 .f32) //
      ∀ (xi5 xi6 : Vec F S1x128 .f32) (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ owns (c : Thread nD τ) a6 fullShare xi5 ∗ owns (c : Thread nD τ) a7 fullShare xi6 ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ owns (c : Thread nD τ) a6 fullShare xi5 ∗ owns (c : Thread nD τ) a7 fullShare xi6 ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc7__combine_kernel i a1 ha1 a2 ha2 a3 ha3 a4 ha4 a5 ha5 a6 ha6 a7 ha7 a8 ha8 a9 ha9) K } := by
  refine ⟨?_, ?_, ?_, fun xi5 xi6 E K => ?run⟩
  case run =>
    simp only [cc7__combine_kernel_eq_skeleton]; unfold cc7__combine_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha6.eq_unread hf5; obtain rfl := ha7.eq_unread hf6; obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]
    · iexists _; isplitr; · ipureintro; exact ha6.read_unread _
      iexact H5
    isplitl [H6]
    · iexists _; isplitr; · ipureintro; exact ha7.read_unread _
      iexact H6
    isplitl [HS0]; · iexists _; iexact HS0
    iexists _; iexact HS1

set_option maxHeartbeats 1000000 in
/-- The body at the LAST point (nothing zeroed, the accumulators copied out), on whole memrefs: the two accumulators at
    the contents the point before left, every output at anything; every output and both accumulators end with their
    pieces written. -/
noncomputable def kernelRun7_C (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    Σ' (L4 : List (View.Piece (Elt F) S5000x128 .f32)) (L5 : List (View.Piece (Elt F) S1x128 .f32)) (L6 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) a1 fullShare x0 ∗ owns (c : Thread nD τ) a2 fullShare x1 ∗ owns (c : Thread nD τ) a3 fullShare x2 ∗ owns (c : Thread nD τ) a4 fullShare x3 ∗ (∃ d, owns (c : Thread nD τ) a5 fullShare d) ∗ (∃ d, owns (c : Thread nD τ) a6 fullShare d) ∗ (∃ d, owns (c : Thread nD τ) a7 fullShare d) ∗ owns (c : Thread nD τ) a8 fullShare xs0 ∗ owns (c : Thread nD τ) a9 fullShare xs1
            ∗ (iprop(owns (c : Thread nD τ) a1 fullShare x0 ∗ owns (c : Thread nD τ) a2 fullShare x1 ∗ owns (c : Thread nD τ) a3 fullShare x2 ∗ owns (c : Thread nD τ) a4 fullShare x3 ∗ (∃ f, a5.view.loc (c : Thread nD τ) ↦[a5.view.set]{fullShare} a5.view.writes (Elt F) f L4) ∗ (∃ f, a6.view.loc (c : Thread nD τ) ↦[a6.view.set]{fullShare} a6.view.writes (Elt F) f L5) ∗ (∃ f, a7.view.loc (c : Thread nD τ) ↦[a7.view.set]{fullShare} a7.view.writes (Elt F) f L6) ∗ (∃ f, a8.view.loc (c : Thread nD τ) ↦[a8.view.set]{fullShare} a8.view.writes (Elt F) f LS0) ∗ (∃ f, a9.view.loc (c : Thread nD τ) ↦[a9.view.set]{fullShare} a9.view.writes (Elt F) f LS1)) -∗ K ⟨⟩))
          ⊢ wp frame (wpE (defs₀ (F := F)) Variants.none c none) E (cc7__combine_kernel i a1 ha1 a2 ha2 a3 ha3 a4 ha4 a5 ha5 a6 ha6 a7 ha7 a8 ha8 a9 ha9) K } := by
  refine ⟨?_, ?_, ?_, ?_, ?_, fun E K => ?run⟩
  case run =>
    simp only [cc7__combine_kernel_eq_skeleton]; unfold cc7__combine_kernel_skel
    simp only [k7_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, Hk⟩
    obtain rfl := ha1.eq_unread hf0; obtain rfl := ha2.eq_unread hf1; obtain rfl := ha3.eq_unread hf2; obtain rfl := ha4.eq_unread hf3
    obtain rfl := ha8.eq_unread hfs0; obtain rfl := ha9.eq_unread hfs1
    sl_exec (disch := first | exact hc0 | exact hc1)
    sl_step
    iapply Hk
    isplitl [H0]
    · iexists _; isplitr; · ipureintro; exact ha1.read_unread _
      iexact H0
    isplitl [H1]
    · iexists _; isplitr; · ipureintro; exact ha2.read_unread _
      iexact H1
    isplitl [H2]
    · iexists _; isplitr; · ipureintro; exact ha3.read_unread _
      iexact H2
    isplitl [H3]
    · iexists _; isplitr; · ipureintro; exact ha4.read_unread _
      iexact H3
    isplitl [H4]; · iexists _; iexact H4
    isplitl [H5]; · iexists _; iexact H5
    isplitl [H6]; · iexists _; iexact H6
    isplitl [HS0]; · iexists _; iexact HS0
    iexists _; iexact HS1

/-! ## What each case leaves in the outputs and in the carried accumulators -/

/-- At the first point the body's store into the block output covers its buffer. -/
theorem cover7_A_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) (y : S5000x128.Idx) :
    ∃ pc ∈ (kernelRun7_A c i a1 ha1 a2 ha2 a3 ha3 a4 ha4 a5 ha5 a6 ha6 a7 ha7 a8 ha8 a9 ha9 hc0 hc1 x0 x1 x2 x3).1, y ∈ pc.1.set :=
  View.cover_of_tiledL (kernelRun7_A c i a1 ha1 a2 ha2 a3 ha3 a4 ha4 a5 ha5 a6 ha6 a7 ha7 a8 ha8 a9 ha9 hc0 hc1 x0 x1 x2 x3).1 S5000x128.size (by sl_kernel_rfl) y

/-- What the first point leaves in the block output's staging buffer: its pieces read back. -/
noncomputable def out7_A_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) : Vec F S5000x128 .f32 :=
  VO7_4.read (Elt F) (VO7_4.writes (Elt F) VO7_4.junk (kernelRun7_A c i a1 ha1 a2 ha2 a3 ha3 a4 ha4 a5 ha5 a6 ha6 a7 ha7 a8 ha8 a9 ha9 hc0 hc1 x0 x1 x2 x3).1)

/-- At the first point the stores into the sum accumulator cover it. -/
theorem scover7_A_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) (y : S1x128.Idx) :
    ∃ pc ∈ (kernelRun7_A c i a1 ha1 a2 ha2 a3 ha3 a4 ha4 a5 ha5 a6 ha6 a7 ha7 a8 ha8 a9 ha9 hc0 hc1 x0 x1 x2 x3).2.1, y ∈ pc.1.set :=
  View.cover_of_tiledL (kernelRun7_A c i a1 ha1 a2 ha2 a3 ha3 a4 ha4 a5 ha5 a6 ha6 a7 ha7 a8 ha8 a9 ha9 hc0 hc1 x0 x1 x2 x3).2.1 S1x128.size (by sl_kernel_rfl) y

/-- What the first point leaves in the sum accumulator. -/
noncomputable def sout7_A_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) : Vec F S1x128 .f32 :=
  VS7_0.read (Elt F) (VS7_0.writes (Elt F) VS7_0.junk (kernelRun7_A c i a1 ha1 a2 ha2 a3 ha3 a4 ha4 a5 ha5 a6 ha6 a7 ha7 a8 ha8 a9 ha9 hc0 hc1 x0 x1 x2 x3).2.1)

/-- At the first point the stores into the sum-of-squares accumulator cover it. -/
theorem scover7_A_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) (y : S1x128.Idx) :
    ∃ pc ∈ (kernelRun7_A c i a1 ha1 a2 ha2 a3 ha3 a4 ha4 a5 ha5 a6 ha6 a7 ha7 a8 ha8 a9 ha9 hc0 hc1 x0 x1 x2 x3).2.2.1, y ∈ pc.1.set :=
  View.cover_of_tiledL (kernelRun7_A c i a1 ha1 a2 ha2 a3 ha3 a4 ha4 a5 ha5 a6 ha6 a7 ha7 a8 ha8 a9 ha9 hc0 hc1 x0 x1 x2 x3).2.2.1 S1x128.size (by sl_kernel_rfl) y

/-- What the first point leaves in the sum-of-squares accumulator. -/
noncomputable def sout7_A_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) : Vec F S1x128 .f32 :=
  VS7_1.read (Elt F) (VS7_1.writes (Elt F) VS7_1.junk (kernelRun7_A c i a1 ha1 a2 ha2 a3 ha3 a4 ha4 a5 ha5 a6 ha6 a7 ha7 a8 ha8 a9 ha9 hc0 hc1 x0 x1 x2 x3).2.2.1)

/-- At a middle point the body's store into the block output covers its buffer. -/
theorem cover7_B_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun7_B c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun7_B c i a1 ha1 a2 ha2 a3 ha3 a4 ha4 a5 ha5 a6 ha6 a7 ha7 a8 ha8 a9 ha9 hc0 hc1 x0 x1 x2 x3 xs0 xs1).1 S5000x128.size (by sl_kernel_rfl) y

/-- What a middle point leaves in the block output's staging buffer. -/
noncomputable def out7_B_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO7_4.read (Elt F) (VO7_4.writes (Elt F) VO7_4.junk (kernelRun7_B c i a1 ha1 a2 ha2 a3 ha3 a4 ha4 a5 ha5 a6 ha6 a7 ha7 a8 ha8 a9 ha9 hc0 hc1 x0 x1 x2 x3 xs0 xs1).1)

/-- At a middle point the store into the sum accumulator covers it. -/
theorem scover7_B_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_B c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun7_B c i a1 ha1 a2 ha2 a3 ha3 a4 ha4 a5 ha5 a6 ha6 a7 ha7 a8 ha8 a9 ha9 hc0 hc1 x0 x1 x2 x3 xs0 xs1).2.1 S1x128.size (by sl_kernel_rfl) y

/-- What a middle point leaves in the sum accumulator. -/
noncomputable def sout7_B_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS7_0.read (Elt F) (VS7_0.writes (Elt F) VS7_0.junk (kernelRun7_B c i a1 ha1 a2 ha2 a3 ha3 a4 ha4 a5 ha5 a6 ha6 a7 ha7 a8 ha8 a9 ha9 hc0 hc1 x0 x1 x2 x3 xs0 xs1).2.1)

/-- At a middle point the store into the sum-of-squares accumulator covers it. -/
theorem scover7_B_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_B c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun7_B c i a1 ha1 a2 ha2 a3 ha3 a4 ha4 a5 ha5 a6 ha6 a7 ha7 a8 ha8 a9 ha9 hc0 hc1 x0 x1 x2 x3 xs0 xs1).2.2.1 S1x128.size (by sl_kernel_rfl) y

/-- What a middle point leaves in the sum-of-squares accumulator. -/
noncomputable def sout7_B_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS7_1.read (Elt F) (VS7_1.writes (Elt F) VS7_1.junk (kernelRun7_B c i a1 ha1 a2 ha2 a3 ha3 a4 ha4 a5 ha5 a6 ha6 a7 ha7 a8 ha8 a9 ha9 hc0 hc1 x0 x1 x2 x3 xs0 xs1).2.2.1)

/-- At the last point the body's store into the block output covers its buffer. -/
theorem cover7_C_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S5000x128.Idx) :
    ∃ pc ∈ (kernelRun7_C c i a1 ha1 a2 ha2 a3 ha3 a4 ha4 a5 ha5 a6 ha6 a7 ha7 a8 ha8 a9 ha9 hc0 hc1 x0 x1 x2 x3 xs0 xs1).1, y ∈ pc.1.set :=
  View.cover_of_tiledL (kernelRun7_C c i a1 ha1 a2 ha2 a3 ha3 a4 ha4 a5 ha5 a6 ha6 a7 ha7 a8 ha8 a9 ha9 hc0 hc1 x0 x1 x2 x3 xs0 xs1).1 S5000x128.size (by sl_kernel_rfl) y

/-- What the last point leaves in the block output's staging buffer. -/
noncomputable def out7_C_4 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S5000x128 .f32 :=
  VO7_4.read (Elt F) (VO7_4.writes (Elt F) VO7_4.junk (kernelRun7_C c i a1 ha1 a2 ha2 a3 ha3 a4 ha4 a5 ha5 a6 ha6 a7 ha7 a8 ha8 a9 ha9 hc0 hc1 x0 x1 x2 x3 xs0 xs1).1)

/-- At the last point the copy into the sum output covers its buffer. -/
theorem cover7_C_5 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_C c i a1 ha1 a2 ha2 a3 ha3 a4 ha4 a5 ha5 a6 ha6 a7 ha7 a8 ha8 a9 ha9 hc0 hc1 x0 x1 x2 x3 xs0 xs1).2.1, y ∈ pc.1.set :=
  View.cover_of_tiledL (kernelRun7_C c i a1 ha1 a2 ha2 a3 ha3 a4 ha4 a5 ha5 a6 ha6 a7 ha7 a8 ha8 a9 ha9 hc0 hc1 x0 x1 x2 x3 xs0 xs1).2.1 S1x128.size (by sl_kernel_rfl) y

/-- What the last point leaves in the sum output's staging buffer. -/
noncomputable def out7_C_5 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO7_5.read (Elt F) (VO7_5.writes (Elt F) VO7_5.junk (kernelRun7_C c i a1 ha1 a2 ha2 a3 ha3 a4 ha4 a5 ha5 a6 ha6 a7 ha7 a8 ha8 a9 ha9 hc0 hc1 x0 x1 x2 x3 xs0 xs1).2.1)

/-- At the last point the copy into the sum-of-squares output covers its buffer. -/
theorem cover7_C_6 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_C c i a1 ha1 a2 ha2 a3 ha3 a4 ha4 a5 ha5 a6 ha6 a7 ha7 a8 ha8 a9 ha9 hc0 hc1 x0 x1 x2 x3 xs0 xs1).2.2.1, y ∈ pc.1.set :=
  View.cover_of_tiledL (kernelRun7_C c i a1 ha1 a2 ha2 a3 ha3 a4 ha4 a5 ha5 a6 ha6 a7 ha7 a8 ha8 a9 ha9 hc0 hc1 x0 x1 x2 x3 xs0 xs1).2.2.1 S1x128.size (by sl_kernel_rfl) y

/-- What the last point leaves in the sum-of-squares output's staging buffer. -/
noncomputable def out7_C_6 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VO7_6.read (Elt F) (VO7_6.writes (Elt F) VO7_6.junk (kernelRun7_C c i a1 ha1 a2 ha2 a3 ha3 a4 ha4 a5 ha5 a6 ha6 a7 ha7 a8 ha8 a9 ha9 hc0 hc1 x0 x1 x2 x3 xs0 xs1).2.2.1)

/-- At the last point the store into the sum accumulator covers it. -/
theorem scover7_C_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_C c i a1 ha1 a2 ha2 a3 ha3 a4 ha4 a5 ha5 a6 ha6 a7 ha7 a8 ha8 a9 ha9 hc0 hc1 x0 x1 x2 x3 xs0 xs1).2.2.2.1, y ∈ pc.1.set :=
  View.cover_of_tiledL (kernelRun7_C c i a1 ha1 a2 ha2 a3 ha3 a4 ha4 a5 ha5 a6 ha6 a7 ha7 a8 ha8 a9 ha9 hc0 hc1 x0 x1 x2 x3 xs0 xs1).2.2.2.1 S1x128.size (by sl_kernel_rfl) y

/-- What the last point leaves in the sum accumulator. -/
noncomputable def sout7_C_0 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS7_0.read (Elt F) (VS7_0.writes (Elt F) VS7_0.junk (kernelRun7_C c i a1 ha1 a2 ha2 a3 ha3 a4 ha4 a5 ha5 a6 ha6 a7 ha7 a8 ha8 a9 ha9 hc0 hc1 x0 x1 x2 x3 xs0 xs1).2.2.2.1)

/-- At the last point the store into the sum-of-squares accumulator covers it. -/
theorem scover7_C_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) (y : S1x128.Idx) :
    ∃ pc ∈ (kernelRun7_C c i a1 ha1 a2 ha2 a3 ha3 a4 ha4 a5 ha5 a6 ha6 a7 ha7 a8 ha8 a9 ha9 hc0 hc1 x0 x1 x2 x3 xs0 xs1).2.2.2.2.1, y ∈ pc.1.set :=
  View.cover_of_tiledL (kernelRun7_C c i a1 ha1 a2 ha2 a3 ha3 a4 ha4 a5 ha5 a6 ha6 a7 ha7 a8 ha8 a9 ha9 hc0 hc1 x0 x1 x2 x3 xs0 xs1).2.2.2.2.1 S1x128.size (by sl_kernel_rfl) y

/-- What the last point leaves in the sum-of-squares accumulator. -/
noncomputable def sout7_C_1 (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) : Vec F S1x128 .f32 :=
  VS7_1.read (Elt F) (VS7_1.writes (Elt F) VS7_1.junk (kernelRun7_C c i a1 ha1 a2 ha2 a3 ha3 a4 ha4 a5 ha5 a6 ha6 a7 ha7 a8 ha8 a9 ha9 hc0 hc1 x0 x1 x2 x3 xs0 xs1).2.2.2.2.1)

end Cert.KernelIdeal.Reg

end
-- ==== Proof.KI.R7.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import proofs.«422700_j84035330113950_1_alg».proof.Proof.KI.R7a
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Each window's current staging memref at point `t`, spelled as the pipeline passes it. -/
abbrev ms7_0 (t : Fin cfg7.N) : Memref sig .tc .vmem S5000x128 .f32 := win7_0.stage (cfg7.slots t 0)
abbrev ms7_1 (t : Fin cfg7.N) : Memref sig .tc .vmem S5000x128 .f32 := win7_1.stage (cfg7.slots t 1)
abbrev ms7_2 (t : Fin cfg7.N) : Memref sig .tc .vmem S1x128 .f32 := win7_2.stage (cfg7.slots t 2)
abbrev ms7_3 (t : Fin cfg7.N) : Memref sig .tc .vmem S5000x1 .f32 := win7_3.stage (cfg7.slots t 3)
abbrev ms7_4 (t : Fin cfg7.N) : Memref sig .tc .vmem S5000x128 .f32 := win7_4.stage (cfg7.slots t 4)
abbrev ms7_5 (t : Fin cfg7.N) : Memref sig .tc .vmem S1x128 .f32 := win7_5.stage (cfg7.slots t 5)
abbrev ms7_6 (t : Fin cfg7.N) : Memref sig .tc .vmem S1x128 .f32 := win7_6.stage (cfg7.slots t 6)

/-! ## What the outputs and the accumulators hold after each point -/

/-- THE ACCUMULATION. After the body at position `n`: the block output's buffer, the two statistics outputs' buffers
    (copied out at the last point only; before it these two components merely repeat the accumulators and nothing
    consults them), and the two accumulators: the first point's case from anything, every later point's case over
    what the point before left in the accumulators. -/
noncomputable def outsAt7 (c : Dev nD) : (n : ℕ) → n < cfg7.N → Vec F S5000x128 .f32 × Vec F S1x128 .f32 × Vec F S1x128 .f32 × Vec F S1x128 .f32 × Vec F S1x128 .f32
  | 0, hn => (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩))
  | n + 1, hn =>
    if h1 : n + 1 = 9 then
      (out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)
    else
      (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 c n (Nat.lt_of_succ_lt hn)).2.2.2.1 (outsAt7 c n (Nat.lt_of_succ_lt hn)).2.2.2.2)

/-- `outsAt7` at the first point. -/
theorem outsAt7_A (c : Dev nD) (t : Fin cfg7.N) (h0 : t.val = 0) (h1 : ¬t.val = 9) :
    outsAt7 V c t.val t.isLt = (out7_A_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t), sout7_A_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)) := by
  obtain ⟨n, hn⟩ := t
  cases n with
  | zero => exact rfl
  | succ n => exact absurd h0 (Nat.succ_ne_zero n)

/-- `outsAt7` at a middle point: over what the point before left. -/
theorem outsAt7_B (c : Dev nD) (t : Fin cfg7.N) (h0 : ¬t.val = 0) (h1 : ¬t.val = 9) :
    outsAt7 V c t.val t.isLt = (out7_B_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_B_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact absurd rfl h0
  | succ n => exact (dif_neg h1).trans rfl

/-- `outsAt7` at the last point: over what the point before left. -/
theorem outsAt7_C (c : Dev nD) (t : Fin cfg7.N) (h0 : ¬t.val = 0) (h1 : t.val = 9) :
    outsAt7 V c t.val t.isLt = (out7_C_4 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, out7_C_6 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2, sout7_C_1 c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2) := by
  obtain ⟨n, hn⟩ := t
  cases n with
  | zero => exact absurd rfl h0
  | succ n => exact (dif_pos h1).trans rfl

/-! ## The inputs' staging buffers -/

/-- An input window's current staging buffer holds its block at every point, fetched there or not (an unfetched
    window's block index has not moved), for any proof data whose array is the region-entry contents and whose body
    leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-! ## The invariant -/

/-- The region invariant before position `n`: before the first point the class's (every scratch at anything);
    afterwards the two accumulators at what the point before left, the rest of the scoped buffers unopened, the
    generator register at some state. -/
noncomputable def PhiS7 (c : Dev nD) : (n : ℕ) → n ≤ cfg7.N → sProp 𝕄
  | 0, _ => Pipeline.ΦA spec7 c
  | n + 1, hn => iprop(iprop(iprop(owns (c : Thread nD τ) scM7_0 fullShare (outsAt7 V c n hn).2.2.2.1 ∗ owns (c : Thread nD τ) scM7_1 fullShare (outsAt7 V c n hn).2.2.2.2) ∗ Pipeline.scopedRestBut (Ix := Unit) (Name := ℕ) (U := UR sig nD τ) (Lvl := ℕ) (Val := Elt F) spec7 c [cc7_scratch0, cc7_scratch1]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(iprop(owns (c : Thread nD τ) scM7_0 fullShare (outsAt7 V c n hn).2.2.2.1 ∗ owns (c : Thread nD τ) scM7_1 fullShare (outsAt7 V c n hn).2.2.2.2) ∗ Pipeline.scopedRestBut (Ix := Unit) (Name := ℕ) (U := UR sig nD τ) (Lvl := ℕ) (Val := Elt F) spec7 c [cc7_scratch0, cc7_scratch1]) ∗ (∃ r, prngReg c r)) := rfl

theorem PhiS7_pos (c : Dev nD) (n : ℕ) (h : n ≤ cfg7.N) (hz : n ≠ 0) :
    PhiS7 V c n h = iprop(iprop(iprop(owns (c : Thread nD τ) scM7_0 fullShare (outsAt7 V c (n - 1) (by omega)).2.2.2.1 ∗ owns (c : Thread nD τ) scM7_1 fullShare (outsAt7 V c (n - 1) (by omega)).2.2.2.2) ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

/-! ## The pipeline's proof data -/

/-- The proof data of pipeline 7 on core c at the region-entry contents V. -/
noncomputable def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => (outsAt7 V c t.val t.isLt).1
    | ⟨5, _⟩ => (outsAt7 V c t.val t.isLt).2.1
    | ⟨6, _⟩ => (outsAt7 V c t.val t.isLt).2.2.1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]
theorem q_eq7 (c : Dev nD) (w : Fin cfg7.W) : (dat7 V c).q w = fullShare := by
  dsimp only [dat7]
theorem owed_eq7 (c : Dev nD) (t : Fin (cfg7.N + 1)) : (dat7 V c).owed t = 0 := by
  dsimp only [dat7]
theorem recorded_eq7 (c : Dev nD) (t : Fin (cfg7.N + 1)) : (dat7 V c).recorded t = Set.univ := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = (outsAt7 V c t.val t.isLt).1 := by dsimp only [dat7]
theorem after7_5 (c : Dev nD) (t : Fin cfg7.N) : (dat7 V c).after 5 t = (outsAt7 V c t.val t.isLt).2.1 := by dsimp only [dat7]
theorem after7_6 (c : Dev nD) (t : Fin cfg7.N) : (dat7 V c).after 6 t = (outsAt7 V c t.val t.isLt).2.2.1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d

/-! ## The body obligation, at a generic point -/

/-- What the body is called with at point `t`, -/
noncomputable def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d))
    ∗ (∃ d, owns (c : Thread nD τ) (ms7_6 t) fullShare ((dat7 V c).before 6 t d)))

/-- and what it returns. -/
noncomputable def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t ∗ (dat7 V c).leavesExact 3 t
    ∗ (dat7 V c).leavesExact 4 t ∗ (dat7 V c).leavesExact 5 t ∗ (dat7 V c).leavesExact 6 t)

set_option maxHeartbeats 4800000 in
/-- The body at any point: the inputs' memrefs hold their blocks; the closed forms of the two conditions say which of
    the three cases the point is in, and that case's run applies; the invariant hands the body the two accumulators (at
    anything at the first point, afterwards at what the point before left) and takes them back at this point's
    contents; the statistics outputs' buffers are handed back untouched before the last point; nothing is owed. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3]
  rw [show (dat7 V c).owesAt () t.succ = (dat7 V c).owesAt () t.castSucc from rfl]
  rw [show (dat7 V c).Φ t.succ = PhiS7 V c (t.val + 1) t.isLt from rfl, PhiS7_succ]
  have hN : t.val < 10 := lt_of_lt_of_eq t.isLt (show cfg7.N = 10 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t], after7_3]
  rw [show (dat7 V c).leavesExact 4 t = owns (c : Thread nD τ) (ms7_4 t) fullShare ((dat7 V c).after 4 t) from by
    unfold Dat.leavesExact; rw [liveAt7_4 t], after7_4]
  by_cases h0 : t.val = 0
  · have h1 : ¬t.val = 9 := by omega
    rw [Dat.leavesExact_idle (dat7 V c) 5 t (idleAt7_5 t (fun h => h1 ((hcond7_1 t).mp h))) (noFlush7_5 t (fun h => h1 ((hcond7_1 t).mp h)))]
    rw [Dat.leavesExact_idle (dat7 V c) 6 t (idleAt7_6 t (fun h => h1 ((hcond7_1 t).mp h))) (noFlush7_6 t (fun h => h1 ((hcond7_1 t).mp h)))]
    rw [outsAt7_A V c t h0 h1]
    unfold out7_A_4 sout7_A_0 sout7_A_1; (try dsimp only)
    rw [PhiS7_castSucc V c t, PhiS7_zero V c _ _ h0, PhiA7_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun7_A c (grid7.coords t) _ _ _ _ _ _ _ _ _ _ _ _ _ _ _ _ _ _ ((hcond7_0 t).mpr h0) (fun h => h1 ((hcond7_1 t).mp h)) (iblk7 V c 0 t) (iblk7 V c 1 t) (iblk7 V c 2 t) (iblk7 V c 3 t)).2.2.2 _ _ Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS0]; · iexact HS0
    isplitl [HS1]; · iexact HS1
    iintro ⟨H0, H1, H2, H3, ⟨%e4, H4⟩, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover7_A_0 c _ _ _ _ _ _ _ _ _ _ _ _ _ _ _ _ _ _ _ _ _ _ _ _ _)
          unfold owns; iexists _; isplitr
          swap; · iexact HS1
          ipureintro; exact View.read_writes_of_cover _ _ _ _ _ (scover7_A_1 c _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover7_A_4 c _ _ _ _ _ _ _ _ _ _ _ _ _ _ _ _ _ _ _ _ _ _ _ _ _)
    isplitl [H5]; · iexists _; iexact H5
    iexists _; iexact H6
  · by_cases h1 : t.val = 9
    · rw [show (dat7 V c).leavesExact 5 t = owns (c : Thread nD τ) (ms7_5 t) fullShare ((dat7 V c).after 5 t) from by
        unfold Dat.leavesExact; rw [liveAt7_5 t ((hcond7_1 t).mpr h1)], after7_5]
      rw [show (dat7 V c).leavesExact 6 t = owns (c : Thread nD τ) (ms7_6 t) fullShare ((dat7 V c).after 6 t) from by
        unfold Dat.leavesExact; rw [liveAt7_6 t ((hcond7_1 t).mpr h1)], after7_6]
      rw [outsAt7_C V c t h0 h1]
      unfold out7_C_4 out7_C_5 out7_C_6 sout7_C_0 sout7_C_1; (try dsimp only)
      rw [PhiS7_castSucc V c t, PhiS7_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_C c (grid7.coords t) _ _ _ _ _ _ _ _ _ _ _ _ _ _ _ _ _ _ (fun h => h0 ((hcond7_0 t).mp h)) ((hcond7_1 t).mpr h1) (iblk7 V c 0 t) (iblk7 V c 1 t) (iblk7 V c 2 t) (iblk7 V c 3 t) _ _).2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      iintro ⟨H0, H1, H2, H3, ⟨%e4, H4⟩, ⟨%e5, H5⟩, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_C_0 c _ _ _ _ _ _ _ _ _ _ _ _ _ _ _ _ _ _ _ _ _ _ _ _ _ _ _)
            unfold owns; iexists _; isplitr
            swap; · iexact HS1
            ipureintro; exact View.read_writes_of_cover _ _ _ _ _ (scover7_C_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_C_4 c _ _ _ _ _ _ _ _ _ _ _ _ _ _ _ _ _ _ _ _ _ _ _ _ _ _ _)
      isplitl [H5]
      · unfold owns; iexists _; isplitr
        swap; · iexact H5
        ipureintro; exact View.read_writes_of_cover _ _ _ _ _ (cover7_C_5 c _ _ _ _ _ _ _ _ _ _ _ _ _ _ _ _ _ _ _ _ _ _ _ _ _ _ _)
      unfold owns; iexists _; isplitr
      swap; · iexact H6
      ipureintro; exact View.read_writes_of_cover _ _ _ _ _ (cover7_C_6 c _ _ _ _ _ _ _ _ _ _ _ _ _ _ _ _ _ _ _ _ _ _ _ _ _ _ _)
    · rw [Dat.leavesExact_idle (dat7 V c) 5 t (idleAt7_5 t (fun h => h1 ((hcond7_1 t).mp h))) (noFlush7_5 t (fun h => h1 ((hcond7_1 t).mp h)))]
      rw [Dat.leavesExact_idle (dat7 V c) 6 t (idleAt7_6 t (fun h => h1 ((hcond7_1 t).mp h))) (noFlush7_6 t (fun h => h1 ((hcond7_1 t).mp h)))]
      rw [outsAt7_B V c t h0 h1]
      unfold out7_B_4 sout7_B_0 sout7_B_1; (try dsimp only)
      rw [PhiS7_castSucc V c t, PhiS7_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun7_B c (grid7.coords t) _ _ _ _ _ _ _ _ _ _ _ _ _ _ _ _ _ _ (fun h => h0 ((hcond7_0 t).mp h)) (fun h => h1 ((hcond7_1 t).mp h)) (iblk7 V c 0 t) (iblk7 V c 1 t) (iblk7 V c 2 t) (iblk7 V c 3 t) _ _).2.2.2 _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [H6]; · iexact H6
      isplitl [HS0]; · iexact HS0
      isplitl [HS1]; · iexact HS1
      iintro ⟨H0, H1, H2, H3, ⟨%e4, H4⟩, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover7_B_0 c _ _ _ _ _ _ _ _ _ _ _ _ _ _ _ _ _ _ _ _ _ _ _ _ _ _ _)
            unfold owns; iexists _; isplitr
            swap; · iexact HS1
            ipureintro; exact View.read_writes_of_cover _ _ _ _ _ (scover7_B_1 c _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover7_B_4 c _ _ _ _ _ _ _ _ _ _ _ _ _ _ _ _ _ _ _ _ _ _ _ _ _ _ _)
      isplitl [H5]; · iexists _; iexact H5
      iexists _; iexact H6

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : (Pipeline.ΦA spec7 c : sProp 𝕄) ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulators' named contents are forgotten. -/
theorem Phi_out7 (c : Dev nD) (t : Fin (cfg7.N + 1)) (ht : t.val ≠ 0) : (dat7 V c).Φ t ⊢ (Pipeline.ΦA spec7 c : sProp 𝕄) := by
  rw [show (dat7 V c).Φ t = PhiS7 V c t.val (Nat.le_of_lt_succ t.isLt) from rfl, PhiS7_pos V c _ _ ht, PhiA7_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

/-- The same after the last point. -/
theorem hout7 (c : Dev nD) : (dat7 V c).Φ (Fin.last cfg7.N) ⊢ (Pipeline.ΦA spec7 c : sProp 𝕄) :=
  Phi_out7 V c _ (by rw [Fin.val_last]; have : cfg7.N = 10 := N_7; omega)

end Cert.KernelIdeal.Reg

end
-- ==== Proof.KI.R8.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 8: the BatchNorm+ReLU kernel `cc8__bn_relu_kernel` (pipeline 8), at the entry contents `V`

Six windows on a grid of ten points: window 0 is the pre-normalisation block (rows `5000 t … 5000 t + 4999`), windows
1 to 4 are the four `[1,128]` rows (mean, variance, scale, shift; their block index never moves), window 5 is the
output block. The body reads the five input buffers whole and overwrites the output buffer whole with
`max (((x - mean) * rsqrt (var + ε)) * scale + shift, 0)`. -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-! An input window's current staging buffer holds its block at every point, whether the pipeline fetched it there or
    not: where it did not, the block index has not moved since the last fetch and the body left the buffer as it was.
    Stated for any proof data whose array is `V`'s (`hA`) and whose body leaves the block in place (`hafter`). -/

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses -/

/-- The whole `[5000,128]` buffer, as one rectangle. -/
abbrev r8_0 : Rect S5000x128 := Rect.unit (s := S5000x128) ![0, 0] S5000x128.size inb_S5000x128_S5000x128_0_0
/-- The whole `[1,128]` buffer, as one rectangle. -/
abbrev r8_1 : Rect S1x128 := Rect.unit (s := S1x128) ![0, 0] S1x128.size inb_S1x128_S1x128_0_0

/-! ## What the body leaves in the output window's buffer -/

/-- Window 5's staging buffer after the body, from the five input blocks in WINDOW order (`x0` the data block, `x1`
    the mean row, `x2` the variance row, `x3` the scale row, `x4` the shift row): its one store, over the whole buffer.
    The payload takes the variance row before the mean row. -/
def out8_5 (x0 : Vec F S5000x128 .f32) (x1 x2 x3 x4 : Vec F S1x128 .f32) : Vec F S5000x128 .f32 :=
  View.canon [⟨r8_0, k8_pay1 (View.ld x0 r8_0) (View.ld x2 r8_1) (View.ld x1 r8_1) (View.ld x3 r8_1) (View.ld x4 r8_1)⟩]

/-- The one store is of the whole buffer, so it covers it. -/
theorem cover8_5 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 1000000 in
/-- The kernel body on whole staging memrefs, the five inputs' at read contents `x0 … x4` (window order) and the
    output's at anything, runs to the continuation holding the inputs' as they were and the output's at `out8_5` of
    the inputs': the six whole-buffer loads read what is held, and the one store covers the output buffer. -/
theorem sound_kernel8 (c : Dev nD) (E : Set ℕ) (i : grid8.Coords)
    (arg0 : Memref sig .tc .vmem S5000x128 .f32) (harg0 : arg0.IsWhole) (arg1 : Memref sig .tc .vmem S1x128 .f32) (harg1 : arg1.IsWhole)
    (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S5000x128 .f32) (harg5 : arg5.IsWhole)
    (x0 : Vec F S5000x128 .f32) (x1 x2 x3 x4 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out8_5 x0 x1 x2 x3 x4)) -∗ K ⟨⟩))
      ⊢ wp frame (wpE (defs₀ (F := F)) Variants.none c none) E (cc8__bn_relu_kernel i arg0 harg0 arg1 harg1 arg2 harg2 arg3 harg3 arg4 harg4 arg5 harg5) K := by
  simp only [cc8__bn_relu_kernel_eq_skeleton]; unfold cc8__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover8_5 _)

/-! ## The pipeline's proof data -/

/-- The proof data of pipeline 8 on core c at the region-entry contents V. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out8_5 (iblk8 V c 0 t) (iblk8 V c 1 t) (iblk8 V c 2 t) (iblk8 V c 3 t) (iblk8 V c 4 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]
/-- Every window is held at the full share. -/
theorem q_eq8 (c : Dev nD) (w : Fin cfg8.W) : (dat8 V c).q w = fullShare := by
  dsimp only [dat8]
/-- The core owes nothing at any boundary. -/
theorem owed_eq8 (c : Dev nD) (t : Fin (cfg8.N + 1)) : (dat8 V c).owed t = 0 := by
  dsimp only [dat8]
/-- Nothing is excluded from the record at any boundary. -/
theorem recorded_eq8 (c : Dev nD) (t : Fin (cfg8.N + 1)) : (dat8 V c).recorded t = Set.univ := by
  dsimp only [dat8]

/-! What the body leaves, window by window: each input's buffer at its block, the output's at `out8_5` of the blocks. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) :
    (dat8 V c).after 5 t = out8_5 (iblk8 V c 0 t) (iblk8 V c 1 t) (iblk8 V c 2 t) (iblk8 V c 3 t) (iblk8 V c 4 t) := by dsimp only [dat8]

/-! Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-! ## The body obligation, at a generic point -/

/-- What the body is called with at point `t`: the invariant, the core's debt, and the six current staging buffers, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

/-- The body at any point: the inputs' staging buffers hold their blocks, so the body's triple applies; the invariant and
    the core's debt pass through untouched. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  iintro ⟨HΦ, Ho, ⟨%d0, H0⟩, ⟨%d1, H1⟩, ⟨%d2, H2⟩, ⟨%d3, H3⟩, ⟨%d4, H4⟩, ⟨%d5, H5⟩⟩
  iapply (sound_kernel8 c Set.univ _ _ _ _ _ _ _ _ _ _ _ _ _ (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation8 (c : Dev nD) : BodyObligation (dat8 (F := F) V c) (defs₀ (F := F)) Variants.none () Set.univ := fun t => by
  rw [bigSep_W8, bigSep_W8]
  exact sound_body8 V c t

/-! ## Entering and leaving the region: the invariant is the class's own at every boundary -/

theorem hin8 (c : Dev nD) : (Pipeline.ΦA spec8 c : sProp 𝕄) ⊢ (dat8 V c).Φ 0 := BIBase.Entails.rfl
theorem hout8 (c : Dev nD) : (dat8 V c).Φ (Fin.last cfg8.N) ⊢ (Pipeline.ΦA spec8 c : sProp 𝕄) := BIBase.Entails.rfl

end Cert.KernelIdeal.Reg

end
-- ==== Proof.KI.RunBase.lean ====
import proofs.«422700_j84035330113950_1_alg».proof.Proof.RegionsKernelIdeal
import proofs.«422700_j84035330113950_1_alg».proof.Proof.KI.R0
import proofs.«422700_j84035330113950_1_alg».proof.Proof.KI.R1
import proofs.«422700_j84035330113950_1_alg».proof.Proof.KI.R2
import proofs.«422700_j84035330113950_1_alg».proof.Proof.KI.R3
import proofs.«422700_j84035330113950_1_alg».proof.Proof.KI.R4
import proofs.«422700_j84035330113950_1_alg».proof.Proof.KI.R5
import proofs.«422700_j84035330113950_1_alg».proof.Proof.KI.R6
import proofs.«422700_j84035330113950_1_alg».proof.Proof.KI.R7
import proofs.«422700_j84035330113950_1_alg».proof.Proof.KI.R8
import Idealize.ShloMosaic.Lib.Pipeline.FrameSuffix
import Idealize.ShloMosaic.Lib.Pipeline.RegionsLoop
import Idealize.ShloMosaic.Lib.Pipeline.Regions
import Idealize.ShloMosaic.Lib.Pipeline.Frame

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # The contents the nine regions leave, stage by stage

Region `k` is entered at the valuation `V_j` (j = 1, 5, 7, 9, 13, 15, 17, 21, 23), which reads the unknowns only at
items before it. So the unknowns are fixed one region at a time: stage `k + 1` sets item `J_k`
(2, 6, 8, 10, 14, 16, 18, 22, 24) to what pipeline `k` leaves when entered at `V_j` read at stage `k`, and keeps every
other item of stage `k`. -/

/-- Stage 1: item 2 is what pipeline 0 leaves, entered at `V1`; every other item is the launch contents. -/
def o1 : Gen.Outs (F := F) := fun J r c =>
  if J = 2 then Pipeline.withArrays spec0 c (Gen.V1 m c)
      (fun w => (dat0 (fun c b => Gen.V1 m c b) c).arrAt w cfg0.N) (Proc.devRef .tc r)
  else m ((c : Thread nD τ).loc r)
/-- Stage 2: item 6 is what pipeline 1 leaves, entered at `V5` read at stage 1. -/
def o2 : Gen.Outs (F := F) := fun J r c =>
  if J = 6 then Pipeline.withArrays spec1 c (Gen.V5 m (o1 m) c)
      (fun w => (dat1 (fun c b => Gen.V5 m (o1 m) c b) c).arrAt w cfg1.N) (Proc.devRef .tc r)
  else o1 m J r c
/-- Stage 3: item 8 is what pipeline 2 leaves, entered at `V7` read at stage 2. -/
def o3 : Gen.Outs (F := F) := fun J r c =>
  if J = 8 then Pipeline.withArrays spec2 c (Gen.V7 m (o2 m) c)
      (fun w => (dat2 (fun c b => Gen.V7 m (o2 m) c b) c).arrAt w cfg2.N) (Proc.devRef .tc r)
  else o2 m J r c
/-- Stage 4: item 10 is what pipeline 3 leaves, entered at `V9` read at stage 3. -/
def o4 : Gen.Outs (F := F) := fun J r c =>
  if J = 10 then Pipeline.withArrays spec3 c (Gen.V9 m (o3 m) c)
      (fun w => (dat3 (fun c b => Gen.V9 m (o3 m) c b) c).arrAt w cfg3.N) (Proc.devRef .tc r)
  else o3 m J r c
/-- Stage 5: item 14 is what pipeline 4 leaves, entered at `V13` read at stage 4. -/
def o5 : Gen.Outs (F := F) := fun J r c =>
  if J = 14 then Pipeline.withArrays spec4 c (Gen.V13 m (o4 m) c)
      (fun w => (dat4 (fun c b => Gen.V13 m (o4 m) c b) c).arrAt w cfg4.N) (Proc.devRef .tc r)
  else o4 m J r c
/-- Stage 6: item 16 is what pipeline 5 leaves, entered at `V15` read at stage 5. -/
def o6 : Gen.Outs (F := F) := fun J r c =>
  if J = 16 then Pipeline.withArrays spec5 c (Gen.V15 m (o5 m) c)
      (fun w => (dat5 (fun c b => Gen.V15 m (o5 m) c b) c).arrAt w cfg5.N) (Proc.devRef .tc r)
  else o5 m J r c
/-- Stage 7: item 18 is what pipeline 6 leaves, entered at `V17` read at stage 6. -/
def o7 : Gen.Outs (F := F) := fun J r c =>
  if J = 18 then Pipeline.withArrays spec6 c (Gen.V17 m (o6 m) c)
      (fun w => (dat6 (fun c b => Gen.V17 m (o6 m) c b) c).arrAt w cfg6.N) (Proc.devRef .tc r)
  else o6 m J r c
/-- Stage 8: item 22 is what pipeline 7 leaves, entered at `V21` read at stage 7. -/
def o8 : Gen.Outs (F := F) := fun J r c =>
  if J = 22 then Pipeline.withArrays spec7 c (Gen.V21 m (o7 m) c)
      (fun w => (dat7 (fun c b => Gen.V21 m (o7 m) c b) c).arrAt w cfg7.N) (Proc.devRef .tc r)
  else o7 m J r c
/-- Stage 9: item 24 is what pipeline 8 leaves, entered at `V23` read at stage 8. -/
def o9 : Gen.Outs (F := F) := fun J r c =>
  if J = 24 then Pipeline.withArrays spec8 c (Gen.V23 m (o8 m) c)
      (fun w => (dat8 (fun c b => Gen.V23 m (o8 m) c b) c).arrAt w cfg8.N) (Proc.devRef .tc r)
  else o8 m J r c

/-- THE REGIONS' OUTPUTS: the last stage. -/
def outs : Gen.Outs (F := F) := o9 m

/-! ## A stage at its own item, and off it -/

theorem o1_at (r : Ref sig .tc) (c : Dev nD) : o1 m 2 r c = Pipeline.withArrays spec0 c (Gen.V1 m c)
    (fun w => (dat0 (fun c b => Gen.V1 m c b) c).arrAt w cfg0.N) (Proc.devRef .tc r) := by
  unfold o1; exact if_pos rfl
theorem o2_at (r : Ref sig .tc) (c : Dev nD) : o2 m 6 r c = Pipeline.withArrays spec1 c (Gen.V5 m (o1 m) c)
    (fun w => (dat1 (fun c b => Gen.V5 m (o1 m) c b) c).arrAt w cfg1.N) (Proc.devRef .tc r) := by
  unfold o2; exact if_pos rfl
theorem o3_at (r : Ref sig .tc) (c : Dev nD) : o3 m 8 r c = Pipeline.withArrays spec2 c (Gen.V7 m (o2 m) c)
    (fun w => (dat2 (fun c b => Gen.V7 m (o2 m) c b) c).arrAt w cfg2.N) (Proc.devRef .tc r) := by
  unfold o3; exact if_pos rfl
theorem o4_at (r : Ref sig .tc) (c : Dev nD) : o4 m 10 r c = Pipeline.withArrays spec3 c (Gen.V9 m (o3 m) c)
    (fun w => (dat3 (fun c b => Gen.V9 m (o3 m) c b) c).arrAt w cfg3.N) (Proc.devRef .tc r) := by
  unfold o4; exact if_pos rfl
theorem o5_at (r : Ref sig .tc) (c : Dev nD) : o5 m 14 r c = Pipeline.withArrays spec4 c (Gen.V13 m (o4 m) c)
    (fun w => (dat4 (fun c b => Gen.V13 m (o4 m) c b) c).arrAt w cfg4.N) (Proc.devRef .tc r) := by
  unfold o5; exact if_pos rfl
theorem o6_at (r : Ref sig .tc) (c : Dev nD) : o6 m 16 r c = Pipeline.withArrays spec5 c (Gen.V15 m (o5 m) c)
    (fun w => (dat5 (fun c b => Gen.V15 m (o5 m) c b) c).arrAt w cfg5.N) (Proc.devRef .tc r) := by
  unfold o6; exact if_pos rfl
theorem o7_at (r : Ref sig .tc) (c : Dev nD) : o7 m 18 r c = Pipeline.withArrays spec6 c (Gen.V17 m (o6 m) c)
    (fun w => (dat6 (fun c b => Gen.V17 m (o6 m) c b) c).arrAt w cfg6.N) (Proc.devRef .tc r) := by
  unfold o7; exact if_pos rfl
theorem o8_at (r : Ref sig .tc) (c : Dev nD) : o8 m 22 r c = Pipeline.withArrays spec7 c (Gen.V21 m (o7 m) c)
    (fun w => (dat7 (fun c b => Gen.V21 m (o7 m) c b) c).arrAt w cfg7.N) (Proc.devRef .tc r) := by
  unfold o8; exact if_pos rfl
theorem o9_at (r : Ref sig .tc) (c : Dev nD) : o9 m 24 r c = Pipeline.withArrays spec8 c (Gen.V23 m (o8 m) c)
    (fun w => (dat8 (fun c b => Gen.V23 m (o8 m) c b) c).arrAt w cfg8.N) (Proc.devRef .tc r) := by
  unfold o9; exact if_pos rfl

theorem o2_ne {J : ℕ} (h : J ≠ 6) : o2 m J = o1 m J := by funext r c; unfold o2; exact if_neg h
theorem o3_ne {J : ℕ} (h : J ≠ 8) : o3 m J = o2 m J := by funext r c; unfold o3; exact if_neg h
theorem o4_ne {J : ℕ} (h : J ≠ 10) : o4 m J = o3 m J := by funext r c; unfold o4; exact if_neg h
theorem o5_ne {J : ℕ} (h : J ≠ 14) : o5 m J = o4 m J := by funext r c; unfold o5; exact if_neg h
theorem o6_ne {J : ℕ} (h : J ≠ 16) : o6 m J = o5 m J := by funext r c; unfold o6; exact if_neg h
theorem o7_ne {J : ℕ} (h : J ≠ 18) : o7 m J = o6 m J := by funext r c; unfold o7; exact if_neg h
theorem o8_ne {J : ℕ} (h : J ≠ 22) : o8 m J = o7 m J := by funext r c; unfold o8; exact if_neg h
theorem o9_ne {J : ℕ} (h : J ≠ 24) : o9 m J = o8 m J := by funext r c; unfold o9; exact if_neg h

/-! ## The last stage agrees with stage `k` at every item stage `k` has fixed -/

theorem outs_o8 {J : ℕ} (h : J < 24) : outs m J = o8 m J := o9_ne m (by omega)
theorem outs_o7 {J : ℕ} (h : J < 22) : outs m J = o7 m J := (outs_o8 m (by omega)).trans (o8_ne m (by omega))
theorem outs_o6 {J : ℕ} (h : J < 18) : outs m J = o6 m J := (outs_o7 m (by omega)).trans (o7_ne m (by omega))
theorem outs_o5 {J : ℕ} (h : J < 16) : outs m J = o5 m J := (outs_o6 m (by omega)).trans (o6_ne m (by omega))
theorem outs_o4 {J : ℕ} (h : J < 14) : outs m J = o4 m J := (outs_o5 m (by omega)).trans (o5_ne m (by omega))
theorem outs_o3 {J : ℕ} (h : J < 10) : outs m J = o3 m J := (outs_o4 m (by omega)).trans (o4_ne m (by omega))
theorem outs_o2 {J : ℕ} (h : J < 8) : outs m J = o2 m J := (outs_o3 m (by omega)).trans (o3_ne m (by omega))
theorem outs_o1 {J : ℕ} (h : J < 6) : outs m J = o1 m J := (outs_o2 m (by omega)).trans (o2_ne m (by omega))

/-! ## A region's entry valuation reads the unknowns only at the items before it -/

theorem V5_congr {o o' : Gen.Outs (F := F)} (h : ∀ J, J < 6 → o J = o' J) (c : Dev nD) : Gen.V5 m o c = Gen.V5 m o' c := by
  unfold Gen.V5 Gen.V4 Gen.V3 Gen.V2; rw [h 2 (by decide)]
theorem V7_congr {o o' : Gen.Outs (F := F)} (h : ∀ J, J < 8 → o J = o' J) (c : Dev nD) : Gen.V7 m o c = Gen.V7 m o' c := by
  unfold Gen.V7 Gen.V6; rw [V5_congr m (fun J hJ => h J (by omega)) c, h 6 (by decide)]
theorem V9_congr {o o' : Gen.Outs (F := F)} (h : ∀ J, J < 10 → o J = o' J) (c : Dev nD) : Gen.V9 m o c = Gen.V9 m o' c := by
  unfold Gen.V9 Gen.V8; rw [V7_congr m (fun J hJ => h J (by omega)) c, h 8 (by decide)]
theorem V13_congr {o o' : Gen.Outs (F := F)} (h : ∀ J, J < 14 → o J = o' J) (c : Dev nD) : Gen.V13 m o c = Gen.V13 m o' c := by
  unfold Gen.V13 Gen.V12 Gen.V11 Gen.V10; rw [V9_congr m (fun J hJ => h J (by omega)) c, h 10 (by decide)]
theorem V15_congr {o o' : Gen.Outs (F := F)} (h : ∀ J, J < 16 → o J = o' J) (c : Dev nD) : Gen.V15 m o c = Gen.V15 m o' c := by
  unfold Gen.V15 Gen.V14; rw [V13_congr m (fun J hJ => h J (by omega)) c, h 14 (by decide)]
theorem V17_congr {o o' : Gen.Outs (F := F)} (h : ∀ J, J < 18 → o J = o' J) (c : Dev nD) : Gen.V17 m o c = Gen.V17 m o' c := by
  unfold Gen.V17 Gen.V16; rw [V15_congr m (fun J hJ => h J (by omega)) c, h 16 (by decide)]
theorem V21_congr {o o' : Gen.Outs (F := F)} (h : ∀ J, J < 22 → o J = o' J) (c : Dev nD) : Gen.V21 m o c = Gen.V21 m o' c := by
  unfold Gen.V21 Gen.V20 Gen.V19 Gen.V18; rw [V17_congr m (fun J hJ => h J (by omega)) c, h 18 (by decide)]
theorem V23_congr {o o' : Gen.Outs (F := F)} (h : ∀ J, J < 24 → o J = o' J) (c : Dev nD) : Gen.V23 m o c = Gen.V23 m o' c := by
  unfold Gen.V23 Gen.V22; rw [V21_congr m (fun J hJ => h J (by omega)) c, h 22 (by decide)]

/-! ## The nine equations: each region's entry contents, read at the last stage, are those its stage was built from -/

theorem outs_1 : (fun (c : Dev nD) (b : Ref sig .tc) => Gen.V5 m (outs m) c b) = fun (c : Dev nD) (b : Ref sig .tc) => Gen.V5 m (o1 m) c b := by
  funext c b; rw [V5_congr m (fun J hJ => outs_o1 m hJ) c]
theorem outs_2 : (fun (c : Dev nD) (b : Ref sig .tc) => Gen.V7 m (outs m) c b) = fun (c : Dev nD) (b : Ref sig .tc) => Gen.V7 m (o2 m) c b := by
  funext c b; rw [V7_congr m (fun J hJ => outs_o2 m hJ) c]
theorem outs_3 : (fun (c : Dev nD) (b : Ref sig .tc) => Gen.V9 m (outs m) c b) = fun (c : Dev nD) (b : Ref sig .tc) => Gen.V9 m (o3 m) c b := by
  funext c b; rw [V9_congr m (fun J hJ => outs_o3 m hJ) c]
theorem outs_4 : (fun (c : Dev nD) (b : Ref sig .tc) => Gen.V13 m (outs m) c b) = fun (c : Dev nD) (b : Ref sig .tc) => Gen.V13 m (o4 m) c b := by
  funext c b; rw [V13_congr m (fun J hJ => outs_o4 m hJ) c]
theorem outs_5 : (fun (c : Dev nD) (b : Ref sig .tc) => Gen.V15 m (outs m) c b) = fun (c : Dev nD) (b : Ref sig .tc) => Gen.V15 m (o5 m) c b := by
  funext c b; rw [V15_congr m (fun J hJ => outs_o5 m hJ) c]
theorem outs_6 : (fun (c : Dev nD) (b : Ref sig .tc) => Gen.V17 m (outs m) c b) = fun (c : Dev nD) (b : Ref sig .tc) => Gen.V17 m (o6 m) c b := by
  funext c b; rw [V17_congr m (fun J hJ => outs_o6 m hJ) c]
theorem outs_7 : (fun (c : Dev nD) (b : Ref sig .tc) => Gen.V21 m (outs m) c b) = fun (c : Dev nD) (b : Ref sig .tc) => Gen.V21 m (o7 m) c b := by
  funext c b; rw [V21_congr m (fun J hJ => outs_o7 m hJ) c]
theorem outs_8 : (fun (c : Dev nD) (b : Ref sig .tc) => Gen.V23 m (outs m) c b) = fun (c : Dev nD) (b : Ref sig .tc) => Gen.V23 m (o8 m) c b := by
  funext c b; rw [V23_congr m (fun J hJ => outs_o8 m hJ) c]

/-! # The thread state between items, and the four entailments of a region in abstract form -/

/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its `owes`, at nothing. -/
abbrev R (c : Dev nD) : sProp 𝕄 := iprop((∃ r, prngReg c r) ∗ ∃ W, owes (c : Thread nD τ) (0 : CellTallies nD τ sig Unit) W)

/-- A core owing nothing, whatever it has recorded, owes within the bound of proof data that owe nothing at `t`
    and bound nothing there. -/
theorem owesAt_in {cfg : Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [ho, hr]
  iintro ⟨%W, HO⟩
  iexists W
  isplitr
  · ipureintro; exact fun _ _ => Or.inl trivial
  iexact HO

/-- And back: the bound is forgotten. -/
theorem owesAt_out {cfg : Cfg sig Λ₀} {c : Dev nD} (dat : Dat τ (Elt F) Unit ℕ (UR sig nD τ) ℕ cfg c) (t : Fin (cfg.N + 1))
    (ho : dat.owed t = 0) :
    (dat.owesAt () t : sProp 𝕄) ⊢ iprop(∃ W, owes (c : Thread nD τ) (0 : CellTallies nD τ sig Unit) W) := by
  unfold Pipeline.Dat.owesAt Pipeline.owesWithin
  rw [ho]
  iintro ⟨%W, -, HO⟩
  iexists W
  iexact HO

/-- ENTRY, sorted: the held buffers split into the arrays `A` and the rest; no table; the `owes` within the first
    bound; the generator register passes to the invariant. The kernel's own semaphores (none) and the level facts
    are not needed. -/
theorem entry_of (c : Dev nD) {Hd A Rest Pf OW OS LA : sProp 𝕄} (hsplit : Hd ⊢ iprop(A ∗ Rest))
    (hpf : (BI.emp : sProp 𝕄) ⊢ Pf)
    (how : (iprop(∃ W, owes (c : Thread nD τ) (0 : CellTallies nD τ sig Unit) W) : sProp 𝕄) ⊢ OW) :
    iprop((Hd ∗ R c) ∗ OS ∗ LA) ⊢ |={Set.univ}=> iprop(A ∗ Pf ∗ OW ∗ (∃ r, prngReg c r) ∗ Rest) := by
  iintro ⟨⟨Hub, Hp, HO⟩, -, -⟩
  ihave H := hsplit $$ Hub
  icases H with ⟨Ha, Hrest⟩
  imodintro
  isplitl [Ha]; · iexact Ha
  isplitr; · iapply hpf; iempintro
  isplitl [HO]; · iapply how; iexact HO
  isplitl [Hp]; · iexact Hp
  iexact Hrest

/-- The invariant at the first point: the class invariant (the scoped buffers no window stages, the generator
    register) and then whatever the proof data's first invariant asks of it. -/
theorem hin_of {gr W : Nat} (win : Fin W → Pipeline.WinSpec sig gr) (c : Dev nD) {Pf Φ0 : sProp 𝕄}
    (h : (Pipeline.ΦA win c : sProp 𝕄) ⊢ Φ0) :
    iprop((∃ r, prngReg c r) ∗ Pf ∗ Pipeline.scopedRest win c) ⊢ Φ0 := by
  have h1 : (iprop((∃ r, prngReg c r) ∗ Pf ∗ Pipeline.scopedRest win c) : sProp 𝕄)
      ⊢ iprop(Pipeline.scopedRest win c ∗ ∃ r, prngReg c r) := by
    iintro ⟨Hp, -, Hr⟩
    isplitl [Hr]; · iexact Hr
    iexact Hp
  exact h1.trans h

/-- The invariant at the last point gives the class invariant back: the generator register, no semaphore, the
    scoped buffers. -/
theorem hout_of {gr W : Nat} (win : Fin W → Pipeline.WinSpec sig gr) (c : Dev nD) {ΦN : sProp 𝕄}
    (h : ΦN ⊢ (Pipeline.ΦA win c : sProp 𝕄)) :
    ΦN ⊢ iprop((∃ r, prngReg c r) ∗ Pipeline.ownSems0 (fun k : PEmpty => k.elim) c ∗ Pipeline.scopedRest win c) := by
  have h2 : (iprop(Pipeline.scopedRest win c ∗ ∃ r, prngReg c r) : sProp 𝕄)
      ⊢ iprop((∃ r, prngReg c r) ∗ BI.emp ∗ Pipeline.scopedRest win c) := by
    iintro ⟨Hr, Hp⟩
    isplitl [Hp]; · iexact Hp
    isplitr; · iempintro
    iexact Hr
  rw [Pipeline.ownSems0_none]
  exact h.trans h2

/-- EXIT, sorted: the arrays and the rest join into the held buffers at the exit contents; the generator register
    and the `owes` (its bound forgotten) ride on. -/
theorem exit_of (c : Dev nD) {A OWN Rest Hd' : sProp 𝕄} (hjoin : iprop(A ∗ Rest) ⊢ Hd')
    (how : OWN ⊢ (iprop(∃ W, owes (c : Thread nD τ) (0 : CellTallies nD τ sig Unit) W) : sProp 𝕄)) :
    iprop(A ∗ OWN ∗ (∃ r, prngReg c r) ∗ Rest) ⊢ |={Set.univ}=> iprop(Hd' ∗ R c) := by
  iintro ⟨Ha, HO, HY, Hrest⟩
  imodintro
  isplitl [Ha Hrest]
  · iapply hjoin; isplitl [Ha] <;> iassumption
  isplitl [HY]; · iexact HY
  iapply how; iexact HO

/-- An input window's array ends as it was entered. -/
theorem arrAt_in_eq {cfg : Cfg sig Λ₀} {c : Dev nD} (dat : Dat τ (Elt F) Unit ℕ (UR sig nD τ) ℕ cfg c) (w : Fin cfg.W)
    (hin : (cfg.win w).isOut = false) {x : Buf (Elt F) ((cfg.win w).arr.view.loc (c.tc : Thread nD τ))} (hA : dat.A w = x) :
    dat.arrAt w cfg.N = x := (dat.arrAt_in w hin cfg.N).trans hA

/-! # The proof data family -/

/-- Every pipeline's proof data, each at its region's entry contents — a literal `match`, so that the pinned
    configuration at a numeral reduces to the printed one. -/
def pdats : (p : Fin 9) → (c : Dev nD) → Dat τ (Elt F) Unit ℕ (UR sig nD τ) ℕ (Pipeline.pin (pcfgs (F := F)) Gen.adm p) c
  | ⟨0, _⟩ => fun c => dat0 (fun c b => Gen.V1 m c b) c
  | ⟨1, _⟩ => fun c => dat1 (fun c b => Gen.V5 m (outs m) c b) c
  | ⟨2, _⟩ => fun c => dat2 (fun c b => Gen.V7 m (outs m) c b) c
  | ⟨3, _⟩ => fun c => dat3 (fun c b => Gen.V9 m (outs m) c b) c
  | ⟨4, _⟩ => fun c => dat4 (fun c b => Gen.V13 m (outs m) c b) c
  | ⟨5, _⟩ => fun c => dat5 (fun c b => Gen.V15 m (outs m) c b) c
  | ⟨6, _⟩ => fun c => dat6 (fun c b => Gen.V17 m (outs m) c b) c
  | ⟨7, _⟩ => fun c => dat7 (fun c b => Gen.V21 m (outs m) c b) c
  | ⟨8, _⟩ => fun c => dat8 (fun c b => Gen.V23 m (outs m) c b) c

end Cert.KernelIdeal.Run

end
-- ==== Proof.KI.RunR0.lean ====
import proofs.«422700_j84035330113950_1_alg».proof.Proof.KI.RunBase

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 0 (item 1): entered at `V1`, left at `V2` -/

/-- What the last stage holds at item 2 for each array of pipeline 0: what the pipeline leaves there. -/
theorem outs0_arr (c : Dev nD) (w : Fin cfg0.W) :
    outs m 2 (Pipeline.arrRef spec0 w) c = (dat0 (fun c b => Gen.V1 m c b) c).arrAt w cfg0.N :=
  (congrFun (congrFun (outs_o1 m (J := 2) (by decide)) _) c).trans ((o1_at m _ c).trans
    (Pipeline.withArrays_arr spec0 launch0.win.arr_inj c _ _ w))

/-- The exit valuation at the output's array. -/
theorem V2_at (o : Gen.Outs (F := F)) (c : Dev nD) : Gen.V2 m o c main_v25 = o 2 main_v25 c := by
  simp only [Gen.V2, Function.update_self]

/-- At the exit each array of the pipeline holds what the pipeline leaves: an input what it held, the output the
    unknown of item 2. -/
theorem hF0 (c : Dev nD) : ∀ w : Fin cfg0.W,
    (dat0 (fun c b => Gen.V1 m c b) c).arrAt w cfg0.N = Gen.V2 m (outs m) c (Pipeline.arrRef spec0 w)
  | ⟨0, _⟩ => (arrAt_in_eq _ _ rfl (A_eq0 (fun c b => Gen.V1 m c b) c _)).trans (Gen.V2_of m (outs m) c (Pipeline.arrRef spec0 0) (by decide)).symm
  | ⟨1, _⟩ => (arrAt_in_eq _ _ rfl (A_eq0 (fun c b => Gen.V1 m c b) c _)).trans (Gen.V2_of m (outs m) c (Pipeline.arrRef spec0 1) (by decide)).symm
  | ⟨2, _⟩ => (outs0_arr m c 2).symm.trans (V2_at m (outs m) c).symm

/-- Every other buffer is as entered. -/
theorem hrest0 (c : Dev nD) (b : Ref sig .tc) (hb : b ∉ Finset.univ.image (Pipeline.arrRef spec0)) :
    Gen.V2 m (outs m) c b = Gen.V1 m c b :=
  Gen.V2_of m (outs m) c b fun hmem => hb (by
    rw [List.mem_singleton] at hmem; subst hmem
    exact Finset.mem_image.mpr ⟨2, Finset.mem_univ _, rfl⟩)

set_option backward.isDefEq.respectTransparency.types false in
/-- The held buffers at `V1` are pipeline 0's arrays at its entry contents and the rest. -/
theorem hsplit0 (c : Dev nD) : (StableHlo.held (c : Thread nD τ) (Pipeline.ucRefs τ sig) (Gen.V1 m c) : sProp 𝕄)
    ⊢ iprop((pdats m 0 c).arrays ((pdats m 0 c).arrAt · 0)
        ∗ Pipeline.unscopedRest (Ix := Unit) (Name := ℕ) (U := UR sig nD τ) (Lvl := ℕ) spec0 c (fun b => Gen.V1 m c b)) := by
  have h := Pipeline.arrays_of_unscopedBufs (p := 0) (pcfgs (F := F)) Gen.adm (pdats m) launch0.win launch0.arr_whole c
    ((pdats m 0 c).share_full fun w => q_eq0 (fun c b => Gen.V1 m c b) c w) (fun b => Gen.V1 m c b)
    fun w => A_eq0 (fun c b => Gen.V1 m c b) c w
  rw [Pipeline.unscopedBufs_held] at h
  exact h

set_option backward.isDefEq.respectTransparency.types false in
/-- Its arrays at what it leaves and the rest are the held buffers at `V2`. -/
theorem hjoin0 (c : Dev nD) : iprop((pdats m 0 c).arrays ((pdats m 0 c).arrAt · cfg0.N)
      ∗ Pipeline.unscopedRest (Ix := Unit) (Name := ℕ) (U := UR sig nD τ) (Lvl := ℕ) spec0 c (fun b => Gen.V1 m c b))
    ⊢ (StableHlo.held (c : Thread nD τ) (Pipeline.ucRefs τ sig) (Gen.V2 m (outs m) c) : sProp 𝕄) := by
  have h := Pipeline.unscopedBufs_of_arrays (p := 0) (pcfgs (F := F)) Gen.adm (Ix := Unit) (Name := ℕ) (U := UR sig nD τ) (Lvl := ℕ)
    launch0.win launch0.arr_whole c (pdats m) ((pdats m 0 c).share_full fun w => q_eq0 (fun c b => Gen.V1 m c b) c w)
    (fun b => Gen.V1 m c b) (fun b => Gen.V2 m (outs m) c b) ((pdats m 0 c).arrAt · cfg0.N) (hF0 m c) (hrest0 m c)
  rw [Pipeline.unscopedBufs_held] at h
  exact h

set_option backward.isDefEq.respectTransparency.types false in
/-- REGION 0 over the thread state. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => Gen.V1 m c b) c).loose
  hwaits := Pipeline.hwaits_of_owed_zero _ _ _ _ L lv 0 fun c t => owed_eq0 (fun c b => Gen.V1 m c b) c t
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := entry_of c (hsplit0 m c)
    (by unfold Pipeline.prefHeld; rw [show (Finset.univ : Finset (Fin 0)) = ∅ from rfl, BI.bigSep_empty] <;> exact .rfl)
    (owesAt_in (pdats m 0 c) 0 (owed_eq0 (fun c b => Gen.V1 m c b) c _) (recorded_eq0 (fun c b => Gen.V1 m c b) c _))
  hin c := hin_of spec0 c (hin0 (fun c b => Gen.V1 m c b) c)
  hout c := hout_of spec0 c (hout0 (fun c b => Gen.V1 m c b) c)
  hexit c := exit_of c (hjoin0 m c) (owesAt_out (pdats m 0 c) _ (owed_eq0 (fun c b => Gen.V1 m c b) c _))

end Cert.KernelIdeal.Run

end
-- ==== Proof.KI.RunR1.lean ====
import proofs.«422700_j84035330113950_1_alg».proof.Proof.KI.RunBase

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 1 (item 5): entered at `V5`, left at `V6` -/

/-- What the last stage holds at item 6 for each array of pipeline 1: what the pipeline leaves there. -/
theorem outs1_arr (c : Dev nD) (w : Fin cfg1.W) :
    outs m 6 (Pipeline.arrRef spec1 w) c = (dat1 (fun c b => Gen.V5 m (outs m) c b) c).arrAt w cfg1.N :=
  (congrFun (congrFun (outs_o2 m (J := 6) (by decide)) _) c).trans ((o2_at m _ c).trans
    ((Pipeline.withArrays_arr spec1 launch1.win.arr_inj c _ _ w).trans
      (congrArg (fun V => (dat1 V c).arrAt w cfg1.N) (outs_1 m)).symm))

/-- The exit valuation at the three outputs' arrays. -/
theorem V6_at0 (o : Gen.Outs (F := F)) (c : Dev nD) : Gen.V6 m o c main_v49_0 = o 6 main_v49_0 c := by
  simp only [Gen.V6, Function.update_self,
    Function.update_of_ne (StableHlo.devRef_ne_of_ne (by decide) : (Proc.devRef .tc main_v49_0 : DevRef τ sig) ≠ Proc.devRef .tc main_v49_1),
    Function.update_of_ne (StableHlo.devRef_ne_of_ne (by decide) : (Proc.devRef .tc main_v49_0 : DevRef τ sig) ≠ Proc.devRef .tc main_v49_2)]
theorem V6_at1 (o : Gen.Outs (F := F)) (c : Dev nD) : Gen.V6 m o c main_v49_1 = o 6 main_v49_1 c := by
  simp only [Gen.V6, Function.update_self,
    Function.update_of_ne (StableHlo.devRef_ne_of_ne (by decide) : (Proc.devRef .tc main_v49_1 : DevRef τ sig) ≠ Proc.devRef .tc main_v49_2)]
theorem V6_at2 (o : Gen.Outs (F := F)) (c : Dev nD) : Gen.V6 m o c main_v49_2 = o 6 main_v49_2 c := by
  simp only [Gen.V6, Function.update_self]

/-- At the exit each array of the pipeline holds what the pipeline leaves: an input what it held, an output the
    unknown of item 6. One lemma per window. -/
theorem hF1_0 (c : Dev nD) : (dat1 (fun c b => Gen.V5 m (outs m) c b) c).arrAt 0 cfg1.N = Gen.V6 m (outs m) c (Pipeline.arrRef spec1 0) :=
  (arrAt_in_eq _ 0 rfl (A_eq1 (fun c b => Gen.V5 m (outs m) c b) c 0)).trans (Gen.V6_of m (outs m) c (Pipeline.arrRef spec1 0) (by decide)).symm
theorem hF1_1 (c : Dev nD) : (dat1 (fun c b => Gen.V5 m (outs m) c b) c).arrAt 1 cfg1.N = Gen.V6 m (outs m) c (Pipeline.arrRef spec1 1) :=
  (arrAt_in_eq _ 1 rfl (A_eq1 (fun c b => Gen.V5 m (outs m) c b) c 1)).trans (Gen.V6_of m (outs m) c (Pipeline.arrRef spec1 1) (by decide)).symm
theorem hF1_2 (c : Dev nD) : (dat1 (fun c b => Gen.V5 m (outs m) c b) c).arrAt 2 cfg1.N = Gen.V6 m (outs m) c (Pipeline.arrRef spec1 2) :=
  (arrAt_in_eq _ 2 rfl (A_eq1 (fun c b => Gen.V5 m (outs m) c b) c 2)).trans (Gen.V6_of m (outs m) c (Pipeline.arrRef spec1 2) (by decide)).symm
theorem hF1_3 (c : Dev nD) : (dat1 (fun c b => Gen.V5 m (outs m) c b) c).arrAt 3 cfg1.N = Gen.V6 m (outs m) c (Pipeline.arrRef spec1 3) :=
  (arrAt_in_eq _ 3 rfl (A_eq1 (fun c b => Gen.V5 m (outs m) c b) c 3)).trans (Gen.V6_of m (outs m) c (Pipeline.arrRef spec1 3) (by decide)).symm
theorem hF1_4 (c : Dev nD) : (dat1 (fun c b => Gen.V5 m (outs m) c b) c).arrAt 4 cfg1.N = Gen.V6 m (outs m) c (Pipeline.arrRef spec1 4) :=
  (outs1_arr m c 4).symm.trans (V6_at0 m (outs m) c).symm
theorem hF1_5 (c : Dev nD) : (dat1 (fun c b => Gen.V5 m (outs m) c b) c).arrAt 5 cfg1.N = Gen.V6 m (outs m) c (Pipeline.arrRef spec1 5) :=
  (outs1_arr m c 5).symm.trans (V6_at1 m (outs m) c).symm
theorem hF1_6 (c : Dev nD) : (dat1 (fun c b => Gen.V5 m (outs m) c b) c).arrAt 6 cfg1.N = Gen.V6 m (outs m) c (Pipeline.arrRef spec1 6) :=
  (outs1_arr m c 6).symm.trans (V6_at2 m (outs m) c).symm
theorem hF1 (c : Dev nD) : ∀ w : Fin cfg1.W,
    (dat1 (fun c b => Gen.V5 m (outs m) c b) c).arrAt w cfg1.N = Gen.V6 m (outs m) c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c

/-- Every other buffer is as entered. -/
theorem hrest1 (c : Dev nD) (b : Ref sig .tc) (hb : b ∉ Finset.univ.image (Pipeline.arrRef spec1)) :
    Gen.V6 m (outs m) c b = Gen.V5 m (outs m) c b :=
  Gen.V6_of m (outs m) c b fun hmem => hb (by
    simp only [List.mem_cons, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)

set_option backward.isDefEq.respectTransparency.types false in
/-- The held buffers at `V5` are pipeline 1's arrays at its entry contents and the rest. -/
theorem hsplit1 (c : Dev nD) : (StableHlo.held (c : Thread nD τ) (Pipeline.ucRefs τ sig) (Gen.V5 m (outs m) c) : sProp 𝕄)
    ⊢ iprop((pdats m 1 c).arrays ((pdats m 1 c).arrAt · 0)
        ∗ Pipeline.unscopedRest (Ix := Unit) (Name := ℕ) (U := UR sig nD τ) (Lvl := ℕ) spec1 c (fun b => Gen.V5 m (outs m) c b)) := by
  have h := Pipeline.arrays_of_unscopedBufs (p := 1) (pcfgs (F := F)) Gen.adm (pdats m) launch1.win launch1.arr_whole c
    ((pdats m 1 c).share_full fun w => q_eq1 (fun c b => Gen.V5 m (outs m) c b) c w) (fun b => Gen.V5 m (outs m) c b)
    fun w => A_eq1 (fun c b => Gen.V5 m (outs m) c b) c w
  rw [Pipeline.unscopedBufs_held] at h
  exact h

set_option backward.isDefEq.respectTransparency.types false in
/-- Its arrays at what it leaves and the rest are the held buffers at `V6`. -/
theorem hjoin1 (c : Dev nD) : iprop((pdats m 1 c).arrays ((pdats m 1 c).arrAt · cfg1.N)
      ∗ Pipeline.unscopedRest (Ix := Unit) (Name := ℕ) (U := UR sig nD τ) (Lvl := ℕ) spec1 c (fun b => Gen.V5 m (outs m) c b))
    ⊢ (StableHlo.held (c : Thread nD τ) (Pipeline.ucRefs τ sig) (Gen.V6 m (outs m) c) : sProp 𝕄) := by
  have h := Pipeline.unscopedBufs_of_arrays (p := 1) (pcfgs (F := F)) Gen.adm (Ix := Unit) (Name := ℕ) (U := UR sig nD τ) (Lvl := ℕ)
    launch1.win launch1.arr_whole c (pdats m) ((pdats m 1 c).share_full fun w => q_eq1 (fun c b => Gen.V5 m (outs m) c b) c w)
    (fun b => Gen.V5 m (outs m) c b) (fun b => Gen.V6 m (outs m) c b) ((pdats m 1 c).arrAt · cfg1.N) (hF1 m c) (hrest1 m c)
  rw [Pipeline.unscopedBufs_held] at h
  exact h

set_option backward.isDefEq.respectTransparency.types false in
/-- REGION 1 over the thread state. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (fun c b => Gen.V5 m (outs m) c b) c).loose
  hwaits := Pipeline.hwaits_of_owed_zero _ _ _ _ L lv 1 fun c t => owed_eq1 (fun c b => Gen.V5 m (outs m) c b) c t
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V5 m (outs m) c b)
  hentry c := entry_of c (hsplit1 m c)
    (by unfold Pipeline.prefHeld; rw [show (Finset.univ : Finset (Fin 0)) = ∅ from rfl, BI.bigSep_empty] <;> exact .rfl)
    (owesAt_in (pdats m 1 c) 0 (owed_eq1 (fun c b => Gen.V5 m (outs m) c b) c _) (recorded_eq1 (fun c b => Gen.V5 m (outs m) c b) c _))
  hin c := hin_of spec1 c (hin1 (fun c b => Gen.V5 m (outs m) c b) c)
  hout c := hout_of spec1 c (hout1 (fun c b => Gen.V5 m (outs m) c b) c)
  hexit c := exit_of c (hjoin1 m c) (owesAt_out (pdats m 1 c) _ (owed_eq1 (fun c b => Gen.V5 m (outs m) c b) c _))

end Cert.KernelIdeal.Run

end
-- ==== Proof.KI.RunR2.lean ====
import proofs.«422700_j84035330113950_1_alg».proof.Proof.KI.RunBase

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 2 (item 7): entered at `V7`, left at `V8` -/

/-- What the last stage holds at item 8 for each array of pipeline 2: what the pipeline leaves there. -/
theorem outs2_arr (c : Dev nD) (w : Fin cfg2.W) :
    outs m 8 (Pipeline.arrRef spec2 w) c = (dat2 (fun c b => Gen.V7 m (outs m) c b) c).arrAt w cfg2.N :=
  (congrFun (congrFun (outs_o3 m (J := 8) (by decide)) _) c).trans ((o3_at m _ c).trans
    ((Pipeline.withArrays_arr spec2 launch2.win.arr_inj c _ _ w).trans
      (congrArg (fun V => (dat2 V c).arrAt w cfg2.N) (outs_2 m)).symm))

/-- The exit valuation at the output's array. -/
theorem V8_at (o : Gen.Outs (F := F)) (c : Dev nD) : Gen.V8 m o c main_v62 = o 8 main_v62 c := by
  simp only [Gen.V8, Function.update_self]

/-- At the exit each array of the pipeline holds what the pipeline leaves: an input what it held, the output the
    unknown of item 8. One lemma per window. -/
theorem hF2_0 (c : Dev nD) : (dat2 (fun c b => Gen.V7 m (outs m) c b) c).arrAt 0 cfg2.N = Gen.V8 m (outs m) c (Pipeline.arrRef spec2 0) :=
  (arrAt_in_eq _ 0 rfl (A_eq2 (fun c b => Gen.V7 m (outs m) c b) c 0)).trans (Gen.V8_of m (outs m) c (Pipeline.arrRef spec2 0) (by decide)).symm
theorem hF2_1 (c : Dev nD) : (dat2 (fun c b => Gen.V7 m (outs m) c b) c).arrAt 1 cfg2.N = Gen.V8 m (outs m) c (Pipeline.arrRef spec2 1) :=
  (arrAt_in_eq _ 1 rfl (A_eq2 (fun c b => Gen.V7 m (outs m) c b) c 1)).trans (Gen.V8_of m (outs m) c (Pipeline.arrRef spec2 1) (by decide)).symm
theorem hF2_2 (c : Dev nD) : (dat2 (fun c b => Gen.V7 m (outs m) c b) c).arrAt 2 cfg2.N = Gen.V8 m (outs m) c (Pipeline.arrRef spec2 2) :=
  (arrAt_in_eq _ 2 rfl (A_eq2 (fun c b => Gen.V7 m (outs m) c b) c 2)).trans (Gen.V8_of m (outs m) c (Pipeline.arrRef spec2 2) (by decide)).symm
theorem hF2_3 (c : Dev nD) : (dat2 (fun c b => Gen.V7 m (outs m) c b) c).arrAt 3 cfg2.N = Gen.V8 m (outs m) c (Pipeline.arrRef spec2 3) :=
  (arrAt_in_eq _ 3 rfl (A_eq2 (fun c b => Gen.V7 m (outs m) c b) c 3)).trans (Gen.V8_of m (outs m) c (Pipeline.arrRef spec2 3) (by decide)).symm
theorem hF2_4 (c : Dev nD) : (dat2 (fun c b => Gen.V7 m (outs m) c b) c).arrAt 4 cfg2.N = Gen.V8 m (outs m) c (Pipeline.arrRef spec2 4) :=
  (arrAt_in_eq _ 4 rfl (A_eq2 (fun c b => Gen.V7 m (outs m) c b) c 4)).trans (Gen.V8_of m (outs m) c (Pipeline.arrRef spec2 4) (by decide)).symm
theorem hF2_5 (c : Dev nD) : (dat2 (fun c b => Gen.V7 m (outs m) c b) c).arrAt 5 cfg2.N = Gen.V8 m (outs m) c (Pipeline.arrRef spec2 5) :=
  (outs2_arr m c 5).symm.trans (V8_at m (outs m) c).symm
theorem hF2 (c : Dev nD) : ∀ w : Fin cfg2.W,
    (dat2 (fun c b => Gen.V7 m (outs m) c b) c).arrAt w cfg2.N = Gen.V8 m (outs m) c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c

/-- Every other buffer is as entered. -/
theorem hrest2 (c : Dev nD) (b : Ref sig .tc) (hb : b ∉ Finset.univ.image (Pipeline.arrRef spec2)) :
    Gen.V8 m (outs m) c b = Gen.V7 m (outs m) c b :=
  Gen.V8_of m (outs m) c b fun hmem => hb (by
    rw [List.mem_singleton] at hmem; subst hmem
    exact Finset.mem_image.mpr ⟨5, Finset.mem_univ _, rfl⟩)

set_option backward.isDefEq.respectTransparency.types false in
/-- The held buffers at `V7` are pipeline 2's arrays at its entry contents and the rest. -/
theorem hsplit2 (c : Dev nD) : (StableHlo.held (c : Thread nD τ) (Pipeline.ucRefs τ sig) (Gen.V7 m (outs m) c) : sProp 𝕄)
    ⊢ iprop((pdats m 2 c).arrays ((pdats m 2 c).arrAt · 0)
        ∗ Pipeline.unscopedRest (Ix := Unit) (Name := ℕ) (U := UR sig nD τ) (Lvl := ℕ) spec2 c (fun b => Gen.V7 m (outs m) c b)) := by
  have h := Pipeline.arrays_of_unscopedBufs (p := 2) (pcfgs (F := F)) Gen.adm (pdats m) launch2.win launch2.arr_whole c
    ((pdats m 2 c).share_full fun w => q_eq2 (fun c b => Gen.V7 m (outs m) c b) c w) (fun b => Gen.V7 m (outs m) c b)
    fun w => A_eq2 (fun c b => Gen.V7 m (outs m) c b) c w
  rw [Pipeline.unscopedBufs_held] at h
  exact h

set_option backward.isDefEq.respectTransparency.types false in
/-- Its arrays at what it leaves and the rest are the held buffers at `V8`. -/
theorem hjoin2 (c : Dev nD) : iprop((pdats m 2 c).arrays ((pdats m 2 c).arrAt · cfg2.N)
      ∗ Pipeline.unscopedRest (Ix := Unit) (Name := ℕ) (U := UR sig nD τ) (Lvl := ℕ) spec2 c (fun b => Gen.V7 m (outs m) c b))
    ⊢ (StableHlo.held (c : Thread nD τ) (Pipeline.ucRefs τ sig) (Gen.V8 m (outs m) c) : sProp 𝕄) := by
  have h := Pipeline.unscopedBufs_of_arrays (p := 2) (pcfgs (F := F)) Gen.adm (Ix := Unit) (Name := ℕ) (U := UR sig nD τ) (Lvl := ℕ)
    launch2.win launch2.arr_whole c (pdats m) ((pdats m 2 c).share_full fun w => q_eq2 (fun c b => Gen.V7 m (outs m) c b) c w)
    (fun b => Gen.V7 m (outs m) c b) (fun b => Gen.V8 m (outs m) c b) ((pdats m 2 c).arrAt · cfg2.N) (hF2 m c) (hrest2 m c)
  rw [Pipeline.unscopedBufs_held] at h
  exact h

set_option backward.isDefEq.respectTransparency.types false in
/-- REGION 2 over the thread state. -/
def reg2 : Pipeline.RegionSeg (pcfgs (F := F)) Gen.adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (fun c b => Gen.V7 m (outs m) c b) c).loose
  hwaits := Pipeline.hwaits_of_owed_zero _ _ _ _ L lv 2 fun c t => owed_eq2 (fun c b => Gen.V7 m (outs m) c b) c t
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V7 m (outs m) c b)
  hentry c := entry_of c (hsplit2 m c)
    (by unfold Pipeline.prefHeld; rw [show (Finset.univ : Finset (Fin 0)) = ∅ from rfl, BI.bigSep_empty] <;> exact .rfl)
    (owesAt_in (pdats m 2 c) 0 (owed_eq2 (fun c b => Gen.V7 m (outs m) c b) c _) (recorded_eq2 (fun c b => Gen.V7 m (outs m) c b) c _))
  hin c := hin_of spec2 c (hin2 (fun c b => Gen.V7 m (outs m) c b) c)
  hout c := hout_of spec2 c (hout2 (fun c b => Gen.V7 m (outs m) c b) c)
  hexit c := exit_of c (hjoin2 m c) (owesAt_out (pdats m 2 c) _ (owed_eq2 (fun c b => Gen.V7 m (outs m) c b) c _))

end Cert.KernelIdeal.Run

end
-- ==== Proof.KI.RunR3.lean ====
import proofs.«422700_j84035330113950_1_alg».proof.Proof.KI.RunBase

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 3 (item 9): entered at `V9`, left at `V10` -/

/-- What the last stage holds at item 10 for each array of pipeline 3: what the pipeline leaves there. -/
theorem outs3_arr (c : Dev nD) (w : Fin cfg3.W) :
    outs m 10 (Pipeline.arrRef spec3 w) c = (dat3 (fun c b => Gen.V9 m (outs m) c b) c).arrAt w cfg3.N :=
  (congrFun (congrFun (outs_o4 m (J := 10) (by decide)) _) c).trans ((o4_at m _ c).trans
    ((Pipeline.withArrays_arr spec3 launch3.win.arr_inj c _ _ w).trans
      (congrArg (fun V => (dat3 V c).arrAt w cfg3.N) (outs_3 m)).symm))

/-- The exit valuation at the output's array. -/
theorem V10_at (o : Gen.Outs (F := F)) (c : Dev nD) : Gen.V10 m o c main_v67 = o 10 main_v67 c := by
  simp only [Gen.V10, Function.update_self]

/-- At the exit each array of the pipeline holds what the pipeline leaves: an input what it held, the output the
    unknown of item 10. One lemma per window. -/
theorem hF3_0 (c : Dev nD) : (dat3 (fun c b => Gen.V9 m (outs m) c b) c).arrAt 0 cfg3.N = Gen.V10 m (outs m) c (Pipeline.arrRef spec3 0) :=
  (arrAt_in_eq _ 0 rfl (A_eq3 (fun c b => Gen.V9 m (outs m) c b) c 0)).trans (Gen.V10_of m (outs m) c (Pipeline.arrRef spec3 0) (by decide)).symm
theorem hF3_1 (c : Dev nD) : (dat3 (fun c b => Gen.V9 m (outs m) c b) c).arrAt 1 cfg3.N = Gen.V10 m (outs m) c (Pipeline.arrRef spec3 1) :=
  (arrAt_in_eq _ 1 rfl (A_eq3 (fun c b => Gen.V9 m (outs m) c b) c 1)).trans (Gen.V10_of m (outs m) c (Pipeline.arrRef spec3 1) (by decide)).symm
theorem hF3_2 (c : Dev nD) : (dat3 (fun c b => Gen.V9 m (outs m) c b) c).arrAt 2 cfg3.N = Gen.V10 m (outs m) c (Pipeline.arrRef spec3 2) :=
  (outs3_arr m c 2).symm.trans (V10_at m (outs m) c).symm
theorem hF3 (c : Dev nD) : ∀ w : Fin cfg3.W,
    (dat3 (fun c b => Gen.V9 m (outs m) c b) c).arrAt w cfg3.N = Gen.V10 m (outs m) c (Pipeline.arrRef spec3 w)
  | ⟨0, _⟩ => hF3_0 m c
  | ⟨1, _⟩ => hF3_1 m c
  | ⟨2, _⟩ => hF3_2 m c

/-- Every other buffer is as entered. -/
theorem hrest3 (c : Dev nD) (b : Ref sig .tc) (hb : b ∉ Finset.univ.image (Pipeline.arrRef spec3)) :
    Gen.V10 m (outs m) c b = Gen.V9 m (outs m) c b :=
  Gen.V10_of m (outs m) c b fun hmem => hb (by
    rw [List.mem_singleton] at hmem; subst hmem
    exact Finset.mem_image.mpr ⟨2, Finset.mem_univ _, rfl⟩)

set_option backward.isDefEq.respectTransparency.types false in
/-- The held buffers at `V9` are pipeline 3's arrays at its entry contents and the rest. -/
theorem hsplit3 (c : Dev nD) : (StableHlo.held (c : Thread nD τ) (Pipeline.ucRefs τ sig) (Gen.V9 m (outs m) c) : sProp 𝕄)
    ⊢ iprop((pdats m 3 c).arrays ((pdats m 3 c).arrAt · 0)
        ∗ Pipeline.unscopedRest (Ix := Unit) (Name := ℕ) (U := UR sig nD τ) (Lvl := ℕ) spec3 c (fun b => Gen.V9 m (outs m) c b)) := by
  have h := Pipeline.arrays_of_unscopedBufs (p := 3) (pcfgs (F := F)) Gen.adm (pdats m) launch3.win launch3.arr_whole c
    ((pdats m 3 c).share_full fun w => q_eq3 (fun c b => Gen.V9 m (outs m) c b) c w) (fun b => Gen.V9 m (outs m) c b)
    fun w => A_eq3 (fun c b => Gen.V9 m (outs m) c b) c w
  rw [Pipeline.unscopedBufs_held] at h
  exact h

set_option backward.isDefEq.respectTransparency.types false in
/-- Its arrays at what it leaves and the rest are the held buffers at `V10`. -/
theorem hjoin3 (c : Dev nD) : iprop((pdats m 3 c).arrays ((pdats m 3 c).arrAt · cfg3.N)
      ∗ Pipeline.unscopedRest (Ix := Unit) (Name := ℕ) (U := UR sig nD τ) (Lvl := ℕ) spec3 c (fun b => Gen.V9 m (outs m) c b))
    ⊢ (StableHlo.held (c : Thread nD τ) (Pipeline.ucRefs τ sig) (Gen.V10 m (outs m) c) : sProp 𝕄) := by
  have h := Pipeline.unscopedBufs_of_arrays (p := 3) (pcfgs (F := F)) Gen.adm (Ix := Unit) (Name := ℕ) (U := UR sig nD τ) (Lvl := ℕ)
    launch3.win launch3.arr_whole c (pdats m) ((pdats m 3 c).share_full fun w => q_eq3 (fun c b => Gen.V9 m (outs m) c b) c w)
    (fun b => Gen.V9 m (outs m) c b) (fun b => Gen.V10 m (outs m) c b) ((pdats m 3 c).arrAt · cfg3.N) (hF3 m c) (hrest3 m c)
  rw [Pipeline.unscopedBufs_held] at h
  exact h

set_option backward.isDefEq.respectTransparency.types false in
/-- REGION 3 over the thread state. -/
def reg3 : Pipeline.RegionSeg (pcfgs (F := F)) Gen.adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (fun c b => Gen.V9 m (outs m) c b) c).loose
  hwaits := Pipeline.hwaits_of_owed_zero _ _ _ _ L lv 3 fun c t => owed_eq3 (fun c b => Gen.V9 m (outs m) c b) c t
  pre c := iprop(StableHlo.held (c : Thread nD τ) (Pipeline.ucRefs τ sig) (Gen.V9 m (outs m) c) ∗ R c)
  post c := iprop(StableHlo.held (c : Thread nD τ) (Pipeline.ucRefs τ sig) (Gen.V10 m (outs m) c) ∗ R c)
  X c := iprop(∃ r, prngReg c r)
  Y c := iprop(∃ r, prngReg c r)
  Z c := Pipeline.unscopedRest (Ix := Unit) (Name := ℕ) (U := UR sig nD τ) (Lvl := ℕ) spec3 c (fun b => Gen.V9 m (outs m) c b)
  hentry c := entry_of c (hsplit3 m c)
    (by unfold Pipeline.prefHeld; rw [show (Finset.univ : Finset (Fin 0)) = ∅ from rfl, BI.bigSep_empty] <;> exact .rfl)
    (owesAt_in (pdats m 3 c) 0 (owed_eq3 (fun c b => Gen.V9 m (outs m) c b) c _) (recorded_eq3 (fun c b => Gen.V9 m (outs m) c b) c _))
  hin c := hin_of spec3 c (hin3 (fun c b => Gen.V9 m (outs m) c b) c)
  hout c := hout_of spec3 c (hout3 (fun c b => Gen.V9 m (outs m) c b) c)
  hexit c := exit_of c (hjoin3 m c) (owesAt_out (pdats m 3 c) _ (owed_eq3 (fun c b => Gen.V9 m (outs m) c b) c _))

end Cert.KernelIdeal.Run

end
-- ==== Proof.KI.RunR4.lean ====
import proofs.«422700_j84035330113950_1_alg».proof.Proof.KI.RunBase

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 4 (item 13): entered at `V13`, left at `V14` -/

/-- What the last stage holds at item 14 for each array of pipeline 4: what the pipeline leaves there. -/
theorem outs4_arr (c : Dev nD) (w : Fin cfg4.W) :
    outs m 14 (Pipeline.arrRef spec4 w) c = (dat4 (fun c b => Gen.V13 m (outs m) c b) c).arrAt w cfg4.N :=
  (congrFun (congrFun (outs_o5 m (J := 14) (by decide)) _) c).trans ((o5_at m _ c).trans
    ((Pipeline.withArrays_arr spec4 launch4.win.arr_inj c _ _ w).trans
      (congrArg (fun V => (dat4 V c).arrAt w cfg4.N) (outs_4 m)).symm))

/-- The exit valuation at the three outputs' arrays. -/
theorem V14_at0 (o : Gen.Outs (F := F)) (c : Dev nD) : Gen.V14 m o c main_v91_0 = o 14 main_v91_0 c := by
  simp only [Gen.V14, Function.update_self,
    Function.update_of_ne (StableHlo.devRef_ne_of_ne (by decide) : (Proc.devRef .tc main_v91_0 : DevRef τ sig) ≠ Proc.devRef .tc main_v91_1),
    Function.update_of_ne (StableHlo.devRef_ne_of_ne (by decide) : (Proc.devRef .tc main_v91_0 : DevRef τ sig) ≠ Proc.devRef .tc main_v91_2)]
theorem V14_at1 (o : Gen.Outs (F := F)) (c : Dev nD) : Gen.V14 m o c main_v91_1 = o 14 main_v91_1 c := by
  simp only [Gen.V14, Function.update_self,
    Function.update_of_ne (StableHlo.devRef_ne_of_ne (by decide) : (Proc.devRef .tc main_v91_1 : DevRef τ sig) ≠ Proc.devRef .tc main_v91_2)]
theorem V14_at2 (o : Gen.Outs (F := F)) (c : Dev nD) : Gen.V14 m o c main_v91_2 = o 14 main_v91_2 c := by
  simp only [Gen.V14, Function.update_self]

/-- At the exit each array of the pipeline holds what the pipeline leaves: an input what it held, an output the
    unknown of item 14. One lemma per window. -/
theorem hF4_0 (c : Dev nD) : (dat4 (fun c b => Gen.V13 m (outs m) c b) c).arrAt 0 cfg4.N = Gen.V14 m (outs m) c (Pipeline.arrRef spec4 0) :=
  (arrAt_in_eq _ 0 rfl (A_eq4 (fun c b => Gen.V13 m (outs m) c b) c 0)).trans (Gen.V14_of m (outs m) c (Pipeline.arrRef spec4 0) (by decide)).symm
theorem hF4_1 (c : Dev nD) : (dat4 (fun c b => Gen.V13 m (outs m) c b) c).arrAt 1 cfg4.N = Gen.V14 m (outs m) c (Pipeline.arrRef spec4 1) :=
  (arrAt_in_eq _ 1 rfl (A_eq4 (fun c b => Gen.V13 m (outs m) c b) c 1)).trans (Gen.V14_of m (outs m) c (Pipeline.arrRef spec4 1) (by decide)).symm
theorem hF4_2 (c : Dev nD) : (dat4 (fun c b => Gen.V13 m (outs m) c b) c).arrAt 2 cfg4.N = Gen.V14 m (outs m) c (Pipeline.arrRef spec4 2) :=
  (arrAt_in_eq _ 2 rfl (A_eq4 (fun c b => Gen.V13 m (outs m) c b) c 2)).trans (Gen.V14_of m (outs m) c (Pipeline.arrRef spec4 2) (by decide)).symm
theorem hF4_3 (c : Dev nD) : (dat4 (fun c b => Gen.V13 m (outs m) c b) c).arrAt 3 cfg4.N = Gen.V14 m (outs m) c (Pipeline.arrRef spec4 3) :=
  (arrAt_in_eq _ 3 rfl (A_eq4 (fun c b => Gen.V13 m (outs m) c b) c 3)).trans (Gen.V14_of m (outs m) c (Pipeline.arrRef spec4 3) (by decide)).symm
theorem hF4_4 (c : Dev nD) : (dat4 (fun c b => Gen.V13 m (outs m) c b) c).arrAt 4 cfg4.N = Gen.V14 m (outs m) c (Pipeline.arrRef spec4 4) :=
  (outs4_arr m c 4).symm.trans (V14_at0 m (outs m) c).symm
theorem hF4_5 (c : Dev nD) : (dat4 (fun c b => Gen.V13 m (outs m) c b) c).arrAt 5 cfg4.N = Gen.V14 m (outs m) c (Pipeline.arrRef spec4 5) :=
  (outs4_arr m c 5).symm.trans (V14_at1 m (outs m) c).symm
theorem hF4_6 (c : Dev nD) : (dat4 (fun c b => Gen.V13 m (outs m) c b) c).arrAt 6 cfg4.N = Gen.V14 m (outs m) c (Pipeline.arrRef spec4 6) :=
  (outs4_arr m c 6).symm.trans (V14_at2 m (outs m) c).symm
theorem hF4 (c : Dev nD) : ∀ w : Fin cfg4.W,
    (dat4 (fun c b => Gen.V13 m (outs m) c b) c).arrAt w cfg4.N = Gen.V14 m (outs m) c (Pipeline.arrRef spec4 w)
  | ⟨0, _⟩ => hF4_0 m c
  | ⟨1, _⟩ => hF4_1 m c
  | ⟨2, _⟩ => hF4_2 m c
  | ⟨3, _⟩ => hF4_3 m c
  | ⟨4, _⟩ => hF4_4 m c
  | ⟨5, _⟩ => hF4_5 m c
  | ⟨6, _⟩ => hF4_6 m c

/-- Every other buffer is as entered. -/
theorem hrest4 (c : Dev nD) (b : Ref sig .tc) (hb : b ∉ Finset.univ.image (Pipeline.arrRef spec4)) :
    Gen.V14 m (outs m) c b = Gen.V13 m (outs m) c b :=
  Gen.V14_of m (outs m) c b fun hmem => hb (by
    simp only [List.mem_cons, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)

set_option backward.isDefEq.respectTransparency.types false in
/-- The held buffers at `V13` are pipeline 4's arrays at its entry contents and the rest. -/
theorem hsplit4 (c : Dev nD) : (StableHlo.held (c : Thread nD τ) (Pipeline.ucRefs τ sig) (Gen.V13 m (outs m) c) : sProp 𝕄)
    ⊢ iprop((pdats m 4 c).arrays ((pdats m 4 c).arrAt · 0)
        ∗ Pipeline.unscopedRest (Ix := Unit) (Name := ℕ) (U := UR sig nD τ) (Lvl := ℕ) spec4 c (fun b => Gen.V13 m (outs m) c b)) := by
  have h := Pipeline.arrays_of_unscopedBufs (p := 4) (pcfgs (F := F)) Gen.adm (pdats m) launch4.win launch4.arr_whole c
    ((pdats m 4 c).share_full fun w => q_eq4 (fun c b => Gen.V13 m (outs m) c b) c w) (fun b => Gen.V13 m (outs m) c b)
    fun w => A_eq4 (fun c b => Gen.V13 m (outs m) c b) c w
  rw [Pipeline.unscopedBufs_held] at h
  exact h

set_option backward.isDefEq.respectTransparency.types false in
/-- Its arrays at what it leaves and the rest are the held buffers at `V14`. -/
theorem hjoin4 (c : Dev nD) : iprop((pdats m 4 c).arrays ((pdats m 4 c).arrAt · cfg4.N)
      ∗ Pipeline.unscopedRest (Ix := Unit) (Name := ℕ) (U := UR sig nD τ) (Lvl := ℕ) spec4 c (fun b => Gen.V13 m (outs m) c b))
    ⊢ (StableHlo.held (c : Thread nD τ) (Pipeline.ucRefs τ sig) (Gen.V14 m (outs m) c) : sProp 𝕄) := by
  have h := Pipeline.unscopedBufs_of_arrays (p := 4) (pcfgs (F := F)) Gen.adm (Ix := Unit) (Name := ℕ) (U := UR sig nD τ) (Lvl := ℕ)
    launch4.win launch4.arr_whole c (pdats m) ((pdats m 4 c).share_full fun w => q_eq4 (fun c b => Gen.V13 m (outs m) c b) c w)
    (fun b => Gen.V13 m (outs m) c b) (fun b => Gen.V14 m (outs m) c b) ((pdats m 4 c).arrAt · cfg4.N) (hF4 m c) (hrest4 m c)
  rw [Pipeline.unscopedBufs_held] at h
  exact h

set_option backward.isDefEq.respectTransparency.types false in
/-- REGION 4 over the thread state. -/
def reg4 : Pipeline.RegionSeg (pcfgs (F := F)) Gen.adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (fun c b => Gen.V13 m (outs m) c b) c).loose
  hwaits := Pipeline.hwaits_of_owed_zero _ _ _ _ L lv 4 fun c t => owed_eq4 (fun c b => Gen.V13 m (outs m) c b) c t
  pre c := iprop(StableHlo.held (c : Thread nD τ) (Pipeline.ucRefs τ sig) (Gen.V13 m (outs m) c) ∗ R c)
  post c := iprop(StableHlo.held (c : Thread nD τ) (Pipeline.ucRefs τ sig) (Gen.V14 m (outs m) c) ∗ R c)
  X c := iprop(∃ r, prngReg c r)
  Y c := iprop(∃ r, prngReg c r)
  Z c := Pipeline.unscopedRest (Ix := Unit) (Name := ℕ) (U := UR sig nD τ) (Lvl := ℕ) spec4 c (fun b => Gen.V13 m (outs m) c b)
  hentry c := entry_of c (hsplit4 m c)
    (by unfold Pipeline.prefHeld; rw [show (Finset.univ : Finset (Fin 0)) = ∅ from rfl, BI.bigSep_empty] <;> exact .rfl)
    (owesAt_in (pdats m 4 c) 0 (owed_eq4 (fun c b => Gen.V13 m (outs m) c b) c _) (recorded_eq4 (fun c b => Gen.V13 m (outs m) c b) c _))
  hin c := hin_of spec4 c (hin4 (fun c b => Gen.V13 m (outs m) c b) c)
  hout c := hout_of spec4 c (hout4 (fun c b => Gen.V13 m (outs m) c b) c)
  hexit c := exit_of c (hjoin4 m c) (owesAt_out (pdats m 4 c) _ (owed_eq4 (fun c b => Gen.V13 m (outs m) c b) c _))

end Cert.KernelIdeal.Run

end
-- ==== Proof.KI.RunR5.lean ====
import proofs.«422700_j84035330113950_1_alg».proof.Proof.KI.RunBase

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 5 (item 15): entered at `V15`, left at `V16` -/

/-- What the last stage holds at item 16 for each array of pipeline 5: what the pipeline leaves there. -/
theorem outs5_arr (c : Dev nD) (w : Fin cfg5.W) :
    outs m 16 (Pipeline.arrRef spec5 w) c = (dat5 (fun c b => Gen.V15 m (outs m) c b) c).arrAt w cfg5.N :=
  (congrFun (congrFun (outs_o6 m (J := 16) (by decide)) _) c).trans ((o6_at m _ c).trans
    ((Pipeline.withArrays_arr spec5 launch5.win.arr_inj c _ _ w).trans
      (congrArg (fun V => (dat5 V c).arrAt w cfg5.N) (outs_5 m)).symm))

/-- The exit valuation at the output's array. -/
theorem V16_at (o : Gen.Outs (F := F)) (c : Dev nD) : Gen.V16 m o c main_v104 = o 16 main_v104 c := by
  simp only [Gen.V16, Function.update_self]

/-- At the exit each array of the pipeline holds what the pipeline leaves: an input what it held, the output the
    unknown of item 16. One lemma per window. -/
theorem hF5_0 (c : Dev nD) : (dat5 (fun c b => Gen.V15 m (outs m) c b) c).arrAt 0 cfg5.N = Gen.V16 m (outs m) c (Pipeline.arrRef spec5 0) :=
  (arrAt_in_eq _ 0 rfl (A_eq5 (fun c b => Gen.V15 m (outs m) c b) c 0)).trans (Gen.V16_of m (outs m) c (Pipeline.arrRef spec5 0) (by decide)).symm
theorem hF5_1 (c : Dev nD) : (dat5 (fun c b => Gen.V15 m (outs m) c b) c).arrAt 1 cfg5.N = Gen.V16 m (outs m) c (Pipeline.arrRef spec5 1) :=
  (arrAt_in_eq _ 1 rfl (A_eq5 (fun c b => Gen.V15 m (outs m) c b) c 1)).trans (Gen.V16_of m (outs m) c (Pipeline.arrRef spec5 1) (by decide)).symm
theorem hF5_2 (c : Dev nD) : (dat5 (fun c b => Gen.V15 m (outs m) c b) c).arrAt 2 cfg5.N = Gen.V16 m (outs m) c (Pipeline.arrRef spec5 2) :=
  (arrAt_in_eq _ 2 rfl (A_eq5 (fun c b => Gen.V15 m (outs m) c b) c 2)).trans (Gen.V16_of m (outs m) c (Pipeline.arrRef spec5 2) (by decide)).symm
theorem hF5_3 (c : Dev nD) : (dat5 (fun c b => Gen.V15 m (outs m) c b) c).arrAt 3 cfg5.N = Gen.V16 m (outs m) c (Pipeline.arrRef spec5 3) :=
  (arrAt_in_eq _ 3 rfl (A_eq5 (fun c b => Gen.V15 m (outs m) c b) c 3)).trans (Gen.V16_of m (outs m) c (Pipeline.arrRef spec5 3) (by decide)).symm
theorem hF5_4 (c : Dev nD) : (dat5 (fun c b => Gen.V15 m (outs m) c b) c).arrAt 4 cfg5.N = Gen.V16 m (outs m) c (Pipeline.arrRef spec5 4) :=
  (arrAt_in_eq _ 4 rfl (A_eq5 (fun c b => Gen.V15 m (outs m) c b) c 4)).trans (Gen.V16_of m (outs m) c (Pipeline.arrRef spec5 4) (by decide)).symm
theorem hF5_5 (c : Dev nD) : (dat5 (fun c b => Gen.V15 m (outs m) c b) c).arrAt 5 cfg5.N = Gen.V16 m (outs m) c (Pipeline.arrRef spec5 5) :=
  (outs5_arr m c 5).symm.trans (V16_at m (outs m) c).symm
theorem hF5 (c : Dev nD) : ∀ w : Fin cfg5.W,
    (dat5 (fun c b => Gen.V15 m (outs m) c b) c).arrAt w cfg5.N = Gen.V16 m (outs m) c (Pipeline.arrRef spec5 w)
  | ⟨0, _⟩ => hF5_0 m c
  | ⟨1, _⟩ => hF5_1 m c
  | ⟨2, _⟩ => hF5_2 m c
  | ⟨3, _⟩ => hF5_3 m c
  | ⟨4, _⟩ => hF5_4 m c
  | ⟨5, _⟩ => hF5_5 m c

/-- Every other buffer is as entered. -/
theorem hrest5 (c : Dev nD) (b : Ref sig .tc) (hb : b ∉ Finset.univ.image (Pipeline.arrRef spec5)) :
    Gen.V16 m (outs m) c b = Gen.V15 m (outs m) c b :=
  Gen.V16_of m (outs m) c b fun hmem => hb (by
    rw [List.mem_singleton] at hmem; subst hmem
    exact Finset.mem_image.mpr ⟨5, Finset.mem_univ _, rfl⟩)

set_option backward.isDefEq.respectTransparency.types false in
/-- The held buffers at `V15` are pipeline 5's arrays at its entry contents and the rest. -/
theorem hsplit5 (c : Dev nD) : (StableHlo.held (c : Thread nD τ) (Pipeline.ucRefs τ sig) (Gen.V15 m (outs m) c) : sProp 𝕄)
    ⊢ iprop((pdats m 5 c).arrays ((pdats m 5 c).arrAt · 0)
        ∗ Pipeline.unscopedRest (Ix := Unit) (Name := ℕ) (U := UR sig nD τ) (Lvl := ℕ) spec5 c (fun b => Gen.V15 m (outs m) c b)) := by
  have h := Pipeline.arrays_of_unscopedBufs (p := 5) (pcfgs (F := F)) Gen.adm (pdats m) launch5.win launch5.arr_whole c
    ((pdats m 5 c).share_full fun w => q_eq5 (fun c b => Gen.V15 m (outs m) c b) c w) (fun b => Gen.V15 m (outs m) c b)
    fun w => A_eq5 (fun c b => Gen.V15 m (outs m) c b) c w
  rw [Pipeline.unscopedBufs_held] at h
  exact h

set_option backward.isDefEq.respectTransparency.types false in
/-- Its arrays at what it leaves and the rest are the held buffers at `V16`. -/
theorem hjoin5 (c : Dev nD) : iprop((pdats m 5 c).arrays ((pdats m 5 c).arrAt · cfg5.N)
      ∗ Pipeline.unscopedRest (Ix := Unit) (Name := ℕ) (U := UR sig nD τ) (Lvl := ℕ) spec5 c (fun b => Gen.V15 m (outs m) c b))
    ⊢ (StableHlo.held (c : Thread nD τ) (Pipeline.ucRefs τ sig) (Gen.V16 m (outs m) c) : sProp 𝕄) := by
  have h := Pipeline.unscopedBufs_of_arrays (p := 5) (pcfgs (F := F)) Gen.adm (Ix := Unit) (Name := ℕ) (U := UR sig nD τ) (Lvl := ℕ)
    launch5.win launch5.arr_whole c (pdats m) ((pdats m 5 c).share_full fun w => q_eq5 (fun c b => Gen.V15 m (outs m) c b) c w)
    (fun b => Gen.V15 m (outs m) c b) (fun b => Gen.V16 m (outs m) c b) ((pdats m 5 c).arrAt · cfg5.N) (hF5 m c) (hrest5 m c)
  rw [Pipeline.unscopedBufs_held] at h
  exact h

set_option backward.isDefEq.respectTransparency.types false in
/-- REGION 5 over the thread state. -/
def reg5 : Pipeline.RegionSeg (pcfgs (F := F)) Gen.adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (fun c b => Gen.V15 m (outs m) c b) c).loose
  hwaits := Pipeline.hwaits_of_owed_zero _ _ _ _ L lv 5 fun c t => owed_eq5 (fun c b => Gen.V15 m (outs m) c b) c t
  pre c := iprop(StableHlo.held (c : Thread nD τ) (Pipeline.ucRefs τ sig) (Gen.V15 m (outs m) c) ∗ R c)
  post c := iprop(StableHlo.held (c : Thread nD τ) (Pipeline.ucRefs τ sig) (Gen.V16 m (outs m) c) ∗ R c)
  X c := iprop(∃ r, prngReg c r)
  Y c := iprop(∃ r, prngReg c r)
  Z c := Pipeline.unscopedRest (Ix := Unit) (Name := ℕ) (U := UR sig nD τ) (Lvl := ℕ) spec5 c (fun b => Gen.V15 m (outs m) c b)
  hentry c := entry_of c (hsplit5 m c)
    (by unfold Pipeline.prefHeld; rw [show (Finset.univ : Finset (Fin 0)) = ∅ from rfl, BI.bigSep_empty] <;> exact .rfl)
    (owesAt_in (pdats m 5 c) 0 (owed_eq5 (fun c b => Gen.V15 m (outs m) c b) c _) (recorded_eq5 (fun c b => Gen.V15 m (outs m) c b) c _))
  hin c := hin_of spec5 c (hin5 (fun c b => Gen.V15 m (outs m) c b) c)
  hout c := hout_of spec5 c (hout5 (fun c b => Gen.V15 m (outs m) c b) c)
  hexit c := exit_of c (hjoin5 m c) (owesAt_out (pdats m 5 c) _ (owed_eq5 (fun c b => Gen.V15 m (outs m) c b) c _))

end Cert.KernelIdeal.Run

end
-- ==== Proof.KI.RunR6.lean ====
import proofs.«422700_j84035330113950_1_alg».proof.Proof.KI.RunBase

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 6 (item 17): entered at `V17`, left at `V18` -/

/-- What the last stage holds at item 18 for each array of pipeline 6: what the pipeline leaves there. -/
theorem outs6_arr (c : Dev nD) (w : Fin cfg6.W) :
    outs m 18 (Pipeline.arrRef spec6 w) c = (dat6 (fun c b => Gen.V17 m (outs m) c b) c).arrAt w cfg6.N :=
  (congrFun (congrFun (outs_o7 m (J := 18) (by decide)) _) c).trans ((o7_at m _ c).trans
    ((Pipeline.withArrays_arr spec6 launch6.win.arr_inj c _ _ w).trans
      (congrArg (fun V => (dat6 V c).arrAt w cfg6.N) (outs_6 m)).symm))

/-- The exit valuation at the output's array. -/
theorem V18_at (o : Gen.Outs (F := F)) (c : Dev nD) : Gen.V18 m o c main_v109 = o 18 main_v109 c := by
  simp only [Gen.V18, Function.update_self]

/-- At the exit each array of the pipeline holds what the pipeline leaves: an input what it held, the output the
    unknown of item 18. One lemma per window. -/
theorem hF6_0 (c : Dev nD) : (dat6 (fun c b => Gen.V17 m (outs m) c b) c).arrAt 0 cfg6.N = Gen.V18 m (outs m) c (Pipeline.arrRef spec6 0) :=
  (arrAt_in_eq _ 0 rfl (A_eq6 (fun c b => Gen.V17 m (outs m) c b) c 0)).trans (Gen.V18_of m (outs m) c (Pipeline.arrRef spec6 0) (by decide)).symm
theorem hF6_1 (c : Dev nD) : (dat6 (fun c b => Gen.V17 m (outs m) c b) c).arrAt 1 cfg6.N = Gen.V18 m (outs m) c (Pipeline.arrRef spec6 1) :=
  (arrAt_in_eq _ 1 rfl (A_eq6 (fun c b => Gen.V17 m (outs m) c b) c 1)).trans (Gen.V18_of m (outs m) c (Pipeline.arrRef spec6 1) (by decide)).symm
theorem hF6_2 (c : Dev nD) : (dat6 (fun c b => Gen.V17 m (outs m) c b) c).arrAt 2 cfg6.N = Gen.V18 m (outs m) c (Pipeline.arrRef spec6 2) :=
  (outs6_arr m c 2).symm.trans (V18_at m (outs m) c).symm
theorem hF6 (c : Dev nD) : ∀ w : Fin cfg6.W,
    (dat6 (fun c b => Gen.V17 m (outs m) c b) c).arrAt w cfg6.N = Gen.V18 m (outs m) c (Pipeline.arrRef spec6 w)
  | ⟨0, _⟩ => hF6_0 m c
  | ⟨1, _⟩ => hF6_1 m c
  | ⟨2, _⟩ => hF6_2 m c

/-- Every other buffer is as entered. -/
theorem hrest6 (c : Dev nD) (b : Ref sig .tc) (hb : b ∉ Finset.univ.image (Pipeline.arrRef spec6)) :
    Gen.V18 m (outs m) c b = Gen.V17 m (outs m) c b :=
  Gen.V18_of m (outs m) c b fun hmem => hb (by
    rw [List.mem_singleton] at hmem; subst hmem
    exact Finset.mem_image.mpr ⟨2, Finset.mem_univ _, rfl⟩)

set_option backward.isDefEq.respectTransparency.types false in
/-- The held buffers at `V17` are pipeline 6's arrays at its entry contents and the rest. -/
theorem hsplit6 (c : Dev nD) : (StableHlo.held (c : Thread nD τ) (Pipeline.ucRefs τ sig) (Gen.V17 m (outs m) c) : sProp 𝕄)
    ⊢ iprop((pdats m 6 c).arrays ((pdats m 6 c).arrAt · 0)
        ∗ Pipeline.unscopedRest (Ix := Unit) (Name := ℕ) (U := UR sig nD τ) (Lvl := ℕ) spec6 c (fun b => Gen.V17 m (outs m) c b)) := by
  have h := Pipeline.arrays_of_unscopedBufs (p := 6) (pcfgs (F := F)) Gen.adm (pdats m) launch6.win launch6.arr_whole c
    ((pdats m 6 c).share_full fun w => q_eq6 (fun c b => Gen.V17 m (outs m) c b) c w) (fun b => Gen.V17 m (outs m) c b)
    fun w => A_eq6 (fun c b => Gen.V17 m (outs m) c b) c w
  rw [Pipeline.unscopedBufs_held] at h
  exact h

set_option backward.isDefEq.respectTransparency.types false in
/-- Its arrays at what it leaves and the rest are the held buffers at `V18`. -/
theorem hjoin6 (c : Dev nD) : iprop((pdats m 6 c).arrays ((pdats m 6 c).arrAt · cfg6.N)
      ∗ Pipeline.unscopedRest (Ix := Unit) (Name := ℕ) (U := UR sig nD τ) (Lvl := ℕ) spec6 c (fun b => Gen.V17 m (outs m) c b))
    ⊢ (StableHlo.held (c : Thread nD τ) (Pipeline.ucRefs τ sig) (Gen.V18 m (outs m) c) : sProp 𝕄) := by
  have h := Pipeline.unscopedBufs_of_arrays (p := 6) (pcfgs (F := F)) Gen.adm (Ix := Unit) (Name := ℕ) (U := UR sig nD τ) (Lvl := ℕ)
    launch6.win launch6.arr_whole c (pdats m) ((pdats m 6 c).share_full fun w => q_eq6 (fun c b => Gen.V17 m (outs m) c b) c w)
    (fun b => Gen.V17 m (outs m) c b) (fun b => Gen.V18 m (outs m) c b) ((pdats m 6 c).arrAt · cfg6.N) (hF6 m c) (hrest6 m c)
  rw [Pipeline.unscopedBufs_held] at h
  exact h

set_option backward.isDefEq.respectTransparency.types false in
/-- REGION 6 over the thread state. -/
def reg6 : Pipeline.RegionSeg (pcfgs (F := F)) Gen.adm (pdats m) () defs₀ Variants.none L lv 6 where
  win := launch6.win.to₀
  block_pos := launch6.block_pos
  stage_whole := launch6.stage_whole
  K := PEmpty
  osem k := k.elim
  ho := Pipeline.OwnSemFacts.none _
  hbody c := (body_obligation6 (fun c b => Gen.V17 m (outs m) c b) c).loose
  hwaits := Pipeline.hwaits_of_owed_zero _ _ _ _ L lv 6 fun c t => owed_eq6 (fun c b => Gen.V17 m (outs m) c b) c t
  pre c := iprop(StableHlo.held (c : Thread nD τ) (Pipeline.ucRefs τ sig) (Gen.V17 m (outs m) c) ∗ R c)
  post c := iprop(StableHlo.held (c : Thread nD τ) (Pipeline.ucRefs τ sig) (Gen.V18 m (outs m) c) ∗ R c)
  X c := iprop(∃ r, prngReg c r)
  Y c := iprop(∃ r, prngReg c r)
  Z c := Pipeline.unscopedRest (Ix := Unit) (Name := ℕ) (U := UR sig nD τ) (Lvl := ℕ) spec6 c (fun b => Gen.V17 m (outs m) c b)
  hentry c := entry_of c (hsplit6 m c)
    (by unfold Pipeline.prefHeld; rw [show (Finset.univ : Finset (Fin 0)) = ∅ from rfl, BI.bigSep_empty] <;> exact .rfl)
    (owesAt_in (pdats m 6 c) 0 (owed_eq6 (fun c b => Gen.V17 m (outs m) c b) c _) (recorded_eq6 (fun c b => Gen.V17 m (outs m) c b) c _))
  hin c := hin_of spec6 c (hin6 (fun c b => Gen.V17 m (outs m) c b) c)
  hout c := hout_of spec6 c (hout6 (fun c b => Gen.V17 m (outs m) c b) c)
  hexit c := exit_of c (hjoin6 m c) (owesAt_out (pdats m 6 c) _ (owed_eq6 (fun c b => Gen.V17 m (outs m) c b) c _))

end Cert.KernelIdeal.Run

end
-- ==== Proof.KI.RunR7.lean ====
import proofs.«422700_j84035330113950_1_alg».proof.Proof.KI.RunBase

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 7 (item 21): entered at `V21`, left at `V22` -/

/-- What the last stage holds at item 22 for each array of pipeline 7: what the pipeline leaves there. -/
theorem outs7_arr (c : Dev nD) (w : Fin cfg7.W) :
    outs m 22 (Pipeline.arrRef spec7 w) c = (dat7 (fun c b => Gen.V21 m (outs m) c b) c).arrAt w cfg7.N :=
  (congrFun (congrFun (outs_o8 m (J := 22) (by decide)) _) c).trans ((o8_at m _ c).trans
    ((Pipeline.withArrays_arr spec7 launch7.win.arr_inj c _ _ w).trans
      (congrArg (fun V => (dat7 V c).arrAt w cfg7.N) (outs_7 m)).symm))

/-- The exit valuation at the three outputs' arrays. -/
theorem V22_at0 (o : Gen.Outs (F := F)) (c : Dev nD) : Gen.V22 m o c main_v133_0 = o 22 main_v133_0 c := by
  simp only [Gen.V22, Function.update_self,
    Function.update_of_ne (StableHlo.devRef_ne_of_ne (by decide) : (Proc.devRef .tc main_v133_0 : DevRef τ sig) ≠ Proc.devRef .tc main_v133_1),
    Function.update_of_ne (StableHlo.devRef_ne_of_ne (by decide) : (Proc.devRef .tc main_v133_0 : DevRef τ sig) ≠ Proc.devRef .tc main_v133_2)]
theorem V22_at1 (o : Gen.Outs (F := F)) (c : Dev nD) : Gen.V22 m o c main_v133_1 = o 22 main_v133_1 c := by
  simp only [Gen.V22, Function.update_self,
    Function.update_of_ne (StableHlo.devRef_ne_of_ne (by decide) : (Proc.devRef .tc main_v133_1 : DevRef τ sig) ≠ Proc.devRef .tc main_v133_2)]
theorem V22_at2 (o : Gen.Outs (F := F)) (c : Dev nD) : Gen.V22 m o c main_v133_2 = o 22 main_v133_2 c := by
  simp only [Gen.V22, Function.update_self]

/-- At the exit each array of the pipeline holds what the pipeline leaves: an input what it held, an output the
    unknown of item 22. One lemma per window. -/
theorem hF7_0 (c : Dev nD) : (dat7 (fun c b => Gen.V21 m (outs m) c b) c).arrAt 0 cfg7.N = Gen.V22 m (outs m) c (Pipeline.arrRef spec7 0) :=
  (arrAt_in_eq _ 0 rfl (A_eq7 (fun c b => Gen.V21 m (outs m) c b) c 0)).trans (Gen.V22_of m (outs m) c (Pipeline.arrRef spec7 0) (by decide)).symm
theorem hF7_1 (c : Dev nD) : (dat7 (fun c b => Gen.V21 m (outs m) c b) c).arrAt 1 cfg7.N = Gen.V22 m (outs m) c (Pipeline.arrRef spec7 1) :=
  (arrAt_in_eq _ 1 rfl (A_eq7 (fun c b => Gen.V21 m (outs m) c b) c 1)).trans (Gen.V22_of m (outs m) c (Pipeline.arrRef spec7 1) (by decide)).symm
theorem hF7_2 (c : Dev nD) : (dat7 (fun c b => Gen.V21 m (outs m) c b) c).arrAt 2 cfg7.N = Gen.V22 m (outs m) c (Pipeline.arrRef spec7 2) :=
  (arrAt_in_eq _ 2 rfl (A_eq7 (fun c b => Gen.V21 m (outs m) c b) c 2)).trans (Gen.V22_of m (outs m) c (Pipeline.arrRef spec7 2) (by decide)).symm
theorem hF7_3 (c : Dev nD) : (dat7 (fun c b => Gen.V21 m (outs m) c b) c).arrAt 3 cfg7.N = Gen.V22 m (outs m) c (Pipeline.arrRef spec7 3) :=
  (arrAt_in_eq _ 3 rfl (A_eq7 (fun c b => Gen.V21 m (outs m) c b) c 3)).trans (Gen.V22_of m (outs m) c (Pipeline.arrRef spec7 3) (by decide)).symm
theorem hF7_4 (c : Dev nD) : (dat7 (fun c b => Gen.V21 m (outs m) c b) c).arrAt 4 cfg7.N = Gen.V22 m (outs m) c (Pipeline.arrRef spec7 4) :=
  (outs7_arr m c 4).symm.trans (V22_at0 m (outs m) c).symm
theorem hF7_5 (c : Dev nD) : (dat7 (fun c b => Gen.V21 m (outs m) c b) c).arrAt 5 cfg7.N = Gen.V22 m (outs m) c (Pipeline.arrRef spec7 5) :=
  (outs7_arr m c 5).symm.trans (V22_at1 m (outs m) c).symm
theorem hF7_6 (c : Dev nD) : (dat7 (fun c b => Gen.V21 m (outs m) c b) c).arrAt 6 cfg7.N = Gen.V22 m (outs m) c (Pipeline.arrRef spec7 6) :=
  (outs7_arr m c 6).symm.trans (V22_at2 m (outs m) c).symm
theorem hF7 (c : Dev nD) : ∀ w : Fin cfg7.W,
    (dat7 (fun c b => Gen.V21 m (outs m) c b) c).arrAt w cfg7.N = Gen.V22 m (outs m) c (Pipeline.arrRef spec7 w)
  | ⟨0, _⟩ => hF7_0 m c
  | ⟨1, _⟩ => hF7_1 m c
  | ⟨2, _⟩ => hF7_2 m c
  | ⟨3, _⟩ => hF7_3 m c
  | ⟨4, _⟩ => hF7_4 m c
  | ⟨5, _⟩ => hF7_5 m c
  | ⟨6, _⟩ => hF7_6 m c

/-- Every other buffer is as entered. -/
theorem hrest7 (c : Dev nD) (b : Ref sig .tc) (hb : b ∉ Finset.univ.image (Pipeline.arrRef spec7)) :
    Gen.V22 m (outs m) c b = Gen.V21 m (outs m) c b :=
  Gen.V22_of m (outs m) c b fun hmem => hb (by
    simp only [List.mem_cons, List.not_mem_nil, or_false] at hmem
    rcases hmem with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩)

set_option backward.isDefEq.respectTransparency.types false in
/-- The held buffers at `V21` are pipeline 7's arrays at its entry contents and the rest. -/
theorem hsplit7 (c : Dev nD) : (StableHlo.held (c : Thread nD τ) (Pipeline.ucRefs τ sig) (Gen.V21 m (outs m) c) : sProp 𝕄)
    ⊢ iprop((pdats m 7 c).arrays ((pdats m 7 c).arrAt · 0)
        ∗ Pipeline.unscopedRest (Ix := Unit) (Name := ℕ) (U := UR sig nD τ) (Lvl := ℕ) spec7 c (fun b => Gen.V21 m (outs m) c b)) := by
  have h := Pipeline.arrays_of_unscopedBufs (p := 7) (pcfgs (F := F)) Gen.adm (pdats m) launch7.win launch7.arr_whole c
    ((pdats m 7 c).share_full fun w => q_eq7 (fun c b => Gen.V21 m (outs m) c b) c w) (fun b => Gen.V21 m (outs m) c b)
    fun w => A_eq7 (fun c b => Gen.V21 m (outs m) c b) c w
  rw [Pipeline.unscopedBufs_held] at h
  exact h

set_option backward.isDefEq.respectTransparency.types false in
/-- Its arrays at what it leaves and the rest are the held buffers at `V22`. -/
theorem hjoin7 (c : Dev nD) : iprop((pdats m 7 c).arrays ((pdats m 7 c).arrAt · cfg7.N)
      ∗ Pipeline.unscopedRest (Ix := Unit) (Name := ℕ) (U := UR sig nD τ) (Lvl := ℕ) spec7 c (fun b => Gen.V21 m (outs m) c b))
    ⊢ (StableHlo.held (c : Thread nD τ) (Pipeline.ucRefs τ sig) (Gen.V22 m (outs m) c) : sProp 𝕄) := by
  have h := Pipeline.unscopedBufs_of_arrays (p := 7) (pcfgs (F := F)) Gen.adm (Ix := Unit) (Name := ℕ) (U := UR sig nD τ) (Lvl := ℕ)
    launch7.win launch7.arr_whole c (pdats m) ((pdats m 7 c).share_full fun w => q_eq7 (fun c b => Gen.V21 m (outs m) c b) c w)
    (fun b => Gen.V21 m (outs m) c b) (fun b => Gen.V22 m (outs m) c b) ((pdats m 7 c).arrAt · cfg7.N) (hF7 m c) (hrest7 m c)
  rw [Pipeline.unscopedBufs_held] at h
  exact h

set_option backward.isDefEq.respectTransparency.types false in
/-- REGION 7 over the thread state. -/
def reg7 : Pipeline.RegionSeg (pcfgs (F := F)) Gen.adm (pdats m) () defs₀ Variants.none L lv 7 where
  win := launch7.win.to₀
  block_pos := launch7.block_pos
  stage_whole := launch7.stage_whole
  K := PEmpty
  osem k := k.elim
  ho := Pipeline.OwnSemFacts.none _
  hbody c := (body_obligation7 (fun c b => Gen.V21 m (outs m) c b) c).loose
  hwaits := Pipeline.hwaits_of_owed_zero _ _ _ _ L lv 7 fun c t => owed_eq7 (fun c b => Gen.V21 m (outs m) c b) c t
  pre c := iprop(StableHlo.held (c : Thread nD τ) (Pipeline.ucRefs τ sig) (Gen.V21 m (outs m) c) ∗ R c)
  post c := iprop(StableHlo.held (c : Thread nD τ) (Pipeline.ucRefs τ sig) (Gen.V22 m (outs m) c) ∗ R c)
  X c := iprop(∃ r, prngReg c r)
  Y c := iprop(∃ r, prngReg c r)
  Z c := Pipeline.unscopedRest (Ix := Unit) (Name := ℕ) (U := UR sig nD τ) (Lvl := ℕ) spec7 c (fun b => Gen.V21 m (outs m) c b)
  hentry c := entry_of c (hsplit7 m c)
    (by unfold Pipeline.prefHeld; rw [show (Finset.univ : Finset (Fin 0)) = ∅ from rfl, BI.bigSep_empty] <;> exact .rfl)
    (owesAt_in (pdats m 7 c) 0 (owed_eq7 (fun c b => Gen.V21 m (outs m) c b) c _) (recorded_eq7 (fun c b => Gen.V21 m (outs m) c b) c _))
  hin c := hin_of spec7 c (hin7 (fun c b => Gen.V21 m (outs m) c b) c)
  hout c := hout_of spec7 c (hout7 (fun c b => Gen.V21 m (outs m) c b) c)
  hexit c := exit_of c (hjoin7 m c) (owesAt_out (pdats m 7 c) _ (owed_eq7 (fun c b => Gen.V21 m (outs m) c b) c _))

end Cert.KernelIdeal.Run

end
-- ==== Proof.KI.RunR8.lean ====
import proofs.«422700_j84035330113950_1_alg».proof.Proof.KI.RunBase

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # REGION 8 (item 23): entered at `V23`, left at `V24` -/

/-- The regions' outputs are the last stage. -/
theorem outs_o9 (J : ℕ) : outs m J = o9 m J := rfl

/-- What the last stage holds at item 24 for each array of pipeline 8: what the pipeline leaves there. -/
theorem outs8_arr (c : Dev nD) (w : Fin cfg8.W) :
    outs m 24 (Pipeline.arrRef spec8 w) c = (dat8 (fun c b => Gen.V23 m (outs m) c b) c).arrAt w cfg8.N :=
  (congrFun (congrFun (outs_o9 m 24) _) c).trans ((o9_at m _ c).trans
    ((Pipeline.withArrays_arr spec8 launch8.win.arr_inj c _ _ w).trans
      (congrArg (fun V => (dat8 V c).arrAt w cfg8.N) (outs_8 m)).symm))

/-- The exit valuation at the output's array. -/
theorem V24_at (o : Gen.Outs (F := F)) (c : Dev nD) : Gen.V24 m o c main_v146 = o 24 main_v146 c := by
  simp only [Gen.V24, Function.update_self]

/-- At the exit each array of the pipeline holds what the pipeline leaves: an input what it held, the output the
    unknown of item 24. One lemma per window. -/
theorem hF8_0 (c : Dev nD) : (dat8 (fun c b => Gen.V23 m (outs m) c b) c).arrAt 0 cfg8.N = Gen.V24 m (outs m) c (Pipeline.arrRef spec8 0) :=
  (arrAt_in_eq _ 0 rfl (A_eq8 (fun c b => Gen.V23 m (outs m) c b) c 0)).trans (Gen.V24_of m (outs m) c (Pipeline.arrRef spec8 0) (by decide)).symm
theorem hF8_1 (c : Dev nD) : (dat8 (fun c b => Gen.V23 m (outs m) c b) c).arrAt 1 cfg8.N = Gen.V24 m (outs m) c (Pipeline.arrRef spec8 1) :=
  (arrAt_in_eq _ 1 rfl (A_eq8 (fun c b => Gen.V23 m (outs m) c b) c 1)).trans (Gen.V24_of m (outs m) c (Pipeline.arrRef spec8 1) (by decide)).symm
theorem hF8_2 (c : Dev nD) : (dat8 (fun c b => Gen.V23 m (outs m) c b) c).arrAt 2 cfg8.N = Gen.V24 m (outs m) c (Pipeline.arrRef spec8 2) :=
  (arrAt_in_eq _ 2 rfl (A_eq8 (fun c b => Gen.V23 m (outs m) c b) c 2)).trans (Gen.V24_of m (outs m) c (Pipeline.arrRef spec8 2) (by decide)).symm
theorem hF8_3 (c : Dev nD) : (dat8 (fun c b => Gen.V23 m (outs m) c b) c).arrAt 3 cfg8.N = Gen.V24 m (outs m) c (Pipeline.arrRef spec8 3) :=
  (arrAt_in_eq _ 3 rfl (A_eq8 (fun c b => Gen.V23 m (outs m) c b) c 3)).trans (Gen.V24_of m (outs m) c (Pipeline.arrRef spec8 3) (by decide)).symm
theorem hF8_4 (c : Dev nD) : (dat8 (fun c b => Gen.V23 m (outs m) c b) c).arrAt 4 cfg8.N = Gen.V24 m (outs m) c (Pipeline.arrRef spec8 4) :=
  (arrAt_in_eq _ 4 rfl (A_eq8 (fun c b => Gen.V23 m (outs m) c b) c 4)).trans (Gen.V24_of m (outs m) c (Pipeline.arrRef spec8 4) (by decide)).symm
theorem hF8_5 (c : Dev nD) : (dat8 (fun c b => Gen.V23 m (outs m) c b) c).arrAt 5 cfg8.N = Gen.V24 m (outs m) c (Pipeline.arrRef spec8 5) :=
  (outs8_arr m c 5).symm.trans (V24_at m (outs m) c).symm
theorem hF8 (c : Dev nD) : ∀ w : Fin cfg8.W,
    (dat8 (fun c b => Gen.V23 m (outs m) c b) c).arrAt w cfg8.N = Gen.V24 m (outs m) c (Pipeline.arrRef spec8 w)
  | ⟨0, _⟩ => hF8_0 m c
  | ⟨1, _⟩ => hF8_1 m c
  | ⟨2, _⟩ => hF8_2 m c
  | ⟨3, _⟩ => hF8_3 m c
  | ⟨4, _⟩ => hF8_4 m c
  | ⟨5, _⟩ => hF8_5 m c

/-- Every other buffer is as entered. -/
theorem hrest8 (c : Dev nD) (b : Ref sig .tc) (hb : b ∉ Finset.univ.image (Pipeline.arrRef spec8)) :
    Gen.V24 m (outs m) c b = Gen.V23 m (outs m) c b :=
  Gen.V24_of m (outs m) c b fun hmem => hb (by
    rw [List.mem_singleton] at hmem; subst hmem
    exact Finset.mem_image.mpr ⟨5, Finset.mem_univ _, rfl⟩)

set_option backward.isDefEq.respectTransparency.types false in
/-- The held buffers at `V23` are pipeline 8's arrays at its entry contents and the rest. -/
theorem hsplit8 (c : Dev nD) : (StableHlo.held (c : Thread nD τ) (Pipeline.ucRefs τ sig) (Gen.V23 m (outs m) c) : sProp 𝕄)
    ⊢ iprop((pdats m 8 c).arrays ((pdats m 8 c).arrAt · 0)
        ∗ Pipeline.unscopedRest (Ix := Unit) (Name := ℕ) (U := UR sig nD τ) (Lvl := ℕ) spec8 c (fun b => Gen.V23 m (outs m) c b)) := by
  have h := Pipeline.arrays_of_unscopedBufs (p := 8) (pcfgs (F := F)) Gen.adm (pdats m) launch8.win launch8.arr_whole c
    ((pdats m 8 c).share_full fun w => q_eq8 (fun c b => Gen.V23 m (outs m) c b) c w) (fun b => Gen.V23 m (outs m) c b)
    fun w => A_eq8 (fun c b => Gen.V23 m (outs m) c b) c w
  rw [Pipeline.unscopedBufs_held] at h
  exact h

set_option backward.isDefEq.respectTransparency.types false in
/-- Its arrays at what it leaves and the rest are the held buffers at `V24`. -/
theorem hjoin8 (c : Dev nD) : iprop((pdats m 8 c).arrays ((pdats m 8 c).arrAt · cfg8.N)
      ∗ Pipeline.unscopedRest (Ix := Unit) (Name := ℕ) (U := UR sig nD τ) (Lvl := ℕ) spec8 c (fun b => Gen.V23 m (outs m) c b))
    ⊢ (StableHlo.held (c : Thread nD τ) (Pipeline.ucRefs τ sig) (Gen.V24 m (outs m) c) : sProp 𝕄) := by
  have h := Pipeline.unscopedBufs_of_arrays (p := 8) (pcfgs (F := F)) Gen.adm (Ix := Unit) (Name := ℕ) (U := UR sig nD τ) (Lvl := ℕ)
    launch8.win launch8.arr_whole c (pdats m) ((pdats m 8 c).share_full fun w => q_eq8 (fun c b => Gen.V23 m (outs m) c b) c w)
    (fun b => Gen.V23 m (outs m) c b) (fun b => Gen.V24 m (outs m) c b) ((pdats m 8 c).arrAt · cfg8.N) (hF8 m c) (hrest8 m c)
  rw [Pipeline.unscopedBufs_held] at h
  exact h

set_option backward.isDefEq.respectTransparency.types false in
/-- REGION 8 over the thread state. -/
def reg8 : Pipeline.RegionSeg (pcfgs (F := F)) Gen.adm (pdats m) () defs₀ Variants.none L lv 8 where
  win := launch8.win.to₀
  block_pos := launch8.block_pos
  stage_whole := launch8.stage_whole
  K := PEmpty
  osem k := k.elim
  ho := Pipeline.OwnSemFacts.none _
  hbody c := (body_obligation8 (fun c b => Gen.V23 m (outs m) c b) c).loose
  hwaits := Pipeline.hwaits_of_owed_zero _ _ _ _ L lv 8 fun c t => owed_eq8 (fun c b => Gen.V23 m (outs m) c b) c t
  pre c := iprop(StableHlo.held (c : Thread nD τ) (Pipeline.ucRefs τ sig) (Gen.V23 m (outs m) c) ∗ R c)
  post c := iprop(StableHlo.held (c : Thread nD τ) (Pipeline.ucRefs τ sig) (Gen.V24 m (outs m) c) ∗ R c)
  X c := iprop(∃ r, prngReg c r)
  Y c := iprop(∃ r, prngReg c r)
  Z c := Pipeline.unscopedRest (Ix := Unit) (Name := ℕ) (U := UR sig nD τ) (Lvl := ℕ) spec8 c (fun b => Gen.V23 m (outs m) c b)
  hentry c := entry_of c (hsplit8 m c)
    (by unfold Pipeline.prefHeld; rw [show (Finset.univ : Finset (Fin 0)) = ∅ from rfl, BI.bigSep_empty] <;> exact .rfl)
    (owesAt_in (pdats m 8 c) 0 (owed_eq8 (fun c b => Gen.V23 m (outs m) c b) c _) (recorded_eq8 (fun c b => Gen.V23 m (outs m) c b) c _))
  hin c := hin_of spec8 c (hin8 (fun c b => Gen.V23 m (outs m) c b) c)
  hout c := hout_of spec8 c (hout8 (fun c b => Gen.V23 m (outs m) c b) c)
  hexit c := exit_of c (hjoin8 m c) (owesAt_out (pdats m 8 c) _ (owed_eq8 (fun c b => Gen.V23 m (outs m) c b) c _))

end Cert.KernelIdeal.Run

end
-- ==== Proof.KI.Run.lean ====
import proofs.«422700_j84035330113950_1_alg».proof.Proof.KI.RunR0
import proofs.«422700_j84035330113950_1_alg».proof.Proof.KI.RunR1
import proofs.«422700_j84035330113950_1_alg».proof.Proof.KI.RunR2
import proofs.«422700_j84035330113950_1_alg».proof.Proof.KI.RunR3
import proofs.«422700_j84035330113950_1_alg».proof.Proof.KI.RunR4
import proofs.«422700_j84035330113950_1_alg».proof.Proof.KI.RunR5
import proofs.«422700_j84035330113950_1_alg».proof.Proof.KI.RunR6
import proofs.«422700_j84035330113950_1_alg».proof.Proof.KI.RunR7
import proofs.«422700_j84035330113950_1_alg».proof.Proof.KI.RunR8

set_option maxRecDepth 16384

noncomputable section

namespace Cert.KernelIdeal.Run

open Cert.KernelIdeal Cert.KernelIdeal.Gen Cert.KernelIdeal.Reg
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # THE RUN of @main: the nine regions' records under the conditional frame -/

/-- The launch element is the pipeline library's own, and no ghost resource is dealt. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The rest state ends owing nothing: the generator register is dropped. -/
theorem hR (c : Dev nD) : R c ⊢ (iprop(∃ W, owes (c : Thread nD τ) (0 : CellTallies nD τ sig Unit) W) : sProp 𝕄) := by
  iintro ⟨-, H⟩; iexact H

set_option backward.isDefEq.respectTransparency.types false in
/-- THE FRAME: the frame claim's statement at any `F`. Every weakly fair execution of @main from memory `m` with
    zero counters terminates, and every final memory holds each argument array as launched: the conditional frame,
    given the nine regions' records, each entered from and left at the thread state the frame names. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Gen.frame_cond (m := m) (EP := emb₁) (ι := ()) (𝒱₀ := Variants.none) (L := L) (lv := lv) (hL := fun _ _ => rfl) (ρ := ρ)
    (outs := outs m) (pdats := pdats m) (O₀ := fun _ => 0) (G := fun _ => (BI.emp : sProp 𝕄))
    (u₀ := initOf (Pipeline.cells cfgs cellOf_inj) (Pipeline.launchToks cfgs cellOf_inj)) (hu₀ := hu₀)
    (E := fun _ c => R c)
    (hE0 := by
      refine Pipeline.initEach L lv fun c => ?_
      iintro ⟨⟨-, HO, -, Hp, -⟩, -⟩
      imodintro
      isplitl [Hp]; · iexists _; iexact Hp
      iexists ∅; iexact HO)
    (hE9 := fun c => hR c)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)
    (R8 := reg8 m) (hpre8 := fun _ => .rfl) (hpost8 := fun _ => .rfl)

/-! # The run read in full: every unscoped buffer at the last valuation -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. Every weakly fair execution of @main from memory `m` with zero counters terminates, and every final
    memory holds every unscoped buffer of every core at the last valuation `V34` read at the regions' outputs:
    the launch over @main's 34 items (25 host stretches, the nine regions' records), the last thread state read
    against the final state. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = Gen.V34 m (outs m) c b) := by
  refine Pipeline.θ_run_regions_kit_dev (pcfgs (F := F)) Gen.adm (pdats m) () cellOf_inj emb₁ defs₀ Variants.none L lv m ρ main
    (Gen.segs m (outs m) Variants.none L lv (fun _ c => R c) () (pdats m)
      (reg0 m) (reg1 m) (reg2 m) (reg3 m) (reg4 m) (reg5 m) (reg6 m) (reg7 m) (reg8 m))
    (fun c Q => by
      rewrite [main_chain c, Pipeline.Seg.run_eq_chain,
        show (Gen.segs m (outs m) Variants.none L lv (fun _ c => R c) () (pdats m)
            (reg0 m) (reg1 m) (reg2 m) (reg3 m) (reg4 m) (reg5 m) (reg6 m) (reg7 m) (reg8 m) c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          StableHlo.seq hostOps7_1,
          StableHlo.seq hostOps7_2,
          Prog.lift (.customCall (Pipeline.entry 7) ()),
          StableHlo.seq hostOps8,
          Prog.lift (.customCall (Pipeline.entry 8) ()),
          StableHlo.seq hostOps9,
          StableHlo.seq hostOps9_1,
          StableHlo.seq hostOps9_2,
          StableHlo.seq hostOps9_3,
          StableHlo.seq hostOps9_4,
          StableHlo.seq hostOps9_5,
          StableHlo.seq hostOps9_6,
          StableHlo.seq hostOps9_7,
          StableHlo.seq hostOps9_8,
          StableHlo.seq hostOps9_9 ] from rfl]
      with_reducible exact .rfl)
    (fun c => by simp only [Gen.segs, Pipeline.Seg.pipes_host, Pipeline.Seg.pipes_region, Pipeline.Seg.pipes_nil]; decide)
    (fun _ => 0) (fun _ _ => rfl) (fun _ => (BI.emp : sProp 𝕄))
    (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V34 m (outs m) c))
    (hch := fun c => ⟨.rfl, .rfl, .rfl, .rfl, .rfl, .rfl, .rfl, .rfl, .rfl, .rfl, .rfl, .rfl, .rfl, .rfl, .rfl, .rfl, .rfl,
      .rfl, .rfl, .rfl, .rfl, .rfl, .rfl, .rfl, .rfl, .rfl, .rfl, .rfl, .rfl, .rfl, .rfl, .rfl, .rfl, .rfl,
      sep_mono .rfl (hR c)⟩)
    (hinit := by
      refine Pipeline.initEach L lv fun c => ?_
      rw [← Pipeline.unscopedBufs_held (Ix := Unit) (Name := ℕ) (U := UR sig nD τ) (Lvl := ℕ) c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V34 m (outs m) c b)
    (hfin := fun c s' => by
      iintro ⟨Hh, HSI⟩
      unfold StableHlo.held
      imodintro
      iapply (pointsTo_read_all (Pipeline.ucRefs τ sig) (fun b => (((c : Thread nD τ)).1, b)) (Gen.V34 m (outs m) c) s')
      isplitl [Hh] <;> iassumption)
    (hQ := fun _ h => h)

/-- THE RESULT: the run read at the result buffer and at the fifteen arguments — the result holds the last valuation's
    contents there, each argument its launch contents (no item writes an argument). -/
theorem result (ρ : Dev nD → PrngReg) :
    θ_run defs (onTc (τ := τ) (main (F := F))) ⟨m, fun _ => 0, ρ⟩ (fun r => ∀ c : Dev nD,
      r.2.mem ((c.tc : Thread nD τ).loc main_v227) = Gen.V34 m (outs m) c main_v227
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  OrdCont.mono (θ_run defs (onTc (τ := τ) (main (F := F))) ⟨m, fun _ => 0, ρ⟩) (fun r h c =>
    ⟨h c _ (mem_uc main_v227 (by decide)),
      (h c _ (mem_uc main_arg0 (by decide))).trans (Gen.V34_main_arg0 m (outs m) c),
      (h c _ (mem_uc main_arg1 (by decide))).trans (Gen.V34_main_arg1 m (outs m) c),
      (h c _ (mem_uc main_arg2 (by decide))).trans (Gen.V34_main_arg2 m (outs m) c),
      (h c _ (mem_uc main_arg3 (by decide))).trans (Gen.V34_main_arg3 m (outs m) c),
      (h c _ (mem_uc main_arg4 (by decide))).trans (Gen.V34_main_arg4 m (outs m) c),
      (h c _ (mem_uc main_arg5 (by decide))).trans (Gen.V34_main_arg5 m (outs m) c),
      (h c _ (mem_uc main_arg6 (by decide))).trans (Gen.V34_main_arg6 m (outs m) c),
      (h c _ (mem_uc main_arg7 (by decide))).trans (Gen.V34_main_arg7 m (outs m) c),
      (h c _ (mem_uc main_arg8 (by decide))).trans (Gen.V34_main_arg8 m (outs m) c),
      (h c _ (mem_uc main_arg9 (by decide))).trans (Gen.V34_main_arg9 m (outs m) c),
      (h c _ (mem_uc main_arg10 (by decide))).trans (Gen.V34_main_arg10 m (outs m) c),
      (h c _ (mem_uc main_arg11 (by decide))).trans (Gen.V34_main_arg11 m (outs m) c),
      (h c _ (mem_uc main_arg12 (by decide))).trans (Gen.V34_main_arg12 m (outs m) c),
      (h c _ (mem_uc main_arg13 (by decide))).trans (Gen.V34_main_arg13 m (outs m) c),
      (h c _ (mem_uc main_arg14 (by decide))).trans (Gen.V34_main_arg14 m (outs m) c)⟩) (run_all m ρ)

end Cert.KernelIdeal.Run

end
-- ==== Proof.Ref.Ops0.lean ====
import proofs.«422700_j84035330113950_1_alg».proof.Proof.Gen.ReferenceIdeal
import Idealize.ShloMosaic.Lib.StableHlo.Run

/-! Operations 1 … 30 of the 60 that window 0 of the reference's @main runs, in order: each printed step's
operation as printed; a call's operations are its callee's, over the call's operands and buffer record. With the list:
every operation touches TensorCore references only, determines everything it writes, and writes one reference of `ops0_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x3F800000#32),
    StableHlo.unary main_cst main_v4 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v5 (broadcastInDim S50000 ![] bcast_S_S50000 : (⟨S_, .f32⟩ : BufTy).Contents (Elt F) → (⟨S50000, .f32⟩ : BufTy).Contents (Elt F)),
    StableHlo.unary main_v3 main_v6 (broadcastInDim S800000x1 ![0] bcast_S800000_S800000x1_0 : (⟨S800000, .i32⟩ : BufTy).Contents (Elt F) → (⟨S800000x1, .i32⟩ : BufTy).Contents (Elt F)),
    StableHlo.ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v8 (broadcastInDim S50000 ![] bcast_S_S50000 : (⟨S_, .f32⟩ : BufTy).Contents (Elt F) → (⟨S50000, .f32⟩ : BufTy).Contents (Elt F)),
    StableHlo.binary main_v7 main_v8 main_v9 (addf : (⟨S50000, .f32⟩ : BufTy).Contents (Elt F) → (⟨S50000, .f32⟩ : BufTy).Contents (Elt F) → (⟨S50000, .f32⟩ : BufTy).Contents (Elt F)),
    StableHlo.unary main_v9 main_v10 (Host.rsqrt : (⟨S50000, .f32⟩ : BufTy).Contents (Elt F) → (⟨S50000, .f32⟩ : BufTy).Contents (Elt F)),
    StableHlo.unary main_arg5 main_v11 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v11 main_v12 rfl shapeCasts_S1x128x128_S128x128,
    StableHlo.unary main_arg5 main_v13 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v13 main_v14 rfl shapeCasts_S1x128x128_S128x128,
    StableHlo.unary main_arg6 main_v15 ((extractStridedSlice S1x128 ![0, 0] · slices_S2x128_S1x128_0_0) : (⟨S2x128, .f32⟩ : BufTy).Contents (Elt F) → (⟨S1x128, .f32⟩ : BufTy).Contents (Elt F)),
    StableHlo.reshape main_v15 main_v16 rfl shapeCasts_S1x128_S128,
    StableHlo.unary main_arg6 main_v17 ((extractStridedSlice S1x128 ![1, 0] · slices_S2x128_S1x128_1_0) : (⟨S2x128, .f32⟩ : BufTy).Contents (Elt F) → (⟨S1x128, .f32⟩ : BufTy).Contents (Elt F)),
    StableHlo.reshape main_v17 main_v18 rfl shapeCasts_S1x128_S128,
    StableHlo.binary main_arg0 main_arg3 main_v19 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.nullary main_c (constantI S_ 32 0#32),
    StableHlo.unary main_c main_v20 (broadcastInDim S800000 ![] bcast_S_S800000 : (⟨S_, .i32⟩ : BufTy).Contents (Elt F) → (⟨S800000, .i32⟩ : BufTy).Contents (Elt F)),
    StableHlo.binary main_v1 main_v20 main_v21 (cmpi .slt : (⟨S800000, .i32⟩ : BufTy).Contents (Elt F) → (⟨S800000, .i32⟩ : BufTy).Contents (Elt F) → (⟨S800000, .i1⟩ : BufTy).Contents (Elt F)),
    StableHlo.nullary main_c_2 (constantI S_ 32 50000#32),
    StableHlo.unary main_c_2 main_v22 (broadcastInDim S800000 ![] bcast_S_S800000 : (⟨S_, .i32⟩ : BufTy).Contents (Elt F) → (⟨S800000, .i32⟩ : BufTy).Contents (Elt F)),
    StableHlo.binary main_v1 main_v22 main_v23 (addi : (⟨S800000, .i32⟩ : BufTy).Contents (Elt F) → (⟨S800000, .i32⟩ : BufTy).Contents (Elt F) → (⟨S800000, .i32⟩ : BufTy).Contents (Elt F)),
    StableHlo.ternary main_v21 main_v23 main_v1 main_v24 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub ..,
    unary_bufs_sub .., unary_bufs_sub .., ternary_bufs_sub .., nullary_bufs_sub .., unary_bufs_sub .., binary_bufs_sub .., unary_bufs_sub ..,
    unary_bufs_sub .., reshape_bufs_sub .., unary_bufs_sub .., reshape_bufs_sub .., unary_bufs_sub .., reshape_bufs_sub .., unary_bufs_sub ..,
    reshape_bufs_sub .., binary_bufs_sub .., nullary_bufs_sub .., unary_bufs_sub .., binary_bufs_sub .., nullary_bufs_sub .., unary_bufs_sub ..,
    binary_bufs_sub .., ternary_bufs_sub ..⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations write, in order. -/
abbrev ops0_W : List (Ref sig .tc) :=
  [ main_v0, main_v1, main_v2, main_v3, main_cst, main_v4, main_cst_0, main_v5, main_v6, main_v7, main_cst_1, main_v8, main_v9, main_v10, main_v11,
    main_v12, main_v13, main_v14, main_v15, main_v16, main_v17, main_v18, main_v19, main_c, main_v20, main_v21, main_c_2, main_v22, main_v23, main_v24 ]

set_option maxRecDepth 8192 in
theorem ops0_writes : (ops0 : List (HloOp τ sig (Elt F))).Forall fun op =>
    op.writes ⊆ (ops0_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr, by wr, by wr⟩

end Cert.ReferenceIdeal.Hand

end
-- ==== Proof.Ref.Ops1.lean ====
import proofs.«422700_j84035330113950_1_alg».proof.Proof.Gen.ReferenceIdeal
import Idealize.ShloMosaic.Lib.StableHlo.Run

/-! Operations 31 … 60 of the 60 that window 0 of the reference's @main runs, in order: each printed step's
operation as printed; a call's operations are its callee's, over the call's operands and buffer record. With the list:
every operation touches TensorCore references only, determines everything it writes, and writes one reference of `ops1_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops1 : List (HloOp τ sig (Elt F)) :=
  [ StableHlo.unary main_v24 main_v25 (broadcastInDim S800000x1 ![0] bcast_S800000_S800000x1_0 : (⟨S800000, .i32⟩ : BufTy).Contents (Elt F) → (⟨S800000x1, .i32⟩ : BufTy).Contents (Elt F)),
    StableHlo.binary main_v10 main_v25 main_v26 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_3 (constantI S_ 32 0#32),
    StableHlo.unary main_c_3 main_v27 (broadcastInDim S800000 ![] bcast_S_S800000 : (⟨S_, .i32⟩ : BufTy).Contents (Elt F) → (⟨S800000, .i32⟩ : BufTy).Contents (Elt F)),
    StableHlo.binary main_v3 main_v27 main_v28 (cmpi .slt : (⟨S800000, .i32⟩ : BufTy).Contents (Elt F) → (⟨S800000, .i32⟩ : BufTy).Contents (Elt F) → (⟨S800000, .i1⟩ : BufTy).Contents (Elt F)),
    StableHlo.nullary main_c_4 (constantI S_ 32 50000#32),
    StableHlo.unary main_c_4 main_v29 (broadcastInDim S800000 ![] bcast_S_S800000 : (⟨S_, .i32⟩ : BufTy).Contents (Elt F) → (⟨S800000, .i32⟩ : BufTy).Contents (Elt F)),
    StableHlo.binary main_v3 main_v29 main_v30 (addi : (⟨S800000, .i32⟩ : BufTy).Contents (Elt F) → (⟨S800000, .i32⟩ : BufTy).Contents (Elt F) → (⟨S800000, .i32⟩ : BufTy).Contents (Elt F)),
    StableHlo.ternary main_v28 main_v30 main_v3 main_v31 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v31 main_v32 (broadcastInDim S800000x1 ![0] bcast_S800000_S800000x1_0 : (⟨S800000, .i32⟩ : BufTy).Contents (Elt F) → (⟨S800000x1, .i32⟩ : BufTy).Contents (Elt F)),
    StableHlo.binary main_v10 main_v32 main_v33 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v26 main_v33 main_v34 (mulf : (⟨S800000, .f32⟩ : BufTy).Contents (Elt F) → (⟨S800000, .f32⟩ : BufTy).Contents (Elt F) → (⟨S800000, .f32⟩ : BufTy).Contents (Elt F)),
    StableHlo.nullary main_c_5 (constantI S_ 32 0#32),
    StableHlo.unary main_c_5 main_v35 (broadcastInDim S800000 ![] bcast_S_S800000 : (⟨S_, .i32⟩ : BufTy).Contents (Elt F) → (⟨S800000, .i32⟩ : BufTy).Contents (Elt F)),
    StableHlo.binary main_v1 main_v35 main_v36 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v37 (broadcastInDim S800000 ![] bcast_S_S800000 : (⟨S_, .i32⟩ : BufTy).Contents (Elt F) → (⟨S800000, .i32⟩ : BufTy).Contents (Elt F)),
    StableHlo.binary main_v1 main_v37 main_v38 (addi : (⟨S800000, .i32⟩ : BufTy).Contents (Elt F) → (⟨S800000, .i32⟩ : BufTy).Contents (Elt F) → (⟨S800000, .i32⟩ : BufTy).Contents (Elt F)),
    StableHlo.ternary main_v36 main_v38 main_v1 main_v39 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v39 main_v40 (broadcastInDim S800000x1 ![0] bcast_S800000_S800000x1_0 : (⟨S800000, .i32⟩ : BufTy).Contents (Elt F) → (⟨S800000x1, .i32⟩ : BufTy).Contents (Elt F)),
    StableHlo.binary main_v19 main_v40 main_v41 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v34 main_v42 (broadcastInDim S800000x1 ![0] bcast_S800000_S800000x1_0 : (⟨S800000, .f32⟩ : BufTy).Contents (Elt F) → (⟨S800000x1, .f32⟩ : BufTy).Contents (Elt F)),
    StableHlo.unary main_v42 main_v43 (broadcastInDim S800000x128 ![0, 1] bcast_S800000x1_S800000x128_0_1 : (⟨S800000x1, .f32⟩ : BufTy).Contents (Elt F) → (⟨S800000x128, .f32⟩ : BufTy).Contents (Elt F)),
    StableHlo.binary main_v41 main_v43 main_v44 (mulf : (⟨S800000x128, .f32⟩ : BufTy).Contents (Elt F) → (⟨S800000x128, .f32⟩ : BufTy).Contents (Elt F) → (⟨S800000x128, .f32⟩ : BufTy).Contents (Elt F)),
    StableHlo.nullary main_cst_7 (constant S_ .f32 0x00000000#32),
    StableHlo.unary main_cst_7 main_v45 (broadcastInDim S50000x128 ![] bcast_S_S50000x128 : (⟨S_, .f32⟩ : BufTy).Contents (Elt F) → (⟨S50000x128, .f32⟩ : BufTy).Contents (Elt F)),
    StableHlo.unary main_v3 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v48 (mulf : (⟨S50000, .f32⟩ : BufTy).Contents (Elt F) → (⟨S50000, .f32⟩ : BufTy).Contents (Elt F) → (⟨S50000, .f32⟩ : BufTy).Contents (Elt F)),
    StableHlo.unary main_v48 main_v49 (broadcastInDim S50000x1 ![0] bcast_S50000_S50000x1_0 : (⟨S50000, .f32⟩ : BufTy).Contents (Elt F) → (⟨S50000x1, .f32⟩ : BufTy).Contents (Elt F)) ]

set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub .., ternary_bufs_sub ..,
    binary_bufs_sub .., unary_bufs_sub ..⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references the operations write, in order. -/
abbrev ops1_W : List (Ref sig .tc) :=
  [ main_v25, main_v26, main_c_3, main_v27, main_v28, main_c_4, main_v29, main_v30, main_v31, main_v32, main_v33, main_v34, main_c_5, main_v35, main_v36,
    main_c_6, main_v37, main_v38, main_v39, main_v40, main_v41, main_v42, main_v43, main_v44, main_cst_7, main_v45, main_v46, main_v47, main_v48, main_v49 ]

set_option maxRecDepth 8192 in
theorem ops1_writes : (ops1 : List (HloOp τ sig (Elt F))).Forall fun op =>
    op.writes ⊆ (ops1_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr, by wr, by wr⟩

end Cert.ReferenceIdeal.Hand

end
-- ==== Proof.Ref.Part0.lean ====
import proofs.«422700_j84035330113950_1_alg».proof.Proof.Ref.Ops0
import proofs.«422700_j84035330113950_1_alg».proof.Proof.Ref.Ops1

/-! Window 0 of the reference's @main (statements 1 … 60) makes no call. It is a sequence of sixty operation steps, and
`seq` over the list of those sixty operations unfolds, one `cons` at a time, to the same sequence of steps. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 0 runs the operations of its two halves in order. The append of the two literal lists is the literal list of
    all sixty, and `seq` of it is by definition the chain of their steps, which is how the window is written: the two
    sides agree by unfolding alone. -/
theorem main_part0_eq (c : Dev nD) : main_part0 (F := F) c = seq (ops0 ++ ops1) := rfl

end Cert.ReferenceIdeal.Hand

end
-- ==== Proof.Ref.Ops2.lean ====
import proofs.«422700_j84035330113950_1_alg».proof.Proof.Gen.ReferenceIdeal
import Idealize.ShloMosaic.Lib.StableHlo.Run

/-! Operations 1 … 42 of the 83 that window 1 of the reference's @main runs, in order: each printed step's
operation as printed; a call's operations are its callee's, over the call's operands and buffer record. With the list:
every operation touches TensorCore references only, determines everything it writes, and writes one reference of `ops2_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops2 : List (HloOp τ sig (Elt F)) :=
  [ StableHlo.unary main_v49 main_v50 (broadcastInDim S50000x128 ![0, 1] bcast_S50000x1_S50000x128_0_1 : (⟨S50000x1, .f32⟩ : BufTy).Contents (Elt F) → (⟨S50000x128, .f32⟩ : BufTy).Contents (Elt F)),
    StableHlo.binary main_v19 main_v50 main_v51 (mulf : (⟨S50000x128, .f32⟩ : BufTy).Contents (Elt F) → (⟨S50000x128, .f32⟩ : BufTy).Contents (Elt F) → (⟨S50000x128, .f32⟩ : BufTy).Contents (Elt F)),
    StableHlo.binary main_v47 main_v51 main_v52 (addf : (⟨S50000x128, .f32⟩ : BufTy).Contents (Elt F) → (⟨S50000x128, .f32⟩ : BufTy).Contents (Elt F) → (⟨S50000x128, .f32⟩ : BufTy).Contents (Elt F)),
    StableHlo.unary main_arg4 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v52 main_v54 main_v55 (addf : (⟨S50000x128, .f32⟩ : BufTy).Contents (Elt F) → (⟨S50000x128, .f32⟩ : BufTy).Contents (Elt F) → (⟨S50000x128, .f32⟩ : BufTy).Contents (Elt F)),
    StableHlo.unary main_arg7 main_v56 ((extractStridedSlice S1x128 ![0, 0] · slices_S3x128_S1x128_0_0) : (⟨S3x128, .f32⟩ : BufTy).Contents (Elt F) → (⟨S1x128, .f32⟩ : BufTy).Contents (Elt F)),
    StableHlo.reshape main_v56 main_v57 rfl shapeCasts_S1x128_S128,
    StableHlo.unary main_arg8 main_v58 ((extractStridedSlice S1x128 ![0, 0] · slices_S3x128_S1x128_0_0) : (⟨S3x128, .f32⟩ : BufTy).Contents (Elt F) → (⟨S1x128, .f32⟩ : BufTy).Contents (Elt F)),
    StableHlo.reshape main_v58 main_v59 rfl shapeCasts_S1x128_S128,
    StableHlo.nullary main_cst_8 (constant S_ .f32 0x00000000#32),
    StableHlo.binary main_v55 main_cst_8 main_v60 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_9 (constant S_ .f32 0x47435000#32),
    StableHlo.unary main_cst_9 main_v61 (broadcastInDim S128 ![] bcast_S_S128 : (⟨S_, .f32⟩ : BufTy).Contents (Elt F) → (⟨S128, .f32⟩ : BufTy).Contents (Elt F)),
    StableHlo.binary main_v60 main_v61 main_v62 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.TRef.nullary main_call0.cst (constant S_ .f32 0x00000000#32),
    StableHlo.TRef.binary (.of main_v55) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v55) main_call0.v4 main_call0.v5 subf,
    StableHlo.TRef.binary main_call0.v5 main_call0.v5 main_call0.v6 mulf,
    StableHlo.TRef.unary (.of main_c_10) main_call0.v7 (sitofp (F := F) .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf (F := F) .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v62 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v65 main_v66 (subf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3727C5AC#32) ]

set_option maxRecDepth 8192 in
theorem ops2_sub : (ops2 : List (HloOp τ sig (Elt F))).Forall fun op => op.bufs ⊆ tcRefs τ sig :=
  ⟨unary_bufs_sub .., binary_bufs_sub .., binary_bufs_sub .., unary_bufs_sub .., unary_bufs_sub .., binary_bufs_sub .., unary_bufs_sub ..,
    reshape_bufs_sub .., unary_bufs_sub .., reshape_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub .., nullary_bufs_sub ..⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The references the operations write, in order. -/
abbrev ops2_W : List (Ref sig .tc) :=
  [ main_v50, main_v51, main_v52, main_v53, main_v54, main_v55, main_v56, main_v57, main_v58, main_v59, main_cst_8, main_v60, main_cst_9, main_v61,
    main_v62, main_c_10, main_call0.cst.ref, main_call0.v0.ref, main_call0.v1.ref, main_call0.cst_0.ref, main_call0.v2.ref, main_call0.v3.ref,
    main_call0.v4.ref, main_call0.v5.ref, main_call0.v6.ref, main_call0.v7.ref, main_call0.cst_1.ref, main_call0.v8.ref, main_call0.cst_2.ref,
    main_call0.v9.ref, main_call0.v10.ref, main_call0.v11.ref, main_call0.cst_3.ref, main_call0.v12.ref, main_call0.cst_4.ref, main_call0.call0.v0.ref,
    main_call0.call0.v1.ref, main_call0.call0.v2.ref, main_v64, main_v65, main_v66, main_cst_11 ]

set_option maxRecDepth 8192 in
theorem ops2_writes : (ops2 : List (HloOp τ sig (Elt F))).Forall fun op =>
    op.writes ⊆ (ops2_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr, by wr, by wr, by wr, by wr, by wr, by wr, by wr, by wr, by wr, by wr, by wr, by wr, by wr, by wr⟩

end Cert.ReferenceIdeal.Hand

end
-- ==== Proof.Ref.Ops3.lean ====
import proofs.«422700_j84035330113950_1_alg».proof.Proof.Gen.ReferenceIdeal
import Idealize.ShloMosaic.Lib.StableHlo.Run

/-! Operations 43 … 83 of the 83 that window 1 of the reference's @main runs, in order: each printed step's
operation as printed; a call's operations are its callee's, over the call's operands and buffer record. With the list:
every operation touches TensorCore references only, determines everything it writes, and writes one reference of `ops3_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops3 : List (HloOp τ sig (Elt F)) :=
  [ StableHlo.unary main_cst_11 main_v67 (broadcastInDim S128 ![] bcast_S_S128 : (⟨S_, .f32⟩ : BufTy).Contents (Elt F) → (⟨S128, .f32⟩ : BufTy).Contents (Elt F)),
    StableHlo.binary main_v63 main_v67 main_v68 (addf : (⟨S128, .f32⟩ : BufTy).Contents (Elt F) → (⟨S128, .f32⟩ : BufTy).Contents (Elt F) → (⟨S128, .f32⟩ : BufTy).Contents (Elt F)),
    StableHlo.unary main_v68 main_v69 (Host.rsqrt : (⟨S128, .f32⟩ : BufTy).Contents (Elt F) → (⟨S128, .f32⟩ : BufTy).Contents (Elt F)),
    StableHlo.unary main_v69 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v71 main_v72 (mulf : (⟨S50000x128, .f32⟩ : BufTy).Contents (Elt F) → (⟨S50000x128, .f32⟩ : BufTy).Contents (Elt F) → (⟨S50000x128, .f32⟩ : BufTy).Contents (Elt F)),
    StableHlo.unary main_v57 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S50000x128 ![0, 1] bcast_S1x128_S50000x128_0_1 : (⟨S1x128, .f32⟩ : BufTy).Contents (Elt F) → (⟨S50000x128, .f32⟩ : BufTy).Contents (Elt F)),
    StableHlo.binary main_v72 main_v74 main_v75 (mulf : (⟨S50000x128, .f32⟩ : BufTy).Contents (Elt F) → (⟨S50000x128, .f32⟩ : BufTy).Contents (Elt F) → (⟨S50000x128, .f32⟩ : BufTy).Contents (Elt F)),
    StableHlo.unary main_v59 main_v76 (broadcastInDim S1x128 ![1] bcast_S128_S1x128_1 : (⟨S128, .f32⟩ : BufTy).Contents (Elt F) → (⟨S1x128, .f32⟩ : BufTy).Contents (Elt F)),
    StableHlo.unary main_v76 main_v77 (broadcastInDim S50000x128 ![0, 1] bcast_S1x128_S50000x128_0_1 : (⟨S1x128, .f32⟩ : BufTy).Contents (Elt F) → (⟨S50000x128, .f32⟩ : BufTy).Contents (Elt F)),
    StableHlo.binary main_v75 main_v77 main_v78 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v78) main_call1.v0 main_call1.v1 maximumf,
    StableHlo.binary main_v79 main_v12 main_v80 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_12 (constantI S_ 32 0#32),
    StableHlo.unary main_c_12 main_v81 (broadcastInDim S800000 ![] bcast_S_S800000 : (⟨S_, .i32⟩ : BufTy).Contents (Elt F) → (⟨S800000, .i32⟩ : BufTy).Contents (Elt F)),
    StableHlo.binary main_v1 main_v81 main_v82 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v83 (broadcastInDim S800000 ![] bcast_S_S800000 : (⟨S_, .i32⟩ : BufTy).Contents (Elt F) → (⟨S800000, .i32⟩ : BufTy).Contents (Elt F)),
    StableHlo.binary main_v1 main_v83 main_v84 (addi : (⟨S800000, .i32⟩ : BufTy).Contents (Elt F) → (⟨S800000, .i32⟩ : BufTy).Contents (Elt F) → (⟨S800000, .i32⟩ : BufTy).Contents (Elt F)),
    StableHlo.ternary main_v82 main_v84 main_v1 main_v85 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v85 main_v86 (broadcastInDim S800000x1 ![0] bcast_S800000_S800000x1_0 : (⟨S800000, .i32⟩ : BufTy).Contents (Elt F) → (⟨S800000x1, .i32⟩ : BufTy).Contents (Elt F)),
    StableHlo.binary main_v10 main_v86 main_v87 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_14 (constantI S_ 32 0#32),
    StableHlo.unary main_c_14 main_v88 (broadcastInDim S800000 ![] bcast_S_S800000 : (⟨S_, .i32⟩ : BufTy).Contents (Elt F) → (⟨S800000, .i32⟩ : BufTy).Contents (Elt F)),
    StableHlo.binary main_v3 main_v88 main_v89 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v90 (broadcastInDim S800000 ![] bcast_S_S800000 : (⟨S_, .i32⟩ : BufTy).Contents (Elt F) → (⟨S800000, .i32⟩ : BufTy).Contents (Elt F)),
    StableHlo.binary main_v3 main_v90 main_v91 (addi : (⟨S800000, .i32⟩ : BufTy).Contents (Elt F) → (⟨S800000, .i32⟩ : BufTy).Contents (Elt F) → (⟨S800000, .i32⟩ : BufTy).Contents (Elt F)),
    StableHlo.ternary main_v89 main_v91 main_v3 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v92 main_v93 (broadcastInDim S800000x1 ![0] bcast_S800000_S800000x1_0 : (⟨S800000, .i32⟩ : BufTy).Contents (Elt F) → (⟨S800000x1, .i32⟩ : BufTy).Contents (Elt F)),
    StableHlo.binary main_v10 main_v93 main_v94 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v87 main_v94 main_v95 (mulf : (⟨S800000, .f32⟩ : BufTy).Contents (Elt F) → (⟨S800000, .f32⟩ : BufTy).Contents (Elt F) → (⟨S800000, .f32⟩ : BufTy).Contents (Elt F)),
    StableHlo.nullary main_c_16 (constantI S_ 32 0#32),
    StableHlo.unary main_c_16 main_v96 (broadcastInDim S800000 ![] bcast_S_S800000 : (⟨S_, .i32⟩ : BufTy).Contents (Elt F) → (⟨S800000, .i32⟩ : BufTy).Contents (Elt F)),
    StableHlo.binary main_v1 main_v96 main_v97 (cmpi .slt : (⟨S800000, .i32⟩ : BufTy).Contents (Elt F) → (⟨S800000, .i32⟩ : BufTy).Contents (Elt F) → (⟨S800000, .i1⟩ : BufTy).Contents (Elt F)),
    StableHlo.nullary main_c_17 (constantI S_ 32 50000#32),
    StableHlo.unary main_c_17 main_v98 (broadcastInDim S800000 ![] bcast_S_S800000 : (⟨S_, .i32⟩ : BufTy).Contents (Elt F) → (⟨S800000, .i32⟩ : BufTy).Contents (Elt F)),
    StableHlo.binary main_v1 main_v98 main_v99 (addi : (⟨S800000, .i32⟩ : BufTy).Contents (Elt F) → (⟨S800000, .i32⟩ : BufTy).Contents (Elt F) → (⟨S800000, .i32⟩ : BufTy).Contents (Elt F)) ]

set_option maxRecDepth 8192 in
theorem ops3_sub : (ops3 : List (HloOp τ sig (Elt F))).Forall fun op => op.bufs ⊆ tcRefs τ sig :=
  ⟨unary_bufs_sub .., binary_bufs_sub .., unary_bufs_sub .., unary_bufs_sub .., unary_bufs_sub .., binary_bufs_sub .., unary_bufs_sub ..,
    unary_bufs_sub .., binary_bufs_sub .., unary_bufs_sub .., unary_bufs_sub .., binary_bufs_sub .., nullary_bufs_sub .., unary_bufs_sub ..,
    binary_bufs_sub .., binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..⟩

set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- The references the operations write, in order. -/
abbrev ops3_W : List (Ref sig .tc) :=
  [ main_v67, main_v68, main_v69, main_v70, main_v71, main_v72, main_v73, main_v74, main_v75, main_v76, main_v77, main_v78, main_call1.cst.ref,
    main_call1.v0.ref, main_call1.v1.ref, main_v80, main_c_12, main_v81, main_v82, main_c_13, main_v83, main_v84, main_v85, main_v86, main_v87, main_c_14,
    main_v88, main_v89, main_c_15, main_v90, main_v91, main_v92, main_v93, main_v94, main_v95, main_c_16, main_v96, main_v97, main_c_17, main_v98,
    main_v99 ]

set_option maxRecDepth 8192 in
theorem ops3_writes : (ops3 : List (HloOp τ sig (Elt F))).Forall fun op =>
    op.writes ⊆ (ops3_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr, by wr, by wr, by wr, by wr, by wr, by wr, by wr, by wr, by wr, by wr, by wr, by wr, by wr⟩

end Cert.ReferenceIdeal.Hand

end
-- ==== Proof.Ref.Part1.lean ====
import proofs.«422700_j84035330113950_1_alg».proof.Proof.Ref.Ops2
import proofs.«422700_j84035330113950_1_alg».proof.Proof.Ref.Ops3

/-! Window 1 of the reference's @main (statements 61 … 120) holds two calls: `%63 = @_var(%55, %c_10)`, the column
variance of the first layer's pre-activation, and `%79 = @relu(%78)`. A call is the callee's body over the call's
operands and the call's own buffers, a sequence of operation steps closed by a return; `@_var` in turn calls `@_where`.
Sequencing a program that ends in a return with a continuation is, by the definition of sequencing on programs, the
program's steps followed by the continuation: so the window, with the three bodies unfolded, is one chain of 83 steps. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 1 runs the operations of its two halves in order, the callees' operations standing where their calls stand.
    Unfolding the callees at their calls and sequencing through their returns computes, on both sides, the same chain
    of steps: a definitional equation. -/
theorem main_part1_eq (c : Dev nD) : main_part1 (F := F) c = seq (ops2 ++ ops3) := rfl

end Cert.ReferenceIdeal.Hand

end
-- ==== Proof.Ref.Ops4.lean ====
import proofs.«422700_j84035330113950_1_alg».proof.Proof.Gen.ReferenceIdeal
import Idealize.ShloMosaic.Lib.StableHlo.Run

/-! Operations 1 … 42 of the 83 that window 2 of the reference's @main runs, in order: each printed step's
operation as printed; a call's operations are its callee's, over the call's operands and buffer record. With the list:
every operation touches TensorCore references only, determines everything it writes, and writes one reference of `ops4_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops4 : List (HloOp τ sig (Elt F)) :=
  [ StableHlo.ternary main_v97 main_v99 main_v1 main_v100 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v100 main_v101 (broadcastInDim S800000x1 ![0] bcast_S800000_S800000x1_0 : (⟨S800000, .i32⟩ : BufTy).Contents (Elt F) → (⟨S800000x1, .i32⟩ : BufTy).Contents (Elt F)),
    StableHlo.binary main_v80 main_v101 main_v102 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v95 main_v103 (broadcastInDim S800000x1 ![0] bcast_S800000_S800000x1_0 : (⟨S800000, .f32⟩ : BufTy).Contents (Elt F) → (⟨S800000x1, .f32⟩ : BufTy).Contents (Elt F)),
    StableHlo.unary main_v103 main_v104 (broadcastInDim S800000x128 ![0, 1] bcast_S800000x1_S800000x128_0_1 : (⟨S800000x1, .f32⟩ : BufTy).Contents (Elt F) → (⟨S800000x128, .f32⟩ : BufTy).Contents (Elt F)),
    StableHlo.binary main_v102 main_v104 main_v105 (mulf : (⟨S800000x128, .f32⟩ : BufTy).Contents (Elt F) → (⟨S800000x128, .f32⟩ : BufTy).Contents (Elt F) → (⟨S800000x128, .f32⟩ : BufTy).Contents (Elt F)),
    StableHlo.nullary main_cst_18 (constant S_ .f32 0x00000000#32),
    StableHlo.unary main_cst_18 main_v106 (broadcastInDim S50000x128 ![] bcast_S_S50000x128 : (⟨S_, .f32⟩ : BufTy).Contents (Elt F) → (⟨S50000x128, .f32⟩ : BufTy).Contents (Elt F)),
    StableHlo.unary main_v3 main_v107 (broadcastInDim S800000x1 ![0] bcast_S800000_S800000x1_0 : (⟨S800000, .i32⟩ : BufTy).Contents (Elt F) → (⟨S800000x1, .i32⟩ : BufTy).Contents (Elt F)),
    StableHlo.ternary main_v106 main_v107 main_v105 main_v108 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v109 (mulf : (⟨S50000, .f32⟩ : BufTy).Contents (Elt F) → (⟨S50000, .f32⟩ : BufTy).Contents (Elt F) → (⟨S50000, .f32⟩ : BufTy).Contents (Elt F)),
    StableHlo.unary main_v109 main_v110 (broadcastInDim S50000x1 ![0] bcast_S50000_S50000x1_0 : (⟨S50000, .f32⟩ : BufTy).Contents (Elt F) → (⟨S50000x1, .f32⟩ : BufTy).Contents (Elt F)),
    StableHlo.unary main_v110 main_v111 (broadcastInDim S50000x128 ![0, 1] bcast_S50000x1_S50000x128_0_1 : (⟨S50000x1, .f32⟩ : BufTy).Contents (Elt F) → (⟨S50000x128, .f32⟩ : BufTy).Contents (Elt F)),
    StableHlo.binary main_v80 main_v111 main_v112 (mulf : (⟨S50000x128, .f32⟩ : BufTy).Contents (Elt F) → (⟨S50000x128, .f32⟩ : BufTy).Contents (Elt F) → (⟨S50000x128, .f32⟩ : BufTy).Contents (Elt F)),
    StableHlo.binary main_v108 main_v112 main_v113 (addf : (⟨S50000x128, .f32⟩ : BufTy).Contents (Elt F) → (⟨S50000x128, .f32⟩ : BufTy).Contents (Elt F) → (⟨S50000x128, .f32⟩ : BufTy).Contents (Elt F)),
    StableHlo.unary main_v16 main_v114 (broadcastInDim S1x128 ![1] bcast_S128_S1x128_1 : (⟨S128, .f32⟩ : BufTy).Contents (Elt F) → (⟨S1x128, .f32⟩ : BufTy).Contents (Elt F)),
    StableHlo.unary main_v114 main_v115 (broadcastInDim S50000x128 ![0, 1] bcast_S1x128_S50000x128_0_1 : (⟨S1x128, .f32⟩ : BufTy).Contents (Elt F) → (⟨S50000x128, .f32⟩ : BufTy).Contents (Elt F)),
    StableHlo.binary main_v113 main_v115 main_v116 (addf : (⟨S50000x128, .f32⟩ : BufTy).Contents (Elt F) → (⟨S50000x128, .f32⟩ : BufTy).Contents (Elt F) → (⟨S50000x128, .f32⟩ : BufTy).Contents (Elt F)),
    StableHlo.unary main_arg7 main_v117 ((extractStridedSlice S1x128 ![1, 0] · slices_S3x128_S1x128_1_0) : (⟨S3x128, .f32⟩ : BufTy).Contents (Elt F) → (⟨S1x128, .f32⟩ : BufTy).Contents (Elt F)),
    StableHlo.reshape main_v117 main_v118 rfl shapeCasts_S1x128_S128,
    StableHlo.unary main_arg8 main_v119 ((extractStridedSlice S1x128 ![1, 0] · slices_S3x128_S1x128_1_0) : (⟨S3x128, .f32⟩ : BufTy).Contents (Elt F) → (⟨S1x128, .f32⟩ : BufTy).Contents (Elt F)),
    StableHlo.reshape main_v119 main_v120 rfl shapeCasts_S1x128_S128,
    StableHlo.nullary main_cst_19 (constant S_ .f32 0x00000000#32),
    StableHlo.binary main_v116 main_cst_19 main_v121 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_20 (constant S_ .f32 0x47435000#32),
    StableHlo.unary main_cst_20 main_v122 (broadcastInDim S128 ![] bcast_S_S128 : (⟨S_, .f32⟩ : BufTy).Contents (Elt F) → (⟨S128, .f32⟩ : BufTy).Contents (Elt F)),
    StableHlo.binary main_v121 main_v122 main_v123 (Host.divf : (⟨S128, .f32⟩ : BufTy).Contents (Elt F) → (⟨S128, .f32⟩ : BufTy).Contents (Elt F) → (⟨S128, .f32⟩ : BufTy).Contents (Elt F)),
    StableHlo.nullary main_c_21 (constantI S_ 32 0#32),
    StableHlo.TRef.nullary main_call2.cst (constant S_ .f32 0x00000000#32),
    StableHlo.TRef.binary (.of main_v116) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v116) main_call2.v4 main_call2.v5 subf,
    StableHlo.TRef.binary main_call2.v5 main_call2.v5 main_call2.v6 mulf,
    StableHlo.TRef.unary (.of main_c_21) main_call2.v7 (sitofp (F := F) .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_) ]

set_option maxRecDepth 8192 in
theorem ops4_sub : (ops4 : List (HloOp τ sig (Elt F))).Forall fun op => op.bufs ⊆ tcRefs τ sig :=
  ⟨ternary_bufs_sub .., unary_bufs_sub .., binary_bufs_sub .., unary_bufs_sub .., unary_bufs_sub .., binary_bufs_sub .., nullary_bufs_sub ..,
    unary_bufs_sub .., unary_bufs_sub .., ternary_bufs_sub .., binary_bufs_sub .., unary_bufs_sub .., unary_bufs_sub .., binary_bufs_sub ..,
    binary_bufs_sub .., unary_bufs_sub .., unary_bufs_sub .., binary_bufs_sub .., unary_bufs_sub .., reshape_bufs_sub .., unary_bufs_sub ..,
    reshape_bufs_sub .., nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub .., binary_bufs_sub ..⟩

set_option maxRecDepth 8192 in
theorem ops4_fresh : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The references the operations write, in order. -/
abbrev ops4_W : List (Ref sig .tc) :=
  [ main_v100, main_v101, main_v102, main_v103, main_v104, main_v105, main_cst_18, main_v106, main_v107, main_v108, main_v109, main_v110, main_v111,
    main_v112, main_v113, main_v114, main_v115, main_v116, main_v117, main_v118, main_v119, main_v120, main_cst_19, main_v121, main_cst_20, main_v122,
    main_v123, main_c_21, main_call2.cst.ref, main_call2.v0.ref, main_call2.v1.ref, main_call2.cst_0.ref, main_call2.v2.ref, main_call2.v3.ref,
    main_call2.v4.ref, main_call2.v5.ref, main_call2.v6.ref, main_call2.v7.ref, main_call2.cst_1.ref, main_call2.v8.ref, main_call2.cst_2.ref,
    main_call2.v9.ref ]

set_option maxRecDepth 8192 in
theorem ops4_writes : (ops4 : List (HloOp τ sig (Elt F))).Forall fun op =>
    op.writes ⊆ (ops4_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr, by wr, by wr, by wr, by wr, by wr, by wr, by wr, by wr, by wr, by wr, by wr, by wr, by wr, by wr⟩

end Cert.ReferenceIdeal.Hand

end
-- ==== Proof.Ref.Ops5.lean ====
import proofs.«422700_j84035330113950_1_alg».proof.Proof.Gen.ReferenceIdeal
import Idealize.ShloMosaic.Lib.StableHlo.Run

/-! Operations 43 … 83 of the 83 that window 2 of the reference's @main runs, in order: each printed step's
operation as printed; a call's operations are its callee's, over the call's operands and buffer record. With the list:
every operation touches TensorCore references only, determines everything it writes, and writes one reference of `ops5_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops5 : List (HloOp τ sig (Elt F)) :=
  [ StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf (F := F) .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v123 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v116 main_v126 main_v127 (subf : (⟨S50000x128, .f32⟩ : BufTy).Contents (Elt F) → (⟨S50000x128, .f32⟩ : BufTy).Contents (Elt F) → (⟨S50000x128, .f32⟩ : BufTy).Contents (Elt F)),
    StableHlo.nullary main_cst_22 (constant S_ .f32 0x3727C5AC#32),
    StableHlo.unary main_cst_22 main_v128 (broadcastInDim S128 ![] bcast_S_S128 : (⟨S_, .f32⟩ : BufTy).Contents (Elt F) → (⟨S128, .f32⟩ : BufTy).Contents (Elt F)),
    StableHlo.binary main_v124 main_v128 main_v129 (addf : (⟨S128, .f32⟩ : BufTy).Contents (Elt F) → (⟨S128, .f32⟩ : BufTy).Contents (Elt F) → (⟨S128, .f32⟩ : BufTy).Contents (Elt F)),
    StableHlo.unary main_v129 main_v130 (Host.rsqrt : (⟨S128, .f32⟩ : BufTy).Contents (Elt F) → (⟨S128, .f32⟩ : BufTy).Contents (Elt F)),
    StableHlo.unary main_v130 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v132 main_v133 (mulf : (⟨S50000x128, .f32⟩ : BufTy).Contents (Elt F) → (⟨S50000x128, .f32⟩ : BufTy).Contents (Elt F) → (⟨S50000x128, .f32⟩ : BufTy).Contents (Elt F)),
    StableHlo.unary main_v118 main_v134 (broadcastInDim S1x128 ![1] bcast_S128_S1x128_1 : (⟨S128, .f32⟩ : BufTy).Contents (Elt F) → (⟨S1x128, .f32⟩ : BufTy).Contents (Elt F)),
    StableHlo.unary main_v134 main_v135 (broadcastInDim S50000x128 ![0, 1] bcast_S1x128_S50000x128_0_1 : (⟨S1x128, .f32⟩ : BufTy).Contents (Elt F) → (⟨S50000x128, .f32⟩ : BufTy).Contents (Elt F)),
    StableHlo.binary main_v133 main_v135 main_v136 (mulf : (⟨S50000x128, .f32⟩ : BufTy).Contents (Elt F) → (⟨S50000x128, .f32⟩ : BufTy).Contents (Elt F) → (⟨S50000x128, .f32⟩ : BufTy).Contents (Elt F)),
    StableHlo.unary main_v120 main_v137 (broadcastInDim S1x128 ![1] bcast_S128_S1x128_1 : (⟨S128, .f32⟩ : BufTy).Contents (Elt F) → (⟨S1x128, .f32⟩ : BufTy).Contents (Elt F)),
    StableHlo.unary main_v137 main_v138 (broadcastInDim S50000x128 ![0, 1] bcast_S1x128_S50000x128_0_1 : (⟨S1x128, .f32⟩ : BufTy).Contents (Elt F) → (⟨S50000x128, .f32⟩ : BufTy).Contents (Elt F)),
    StableHlo.binary main_v136 main_v138 main_v139 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v139) main_call3.v0 main_call3.v1 maximumf,
    StableHlo.binary main_v140 main_v14 main_v141 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_23 (constantI S_ 32 0#32),
    StableHlo.unary main_c_23 main_v142 (broadcastInDim S800000 ![] bcast_S_S800000 : (⟨S_, .i32⟩ : BufTy).Contents (Elt F) → (⟨S800000, .i32⟩ : BufTy).Contents (Elt F)),
    StableHlo.binary main_v1 main_v142 main_v143 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v144 (broadcastInDim S800000 ![] bcast_S_S800000 : (⟨S_, .i32⟩ : BufTy).Contents (Elt F) → (⟨S800000, .i32⟩ : BufTy).Contents (Elt F)),
    StableHlo.binary main_v1 main_v144 main_v145 (addi : (⟨S800000, .i32⟩ : BufTy).Contents (Elt F) → (⟨S800000, .i32⟩ : BufTy).Contents (Elt F) → (⟨S800000, .i32⟩ : BufTy).Contents (Elt F)),
    StableHlo.ternary main_v143 main_v145 main_v1 main_v146 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v146 main_v147 (broadcastInDim S800000x1 ![0] bcast_S800000_S800000x1_0 : (⟨S800000, .i32⟩ : BufTy).Contents (Elt F) → (⟨S800000x1, .i32⟩ : BufTy).Contents (Elt F)),
    StableHlo.binary main_v10 main_v147 main_v148 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_25 (constantI S_ 32 0#32),
    StableHlo.unary main_c_25 main_v149 (broadcastInDim S800000 ![] bcast_S_S800000 : (⟨S_, .i32⟩ : BufTy).Contents (Elt F) → (⟨S800000, .i32⟩ : BufTy).Contents (Elt F)),
    StableHlo.binary main_v3 main_v149 main_v150 (cmpi .slt : (⟨S800000, .i32⟩ : BufTy).Contents (Elt F) → (⟨S800000, .i32⟩ : BufTy).Contents (Elt F) → (⟨S800000, .i1⟩ : BufTy).Contents (Elt F)),
    StableHlo.nullary main_c_26 (constantI S_ 32 50000#32) ]

set_option maxRecDepth 8192 in
theorem ops5_sub : (ops5 : List (HloOp τ sig (Elt F))).Forall fun op => op.bufs ⊆ tcRefs τ sig :=
  ⟨unary_bufs_sub .., binary_bufs_sub .., nullary_bufs_sub .., binary_bufs_sub .., nullary_bufs_sub .., unary_bufs_sub .., unary_bufs_sub ..,
    ternary_bufs_sub .., unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub .., binary_bufs_sub ..,
    nullary_bufs_sub .., unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..⟩

set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- The references the operations write, in order. -/
abbrev ops5_W : List (Ref sig .tc) :=
  [ main_call2.v10.ref, main_call2.v11.ref, main_call2.cst_3.ref, main_call2.v12.ref, main_call2.cst_4.ref, main_call2.call0.v0.ref,
    main_call2.call0.v1.ref, main_call2.call0.v2.ref, main_v125, main_v126, main_v127, main_cst_22, main_v128, main_v129, main_v130, main_v131, main_v132,
    main_v133, main_v134, main_v135, main_v136, main_v137, main_v138, main_v139, main_call3.cst.ref, main_call3.v0.ref, main_call3.v1.ref, main_v141,
    main_c_23, main_v142, main_v143, main_c_24, main_v144, main_v145, main_v146, main_v147, main_v148, main_c_25, main_v149, main_v150, main_c_26 ]

set_option maxRecDepth 8192 in
theorem ops5_writes : (ops5 : List (HloOp τ sig (Elt F))).Forall fun op =>
    op.writes ⊆ (ops5_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr, by wr, by wr, by wr, by wr, by wr, by wr, by wr, by wr, by wr, by wr, by wr, by wr, by wr⟩

end Cert.ReferenceIdeal.Hand

end
-- ==== Proof.Ref.Part2.lean ====
import proofs.«422700_j84035330113950_1_alg».proof.Proof.Ref.Ops4
import proofs.«422700_j84035330113950_1_alg».proof.Proof.Ref.Ops5

/-! Window 2 of the reference's @main (statements 121 … 180) holds the second layer's two calls,
`%124 = @_var(%116, %c_21)` and `%140 = @relu(%139)`, over the records `main_call2` and `main_call3`. As in window 1 the
bodies, unfolded at their calls and sequenced through their returns, make the window one chain of 83 steps. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 2 runs the operations of its two halves in order; the second `@_var`, its `@_where` and the second `@relu`
    contribute their operations over their own buffers. Both sides compute to the same chain of steps. -/
theorem main_part2_eq (c : Dev nD) : main_part2 (F := F) c = seq (ops4 ++ ops5) := rfl

end Cert.ReferenceIdeal.Hand

end
-- ==== Proof.Ref.Ops6.lean ====
import proofs.«422700_j84035330113950_1_alg».proof.Proof.Gen.ReferenceIdeal
import Idealize.ShloMosaic.Lib.StableHlo.Run

/-! Operations 1 … 42 of the 83 that window 3 of the reference's @main runs, in order: each printed step's
operation as printed; a call's operations are its callee's, over the call's operands and buffer record. With the list:
every operation touches TensorCore references only, determines everything it writes, and writes one reference of `ops6_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops6 : List (HloOp τ sig (Elt F)) :=
  [ StableHlo.unary main_c_26 main_v151 (broadcastInDim S800000 ![] bcast_S_S800000 : (⟨S_, .i32⟩ : BufTy).Contents (Elt F) → (⟨S800000, .i32⟩ : BufTy).Contents (Elt F)),
    StableHlo.binary main_v3 main_v151 main_v152 (addi : (⟨S800000, .i32⟩ : BufTy).Contents (Elt F) → (⟨S800000, .i32⟩ : BufTy).Contents (Elt F) → (⟨S800000, .i32⟩ : BufTy).Contents (Elt F)),
    StableHlo.ternary main_v150 main_v152 main_v3 main_v153 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v153 main_v154 (broadcastInDim S800000x1 ![0] bcast_S800000_S800000x1_0 : (⟨S800000, .i32⟩ : BufTy).Contents (Elt F) → (⟨S800000x1, .i32⟩ : BufTy).Contents (Elt F)),
    StableHlo.binary main_v10 main_v154 main_v155 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v148 main_v155 main_v156 (mulf : (⟨S800000, .f32⟩ : BufTy).Contents (Elt F) → (⟨S800000, .f32⟩ : BufTy).Contents (Elt F) → (⟨S800000, .f32⟩ : BufTy).Contents (Elt F)),
    StableHlo.nullary main_c_27 (constantI S_ 32 0#32),
    StableHlo.unary main_c_27 main_v157 (broadcastInDim S800000 ![] bcast_S_S800000 : (⟨S_, .i32⟩ : BufTy).Contents (Elt F) → (⟨S800000, .i32⟩ : BufTy).Contents (Elt F)),
    StableHlo.binary main_v1 main_v157 main_v158 (cmpi .slt : (⟨S800000, .i32⟩ : BufTy).Contents (Elt F) → (⟨S800000, .i32⟩ : BufTy).Contents (Elt F) → (⟨S800000, .i1⟩ : BufTy).Contents (Elt F)),
    StableHlo.nullary main_c_28 (constantI S_ 32 50000#32),
    StableHlo.unary main_c_28 main_v159 (broadcastInDim S800000 ![] bcast_S_S800000 : (⟨S_, .i32⟩ : BufTy).Contents (Elt F) → (⟨S800000, .i32⟩ : BufTy).Contents (Elt F)),
    StableHlo.binary main_v1 main_v159 main_v160 (addi : (⟨S800000, .i32⟩ : BufTy).Contents (Elt F) → (⟨S800000, .i32⟩ : BufTy).Contents (Elt F) → (⟨S800000, .i32⟩ : BufTy).Contents (Elt F)),
    StableHlo.ternary main_v158 main_v160 main_v1 main_v161 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v161 main_v162 (broadcastInDim S800000x1 ![0] bcast_S800000_S800000x1_0 : (⟨S800000, .i32⟩ : BufTy).Contents (Elt F) → (⟨S800000x1, .i32⟩ : BufTy).Contents (Elt F)),
    StableHlo.binary main_v141 main_v162 main_v163 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.unary main_v156 main_v164 (broadcastInDim S800000x1 ![0] bcast_S800000_S800000x1_0 : (⟨S800000, .f32⟩ : BufTy).Contents (Elt F) → (⟨S800000x1, .f32⟩ : BufTy).Contents (Elt F)),
    StableHlo.unary main_v164 main_v165 (broadcastInDim S800000x128 ![0, 1] bcast_S800000x1_S800000x128_0_1 : (⟨S800000x1, .f32⟩ : BufTy).Contents (Elt F) → (⟨S800000x128, .f32⟩ : BufTy).Contents (Elt F)),
    StableHlo.binary main_v163 main_v165 main_v166 (mulf : (⟨S800000x128, .f32⟩ : BufTy).Contents (Elt F) → (⟨S800000x128, .f32⟩ : BufTy).Contents (Elt F) → (⟨S800000x128, .f32⟩ : BufTy).Contents (Elt F)),
    StableHlo.nullary main_cst_29 (constant S_ .f32 0x00000000#32),
    StableHlo.unary main_cst_29 main_v167 (broadcastInDim S50000x128 ![] bcast_S_S50000x128 : (⟨S_, .f32⟩ : BufTy).Contents (Elt F) → (⟨S50000x128, .f32⟩ : BufTy).Contents (Elt F)),
    StableHlo.unary main_v3 main_v168 (broadcastInDim S800000x1 ![0] bcast_S800000_S800000x1_0 : (⟨S800000, .i32⟩ : BufTy).Contents (Elt F) → (⟨S800000x1, .i32⟩ : BufTy).Contents (Elt F)),
    StableHlo.ternary main_v167 main_v168 main_v166 main_v169 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v10 main_v10 main_v170 (mulf : (⟨S50000, .f32⟩ : BufTy).Contents (Elt F) → (⟨S50000, .f32⟩ : BufTy).Contents (Elt F) → (⟨S50000, .f32⟩ : BufTy).Contents (Elt F)),
    StableHlo.unary main_v170 main_v171 (broadcastInDim S50000x1 ![0] bcast_S50000_S50000x1_0 : (⟨S50000, .f32⟩ : BufTy).Contents (Elt F) → (⟨S50000x1, .f32⟩ : BufTy).Contents (Elt F)),
    StableHlo.unary main_v171 main_v172 (broadcastInDim S50000x128 ![0, 1] bcast_S50000x1_S50000x128_0_1 : (⟨S50000x1, .f32⟩ : BufTy).Contents (Elt F) → (⟨S50000x128, .f32⟩ : BufTy).Contents (Elt F)),
    StableHlo.binary main_v141 main_v172 main_v173 (mulf : (⟨S50000x128, .f32⟩ : BufTy).Contents (Elt F) → (⟨S50000x128, .f32⟩ : BufTy).Contents (Elt F) → (⟨S50000x128, .f32⟩ : BufTy).Contents (Elt F)),
    StableHlo.binary main_v169 main_v173 main_v174 (addf : (⟨S50000x128, .f32⟩ : BufTy).Contents (Elt F) → (⟨S50000x128, .f32⟩ : BufTy).Contents (Elt F) → (⟨S50000x128, .f32⟩ : BufTy).Contents (Elt F)),
    StableHlo.unary main_v18 main_v175 (broadcastInDim S1x128 ![1] bcast_S128_S1x128_1 : (⟨S128, .f32⟩ : BufTy).Contents (Elt F) → (⟨S1x128, .f32⟩ : BufTy).Contents (Elt F)),
    StableHlo.unary main_v175 main_v176 (broadcastInDim S50000x128 ![0, 1] bcast_S1x128_S50000x128_0_1 : (⟨S1x128, .f32⟩ : BufTy).Contents (Elt F) → (⟨S50000x128, .f32⟩ : BufTy).Contents (Elt F)),
    StableHlo.binary main_v174 main_v176 main_v177 (addf : (⟨S50000x128, .f32⟩ : BufTy).Contents (Elt F) → (⟨S50000x128, .f32⟩ : BufTy).Contents (Elt F) → (⟨S50000x128, .f32⟩ : BufTy).Contents (Elt F)),
    StableHlo.unary main_arg7 main_v178 ((extractStridedSlice S1x128 ![2, 0] · slices_S3x128_S1x128_2_0) : (⟨S3x128, .f32⟩ : BufTy).Contents (Elt F) → (⟨S1x128, .f32⟩ : BufTy).Contents (Elt F)),
    StableHlo.reshape main_v178 main_v179 rfl shapeCasts_S1x128_S128,
    StableHlo.unary main_arg8 main_v180 ((extractStridedSlice S1x128 ![2, 0] · slices_S3x128_S1x128_2_0) : (⟨S3x128, .f32⟩ : BufTy).Contents (Elt F) → (⟨S1x128, .f32⟩ : BufTy).Contents (Elt F)),
    StableHlo.reshape main_v180 main_v181 rfl shapeCasts_S1x128_S128,
    StableHlo.nullary main_cst_30 (constant S_ .f32 0x00000000#32),
    StableHlo.binary main_v177 main_cst_30 main_v182 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v183 (broadcastInDim S128 ![] bcast_S_S128 : (⟨S_, .f32⟩ : BufTy).Contents (Elt F) → (⟨S128, .f32⟩ : BufTy).Contents (Elt F)),
    StableHlo.binary main_v182 main_v183 main_v184 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call4.cst (constant S_ .f32 0x00000000#32),
    StableHlo.TRef.binary (.of main_v177) main_call4.cst main_call4.v0 (fun x v => Host.reduceAdd x v reducesTo_S50000x128_S128_d0 h_S_) ]

set_option maxRecDepth 8192 in
theorem ops6_sub : (ops6 : List (HloOp τ sig (Elt F))).Forall fun op => op.bufs ⊆ tcRefs τ sig :=
  ⟨unary_bufs_sub .., binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., binary_bufs_sub .., unary_bufs_sub ..,
    unary_bufs_sub .., binary_bufs_sub .., unary_bufs_sub .., reshape_bufs_sub .., unary_bufs_sub .., reshape_bufs_sub .., nullary_bufs_sub ..,
    binary_bufs_sub .., nullary_bufs_sub .., unary_bufs_sub .., binary_bufs_sub .., nullary_bufs_sub .., nullary_bufs_sub .., binary_bufs_sub ..⟩

set_option maxRecDepth 8192 in
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The references the operations write, in order. -/
abbrev ops6_W : List (Ref sig .tc) :=
  [ main_v151, main_v152, main_v153, main_v154, main_v155, main_v156, main_c_27, main_v157, main_v158, main_c_28, main_v159, main_v160, main_v161,
    main_v162, main_v163, main_v164, main_v165, main_v166, main_cst_29, main_v167, main_v168, main_v169, main_v170, main_v171, main_v172, main_v173,
    main_v174, main_v175, main_v176, main_v177, main_v178, main_v179, main_v180, main_v181, main_cst_30, main_v182, main_cst_31, main_v183, main_v184,
    main_c_32, main_call4.cst.ref, main_call4.v0.ref ]

set_option maxRecDepth 8192 in
theorem ops6_writes : (ops6 : List (HloOp τ sig (Elt F))).Forall fun op =>
    op.writes ⊆ (ops6_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr, by wr, by wr, by wr, by wr, by wr, by wr, by wr, by wr, by wr, by wr, by wr, by wr, by wr, by wr⟩

end Cert.ReferenceIdeal.Hand

end
-- ==== Proof.Ref.Ops7.lean ====
import proofs.«422700_j84035330113950_1_alg».proof.Proof.Gen.ReferenceIdeal
import Idealize.ShloMosaic.Lib.StableHlo.Run

/-! Operations 43 … 83 of the 83 that window 3 of the reference's @main runs, in order: each printed step's
operation as printed; a call's operations are its callee's, over the call's operands and buffer record. With the list:
every operation touches TensorCore references only, determines everything it writes, and writes one reference of `ops7_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops7 : List (HloOp τ sig (Elt F)) :=
  [ StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v177) main_call4.v4 main_call4.v5 subf,
    StableHlo.TRef.binary main_call4.v5 main_call4.v5 main_call4.v6 mulf,
    StableHlo.TRef.unary (.of main_c_32) main_call4.v7 (sitofp (F := F) .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf (F := F) .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v184 main_v186 (broadcastInDim S1x128 ![1] bcast_S128_S1x128_1 : (⟨S128, .f32⟩ : BufTy).Contents (Elt F) → (⟨S1x128, .f32⟩ : BufTy).Contents (Elt F)),
    StableHlo.unary main_v186 main_v187 (broadcastInDim S50000x128 ![0, 1] bcast_S1x128_S50000x128_0_1 : (⟨S1x128, .f32⟩ : BufTy).Contents (Elt F) → (⟨S50000x128, .f32⟩ : BufTy).Contents (Elt F)),
    StableHlo.binary main_v177 main_v187 main_v188 (subf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v189 (broadcastInDim S128 ![] bcast_S_S128 : (⟨S_, .f32⟩ : BufTy).Contents (Elt F) → (⟨S128, .f32⟩ : BufTy).Contents (Elt F)),
    StableHlo.binary main_v185 main_v189 main_v190 (addf : (⟨S128, .f32⟩ : BufTy).Contents (Elt F) → (⟨S128, .f32⟩ : BufTy).Contents (Elt F) → (⟨S128, .f32⟩ : BufTy).Contents (Elt F)),
    StableHlo.unary main_v190 main_v191 (Host.rsqrt : (⟨S128, .f32⟩ : BufTy).Contents (Elt F) → (⟨S128, .f32⟩ : BufTy).Contents (Elt F)),
    StableHlo.unary main_v191 main_v192 (broadcastInDim S1x128 ![1] bcast_S128_S1x128_1 : (⟨S128, .f32⟩ : BufTy).Contents (Elt F) → (⟨S1x128, .f32⟩ : BufTy).Contents (Elt F)),
    StableHlo.unary main_v192 main_v193 (broadcastInDim S50000x128 ![0, 1] bcast_S1x128_S50000x128_0_1 : (⟨S1x128, .f32⟩ : BufTy).Contents (Elt F) → (⟨S50000x128, .f32⟩ : BufTy).Contents (Elt F)),
    StableHlo.binary main_v188 main_v193 main_v194 (mulf : (⟨S50000x128, .f32⟩ : BufTy).Contents (Elt F) → (⟨S50000x128, .f32⟩ : BufTy).Contents (Elt F) → (⟨S50000x128, .f32⟩ : BufTy).Contents (Elt F)),
    StableHlo.unary main_v179 main_v195 (broadcastInDim S1x128 ![1] bcast_S128_S1x128_1 : (⟨S128, .f32⟩ : BufTy).Contents (Elt F) → (⟨S1x128, .f32⟩ : BufTy).Contents (Elt F)),
    StableHlo.unary main_v195 main_v196 (broadcastInDim S50000x128 ![0, 1] bcast_S1x128_S50000x128_0_1 : (⟨S1x128, .f32⟩ : BufTy).Contents (Elt F) → (⟨S50000x128, .f32⟩ : BufTy).Contents (Elt F)),
    StableHlo.binary main_v194 main_v196 main_v197 (mulf : (⟨S50000x128, .f32⟩ : BufTy).Contents (Elt F) → (⟨S50000x128, .f32⟩ : BufTy).Contents (Elt F) → (⟨S50000x128, .f32⟩ : BufTy).Contents (Elt F)),
    StableHlo.unary main_v181 main_v198 (broadcastInDim S1x128 ![1] bcast_S128_S1x128_1 : (⟨S128, .f32⟩ : BufTy).Contents (Elt F) → (⟨S1x128, .f32⟩ : BufTy).Contents (Elt F)),
    StableHlo.unary main_v198 main_v199 (broadcastInDim S50000x128 ![0, 1] bcast_S1x128_S50000x128_0_1 : (⟨S1x128, .f32⟩ : BufTy).Contents (Elt F) → (⟨S50000x128, .f32⟩ : BufTy).Contents (Elt F)),
    StableHlo.binary main_v197 main_v199 main_v200 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v200) main_call5.v0 main_call5.v1 maximumf,
    StableHlo.nullary main_cst_34 (constant S_ .f32 0x3F800000#32),
    StableHlo.unary main_cst_34 main_v202 (broadcastInDim S50000 ![] bcast_S_S50000 : (⟨S_, .f32⟩ : BufTy).Contents (Elt F) → (⟨S50000, .f32⟩ : BufTy).Contents (Elt F)) ]

set_option maxRecDepth 8192 in
theorem ops7_sub : (ops7 : List (HloOp τ sig (Elt F))).Forall fun op => op.bufs ⊆ tcRefs τ sig :=
  ⟨unary_bufs_sub .., nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..⟩

set_option maxRecDepth 8192 in
theorem ops7_fresh : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- The references the operations write, in order. -/
abbrev ops7_W : List (Ref sig .tc) :=
  [ main_call4.v1.ref, main_call4.cst_0.ref, main_call4.v2.ref, main_call4.v3.ref, main_call4.v4.ref, main_call4.v5.ref, main_call4.v6.ref,
    main_call4.v7.ref, main_call4.cst_1.ref, main_call4.v8.ref, main_call4.cst_2.ref, main_call4.v9.ref, main_call4.v10.ref, main_call4.v11.ref,
    main_call4.cst_3.ref, main_call4.v12.ref, main_call4.cst_4.ref, main_call4.call0.v0.ref, main_call4.call0.v1.ref, main_call4.call0.v2.ref, main_v186,
    main_v187, main_v188, main_cst_33, main_v189, main_v190, main_v191, main_v192, main_v193, main_v194, main_v195, main_v196, main_v197, main_v198,
    main_v199, main_v200, main_call5.cst.ref, main_call5.v0.ref, main_call5.v1.ref, main_cst_34, main_v202 ]

set_option maxRecDepth 8192 in
theorem ops7_writes : (ops7 : List (HloOp τ sig (Elt F))).Forall fun op =>
    op.writes ⊆ (ops7_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr, by wr, by wr, by wr, by wr, by wr, by wr, by wr, by wr, by wr, by wr, by wr, by wr, by wr⟩

end Cert.ReferenceIdeal.Hand

end
-- ==== Proof.Ref.Part3.lean ====
import proofs.«422700_j84035330113950_1_alg».proof.Proof.Ref.Ops6
import proofs.«422700_j84035330113950_1_alg».proof.Proof.Ref.Ops7

/-! Window 3 of the reference's @main (statements 181 … 240) holds the third layer's two calls,
`%185 = @_var(%177, %c_32)` and `%201 = @relu(%200)`, over the records `main_call4` and `main_call5`. Each call stands
for its callee's operations; sequenced through the returns the window is one chain of 83 steps. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 3 runs the operations of its two halves in order, the third `@_var` (with its `@_where`) and the third
    `@relu` listed where they are called. Both sides compute to the same chain of steps. -/
theorem main_part3_eq (c : Dev nD) : main_part3 (F := F) c = seq (ops6 ++ ops7) := rfl

end Cert.ReferenceIdeal.Hand

end
-- ==== Proof.Ref.Ops8.lean ====
import proofs.«422700_j84035330113950_1_alg».proof.Proof.Gen.ReferenceIdeal
import Idealize.ShloMosaic.Lib.StableHlo.Run

/-! Operations 1 … 42 of the 83 that window 4 of the reference's @main runs, in order: each printed step's
operation as printed; a call's operations are its callee's, over the call's operands and buffer record. With the list:
every operation touches TensorCore references only, determines everything it writes, and writes one reference of `ops8_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops8 : List (HloOp τ sig (Elt F)) :=
  [ StableHlo.nullary main_cst_35 (constant S_ .f32 0x00000000#32),
    StableHlo.unary main_cst_35 main_v203 (broadcastInDim S32 ![] bcast_S_S32 : (⟨S_, .f32⟩ : BufTy).Contents (Elt F) → (⟨S32, .f32⟩ : BufTy).Contents (Elt F)),
    StableHlo.unary main_arg2 main_v204 (broadcastInDim S50000x1 ![0] bcast_S50000_S50000x1_0 : (⟨S50000, .i32⟩ : BufTy).Contents (Elt F) → (⟨S50000x1, .i32⟩ : BufTy).Contents (Elt F)),
    StableHlo.ternary main_v203 main_v204 main_v202 main_v205 ((fun x i u => Host.scatterAdd scatter_S32_S50000x1_S50000_n_0_0_1 x i u) : (⟨S32, .f32⟩ : BufTy).Contents (Elt F) → (⟨S50000x1, .i32⟩ : BufTy).Contents (Elt F) → (⟨S50000, .f32⟩ : BufTy).Contents (Elt F) → (⟨S32, .f32⟩ : BufTy).Contents (Elt F)),
    StableHlo.nullary main_cst_36 (constant S_ .f32 0x00000000#32),
    StableHlo.unary main_cst_36 main_v206 (broadcastInDim S32x128 ![] bcast_S_S32x128 : (⟨S_, .f32⟩ : BufTy).Contents (Elt F) → (⟨S32x128, .f32⟩ : BufTy).Contents (Elt F)),
    StableHlo.unary main_arg2 main_v207 (broadcastInDim S50000x1 ![0] bcast_S50000_S50000x1_0 : (⟨S50000, .i32⟩ : BufTy).Contents (Elt F) → (⟨S50000x1, .i32⟩ : BufTy).Contents (Elt F)),
    StableHlo.ternary main_v206 main_v207 main_v201 main_v208 ((fun x i u => Host.scatterAdd scatter_S32x128_S50000x1_S50000x128_1_0_0_1 x i u) : (⟨S32x128, .f32⟩ : BufTy).Contents (Elt F) → (⟨S50000x1, .i32⟩ : BufTy).Contents (Elt F) → (⟨S50000x128, .f32⟩ : BufTy).Contents (Elt F) → (⟨S32x128, .f32⟩ : BufTy).Contents (Elt F)),
    StableHlo.nullary main_cst_37 (constant S_ .f32 0x3F800000#32),
    StableHlo.unary main_cst_37 main_v209 (broadcastInDim S32 ![] bcast_S_S32 : (⟨S_, .f32⟩ : BufTy).Contents (Elt F) → (⟨S32, .f32⟩ : BufTy).Contents (Elt F)),
    StableHlo.binary main_v205 main_v209 main_v210 (maximumf : (⟨S32, .f32⟩ : BufTy).Contents (Elt F) → (⟨S32, .f32⟩ : BufTy).Contents (Elt F) → (⟨S32, .f32⟩ : BufTy).Contents (Elt F)),
    StableHlo.unary main_v210 main_v211 (broadcastInDim S32x1 ![0] bcast_S32_S32x1_0 : (⟨S32, .f32⟩ : BufTy).Contents (Elt F) → (⟨S32x1, .f32⟩ : BufTy).Contents (Elt F)),
    StableHlo.unary main_v211 main_v212 (broadcastInDim S32x128 ![0, 1] bcast_S32x1_S32x128_0_1 : (⟨S32x1, .f32⟩ : BufTy).Contents (Elt F) → (⟨S32x128, .f32⟩ : BufTy).Contents (Elt F)),
    StableHlo.binary main_v208 main_v212 main_v213 (Host.divf : (⟨S32x128, .f32⟩ : BufTy).Contents (Elt F) → (⟨S32x128, .f32⟩ : BufTy).Contents (Elt F) → (⟨S32x128, .f32⟩ : BufTy).Contents (Elt F)),
    StableHlo.unary main_arg9 main_v214 ((extractStridedSlice S1x128x128 ![0, 0, 0] · slices_S2x128x128_S1x128x128_0_0_0) : (⟨S2x128x128, .f32⟩ : BufTy).Contents (Elt F) → (⟨S1x128x128, .f32⟩ : BufTy).Contents (Elt F)),
    StableHlo.reshape main_v214 main_v215 rfl shapeCasts_S1x128x128_S128x128,
    StableHlo.binary main_v213 main_v215 main_v216 ((fun l r => Host.dotGeneral dot_S32x128_S128x128_S32x128_1_0_0_1_n_n none l r) : (⟨S32x128, .f32⟩ : BufTy).Contents (Elt F) → (⟨S128x128, .f32⟩ : BufTy).Contents (Elt F) → (⟨S32x128, .f32⟩ : BufTy).Contents (Elt F)),
    StableHlo.unary main_arg10 main_v217 ((extractStridedSlice S1x128 ![0, 0] · slices_S2x128_S1x128_0_0) : (⟨S2x128, .f32⟩ : BufTy).Contents (Elt F) → (⟨S1x128, .f32⟩ : BufTy).Contents (Elt F)),
    StableHlo.reshape main_v217 main_v218 rfl shapeCasts_S1x128_S128,
    StableHlo.unary main_v218 main_v219 (broadcastInDim S1x128 ![1] bcast_S128_S1x128_1 : (⟨S128, .f32⟩ : BufTy).Contents (Elt F) → (⟨S1x128, .f32⟩ : BufTy).Contents (Elt F)),
    StableHlo.unary main_v219 main_v220 (broadcastInDim S32x128 ![0, 1] bcast_S1x128_S32x128_0_1 : (⟨S1x128, .f32⟩ : BufTy).Contents (Elt F) → (⟨S32x128, .f32⟩ : BufTy).Contents (Elt F)),
    StableHlo.binary main_v216 main_v220 main_v221 (addf : (⟨S32x128, .f32⟩ : BufTy).Contents (Elt F) → (⟨S32x128, .f32⟩ : BufTy).Contents (Elt F) → (⟨S32x128, .f32⟩ : BufTy).Contents (Elt F)),
    StableHlo.unary main_arg11 main_v222 ((extractStridedSlice S1x128 ![0, 0] · slices_S2x128_S1x128_0_0) : (⟨S2x128, .f32⟩ : BufTy).Contents (Elt F) → (⟨S1x128, .f32⟩ : BufTy).Contents (Elt F)),
    StableHlo.reshape main_v222 main_v223 rfl shapeCasts_S1x128_S128,
    StableHlo.unary main_arg12 main_v224 ((extractStridedSlice S1x128 ![0, 0] · slices_S2x128_S1x128_0_0) : (⟨S2x128, .f32⟩ : BufTy).Contents (Elt F) → (⟨S1x128, .f32⟩ : BufTy).Contents (Elt F)),
    StableHlo.reshape main_v224 main_v225 rfl shapeCasts_S1x128_S128,
    StableHlo.nullary main_cst_38 (constant S_ .f32 0x00000000#32),
    StableHlo.binary main_v221 main_cst_38 main_v226 ((fun x v => Host.reduceAdd x v reducesTo_S32x128_S128_d0 h_S_) : (⟨S32x128, .f32⟩ : BufTy).Contents (Elt F) → (⟨S_, .f32⟩ : BufTy).Contents (Elt F) → (⟨S128, .f32⟩ : BufTy).Contents (Elt F)),
    StableHlo.nullary main_cst_39 (constant S_ .f32 0x42000000#32),
    StableHlo.unary main_cst_39 main_v227 (broadcastInDim S128 ![] bcast_S_S128 : (⟨S_, .f32⟩ : BufTy).Contents (Elt F) → (⟨S128, .f32⟩ : BufTy).Contents (Elt F)),
    StableHlo.binary main_v226 main_v227 main_v228 (Host.divf : (⟨S128, .f32⟩ : BufTy).Contents (Elt F) → (⟨S128, .f32⟩ : BufTy).Contents (Elt F) → (⟨S128, .f32⟩ : BufTy).Contents (Elt F)),
    StableHlo.nullary main_c_40 (constantI S_ 32 0#32),
    StableHlo.TRef.nullary main_call6.cst (constant S_ .f32 0x00000000#32),
    StableHlo.TRef.binary (.of main_v221) main_call6.cst main_call6.v0 (fun x v => Host.reduceAdd x v reducesTo_S32x128_S128_d0 h_S_),
    StableHlo.TRef.unary main_call6.v0 main_call6.v1 (broadcastInDim S1x128 ![1] bcast_S128_S1x128_1),
    StableHlo.TRef.nullary main_call6.cst_0 (constant S_ .f32 0x42000000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S32x128 ![0, 1] bcast_S1x128_S32x128_0_1),
    StableHlo.TRef.binary (.of main_v221) main_call6.v4 main_call6.v5 subf,
    StableHlo.TRef.binary main_call6.v5 main_call6.v5 main_call6.v6 mulf,
    StableHlo.TRef.unary (.of main_c_40) main_call6.v7 (sitofp (F := F) .f32) ]

set_option maxRecDepth 8192 in
theorem ops8_sub : (ops8 : List (HloOp τ sig (Elt F))).Forall fun op => op.bufs ⊆ tcRefs τ sig :=
  ⟨nullary_bufs_sub .., unary_bufs_sub .., unary_bufs_sub .., ternary_bufs_sub .., nullary_bufs_sub .., unary_bufs_sub .., unary_bufs_sub ..,
    ternary_bufs_sub .., nullary_bufs_sub .., unary_bufs_sub .., binary_bufs_sub .., unary_bufs_sub .., unary_bufs_sub .., binary_bufs_sub ..,
    unary_bufs_sub .., reshape_bufs_sub .., binary_bufs_sub .., unary_bufs_sub .., reshape_bufs_sub .., unary_bufs_sub .., unary_bufs_sub ..,
    binary_bufs_sub .., unary_bufs_sub .., reshape_bufs_sub .., unary_bufs_sub .., reshape_bufs_sub .., nullary_bufs_sub .., binary_bufs_sub ..,
    nullary_bufs_sub .., unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub .., unary_bufs_sub ..⟩

set_option maxRecDepth 8192 in
theorem ops8_fresh : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl⟩

/-- The references the operations write, in order. -/
abbrev ops8_W : List (Ref sig .tc) :=
  [ main_cst_35, main_v203, main_v204, main_v205, main_cst_36, main_v206, main_v207, main_v208, main_cst_37, main_v209, main_v210, main_v211, main_v212,
    main_v213, main_v214, main_v215, main_v216, main_v217, main_v218, main_v219, main_v220, main_v221, main_v222, main_v223, main_v224, main_v225,
    main_cst_38, main_v226, main_cst_39, main_v227, main_v228, main_c_40, main_call6.cst.ref, main_call6.v0.ref, main_call6.v1.ref, main_call6.cst_0.ref,
    main_call6.v2.ref, main_call6.v3.ref, main_call6.v4.ref, main_call6.v5.ref, main_call6.v6.ref, main_call6.v7.ref ]

set_option maxRecDepth 8192 in
theorem ops8_writes : (ops8 : List (HloOp τ sig (Elt F))).Forall fun op =>
    op.writes ⊆ (ops8_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr, by wr, by wr, by wr, by wr, by wr, by wr, by wr, by wr, by wr, by wr, by wr, by wr, by wr, by wr⟩

end Cert.ReferenceIdeal.Hand

end
-- ==== Proof.Ref.Ops9.lean ====
import proofs.«422700_j84035330113950_1_alg».proof.Proof.Gen.ReferenceIdeal
import Idealize.ShloMosaic.Lib.StableHlo.Run

/-! Operations 43 … 83 of the 83 that window 4 of the reference's @main runs, in order: each printed step's
operation as printed; a call's operations are its callee's, over the call's operands and buffer record. With the list:
every operation touches TensorCore references only, determines everything it writes, and writes one reference of `ops9_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops9 : List (HloOp τ sig (Elt F)) :=
  [ StableHlo.TRef.nullary main_call6.cst_1 (constant S_ .f32 0x42000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S32x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf (F := F) .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v228 main_v230 (broadcastInDim S1x128 ![1] bcast_S128_S1x128_1 : (⟨S128, .f32⟩ : BufTy).Contents (Elt F) → (⟨S1x128, .f32⟩ : BufTy).Contents (Elt F)),
    StableHlo.unary main_v230 main_v231 (broadcastInDim S32x128 ![0, 1] bcast_S1x128_S32x128_0_1 : (⟨S1x128, .f32⟩ : BufTy).Contents (Elt F) → (⟨S32x128, .f32⟩ : BufTy).Contents (Elt F)),
    StableHlo.binary main_v221 main_v231 main_v232 (subf : (⟨S32x128, .f32⟩ : BufTy).Contents (Elt F) → (⟨S32x128, .f32⟩ : BufTy).Contents (Elt F) → (⟨S32x128, .f32⟩ : BufTy).Contents (Elt F)),
    StableHlo.nullary main_cst_41 (constant S_ .f32 0x3727C5AC#32),
    StableHlo.unary main_cst_41 main_v233 (broadcastInDim S128 ![] bcast_S_S128 : (⟨S_, .f32⟩ : BufTy).Contents (Elt F) → (⟨S128, .f32⟩ : BufTy).Contents (Elt F)),
    StableHlo.binary main_v229 main_v233 main_v234 (addf : (⟨S128, .f32⟩ : BufTy).Contents (Elt F) → (⟨S128, .f32⟩ : BufTy).Contents (Elt F) → (⟨S128, .f32⟩ : BufTy).Contents (Elt F)),
    StableHlo.unary main_v234 main_v235 (Host.rsqrt : (⟨S128, .f32⟩ : BufTy).Contents (Elt F) → (⟨S128, .f32⟩ : BufTy).Contents (Elt F)),
    StableHlo.unary main_v235 main_v236 (broadcastInDim S1x128 ![1] bcast_S128_S1x128_1 : (⟨S128, .f32⟩ : BufTy).Contents (Elt F) → (⟨S1x128, .f32⟩ : BufTy).Contents (Elt F)),
    StableHlo.unary main_v236 main_v237 (broadcastInDim S32x128 ![0, 1] bcast_S1x128_S32x128_0_1 : (⟨S1x128, .f32⟩ : BufTy).Contents (Elt F) → (⟨S32x128, .f32⟩ : BufTy).Contents (Elt F)),
    StableHlo.binary main_v232 main_v237 main_v238 (mulf : (⟨S32x128, .f32⟩ : BufTy).Contents (Elt F) → (⟨S32x128, .f32⟩ : BufTy).Contents (Elt F) → (⟨S32x128, .f32⟩ : BufTy).Contents (Elt F)),
    StableHlo.unary main_v223 main_v239 (broadcastInDim S1x128 ![1] bcast_S128_S1x128_1 : (⟨S128, .f32⟩ : BufTy).Contents (Elt F) → (⟨S1x128, .f32⟩ : BufTy).Contents (Elt F)),
    StableHlo.unary main_v239 main_v240 (broadcastInDim S32x128 ![0, 1] bcast_S1x128_S32x128_0_1 : (⟨S1x128, .f32⟩ : BufTy).Contents (Elt F) → (⟨S32x128, .f32⟩ : BufTy).Contents (Elt F)),
    StableHlo.binary main_v238 main_v240 main_v241 (mulf : (⟨S32x128, .f32⟩ : BufTy).Contents (Elt F) → (⟨S32x128, .f32⟩ : BufTy).Contents (Elt F) → (⟨S32x128, .f32⟩ : BufTy).Contents (Elt F)),
    StableHlo.unary main_v225 main_v242 (broadcastInDim S1x128 ![1] bcast_S128_S1x128_1 : (⟨S128, .f32⟩ : BufTy).Contents (Elt F) → (⟨S1x128, .f32⟩ : BufTy).Contents (Elt F)),
    StableHlo.unary main_v242 main_v243 (broadcastInDim S32x128 ![0, 1] bcast_S1x128_S32x128_0_1 : (⟨S1x128, .f32⟩ : BufTy).Contents (Elt F) → (⟨S32x128, .f32⟩ : BufTy).Contents (Elt F)),
    StableHlo.binary main_v241 main_v243 main_v244 (addf : (⟨S32x128, .f32⟩ : BufTy).Contents (Elt F) → (⟨S32x128, .f32⟩ : BufTy).Contents (Elt F) → (⟨S32x128, .f32⟩ : BufTy).Contents (Elt F)),
    StableHlo.TRef.nullary main_call7.cst (constant S_ .f32 0x00000000#32),
    StableHlo.TRef.unary main_call7.cst main_call7.v0 (broadcastInDim S32x128 ![] bcast_S_S32x128),
    StableHlo.TRef.binary (.of main_v244) main_call7.v0 main_call7.v1 maximumf,
    StableHlo.unary main_arg9 main_v246 ((extractStridedSlice S1x128x128 ![1, 0, 0] · slices_S2x128x128_S1x128x128_1_0_0) : (⟨S2x128x128, .f32⟩ : BufTy).Contents (Elt F) → (⟨S1x128x128, .f32⟩ : BufTy).Contents (Elt F)),
    StableHlo.reshape main_v246 main_v247 rfl shapeCasts_S1x128x128_S128x128,
    StableHlo.binary main_v245 main_v247 main_v248 ((fun l r => Host.dotGeneral dot_S32x128_S128x128_S32x128_1_0_0_1_n_n none l r) : (⟨S32x128, .f32⟩ : BufTy).Contents (Elt F) → (⟨S128x128, .f32⟩ : BufTy).Contents (Elt F) → (⟨S32x128, .f32⟩ : BufTy).Contents (Elt F)),
    StableHlo.unary main_arg10 main_v249 ((extractStridedSlice S1x128 ![1, 0] · slices_S2x128_S1x128_1_0) : (⟨S2x128, .f32⟩ : BufTy).Contents (Elt F) → (⟨S1x128, .f32⟩ : BufTy).Contents (Elt F)),
    StableHlo.reshape main_v249 main_v250 rfl shapeCasts_S1x128_S128,
    StableHlo.unary main_v250 main_v251 (broadcastInDim S1x128 ![1] bcast_S128_S1x128_1 : (⟨S128, .f32⟩ : BufTy).Contents (Elt F) → (⟨S1x128, .f32⟩ : BufTy).Contents (Elt F)),
    StableHlo.unary main_v251 main_v252 (broadcastInDim S32x128 ![0, 1] bcast_S1x128_S32x128_0_1 : (⟨S1x128, .f32⟩ : BufTy).Contents (Elt F) → (⟨S32x128, .f32⟩ : BufTy).Contents (Elt F)),
    StableHlo.binary main_v248 main_v252 main_v253 (addf : (⟨S32x128, .f32⟩ : BufTy).Contents (Elt F) → (⟨S32x128, .f32⟩ : BufTy).Contents (Elt F) → (⟨S32x128, .f32⟩ : BufTy).Contents (Elt F)),
    StableHlo.unary main_arg11 main_v254 ((extractStridedSlice S1x128 ![1, 0] · slices_S2x128_S1x128_1_0) : (⟨S2x128, .f32⟩ : BufTy).Contents (Elt F) → (⟨S1x128, .f32⟩ : BufTy).Contents (Elt F)),
    StableHlo.reshape main_v254 main_v255 rfl shapeCasts_S1x128_S128 ]

set_option maxRecDepth 8192 in
theorem ops9_sub : (ops9 : List (HloOp τ sig (Elt F))).Forall fun op => op.bufs ⊆ tcRefs τ sig :=
  ⟨nullary_bufs_sub .., binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub .., binary_bufs_sub ..,
    nullary_bufs_sub .., unary_bufs_sub .., binary_bufs_sub .., unary_bufs_sub .., reshape_bufs_sub .., binary_bufs_sub .., unary_bufs_sub ..,
    reshape_bufs_sub .., unary_bufs_sub .., unary_bufs_sub .., binary_bufs_sub .., unary_bufs_sub .., reshape_bufs_sub ..⟩

set_option maxRecDepth 8192 in
theorem ops9_fresh : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl⟩

/-- The references the operations write, in order. -/
abbrev ops9_W : List (Ref sig .tc) :=
  [ main_call6.cst_1.ref, main_call6.v8.ref, main_call6.cst_2.ref, main_call6.v9.ref, main_call6.v10.ref, main_call6.v11.ref, main_call6.cst_3.ref,
    main_call6.v12.ref, main_call6.cst_4.ref, main_call6.call0.v0.ref, main_call6.call0.v1.ref, main_call6.call0.v2.ref, main_v230, main_v231, main_v232,
    main_cst_41, main_v233, main_v234, main_v235, main_v236, main_v237, main_v238, main_v239, main_v240, main_v241, main_v242, main_v243, main_v244,
    main_call7.cst.ref, main_call7.v0.ref, main_call7.v1.ref, main_v246, main_v247, main_v248, main_v249, main_v250, main_v251, main_v252, main_v253,
    main_v254, main_v255 ]

set_option maxRecDepth 8192 in
theorem ops9_writes : (ops9 : List (HloOp τ sig (Elt F))).Forall fun op =>
    op.writes ⊆ (ops9_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr, by wr, by wr, by wr, by wr, by wr, by wr, by wr, by wr, by wr, by wr, by wr, by wr, by wr⟩

end Cert.ReferenceIdeal.Hand

end
-- ==== Proof.Ref.Part4.lean ====
import proofs.«422700_j84035330113950_1_alg».proof.Proof.Ref.Ops8
import proofs.«422700_j84035330113950_1_alg».proof.Proof.Ref.Ops9

/-! Window 4 of the reference's @main (statements 241 … 300) works on the pooled 32 × 128 array: its calls are
`%229 = @_var_0(%221, %c_40)`, the variance over 32 rows, and `%245 = @relu_1(%244)`, over the records `main_call6` and
`main_call7`. `@_var_0` has the shape of `@_var` (it too ends in a call of `@_where`); unfolded and sequenced through the
returns the window is one chain of 83 steps. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 4 runs the operations of its two halves in order, `@_var_0`'s, its `@_where`'s and `@relu_1`'s among them.
    Both sides compute to the same chain of steps. -/
theorem main_part4_eq (c : Dev nD) : main_part4 (F := F) c = seq (ops8 ++ ops9) := rfl

end Cert.ReferenceIdeal.Hand

end
-- ==== Proof.Ref.Ops10.lean ====
import proofs.«422700_j84035330113950_1_alg».proof.Proof.Gen.ReferenceIdeal
import Idealize.ShloMosaic.Lib.StableHlo.Run

/-! Operations 1 … 28 of the 56 that window 5 of the reference's @main runs, in order: each printed step's
operation as printed; a call's operations are its callee's, over the call's operands and buffer record. With the list:
every operation touches TensorCore references only, determines everything it writes, and writes one reference of `ops10_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops10 : List (HloOp τ sig (Elt F)) :=
  [ StableHlo.unary main_arg12 main_v256 ((extractStridedSlice S1x128 ![1, 0] · slices_S2x128_S1x128_1_0) : (⟨S2x128, .f32⟩ : BufTy).Contents (Elt F) → (⟨S1x128, .f32⟩ : BufTy).Contents (Elt F)),
    StableHlo.reshape main_v256 main_v257 rfl shapeCasts_S1x128_S128,
    StableHlo.nullary main_cst_42 (constant S_ .f32 0x00000000#32),
    StableHlo.binary main_v253 main_cst_42 main_v258 ((fun x v => Host.reduceAdd x v reducesTo_S32x128_S128_d0 h_S_) : (⟨S32x128, .f32⟩ : BufTy).Contents (Elt F) → (⟨S_, .f32⟩ : BufTy).Contents (Elt F) → (⟨S128, .f32⟩ : BufTy).Contents (Elt F)),
    StableHlo.nullary main_cst_43 (constant S_ .f32 0x42000000#32),
    StableHlo.unary main_cst_43 main_v259 (broadcastInDim S128 ![] bcast_S_S128 : (⟨S_, .f32⟩ : BufTy).Contents (Elt F) → (⟨S128, .f32⟩ : BufTy).Contents (Elt F)),
    StableHlo.binary main_v258 main_v259 main_v260 (Host.divf : (⟨S128, .f32⟩ : BufTy).Contents (Elt F) → (⟨S128, .f32⟩ : BufTy).Contents (Elt F) → (⟨S128, .f32⟩ : BufTy).Contents (Elt F)),
    StableHlo.nullary main_c_44 (constantI S_ 32 0#32),
    StableHlo.TRef.nullary main_call8.cst (constant S_ .f32 0x00000000#32),
    StableHlo.TRef.binary (.of main_v253) main_call8.cst main_call8.v0 (fun x v => Host.reduceAdd x v reducesTo_S32x128_S128_d0 h_S_),
    StableHlo.TRef.unary main_call8.v0 main_call8.v1 (broadcastInDim S1x128 ![1] bcast_S128_S1x128_1),
    StableHlo.TRef.nullary main_call8.cst_0 (constant S_ .f32 0x42000000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S32x128 ![0, 1] bcast_S1x128_S32x128_0_1),
    StableHlo.TRef.binary (.of main_v253) main_call8.v4 main_call8.v5 subf,
    StableHlo.TRef.binary main_call8.v5 main_call8.v5 main_call8.v6 mulf,
    StableHlo.TRef.unary (.of main_c_44) main_call8.v7 (sitofp (F := F) .f32),
    StableHlo.TRef.nullary main_call8.cst_1 (constant S_ .f32 0x42000000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S32x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf (F := F) .ogt),
    StableHlo.TRef.nullary main_call8.cst_4 (constant S_ .f32 0x7FC00000#32),
    StableHlo.TRef.unary main_call8.cst_4 main_call8.call0.v0 id ]

set_option maxRecDepth 8192 in
theorem ops10_sub : (ops10 : List (HloOp τ sig (Elt F))).Forall fun op => op.bufs ⊆ tcRefs τ sig :=
  ⟨unary_bufs_sub .., reshape_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub .., unary_bufs_sub ..⟩

set_option maxRecDepth 8192 in
theorem ops10_fresh : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The references the operations write, in order. -/
abbrev ops10_W : List (Ref sig .tc) :=
  [ main_v256, main_v257, main_cst_42, main_v258, main_cst_43, main_v259, main_v260, main_c_44, main_call8.cst.ref, main_call8.v0.ref, main_call8.v1.ref,
    main_call8.cst_0.ref, main_call8.v2.ref, main_call8.v3.ref, main_call8.v4.ref, main_call8.v5.ref, main_call8.v6.ref, main_call8.v7.ref,
    main_call8.cst_1.ref, main_call8.v8.ref, main_call8.cst_2.ref, main_call8.v9.ref, main_call8.v10.ref, main_call8.v11.ref, main_call8.cst_3.ref,
    main_call8.v12.ref, main_call8.cst_4.ref, main_call8.call0.v0.ref ]

set_option maxRecDepth 8192 in
theorem ops10_writes : (ops10 : List (HloOp τ sig (Elt F))).Forall fun op =>
    op.writes ⊆ (ops10_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr⟩

end Cert.ReferenceIdeal.Hand

end
-- ==== Proof.Ref.Ops11.lean ====
import proofs.«422700_j84035330113950_1_alg».proof.Proof.Gen.ReferenceIdeal
import Idealize.ShloMosaic.Lib.StableHlo.Run

/-! Operations 29 … 56 of the 56 that window 5 of the reference's @main runs, in order: each printed step's
operation as printed; a call's operations are its callee's, over the call's operands and buffer record. With the list:
every operation touches TensorCore references only, determines everything it writes, and writes one reference of `ops11_W`. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- A write set that is one reference lies in the image of a list holding that reference. -/
local macro "wr" : tactic =>
  `(tactic| (simp only [List.Forall, nullary_writes, unary_writes, binary_writes, ternary_writes, reshape_writes,
      Finset.singleton_subset_iff, List.mem_toFinset]; exact List.mem_map_of_mem (by decide)))

set_option maxRecDepth 8192 in
abbrev ops11 : List (HloOp τ sig (Elt F)) :=
  [ StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v260 main_v262 (broadcastInDim S1x128 ![1] bcast_S128_S1x128_1 : (⟨S128, .f32⟩ : BufTy).Contents (Elt F) → (⟨S1x128, .f32⟩ : BufTy).Contents (Elt F)),
    StableHlo.unary main_v262 main_v263 (broadcastInDim S32x128 ![0, 1] bcast_S1x128_S32x128_0_1 : (⟨S1x128, .f32⟩ : BufTy).Contents (Elt F) → (⟨S32x128, .f32⟩ : BufTy).Contents (Elt F)),
    StableHlo.binary main_v253 main_v263 main_v264 (subf : (⟨S32x128, .f32⟩ : BufTy).Contents (Elt F) → (⟨S32x128, .f32⟩ : BufTy).Contents (Elt F) → (⟨S32x128, .f32⟩ : BufTy).Contents (Elt F)),
    StableHlo.nullary main_cst_45 (constant S_ .f32 0x3727C5AC#32),
    StableHlo.unary main_cst_45 main_v265 (broadcastInDim S128 ![] bcast_S_S128 : (⟨S_, .f32⟩ : BufTy).Contents (Elt F) → (⟨S128, .f32⟩ : BufTy).Contents (Elt F)),
    StableHlo.binary main_v261 main_v265 main_v266 (addf : (⟨S128, .f32⟩ : BufTy).Contents (Elt F) → (⟨S128, .f32⟩ : BufTy).Contents (Elt F) → (⟨S128, .f32⟩ : BufTy).Contents (Elt F)),
    StableHlo.unary main_v266 main_v267 (Host.rsqrt : (⟨S128, .f32⟩ : BufTy).Contents (Elt F) → (⟨S128, .f32⟩ : BufTy).Contents (Elt F)),
    StableHlo.unary main_v267 main_v268 (broadcastInDim S1x128 ![1] bcast_S128_S1x128_1 : (⟨S128, .f32⟩ : BufTy).Contents (Elt F) → (⟨S1x128, .f32⟩ : BufTy).Contents (Elt F)),
    StableHlo.unary main_v268 main_v269 (broadcastInDim S32x128 ![0, 1] bcast_S1x128_S32x128_0_1 : (⟨S1x128, .f32⟩ : BufTy).Contents (Elt F) → (⟨S32x128, .f32⟩ : BufTy).Contents (Elt F)),
    StableHlo.binary main_v264 main_v269 main_v270 (mulf : (⟨S32x128, .f32⟩ : BufTy).Contents (Elt F) → (⟨S32x128, .f32⟩ : BufTy).Contents (Elt F) → (⟨S32x128, .f32⟩ : BufTy).Contents (Elt F)),
    StableHlo.unary main_v255 main_v271 (broadcastInDim S1x128 ![1] bcast_S128_S1x128_1 : (⟨S128, .f32⟩ : BufTy).Contents (Elt F) → (⟨S1x128, .f32⟩ : BufTy).Contents (Elt F)),
    StableHlo.unary main_v271 main_v272 (broadcastInDim S32x128 ![0, 1] bcast_S1x128_S32x128_0_1 : (⟨S1x128, .f32⟩ : BufTy).Contents (Elt F) → (⟨S32x128, .f32⟩ : BufTy).Contents (Elt F)),
    StableHlo.binary main_v270 main_v272 main_v273 (mulf : (⟨S32x128, .f32⟩ : BufTy).Contents (Elt F) → (⟨S32x128, .f32⟩ : BufTy).Contents (Elt F) → (⟨S32x128, .f32⟩ : BufTy).Contents (Elt F)),
    StableHlo.unary main_v257 main_v274 (broadcastInDim S1x128 ![1] bcast_S128_S1x128_1 : (⟨S128, .f32⟩ : BufTy).Contents (Elt F) → (⟨S1x128, .f32⟩ : BufTy).Contents (Elt F)),
    StableHlo.unary main_v274 main_v275 (broadcastInDim S32x128 ![0, 1] bcast_S1x128_S32x128_0_1 : (⟨S1x128, .f32⟩ : BufTy).Contents (Elt F) → (⟨S32x128, .f32⟩ : BufTy).Contents (Elt F)),
    StableHlo.binary main_v273 main_v275 main_v276 (addf : (⟨S32x128, .f32⟩ : BufTy).Contents (Elt F) → (⟨S32x128, .f32⟩ : BufTy).Contents (Elt F) → (⟨S32x128, .f32⟩ : BufTy).Contents (Elt F)),
    StableHlo.TRef.nullary main_call9.cst (constant S_ .f32 0x00000000#32),
    StableHlo.TRef.unary main_call9.cst main_call9.v0 (broadcastInDim S32x128 ![] bcast_S_S32x128),
    StableHlo.TRef.binary (.of main_v276) main_call9.v0 main_call9.v1 maximumf,
    StableHlo.binary main_v277 main_arg13 main_v278 ((fun l r => Host.dotGeneral dot_S32x128_S128x1_S32x1_1_0_0_1_n_n none l r) : (⟨S32x128, .f32⟩ : BufTy).Contents (Elt F) → (⟨S128x1, .f32⟩ : BufTy).Contents (Elt F) → (⟨S32x1, .f32⟩ : BufTy).Contents (Elt F)),
    StableHlo.unary main_arg14 main_v279 (broadcastInDim S1x1 ![1] bcast_S1_S1x1_1 : (⟨S1, .f32⟩ : BufTy).Contents (Elt F) → (⟨S1x1, .f32⟩ : BufTy).Contents (Elt F)),
    StableHlo.unary main_v279 main_v280 (broadcastInDim S32x1 ![0, 1] bcast_S1x1_S32x1_0_1 : (⟨S1x1, .f32⟩ : BufTy).Contents (Elt F) → (⟨S32x1, .f32⟩ : BufTy).Contents (Elt F)),
    StableHlo.binary main_v278 main_v280 main_v281 (addf : (⟨S32x1, .f32⟩ : BufTy).Contents (Elt F) → (⟨S32x1, .f32⟩ : BufTy).Contents (Elt F) → (⟨S32x1, .f32⟩ : BufTy).Contents (Elt F)),
    StableHlo.TRef.nullary main_call10.cst (constant S_ .f32 0x00000000#32),
    StableHlo.TRef.unary main_call10.cst main_call10.v0 (broadcastInDim S32x1 ![] bcast_S_S32x1),
    StableHlo.TRef.binary (.of main_v281) main_call10.v0 main_call10.v1 maximumf ]

set_option maxRecDepth 8192 in
theorem ops11_sub : (ops11 : List (HloOp τ sig (Elt F))).Forall fun op => op.bufs ⊆ tcRefs τ sig :=
  ⟨unary_bufs_sub .., ternary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub .., binary_bufs_sub ..⟩

set_option maxRecDepth 8192 in
theorem ops11_fresh : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

/-- The references the operations write, in order. -/
abbrev ops11_W : List (Ref sig .tc) :=
  [ main_call8.call0.v1.ref, main_call8.call0.v2.ref, main_v262, main_v263, main_v264, main_cst_45, main_v265, main_v266, main_v267, main_v268, main_v269,
    main_v270, main_v271, main_v272, main_v273, main_v274, main_v275, main_v276, main_call9.cst.ref, main_call9.v0.ref, main_call9.v1.ref, main_v278,
    main_v279, main_v280, main_v281, main_call10.cst.ref, main_call10.v0.ref, main_call10.v1.ref ]

set_option maxRecDepth 8192 in
theorem ops11_writes : (ops11 : List (HloOp τ sig (Elt F))).Forall fun op =>
    op.writes ⊆ (ops11_W.map (Proc.devRef (τ := τ) .tc)).toFinset :=
  ⟨by wr, by wr, by wr, by wr, by wr, by wr, by wr, by wr, by wr, by wr, by wr, by wr, by wr, by wr, by wr, by wr, by wr, by wr, by wr, by wr, by wr,
    by wr, by wr, by wr, by wr, by wr, by wr, by wr⟩

end Cert.ReferenceIdeal.Hand

end
-- ==== Proof.Ref.Part5.lean ====
import proofs.«422700_j84035330113950_1_alg».proof.Proof.Ref.Ops10
import proofs.«422700_j84035330113950_1_alg».proof.Proof.Ref.Ops11

/-! Window 5 of the reference's @main (statements 301 … 332) is the last: it holds three calls,
`%261 = @_var_0(%253, %c_44)`, `%277 = @relu_1(%276)` and `%282 = @relu_2(%281)`, over the records `main_call8`,
`main_call9` and `main_call10`, and ends in @main's return. `seq` closes its chain with a return as well, so here the two
sides end alike without any step being absorbed: one chain of 56 steps, then the return. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- Window 5 runs the operations of its two halves in order and returns. The three callees' operations stand where
    they are called; both sides compute to the same chain of steps ending in the return. -/
theorem main_part5_eq (c : Dev nD) : main_part5 (F := F) c = seq (ops10 ++ ops11) := rfl

end Cert.ReferenceIdeal.Hand

end
-- ==== Proof.Ref.Run.lean ====
import proofs.«422700_j84035330113950_1_alg».proof.Proof.Ref.Part0
import proofs.«422700_j84035330113950_1_alg».proof.Proof.Ref.Part1
import proofs.«422700_j84035330113950_1_alg».proof.Proof.Ref.Part2
import proofs.«422700_j84035330113950_1_alg».proof.Proof.Ref.Part3
import proofs.«422700_j84035330113950_1_alg».proof.Proof.Ref.Part4
import proofs.«422700_j84035330113950_1_alg».proof.Proof.Ref.Part5
import Idealize.ShloMosaic.Lib.Pipeline.Frame

/-! The reference program's run. @main is six windows run in order; each window is the chain of steps of its two halves'
operations (`main_partK_eq`). Running two lists one after the other is running their append (`seq_append`), so @main is
`seq` of the twelve half-windows joined, 448 operations. A straight line of operations that touch TensorCore
references only and determine all they write terminates under every weakly fair schedule, every buffer ending at the
fold of the operations' results over its launch contents (`run_seq`). No operation writes one of the fifteen argument
arrays — each writes the buffer of the value it defines — so the fold leaves them at their launch contents: the frame. -/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 448 operations, in order: the twelve half-windows joined. -/
abbrev ops : List (HloOp τ sig (Elt F)) :=
  ops0 ++ ops1 ++ ops2 ++ ops3 ++ ops4 ++ ops5 ++ ops6 ++ ops7 ++ ops8 ++ ops9 ++ ops10 ++ ops11

/-- The same list with each window's two halves bracketed together: append is associative. -/
theorem ops_eq_windows : (ops : List (HloOp τ sig (Elt F)))
    = (ops0 ++ ops1) ++ ((ops2 ++ ops3) ++ ((ops4 ++ ops5) ++ ((ops6 ++ ops7) ++ ((ops8 ++ ops9) ++ (ops10 ++ ops11))))) := by
  simp only [ops, List.append_assoc]

/-- @main is the straight line of its operations. Bracketed by windows, `seq` of the list is the windows' lists run one
    after the other (`seq_append`, once per window boundary); each of those is its window (`main_partK_eq`, read from
    right to left); and @main is by definition the six windows in order. -/
theorem main_eq (c : Dev nD) : main (F := F) c = seq ops := by
  rw [ops_eq_windows, seq_append (ops0 ++ ops1), seq_append (ops2 ++ ops3), seq_append (ops4 ++ ops5),
    seq_append (ops6 ++ ops7), seq_append (ops8 ++ ops9),
    ← main_part0_eq c, ← main_part1_eq c, ← main_part2_eq c, ← main_part3_eq c, ← main_part4_eq c, ← main_part5_eq c]
  rfl

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

/-- What holds of every element of two lists holds of every element of their append. -/
theorem forall_append {α : Type _} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- Every operation of @main touches TensorCore references only: each half-window's do. -/
theorem ops_sub : (ops : List (HloOp τ sig (Elt F))).Forall fun op => op.bufs ⊆ tcRefs τ sig :=
  forall_append (forall_append (forall_append (forall_append (forall_append (forall_append (forall_append (forall_append
    (forall_append (forall_append (forall_append ops0_sub ops1_sub) ops2_sub) ops3_sub) ops4_sub) ops5_sub) ops6_sub)
    ops7_sub) ops8_sub) ops9_sub) ops10_sub) ops11_sub

/-- Every operation of @main determines everything it writes: each half-window's do. -/
theorem ops_fresh : (ops : List (HloOp τ sig (Elt F))).Forall fun op => op.fresh = ∅ :=
  forall_append (forall_append (forall_append (forall_append (forall_append (forall_append (forall_append (forall_append
    (forall_append (forall_append (forall_append ops0_fresh ops1_fresh) ops2_fresh) ops3_fresh) ops4_fresh) ops5_fresh)
    ops6_fresh) ops7_fresh) ops8_fresh) ops9_fresh) ops10_fresh) ops11_fresh

/-- On every device, for any float values, from any memory with zero counters: every weakly fair execution of @main on
    the TensorCores terminates, and every final state has each TensorCore buffer at the fold of the 448 operations'
    results over that device's launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ
    (fun _ => List.forall_iff_forall_mem.mp ops_fresh)

/-! ## The frame -/

/-- @main's fifteen argument arrays. -/
abbrev argRefs : List (Ref sig .tc) :=
  [main_arg0, main_arg1, main_arg2, main_arg3, main_arg4, main_arg5, main_arg6, main_arg7, main_arg8, main_arg9,
    main_arg10, main_arg11, main_arg12, main_arg13, main_arg14]

/-! No argument is among the references a half-window writes: the written references are the buffers of the values the
half-window defines, at signature indices from 15 up, the arguments are indices 0 to 14; decided by comparing them. -/
theorem args_not_in_W0 : ∀ r ∈ argRefs, r ∉ ops0_W := by decide
theorem args_not_in_W1 : ∀ r ∈ argRefs, r ∉ ops1_W := by decide
theorem args_not_in_W2 : ∀ r ∈ argRefs, r ∉ ops2_W := by decide
theorem args_not_in_W3 : ∀ r ∈ argRefs, r ∉ ops3_W := by decide
theorem args_not_in_W4 : ∀ r ∈ argRefs, r ∉ ops4_W := by decide
theorem args_not_in_W5 : ∀ r ∈ argRefs, r ∉ ops5_W := by decide
theorem args_not_in_W6 : ∀ r ∈ argRefs, r ∉ ops6_W := by decide
theorem args_not_in_W7 : ∀ r ∈ argRefs, r ∉ ops7_W := by decide
theorem args_not_in_W8 : ∀ r ∈ argRefs, r ∉ ops8_W := by decide
theorem args_not_in_W9 : ∀ r ∈ argRefs, r ∉ ops9_W := by decide
theorem args_not_in_W10 : ∀ r ∈ argRefs, r ∉ ops10_W := by decide
theorem args_not_in_W11 : ∀ r ∈ argRefs, r ∉ ops11_W := by decide

/-- An argument array keeps its contents through all of @main's operations. The fold over the joined list is the
    half-windows' folds one after the other (`after_append`); through each, a reference outside the list of those it
    writes keeps its contents (`after_of_writes_sub`), from the last half-window back to the first. -/
theorem after_ops_arg (V : Valuation τ sig (Elt F)) {r : Ref sig .tc} (hr : r ∈ argRefs) :
    after ops V (Proc.devRef .tc r) = V (Proc.devRef .tc r) := by
  simp only [ops, StableHlo.after_append]
  rw [after_of_writes_sub ops11 _ ops11_writes (args_not_in_W11 r hr),
    after_of_writes_sub ops10 _ ops10_writes (args_not_in_W10 r hr),
    after_of_writes_sub ops9 _ ops9_writes (args_not_in_W9 r hr),
    after_of_writes_sub ops8 _ ops8_writes (args_not_in_W8 r hr),
    after_of_writes_sub ops7 _ ops7_writes (args_not_in_W7 r hr),
    after_of_writes_sub ops6 _ ops6_writes (args_not_in_W6 r hr),
    after_of_writes_sub ops5 _ ops5_writes (args_not_in_W5 r hr),
    after_of_writes_sub ops4 _ ops4_writes (args_not_in_W4 r hr),
    after_of_writes_sub ops3 _ ops3_writes (args_not_in_W3 r hr),
    after_of_writes_sub ops2 _ ops2_writes (args_not_in_W2 r hr),
    after_of_writes_sub ops1 _ ops1_writes (args_not_in_W1 r hr),
    after_of_writes_sub ops0 _ ops0_writes (args_not_in_W0 r hr)]

/-- The frame: on every device, for any float values, from any memory with zero counters, every weakly fair execution
    of @main terminates and the fifteen argument arrays end as launched. From `run`: an argument's final contents are
    the fold at it, which is its launch contents (`after_ops_arg`), and a device's launch contents at a reference are
    the memory at that device's location of it. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono
    (fun r h c =>
      have key : ∀ b ∈ argRefs, r.2.mem ((c.tc : Thread nD τ).loc b) = m ((c.tc : Thread nD τ).loc b) := fun b hb =>
        (h c b).trans (after_ops_arg (launchContents m c) hb)
      ⟨key _ (by decide), key _ (by decide), key _ (by decide), key _ (by decide), key _ (by decide),
        key _ (by decide), key _ (by decide), key _ (by decide), key _ (by decide), key _ (by decide),
        key _ (by decide), key _ (by decide), key _ (by decide), key _ (by decide), key _ (by decide)⟩)
    (run m ρ)

end Cert.ReferenceIdeal.Hand

end
-- ==== Proof.Val.Spec.lean ====
/-
  The network that both programs compute, as named stage functions over tensor values. Each stage is
  the reference program's own composition of tensor operations, constants included, so that the
  reference's value is this term by unfolding alone; the stages are generic in the float values.

  A graph-convolution layer: h = x·W; norm[e] = dis[src e]·dis[dst e] with dis = rsqrt (indegree + 1);
  agg = Σ_{e : dst e = i} h[src e]·norm[e]; pre = agg + h·dis² + b; then batch normalisation over the
  50000 rows (mean, centred variance, scale, shift) and a rectifier. Three such layers, a mean pool
  over the graphs, two dense layers normalised over the 32 graphs, and a final linear map.
-/
import proofs.«422700_j84035330113950_1_alg».proof.ReferenceIdeal
import proofs.«422700_j84035330113950_1_alg».proof.Proof.Gen.ReferenceIdeal

noncomputable section

namespace Cert.Val

open Idealize.ShloMosaic Idealize.SL.Sem
open Cert.ReferenceIdeal
open Cert.ReferenceIdeal.Facts₀

variable {F : FTy → Type} [FloatOps F] [Cert.ReferenceIdeal.Facts₀]

/-! ## Literals -/

/-- The scalars 0, 1, 50000, 32, the variance guard's not-a-number and the normalisation's ε. -/
def zeroS : Vec F S_ .f32 := constant S_ .f32 0x00000000#32
def oneS : Vec F S_ .f32 := constant S_ .f32 0x3F800000#32
def nRowsS : Vec F S_ .f32 := constant S_ .f32 0x47435000#32
def nGraphsS : Vec F S_ .f32 := constant S_ .f32 0x42000000#32
def nanS : Vec F S_ .f32 := constant S_ .f32 0x7FC00000#32
def epsS : Vec F S_ .f32 := constant S_ .f32 0x3727C5AC#32

/-! ## The edge list -/

/-- Row 0 of edge_index: the source node of each edge. -/
def srcW (ei : Vec F S2x800000 .i32) : Vec F S800000 .i32 :=
  shapeCast S800000 (extractStridedSlice S1x800000 ![0, 0] ei slices_S2x800000_S1x800000_0_0) shapeCasts_S1x800000_S800000

/-- Row 1 of edge_index: the destination node of each edge. -/
def dstW (ei : Vec F S2x800000 .i32) : Vec F S800000 .i32 :=
  shapeCast S800000 (extractStridedSlice S1x800000 ![1, 0] ei slices_S2x800000_S1x800000_1_0) shapeCasts_S1x800000_S800000

/-- A node index as a gather reads it: a negative one counted from the end, then a column. -/
def wrapIdx (v : Vec F S800000 .i32) : Vec F S800000x1 .i32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- A node index as a scatter reads it: a column. -/
def colIdx (v : Vec F S800000 .i32) : Vec F S800000x1 .i32 :=
  broadcastInDim S800000x1 ![0] bcast_S800000_S800000x1_0 v

/-- rsqrt (indegree + 1) per node: the self loop counted. -/
def dis (ei : Vec F S2x800000 .i32) : Vec F S50000 .f32 :=
  Host.rsqrt (addf
    (Host.scatterAdd scatter_S50000_S800000x1_S800000_n_0_0_1
      (broadcastInDim S50000 ![] bcast_S_S50000 (zeroS (F := F)))
      (colIdx (F := F) (dstW (F := F) ei))
      (broadcastInDim S800000 ![] bcast_S_S800000 (oneS (F := F))))
    (broadcastInDim S50000 ![] bcast_S_S50000 (oneS (F := F))))

/-- The symmetric normalisation of each edge: dis[src]·dis[dst]. -/
def normOf (ei : Vec F S2x800000 .i32) : Vec F S800000 .f32 :=
  mulf (Host.gather gather_S50000_S800000x1_S800000_n_0_n_n_0_1_1 (dis ei) (wrapIdx (F := F) (srcW (F := F) ei)))
    (Host.gather gather_S50000_S800000x1_S800000_n_0_n_n_0_1_1 (dis ei) (wrapIdx (F := F) (dstW (F := F) ei)))

/-! ## One graph-convolution layer -/

/-- The first layer's product x·W₀ (64 input features). -/
def hOf1 (x : Vec F S50000x64 .f32) (W : Vec F S64x128 .f32) : Vec F S50000x128 .f32 :=
  Host.dotGeneral dot_S50000x64_S64x128_S50000x128_1_0_0_1_n_n none x W

/-- A later layer's product x·W (128 input features). -/
def hOf (x : Vec F S50000x128 .f32) (W : Vec F S128x128 .f32) : Vec F S50000x128 .f32 :=
  Host.dotGeneral dot_S50000x128_S128x128_S50000x128_1_0_0_1_n_n none x W

/-- The neighbour sum: rows of h gathered at the sources, scaled by the edge's normalisation, added
    at the destinations. -/
def aggOf (h : Vec F S50000x128 .f32) (ei : Vec F S2x800000 .i32) : Vec F S50000x128 .f32 :=
  Host.scatterAdd scatter_S50000x128_S800000x1_S800000x128_1_0_0_1
    (broadcastInDim S50000x128 ![] bcast_S_S50000x128 (zeroS (F := F)))
    (colIdx (F := F) (dstW (F := F) ei))
    (mulf (Host.gather gather_S50000x128_S800000x1_S800000x128_1_0_n_n_0_1_1128 h (wrapIdx (F := F) (srcW (F := F) ei)))
      (broadcastInDim S800000x128 ![0, 1] bcast_S800000x1_S800000x128_0_1
        (broadcastInDim S800000x1 ![0] bcast_S800000_S800000x1_0 (normOf ei))))

/-- The self-loop term: h scaled by dis² per node. -/
def selfOf (h : Vec F S50000x128 .f32) (ei : Vec F S2x800000 .i32) : Vec F S50000x128 .f32 :=
  mulf h (broadcastInDim S50000x128 ![0, 1] bcast_S50000x1_S50000x128_0_1
    (broadcastInDim S50000x1 ![0] bcast_S50000_S50000x1_0 (mulf (dis ei) (dis ei))))

/-- A vector of 128 features repeated over the 50000 rows. -/
def rows (v : Vec F S128 .f32) : Vec F S50000x128 .f32 :=
  broadcastInDim S50000x128 ![0, 1] bcast_S1x128_S50000x128_0_1 (broadcastInDim S1x128 ![1] bcast_S128_S1x128_1 v)

/-- The layer before normalisation: neighbour sum + self loop + bias. -/
def preOf (h : Vec F S50000x128 .f32) (ei : Vec F S2x800000 .i32) (b : Vec F S128 .f32) : Vec F S50000x128 .f32 :=
  addf (addf (aggOf h ei) (selfOf h ei)) (rows b)

/-- The column sums over the 50000 rows. -/
def sumOf (p : Vec F S50000x128 .f32) : Vec F S128 .f32 :=
  Host.reduceAdd p (zeroS (F := F)) reducesTo_S50000x128_S128_d0 h_S_

/-- The column means over the 50000 rows. -/
def meanOf (p : Vec F S50000x128 .f32) : Vec F S128 .f32 :=
  Host.divf (sumOf p) (broadcastInDim S128 ![] bcast_S_S128 (nRowsS (F := F)))

/-- The rows centred at the column means, as the variance computes them (the mean kept as a row). -/
def centredOf (p : Vec F S50000x128 .f32) : Vec F S50000x128 .f32 :=
  subf p (broadcastInDim S50000x128 ![0, 1] bcast_S1x128_S50000x128_0_1
    (Host.divf (broadcastInDim S1x128 ![1] bcast_S128_S1x128_1 (sumOf p))
      (broadcastInDim S1x128 ![] bcast_S_S1x128 (nRowsS (F := F)))))

/-- The divisor n − ddof of the variance, ddof = 0. -/
def varDen : Vec F S_ .f32 :=
  subf (nRowsS (F := F)) (sitofp .f32 (constantI S_ 32 0#32))

/-- The biased column variances: Σ (p − mean)² / (n − 0), not-a-number were the divisor not positive. -/
def varOf (p : Vec F S50000x128 .f32) : Vec F S128 .f32 :=
  select (broadcastInDim S128 ![] bcast_S_S128 (cmpf .ogt (varDen (F := F)) (zeroS (F := F))))
    (Host.divf (Host.reduceAdd (mulf (centredOf p) (centredOf p)) (zeroS (F := F)) reducesTo_S50000x128_S128_d0 h_S_)
      (broadcastInDim S128 ![] bcast_S_S128 (varDen (F := F))))
    (broadcastInDim S128 ![] bcast_S_S128 (id (nanS (F := F))))

/-- Normalisation by GIVEN column means and variances, scale γ, shift β, then the rectifier. -/
def normRelu (p : Vec F S50000x128 .f32) (mean var g beta : Vec F S128 .f32) : Vec F S50000x128 .f32 :=
  maximumf
    (addf (mulf (mulf (subf p (rows mean))
        (rows (Host.rsqrt (addf var (broadcastInDim S128 ![] bcast_S_S128 (epsS (F := F)))))))
      (rows g)) (rows beta))
    (broadcastInDim S50000x128 ![] bcast_S_S50000x128 (zeroS (F := F)))

/-- Batch normalisation over the 50000 rows, then the rectifier. -/
def bnrelu (p : Vec F S50000x128 .f32) (g beta : Vec F S128 .f32) : Vec F S50000x128 .f32 :=
  normRelu p (meanOf p) (varOf p) g beta

/-- A layer from its product h on: aggregate, add the bias, normalise, rectify. -/
def layerOut (h : Vec F S50000x128 .f32) (ei : Vec F S2x800000 .i32) (b g beta : Vec F S128 .f32) :
    Vec F S50000x128 .f32 :=
  bnrelu (preOf h ei b) g beta

/-- The first layer. -/
def layer1 (x : Vec F S50000x64 .f32) (ei : Vec F S2x800000 .i32) (W : Vec F S64x128 .f32)
    (b g beta : Vec F S128 .f32) : Vec F S50000x128 .f32 :=
  layerOut (hOf1 x W) ei b g beta

/-- A later layer. -/
def layer (x : Vec F S50000x128 .f32) (ei : Vec F S2x800000 .i32) (W : Vec F S128x128 .f32)
    (b g beta : Vec F S128 .f32) : Vec F S50000x128 .f32 :=
  layerOut (hOf x W) ei b g beta

/-! ## The stacked parameters' rows -/

/-- Matrix k of a stack of two 128×128 matrices. -/
def mat0 (W : Vec F S2x128x128 .f32) : Vec F S128x128 .f32 :=
  shapeCast S128x128 (extractStridedSlice S1x128x128 ![0, 0, 0] W slices_S2x128x128_S1x128x128_0_0_0) shapeCasts_S1x128x128_S128x128
def mat1 (W : Vec F S2x128x128 .f32) : Vec F S128x128 .f32 :=
  shapeCast S128x128 (extractStridedSlice S1x128x128 ![1, 0, 0] W slices_S2x128x128_S1x128x128_1_0_0) shapeCasts_S1x128x128_S128x128

/-- Row k of a stack of two vectors. -/
def row2_0 (v : Vec F S2x128 .f32) : Vec F S128 .f32 :=
  shapeCast S128 (extractStridedSlice S1x128 ![0, 0] v slices_S2x128_S1x128_0_0) shapeCasts_S1x128_S128
def row2_1 (v : Vec F S2x128 .f32) : Vec F S128 .f32 :=
  shapeCast S128 (extractStridedSlice S1x128 ![1, 0] v slices_S2x128_S1x128_1_0) shapeCasts_S1x128_S128

/-- Row k of a stack of three vectors. -/
def row3_0 (v : Vec F S3x128 .f32) : Vec F S128 .f32 :=
  shapeCast S128 (extractStridedSlice S1x128 ![0, 0] v slices_S3x128_S1x128_0_0) shapeCasts_S1x128_S128
def row3_1 (v : Vec F S3x128 .f32) : Vec F S128 .f32 :=
  shapeCast S128 (extractStridedSlice S1x128 ![1, 0] v slices_S3x128_S1x128_1_0) shapeCasts_S1x128_S128
def row3_2 (v : Vec F S3x128 .f32) : Vec F S128 .f32 :=
  shapeCast S128 (extractStridedSlice S1x128 ![2, 0] v slices_S3x128_S1x128_2_0) shapeCasts_S1x128_S128

/-- The three graph-convolution layers. -/
def gcn (x : Vec F S50000x64 .f32) (ei : Vec F S2x800000 .i32) (W0 : Vec F S64x128 .f32) (b0 : Vec F S128 .f32)
    (Wh : Vec F S2x128x128 .f32) (bh : Vec F S2x128 .f32) (bn_g bn_b : Vec F S3x128 .f32) : Vec F S50000x128 .f32 :=
  layer (layer (layer1 x ei W0 b0 (row3_0 bn_g) (row3_0 bn_b))
      ei (mat0 Wh) (row2_0 bh) (row3_1 bn_g) (row3_1 bn_b))
    ei (mat1 Wh) (row2_1 bh) (row3_2 bn_g) (row3_2 bn_b)

/-! ## The tail: mean pool over the graphs, two dense layers, a linear head -/

/-- A graph index as a scatter reads it: a column. -/
def colBatch (batch : Vec F S50000 .i32) : Vec F S50000x1 .i32 :=
  broadcastInDim S50000x1 ![0] bcast_S50000_S50000x1_0 batch

/-- The mean of the node features of each graph (an empty graph divides by 1). -/
def poolOf (x : Vec F S50000x128 .f32) (batch : Vec F S50000 .i32) : Vec F S32x128 .f32 :=
  Host.divf
    (Host.scatterAdd scatter_S32x128_S50000x1_S50000x128_1_0_0_1
      (broadcastInDim S32x128 ![] bcast_S_S32x128 (zeroS (F := F))) (colBatch (F := F) batch) x)
    (broadcastInDim S32x128 ![0, 1] bcast_S32x1_S32x128_0_1
      (broadcastInDim S32x1 ![0] bcast_S32_S32x1_0
        (maximumf
          (Host.scatterAdd scatter_S32_S50000x1_S50000_n_0_0_1
            (broadcastInDim S32 ![] bcast_S_S32 (zeroS (F := F))) (colBatch (F := F) batch)
            (broadcastInDim S50000 ![] bcast_S_S50000 (oneS (F := F))))
          (broadcastInDim S32 ![] bcast_S_S32 (oneS (F := F))))))

/-- A vector of 128 features repeated over the 32 graphs. -/
def rows32 (v : Vec F S128 .f32) : Vec F S32x128 .f32 :=
  broadcastInDim S32x128 ![0, 1] bcast_S1x128_S32x128_0_1 (broadcastInDim S1x128 ![1] bcast_S128_S1x128_1 v)

/-- A dense layer before normalisation: g·W + b. -/
def ffPre (g : Vec F S32x128 .f32) (W : Vec F S128x128 .f32) (b : Vec F S128 .f32) : Vec F S32x128 .f32 :=
  addf (Host.dotGeneral dot_S32x128_S128x128_S32x128_1_0_0_1_n_n none g W) (rows32 b)

/-- The column sums, means, centred rows and biased variances over the 32 graphs. -/
def sum32 (p : Vec F S32x128 .f32) : Vec F S128 .f32 :=
  Host.reduceAdd p (zeroS (F := F)) reducesTo_S32x128_S128_d0 h_S_
def mean32 (p : Vec F S32x128 .f32) : Vec F S128 .f32 :=
  Host.divf (sum32 p) (broadcastInDim S128 ![] bcast_S_S128 (nGraphsS (F := F)))
def centred32 (p : Vec F S32x128 .f32) : Vec F S32x128 .f32 :=
  subf p (broadcastInDim S32x128 ![0, 1] bcast_S1x128_S32x128_0_1
    (Host.divf (broadcastInDim S1x128 ![1] bcast_S128_S1x128_1 (sum32 p))
      (broadcastInDim S1x128 ![] bcast_S_S1x128 (nGraphsS (F := F)))))
def varDen32 : Vec F S_ .f32 :=
  subf (nGraphsS (F := F)) (sitofp .f32 (constantI S_ 32 0#32))
def var32 (p : Vec F S32x128 .f32) : Vec F S128 .f32 :=
  select (broadcastInDim S128 ![] bcast_S_S128 (cmpf .ogt (varDen32 (F := F)) (zeroS (F := F))))
    (Host.divf (Host.reduceAdd (mulf (centred32 p) (centred32 p)) (zeroS (F := F)) reducesTo_S32x128_S128_d0 h_S_)
      (broadcastInDim S128 ![] bcast_S_S128 (varDen32 (F := F))))
    (broadcastInDim S128 ![] bcast_S_S128 (id (nanS (F := F))))

/-- Batch normalisation over the 32 graphs, then the rectifier. -/
def bnrelu32 (p : Vec F S32x128 .f32) (g beta : Vec F S128 .f32) : Vec F S32x128 .f32 :=
  maximumf
    (addf (mulf (mulf (subf p (rows32 (mean32 p)))
        (rows32 (Host.rsqrt (addf (var32 p) (broadcastInDim S128 ![] bcast_S_S128 (epsS (F := F)))))))
      (rows32 g)) (rows32 beta))
    (broadcastInDim S32x128 ![] bcast_S_S32x128 (zeroS (F := F)))

/-- A dense layer: product, bias, normalisation, rectifier. -/
def ffLayer (g : Vec F S32x128 .f32) (W : Vec F S128x128 .f32) (b gam beta : Vec F S128 .f32) : Vec F S32x128 .f32 :=
  bnrelu32 (ffPre g W b) gam beta

/-- The linear head and its rectifier. -/
def headOf (g : Vec F S32x128 .f32) (linW : Vec F S128x1 .f32) (linb : Vec F S1 .f32) : Vec F S32x1 .f32 :=
  maximumf
    (addf (Host.dotGeneral dot_S32x128_S128x1_S32x1_1_0_0_1_n_n none g linW)
      (broadcastInDim S32x1 ![0, 1] bcast_S1x1_S32x1_0_1 (broadcastInDim S1x1 ![1] bcast_S1_S1x1_1 linb)))
    (broadcastInDim S32x1 ![] bcast_S_S32x1 (zeroS (F := F)))

/-- Everything after the third graph-convolution layer. -/
def tail (x3 : Vec F S50000x128 .f32) (batch : Vec F S50000 .i32) (ffW : Vec F S2x128x128 .f32)
    (ffb ffbn_g ffbn_b : Vec F S2x128 .f32) (linW : Vec F S128x1 .f32) (linb : Vec F S1 .f32) : Vec F S32x1 .f32 :=
  headOf
    (ffLayer (ffLayer (poolOf x3 batch) (mat0 ffW) (row2_0 ffb) (row2_0 ffbn_g) (row2_0 ffbn_b))
      (mat1 ffW) (row2_1 ffb) (row2_1 ffbn_g) (row2_1 ffbn_b))
    linW linb

/-- The whole network over the fifteen arguments, in the programs' order. -/
def net (x : Vec F S50000x64 .f32) (ei : Vec F S2x800000 .i32) (batch : Vec F S50000 .i32)
    (W0 : Vec F S64x128 .f32) (b0 : Vec F S128 .f32) (Wh : Vec F S2x128x128 .f32) (bh : Vec F S2x128 .f32)
    (bn_g bn_b : Vec F S3x128 .f32) (ffW : Vec F S2x128x128 .f32) (ffb ffbn_g ffbn_b : Vec F S2x128 .f32)
    (linW : Vec F S128x1 .f32) (linb : Vec F S1 .f32) : Vec F S32x1 .f32 :=
  tail (gcn x ei W0 b0 Wh bh bn_g bn_b) batch ffW ffb ffbn_g ffbn_b linW linb

end Cert.Val

end
-- ==== Proof.KI.ValKeep.lean ====
import proofs.«422700_j84035330113950_1_alg».proof.Proof.RegionsKernelIdeal
import Idealize.ShloMosaic.Lib.StableHlo.Run

/-!
  Between two items of @main the unscoped buffers are a valuation: the fold of a host stretch over the previous
  one, or the previous one updated at a region's output references. A buffer that a stretch does not write (it is not in
  the stretch's list of written references) and that is no output of a region keeps its contents across the item; a
  region's output reference holds, after the region, the unknown the valuations are written over.
-/

set_option maxRecDepth 4000

noncomputable section

namespace Cert.KernelIdeal.Val

open Idealize.ShloMosaic Idealize.ShloMosaic.TcCoe

variable {F : FTy → Type} [FloatOps F]
variable (m : (ℓ : Loc nD τ sig) → Buf (Elt F) ℓ) (outs : Gen.Outs (F := F))

/-- Item 0, a host stretch: a reference it does not write keeps its contents. -/
theorem keep1 (c : Dev nD) {r : Ref sig .tc} (hr : r ∉ Gen.hostOps0_W) :
    Gen.V1 m c (Proc.devRef .tc r) = Gen.V0 m c (Proc.devRef .tc r) :=
  StableHlo.after_of_writes_sub _ _ Gen.hostOps0_writes hr
/-- Item 1, a region: a reference that is none of its outputs keeps its contents. -/
theorem keep2 (c : Dev nD) {r : Ref sig .tc} (hr : r ≠ main_v25) :
    Gen.V2 m outs c (Proc.devRef .tc r) = Gen.V1 m c (Proc.devRef .tc r) :=
  Function.update_of_ne (StableHlo.devRef_ne_of_ne hr) _ _
/-- Item 2, a host stretch: a reference it does not write keeps its contents. -/
theorem keep3 (c : Dev nD) {r : Ref sig .tc} (hr : r ∉ Gen.hostOps1_W) :
    Gen.V3 m outs c (Proc.devRef .tc r) = Gen.V2 m outs c (Proc.devRef .tc r) :=
  StableHlo.after_of_writes_sub _ _ Gen.hostOps1_writes hr
/-- Item 3, a host stretch: a reference it does not write keeps its contents. -/
theorem keep4 (c : Dev nD) {r : Ref sig .tc} (hr : r ∉ Gen.hostOps1_1_W) :
    Gen.V4 m outs c (Proc.devRef .tc r) = Gen.V3 m outs c (Proc.devRef .tc r) :=
  StableHlo.after_of_writes_sub _ _ Gen.hostOps1_1_writes hr
/-- Item 4, a host stretch: a reference it does not write keeps its contents. -/
theorem keep5 (c : Dev nD) {r : Ref sig .tc} (hr : r ∉ Gen.hostOps1_2_W) :
    Gen.V5 m outs c (Proc.devRef .tc r) = Gen.V4 m outs c (Proc.devRef .tc r) :=
  StableHlo.after_of_writes_sub _ _ Gen.hostOps1_2_writes hr
/-- Item 5, a region: a reference that is none of its outputs keeps its contents. -/
theorem keep6 (c : Dev nD) {r : Ref sig .tc} (h0 : r ≠ main_v49_0) (h1 : r ≠ main_v49_1) (h2 : r ≠ main_v49_2) :
    Gen.V6 m outs c (Proc.devRef .tc r) = Gen.V5 m outs c (Proc.devRef .tc r) :=
  (Function.update_of_ne (StableHlo.devRef_ne_of_ne h2) _ _).trans
    ((Function.update_of_ne (StableHlo.devRef_ne_of_ne h1) _ _).trans (Function.update_of_ne (StableHlo.devRef_ne_of_ne h0) _ _))
/-- Item 6, a host stretch: a reference it does not write keeps its contents. -/
theorem keep7 (c : Dev nD) {r : Ref sig .tc} (hr : r ∉ Gen.hostOps2_W) :
    Gen.V7 m outs c (Proc.devRef .tc r) = Gen.V6 m outs c (Proc.devRef .tc r) :=
  StableHlo.after_of_writes_sub _ _ Gen.hostOps2_writes hr
/-- Item 7, a region: a reference that is none of its outputs keeps its contents. -/
theorem keep8 (c : Dev nD) {r : Ref sig .tc} (hr : r ≠ main_v62) :
    Gen.V8 m outs c (Proc.devRef .tc r) = Gen.V7 m outs c (Proc.devRef .tc r) :=
  Function.update_of_ne (StableHlo.devRef_ne_of_ne hr) _ _
/-- Item 8, a host stretch: a reference it does not write keeps its contents. -/
theorem keep9 (c : Dev nD) {r : Ref sig .tc} (hr : r ∉ Gen.hostOps3_W) :
    Gen.V9 m outs c (Proc.devRef .tc r) = Gen.V8 m outs c (Proc.devRef .tc r) :=
  StableHlo.after_of_writes_sub _ _ Gen.hostOps3_writes hr
/-- Item 9, a region: a reference that is none of its outputs keeps its contents. -/
theorem keep10 (c : Dev nD) {r : Ref sig .tc} (hr : r ≠ main_v67) :
    Gen.V10 m outs c (Proc.devRef .tc r) = Gen.V9 m outs c (Proc.devRef .tc r) :=
  Function.update_of_ne (StableHlo.devRef_ne_of_ne hr) _ _
/-- Item 10, a host stretch: a reference it does not write keeps its contents. -/
theorem keep11 (c : Dev nD) {r : Ref sig .tc} (hr : r ∉ Gen.hostOps4_W) :
    Gen.V11 m outs c (Proc.devRef .tc r) = Gen.V10 m outs c (Proc.devRef .tc r) :=
  StableHlo.after_of_writes_sub _ _ Gen.hostOps4_writes hr
/-- Item 11, a host stretch: a reference it does not write keeps its contents. -/
theorem keep12 (c : Dev nD) {r : Ref sig .tc} (hr : r ∉ Gen.hostOps4_1_W) :
    Gen.V12 m outs c (Proc.devRef .tc r) = Gen.V11 m outs c (Proc.devRef .tc r) :=
  StableHlo.after_of_writes_sub _ _ Gen.hostOps4_1_writes hr
/-- Item 12, a host stretch: a reference it does not write keeps its contents. -/
theorem keep13 (c : Dev nD) {r : Ref sig .tc} (hr : r ∉ Gen.hostOps4_2_W) :
    Gen.V13 m outs c (Proc.devRef .tc r) = Gen.V12 m outs c (Proc.devRef .tc r) :=
  StableHlo.after_of_writes_sub _ _ Gen.hostOps4_2_writes hr
/-- Item 13, a region: a reference that is none of its outputs keeps its contents. -/
theorem keep14 (c : Dev nD) {r : Ref sig .tc} (h0 : r ≠ main_v91_0) (h1 : r ≠ main_v91_1) (h2 : r ≠ main_v91_2) :
    Gen.V14 m outs c (Proc.devRef .tc r) = Gen.V13 m outs c (Proc.devRef .tc r) :=
  (Function.update_of_ne (StableHlo.devRef_ne_of_ne h2) _ _).trans
    ((Function.update_of_ne (StableHlo.devRef_ne_of_ne h1) _ _).trans (Function.update_of_ne (StableHlo.devRef_ne_of_ne h0) _ _))
/-- Item 14, a host stretch: a reference it does not write keeps its contents. -/
theorem keep15 (c : Dev nD) {r : Ref sig .tc} (hr : r ∉ Gen.hostOps5_W) :
    Gen.V15 m outs c (Proc.devRef .tc r) = Gen.V14 m outs c (Proc.devRef .tc r) :=
  StableHlo.after_of_writes_sub _ _ Gen.hostOps5_writes hr
/-- Item 15, a region: a reference that is none of its outputs keeps its contents. -/
theorem keep16 (c : Dev nD) {r : Ref sig .tc} (hr : r ≠ main_v104) :
    Gen.V16 m outs c (Proc.devRef .tc r) = Gen.V15 m outs c (Proc.devRef .tc r) :=
  Function.update_of_ne (StableHlo.devRef_ne_of_ne hr) _ _
/-- Item 16, a host stretch: a reference it does not write keeps its contents. -/
theorem keep17 (c : Dev nD) {r : Ref sig .tc} (hr : r ∉ Gen.hostOps6_W) :
    Gen.V17 m outs c (Proc.devRef .tc r) = Gen.V16 m outs c (Proc.devRef .tc r) :=
  StableHlo.after_of_writes_sub _ _ Gen.hostOps6_writes hr
/-- Item 17, a region: a reference that is none of its outputs keeps its contents. -/
theorem keep18 (c : Dev nD) {r : Ref sig .tc} (hr : r ≠ main_v109) :
    Gen.V18 m outs c (Proc.devRef .tc r) = Gen.V17 m outs c (Proc.devRef .tc r) :=
  Function.update_of_ne (StableHlo.devRef_ne_of_ne hr) _ _
/-- Item 18, a host stretch: a reference it does not write keeps its contents. -/
theorem keep19 (c : Dev nD) {r : Ref sig .tc} (hr : r ∉ Gen.hostOps7_W) :
    Gen.V19 m outs c (Proc.devRef .tc r) = Gen.V18 m outs c (Proc.devRef .tc r) :=
  StableHlo.after_of_writes_sub _ _ Gen.hostOps7_writes hr
/-- Item 19, a host stretch: a reference it does not write keeps its contents. -/
theorem keep20 (c : Dev nD) {r : Ref sig .tc} (hr : r ∉ Gen.hostOps7_1_W) :
    Gen.V20 m outs c (Proc.devRef .tc r) = Gen.V19 m outs c (Proc.devRef .tc r) :=
  StableHlo.after_of_writes_sub _ _ Gen.hostOps7_1_writes hr
/-- Item 20, a host stretch: a reference it does not write keeps its contents. -/
theorem keep21 (c : Dev nD) {r : Ref sig .tc} (hr : r ∉ Gen.hostOps7_2_W) :
    Gen.V21 m outs c (Proc.devRef .tc r) = Gen.V20 m outs c (Proc.devRef .tc r) :=
  StableHlo.after_of_writes_sub _ _ Gen.hostOps7_2_writes hr
/-- Item 21, a region: a reference that is none of its outputs keeps its contents. -/
theorem keep22 (c : Dev nD) {r : Ref sig .tc} (h0 : r ≠ main_v133_0) (h1 : r ≠ main_v133_1) (h2 : r ≠ main_v133_2) :
    Gen.V22 m outs c (Proc.devRef .tc r) = Gen.V21 m outs c (Proc.devRef .tc r) :=
  (Function.update_of_ne (StableHlo.devRef_ne_of_ne h2) _ _).trans
    ((Function.update_of_ne (StableHlo.devRef_ne_of_ne h1) _ _).trans (Function.update_of_ne (StableHlo.devRef_ne_of_ne h0) _ _))
/-- Item 22, a host stretch: a reference it does not write keeps its contents. -/
theorem keep23 (c : Dev nD) {r : Ref sig .tc} (hr : r ∉ Gen.hostOps8_W) :
    Gen.V23 m outs c (Proc.devRef .tc r) = Gen.V22 m outs c (Proc.devRef .tc r) :=
  StableHlo.after_of_writes_sub _ _ Gen.hostOps8_writes hr
/-- Item 23, a region: a reference that is none of its outputs keeps its contents. -/
theorem keep24 (c : Dev nD) {r : Ref sig .tc} (hr : r ≠ main_v146) :
    Gen.V24 m outs c (Proc.devRef .tc r) = Gen.V23 m outs c (Proc.devRef .tc r) :=
  Function.update_of_ne (StableHlo.devRef_ne_of_ne hr) _ _
/-- Item 24, a host stretch: a reference it does not write keeps its contents. -/
theorem keep25 (c : Dev nD) {r : Ref sig .tc} (hr : r ∉ Gen.hostOps9_W) :
    Gen.V25 m outs c (Proc.devRef .tc r) = Gen.V24 m outs c (Proc.devRef .tc r) :=
  StableHlo.after_of_writes_sub _ _ Gen.hostOps9_writes hr
/-- Item 25, a host stretch: a reference it does not write keeps its contents. -/
theorem keep26 (c : Dev nD) {r : Ref sig .tc} (hr : r ∉ Gen.hostOps9_1_W) :
    Gen.V26 m outs c (Proc.devRef .tc r) = Gen.V25 m outs c (Proc.devRef .tc r) :=
  StableHlo.after_of_writes_sub _ _ Gen.hostOps9_1_writes hr
/-- Item 26, a host stretch: a reference it does not write keeps its contents. -/
theorem keep27 (c : Dev nD) {r : Ref sig .tc} (hr : r ∉ Gen.hostOps9_2_W) :
    Gen.V27 m outs c (Proc.devRef .tc r) = Gen.V26 m outs c (Proc.devRef .tc r) :=
  StableHlo.after_of_writes_sub _ _ Gen.hostOps9_2_writes hr
/-- Item 27, a host stretch: a reference it does not write keeps its contents. -/
theorem keep28 (c : Dev nD) {r : Ref sig .tc} (hr : r ∉ Gen.hostOps9_3_W) :
    Gen.V28 m outs c (Proc.devRef .tc r) = Gen.V27 m outs c (Proc.devRef .tc r) :=
  StableHlo.after_of_writes_sub _ _ Gen.hostOps9_3_writes hr
/-- Item 28, a host stretch: a reference it does not write keeps its contents. -/
theorem keep29 (c : Dev nD) {r : Ref sig .tc} (hr : r ∉ Gen.hostOps9_4_W) :
    Gen.V29 m outs c (Proc.devRef .tc r) = Gen.V28 m outs c (Proc.devRef .tc r) :=
  StableHlo.after_of_writes_sub _ _ Gen.hostOps9_4_writes hr
/-- Item 29, a host stretch: a reference it does not write keeps its contents. -/
theorem keep30 (c : Dev nD) {r : Ref sig .tc} (hr : r ∉ Gen.hostOps9_5_W) :
    Gen.V30 m outs c (Proc.devRef .tc r) = Gen.V29 m outs c (Proc.devRef .tc r) :=
  StableHlo.after_of_writes_sub _ _ Gen.hostOps9_5_writes hr
/-- Item 30, a host stretch: a reference it does not write keeps its contents. -/
theorem keep31 (c : Dev nD) {r : Ref sig .tc} (hr : r ∉ Gen.hostOps9_6_W) :
    Gen.V31 m outs c (Proc.devRef .tc r) = Gen.V30 m outs c (Proc.devRef .tc r) :=
  StableHlo.after_of_writes_sub _ _ Gen.hostOps9_6_writes hr
/-- Item 31, a host stretch: a reference it does not write keeps its contents. -/
theorem keep32 (c : Dev nD) {r : Ref sig .tc} (hr : r ∉ Gen.hostOps9_7_W) :
    Gen.V32 m outs c (Proc.devRef .tc r) = Gen.V31 m outs c (Proc.devRef .tc r) :=
  StableHlo.after_of_writes_sub _ _ Gen.hostOps9_7_writes hr
/-- Item 32, a host stretch: a reference it does not write keeps its contents. -/
theorem keep33 (c : Dev nD) {r : Ref sig .tc} (hr : r ∉ Gen.hostOps9_8_W) :
    Gen.V33 m outs c (Proc.devRef .tc r) = Gen.V32 m outs c (Proc.devRef .tc r) :=
  StableHlo.after_of_writes_sub _ _ Gen.hostOps9_8_writes hr
/-- Item 33, a host stretch: a reference it does not write keeps its contents. -/
theorem keep34 (c : Dev nD) {r : Ref sig .tc} (hr : r ∉ Gen.hostOps9_9_W) :
    Gen.V34 m outs c (Proc.devRef .tc r) = Gen.V33 m outs c (Proc.devRef .tc r) :=
  StableHlo.after_of_writes_sub _ _ Gen.hostOps9_9_writes hr

/-- After the region of item 1 its output reference holds the unknown. -/
theorem at2_main_v25 (c : Dev nD) : Gen.V2 m outs c (Proc.devRef .tc main_v25) = outs 2 main_v25 c :=
  Function.update_self _ _ _
/-- After the region of item 5 its three output references hold the unknowns. -/
theorem at6_main_v49_2 (c : Dev nD) : Gen.V6 m outs c (Proc.devRef .tc main_v49_2) = outs 6 main_v49_2 c :=
  Function.update_self _ _ _
theorem at6_main_v49_1 (c : Dev nD) : Gen.V6 m outs c (Proc.devRef .tc main_v49_1) = outs 6 main_v49_1 c :=
  (Function.update_of_ne (StableHlo.devRef_ne_of_ne (by decide)) _ _).trans (Function.update_self _ _ _)
theorem at6_main_v49_0 (c : Dev nD) : Gen.V6 m outs c (Proc.devRef .tc main_v49_0) = outs 6 main_v49_0 c :=
  (Function.update_of_ne (StableHlo.devRef_ne_of_ne (by decide)) _ _).trans
    ((Function.update_of_ne (StableHlo.devRef_ne_of_ne (by decide)) _ _).trans (Function.update_self _ _ _))
/-- After the region of item 7 its output reference holds the unknown. -/
theorem at8_main_v62 (c : Dev nD) : Gen.V8 m outs c (Proc.devRef .tc main_v62) = outs 8 main_v62 c :=
  Function.update_self _ _ _
/-- After the region of item 9 its output reference holds the unknown. -/
theorem at10_main_v67 (c : Dev nD) : Gen.V10 m outs c (Proc.devRef .tc main_v67) = outs 10 main_v67 c :=
  Function.update_self _ _ _
/-- After the region of item 13 its three output references hold the unknowns. -/
theorem at14_main_v91_2 (c : Dev nD) : Gen.V14 m outs c (Proc.devRef .tc main_v91_2) = outs 14 main_v91_2 c :=
  Function.update_self _ _ _
theorem at14_main_v91_1 (c : Dev nD) : Gen.V14 m outs c (Proc.devRef .tc main_v91_1) = outs 14 main_v91_1 c :=
  (Function.update_of_ne (StableHlo.devRef_ne_of_ne (by decide)) _ _).trans (Function.update_self _ _ _)
theorem at14_main_v91_0 (c : Dev nD) : Gen.V14 m outs c (Proc.devRef .tc main_v91_0) = outs 14 main_v91_0 c :=
  (Function.update_of_ne (StableHlo.devRef_ne_of_ne (by decide)) _ _).trans
    ((Function.update_of_ne (StableHlo.devRef_ne_of_ne (by decide)) _ _).trans (Function.update_self _ _ _))
/-- After the region of item 15 its output reference holds the unknown. -/
theorem at16_main_v104 (c : Dev nD) : Gen.V16 m outs c (Proc.devRef .tc main_v104) = outs 16 main_v104 c :=
  Function.update_self _ _ _
/-- After the region of item 17 its output reference holds the unknown. -/
theorem at18_main_v109 (c : Dev nD) : Gen.V18 m outs c (Proc.devRef .tc main_v109) = outs 18 main_v109 c :=
  Function.update_self _ _ _
/-- After the region of item 21 its three output references hold the unknowns. -/
theorem at22_main_v133_2 (c : Dev nD) : Gen.V22 m outs c (Proc.devRef .tc main_v133_2) = outs 22 main_v133_2 c :=
  Function.update_self _ _ _
theorem at22_main_v133_1 (c : Dev nD) : Gen.V22 m outs c (Proc.devRef .tc main_v133_1) = outs 22 main_v133_1 c :=
  (Function.update_of_ne (StableHlo.devRef_ne_of_ne (by decide)) _ _).trans (Function.update_self _ _ _)
theorem at22_main_v133_0 (c : Dev nD) : Gen.V22 m outs c (Proc.devRef .tc main_v133_0) = outs 22 main_v133_0 c :=
  (Function.update_of_ne (StableHlo.devRef_ne_of_ne (by decide)) _ _).trans
    ((Function.update_of_ne (StableHlo.devRef_ne_of_ne (by decide)) _ _).trans (Function.update_self _ _ _))
/-- After the region of item 23 its output reference holds the unknown. -/
theorem at24_main_v146 (c : Dev nD) : Gen.V24 m outs c (Proc.devRef .tc main_v146) = outs 24 main_v146 c :=
  Function.update_self _ _ _

/-! ## Across several items: the references written by items 1 … J (wa_J), by items 2 … J (wr_J) -/

abbrev wa_0 : List (Ref sig .tc) := []
abbrev wa_1 : List (Ref sig .tc) := wa_0 ++ Gen.hostOps0_W
abbrev wa_2 : List (Ref sig .tc) := wa_1 ++ [main_v25]
abbrev wa_3 : List (Ref sig .tc) := wa_2 ++ Gen.hostOps1_W
abbrev wa_4 : List (Ref sig .tc) := wa_3 ++ Gen.hostOps1_1_W
abbrev wa_5 : List (Ref sig .tc) := wa_4 ++ Gen.hostOps1_2_W
abbrev wa_6 : List (Ref sig .tc) := wa_5 ++ [main_v49_0, main_v49_1, main_v49_2]
abbrev wa_7 : List (Ref sig .tc) := wa_6 ++ Gen.hostOps2_W
abbrev wa_8 : List (Ref sig .tc) := wa_7 ++ [main_v62]
abbrev wa_9 : List (Ref sig .tc) := wa_8 ++ Gen.hostOps3_W
abbrev wa_10 : List (Ref sig .tc) := wa_9 ++ [main_v67]
abbrev wa_11 : List (Ref sig .tc) := wa_10 ++ Gen.hostOps4_W
abbrev wa_12 : List (Ref sig .tc) := wa_11 ++ Gen.hostOps4_1_W
abbrev wa_13 : List (Ref sig .tc) := wa_12 ++ Gen.hostOps4_2_W
abbrev wa_14 : List (Ref sig .tc) := wa_13 ++ [main_v91_0, main_v91_1, main_v91_2]
abbrev wa_15 : List (Ref sig .tc) := wa_14 ++ Gen.hostOps5_W
abbrev wa_16 : List (Ref sig .tc) := wa_15 ++ [main_v104]
abbrev wa_17 : List (Ref sig .tc) := wa_16 ++ Gen.hostOps6_W
abbrev wa_18 : List (Ref sig .tc) := wa_17 ++ [main_v109]
abbrev wa_19 : List (Ref sig .tc) := wa_18 ++ Gen.hostOps7_W
abbrev wa_20 : List (Ref sig .tc) := wa_19 ++ Gen.hostOps7_1_W
abbrev wa_21 : List (Ref sig .tc) := wa_20 ++ Gen.hostOps7_2_W
abbrev wa_22 : List (Ref sig .tc) := wa_21 ++ [main_v133_0, main_v133_1, main_v133_2]
abbrev wa_23 : List (Ref sig .tc) := wa_22 ++ Gen.hostOps8_W
abbrev wa_24 : List (Ref sig .tc) := wa_23 ++ [main_v146]
abbrev wa_25 : List (Ref sig .tc) := wa_24 ++ Gen.hostOps9_W
abbrev wa_26 : List (Ref sig .tc) := wa_25 ++ Gen.hostOps9_1_W
abbrev wa_27 : List (Ref sig .tc) := wa_26 ++ Gen.hostOps9_2_W
abbrev wa_28 : List (Ref sig .tc) := wa_27 ++ Gen.hostOps9_3_W
abbrev wa_29 : List (Ref sig .tc) := wa_28 ++ Gen.hostOps9_4_W
abbrev wa_30 : List (Ref sig .tc) := wa_29 ++ Gen.hostOps9_5_W
abbrev wa_31 : List (Ref sig .tc) := wa_30 ++ Gen.hostOps9_6_W
abbrev wa_32 : List (Ref sig .tc) := wa_31 ++ Gen.hostOps9_7_W
abbrev wa_33 : List (Ref sig .tc) := wa_32 ++ Gen.hostOps9_8_W
abbrev wa_34 : List (Ref sig .tc) := wa_33 ++ Gen.hostOps9_9_W
abbrev wr_1 : List (Ref sig .tc) := []
abbrev wr_2 : List (Ref sig .tc) := wr_1 ++ [main_v25]
abbrev wr_3 : List (Ref sig .tc) := wr_2 ++ Gen.hostOps1_W
abbrev wr_4 : List (Ref sig .tc) := wr_3 ++ Gen.hostOps1_1_W
abbrev wr_5 : List (Ref sig .tc) := wr_4 ++ Gen.hostOps1_2_W
abbrev wr_6 : List (Ref sig .tc) := wr_5 ++ [main_v49_0, main_v49_1, main_v49_2]
abbrev wr_7 : List (Ref sig .tc) := wr_6 ++ Gen.hostOps2_W
abbrev wr_8 : List (Ref sig .tc) := wr_7 ++ [main_v62]
abbrev wr_9 : List (Ref sig .tc) := wr_8 ++ Gen.hostOps3_W
abbrev wr_10 : List (Ref sig .tc) := wr_9 ++ [main_v67]
abbrev wr_11 : List (Ref sig .tc) := wr_10 ++ Gen.hostOps4_W
abbrev wr_12 : List (Ref sig .tc) := wr_11 ++ Gen.hostOps4_1_W
abbrev wr_13 : List (Ref sig .tc) := wr_12 ++ Gen.hostOps4_2_W
abbrev wr_14 : List (Ref sig .tc) := wr_13 ++ [main_v91_0, main_v91_1, main_v91_2]
abbrev wr_15 : List (Ref sig .tc) := wr_14 ++ Gen.hostOps5_W
abbrev wr_16 : List (Ref sig .tc) := wr_15 ++ [main_v104]
abbrev wr_17 : List (Ref sig .tc) := wr_16 ++ Gen.hostOps6_W
abbrev wr_18 : List (Ref sig .tc) := wr_17 ++ [main_v109]
abbrev wr_19 : List (Ref sig .tc) := wr_18 ++ Gen.hostOps7_W
abbrev wr_20 : List (Ref sig .tc) := wr_19 ++ Gen.hostOps7_1_W
abbrev wr_21 : List (Ref sig .tc) := wr_20 ++ Gen.hostOps7_2_W
abbrev wr_22 : List (Ref sig .tc) := wr_21 ++ [main_v133_0, main_v133_1, main_v133_2]
abbrev wr_23 : List (Ref sig .tc) := wr_22 ++ Gen.hostOps8_W
abbrev wr_24 : List (Ref sig .tc) := wr_23 ++ [main_v146]
abbrev wr_25 : List (Ref sig .tc) := wr_24 ++ Gen.hostOps9_W
abbrev wr_26 : List (Ref sig .tc) := wr_25 ++ Gen.hostOps9_1_W
abbrev wr_27 : List (Ref sig .tc) := wr_26 ++ Gen.hostOps9_2_W
abbrev wr_28 : List (Ref sig .tc) := wr_27 ++ Gen.hostOps9_3_W
abbrev wr_29 : List (Ref sig .tc) := wr_28 ++ Gen.hostOps9_4_W
abbrev wr_30 : List (Ref sig .tc) := wr_29 ++ Gen.hostOps9_5_W
abbrev wr_31 : List (Ref sig .tc) := wr_30 ++ Gen.hostOps9_6_W
abbrev wr_32 : List (Ref sig .tc) := wr_31 ++ Gen.hostOps9_7_W
abbrev wr_33 : List (Ref sig .tc) := wr_32 ++ Gen.hostOps9_8_W
abbrev wr_34 : List (Ref sig .tc) := wr_33 ++ Gen.hostOps9_9_W

/-- A reference that none of the items 1 … J writes holds, after item J, its launch contents. -/
theorem down0_0 (c : Dev nD) {r : Ref sig .tc} (hr : r ∉ wa_0) : Gen.V0 m c (Proc.devRef .tc r) = m (c, Proc.devRef .tc r) := rfl
theorem down0_1 (c : Dev nD) {r : Ref sig .tc} (hr : r ∉ wa_1) : Gen.V1 m c (Proc.devRef .tc r) = m (c, Proc.devRef .tc r) :=
  (keep1 m c (fun h => hr (List.mem_append_right _ h))).trans (down0_0 m c fun h => hr (List.mem_append_left _ h))
theorem down0_2 (c : Dev nD) {r : Ref sig .tc} (hr : r ∉ wa_2) : Gen.V2 m outs c (Proc.devRef .tc r) = m (c, Proc.devRef .tc r) :=
  (keep2 m outs c (fun e => (fun h => hr (List.mem_append_right _ h)) (by rw [e]; exact List.mem_cons_self))).trans (down0_1 m c fun h => hr (List.mem_append_left _ h))
theorem down0_3 (c : Dev nD) {r : Ref sig .tc} (hr : r ∉ wa_3) : Gen.V3 m outs c (Proc.devRef .tc r) = m (c, Proc.devRef .tc r) :=
  (keep3 m outs c (fun h => hr (List.mem_append_right _ h))).trans (down0_2 m outs c fun h => hr (List.mem_append_left _ h))
theorem down0_4 (c : Dev nD) {r : Ref sig .tc} (hr : r ∉ wa_4) : Gen.V4 m outs c (Proc.devRef .tc r) = m (c, Proc.devRef .tc r) :=
  (keep4 m outs c (fun h => hr (List.mem_append_right _ h))).trans (down0_3 m outs c fun h => hr (List.mem_append_left _ h))
theorem down0_5 (c : Dev nD) {r : Ref sig .tc} (hr : r ∉ wa_5) : Gen.V5 m outs c (Proc.devRef .tc r) = m (c, Proc.devRef .tc r) :=
  (keep5 m outs c (fun h => hr (List.mem_append_right _ h))).trans (down0_4 m outs c fun h => hr (List.mem_append_left _ h))
theorem down0_6 (c : Dev nD) {r : Ref sig .tc} (hr : r ∉ wa_6) : Gen.V6 m outs c (Proc.devRef .tc r) = m (c, Proc.devRef .tc r) :=
  (keep6 m outs c (fun e => (fun h => hr (List.mem_append_right _ h)) (by rw [e]; simp)) (fun e => (fun h => hr (List.mem_append_right _ h)) (by rw [e]; simp)) (fun e => (fun h => hr (List.mem_append_right _ h)) (by rw [e]; simp))).trans (down0_5 m outs c fun h => hr (List.mem_append_left _ h))
theorem down0_7 (c : Dev nD) {r : Ref sig .tc} (hr : r ∉ wa_7) : Gen.V7 m outs c (Proc.devRef .tc r) = m (c, Proc.devRef .tc r) :=
  (keep7 m outs c (fun h => hr (List.mem_append_right _ h))).trans (down0_6 m outs c fun h => hr (List.mem_append_left _ h))
theorem down0_8 (c : Dev nD) {r : Ref sig .tc} (hr : r ∉ wa_8) : Gen.V8 m outs c (Proc.devRef .tc r) = m (c, Proc.devRef .tc r) :=
  (keep8 m outs c (fun e => (fun h => hr (List.mem_append_right _ h)) (by rw [e]; exact List.mem_cons_self))).trans (down0_7 m outs c fun h => hr (List.mem_append_left _ h))
theorem down0_9 (c : Dev nD) {r : Ref sig .tc} (hr : r ∉ wa_9) : Gen.V9 m outs c (Proc.devRef .tc r) = m (c, Proc.devRef .tc r) :=
  (keep9 m outs c (fun h => hr (List.mem_append_right _ h))).trans (down0_8 m outs c fun h => hr (List.mem_append_left _ h))
theorem down0_10 (c : Dev nD) {r : Ref sig .tc} (hr : r ∉ wa_10) : Gen.V10 m outs c (Proc.devRef .tc r) = m (c, Proc.devRef .tc r) :=
  (keep10 m outs c (fun e => (fun h => hr (List.mem_append_right _ h)) (by rw [e]; exact List.mem_cons_self))).trans (down0_9 m outs c fun h => hr (List.mem_append_left _ h))
theorem down0_11 (c : Dev nD) {r : Ref sig .tc} (hr : r ∉ wa_11) : Gen.V11 m outs c (Proc.devRef .tc r) = m (c, Proc.devRef .tc r) :=
  (keep11 m outs c (fun h => hr (List.mem_append_right _ h))).trans (down0_10 m outs c fun h => hr (List.mem_append_left _ h))
theorem down0_12 (c : Dev nD) {r : Ref sig .tc} (hr : r ∉ wa_12) : Gen.V12 m outs c (Proc.devRef .tc r) = m (c, Proc.devRef .tc r) :=
  (keep12 m outs c (fun h => hr (List.mem_append_right _ h))).trans (down0_11 m outs c fun h => hr (List.mem_append_left _ h))
theorem down0_13 (c : Dev nD) {r : Ref sig .tc} (hr : r ∉ wa_13) : Gen.V13 m outs c (Proc.devRef .tc r) = m (c, Proc.devRef .tc r) :=
  (keep13 m outs c (fun h => hr (List.mem_append_right _ h))).trans (down0_12 m outs c fun h => hr (List.mem_append_left _ h))
theorem down0_14 (c : Dev nD) {r : Ref sig .tc} (hr : r ∉ wa_14) : Gen.V14 m outs c (Proc.devRef .tc r) = m (c, Proc.devRef .tc r) :=
  (keep14 m outs c (fun e => (fun h => hr (List.mem_append_right _ h)) (by rw [e]; simp)) (fun e => (fun h => hr (List.mem_append_right _ h)) (by rw [e]; simp)) (fun e => (fun h => hr (List.mem_append_right _ h)) (by rw [e]; simp))).trans (down0_13 m outs c fun h => hr (List.mem_append_left _ h))
theorem down0_15 (c : Dev nD) {r : Ref sig .tc} (hr : r ∉ wa_15) : Gen.V15 m outs c (Proc.devRef .tc r) = m (c, Proc.devRef .tc r) :=
  (keep15 m outs c (fun h => hr (List.mem_append_right _ h))).trans (down0_14 m outs c fun h => hr (List.mem_append_left _ h))
theorem down0_16 (c : Dev nD) {r : Ref sig .tc} (hr : r ∉ wa_16) : Gen.V16 m outs c (Proc.devRef .tc r) = m (c, Proc.devRef .tc r) :=
  (keep16 m outs c (fun e => (fun h => hr (List.mem_append_right _ h)) (by rw [e]; exact List.mem_cons_self))).trans (down0_15 m outs c fun h => hr (List.mem_append_left _ h))
theorem down0_17 (c : Dev nD) {r : Ref sig .tc} (hr : r ∉ wa_17) : Gen.V17 m outs c (Proc.devRef .tc r) = m (c, Proc.devRef .tc r) :=
  (keep17 m outs c (fun h => hr (List.mem_append_right _ h))).trans (down0_16 m outs c fun h => hr (List.mem_append_left _ h))
theorem down0_18 (c : Dev nD) {r : Ref sig .tc} (hr : r ∉ wa_18) : Gen.V18 m outs c (Proc.devRef .tc r) = m (c, Proc.devRef .tc r) :=
  (keep18 m outs c (fun e => (fun h => hr (List.mem_append_right _ h)) (by rw [e]; exact List.mem_cons_self))).trans (down0_17 m outs c fun h => hr (List.mem_append_left _ h))
theorem down0_19 (c : Dev nD) {r : Ref sig .tc} (hr : r ∉ wa_19) : Gen.V19 m outs c (Proc.devRef .tc r) = m (c, Proc.devRef .tc r) :=
  (keep19 m outs c (fun h => hr (List.mem_append_right _ h))).trans (down0_18 m outs c fun h => hr (List.mem_append_left _ h))
theorem down0_20 (c : Dev nD) {r : Ref sig .tc} (hr : r ∉ wa_20) : Gen.V20 m outs c (Proc.devRef .tc r) = m (c, Proc.devRef .tc r) :=
  (keep20 m outs c (fun h => hr (List.mem_append_right _ h))).trans (down0_19 m outs c fun h => hr (List.mem_append_left _ h))
theorem down0_21 (c : Dev nD) {r : Ref sig .tc} (hr : r ∉ wa_21) : Gen.V21 m outs c (Proc.devRef .tc r) = m (c, Proc.devRef .tc r) :=
  (keep21 m outs c (fun h => hr (List.mem_append_right _ h))).trans (down0_20 m outs c fun h => hr (List.mem_append_left _ h))
theorem down0_22 (c : Dev nD) {r : Ref sig .tc} (hr : r ∉ wa_22) : Gen.V22 m outs c (Proc.devRef .tc r) = m (c, Proc.devRef .tc r) :=
  (keep22 m outs c (fun e => (fun h => hr (List.mem_append_right _ h)) (by rw [e]; simp)) (fun e => (fun h => hr (List.mem_append_right _ h)) (by rw [e]; simp)) (fun e => (fun h => hr (List.mem_append_right _ h)) (by rw [e]; simp))).trans (down0_21 m outs c fun h => hr (List.mem_append_left _ h))
theorem down0_23 (c : Dev nD) {r : Ref sig .tc} (hr : r ∉ wa_23) : Gen.V23 m outs c (Proc.devRef .tc r) = m (c, Proc.devRef .tc r) :=
  (keep23 m outs c (fun h => hr (List.mem_append_right _ h))).trans (down0_22 m outs c fun h => hr (List.mem_append_left _ h))
theorem down0_24 (c : Dev nD) {r : Ref sig .tc} (hr : r ∉ wa_24) : Gen.V24 m outs c (Proc.devRef .tc r) = m (c, Proc.devRef .tc r) :=
  (keep24 m outs c (fun e => (fun h => hr (List.mem_append_right _ h)) (by rw [e]; exact List.mem_cons_self))).trans (down0_23 m outs c fun h => hr (List.mem_append_left _ h))
theorem down0_25 (c : Dev nD) {r : Ref sig .tc} (hr : r ∉ wa_25) : Gen.V25 m outs c (Proc.devRef .tc r) = m (c, Proc.devRef .tc r) :=
  (keep25 m outs c (fun h => hr (List.mem_append_right _ h))).trans (down0_24 m outs c fun h => hr (List.mem_append_left _ h))
theorem down0_26 (c : Dev nD) {r : Ref sig .tc} (hr : r ∉ wa_26) : Gen.V26 m outs c (Proc.devRef .tc r) = m (c, Proc.devRef .tc r) :=
  (keep26 m outs c (fun h => hr (List.mem_append_right _ h))).trans (down0_25 m outs c fun h => hr (List.mem_append_left _ h))
theorem down0_27 (c : Dev nD) {r : Ref sig .tc} (hr : r ∉ wa_27) : Gen.V27 m outs c (Proc.devRef .tc r) = m (c, Proc.devRef .tc r) :=
  (keep27 m outs c (fun h => hr (List.mem_append_right _ h))).trans (down0_26 m outs c fun h => hr (List.mem_append_left _ h))
theorem down0_28 (c : Dev nD) {r : Ref sig .tc} (hr : r ∉ wa_28) : Gen.V28 m outs c (Proc.devRef .tc r) = m (c, Proc.devRef .tc r) :=
  (keep28 m outs c (fun h => hr (List.mem_append_right _ h))).trans (down0_27 m outs c fun h => hr (List.mem_append_left _ h))
theorem down0_29 (c : Dev nD) {r : Ref sig .tc} (hr : r ∉ wa_29) : Gen.V29 m outs c (Proc.devRef .tc r) = m (c, Proc.devRef .tc r) :=
  (keep29 m outs c (fun h => hr (List.mem_append_right _ h))).trans (down0_28 m outs c fun h => hr (List.mem_append_left _ h))
theorem down0_30 (c : Dev nD) {r : Ref sig .tc} (hr : r ∉ wa_30) : Gen.V30 m outs c (Proc.devRef .tc r) = m (c, Proc.devRef .tc r) :=
  (keep30 m outs c (fun h => hr (List.mem_append_right _ h))).trans (down0_29 m outs c fun h => hr (List.mem_append_left _ h))
theorem down0_31 (c : Dev nD) {r : Ref sig .tc} (hr : r ∉ wa_31) : Gen.V31 m outs c (Proc.devRef .tc r) = m (c, Proc.devRef .tc r) :=
  (keep31 m outs c (fun h => hr (List.mem_append_right _ h))).trans (down0_30 m outs c fun h => hr (List.mem_append_left _ h))
theorem down0_32 (c : Dev nD) {r : Ref sig .tc} (hr : r ∉ wa_32) : Gen.V32 m outs c (Proc.devRef .tc r) = m (c, Proc.devRef .tc r) :=
  (keep32 m outs c (fun h => hr (List.mem_append_right _ h))).trans (down0_31 m outs c fun h => hr (List.mem_append_left _ h))
theorem down0_33 (c : Dev nD) {r : Ref sig .tc} (hr : r ∉ wa_33) : Gen.V33 m outs c (Proc.devRef .tc r) = m (c, Proc.devRef .tc r) :=
  (keep33 m outs c (fun h => hr (List.mem_append_right _ h))).trans (down0_32 m outs c fun h => hr (List.mem_append_left _ h))
theorem down0_34 (c : Dev nD) {r : Ref sig .tc} (hr : r ∉ wa_34) : Gen.V34 m outs c (Proc.devRef .tc r) = m (c, Proc.devRef .tc r) :=
  (keep34 m outs c (fun h => hr (List.mem_append_right _ h))).trans (down0_33 m outs c fun h => hr (List.mem_append_left _ h))

/-- A reference that none of the items 2 … J writes holds, after item J, what it held after item 1. -/
theorem down1_1 (c : Dev nD) {r : Ref sig .tc} (hr : r ∉ wr_1) : Gen.V1 m c (Proc.devRef .tc r) = Gen.V1 m c (Proc.devRef .tc r) := rfl
theorem down1_2 (c : Dev nD) {r : Ref sig .tc} (hr : r ∉ wr_2) : Gen.V2 m outs c (Proc.devRef .tc r) = Gen.V1 m c (Proc.devRef .tc r) :=
  (keep2 m outs c (fun e => (fun h => hr (List.mem_append_right _ h)) (by rw [e]; exact List.mem_cons_self))).trans (down1_1 m c fun h => hr (List.mem_append_left _ h))
theorem down1_3 (c : Dev nD) {r : Ref sig .tc} (hr : r ∉ wr_3) : Gen.V3 m outs c (Proc.devRef .tc r) = Gen.V1 m c (Proc.devRef .tc r) :=
  (keep3 m outs c (fun h => hr (List.mem_append_right _ h))).trans (down1_2 m outs c fun h => hr (List.mem_append_left _ h))
theorem down1_4 (c : Dev nD) {r : Ref sig .tc} (hr : r ∉ wr_4) : Gen.V4 m outs c (Proc.devRef .tc r) = Gen.V1 m c (Proc.devRef .tc r) :=
  (keep4 m outs c (fun h => hr (List.mem_append_right _ h))).trans (down1_3 m outs c fun h => hr (List.mem_append_left _ h))
theorem down1_5 (c : Dev nD) {r : Ref sig .tc} (hr : r ∉ wr_5) : Gen.V5 m outs c (Proc.devRef .tc r) = Gen.V1 m c (Proc.devRef .tc r) :=
  (keep5 m outs c (fun h => hr (List.mem_append_right _ h))).trans (down1_4 m outs c fun h => hr (List.mem_append_left _ h))
theorem down1_6 (c : Dev nD) {r : Ref sig .tc} (hr : r ∉ wr_6) : Gen.V6 m outs c (Proc.devRef .tc r) = Gen.V1 m c (Proc.devRef .tc r) :=
  (keep6 m outs c (fun e => (fun h => hr (List.mem_append_right _ h)) (by rw [e]; simp)) (fun e => (fun h => hr (List.mem_append_right _ h)) (by rw [e]; simp)) (fun e => (fun h => hr (List.mem_append_right _ h)) (by rw [e]; simp))).trans (down1_5 m outs c fun h => hr (List.mem_append_left _ h))
theorem down1_7 (c : Dev nD) {r : Ref sig .tc} (hr : r ∉ wr_7) : Gen.V7 m outs c (Proc.devRef .tc r) = Gen.V1 m c (Proc.devRef .tc r) :=
  (keep7 m outs c (fun h => hr (List.mem_append_right _ h))).trans (down1_6 m outs c fun h => hr (List.mem_append_left _ h))
theorem down1_8 (c : Dev nD) {r : Ref sig .tc} (hr : r ∉ wr_8) : Gen.V8 m outs c (Proc.devRef .tc r) = Gen.V1 m c (Proc.devRef .tc r) :=
  (keep8 m outs c (fun e => (fun h => hr (List.mem_append_right _ h)) (by rw [e]; exact List.mem_cons_self))).trans (down1_7 m outs c fun h => hr (List.mem_append_left _ h))
theorem down1_9 (c : Dev nD) {r : Ref sig .tc} (hr : r ∉ wr_9) : Gen.V9 m outs c (Proc.devRef .tc r) = Gen.V1 m c (Proc.devRef .tc r) :=
  (keep9 m outs c (fun h => hr (List.mem_append_right _ h))).trans (down1_8 m outs c fun h => hr (List.mem_append_left _ h))
theorem down1_10 (c : Dev nD) {r : Ref sig .tc} (hr : r ∉ wr_10) : Gen.V10 m outs c (Proc.devRef .tc r) = Gen.V1 m c (Proc.devRef .tc r) :=
  (keep10 m outs c (fun e => (fun h => hr (List.mem_append_right _ h)) (by rw [e]; exact List.mem_cons_self))).trans (down1_9 m outs c fun h => hr (List.mem_append_left _ h))
theorem down1_11 (c : Dev nD) {r : Ref sig .tc} (hr : r ∉ wr_11) : Gen.V11 m outs c (Proc.devRef .tc r) = Gen.V1 m c (Proc.devRef .tc r) :=
  (keep11 m outs c (fun h => hr (List.mem_append_right _ h))).trans (down1_10 m outs c fun h => hr (List.mem_append_left _ h))
theorem down1_12 (c : Dev nD) {r : Ref sig .tc} (hr : r ∉ wr_12) : Gen.V12 m outs c (Proc.devRef .tc r) = Gen.V1 m c (Proc.devRef .tc r) :=
  (keep12 m outs c (fun h => hr (List.mem_append_right _ h))).trans (down1_11 m outs c fun h => hr (List.mem_append_left _ h))
theorem down1_13 (c : Dev nD) {r : Ref sig .tc} (hr : r ∉ wr_13) : Gen.V13 m outs c (Proc.devRef .tc r) = Gen.V1 m c (Proc.devRef .tc r) :=
  (keep13 m outs c (fun h => hr (List.mem_append_right _ h))).trans (down1_12 m outs c fun h => hr (List.mem_append_left _ h))
theorem down1_14 (c : Dev nD) {r : Ref sig .tc} (hr : r ∉ wr_14) : Gen.V14 m outs c (Proc.devRef .tc r) = Gen.V1 m c (Proc.devRef .tc r) :=
  (keep14 m outs c (fun e => (fun h => hr (List.mem_append_right _ h)) (by rw [e]; simp)) (fun e => (fun h => hr (List.mem_append_right _ h)) (by rw [e]; simp)) (fun e => (fun h => hr (List.mem_append_right _ h)) (by rw [e]; simp))).trans (down1_13 m outs c fun h => hr (List.mem_append_left _ h))
theorem down1_15 (c : Dev nD) {r : Ref sig .tc} (hr : r ∉ wr_15) : Gen.V15 m outs c (Proc.devRef .tc r) = Gen.V1 m c (Proc.devRef .tc r) :=
  (keep15 m outs c (fun h => hr (List.mem_append_right _ h))).trans (down1_14 m outs c fun h => hr (List.mem_append_left _ h))
theorem down1_16 (c : Dev nD) {r : Ref sig .tc} (hr : r ∉ wr_16) : Gen.V16 m outs c (Proc.devRef .tc r) = Gen.V1 m c (Proc.devRef .tc r) :=
  (keep16 m outs c (fun e => (fun h => hr (List.mem_append_right _ h)) (by rw [e]; exact List.mem_cons_self))).trans (down1_15 m outs c fun h => hr (List.mem_append_left _ h))
theorem down1_17 (c : Dev nD) {r : Ref sig .tc} (hr : r ∉ wr_17) : Gen.V17 m outs c (Proc.devRef .tc r) = Gen.V1 m c (Proc.devRef .tc r) :=
  (keep17 m outs c (fun h => hr (List.mem_append_right _ h))).trans (down1_16 m outs c fun h => hr (List.mem_append_left _ h))
theorem down1_18 (c : Dev nD) {r : Ref sig .tc} (hr : r ∉ wr_18) : Gen.V18 m outs c (Proc.devRef .tc r) = Gen.V1 m c (Proc.devRef .tc r) :=
  (keep18 m outs c (fun e => (fun h => hr (List.mem_append_right _ h)) (by rw [e]; exact List.mem_cons_self))).trans (down1_17 m outs c fun h => hr (List.mem_append_left _ h))
theorem down1_19 (c : Dev nD) {r : Ref sig .tc} (hr : r ∉ wr_19) : Gen.V19 m outs c (Proc.devRef .tc r) = Gen.V1 m c (Proc.devRef .tc r) :=
  (keep19 m outs c (fun h => hr (List.mem_append_right _ h))).trans (down1_18 m outs c fun h => hr (List.mem_append_left _ h))
theorem down1_20 (c : Dev nD) {r : Ref sig .tc} (hr : r ∉ wr_20) : Gen.V20 m outs c (Proc.devRef .tc r) = Gen.V1 m c (Proc.devRef .tc r) :=
  (keep20 m outs c (fun h => hr (List.mem_append_right _ h))).trans (down1_19 m outs c fun h => hr (List.mem_append_left _ h))
theorem down1_21 (c : Dev nD) {r : Ref sig .tc} (hr : r ∉ wr_21) : Gen.V21 m outs c (Proc.devRef .tc r) = Gen.V1 m c (Proc.devRef .tc r) :=
  (keep21 m outs c (fun h => hr (List.mem_append_right _ h))).trans (down1_20 m outs c fun h => hr (List.mem_append_left _ h))
theorem down1_22 (c : Dev nD) {r : Ref sig .tc} (hr : r ∉ wr_22) : Gen.V22 m outs c (Proc.devRef .tc r) = Gen.V1 m c (Proc.devRef .tc r) :=
  (keep22 m outs c (fun e => (fun h => hr (List.mem_append_right _ h)) (by rw [e]; simp)) (fun e => (fun h => hr (List.mem_append_right _ h)) (by rw [e]; simp)) (fun e => (fun h => hr (List.mem_append_right _ h)) (by rw [e]; simp))).trans (down1_21 m outs c fun h => hr (List.mem_append_left _ h))
theorem down1_23 (c : Dev nD) {r : Ref sig .tc} (hr : r ∉ wr_23) : Gen.V23 m outs c (Proc.devRef .tc r) = Gen.V1 m c (Proc.devRef .tc r) :=
  (keep23 m outs c (fun h => hr (List.mem_append_right _ h))).trans (down1_22 m outs c fun h => hr (List.mem_append_left _ h))
theorem down1_24 (c : Dev nD) {r : Ref sig .tc} (hr : r ∉ wr_24) : Gen.V24 m outs c (Proc.devRef .tc r) = Gen.V1 m c (Proc.devRef .tc r) :=
  (keep24 m outs c (fun e => (fun h => hr (List.mem_append_right _ h)) (by rw [e]; exact List.mem_cons_self))).trans (down1_23 m outs c fun h => hr (List.mem_append_left _ h))
theorem down1_25 (c : Dev nD) {r : Ref sig .tc} (hr : r ∉ wr_25) : Gen.V25 m outs c (Proc.devRef .tc r) = Gen.V1 m c (Proc.devRef .tc r) :=
  (keep25 m outs c (fun h => hr (List.mem_append_right _ h))).trans (down1_24 m outs c fun h => hr (List.mem_append_left _ h))
theorem down1_26 (c : Dev nD) {r : Ref sig .tc} (hr : r ∉ wr_26) : Gen.V26 m outs c (Proc.devRef .tc r) = Gen.V1 m c (Proc.devRef .tc r) :=
  (keep26 m outs c (fun h => hr (List.mem_append_right _ h))).trans (down1_25 m outs c fun h => hr (List.mem_append_left _ h))
theorem down1_27 (c : Dev nD) {r : Ref sig .tc} (hr : r ∉ wr_27) : Gen.V27 m outs c (Proc.devRef .tc r) = Gen.V1 m c (Proc.devRef .tc r) :=
  (keep27 m outs c (fun h => hr (List.mem_append_right _ h))).trans (down1_26 m outs c fun h => hr (List.mem_append_left _ h))
theorem down1_28 (c : Dev nD) {r : Ref sig .tc} (hr : r ∉ wr_28) : Gen.V28 m outs c (Proc.devRef .tc r) = Gen.V1 m c (Proc.devRef .tc r) :=
  (keep28 m outs c (fun h => hr (List.mem_append_right _ h))).trans (down1_27 m outs c fun h => hr (List.mem_append_left _ h))
theorem down1_29 (c : Dev nD) {r : Ref sig .tc} (hr : r ∉ wr_29) : Gen.V29 m outs c (Proc.devRef .tc r) = Gen.V1 m c (Proc.devRef .tc r) :=
  (keep29 m outs c (fun h => hr (List.mem_append_right _ h))).trans (down1_28 m outs c fun h => hr (List.mem_append_left _ h))
theorem down1_30 (c : Dev nD) {r : Ref sig .tc} (hr : r ∉ wr_30) : Gen.V30 m outs c (Proc.devRef .tc r) = Gen.V1 m c (Proc.devRef .tc r) :=
  (keep30 m outs c (fun h => hr (List.mem_append_right _ h))).trans (down1_29 m outs c fun h => hr (List.mem_append_left _ h))
theorem down1_31 (c : Dev nD) {r : Ref sig .tc} (hr : r ∉ wr_31) : Gen.V31 m outs c (Proc.devRef .tc r) = Gen.V1 m c (Proc.devRef .tc r) :=
  (keep31 m outs c (fun h => hr (List.mem_append_right _ h))).trans (down1_30 m outs c fun h => hr (List.mem_append_left _ h))
theorem down1_32 (c : Dev nD) {r : Ref sig .tc} (hr : r ∉ wr_32) : Gen.V32 m outs c (Proc.devRef .tc r) = Gen.V1 m c (Proc.devRef .tc r) :=
  (keep32 m outs c (fun h => hr (List.mem_append_right _ h))).trans (down1_31 m outs c fun h => hr (List.mem_append_left _ h))
theorem down1_33 (c : Dev nD) {r : Ref sig .tc} (hr : r ∉ wr_33) : Gen.V33 m outs c (Proc.devRef .tc r) = Gen.V1 m c (Proc.devRef .tc r) :=
  (keep33 m outs c (fun h => hr (List.mem_append_right _ h))).trans (down1_32 m outs c fun h => hr (List.mem_append_left _ h))
theorem down1_34 (c : Dev nD) {r : Ref sig .tc} (hr : r ∉ wr_34) : Gen.V34 m outs c (Proc.devRef .tc r) = Gen.V1 m c (Proc.devRef .tc r) :=
  (keep34 m outs c (fun h => hr (List.mem_append_right _ h))).trans (down1_33 m outs c fun h => hr (List.mem_append_left _ h))

end Cert.KernelIdeal.Val

end
-- ==== Proof.KI.Val1.lean ====
/-
  The kernel program's small host stretches, read as values.

  Before the first region the host cuts the two rows out of the edge table, computes the degree normalisation
  dis = rsqrt (indegree + 1) and its square as a column, and cuts the stacked parameters' first slices. Before each
  combine region it lays the layer's bias out as one row; after it, from the two rows of column totals s and q that the
  region leaves, it forms the column means s/n and the variances q/n − (s/n)², and lays them and the layer's scale and
  shift out as rows for the normalisation region. Each of these is the same composition of tensor operations as the
  specification's stage of that name, so the two agree by unfolding; the means and variances are stated over the
  regions' totals, whatever they are.
-/
import proofs.«422700_j84035330113950_1_alg».proof.Proof.RegionsKernelIdeal
import proofs.«422700_j84035330113950_1_alg».proof.Proof.Val.Spec
import proofs.«422700_j84035330113950_1_alg».proof.Proof.KI.ValKeep
import Idealize.ShloMosaic.Lib.StableHlo.Run

set_option maxRecDepth 4000

noncomputable section

namespace Cert.KernelIdeal.Val

open Idealize.ShloMosaic Idealize.ShloMosaic.TcCoe
open Idealize.ShloMosaic.StableHlo

variable {F : FTy → Type} [FloatOps F]

/-! ## The kernel side's own small stages -/

/-- A vector of 128 entries laid out as one row. -/
def row1 (v : Vec F S128 .f32) : Vec F S1x128 .f32 := shapeCast S1x128 v Gen.shapeCasts_S128_S1x128

/-- One row of 128 entries as a vector. -/
def unrow (s : Vec F S1x128 .f32) : Vec F S128 .f32 := shapeCast S128 s Gen.shapeCasts_S1x128_S128

/-- The number of rows, 50000, repeated over the 128 columns. -/
def nRowsV : Vec F S128 .f32 := broadcastInDim S128 ![] Gen.bcast_S_S128 (constant S_ .f32 0x47435000#32)

/-- The column means from the row of column totals: s / n. -/
def meanK (s : Vec F S1x128 .f32) : Vec F S128 .f32 := Host.divf (unrow s) (nRowsV (F := F))

/-- The column variances from the rows of totals and of totals of squares: q / n − (s / n)². -/
def varK (s q : Vec F S1x128 .f32) : Vec F S128 .f32 :=
  subf (Host.divf (unrow q) (nRowsV (F := F))) (mulf (meanK s) (meanK s))

/-- The self-loop weight dis² per node, as a column. -/
def selfnormK (ei : Vec F S2x800000 .i32) : Vec F S50000x1 .f32 :=
  shapeCast S50000x1 (mulf (Cert.Val.dis (F := F) ei) (Cert.Val.dis (F := F) ei)) Gen.shapeCasts_S50000_S50000x1

variable (m : (ℓ : Loc nD τ sig) → Buf (Elt F) ℓ) (outs : Gen.Outs (F := F))

/-! ## The first host stretch -/

theorem V1_src (c : Dev nD) : Gen.V1 m c (Proc.devRef .tc main_v1) = Cert.Val.srcW (F := F) (m (c, Proc.devRef .tc main_arg1)) := by
  show StableHlo.after Gen.hostOps0 (Gen.V0 m c) (Proc.devRef .tc main_v1) = _
  after_results
  rfl

theorem V1_dst (c : Dev nD) : Gen.V1 m c (Proc.devRef .tc main_v3) = Cert.Val.dstW (F := F) (m (c, Proc.devRef .tc main_arg1)) := by
  show StableHlo.after Gen.hostOps0 (Gen.V0 m c) (Proc.devRef .tc main_v3) = _
  after_results
  rfl

theorem V1_dis (c : Dev nD) : Gen.V1 m c (Proc.devRef .tc main_v10) = Cert.Val.dis (F := F) (m (c, Proc.devRef .tc main_arg1)) := by
  show StableHlo.after Gen.hostOps0 (Gen.V0 m c) (Proc.devRef .tc main_v10) = _
  after_results
  rfl

theorem V1_selfnorm (c : Dev nD) : Gen.V1 m c (Proc.devRef .tc main_v12) = selfnormK (F := F) (m (c, Proc.devRef .tc main_arg1)) := by
  show StableHlo.after Gen.hostOps0 (Gen.V0 m c) (Proc.devRef .tc main_v12) = _
  after_results
  rfl

theorem V1_Wh0 (c : Dev nD) : Gen.V1 m c (Proc.devRef .tc main_v14) = Cert.Val.mat0 (F := F) (m (c, Proc.devRef .tc main_arg5)) := by
  show StableHlo.after Gen.hostOps0 (Gen.V0 m c) (Proc.devRef .tc main_v14) = _
  after_results
  rfl

theorem V1_Wh1 (c : Dev nD) : Gen.V1 m c (Proc.devRef .tc main_v16) = Cert.Val.mat1 (F := F) (m (c, Proc.devRef .tc main_arg5)) := by
  show StableHlo.after Gen.hostOps0 (Gen.V0 m c) (Proc.devRef .tc main_v16) = _
  after_results
  rfl

theorem V1_bh0 (c : Dev nD) : Gen.V1 m c (Proc.devRef .tc main_v18) = Cert.Val.row2_0 (F := F) (m (c, Proc.devRef .tc main_arg6)) := by
  show StableHlo.after Gen.hostOps0 (Gen.V0 m c) (Proc.devRef .tc main_v18) = _
  after_results
  rfl

theorem V1_bh1 (c : Dev nD) : Gen.V1 m c (Proc.devRef .tc main_v20) = Cert.Val.row2_1 (F := F) (m (c, Proc.devRef .tc main_arg6)) := by
  show StableHlo.after Gen.hostOps0 (Gen.V0 m c) (Proc.devRef .tc main_v20) = _
  after_results
  rfl

theorem V1_g0 (c : Dev nD) : Gen.V1 m c (Proc.devRef .tc main_v22) = Cert.Val.row3_0 (F := F) (m (c, Proc.devRef .tc main_arg7)) := by
  show StableHlo.after Gen.hostOps0 (Gen.V0 m c) (Proc.devRef .tc main_v22) = _
  after_results
  rfl

theorem V1_be0 (c : Dev nD) : Gen.V1 m c (Proc.devRef .tc main_v24) = Cert.Val.row3_0 (F := F) (m (c, Proc.devRef .tc main_arg8)) := by
  show StableHlo.after Gen.hostOps0 (Gen.V0 m c) (Proc.devRef .tc main_v24) = _
  after_results
  rfl

/-! ## Layer 1: the bias row, then the rows for the normalisation region -/

theorem V5_bias (c : Dev nD) : Gen.V5 m outs c (Proc.devRef .tc main_v48) = row1 (F := F) (m (c, Proc.devRef .tc main_arg4)) := by
  show StableHlo.after Gen.hostOps1_2 (Gen.V4 m outs c) (Proc.devRef .tc main_v48) = _
  after_results
  rw [down0_2 m outs c (r := main_arg4) (by decide)]
  rfl

theorem V7_mean (c : Dev nD) :
    Gen.V7 m outs c (Proc.devRef .tc main_v58) = row1 (meanK (F := F) (outs 6 main_v49_1 c)) := by
  show StableHlo.after Gen.hostOps2 (Gen.V6 m outs c) (Proc.devRef .tc main_v58) = _
  after_results
  rw [at6_main_v49_1]
  rfl

theorem V7_var (c : Dev nD) :
    Gen.V7 m outs c (Proc.devRef .tc main_v59) = row1 (varK (F := F) (outs 6 main_v49_1 c) (outs 6 main_v49_2 c)) := by
  show StableHlo.after Gen.hostOps2 (Gen.V6 m outs c) (Proc.devRef .tc main_v59) = _
  after_results
  rw [at6_main_v49_1, at6_main_v49_2]
  rfl

theorem V7_gamma (c : Dev nD) :
    Gen.V7 m outs c (Proc.devRef .tc main_v60) = row1 (Cert.Val.row3_0 (F := F) (m (c, Proc.devRef .tc main_arg7))) := by
  show StableHlo.after Gen.hostOps2 (Gen.V6 m outs c) (Proc.devRef .tc main_v60) = _
  after_results
  rw [down1_6 m outs c (r := main_v22) (by decide), V1_g0]
  rfl

theorem V7_beta (c : Dev nD) :
    Gen.V7 m outs c (Proc.devRef .tc main_v61) = row1 (Cert.Val.row3_0 (F := F) (m (c, Proc.devRef .tc main_arg8))) := by
  show StableHlo.after Gen.hostOps2 (Gen.V6 m outs c) (Proc.devRef .tc main_v61) = _
  after_results
  rw [down1_6 m outs c (r := main_v24) (by decide), V1_be0]
  rfl

end Cert.KernelIdeal.Val

end
-- ==== Proof.SpecMath.lean ====
/-
  The mathematics of one graph-convolution layer followed by batch normalisation, at the
  extended-real reading of floats (every float is an element of [-∞, +∞]; no rounding).

  Contents.
  § 1  IsReal: an extended real that is a real number. Closure under +, −, ·, division by a
       nonzero real constant, max, finite sums, and the reciprocal square root at a positive real,
       each with the real value it yields.
  § 2  The variance identity over ℝ: the mean of the squared deviations from the mean equals the
       mean of the squares minus the square of the mean; it is nonnegative.
  § 3  The same identity on extended reals that are real, in the operation shapes of a two-pass
       (centred) and a one-pass (sum and sum of squares) batch normalisation.
  § 4  A sum over T·B rows as T block sums of B rows, and an accumulator that adds one block sum
       per step.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Pow.Real
import Mathlib.Algebra.BigOperators.Group.Finset.Basic
import Mathlib.Algebra.BigOperators.Fin
import Mathlib.Algebra.Order.BigOperators.Ring.Finset
import Mathlib.Tactic.Ring
import Mathlib.Tactic.FieldSimp
import Mathlib.Tactic.Positivity

namespace Cert.Spec

open Idealize.ShloMosaic
open scoped BigOperators

/-! ## § 1  Real-valued extended reals -/

/-- An extended real that is a real number: neither +∞ nor -∞. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

/-- A real-valued extended real is the embedding of its real part. -/
theorem IsReal.coe_toReal {x : EReal} (h : IsReal x) : ((x.toReal : ℝ) : EReal) = x := by
  obtain ⟨r, rfl⟩ := h; rfl

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- Division of a real by a nonzero real constant: the real quotient. -/
theorem div_coe_coe (a : ℝ) {c : ℝ} (hc : c ≠ 0) :
    Ideal.div (a : EReal) (c : EReal) = ((a / c : ℝ) : EReal) := by
  rw [Ideal.div_coe hc, ← EReal.coe_mul, mul_one_div]

theorem IsReal.div_coe {x : EReal} (hx : IsReal x) {c : ℝ} (hc : c ≠ 0) :
    IsReal (Ideal.div x (c : EReal)) := by
  obtain ⟨a, rfl⟩ := hx; exact ⟨a / c, div_coe_coe a hc⟩

/-- The embedding of the reals commutes with max. -/
theorem coe_max (a b : ℝ) : ((max a b : ℝ) : EReal) = max (a : EReal) (b : EReal) :=
  EReal.coe_strictMono.monotone.map_max

theorem isReal_max {x y : EReal} (hx : IsReal x) (hy : IsReal y) : IsReal (max x y) := by
  obtain ⟨a, rfl⟩ := hx; obtain ⟨b, rfl⟩ := hy; exact ⟨max a b, (coe_max a b).symm⟩

theorem isReal_max_zero {x : EReal} (hx : IsReal x) : IsReal (max x 0) := isReal_max hx isReal_zero

/-- The embedding of the reals commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem IsReal.sum_univ {ι : Type*} [Fintype ι] (f : ι → EReal) (h : ∀ i, IsReal (f i)) :
    IsReal (∑ i, f i) := IsReal.sum _ f fun i _ => h i

/-- A family of real-valued extended reals is the embedding of a family of reals. -/
theorem exists_real_family {ι : Type*} (y : ι → EReal) (h : ∀ i, IsReal (y i)) :
    ∃ r : ι → ℝ, y = fun i => ((r i : ℝ) : EReal) := by
  choose r hr using h
  exact ⟨r, funext hr⟩

/-- The reciprocal square root at a positive real: the real number (√x)⁻¹. -/
theorem rsqrt_real {x : ℝ} (hx : 0 < x) :
    Ideal.rsqrt (x : EReal) = (((Real.sqrt x)⁻¹ : ℝ) : EReal) := by
  rw [Ideal.rsqrt_coe, if_neg (not_lt.mpr hx.le), if_neg hx.ne']

theorem isReal_rsqrt {x : ℝ} (hx : 0 < x) : IsReal (Ideal.rsqrt (x : EReal)) :=
  ⟨(Real.sqrt x)⁻¹, rsqrt_real hx⟩

/-- … and that real number is positive. -/
theorem rsqrt_real_pos {x : ℝ} (hx : 0 < x) : 0 < (Real.sqrt x)⁻¹ :=
  inv_pos.mpr (Real.sqrt_pos.mpr hx)

/-! ## § 2  The variance identity over the reals -/

section Variance

variable {n : ℕ}

/-- Expanding the squared deviations about ANY centre μ. -/
theorem sum_dev_mul_self (y : Fin n → ℝ) (μ : ℝ) :
    ∑ i, (y i - μ) * (y i - μ) = (∑ i, y i * y i) - 2 * μ * (∑ i, y i) + n * (μ * μ) := by
  have h : ∀ i, (y i - μ) * (y i - μ) = y i * y i - 2 * μ * y i + μ * μ := fun i => by ring
  simp only [h, Finset.sum_add_distrib, Finset.sum_sub_distrib, ← Finset.mul_sum, Finset.sum_const,
    Finset.card_univ, Fintype.card_fin, nsmul_eq_mul]
  ring

/-- The mean of the squared deviations from the mean is the mean of the squares minus the square
    of the mean. -/
theorem variance_identity (hn : 0 < n) (y : Fin n → ℝ) :
    (∑ i, (y i - (∑ i, y i) / n) * (y i - (∑ i, y i) / n)) / n
      = (∑ i, y i * y i) / n - (∑ i, y i) / n * ((∑ i, y i) / n) := by
  have hn' : (n : ℝ) ≠ 0 := Nat.cast_ne_zero.mpr hn.ne'
  rw [sum_dev_mul_self]
  field_simp
  ring

/-- The mean of the squared deviations is nonnegative. -/
theorem variance_nonneg (y : Fin n → ℝ) (μ : ℝ) :
    0 ≤ (∑ i, (y i - μ) * (y i - μ)) / n :=
  div_nonneg (Finset.sum_nonneg fun i _ => mul_self_nonneg _) (Nat.cast_nonneg n)

/-- Hence so is the mean of the squares minus the square of the mean. -/
theorem variance_one_pass_nonneg (hn : 0 < n) (y : Fin n → ℝ) :
    0 ≤ (∑ i, y i * y i) / n - (∑ i, y i) / n * ((∑ i, y i) / n) := by
  rw [← variance_identity hn]; exact variance_nonneg y _

/-- With a positive ε added, the argument of the reciprocal square root is positive. -/
theorem variance_add_eps_pos (hn : 0 < n) (y : Fin n → ℝ) {ε : ℝ} (hε : 0 < ε) :
    0 < (∑ i, y i * y i) / n - (∑ i, y i) / n * ((∑ i, y i) / n) + ε :=
  add_pos_of_nonneg_of_pos (variance_one_pass_nonneg hn y) hε

theorem variance_centred_add_eps_pos (y : Fin n → ℝ) (μ : ℝ) {ε : ℝ} (hε : 0 < ε) :
    0 < (∑ i, (y i - μ) * (y i - μ)) / n + ε :=
  add_pos_of_nonneg_of_pos (variance_nonneg y μ) hε

end Variance

/-! ## § 3  The variance identity on real-valued extended reals

  The family y is over the rows; c is the row count as the programs write it (a real constant equal
  to n). The one-pass form divides the sum and the sum of squares by c and subtracts the square of
  the mean; the two-pass form divides the sum of the squared deviations from the mean by c. -/

section Lifted

variable {n : ℕ}

/-- The real mean of a family of extended reals (of its real parts). -/
noncomputable def meanR (y : Fin n → EReal) : ℝ := (∑ i, (y i).toReal) / n

/-- The real (biased) variance of a family of extended reals (of its real parts). -/
noncomputable def varR (y : Fin n → EReal) : ℝ :=
  (∑ i, ((y i).toReal - meanR y) * ((y i).toReal - meanR y)) / n

theorem varR_nonneg (y : Fin n → EReal) : 0 ≤ varR y := variance_nonneg _ _

theorem varR_add_pos (y : Fin n → EReal) {ε : ℝ} (hε : 0 < ε) : 0 < varR y + ε :=
  add_pos_of_nonneg_of_pos (varR_nonneg y) hε

/-- The one-pass expression of the variance in real numbers. -/
theorem varR_eq_one_pass (hn : 0 < n) (y : Fin n → EReal) :
    varR y = (∑ i, (y i).toReal * (y i).toReal) / n - meanR y * meanR y :=
  variance_identity hn _

/-- The mean of a real-valued family, as the programs compute it: the sum divided by the count. -/
theorem mean_eq (hn : 0 < n) {c : ℝ} (hc : c = (n : ℝ)) (y : Fin n → EReal) (hy : ∀ i, IsReal (y i)) :
    Ideal.div (∑ i, y i) (c : EReal) = ((meanR y : ℝ) : EReal) := by
  obtain ⟨r, rfl⟩ := exists_real_family y hy
  have hc' : c ≠ 0 := by rw [hc]; exact Nat.cast_ne_zero.mpr hn.ne'
  rw [coe_sum, div_coe_coe _ hc', hc]
  rfl

/-- The two-pass (centred) variance of a real-valued family. -/
theorem var_centred_eq (hn : 0 < n) {c : ℝ} (hc : c = (n : ℝ)) (y : Fin n → EReal) (hy : ∀ i, IsReal (y i)) :
    Ideal.div (∑ i, (y i - Ideal.div (∑ i, y i) (c : EReal)) * (y i - Ideal.div (∑ i, y i) (c : EReal))) (c : EReal)
      = ((varR y : ℝ) : EReal) := by
  rw [mean_eq hn hc y hy]
  obtain ⟨r, rfl⟩ := exists_real_family y hy
  have hc' : c ≠ 0 := by rw [hc]; exact Nat.cast_ne_zero.mpr hn.ne'
  simp only [← EReal.coe_sub, ← EReal.coe_mul, coe_sum]
  rw [div_coe_coe _ hc', hc]
  rfl

/-- The one-pass variance of a real-valued family: the mean of the squares minus the square of the
    mean is the same real number. -/
theorem var_one_pass_eq (hn : 0 < n) {c : ℝ} (hc : c = (n : ℝ)) (y : Fin n → EReal) (hy : ∀ i, IsReal (y i)) :
    Ideal.div (∑ i, y i * y i) (c : EReal)
        - Ideal.div (∑ i, y i) (c : EReal) * Ideal.div (∑ i, y i) (c : EReal)
      = ((varR y : ℝ) : EReal) := by
  rw [mean_eq hn hc y hy, varR_eq_one_pass hn]
  obtain ⟨r, rfl⟩ := exists_real_family y hy
  have hc' : c ≠ 0 := by rw [hc]; exact Nat.cast_ne_zero.mpr hn.ne'
  simp only [← EReal.coe_mul, coe_sum]
  rw [div_coe_coe _ hc', hc, ← EReal.coe_sub]
  rfl

/-- The two variances agree on a real-valued family. -/
theorem var_one_pass_eq_centred (hn : 0 < n) {c : ℝ} (hc : c = (n : ℝ)) (y : Fin n → EReal)
    (hy : ∀ i, IsReal (y i)) :
    Ideal.div (∑ i, y i * y i) (c : EReal)
        - Ideal.div (∑ i, y i) (c : EReal) * Ideal.div (∑ i, y i) (c : EReal)
      = Ideal.div (∑ i, (y i - Ideal.div (∑ i, y i) (c : EReal)) * (y i - Ideal.div (∑ i, y i) (c : EReal)))
          (c : EReal) := by
  rw [var_one_pass_eq hn hc y hy, var_centred_eq hn hc y hy]

theorem isReal_mean (hn : 0 < n) {c : ℝ} (hc : c = (n : ℝ)) (y : Fin n → EReal) (hy : ∀ i, IsReal (y i)) :
    IsReal (Ideal.div (∑ i, y i) (c : EReal)) := ⟨_, mean_eq hn hc y hy⟩

theorem isReal_var_one_pass (hn : 0 < n) {c : ℝ} (hc : c = (n : ℝ)) (y : Fin n → EReal)
    (hy : ∀ i, IsReal (y i)) :
    IsReal (Ideal.div (∑ i, y i * y i) (c : EReal)
        - Ideal.div (∑ i, y i) (c : EReal) * Ideal.div (∑ i, y i) (c : EReal)) :=
  ⟨_, var_one_pass_eq hn hc y hy⟩

theorem isReal_var_centred (hn : 0 < n) {c : ℝ} (hc : c = (n : ℝ)) (y : Fin n → EReal)
    (hy : ∀ i, IsReal (y i)) :
    IsReal (Ideal.div (∑ i, (y i - Ideal.div (∑ i, y i) (c : EReal)) * (y i - Ideal.div (∑ i, y i) (c : EReal)))
      (c : EReal)) :=
  ⟨_, var_centred_eq hn hc y hy⟩

end Lifted

/-! ### The normalised, scaled, shifted and rectified output -/

/-- The reciprocal square root of a nonnegative real variance plus a positive real ε: a positive
    real number. -/
theorem rsqrt_var_add_eps {v ε : ℝ} (hv : 0 ≤ v) (hε : 0 < ε) :
    Ideal.rsqrt ((v : EReal) + (ε : EReal)) = (((Real.sqrt (v + ε))⁻¹ : ℝ) : EReal) := by
  rw [← EReal.coe_add]; exact rsqrt_real (add_pos_of_nonneg_of_pos hv hε)

/-- One output element of the batch normalisation followed by the rectifier is a real number when
    the element, the mean, the scale and the shift are, the variance is a nonnegative real and ε a
    positive real. -/
theorem isReal_bn_relu {x m γ β : EReal} {v ε : ℝ} (hx : IsReal x) (hm : IsReal m) (hγ : IsReal γ)
    (hβ : IsReal β) (hv : 0 ≤ v) (hε : 0 < ε) :
    IsReal (max ((x - m) * Ideal.rsqrt ((v : EReal) + (ε : EReal)) * γ + β) 0) := by
  rw [rsqrt_var_add_eps hv hε]
  exact isReal_max_zero ((((hx.sub hm).mul (isReal_coe _)).mul hγ).add hβ)

/-- … and it is nonnegative. -/
theorem bn_relu_nonneg (z : EReal) : 0 ≤ max z 0 := le_max_right _ _

/-! ## § 4  Block sums and an accumulator

  Over any commutative additive monoid (the extended reals among them: their addition is commutative
  and associative at the infinities too), so nothing here asks for finiteness. -/

section Blocks

variable {M : Type*} [AddCommMonoid M]

/-- A sum over T·B rows is the sum over the T blocks of the sum over each block's B rows; row r of
    block t is row r + B·t. -/
theorem sum_blocks (T B : ℕ) (f : Fin (T * B) → M) :
    ∑ i, f i = ∑ t : Fin T, ∑ r : Fin B, f (finProdFinEquiv (t, r)) := by
  rw [← finProdFinEquiv.sum_comp, Fintype.sum_prod_type]

theorem sum_blocks_val (T B : ℕ) (t : Fin T) (r : Fin B) :
    (finProdFinEquiv (t, r) : Fin (T * B)).val = r.val + B * t.val := rfl

/-- An accumulator that starts from zero plus the first block sum and adds one block sum per step
    holds, after step t, the sum of the block sums up to t. -/
theorem acc_eq_sum_range (acc bs : ℕ → M) (h0 : acc 0 = 0 + bs 0)
    (hs : ∀ t, acc (t + 1) = acc t + bs (t + 1)) (t : ℕ) :
    acc t = ∑ k ∈ Finset.range (t + 1), bs k := by
  induction t with
  | zero => rw [h0, zero_add, Finset.sum_range_one]
  | succ t ih => rw [hs, ih, Finset.sum_range_succ _ (t + 1)]

/-- The same with the steps bounded by the number of blocks: after the last step the accumulator
    holds the sum of all T block sums. -/
theorem acc_last_eq_sum {T : ℕ} (hT : 0 < T) (acc bs : ℕ → M) (h0 : acc 0 = 0 + bs 0)
    (hs : ∀ t, t + 1 < T → acc (t + 1) = acc t + bs (t + 1)) :
    acc (T - 1) = ∑ t : Fin T, bs t.val := by
  have key : ∀ t, t < T → acc t = ∑ k ∈ Finset.range (t + 1), bs k := by
    intro t
    induction t with
    | zero => intro _; rw [h0, zero_add, Finset.sum_range_one]
    | succ t ih =>
      intro ht
      rw [hs t ht, ih (Nat.lt_of_succ_lt ht), Finset.sum_range_succ _ (t + 1)]
  rw [key (T - 1) (Nat.sub_lt hT Nat.one_pos), Nat.sub_add_cancel hT, Finset.sum_range]

end Blocks

end Cert.Spec
-- ==== Proof.SpecHost.lean ====
/-
  Finiteness through the host's gather and accumulating scatter, at the extended-real reading of
  floats.

  A gather copies: every element of its result is an element of its operand, whatever the
  dimension numbers and the start indices. An accumulating scatter adds: every element of its
  result is the operand's element plus a finite sum of update elements, whatever the dimension
  numbers and the scatter indices. So both keep real numbers real and nonnegative numbers
  nonnegative; and a count (ones scattered onto zeros) plus one is a real number at least one,
  whose reciprocal square root is a positive real. Last, an input whose absolute value is below +∞
  is a real number.
-/
import proofs.«422700_j84035330113950_1_alg».proof.Proof.SpecMath
import Idealize.ShloMosaic.PureOps.Ideal
import Idealize.ShloMosaic.PureOps.Contract
import Idealize.ShloMosaic.PureOps.ShapeOps

namespace Cert.Spec

open Idealize.ShloMosaic
open scoped BigOperators

/-! ## Gather -/

section Gather

variable {α : Type} {s si t : Shape} {w : Nat}

/-- A gather read at an index: the operand at the operand index the dimension numbers and the
    start indices give. -/
theorem gather_apply (d : GatherDims s si t) (x : s.Idx → α) (idx : IVec si w) (j : t.Idx) :
    Host.gather d x idx j = x (d.operandIdx j idx) := rfl

/-- Whatever holds of every element of the operand holds of every element of the gather. -/
theorem gather_forall {p : α → Prop} (d : GatherDims s si t) (x : s.Idx → α) (idx : IVec si w)
    (hx : ∀ i, p (x i)) (j : t.Idx) : p (Host.gather d x idx j) := hx _

theorem isReal_gather (d : GatherDims s si t) (x : s.Idx → EReal) (idx : IVec si w)
    (hx : ∀ i, IsReal (x i)) (j : t.Idx) : IsReal (Host.gather d x idx j) := hx _

theorem gather_nonneg (d : GatherDims s si t) (x : s.Idx → EReal) (idx : IVec si w)
    (hx : ∀ i, 0 ≤ x i) (j : t.Idx) : 0 ≤ Host.gather d x idx j := hx _

end Gather

/-! ## Accumulating scatter -/

section Scatter

variable {φ : FTy} {s si u : Shape} {w : Nat}

/-- The accumulating scatter read at an index: the operand's element plus the sum of the update
    elements that land on it. -/
theorem scatterAdd_apply (d : ScatterDims s si u) (x : FVec Ideal s φ) (idx : IVec si w)
    (upd : FVec Ideal u φ) (i : s.Idx) :
    Host.scatterAdd d x idx upd i
      = x i + ∑ j ∈ Finset.univ.filter (fun j => d.resultIdx? j idx = some i), upd j := rfl

/-- The same at any schedule key. -/
theorem scatterAddAt_apply (sched : HostSchedule) (d : ScatterDims s si u) (x : FVec Ideal s φ)
    (idx : IVec si w) (upd : FVec Ideal u φ) (i : s.Idx) :
    Host.scatterAddAt sched d x idx upd i
      = x i + ∑ j ∈ Finset.univ.filter (fun j => d.resultIdx? j idx = some i), upd j := rfl

theorem isReal_scatterAdd (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

theorem scatterAdd_nonneg (d : ScatterDims s si u) (x : FVec Ideal s φ) (idx : IVec si w)
    (upd : FVec Ideal u φ) (hx : ∀ i, (0 : EReal) ≤ x i) (hu : ∀ j, (0 : EReal) ≤ upd j) (i : s.Idx) :
    (0 : EReal) ≤ Host.scatterAdd d x idx upd i := by
  rw [scatterAdd_apply]
  exact add_nonneg (hx i) (Finset.sum_nonneg fun j _ => hu j)

/-- Ones scattered onto zeros: the number of updates that land on the element. -/
theorem scatterAdd_ones (d : ScatterDims s si u) (x : FVec Ideal s φ) (idx : IVec si w)
    (upd : FVec Ideal u φ) (hx : ∀ i, x i = (0 : EReal)) (hu : ∀ j, upd j = (1 : EReal)) (i : s.Idx) :
    Host.scatterAdd d x idx upd i
      = (((Finset.univ.filter (fun j => d.resultIdx? j idx = some i)).card : ℝ) : EReal) := by
  rw [scatterAdd_apply, hx i, zero_add, Finset.sum_congr rfl fun j _ => hu j]
  have h1 : (1 : EReal) = ((1 : ℝ) : EReal) := rfl
  rw [h1, coe_sum, Finset.sum_const, nsmul_eq_mul, mul_one]

end Scatter

/-! ## A count plus one, and its reciprocal square root -/

/-- A nonnegative real-valued extended real plus one is a real number at least one. -/
theorem exists_real_one_le_add_one {z : EReal} (hz : IsReal z) (h0 : 0 ≤ z) :
    ∃ r : ℝ, 1 ≤ r ∧ z + 1 = (r : EReal) := by
  obtain ⟨a, rfl⟩ := hz
  refine ⟨a + 1, ?_, ?_⟩
  · have : (0 : ℝ) ≤ a := EReal.coe_nonneg.mp h0
    linarith
  · rw [EReal.coe_add]; rfl

/-- The reciprocal square root of a positive real-valued extended real is a positive real. -/
theorem exists_pos_real_rsqrt {z : EReal} (hz : IsReal z) (h0 : 0 < z) :
    ∃ q : ℝ, 0 < q ∧ Ideal.rsqrt z = (q : EReal) := by
  obtain ⟨a, rfl⟩ := hz
  have ha : 0 < a := EReal.coe_pos.mp h0
  exact ⟨(Real.sqrt a)⁻¹, rsqrt_real_pos ha, rsqrt_real ha⟩

/-- So the reciprocal square root of a count plus one is a positive real. -/
theorem exists_pos_real_rsqrt_add_one {z : EReal} (hz : IsReal z) (h0 : 0 ≤ z) :
    ∃ q : ℝ, 0 < q ∧ Ideal.rsqrt (z + 1) = (q : EReal) := by
  obtain ⟨r, hr, hzr⟩ := exists_real_one_le_add_one hz h0
  rw [hzr]
  exact exists_pos_real_rsqrt (isReal_coe r) (EReal.coe_pos.mpr (by linarith))

/-! ## Finite inputs

  A precondition that says of an input |x| < +∞ says that it is a real number. -/

/-- An extended real is a real number exactly when its absolute value is below +∞. -/
theorem isReal_iff_abs_lt_top {x : EReal} : IsReal x ↔ max x (-x) < ⊤ := by
  constructor
  · rintro ⟨r, rfl⟩
    rw [← EReal.coe_neg, ← coe_max]
    exact EReal.coe_lt_top _
  · intro h
    rw [isReal_iff]
    constructor
    · rintro rfl
      exact absurd h (by simp)
    · rintro rfl
      exact absurd h (by simp)

/-- The strict comparison of extended reals answering true is the strict order. -/
theorem lt_of_cmp_olt {a b : EReal} (h : Ideal.cmp .olt a b = 1#1) : a < b := by
  unfold Ideal.cmp at h
  by_contra hn
  simp [hn] at h

theorem cmp_olt_of_lt {a b : EReal} (h : a < b) : Ideal.cmp .olt a b = 1#1 := by
  unfold Ideal.cmp
  simp [h]

/-- So an element whose absolute value compares below +∞ is a real number. -/
theorem isReal_of_cmp_abs {x : EReal} (h : Ideal.cmp .olt (max x (-x)) ⊤ = 1#1) : IsReal x :=
  isReal_iff_abs_lt_top.mpr (lt_of_cmp_olt h)

end Cert.Spec
-- ==== Proof.Val.BNBridge.lean ====
/-
  The batch normalisation's statistics read at an index, at the extended-real reading of floats.

  § 1  The literals 50000, 32 and ε as real numbers (the one place where their bit patterns are read).
  § 2  A vector of 128 features repeated over the rows, read at (r, j); scalars broadcast.
  § 3  The specification's column sum, mean, centred rows and variance read at a column j: the sum
       over the 50000 rows, that sum divided by 50000, the element minus the mean, and the sum of
       the squared deviations divided by 50000 (the guard on the divisor is true).
  § 4  The one-pass forms: from the column sums of the elements and of their squares, the sum
       divided by 50000 is the specification's mean, and the mean of the squares minus the square of
       the mean is the specification's variance when every element is a real number.
  § 5  The normalised, scaled, shifted and rectified output read at (r, j).
-/
import proofs.«422700_j84035330113950_1_alg».proof.Proof.Val.Spec
import proofs.«422700_j84035330113950_1_alg».proof.Proof.SpecMath
import proofs.«422700_j84035330113950_1_alg».proof.Proof.SpecHost
import Idealize.ShloMosaic.Lib.ValueIdx
import Idealize.ShloMosaic.Lib.ValueLayout
import Idealize.ShloMosaic.Lib.IdealHost
import Idealize.ShloMosaic.Lib.KernelVsHost
import Idealize.ShloMosaic.PureOps.Ideal.Laws
import Mathlib.Tactic.NormNum

noncomputable section

namespace Cert.Val

open Idealize.ShloMosaic Idealize.ShloMosaic.ValueIdx
open Cert.ReferenceIdeal Cert.ReferenceIdeal.Facts₀
open Cert.Spec
open scoped BigOperators

/-! ## § 1  Literals -/

/-- The single-precision pattern of 50000 is the real number 50000. -/
theorem ofBits_nRows : Ideal.ofBits .f32 0x47435000#32 = ((50000 : ℝ) : EReal) := by
  simp [Ideal.ofBits, Ideal.ieee, -EReal.coe_mul]; norm_num

/-- The single-precision pattern of 32 is the real number 32. -/
theorem ofBits_nGraphs : Ideal.ofBits .f32 0x42000000#32 = ((32 : ℝ) : EReal) := by
  simp [Ideal.ofBits, Ideal.ieee, -EReal.coe_mul]; norm_num

/-- The normalisation's ε as a real number: 10995116 · 2⁻⁴⁰, the single-precision number nearest
    10⁻⁵. -/
def epsR : ℝ := 10995116 / 2 ^ 40

theorem epsR_pos : 0 < epsR := by unfold epsR; positivity

theorem ofBits_eps : Ideal.ofBits .f32 0x3727C5AC#32 = ((epsR : ℝ) : EReal) := by
  unfold epsR
  simp [Ideal.ofBits, Ideal.ieee, -EReal.coe_mul]; norm_num

variable [Cert.ReferenceIdeal.Facts₀]

theorem zeroS_apply (i : S_.Idx) : zeroS (F := Ideal) i = (0 : EReal) := Ideal.ofBits_zero_f32

theorem oneS_apply (i : S_.Idx) : oneS (F := Ideal) i = (1 : EReal) := Ideal.ofBits_one_f32

theorem nRowsS_apply (i : S_.Idx) : nRowsS (F := Ideal) i = ((50000 : ℝ) : EReal) := ofBits_nRows

theorem epsS_apply (i : S_.Idx) : epsS (F := Ideal) i = ((epsR : ℝ) : EReal) := ofBits_eps

/-! ## § 2  Broadcasts read at an index -/

/-- A vector of 128 features repeated over the rows reads, at (r, j), the vector at j. -/
theorem rows_apply (v : Vec Ideal S128 .f32) (r : Fin 50000) (j : Fin 128) :
    rows v (ix2 r j) = v (ix1 j) := by
  unfold rows
  rw [broadcastInDim_oneRow_apply]
  refine broadcastInDim_apply _ _ _ _ (ix1 j) ?_
  intro a
  match a with
  | ⟨0, _⟩ => rfl

/-! ## § 3  The specification's statistics at a column -/

/-- The column sum at j: the sum over the 50000 rows. -/
theorem sumOf_apply (p : Vec Ideal S50000x128 .f32) (j : Fin 128) :
    sumOf p (ix1 j) = ∑ r : Fin 50000, p (ix2 r j) := by
  have h : S50000x128.Reduces [0] S128 := by decide
  unfold sumOf
  rw [hostReduceAdd_apply, Ideal.hostReduceAdd_single _ h, zeroS_apply, zero_add]
  refine Finset.sum_congr rfl fun r _ => congrArg p ?_
  funext a
  match a with
  | ⟨0, _⟩ => rfl
  | ⟨1, _⟩ => rfl

/-- The reduction's inserted index at literal shapes: row r of column j. -/
theorem lift_ix1 (h : S50000x128.Reduces [0] S128) (j : Fin 128) (r : Fin 50000) :
    h.lift (ix1 j) r = ix2 r j := by
  funext a
  match a with
  | ⟨0, _⟩ => rfl
  | ⟨1, _⟩ => rfl

/-- A vector of 128 features as one row reads, at (0, j), the vector at j. -/
theorem oneRow_apply (v : Vec Ideal S128 .f32) (j : Fin 128) :
    broadcastInDim S1x128 ![1] bcast_S128_S1x128_1 v (ix2 (0 : Fin 1) j) = v (ix1 j) := by
  refine broadcastInDim_apply _ _ _ _ (ix1 j) ?_
  intro a
  match a with
  | ⟨0, _⟩ => rfl

/-- The column mean at j, over the specification's own divisor. -/
theorem meanOf_apply_den (p : Vec Ideal S50000x128 .f32) (j : Fin 128) :
    meanOf p (ix1 j) = Ideal.div (sumOf p (ix1 j)) (nRowsS (F := Ideal) ix0) := by
  unfold meanOf
  rw [hostDivf_apply, broadcastInDim_scalar_apply]

/-- The column mean at j: the sum over the 50000 rows divided by 50000. -/
theorem meanOf_apply (p : Vec Ideal S50000x128 .f32) (j : Fin 128) :
    meanOf p (ix1 j) = Ideal.div (∑ r : Fin 50000, p (ix2 r j)) ((50000 : ℝ) : EReal) := by
  rw [meanOf_apply_den, sumOf_apply, nRowsS_apply]

/-- The centred rows at (r, j): the element minus the column mean. -/
theorem centredOf_apply (p : Vec Ideal S50000x128 .f32) (r : Fin 50000) (j : Fin 128) :
    centredOf p (ix2 r j) = p (ix2 r j) - meanOf p (ix1 j) := by
  rw [meanOf_apply_den]
  unfold centredOf
  rw [subf_apply, broadcastInDim_oneRow_apply, hostDivf_apply, broadcastInDim_scalar_apply, oneRow_apply]

/-- The variance's divisor 50000 − 0 is the real number 50000. -/
theorem varDen_apply (i : S_.Idx) : varDen (F := Ideal) i = ((50000 : ℝ) : EReal) := by
  unfold varDen
  rw [subf_apply, nRowsS_apply, sitofp_apply, constantI_apply]
  show ((50000 : ℝ) : EReal) - ((((0#32 : BitVec 32).toInt : ℤ) : ℝ) : EReal) = _
  simp

/-- The guard on the variance's divisor is true. -/
theorem varGuard_apply (j : Fin 128) :
    broadcastInDim S128 ![] bcast_S_S128 (cmpf (F := Ideal) (φ := .f32) .ogt (varDen (F := Ideal)) (zeroS (F := Ideal))) (ix1 j)
      = 1#1 := by
  have h0 : (0 : EReal) < ((50000 : ℝ) : EReal) := EReal.coe_pos.mpr (by norm_num)
  rw [broadcastInDim_scalar_apply, cmpf_apply, varDen_apply, zeroS_apply]
  show Ideal.cmp .ogt _ _ = _
  simp [Ideal.cmp, h0]

/-- The column variance at j: the sum over the 50000 rows of the squared deviations from the column
    mean, divided by 50000. -/
theorem varOf_apply (p : Vec Ideal S50000x128 .f32) (j : Fin 128) :
    varOf p (ix1 j)
      = Ideal.div (∑ r : Fin 50000, (p (ix2 r j) - meanOf p (ix1 j)) * (p (ix2 r j) - meanOf p (ix1 j)))
          ((50000 : ℝ) : EReal) := by
  have h : S50000x128.Reduces [0] S128 := by decide
  unfold varOf
  rw [select_apply, varGuard_apply, select_one, hostDivf_apply, broadcastInDim_scalar_apply, varDen_apply,
    hostReduceAdd_apply, Ideal.hostReduceAdd_single _ h, zeroS_apply, zero_add]
  refine congrArg (fun z => Ideal.div z ((50000 : ℝ) : EReal)) ?_
  refine Finset.sum_congr rfl fun (r : Fin 50000) _ => ?_
  rw [lift_ix1, mulf_apply, centredOf_apply]

/-! ## § 4  The one-pass forms -/

/-- From the column sums: the sum divided by 50000 is the specification's mean. -/
theorem mean_of_sums (p : Vec Ideal S50000x128 .f32) (s : Vec Ideal S128 .f32)
    (hs : ∀ j : Fin 128, s (ix1 j) = ∑ r : Fin 50000, p (ix2 r j))
    (h₁ : S_.BroadcastsInDim S128 (![] : Fin 0 → Fin S128.rank)) :
    Host.divf s (broadcastInDim S128 ![] h₁ (constant (F := Ideal) S_ .f32 0x47435000#32)) = meanOf p := by
  funext i
  obtain ⟨j, rfl⟩ : ∃ j : Fin 128, i = ix1 j := ⟨i 0, eq_ix1 i⟩
  rw [hostDivf_apply, broadcastInDim_scalar_apply, hs, meanOf_apply, constant_apply, ofBits_nRows]

/-- From the column sums of the elements and of their squares: the mean of the squares minus the
    square of the mean is the specification's variance, when every element is a real number. -/
theorem var_of_sums (p : Vec Ideal S50000x128 .f32) (s q : Vec Ideal S128 .f32)
    (hs : ∀ j : Fin 128, s (ix1 j) = ∑ r : Fin 50000, p (ix2 r j))
    (hq : ∀ j : Fin 128, q (ix1 j) = ∑ r : Fin 50000, p (ix2 r j) * p (ix2 r j))
    (hp : ∀ i, IsReal (p i))
    (h₁ : S_.BroadcastsInDim S128 (![] : Fin 0 → Fin S128.rank)) :
    subf (Host.divf q (broadcastInDim S128 ![] h₁ (constant (F := Ideal) S_ .f32 0x47435000#32)))
        (mulf (Host.divf s (broadcastInDim S128 ![] h₁ (constant (F := Ideal) S_ .f32 0x47435000#32)))
          (Host.divf s (broadcastInDim S128 ![] h₁ (constant (F := Ideal) S_ .f32 0x47435000#32))))
      = varOf p := by
  funext i
  obtain ⟨j, rfl⟩ : ∃ j : Fin 128, i = ix1 j := ⟨i 0, eq_ix1 i⟩
  rw [subf_apply, mulf_apply, hostDivf_apply, hostDivf_apply, broadcastInDim_scalar_apply, constant_apply,
    ofBits_nRows, hs, hq, varOf_apply, meanOf_apply]
  exact var_one_pass_eq_centred (n := 50000) (by norm_num) (c := 50000) (by norm_num)
    (fun r => p (ix2 r j)) (fun r => hp _)

/-- The same with the mean given as a vector equal to the specification's. -/
theorem var_of_sums_mean (p : Vec Ideal S50000x128 .f32) (s q m : Vec Ideal S128 .f32)
    (hs : ∀ j : Fin 128, s (ix1 j) = ∑ r : Fin 50000, p (ix2 r j))
    (hq : ∀ j : Fin 128, q (ix1 j) = ∑ r : Fin 50000, p (ix2 r j) * p (ix2 r j))
    (hp : ∀ i, IsReal (p i))
    (h₁ : S_.BroadcastsInDim S128 (![] : Fin 0 → Fin S128.rank))
    (hm : m = Host.divf s (broadcastInDim S128 ![] h₁ (constant (F := Ideal) S_ .f32 0x47435000#32))) :
    subf (Host.divf q (broadcastInDim S128 ![] h₁ (constant (F := Ideal) S_ .f32 0x47435000#32))) (mulf m m)
      = varOf p := by
  rw [hm]; exact var_of_sums p s q hs hq hp h₁

/-! ## § 5  The normalised, rectified output read at an index -/

/-- The host's reciprocal square root at an index. -/
theorem hostRsqrt_apply {s : Shape} {φ : FTy} (x : FVec Ideal s φ) (i : s.Idx) :
    Host.rsqrt x i = Ideal.rsqrt (x i) := rfl

/-- Normalisation by given column means and variances, scale, shift and rectifier, at (r, j). -/
theorem normRelu_apply (p : Vec Ideal S50000x128 .f32) (mean var g beta : Vec Ideal S128 .f32)
    (r : Fin 50000) (j : Fin 128) :
    normRelu p mean var g beta (ix2 r j)
      = max ((p (ix2 r j) - mean (ix1 j)) * Ideal.rsqrt (var (ix1 j) + ((epsR : ℝ) : EReal)) * g (ix1 j)
          + beta (ix1 j)) 0 := by
  unfold normRelu
  rw [maximumf_apply, addf_apply, mulf_apply, mulf_apply, subf_apply, rows_apply, rows_apply, rows_apply,
    rows_apply, hostRsqrt_apply, addf_apply, broadcastInDim_scalar_apply, broadcastInDim_scalar_apply,
    epsS_apply, zeroS_apply]

end Cert.Val

end
-- ==== Proof.KI.ValSmall.lean ====
/-
  The kernel side's small stages read at an entry, over the extended reals.

  A vector as one row reads, at column q, the vector's entry q; the column means s / n and the variances
  q / n − (s / n)² read, at column q, the quotients of the totals' entries by 50000; the self-loop weight as a column
  reads, at row i, dis i · dis i.
-/
import proofs.«422700_j84035330113950_1_alg».proof.Proof.KI.Val1
import proofs.«422700_j84035330113950_1_alg».proof.Proof.Val.BNBridge
import Idealize.ShloMosaic.Lib.IdealHost
import Idealize.ShloMosaic.Lib.ValueIdx
import Idealize.ShloMosaic.Lib.ValueLayout
import Idealize.ShloMosaic.Lib.Pipeline.Value

noncomputable section

namespace Cert.KernelIdeal.Val

open Idealize.ShloMosaic Idealize.ShloMosaic.ValueIdx

/-- An [a] array cast to [a, 1] reads, at (i, u), the operand at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

section AnyF

variable {F : FTy → Type} [FloatOps F]

theorem row1_apply (v : Vec F S128 .f32) (q : Fin 128) : row1 v (ix2 (0 : Fin 1) q) = v (ix1 q) :=
  shapeCast_a_1a_apply v _ 0 q

theorem unrow_apply (s : Vec F S1x128 .f32) (q : Fin 128) : unrow s (ix1 q) = s (ix2 (0 : Fin 1) q) :=
  shapeCast_1a_a_apply s _ q

end AnyF

theorem nRowsV_apply (j : S128.Idx) : nRowsV (F := Ideal) j = ((50000 : ℝ) : EReal) := by
  unfold nRowsV
  rw [broadcastInDim_scalar_apply, constant_apply]
  exact Cert.Val.ofBits_nRows

theorem meanK_apply (s : Vec Ideal S1x128 .f32) (q : Fin 128) :
    meanK s (ix1 q) = Ideal.div (s (ix2 (0 : Fin 1) q)) ((50000 : ℝ) : EReal) := by
  unfold meanK
  rw [hostDivf_apply, unrow_apply, nRowsV_apply]

theorem varK_apply (s qq : Vec Ideal S1x128 .f32) (q : Fin 128) :
    varK s qq (ix1 q)
      = Ideal.div (qq (ix2 (0 : Fin 1) q)) ((50000 : ℝ) : EReal) - meanK s (ix1 q) * meanK s (ix1 q) := by
  unfold varK
  rw [subf_apply, mulf_apply, hostDivf_apply, unrow_apply, nRowsV_apply]

theorem selfnormK_apply (ei : Vec Ideal S2x800000 .i32) (i : Fin 50000) :
    selfnormK (F := Ideal) ei (ix2 i (0 : Fin 1))
      = Cert.Val.dis (F := Ideal) ei (ix1 i) * Cert.Val.dis (F := Ideal) ei (ix1 i) := by
  unfold selfnormK
  rw [shapeCast_a_a1_apply, mulf_apply]

end Cert.KernelIdeal.Val

end
-- ==== Proof.KI.Arr0.lean ====
import proofs.«422700_j84035330113950_1_alg».proof.Proof.KI.R0
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-! # Region 0, from blocks to the array

Point `t` of the ten writes back rows `5000 t … 5000 t + 4999` of the `[50000,128]` product and reads the same rows of the
`[50000,64]` left factor; the `[64,128]` right factor's window is its whole array at every point. Distinct points write
disjoint row blocks, so an entry of the array after the run is the entry of what the one point that owns its row wrote back. -/

/-- The printed index maps over the grid: at point `t` the left factor's window and the output window are at block
    `(t, 0)`, the right factor's window at block `(0, 0)`. -/
theorem index0 : ∀ t : Fin cfg0.N,
    win0_0.index t (0 : Fin 2) = t.val ∧ win0_0.index t (1 : Fin 2) = 0
    ∧ win0_2.index t (0 : Fin 2) = t.val ∧ win0_2.index t (1 : Fin 2) = 0
    ∧ win0_1.index t (0 : Fin 2) = 0 ∧ win0_1.index t (1 : Fin 2) = 0 :=
  (by decide +kernel : ∀ t : Fin grid0.N, _)

/-- Distinct points write back distinct blocks of the output. -/
theorem index_inj0 : ∀ t t' : Fin cfg0.N, win0_2.index t = win0_2.index t' → t = t' :=
  (by decide +kernel : ∀ t t' : Fin grid0.N, win0_2.index t = win0_2.index t' → t = t')

/-- So two points' output blocks share no index of the array. -/
theorem disjoint0 : ∀ t t' : Fin cfg0.N, (cfg0.win 2).flush t = true → (cfg0.win 2).flush t' = true → t ≠ t' →
    Disjoint ((cfg0.win 2).blk t).view.set ((cfg0.win 2).blk t').view.set :=
  fun t t' _ _ hne => (cfg0.win 2).disjoint_blk fun h => hne (index_inj0 t t' h)

/-- The grid has ten points. -/
theorem N0_eq : cfg0.N = 10 := N_0

/-- Point `t` of the ten, as a point of the grid. -/
abbrev pt0 (t : Fin 10) : Fin cfg0.N := ⟨t.val, by rw [N0_eq]; exact t.isLt⟩

/-- Entry `(p, q)` of the output block at point `t` sits in the array at row `5000 t + p`, column `q`. -/
theorem blk_emb0_2 (t : Fin cfg0.N) (p : Fin 5000) (q : Fin 128) (h : 5000 * t.val + p.val < 50000) :
    ((cfg0.win 2).blk t).view.emb (ix2 p q : S5000x128.Idx) = (ix2 (⟨5000 * t.val + p.val, h⟩ : Fin 50000) q : S50000x128.Idx) := by
  obtain ⟨-, -, e0, e1, -⟩ := index0 t
  funext a; apply Fin.ext
  match a with
  | ⟨0, _⟩ => show win0_2.index t (0 : Fin 2) * 5000 + 1 * p.val = 5000 * t.val + p.val; rw [e0]; omega
  | ⟨1, _⟩ => show win0_2.index t (1 : Fin 2) * 128 + 1 * q.val = q.val; rw [e1]; omega

/-- THE ARRAY'S ENTRY after the run, at a point of the grid: row `5000 t + p`, column `q` of the output array holds entry
    `(p, q)` of what the body left in the output buffer at point `t`. -/
theorem arr_entry0_at (c : Dev nD) (t : Fin cfg0.N) (p : Fin 5000) (q : Fin 128) (h : 5000 * t.val + p.val < 50000) :
    (dat0 V c).arrAt 2 cfg0.N (ix2 (⟨5000 * t.val + p.val, h⟩ : Fin 50000) q : S50000x128.Idx)
      = out0_2 (iblk0 V c 0 t) (iblk0 V c 1 t) (ix2 p q) := by
  have hf := (dat0 V c).arrAt_emb_eq_flushed 2 disjoint0 t (flush0_2 t) (ix2 p q : S5000x128.Idx)
  rw [blk_emb0_2 t p q h] at hf
  refine hf.trans ?_
  show (cfg0.win 2).cut (grid0.coords t) ((dat0 V c).after 2 t) (ix2 p q : S5000x128.Idx) = _
  rw [after0_2]
  rfl

/-- The same over the ten points by number. -/
theorem arr_entry0 (c : Dev nD) (t : Fin 10) (p : Fin 5000) (q : Fin 128) :
    (dat0 V c).arrAt 2 cfg0.N (ix2 (⟨5000 * t.val + p.val, by have := t.isLt; have := p.isLt; omega⟩ : Fin 50000) q : S50000x128.Idx)
      = out0_2 (iblk0 V c 0 (pt0 t)) (iblk0 V c 1 (pt0 t)) (ix2 p q) :=
  arr_entry0_at V c (pt0 t) p q _

/-! ## The input blocks as entries of their arrays -/

/-- Entry `(p, k)` of the left factor's block at point `t` is row `5000 t + p`, column `k` of its array as the region finds it. -/
theorem iblk0_0_apply (c : Dev nD) (t : Fin cfg0.N) (p : Fin 5000) (k : Fin 64) (h : 5000 * t.val + p.val < 50000) :
    (iblk0 V c 0 t : Vec F S5000x64 .f32) (ix2 p k)
      = (V c (Pipeline.arrRef spec0 0) : S50000x64.Idx → Elt F .f32) (ix2 (⟨5000 * t.val + p.val, h⟩ : Fin 50000) k) := by
  obtain ⟨e0, e1, -⟩ := index0 t
  unfold iblk0
  rw [View.read_apply]
  show (V c (Pipeline.arrRef spec0 0) : S50000x64.Idx → Elt F .f32) _ = _
  congr 1
  funext a; apply Fin.ext
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- The right factor's block is its whole `[64,128]` array at every point. -/
theorem iblk0_1_eq (c : Dev nD) (t : Fin cfg0.N) :
    (iblk0 V c 1 t : Vec F S64x128 .f32) = (V c (Pipeline.arrRef spec0 1) : S64x128.Idx → Elt F .f32) := by
  obtain ⟨-, -, -, -, e0, e1⟩ := index0 t
  funext j
  unfold iblk0
  rw [View.read_apply]
  show (V c (Pipeline.arrRef spec0 1) : S64x128.Idx → Elt F .f32) _ = _
  congr 1
  funext a; apply Fin.ext
  match a with
  | ⟨0, _⟩ => show win0_1.index t (0 : Fin 2) * 64 + 1 * (j 0).val = (j 0).val; rw [e0]; omega
  | ⟨1, _⟩ => show win0_1.index t (1 : Fin 2) * 128 + 1 * (j 1).val = (j 1).val; rw [e1]; omega

end Cert.KernelIdeal.Reg

end
-- ==== Proof.KI.Out0.lean ====
/-
  What a matrix-product region's body leaves in its output buffer, as a function of its two input blocks.

  The body loads both staging buffers whole and stores once over the whole output buffer, so the buffer afterwards
  is exactly the stored value: the product of the two blocks.
-/
import proofs.«422700_j84035330113950_1_alg».proof.Proof.KI.R0
import proofs.«422700_j84035330113950_1_alg».proof.Proof.KI.R3
import proofs.«422700_j84035330113950_1_alg».proof.Proof.KI.R6
import Idealize.ShloMosaic.Lib.Pipeline.Value

namespace Cert.KernelIdeal.Fin

open Idealize.ShloMosaic Cert.KernelIdeal.Gen

variable {F : FTy → Type} [FloatOps F]

/-- The zero offsets of a whole-buffer rectangle of rank two. -/
private theorem off2_zero : (![0, 0] : Fin 2 → Nat) = fun _ => 0 := by
  funext a
  match a with
  | ⟨0, _⟩ => rfl
  | ⟨1, _⟩ => rfl

theorem out0_2_eq (x0 : Vec F S5000x64 .f32) (x1 : Vec F S64x128 .f32) : Reg.out0_2 x0 x1 = k0_pay1 x0 x1 := by
  unfold Reg.out0_2
  rw [View.canon_unit_zero off2_zero, View.ld_unit_zero off2_zero, View.ld_unit_zero off2_zero]

theorem out3_2_eq (x0 : Vec F S5000x128 .f32) (x1 : Vec F S128x128 .f32) : Reg.out3_2 x0 x1 = k3_pay1 x0 x1 := by
  unfold Reg.out3_2
  rw [View.canon_unit_zero off2_zero, View.ld_unit_zero off2_zero, View.ld_unit_zero off2_zero]

theorem out6_2_eq (x0 : Vec F S5000x128 .f32) (x1 : Vec F S128x128 .f32) : Reg.out6_2 x0 x1 = k6_pay1 x0 x1 := by
  unfold Reg.out6_2
  rw [View.canon_unit_zero off2_zero, View.ld_unit_zero off2_zero, View.ld_unit_zero off2_zero]

end Cert.KernelIdeal.Fin
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.KI.Final0.lean ====
/-
  The matrix-product regions' payload, read at an index.

  Each of the three regions multiplies a block of 5000 rows by the whole weight matrix onto a zero accumulator.
  Over the extended reals the product at row p and column q is the plain sum over the contraction position k of
  the left block at (p, k) times the weight at (k, q).
-/
import proofs.«422700_j84035330113950_1_alg».proof.Proof.Gen.KernelIdeal.Skeleton
import proofs.«422700_j84035330113950_1_alg».proof.Proof.LibPlainDot
import Idealize.ShloMosaic.PureOps.Ideal.Laws
import Idealize.ShloMosaic.Lib.ValueIdx
import Idealize.ShloMosaic.Lib.Pipeline.Value

open scoped BigOperators

namespace Cert.KernelIdeal.Fin

open Idealize.ShloMosaic Idealize.ShloMosaic.ValueIdx Cert.KernelIdeal.Gen

/-- The first layer's product: 64 contraction positions. -/
theorem k0_pay1_apply (x0 : Vec Ideal S5000x64 .f32) (x1 : Vec Ideal S64x128 .f32) (p : Fin 5000) (q : Fin 128) :
    k0_pay1 x0 x1 (ix2 p q) = ∑ k : Fin 64, x0 (ix2 p k) * x1 (ix2 k q) := by
  unfold k0_pay1
  simp only [matmul]
  rw [Ideal.matmul_constant_zero_apply]
  exact PlainDot.sum_eq dot_S5000x64_S64x128_S5000x128_1_0_0_1_n_n rfl rfl rfl rfl rfl rfl x0 x1 p q

/-- The second layer's product: 128 contraction positions; the two loads pass through shape casts to their own shapes. -/
theorem k3_pay1_apply (x0 : Vec Ideal S5000x128 .f32) (x1 : Vec Ideal S128x128 .f32) (p : Fin 5000) (q : Fin 128) :
    k3_pay1 x0 x1 (ix2 p q) = ∑ k : Fin 128, x0 (ix2 p k) * x1 (ix2 k q) := by
  unfold k3_pay1
  simp only [matmul, shapeCast_self]
  rw [Ideal.matmul_constant_zero_apply]
  exact PlainDot.sum_eq dot_S5000x128_S128x128_S5000x128_1_0_0_1_n_n rfl rfl rfl rfl rfl rfl x0 x1 p q

/-- The third layer's product, of the same shape as the second's. -/
theorem k6_pay1_apply (x0 : Vec Ideal S5000x128 .f32) (x1 : Vec Ideal S128x128 .f32) (p : Fin 5000) (q : Fin 128) :
    k6_pay1 x0 x1 (ix2 p q) = ∑ k : Fin 128, x0 (ix2 p k) * x1 (ix2 k q) := by
  unfold k6_pay1
  simp only [matmul, shapeCast_self]
  rw [Ideal.matmul_constant_zero_apply]
  exact PlainDot.sum_eq dot_S5000x128_S128x128_S5000x128_1_0_0_1_n_n rfl rfl rfl rfl rfl rfl x0 x1 p q

end Cert.KernelIdeal.Fin
-- ==== Proof.KI.BlockTotals.lean ====
/-
  Ten blocks of 5000 rows make the 50000 rows.

  Row p of block t is row 5000 t + p. A sum over all rows is the sum over the blocks of each block's sum, and an
  accumulator that starts from zero and adds one block's sum at each of the ten steps ends holding the sum over
  all rows. Over any commutative additive monoid, so nothing here asks for finiteness.
-/
import proofs.«422700_j84035330113950_1_alg».proof.Proof.SpecMath

open scoped BigOperators

namespace Cert.KernelIdeal.Fin

/-- Row p of block t. -/
def rowOf (t : Fin 10) (p : Fin 5000) : Fin 50000 :=
  ⟨5000 * t.val + p.val, by have := t.isLt; have := p.isLt; omega⟩

theorem rowOf_val (t : Fin 10) (p : Fin 5000) : (rowOf t p).val = 5000 * t.val + p.val := rfl

/-- Every row is some block's: block r / 5000, position r % 5000. -/
theorem rowOf_div_mod (r : Fin 50000) :
    rowOf ⟨r.val / 5000, by have := r.isLt; omega⟩ ⟨r.val % 5000, Nat.mod_lt _ (by decide)⟩ = r :=
  Fin.ext (by show 5000 * (r.val / 5000) + r.val % 5000 = r.val; omega)

variable {M : Type*} [AddCommMonoid M]

/-- The sum over the rows, block by block. -/
theorem sum_rows (f : Fin 50000 → M) : ∑ r, f r = ∑ t : Fin 10, ∑ p : Fin 5000, f (rowOf t p) := by
  have h := Cert.Spec.sum_blocks 10 5000 (fun i : Fin (10 * 5000) => f ⟨i.val, i.isLt⟩)
  refine Eq.trans (show ∑ r, f r = ∑ i : Fin (10 * 5000), f ⟨i.val, i.isLt⟩ from rfl) (h.trans ?_)
  refine Finset.sum_congr rfl fun t _ => Finset.sum_congr rfl fun p _ => congrArg f (Fin.ext ?_)
  show (finProdFinEquiv (t, p) : Fin (10 * 5000)).val = 5000 * t.val + p.val
  rw [Cert.Spec.sum_blocks_val]
  omega

/-- An accumulator over the ten blocks: zero plus the first block's sum, then one more block's sum per step.
    After the tenth step it holds the sum over all rows. -/
theorem acc_total (A bs : ℕ → M) (h0 : A 0 = 0 + bs 0) (hs : ∀ n, n + 1 < 10 → A (n + 1) = A n + bs (n + 1))
    (f : Fin 50000 → M) (hbs : ∀ t : Fin 10, bs t.val = ∑ p : Fin 5000, f (rowOf t p)) :
    A 9 = ∑ r, f r := by
  rw [sum_rows]
  have h := Cert.Spec.acc_last_eq_sum (T := 10) (by decide) A bs h0 hs
  exact h.trans (Finset.sum_congr rfl fun t _ => hbs t)

end Cert.KernelIdeal.Fin
-- ==== Proof.KI.ValReg0.lean ====
/-
  The first matrix-product region's output array, read at an entry.

  The region runs over ten points; point t writes rows 5000 t … 5000 t + 4999 of the output from the same rows of the
  left factor and the whole right factor. So row i of the output is written by the one point that owns it, and its
  entry of column q is the sum over the 64 contraction positions k of the left factor at (i, k) times the right factor
  at (k, q).
-/
import proofs.«422700_j84035330113950_1_alg».proof.Proof.KI.Arr0
import proofs.«422700_j84035330113950_1_alg».proof.Proof.KI.Out0
import proofs.«422700_j84035330113950_1_alg».proof.Proof.KI.Final0
import proofs.«422700_j84035330113950_1_alg».proof.Proof.KI.BlockTotals

open scoped BigOperators

noncomputable section

namespace Cert.KernelIdeal.Val

open Idealize.ShloMosaic Idealize.ShloMosaic.TcCoe Idealize.ShloMosaic.ValueIdx
open Cert.KernelIdeal.Gen Cert.KernelIdeal.Reg

variable (V : (c : Dev nD) → (b : Ref sig .tc) → Buf (Elt Ideal) ((c : Thread nD τ).loc b))

/-- Two sums over the contraction position agree when their left factors do, position by position. -/
theorem sum_left_congr {K : ℕ} {a b : Fin K → EReal} (w : Fin K → EReal) (h : ∀ k, a k = b k) :
    ∑ k, a k * w k = ∑ k, b k * w k :=
  Finset.sum_congr rfl fun k _ => by rw [h k]

/-- Entry (i, q) of the first product: `x`, `W` the whole arrays the region finds, `out` the array it leaves. -/
theorem mm0_entry (c : Dev nD) (x : Vec Ideal S50000x64 .f32) (W : Vec Ideal S64x128 .f32) (out : Vec Ideal S50000x128 .f32)
    (hx : (V c (Pipeline.arrRef spec0 0) : S50000x64.Idx → Elt Ideal .f32) = x)
    (hW : (V c (Pipeline.arrRef spec0 1) : S64x128.Idx → Elt Ideal .f32) = W)
    (hout : ((dat0 V c).arrAt 2 cfg0.N : S50000x128.Idx → Elt Ideal .f32) = out) (i : Fin 50000) (q : Fin 128) :
    out (ix2 i q) = ∑ k : Fin 64, x (ix2 i k) * W (ix2 k q) := by
  obtain ⟨t, p, rfl⟩ : ∃ t p, i = Cert.KernelIdeal.Fin.rowOf t p := ⟨_, _, (Cert.KernelIdeal.Fin.rowOf_div_mod i).symm⟩
  have h1 := arr_entry0 V c t p q
  rw [Cert.KernelIdeal.Fin.out0_2_eq, Cert.KernelIdeal.Fin.k0_pay1_apply, iblk0_1_eq, hW] at h1
  exact (congrFun hout _).symm.trans (h1.trans
    (sum_left_congr (fun k => W (ix2 k q)) fun k => (iblk0_0_apply V c (pt0 t) p k _).trans (congrFun hx _)))

end Cert.KernelIdeal.Val

end
-- ==== Proof.KI.Arr2.lean ====
import proofs.«422700_j84035330113950_1_alg».proof.Proof.KI.R2
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-! # Region 2, from blocks to the array

Point `t` of the ten writes back rows `5000 t … 5000 t + 4999` of the output array and reads the same rows of the data
array; the four `[1,128]` row windows are their whole arrays at every point. Distinct points write disjoint row blocks,
so an entry of the array after the run is the entry of what the one point that owns its row wrote back. -/

/-- The printed index maps over the grid: at point `t` the data window and the output window are at block `(t, 0)`, the
    four row windows at block `(0, 0)`. -/
theorem index2 : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Distinct points write back distinct blocks of the output. -/
theorem index_inj2 : ∀ t t' : Fin cfg2.N, win2_5.index t = win2_5.index t' → t = t' :=
  (by decide +kernel : ∀ t t' : Fin grid2.N, win2_5.index t = win2_5.index t' → t = t')

/-- So two points' output blocks share no index of the array. -/
theorem disjoint2 : ∀ t t' : Fin cfg2.N, (cfg2.win 5).flush t = true → (cfg2.win 5).flush t' = true → t ≠ t' →
    Disjoint ((cfg2.win 5).blk t).view.set ((cfg2.win 5).blk t').view.set :=
  fun t t' _ _ hne => (cfg2.win 5).disjoint_blk fun h => hne (index_inj2 t t' h)

/-- The grid has ten points. -/
theorem N2_eq : cfg2.N = 10 := N_2

/-- Point `t` of the ten, as a point of the grid. -/
abbrev pt2 (t : Fin 10) : Fin cfg2.N := ⟨t.val, by rw [N2_eq]; exact t.isLt⟩

/-- Entry `(p, q)` of the output block at point `t` sits in the array at row `5000 t + p`, column `q`. -/
theorem blk_emb2_5 (t : Fin cfg2.N) (p : Fin 5000) (q : Fin 128) (h : 5000 * t.val + p.val < 50000) :
    ((cfg2.win 5).blk t).view.emb (ix2 p q : S5000x128.Idx) = (ix2 (⟨5000 * t.val + p.val, h⟩ : Fin 50000) q : S50000x128.Idx) := by
  obtain ⟨-, -, e0, e1, -⟩ := index2 t
  funext a; apply Fin.ext
  match a with
  | ⟨0, _⟩ => show win2_5.index t (0 : Fin 2) * 5000 + 1 * p.val = 5000 * t.val + p.val; rw [e0]; omega
  | ⟨1, _⟩ => show win2_5.index t (1 : Fin 2) * 128 + 1 * q.val = q.val; rw [e1]; omega

/-- THE ARRAY'S ENTRY after the run, at a point of the grid: row `5000 t + p`, column `q` of the output array holds entry
    `(p, q)` of what the body left in the output buffer at point `t`. -/
theorem arr_entry2_at (c : Dev nD) (t : Fin cfg2.N) (p : Fin 5000) (q : Fin 128) (h : 5000 * t.val + p.val < 50000) :
    (dat2 V c).arrAt 5 cfg2.N (ix2 (⟨5000 * t.val + p.val, h⟩ : Fin 50000) q : S50000x128.Idx)
      = out2_5 (iblk2 V c 0 t) (iblk2 V c 1 t) (iblk2 V c 2 t) (iblk2 V c 3 t) (iblk2 V c 4 t) (ix2 p q) := by
  have hf := (dat2 V c).arrAt_emb_eq_flushed 5 disjoint2 t (flush2_5 t) (ix2 p q : S5000x128.Idx)
  rw [blk_emb2_5 t p q h] at hf
  refine hf.trans ?_
  show (cfg2.win 5).cut (grid2.coords t) ((dat2 V c).after 5 t) (ix2 p q : S5000x128.Idx) = _
  rw [after2_5]
  rfl

/-- The same over the ten points by number. -/
theorem arr_entry2 (c : Dev nD) (t : Fin 10) (p : Fin 5000) (q : Fin 128) :
    (dat2 V c).arrAt 5 cfg2.N (ix2 (⟨5000 * t.val + p.val, by have := t.isLt; have := p.isLt; omega⟩ : Fin 50000) q : S50000x128.Idx)
      = out2_5 (iblk2 V c 0 (pt2 t)) (iblk2 V c 1 (pt2 t)) (iblk2 V c 2 (pt2 t)) (iblk2 V c 3 (pt2 t)) (iblk2 V c 4 (pt2 t)) (ix2 p q) :=
  arr_entry2_at V c (pt2 t) p q _

/-! ## The input blocks as entries of their arrays -/

/-- Entry `(p, k)` of the data block at point `t` is row `5000 t + p`, column `k` of the data array as the region finds it. -/
theorem iblk2_0_apply (c : Dev nD) (t : Fin cfg2.N) (p : Fin 5000) (k : Fin 128) (h : 5000 * t.val + p.val < 50000) :
    (iblk2 V c 0 t : Vec F S5000x128 .f32) (ix2 p k)
      = (V c (Pipeline.arrRef spec2 0) : S50000x128.Idx → Elt F .f32) (ix2 (⟨5000 * t.val + p.val, h⟩ : Fin 50000) k) := by
  obtain ⟨e0, e1, -⟩ := index2 t
  unfold iblk2
  rw [View.read_apply]
  show (V c (Pipeline.arrRef spec2 0) : S50000x128.Idx → Elt F .f32) _ = _
  congr 1
  funext a; apply Fin.ext
  match a with
  | ⟨0, _⟩ => show win2_0.index t (0 : Fin 2) * 5000 + 1 * p.val = 5000 * t.val + p.val; rw [e0]; omega
  | ⟨1, _⟩ => show win2_0.index t (1 : Fin 2) * 128 + 1 * k.val = k.val; rw [e1]; omega

/-- Window 1's block is its whole `[1,128]` array at every point. -/
theorem iblk2_1_eq (c : Dev nD) (t : Fin cfg2.N) :
    (iblk2 V c 1 t : Vec F S1x128 .f32) = (V c (Pipeline.arrRef spec2 1) : S1x128.Idx → Elt F .f32) := by
  obtain ⟨-, -, -, -, e0, e1, -, -, -, -, -, -⟩ := index2 t
  funext j
  unfold iblk2
  rw [View.read_apply]
  show (V c (Pipeline.arrRef spec2 1) : S1x128.Idx → Elt F .f32) _ = _
  congr 1
  funext a; apply Fin.ext
  match a with
  | ⟨0, _⟩ => show win2_1.index t (0 : Fin 2) * 1 + 1 * (j 0).val = (j 0).val; rw [e0]; omega
  | ⟨1, _⟩ => show win2_1.index t (1 : Fin 2) * 128 + 1 * (j 1).val = (j 1).val; rw [e1]; omega

/-- Window 2's block is its whole `[1,128]` array at every point. -/
theorem iblk2_2_eq (c : Dev nD) (t : Fin cfg2.N) :
    (iblk2 V c 2 t : Vec F S1x128 .f32) = (V c (Pipeline.arrRef spec2 2) : S1x128.Idx → Elt F .f32) := by
  obtain ⟨-, -, -, -, -, -, e0, e1, -, -, -, -⟩ := index2 t
  funext j
  unfold iblk2
  rw [View.read_apply]
  show (V c (Pipeline.arrRef spec2 2) : S1x128.Idx → Elt F .f32) _ = _
  congr 1
  funext a; apply Fin.ext
  match a with
  | ⟨0, _⟩ => show win2_2.index t (0 : Fin 2) * 1 + 1 * (j 0).val = (j 0).val; rw [e0]; omega
  | ⟨1, _⟩ => show win2_2.index t (1 : Fin 2) * 128 + 1 * (j 1).val = (j 1).val; rw [e1]; omega

/-- Window 3's block is its whole `[1,128]` array at every point. -/
theorem iblk2_3_eq (c : Dev nD) (t : Fin cfg2.N) :
    (iblk2 V c 3 t : Vec F S1x128 .f32) = (V c (Pipeline.arrRef spec2 3) : S1x128.Idx → Elt F .f32) := by
  obtain ⟨-, -, -, -, -, -, -, -, e0, e1, -, -⟩ := index2 t
  funext j
  unfold iblk2
  rw [View.read_apply]
  show (V c (Pipeline.arrRef spec2 3) : S1x128.Idx → Elt F .f32) _ = _
  congr 1
  funext a; apply Fin.ext
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

/-- Window 4's block is its whole `[1,128]` array at every point. -/
theorem iblk2_4_eq (c : Dev nD) (t : Fin cfg2.N) :
    (iblk2 V c 4 t : Vec F S1x128 .f32) = (V c (Pipeline.arrRef spec2 4) : S1x128.Idx → Elt F .f32) := by
  obtain ⟨-, -, -, -, -, -, -, -, -, -, e0, e1⟩ := index2 t
  funext j
  unfold iblk2
  rw [View.read_apply]
  show (V c (Pipeline.arrRef spec2 4) : S1x128.Idx → Elt F .f32) _ = _
  congr 1
  funext a; apply Fin.ext
  match a with
  | ⟨0, _⟩ => show win2_4.index t (0 : Fin 2) * 1 + 1 * (j 0).val = (j 0).val; rw [e0]; omega
  | ⟨1, _⟩ => show win2_4.index t (1 : Fin 2) * 128 + 1 * (j 1).val = (j 1).val; rw [e1]; omega

end Cert.KernelIdeal.Reg

end
-- ==== Proof.KI.Out2.lean ====
/-
  What a normalisation region's body leaves in its output buffer, as a function of its five input blocks.

  The body loads the five staging buffers whole and stores once over the whole output buffer, so the buffer
  afterwards is exactly the stored value. The blocks come in window order (data, mean, variance, scale, shift);
  the payload takes the variance row before the mean row.
-/
import proofs.«422700_j84035330113950_1_alg».proof.Proof.KI.R2
import proofs.«422700_j84035330113950_1_alg».proof.Proof.KI.R5
import proofs.«422700_j84035330113950_1_alg».proof.Proof.KI.R8
import Idealize.ShloMosaic.Lib.Pipeline.Value

namespace Cert.KernelIdeal.Fin

open Idealize.ShloMosaic Cert.KernelIdeal.Gen

variable {F : FTy → Type} [FloatOps F]

/-- The zero offsets of a whole-buffer rectangle of rank two. -/
private theorem off2_zero : (![0, 0] : Fin 2 → Nat) = fun _ => 0 := by
  funext a
  match a with
  | ⟨0, _⟩ => rfl
  | ⟨1, _⟩ => rfl

theorem out2_5_eq (x0 : Vec F S5000x128 .f32) (x1 x2 x3 x4 : Vec F S1x128 .f32) :
    Reg.out2_5 x0 x1 x2 x3 x4 = k2_pay1 x0 x2 x1 x3 x4 := by
  unfold Reg.out2_5
  rw [View.canon_unit_zero off2_zero, View.ld_unit_zero off2_zero, View.ld_unit_zero off2_zero,
    View.ld_unit_zero off2_zero, View.ld_unit_zero off2_zero, View.ld_unit_zero off2_zero]

theorem out5_5_eq (x0 : Vec F S5000x128 .f32) (x1 x2 x3 x4 : Vec F S1x128 .f32) :
    Reg.out5_5 x0 x1 x2 x3 x4 = k5_pay1 x0 x2 x1 x3 x4 := by
  unfold Reg.out5_5
  rw [View.canon_unit_zero off2_zero, View.ld_unit_zero off2_zero, View.ld_unit_zero off2_zero,
    View.ld_unit_zero off2_zero, View.ld_unit_zero off2_zero, View.ld_unit_zero off2_zero]

theorem out8_5_eq (x0 : Vec F S5000x128 .f32) (x1 x2 x3 x4 : Vec F S1x128 .f32) :
    Reg.out8_5 x0 x1 x2 x3 x4 = k8_pay1 x0 x2 x1 x3 x4 := by
  unfold Reg.out8_5
  rw [View.canon_unit_zero off2_zero, View.ld_unit_zero off2_zero, View.ld_unit_zero off2_zero,
    View.ld_unit_zero off2_zero, View.ld_unit_zero off2_zero, View.ld_unit_zero off2_zero]

end Cert.KernelIdeal.Fin
-- ==== Proof.KI.Final2.lean ====
/-
  The normalisation regions' payload, read at an index.

  Each of the three regions takes a block of 5000 rows and four rows of 128 columns (variance, mean, scale, shift),
  and writes, at row p and column q,
      max (((x(p,q) - mean(q)) * rsqrt (var(q) + eps)) * scale(q) + shift(q)) 0.
  The four rows are broadcast over the block's rows, so each is read at its only row 0.
-/
import proofs.«422700_j84035330113950_1_alg».proof.Proof.Gen.KernelIdeal.Skeleton
import Idealize.ShloMosaic.PureOps.Ideal.Laws
import Idealize.ShloMosaic.Lib.ValueIdx
import Idealize.ShloMosaic.Lib.ValueLayout

namespace Cert.KernelIdeal.Fin

open Idealize.ShloMosaic Idealize.ShloMosaic.ValueIdx Cert.KernelIdeal.Gen

/-- A reciprocal square root of a vector, read at an index, is the extended reals' one of the element. -/
theorem rsqrt_apply {s : Shape} {φ : FTy} (a : FVec Ideal s φ) (i : s.Idx) : rsqrt a i = Ideal.rsqrt (a i) := rfl

/-- The first layer's normalisation at row p, column q. The payload takes the variance row before the mean row. -/
theorem k2_pay1_apply (x : Vec Ideal S5000x128 .f32) (v m g b : Vec Ideal S1x128 .f32) (p : Fin 5000) (q : Fin 128) :
    k2_pay1 x v m g b (ix2 p q)
      = max (((x (ix2 p q) - m (ix2 (0 : Fin 1) q)) * Ideal.rsqrt (v (ix2 (0 : Fin 1) q) + Ideal.ofBits .f32 0x3727C5AC#32))
              * g (ix2 (0 : Fin 1) q) + b (ix2 (0 : Fin 1) q)) 0 := by
  unfold k2_pay1
  simp only [maximumf_apply, addf_apply, mulf_apply, subf_apply, rsqrt_apply, shapeCast_self, broadcast_apply,
    broadcastTo_1b_ab_apply, Ideal.ofBits_def, Ideal.ofBits_zero_f32]

/-- The three layers run the same normalisation. -/
theorem k5_pay1_eq (x : Vec Ideal S5000x128 .f32) (v m g b : Vec Ideal S1x128 .f32) : k5_pay1 x v m g b = k2_pay1 x v m g b := rfl
theorem k8_pay1_eq (x : Vec Ideal S5000x128 .f32) (v m g b : Vec Ideal S1x128 .f32) : k8_pay1 x v m g b = k2_pay1 x v m g b := rfl

/-- So the second layer's normalisation reads the same at an index. -/
theorem k5_pay1_apply (x : Vec Ideal S5000x128 .f32) (v m g b : Vec Ideal S1x128 .f32) (p : Fin 5000) (q : Fin 128) :
    k5_pay1 x v m g b (ix2 p q)
      = max (((x (ix2 p q) - m (ix2 (0 : Fin 1) q)) * Ideal.rsqrt (v (ix2 (0 : Fin 1) q) + Ideal.ofBits .f32 0x3727C5AC#32))
              * g (ix2 (0 : Fin 1) q) + b (ix2 (0 : Fin 1) q)) 0 :=
  (congrFun (k5_pay1_eq x v m g b) _).trans (k2_pay1_apply x v m g b p q)

/-- And the third layer's. -/
theorem k8_pay1_apply (x : Vec Ideal S5000x128 .f32) (v m g b : Vec Ideal S1x128 .f32) (p : Fin 5000) (q : Fin 128) :
    k8_pay1 x v m g b (ix2 p q)
      = max (((x (ix2 p q) - m (ix2 (0 : Fin 1) q)) * Ideal.rsqrt (v (ix2 (0 : Fin 1) q) + Ideal.ofBits .f32 0x3727C5AC#32))
              * g (ix2 (0 : Fin 1) q) + b (ix2 (0 : Fin 1) q)) 0 :=
  (congrFun (k8_pay1_eq x v m g b) _).trans (k2_pay1_apply x v m g b p q)

end Cert.KernelIdeal.Fin
-- ==== Proof.KI.ValReg2.lean ====
/-
  The normalisation region's output array, entry by entry.

  After the region has run over its ten row blocks, row i and column q of its output array hold
      max (((x(i,q) - mean(q)) * rsqrt (var(q) + eps)) * scale(q) + shift(q)) 0,
  where x, mean, var, scale, shift are the region's five input arrays as it finds them (windows 0 to 4: the
  mean is window 1, the variance window 2). Row i lies in block i / 5000 at position i % 5000; the point that
  owns that block wrote the entry, from its data block and the four rows, each its whole array at every point.

  The arrays are named by typed variables tied to the region's buffers by equations, so that the arithmetic is
  stated over the extended reals.
-/
import proofs.«422700_j84035330113950_1_alg».proof.Proof.KI.Arr2
import proofs.«422700_j84035330113950_1_alg».proof.Proof.KI.Out2
import proofs.«422700_j84035330113950_1_alg».proof.Proof.KI.Final2
import proofs.«422700_j84035330113950_1_alg».proof.Proof.KI.BlockTotals

set_option maxRecDepth 16384

noncomputable section

namespace Cert.KernelIdeal.Val

open Cert.KernelIdeal Cert.KernelIdeal.Gen Cert.KernelIdeal.Reg
open Idealize.ShloMosaic Idealize.ShloMosaic.TcCoe
open Idealize.SL Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

set_option maxHeartbeats 1000000 in
/-- THE OUTPUT ARRAY'S ENTRY at row i, column q: x, mean, var, g, be are the five input arrays at the region's
    entry (windows 0 to 4), out the output array after the run. -/
theorem bn2_entry (c : Dev nD) (x : Vec Ideal S50000x128 .f32) (mean var g be : Vec Ideal S1x128 .f32)
    (out : Vec Ideal S50000x128 .f32)
    (hx : (V c (Pipeline.arrRef spec2 0) : S50000x128.Idx → Elt Ideal .f32) = x)
    (hmean : (V c (Pipeline.arrRef spec2 1) : S1x128.Idx → Elt Ideal .f32) = mean)
    (hvar : (V c (Pipeline.arrRef spec2 2) : S1x128.Idx → Elt Ideal .f32) = var)
    (hg : (V c (Pipeline.arrRef spec2 3) : S1x128.Idx → Elt Ideal .f32) = g)
    (hbe : (V c (Pipeline.arrRef spec2 4) : S1x128.Idx → Elt Ideal .f32) = be)
    (hout : ((dat2 V c).arrAt 5 cfg2.N : S50000x128.Idx → Elt Ideal .f32) = out)
    (i : _root_.Fin 50000) (q : _root_.Fin 128) :
    out (ix2 i q)
      = max ((x (ix2 i q) - mean (ix2 (0 : _root_.Fin 1) q))
            * Ideal.rsqrt (var (ix2 (0 : _root_.Fin 1) q) + Ideal.ofBits .f32 0x3727C5AC#32)
            * g (ix2 (0 : _root_.Fin 1) q) + be (ix2 (0 : _root_.Fin 1) q)) 0 := by
  -- row i is position p of block t
  obtain ⟨t, p, rfl⟩ : ∃ (t : _root_.Fin 10) (p : _root_.Fin 5000), i = Cert.KernelIdeal.Fin.rowOf t p :=
    ⟨_, _, (Cert.KernelIdeal.Fin.rowOf_div_mod i).symm⟩
  have hrow : 5000 * (pt2 t).val + p.val < 50000 := by
    have := t.isLt; have := p.isLt
    show 5000 * t.val + p.val < 50000
    omega
  -- the point that owns block t wrote the entry: the payload of its five blocks at (p, q)
  have hentry := arr_entry2 V c t p q
  rw [Cert.KernelIdeal.Fin.out2_5_eq, Cert.KernelIdeal.Fin.k2_pay1_apply, iblk2_1_eq, iblk2_2_eq, iblk2_3_eq,
    iblk2_4_eq, hmean, hvar, hg, hbe, iblk2_0_apply V c (pt2 t) p q hrow] at hentry
  -- the data block's entry is the data array's at row 5000 t + p
  have hdata : (V c (Pipeline.arrRef spec2 0) : S50000x128.Idx → Elt Ideal .f32)
      (ix2 (⟨5000 * (pt2 t).val + p.val, hrow⟩ : _root_.Fin 50000) q) = x (ix2 (Cert.KernelIdeal.Fin.rowOf t p) q) :=
    congrFun hx _
  rw [hdata] at hentry
  exact (congrFun hout _).symm.trans hentry

end Cert.KernelIdeal.Val

end
-- ==== Proof.Val.Finite.lean ====
/-
  Every stage of the network's specification keeps real numbers real, at the extended-real reading of
  floats: from inputs whose elements are real numbers (features, weights, biases, scales, shifts) every
  intermediate of the three graph-convolution layers is a real number, whatever the edge words are (a
  gather reads an element; an accumulating scatter adds finitely many).

  § 1  Operations that read an element keep any property of the elements.
  § 2  The degree's reciprocal square root is a positive real; the edge normalisation is real.
  § 3  The product, the neighbour sum, the self-loop term and the layer before normalisation are real.
  § 4  The column mean is real; the column variance is a nonnegative real; the normalised,
       rectified output is real. Hence each layer's output is real.
  § 5  The rows of the stacked parameters are real.
-/
import proofs.«422700_j84035330113950_1_alg».proof.Proof.Val.BNBridge

noncomputable section

namespace Cert.Val

open Idealize.ShloMosaic Idealize.ShloMosaic.ValueIdx
open Cert.ReferenceIdeal Cert.ReferenceIdeal.Facts₀
open Cert.Spec
open scoped BigOperators

variable [Cert.ReferenceIdeal.Facts₀]

/-! ## § 1  Operations that read an element -/

section Reads

variable {α : Type} {P : α → Prop} {s t : Shape}

theorem broadcastInDim_forall (dims : Fin s.rank → Fin t.rank) (h : s.BroadcastsInDim t dims) (x : s.Idx → α)
    (hx : ∀ i, P (x i)) (j : t.Idx) : P (broadcastInDim t dims h x j) := hx _

theorem shapeCast_forall (x : s.Idx → α) (h : s.ShapeCasts t) (hx : ∀ i, P (x i)) (j : t.Idx) :
    P (shapeCast t x h j) := hx _

theorem extractStridedSlice_forall (off : Fin s.rank → Nat) (x : s.Idx → α) (h : s.Slices off t)
    (hx : ∀ i, P (x i)) (j : t.Idx) : P (extractStridedSlice t off x h j) := hx _

end Reads

theorem isReal_rows (v : Vec Ideal S128 .f32) (hv : ∀ i, IsReal (v i)) (i : S50000x128.Idx) :
    IsReal (rows v i) :=
  broadcastInDim_forall _ _ _ (fun k => broadcastInDim_forall _ _ _ hv k) i

/-! ## § 2  The degree and the edge normalisation -/

/-- rsqrt (indegree + 1) is a positive real number at every node. -/
theorem dis_pos_real (ei : Vec Ideal S2x800000 .i32) (i : S50000.Idx) :
    ∃ q : ℝ, 0 < q ∧ dis (F := Ideal) ei i = (q : EReal) := by
  unfold dis
  rw [hostRsqrt_apply, addf_apply, broadcastInDim_scalar_apply, oneS_apply]
  refine exists_pos_real_rsqrt_add_one (isReal_scatterAdd _ _ _ _ (fun k => ?_) (fun k => ?_) i)
    (scatterAdd_nonneg _ _ _ _ (fun k => ?_) (fun k => ?_) i)
  · rw [broadcastInDim_scalar_apply, zeroS_apply]; exact isReal_zero
  · rw [broadcastInDim_scalar_apply, oneS_apply]; exact isReal_one
  · rw [broadcastInDim_scalar_apply, zeroS_apply]
  · rw [broadcastInDim_scalar_apply, oneS_apply]; exact zero_le_one

theorem isReal_dis (ei : Vec Ideal S2x800000 .i32) (i : S50000.Idx) : IsReal (dis (F := Ideal) ei i) := by
  obtain ⟨q, _, h⟩ := dis_pos_real ei i
  exact ⟨q, h⟩

theorem isReal_normOf (ei : Vec Ideal S2x800000 .i32) (i : S800000.Idx) : IsReal (normOf (F := Ideal) ei i) := by
  unfold normOf
  rw [mulf_apply]
  exact (isReal_gather _ _ _ (isReal_dis ei) _).mul (isReal_gather _ _ _ (isReal_dis ei) _)

/-! ## § 3  One layer before normalisation -/

theorem isReal_hOf1 (x : Vec Ideal S50000x64 .f32) (W : Vec Ideal S64x128 .f32) (hx : ∀ i, IsReal (x i))
    (hW : ∀ i, IsReal (W i)) (j : S50000x128.Idx) : IsReal (hOf1 x W j) := by
  unfold hOf1 Host.dotGeneral
  rw [Ideal.dotGeneral_apply]
  exact IsReal.sum_univ _ fun k => (hx _).mul (hW _)

theorem isReal_hOf (x : Vec Ideal S50000x128 .f32) (W : Vec Ideal S128x128 .f32) (hx : ∀ i, IsReal (x i))
    (hW : ∀ i, IsReal (W i)) (j : S50000x128.Idx) : IsReal (hOf x W j) := by
  unfold hOf Host.dotGeneral
  rw [Ideal.dotGeneral_apply]
  exact IsReal.sum_univ _ fun k => (hx _).mul (hW _)

theorem isReal_aggOf (h : Vec Ideal S50000x128 .f32) (ei : Vec Ideal S2x800000 .i32) (hh : ∀ i, IsReal (h i))
    (i : S50000x128.Idx) : IsReal (aggOf h ei i) := by
  unfold aggOf
  refine isReal_scatterAdd _ _ _ _ (fun k => ?_) (fun k => ?_) i
  · rw [broadcastInDim_scalar_apply, zeroS_apply]; exact isReal_zero
  · rw [mulf_apply]
    exact (isReal_gather _ _ _ hh _).mul
      (broadcastInDim_forall _ _ _ (fun k => broadcastInDim_forall _ _ _ (isReal_normOf ei) k) _)

theorem isReal_selfOf (h : Vec Ideal S50000x128 .f32) (ei : Vec Ideal S2x800000 .i32) (hh : ∀ i, IsReal (h i))
    (i : S50000x128.Idx) : IsReal (selfOf h ei i) := by
  unfold selfOf
  rw [mulf_apply]
  refine (hh i).mul (broadcastInDim_forall _ _ _ (fun k => broadcastInDim_forall _ _ _ (fun k => ?_) k) _)
  rw [mulf_apply]
  exact (isReal_dis ei k).mul (isReal_dis ei k)

theorem isReal_preOf (h : Vec Ideal S50000x128 .f32) (ei : Vec Ideal S2x800000 .i32) (b : Vec Ideal S128 .f32)
    (hh : ∀ i, IsReal (h i)) (hb : ∀ i, IsReal (b i)) (i : S50000x128.Idx) : IsReal (preOf h ei b i) := by
  unfold preOf
  rw [addf_apply, addf_apply]
  exact ((isReal_aggOf h ei hh i).add (isReal_selfOf h ei hh i)).add (isReal_rows b hb i)

/-! ## § 4  Normalisation -/

theorem isReal_meanOf (p : Vec Ideal S50000x128 .f32) (hp : ∀ i, IsReal (p i)) (i : S128.Idx) :
    IsReal (meanOf p i) := by
  obtain ⟨j, rfl⟩ : ∃ j : Fin 128, i = ix1 j := ⟨i 0, eq_ix1 i⟩
  rw [meanOf_apply]
  exact isReal_mean (n := 50000) (by norm_num) (c := 50000) (by norm_num) (fun r => p (ix2 r j)) (fun r => hp _)

/-- The column variance is a nonnegative real number. -/
theorem varOf_eq_real (p : Vec Ideal S50000x128 .f32) (hp : ∀ i, IsReal (p i)) (j : Fin 128) :
    ∃ v : ℝ, 0 ≤ v ∧ varOf p (ix1 j) = (v : EReal) := by
  refine ⟨varR (fun r : Fin 50000 => p (ix2 r j)), varR_nonneg _, ?_⟩
  rw [varOf_apply, meanOf_apply]
  exact var_centred_eq (n := 50000) (by norm_num) (c := 50000) (by norm_num) (fun r => p (ix2 r j))
    (fun r => hp _)

theorem isReal_varOf (p : Vec Ideal S50000x128 .f32) (hp : ∀ i, IsReal (p i)) (i : S128.Idx) :
    IsReal (varOf p i) := by
  obtain ⟨j, rfl⟩ : ∃ j : Fin 128, i = ix1 j := ⟨i 0, eq_ix1 i⟩
  obtain ⟨v, _, hv⟩ := varOf_eq_real p hp j
  exact ⟨v, hv⟩

/-- Normalisation by real means and nonnegative real variances, real scale and shift: real output. -/
theorem isReal_normRelu (p : Vec Ideal S50000x128 .f32) (mean var g beta : Vec Ideal S128 .f32)
    (hp : ∀ i, IsReal (p i)) (hm : ∀ i, IsReal (mean i))
    (hv : ∀ j : Fin 128, ∃ v : ℝ, 0 ≤ v ∧ var (ix1 j) = (v : EReal))
    (hg : ∀ i, IsReal (g i)) (hb : ∀ i, IsReal (beta i)) (i : S50000x128.Idx) :
    IsReal (normRelu p mean var g beta i) := by
  obtain ⟨r, j, rfl⟩ : ∃ (r : Fin 50000) (j : Fin 128), i = ix2 r j := ⟨i 0, i 1, eq_ix2 i⟩
  rw [normRelu_apply]
  obtain ⟨v, hv0, hve⟩ := hv j
  rw [hve]
  exact isReal_bn_relu (hp _) (hm _) (hg _) (hb _) hv0 epsR_pos

theorem isReal_bnrelu (p : Vec Ideal S50000x128 .f32) (g beta : Vec Ideal S128 .f32) (hp : ∀ i, IsReal (p i))
    (hg : ∀ i, IsReal (g i)) (hb : ∀ i, IsReal (beta i)) (i : S50000x128.Idx) : IsReal (bnrelu p g beta i) :=
  isReal_normRelu p _ _ g beta hp (isReal_meanOf p hp) (varOf_eq_real p hp) hg hb i

theorem isReal_layerOut (h : Vec Ideal S50000x128 .f32) (ei : Vec Ideal S2x800000 .i32) (b g beta : Vec Ideal S128 .f32)
    (hh : ∀ i, IsReal (h i)) (hb : ∀ i, IsReal (b i)) (hg : ∀ i, IsReal (g i)) (hbeta : ∀ i, IsReal (beta i))
    (i : S50000x128.Idx) : IsReal (layerOut h ei b g beta i) :=
  isReal_bnrelu _ g beta (isReal_preOf h ei b hh hb) hg hbeta i

theorem isReal_layer1 (x : Vec Ideal S50000x64 .f32) (ei : Vec Ideal S2x800000 .i32) (W : Vec Ideal S64x128 .f32)
    (b g beta : Vec Ideal S128 .f32) (hx : ∀ i, IsReal (x i)) (hW : ∀ i, IsReal (W i)) (hb : ∀ i, IsReal (b i))
    (hg : ∀ i, IsReal (g i)) (hbeta : ∀ i, IsReal (beta i)) (i : S50000x128.Idx) :
    IsReal (layer1 x ei W b g beta i) :=
  isReal_layerOut _ ei b g beta (isReal_hOf1 x W hx hW) hb hg hbeta i

theorem isReal_layer (x : Vec Ideal S50000x128 .f32) (ei : Vec Ideal S2x800000 .i32) (W : Vec Ideal S128x128 .f32)
    (b g beta : Vec Ideal S128 .f32) (hx : ∀ i, IsReal (x i)) (hW : ∀ i, IsReal (W i)) (hb : ∀ i, IsReal (b i))
    (hg : ∀ i, IsReal (g i)) (hbeta : ∀ i, IsReal (beta i)) (i : S50000x128.Idx) :
    IsReal (layer x ei W b g beta i) :=
  isReal_layerOut _ ei b g beta (isReal_hOf x W hx hW) hb hg hbeta i

/-! ## § 5  The rows of the stacked parameters -/

theorem isReal_mat0 (W : Vec Ideal S2x128x128 .f32) (hW : ∀ i, IsReal (W i)) (i : S128x128.Idx) : IsReal (mat0 W i) :=
  shapeCast_forall _ _ (fun k => extractStridedSlice_forall _ _ _ hW k) i
theorem isReal_mat1 (W : Vec Ideal S2x128x128 .f32) (hW : ∀ i, IsReal (W i)) (i : S128x128.Idx) : IsReal (mat1 W i) :=
  shapeCast_forall _ _ (fun k => extractStridedSlice_forall _ _ _ hW k) i
theorem isReal_row2_0 (v : Vec Ideal S2x128 .f32) (hv : ∀ i, IsReal (v i)) (i : S128.Idx) : IsReal (row2_0 v i) :=
  shapeCast_forall _ _ (fun k => extractStridedSlice_forall _ _ _ hv k) i
theorem isReal_row2_1 (v : Vec Ideal S2x128 .f32) (hv : ∀ i, IsReal (v i)) (i : S128.Idx) : IsReal (row2_1 v i) :=
  shapeCast_forall _ _ (fun k => extractStridedSlice_forall _ _ _ hv k) i
theorem isReal_row3_0 (v : Vec Ideal S3x128 .f32) (hv : ∀ i, IsReal (v i)) (i : S128.Idx) : IsReal (row3_0 v i) :=
  shapeCast_forall _ _ (fun k => extractStridedSlice_forall _ _ _ hv k) i
theorem isReal_row3_1 (v : Vec Ideal S3x128 .f32) (hv : ∀ i, IsReal (v i)) (i : S128.Idx) : IsReal (row3_1 v i) :=
  shapeCast_forall _ _ (fun k => extractStridedSlice_forall _ _ _ hv k) i
theorem isReal_row3_2 (v : Vec Ideal S3x128 .f32) (hv : ∀ i, IsReal (v i)) (i : S128.Idx) : IsReal (row3_2 v i) :=
  shapeCast_forall _ _ (fun k => extractStridedSlice_forall _ _ _ hv k) i

/-- The three graph-convolution layers together. -/
theorem isReal_gcn (x : Vec Ideal S50000x64 .f32) (ei : Vec Ideal S2x800000 .i32) (W0 : Vec Ideal S64x128 .f32)
    (b0 : Vec Ideal S128 .f32) (Wh : Vec Ideal S2x128x128 .f32) (bh : Vec Ideal S2x128 .f32)
    (bn_g bn_b : Vec Ideal S3x128 .f32) (hx : ∀ i, IsReal (x i)) (hW0 : ∀ i, IsReal (W0 i)) (hb0 : ∀ i, IsReal (b0 i))
    (hWh : ∀ i, IsReal (Wh i)) (hbh : ∀ i, IsReal (bh i)) (hg : ∀ i, IsReal (bn_g i)) (hb : ∀ i, IsReal (bn_b i))
    (i : S50000x128.Idx) : IsReal (gcn x ei W0 b0 Wh bh bn_g bn_b i) :=
  isReal_layer _ ei _ _ _ _
    (isReal_layer _ ei _ _ _ _
      (isReal_layer1 x ei W0 b0 _ _ hx hW0 hb0 (isReal_row3_0 bn_g hg) (isReal_row3_0 bn_b hb))
      (isReal_mat0 Wh hWh) (isReal_row2_0 bh hbh) (isReal_row3_1 bn_g hg) (isReal_row3_1 bn_b hb))
    (isReal_mat1 Wh hWh) (isReal_row2_1 bh hbh) (isReal_row3_2 bn_g hg) (isReal_row3_2 bn_b hb) i

end Cert.Val

end
-- ==== Proof.Val.LayerStep.lean ====
/-
  The layer step: from entrywise descriptions of the arrays a layer's computation leaves — the product,
  the neighbour sum, the self-loop factor, the layer before normalisation, the column sums of it and of
  its squares, the one-pass mean and variance, the normalised rectified output — to the
  specification's layer, whose every element is then a real number.

  The specification normalises with the centred variance, the description with the mean of the squares
  minus the square of the mean; they are the same real number because every element before
  normalisation is a real number.
-/
import proofs.«422700_j84035330113950_1_alg».proof.Proof.Val.Finite
import proofs.«422700_j84035330113950_1_alg».proof.Proof.LibPlainDot

noncomputable section

namespace Cert.Val

open Idealize.ShloMosaic Idealize.ShloMosaic.ValueIdx
open Cert.ReferenceIdeal Cert.ReferenceIdeal.Facts₀
open Cert.Spec
open scoped BigOperators

variable [Cert.ReferenceIdeal.Facts₀]

/-! ## The stages before normalisation read at an index -/

/-- A vector of 50000 entries as one column reads, at (i, 0), the vector at i. -/
theorem col_apply (v : Vec Ideal S50000 .f32) (i : Fin 50000) :
    broadcastInDim S50000x1 ![0] bcast_S50000_S50000x1_0 v (ix2 i (0 : Fin 1)) = v (ix1 i) := by
  refine broadcastInDim_apply _ _ _ _ (ix1 i) ?_
  intro a
  match a with
  | ⟨0, _⟩ => rfl

/-- A column repeated across the 128 columns reads, at (i, q), the column at (i, 0). -/
theorem cols_apply (c : Vec Ideal S50000x1 .f32) (i : Fin 50000) (q : Fin 128) :
    broadcastInDim S50000x128 ![0, 1] bcast_S50000x1_S50000x128_0_1 c (ix2 i q) = c (ix2 i (0 : Fin 1)) := by
  refine broadcastInDim_apply _ _ _ _ (ix2 i (0 : Fin 1)) ?_
  intro a
  match a with
  | ⟨0, _⟩ => rfl
  | ⟨1, _⟩ => rfl

/-- The self-loop term at (i, q): the product's element scaled by the node's dis². -/
theorem selfOf_apply (h : Vec Ideal S50000x128 .f32) (ei : Vec Ideal S2x800000 .i32) (i : Fin 50000) (q : Fin 128) :
    selfOf h ei (ix2 i q) = h (ix2 i q) * (dis (F := Ideal) ei (ix1 i) * dis (F := Ideal) ei (ix1 i)) := by
  unfold selfOf
  rw [mulf_apply, cols_apply, col_apply, mulf_apply]

/-- The layer before normalisation at (i, q): neighbour sum + self loop + bias. -/
theorem preOf_apply (h : Vec Ideal S50000x128 .f32) (ei : Vec Ideal S2x800000 .i32) (b : Vec Ideal S128 .f32)
    (i : Fin 50000) (q : Fin 128) :
    preOf h ei b (ix2 i q)
      = aggOf h ei (ix2 i q) + h (ix2 i q) * (dis (F := Ideal) ei (ix1 i) * dis (F := Ideal) ei (ix1 i)) + b (ix1 q) := by
  unfold preOf
  rw [addf_apply, addf_apply, selfOf_apply, rows_apply]

/-- The first layer's product at (i, q): the sum over the 64 input features. -/
theorem hOf1_apply (x : Vec Ideal S50000x64 .f32) (W : Vec Ideal S64x128 .f32) (i : Fin 50000) (q : Fin 128) :
    hOf1 x W (ix2 i q) = ∑ k : Fin 64, x (ix2 i k) * W (ix2 k q) :=
  (Ideal.dotGeneral_apply dot_S50000x64_S64x128_S50000x128_1_0_0_1_n_n none .single x W (ix2 i q)).trans
    (PlainDot.sum_eq dot_S50000x64_S64x128_S50000x128_1_0_0_1_n_n rfl rfl rfl rfl rfl rfl x W i q)

/-- A later layer's product at (i, q): the sum over the 128 input features. -/
theorem hOf_apply (x : Vec Ideal S50000x128 .f32) (W : Vec Ideal S128x128 .f32) (i : Fin 50000) (q : Fin 128) :
    hOf x W (ix2 i q) = ∑ k : Fin 128, x (ix2 i k) * W (ix2 k q) :=
  (Ideal.dotGeneral_apply dot_S50000x128_S128x128_S50000x128_1_0_0_1_n_n none .single x W (ix2 i q)).trans
    (PlainDot.sum_eq dot_S50000x128_S128x128_S50000x128_1_0_0_1_n_n rfl rfl rfl rfl rfl rfl x W i q)

/-! ## The step from a real product on -/

/-- From a product H whose elements are real numbers: the described arrays give the specification's
    layer from H on, and its elements are real numbers. -/
theorem layerOut_step (H : Vec Ideal S50000x128 .f32) (ei : Vec Ideal S2x800000 .i32) (b g beta : Vec Ideal S128 .f32)
    (hHr : ∀ i, IsReal (H i)) (hb : ∀ i, IsReal (b i)) (hg : ∀ i, IsReal (g i)) (hbeta : ∀ i, IsReal (beta i))
    (agg : Vec Ideal S50000x128 .f32) (hagg : agg = aggOf H ei)
    (sn : Vec Ideal S50000x1 .f32)
    (hsn : ∀ i : Fin 50000, sn (ix2 i (0 : Fin 1)) = dis (F := Ideal) ei (ix1 i) * dis (F := Ideal) ei (ix1 i))
    (b2 : Vec Ideal S1x128 .f32) (hb2 : ∀ q : Fin 128, b2 (ix2 (0 : Fin 1) q) = b (ix1 q))
    (pre : Vec Ideal S50000x128 .f32)
    (hpre : ∀ (i : Fin 50000) (q : Fin 128),
      pre (ix2 i q) = agg (ix2 i q) + H (ix2 i q) * sn (ix2 i (0 : Fin 1)) + b2 (ix2 (0 : Fin 1) q))
    (s qq : Vec Ideal S1x128 .f32)
    (hs : ∀ q : Fin 128, s (ix2 (0 : Fin 1) q) = ∑ i : Fin 50000, pre (ix2 i q))
    (hq : ∀ q : Fin 128, qq (ix2 (0 : Fin 1) q) = ∑ i : Fin 50000, pre (ix2 i q) * pre (ix2 i q))
    (mean var : Vec Ideal S1x128 .f32)
    (hmean : ∀ q : Fin 128, mean (ix2 (0 : Fin 1) q) = Ideal.div (s (ix2 (0 : Fin 1) q)) ((50000 : ℝ) : EReal))
    (hvar : ∀ q : Fin 128, var (ix2 (0 : Fin 1) q)
      = Ideal.div (qq (ix2 (0 : Fin 1) q)) ((50000 : ℝ) : EReal) - mean (ix2 (0 : Fin 1) q) * mean (ix2 (0 : Fin 1) q))
    (g2 be2 : Vec Ideal S1x128 .f32) (hg2 : ∀ q : Fin 128, g2 (ix2 (0 : Fin 1) q) = g (ix1 q))
    (hbe2 : ∀ q : Fin 128, be2 (ix2 (0 : Fin 1) q) = beta (ix1 q))
    (xn : Vec Ideal S50000x128 .f32)
    (hxn : ∀ (i : Fin 50000) (q : Fin 128), xn (ix2 i q)
      = max ((pre (ix2 i q) - mean (ix2 (0 : Fin 1) q))
            * Ideal.rsqrt (var (ix2 (0 : Fin 1) q) + Ideal.ofBits .f32 0x3727C5AC#32)
            * g2 (ix2 (0 : Fin 1) q) + be2 (ix2 (0 : Fin 1) q)) 0) :
    xn = layerOut H ei b g beta ∧ ∀ i, IsReal (xn i) := by
  -- the layer before normalisation is the specification's
  have hpre' : pre = preOf H ei b := by
    funext i
    obtain ⟨r, q, rfl⟩ : ∃ (r : Fin 50000) (q : Fin 128), i = ix2 r q := ⟨i 0, i 1, eq_ix2 i⟩
    rw [hpre, preOf_apply, hagg, hsn, hb2]
  -- so its elements are real numbers
  have hp : ∀ i, IsReal (pre i) := by
    rw [hpre']; exact isReal_preOf H ei b hHr hb
  -- the one-pass mean is the specification's mean
  have hm : ∀ q : Fin 128, mean (ix2 (0 : Fin 1) q) = meanOf pre (ix1 q) := fun q => by
    rw [hmean, hs, meanOf_apply]
  -- the one-pass variance is the specification's centred variance
  have hv : ∀ q : Fin 128, var (ix2 (0 : Fin 1) q) = varOf pre (ix1 q) := fun q => by
    rw [hvar, hq, hmean, hs, varOf_apply, meanOf_apply]
    exact var_one_pass_eq_centred (n := 50000) (by norm_num) (c := 50000) (by norm_num)
      (fun r => pre (ix2 r q)) (fun r => hp _)
  -- the normalised, rectified output is the specification's
  have hxe : xn = layerOut H ei b g beta := by
    funext i
    obtain ⟨r, q, rfl⟩ : ∃ (r : Fin 50000) (q : Fin 128), i = ix2 r q := ⟨i 0, i 1, eq_ix2 i⟩
    show _ = normRelu (preOf H ei b) (meanOf (preOf H ei b)) (varOf (preOf H ei b)) g beta (ix2 r q)
    rw [← hpre', normRelu_apply, hxn, hm, hv, hg2, hbe2, ofBits_eps]
  exact ⟨hxe, fun i => by rw [hxe]; exact isReal_layerOut H ei b g beta hHr hb hg hbeta i⟩

/-! ## The layer step -/

/-- THE LAYER STEP (128 input features). Every hypothesis is entrywise and names no program: H is the
    product x·W; agg the neighbour sum of H; sn the self-loop factor as a column; b2, g2, be2 the bias,
    scale and shift as rows; pre the layer before normalisation; s and qq the column sums of pre and
    of its squares; mean and var the one-pass statistics; xn the normalised, rectified output. Then
    xn is the specification's layer, and every element of it is a real number. -/
theorem layer_step (x : Vec Ideal S50000x128 .f32) (ei : Vec Ideal S2x800000 .i32) (W : Vec Ideal S128x128 .f32)
    (b g beta : Vec Ideal S128 .f32)
    (hx : ∀ i, IsReal (x i)) (hW : ∀ i, IsReal (W i)) (hb : ∀ i, IsReal (b i)) (hg : ∀ i, IsReal (g i))
    (hbeta : ∀ i, IsReal (beta i))
    (H : Vec Ideal S50000x128 .f32)
    (hH : ∀ (i : Fin 50000) (q : Fin 128), H (ix2 i q) = ∑ k : Fin 128, x (ix2 i k) * W (ix2 k q))
    (agg : Vec Ideal S50000x128 .f32) (hagg : agg = aggOf H ei)
    (sn : Vec Ideal S50000x1 .f32)
    (hsn : ∀ i : Fin 50000, sn (ix2 i (0 : Fin 1)) = dis (F := Ideal) ei (ix1 i) * dis (F := Ideal) ei (ix1 i))
    (b2 : Vec Ideal S1x128 .f32) (hb2 : ∀ q : Fin 128, b2 (ix2 (0 : Fin 1) q) = b (ix1 q))
    (pre : Vec Ideal S50000x128 .f32)
    (hpre : ∀ (i : Fin 50000) (q : Fin 128),
      pre (ix2 i q) = agg (ix2 i q) + H (ix2 i q) * sn (ix2 i (0 : Fin 1)) + b2 (ix2 (0 : Fin 1) q))
    (s qq : Vec Ideal S1x128 .f32)
    (hs : ∀ q : Fin 128, s (ix2 (0 : Fin 1) q) = ∑ i : Fin 50000, pre (ix2 i q))
    (hq : ∀ q : Fin 128, qq (ix2 (0 : Fin 1) q) = ∑ i : Fin 50000, pre (ix2 i q) * pre (ix2 i q))
    (mean var : Vec Ideal S1x128 .f32)
    (hmean : ∀ q : Fin 128, mean (ix2 (0 : Fin 1) q) = Ideal.div (s (ix2 (0 : Fin 1) q)) ((50000 : ℝ) : EReal))
    (hvar : ∀ q : Fin 128, var (ix2 (0 : Fin 1) q)
      = Ideal.div (qq (ix2 (0 : Fin 1) q)) ((50000 : ℝ) : EReal) - mean (ix2 (0 : Fin 1) q) * mean (ix2 (0 : Fin 1) q))
    (g2 be2 : Vec Ideal S1x128 .f32) (hg2 : ∀ q : Fin 128, g2 (ix2 (0 : Fin 1) q) = g (ix1 q))
    (hbe2 : ∀ q : Fin 128, be2 (ix2 (0 : Fin 1) q) = beta (ix1 q))
    (xn : Vec Ideal S50000x128 .f32)
    (hxn : ∀ (i : Fin 50000) (q : Fin 128), xn (ix2 i q)
      = max ((pre (ix2 i q) - mean (ix2 (0 : Fin 1) q))
            * Ideal.rsqrt (var (ix2 (0 : Fin 1) q) + Ideal.ofBits .f32 0x3727C5AC#32)
            * g2 (ix2 (0 : Fin 1) q) + be2 (ix2 (0 : Fin 1) q)) 0) :
    xn = layer x ei W b g beta ∧ ∀ i, IsReal (xn i) := by
  have hHe : H = hOf x W := by
    funext i
    obtain ⟨r, q, rfl⟩ : ∃ (r : Fin 50000) (q : Fin 128), i = ix2 r q := ⟨i 0, i 1, eq_ix2 i⟩
    rw [hH, hOf_apply]
  have hHr : ∀ i, IsReal (H i) := by
    rw [hHe]; exact isReal_hOf x W hx hW
  subst hHe
  exact layerOut_step (hOf x W) ei b g beta hHr hb hg hbeta agg hagg sn hsn b2 hb2 pre hpre s qq hs hq mean var
    hmean hvar g2 be2 hg2 hbe2 xn hxn

/-- THE LAYER STEP for the first layer (64 input features): the same description, the product over
    the 64 input features. -/
theorem layer_step1 (x : Vec Ideal S50000x64 .f32) (ei : Vec Ideal S2x800000 .i32) (W : Vec Ideal S64x128 .f32)
    (b g beta : Vec Ideal S128 .f32)
    (hx : ∀ i, IsReal (x i)) (hW : ∀ i, IsReal (W i)) (hb : ∀ i, IsReal (b i)) (hg : ∀ i, IsReal (g i))
    (hbeta : ∀ i, IsReal (beta i))
    (H : Vec Ideal S50000x128 .f32)
    (hH : ∀ (i : Fin 50000) (q : Fin 128), H (ix2 i q) = ∑ k : Fin 64, x (ix2 i k) * W (ix2 k q))
    (agg : Vec Ideal S50000x128 .f32) (hagg : agg = aggOf H ei)
    (sn : Vec Ideal S50000x1 .f32)
    (hsn : ∀ i : Fin 50000, sn (ix2 i (0 : Fin 1)) = dis (F := Ideal) ei (ix1 i) * dis (F := Ideal) ei (ix1 i))
    (b2 : Vec Ideal S1x128 .f32) (hb2 : ∀ q : Fin 128, b2 (ix2 (0 : Fin 1) q) = b (ix1 q))
    (pre : Vec Ideal S50000x128 .f32)
    (hpre : ∀ (i : Fin 50000) (q : Fin 128),
      pre (ix2 i q) = agg (ix2 i q) + H (ix2 i q) * sn (ix2 i (0 : Fin 1)) + b2 (ix2 (0 : Fin 1) q))
    (s qq : Vec Ideal S1x128 .f32)
    (hs : ∀ q : Fin 128, s (ix2 (0 : Fin 1) q) = ∑ i : Fin 50000, pre (ix2 i q))
    (hq : ∀ q : Fin 128, qq (ix2 (0 : Fin 1) q) = ∑ i : Fin 50000, pre (ix2 i q) * pre (ix2 i q))
    (mean var : Vec Ideal S1x128 .f32)
    (hmean : ∀ q : Fin 128, mean (ix2 (0 : Fin 1) q) = Ideal.div (s (ix2 (0 : Fin 1) q)) ((50000 : ℝ) : EReal))
    (hvar : ∀ q : Fin 128, var (ix2 (0 : Fin 1) q)
      = Ideal.div (qq (ix2 (0 : Fin 1) q)) ((50000 : ℝ) : EReal) - mean (ix2 (0 : Fin 1) q) * mean (ix2 (0 : Fin 1) q))
    (g2 be2 : Vec Ideal S1x128 .f32) (hg2 : ∀ q : Fin 128, g2 (ix2 (0 : Fin 1) q) = g (ix1 q))
    (hbe2 : ∀ q : Fin 128, be2 (ix2 (0 : Fin 1) q) = beta (ix1 q))
    (xn : Vec Ideal S50000x128 .f32)
    (hxn : ∀ (i : Fin 50000) (q : Fin 128), xn (ix2 i q)
      = max ((pre (ix2 i q) - mean (ix2 (0 : Fin 1) q))
            * Ideal.rsqrt (var (ix2 (0 : Fin 1) q) + Ideal.ofBits .f32 0x3727C5AC#32)
            * g2 (ix2 (0 : Fin 1) q) + be2 (ix2 (0 : Fin 1) q)) 0) :
    xn = layer1 x ei W b g beta ∧ ∀ i, IsReal (xn i) := by
  have hHe : H = hOf1 x W := by
    funext i
    obtain ⟨r, q, rfl⟩ : ∃ (r : Fin 50000) (q : Fin 128), i = ix2 r q := ⟨i 0, i 1, eq_ix2 i⟩
    rw [hH, hOf1_apply]
  have hHr : ∀ i, IsReal (H i) := by
    rw [hHe]; exact isReal_hOf1 x W hx hW
  subst hHe
  exact layerOut_step (hOf1 x W) ei b g beta hHr hb hg hbeta agg hagg sn hsn b2 hb2 pre hpre s qq hs hq mean var
    hmean hvar g2 be2 hg2 hbe2 xn hxn

end Cert.Val

end
-- ==== Proof.KI.ValL1.lean ====
/-
  The first graph-convolution layer of the kernel program is the specification's.

  The product region's output is x·W₀ entry by entry; the host's aggregation of it is the specification's neighbour sum;
  the combine region adds the self-loop term and the bias and totals the columns; the host divides the totals by the
  number of rows; the normalisation region normalises by those means and variances and rectifies. With every input a
  real number, the one-pass variance equals the centred one, so the region's output is the specification's first layer,
  and every entry of it is again a real number.
-/
import proofs.«422700_j84035330113950_1_alg».proof.Proof.KI.ValSmall
import proofs.«422700_j84035330113950_1_alg».proof.Proof.KI.ValReg0
import proofs.«422700_j84035330113950_1_alg».proof.Proof.KI.ValReg2
import proofs.«422700_j84035330113950_1_alg».proof.Proof.KI.RunR0
import proofs.«422700_j84035330113950_1_alg».proof.Proof.KI.RunR1
import proofs.«422700_j84035330113950_1_alg».proof.Proof.KI.RunR2
import proofs.«422700_j84035330113950_1_alg».proof.Proof.Val.LayerStep

set_option maxRecDepth 4000

open scoped BigOperators

noncomputable section

namespace Cert.KernelIdeal.Val

open Idealize.ShloMosaic Idealize.ShloMosaic.TcCoe Idealize.ShloMosaic.ValueIdx
open Cert.Spec (IsReal)

variable (m : (ℓ : Loc nD τ sig) → Buf (Elt Ideal) ℓ) (c : Dev nD)

set_option maxHeartbeats 2000000 in
/-- Layer 1. `a0 … a8` name the argument arrays it reads; the aggregation's value (`hagg`) and the combine region's
    three outputs entry by entry (`hpre`, `hs`, `hq`) are taken as given. -/
theorem layer1_value
    (a0 : Vec Ideal S50000x64 .f32) (a1 : Vec Ideal S2x800000 .i32) (a3 : Vec Ideal S64x128 .f32) (a4 : Vec Ideal S128 .f32)
    (a7 a8 : Vec Ideal S3x128 .f32)
    (e0 : m (c, Proc.devRef .tc main_arg0) = a0) (e1 : m (c, Proc.devRef .tc main_arg1) = a1)
    (e3 : m (c, Proc.devRef .tc main_arg3) = a3) (e4 : m (c, Proc.devRef .tc main_arg4) = a4)
    (e7 : m (c, Proc.devRef .tc main_arg7) = a7) (e8 : m (c, Proc.devRef .tc main_arg8) = a8)
    (r0 : ∀ i, IsReal (a0 i)) (r3 : ∀ i, IsReal (a3 i)) (r4 : ∀ i, IsReal (a4 i)) (r7 : ∀ i, IsReal (a7 i))
    (r8 : ∀ i, IsReal (a8 i))
    (H agg pre xn : Vec Ideal S50000x128 .f32) (s qq : Vec Ideal S1x128 .f32)
    (eH : Run.outs m 2 main_v25 c = H) (eagg : Gen.V5 m (Run.outs m) c (Proc.devRef .tc main_v47) = agg)
    (epre : Run.outs m 6 main_v49_0 c = pre) (es : Run.outs m 6 main_v49_1 c = s) (eq : Run.outs m 6 main_v49_2 c = qq)
    (exn : Run.outs m 8 main_v62 c = xn)
    (hagg : agg = Cert.Val.aggOf H a1)
    (hpre : ∀ (i : Fin 50000) (q : Fin 128), pre (ix2 i q)
      = agg (ix2 i q) + H (ix2 i q) * selfnormK a1 (ix2 i (0 : Fin 1)) + row1 a4 (ix2 (0 : Fin 1) q))
    (hs : ∀ q : Fin 128, s (ix2 (0 : Fin 1) q) = ∑ i : Fin 50000, pre (ix2 i q))
    (hq : ∀ q : Fin 128, qq (ix2 (0 : Fin 1) q) = ∑ i : Fin 50000, pre (ix2 i q) * pre (ix2 i q)) :
    xn = Cert.Val.layer1 a0 a1 a3 a4 (Cert.Val.row3_0 a7) (Cert.Val.row3_0 a8) ∧ ∀ i, IsReal (xn i) := by
  refine Cert.Val.layer_step1 a0 a1 a3 a4 (Cert.Val.row3_0 a7) (Cert.Val.row3_0 a8) r0 r3 r4
    (Cert.Val.isReal_row3_0 a7 r7) (Cert.Val.isReal_row3_0 a8 r8)
    H ?hH agg hagg (selfnormK a1) (selfnormK_apply a1) (row1 a4) (row1_apply a4) pre hpre s qq hs hq
    (row1 (meanK s)) (row1 (varK s qq)) ?hmean ?hvar
    (row1 (Cert.Val.row3_0 a7)) (row1 (Cert.Val.row3_0 a8)) (row1_apply _) (row1_apply _) xn ?hxn
  case hH =>
    exact mm0_entry (fun c b => Gen.V1 m c b) c a0 a3 H
      ((down0_1 m c (r := main_arg0) (by decide)).trans e0) ((down0_1 m c (r := main_arg3) (by decide)).trans e3)
      ((Run.outs0_arr m c 2).symm.trans eH)
  case hmean => intro q; rw [row1_apply, meanK_apply]
  case hvar => intro q; rw [row1_apply, varK_apply, row1_apply]
  case hxn =>
    exact bn2_entry (fun c b => Gen.V7 m (Run.outs m) c b) c pre (row1 (meanK s)) (row1 (varK s qq))
      (row1 (Cert.Val.row3_0 a7)) (row1 (Cert.Val.row3_0 a8)) xn
      (((keep7 m (Run.outs m) c (r := main_v49_0) (by decide)).trans (at6_main_v49_0 m (Run.outs m) c)).trans epre)
      ((V7_mean m (Run.outs m) c).trans (by rw [es]))
      ((V7_var m (Run.outs m) c).trans (by rw [es, eq]))
      ((V7_gamma m (Run.outs m) c).trans (by rw [e7]))
      ((V7_beta m (Run.outs m) c).trans (by rw [e8]))
      ((Run.outs2_arr m c 5).symm.trans exn)

end Cert.KernelIdeal.Val

end
-- ==== Proof.KI.Val2.lean ====
/-
  The kernel program's small host stretches of the second layer, read as values.

  Before the second layer's matmul region the host cuts row 1 out of the stacked scales and out of the stacked shifts.
  Before its combine region it lays the hidden bias's row 0 — cut by the very first stretch — out as one row. After the
  combine region, from the two rows of column totals s and q the region leaves, it forms the column means s/n and the
  variances q/n − (s/n)², and lays them, the scale and the shift out as rows for the normalisation region. Each is the
  same composition of tensor operations as in the first layer, over the second layer's buffers; an operand defined
  earlier is read where it was defined, every item in between leaving it untouched.
-/
import proofs.«422700_j84035330113950_1_alg».proof.Proof.KI.Val1

set_option maxRecDepth 4000

noncomputable section

namespace Cert.KernelIdeal.Val

open Idealize.ShloMosaic Idealize.ShloMosaic.TcCoe
open Idealize.ShloMosaic.StableHlo

variable {F : FTy → Type} [FloatOps F]
variable (m : (ℓ : Loc nD τ sig) → Buf (Elt F) ℓ) (outs : Gen.Outs (F := F))

/-! ## The layer's scale and shift: row 1 of the stacked parameters -/

/-- The scale: the stretch slices row 1 out of argument 7 and drops the unit axis; the argument is as launched, nothing
    before this stretch writing it. -/
theorem V9_g1 (c : Dev nD) :
    Gen.V9 m outs c (Proc.devRef .tc main_v64) = Cert.Val.row3_1 (F := F) (m (c, Proc.devRef .tc main_arg7)) := by
  show StableHlo.after Gen.hostOps3 (Gen.V8 m outs c) (Proc.devRef .tc main_v64) = _
  after_results
  rw [down0_8 m outs c (r := main_arg7) (by decide)]
  rfl

/-- The shift: the same two operations on argument 8. -/
theorem V9_be1 (c : Dev nD) :
    Gen.V9 m outs c (Proc.devRef .tc main_v66) = Cert.Val.row3_1 (F := F) (m (c, Proc.devRef .tc main_arg8)) := by
  show StableHlo.after Gen.hostOps3 (Gen.V8 m outs c) (Proc.devRef .tc main_v66) = _
  after_results
  rw [down0_8 m outs c (r := main_arg8) (by decide)]
  rfl

/-! ## The bias row for the combine region -/

/-- The last operation of the stretch before the combine region reshapes the hidden bias's row 0 to one row. None of the
    three stretches that precede the combine region writes that vector, so it is read below them, after the matmul
    region (item 9); it was cut by the first stretch (`V1_bh0`) and no item up to there has written it. -/
theorem V13_bias (c : Dev nD) :
    Gen.V13 m outs c (Proc.devRef .tc main_v90)
      = row1 (Cert.Val.row2_0 (F := F) (m (c, Proc.devRef .tc main_arg6))) := by
  show StableHlo.after Gen.hostOps4_2 (Gen.V12 m outs c) (Proc.devRef .tc main_v90) = _
  after_results
  rw [down1_10 m outs c (r := main_v18) (by decide), V1_bh0]
  rfl

/-! ## The rows for the normalisation region -/

/-- The means: the row of totals the combine region left, as a vector, divided by the row count, as a row again. -/
theorem V15_mean (c : Dev nD) :
    Gen.V15 m outs c (Proc.devRef .tc main_v100) = row1 (meanK (F := F) (outs 14 main_v91_1 c)) := by
  show StableHlo.after Gen.hostOps5 (Gen.V14 m outs c) (Proc.devRef .tc main_v100) = _
  after_results
  rw [at14_main_v91_1]
  rfl

/-- The variances: the totals of squares over the row count, less the squared mean. -/
theorem V15_var (c : Dev nD) :
    Gen.V15 m outs c (Proc.devRef .tc main_v101)
      = row1 (varK (F := F) (outs 14 main_v91_1 c) (outs 14 main_v91_2 c)) := by
  show StableHlo.after Gen.hostOps5 (Gen.V14 m outs c) (Proc.devRef .tc main_v101) = _
  after_results
  rw [at14_main_v91_1, at14_main_v91_2]
  rfl

/-- The scale as a row. The stretch reshapes the vector of `V9_g1`; the matmul region, the three stretches before the
    combine region and the combine region itself (items 9 to 13) each leave that vector's buffer as it was. -/
theorem V15_gamma (c : Dev nD) :
    Gen.V15 m outs c (Proc.devRef .tc main_v102)
      = row1 (Cert.Val.row3_1 (F := F) (m (c, Proc.devRef .tc main_arg7))) := by
  show StableHlo.after Gen.hostOps5 (Gen.V14 m outs c) (Proc.devRef .tc main_v102) = _
  after_results
  rw [keep14 m outs c (r := main_v64) (by decide) (by decide) (by decide),
    keep13 m outs c (r := main_v64) (by decide), keep12 m outs c (r := main_v64) (by decide),
    keep11 m outs c (r := main_v64) (by decide), keep10 m outs c (r := main_v64) (by decide), V9_g1]
  rfl

/-- The shift as a row: the same road from `V9_be1`. -/
theorem V15_beta (c : Dev nD) :
    Gen.V15 m outs c (Proc.devRef .tc main_v103)
      = row1 (Cert.Val.row3_1 (F := F) (m (c, Proc.devRef .tc main_arg8))) := by
  show StableHlo.after Gen.hostOps5 (Gen.V14 m outs c) (Proc.devRef .tc main_v103) = _
  after_results
  rw [keep14 m outs c (r := main_v66) (by decide) (by decide) (by decide),
    keep13 m outs c (r := main_v66) (by decide), keep12 m outs c (r := main_v66) (by decide),
    keep11 m outs c (r := main_v66) (by decide), keep10 m outs c (r := main_v66) (by decide), V9_be1]
  rfl

end Cert.KernelIdeal.Val

end
-- ==== Proof.KI.Arr3.lean ====
import proofs.«422700_j84035330113950_1_alg».proof.Proof.KI.R3
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-! # Region 3, from blocks to the array

Point `t` of the ten writes back rows `5000 t … 5000 t + 4999` of the `[50000,128]` product and reads the same rows of the
`[50000,128]` left factor; the `[128,128]` right factor's window is its whole array at every point. Distinct points write
disjoint row blocks, so an entry of the array after the run is the entry of what the one point that owns its row wrote back. -/

/-- The printed index maps over the grid: at point `t` the left factor's window and the output window are at block
    `(t, 0)`, the right factor's window at block `(0, 0)`. -/
theorem index3 : ∀ t : Fin cfg3.N,
    win3_0.index t (0 : Fin 2) = t.val ∧ win3_0.index t (1 : Fin 2) = 0
    ∧ win3_2.index t (0 : Fin 2) = t.val ∧ win3_2.index t (1 : Fin 2) = 0
    ∧ win3_1.index t (0 : Fin 2) = 0 ∧ win3_1.index t (1 : Fin 2) = 0 :=
  (by decide +kernel : ∀ t : Fin grid3.N, _)

/-- Distinct points write back distinct blocks of the output. -/
theorem index_inj3 : ∀ t t' : Fin cfg3.N, win3_2.index t = win3_2.index t' → t = t' :=
  (by decide +kernel : ∀ t t' : Fin grid3.N, win3_2.index t = win3_2.index t' → t = t')

/-- So two points' output blocks share no index of the array. -/
theorem disjoint3 : ∀ t t' : Fin cfg3.N, (cfg3.win 2).flush t = true → (cfg3.win 2).flush t' = true → t ≠ t' →
    Disjoint ((cfg3.win 2).blk t).view.set ((cfg3.win 2).blk t').view.set :=
  fun t t' _ _ hne => (cfg3.win 2).disjoint_blk fun h => hne (index_inj3 t t' h)

/-- The grid has ten points. -/
theorem N3_eq : cfg3.N = 10 := N_3

/-- Point `t` of the ten, as a point of the grid. -/
abbrev pt3 (t : Fin 10) : Fin cfg3.N := ⟨t.val, by rw [N3_eq]; exact t.isLt⟩

/-- Entry `(p, q)` of the output block at point `t` sits in the array at row `5000 t + p`, column `q`. -/
theorem blk_emb3_2 (t : Fin cfg3.N) (p : Fin 5000) (q : Fin 128) (h : 5000 * t.val + p.val < 50000) :
    ((cfg3.win 2).blk t).view.emb (ix2 p q : S5000x128.Idx) = (ix2 (⟨5000 * t.val + p.val, h⟩ : Fin 50000) q : S50000x128.Idx) := by
  obtain ⟨-, -, e0, e1, -⟩ := index3 t
  funext a; apply Fin.ext
  match a with
  | ⟨0, _⟩ => show win3_2.index t (0 : Fin 2) * 5000 + 1 * p.val = 5000 * t.val + p.val; rw [e0]; omega
  | ⟨1, _⟩ => show win3_2.index t (1 : Fin 2) * 128 + 1 * q.val = q.val; rw [e1]; omega

/-- THE ARRAY'S ENTRY after the run, at a point of the grid: row `5000 t + p`, column `q` of the output array holds entry
    `(p, q)` of what the body left in the output buffer at point `t`. -/
theorem arr_entry3_at (c : Dev nD) (t : Fin cfg3.N) (p : Fin 5000) (q : Fin 128) (h : 5000 * t.val + p.val < 50000) :
    (dat3 V c).arrAt 2 cfg3.N (ix2 (⟨5000 * t.val + p.val, h⟩ : Fin 50000) q : S50000x128.Idx)
      = out3_2 (iblk3 V c 0 t) (iblk3 V c 1 t) (ix2 p q) := by
  have hf := (dat3 V c).arrAt_emb_eq_flushed 2 disjoint3 t (flush3_2 t) (ix2 p q : S5000x128.Idx)
  rw [blk_emb3_2 t p q h] at hf
  refine hf.trans ?_
  show (cfg3.win 2).cut (grid3.coords t) ((dat3 V c).after 2 t) (ix2 p q : S5000x128.Idx) = _
  rw [after3_2]
  rfl

/-- The same over the ten points by number. -/
theorem arr_entry3 (c : Dev nD) (t : Fin 10) (p : Fin 5000) (q : Fin 128) :
    (dat3 V c).arrAt 2 cfg3.N (ix2 (⟨5000 * t.val + p.val, by have := t.isLt; have := p.isLt; omega⟩ : Fin 50000) q : S50000x128.Idx)
      = out3_2 (iblk3 V c 0 (pt3 t)) (iblk3 V c 1 (pt3 t)) (ix2 p q) :=
  arr_entry3_at V c (pt3 t) p q _

/-! ## The input blocks as entries of their arrays -/

/-- Entry `(p, k)` of the left factor's block at point `t` is row `5000 t + p`, column `k` of its array as the region finds it. -/
theorem iblk3_0_apply (c : Dev nD) (t : Fin cfg3.N) (p : Fin 5000) (k : Fin 128) (h : 5000 * t.val + p.val < 50000) :
    (iblk3 V c 0 t : Vec F S5000x128 .f32) (ix2 p k)
      = (V c (Pipeline.arrRef spec3 0) : S50000x128.Idx → Elt F .f32) (ix2 (⟨5000 * t.val + p.val, h⟩ : Fin 50000) k) := by
  obtain ⟨e0, e1, -⟩ := index3 t
  unfold iblk3
  rw [View.read_apply]
  show (V c (Pipeline.arrRef spec3 0) : S50000x128.Idx → Elt F .f32) _ = _
  congr 1
  funext a; apply Fin.ext
  match a with
  | ⟨0, _⟩ => show win3_0.index t (0 : Fin 2) * 5000 + 1 * p.val = 5000 * t.val + p.val; rw [e0]; omega
  | ⟨1, _⟩ => show win3_0.index t (1 : Fin 2) * 128 + 1 * k.val = k.val; rw [e1]; omega

/-- The right factor's block is its whole `[128,128]` array at every point. -/
theorem iblk3_1_eq (c : Dev nD) (t : Fin cfg3.N) :
    (iblk3 V c 1 t : Vec F S128x128 .f32) = (V c (Pipeline.arrRef spec3 1) : S128x128.Idx → Elt F .f32) := by
  obtain ⟨-, -, -, -, e0, e1⟩ := index3 t
  funext j
  unfold iblk3
  rw [View.read_apply]
  show (V c (Pipeline.arrRef spec3 1) : S128x128.Idx → Elt F .f32) _ = _
  congr 1
  funext a; apply Fin.ext
  match a with
  | ⟨0, _⟩ => show win3_1.index t (0 : Fin 2) * 128 + 1 * (j 0).val = (j 0).val; rw [e0]; omega
  | ⟨1, _⟩ => show win3_1.index t (1 : Fin 2) * 128 + 1 * (j 1).val = (j 1).val; rw [e1]; omega

end Cert.KernelIdeal.Reg

end
-- ==== Proof.KI.Arr6.lean ====
import proofs.«422700_j84035330113950_1_alg».proof.Proof.KI.R6
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-! # Region 6, from blocks to the array

Point `t` of the ten writes back rows `5000 t … 5000 t + 4999` of the `[50000,128]` product and reads the same rows of the
`[50000,128]` left factor; the `[128,128]` right factor's window is its whole array at every point. Distinct points write
disjoint row blocks, so an entry of the array after the run is the entry of what the one point that owns its row wrote back. -/

/-- The printed index maps over the grid: at point `t` the left factor's window and the output window are at block
    `(t, 0)`, the right factor's window at block `(0, 0)`. -/
theorem index6 : ∀ t : Fin cfg6.N,
    win6_0.index t (0 : Fin 2) = t.val ∧ win6_0.index t (1 : Fin 2) = 0
    ∧ win6_2.index t (0 : Fin 2) = t.val ∧ win6_2.index t (1 : Fin 2) = 0
    ∧ win6_1.index t (0 : Fin 2) = 0 ∧ win6_1.index t (1 : Fin 2) = 0 :=
  (by decide +kernel : ∀ t : Fin grid6.N, _)

/-- Distinct points write back distinct blocks of the output. -/
theorem index_inj6 : ∀ t t' : Fin cfg6.N, win6_2.index t = win6_2.index t' → t = t' :=
  (by decide +kernel : ∀ t t' : Fin grid6.N, win6_2.index t = win6_2.index t' → t = t')

/-- So two points' output blocks share no index of the array. -/
theorem disjoint6 : ∀ t t' : Fin cfg6.N, (cfg6.win 2).flush t = true → (cfg6.win 2).flush t' = true → t ≠ t' →
    Disjoint ((cfg6.win 2).blk t).view.set ((cfg6.win 2).blk t').view.set :=
  fun t t' _ _ hne => (cfg6.win 2).disjoint_blk fun h => hne (index_inj6 t t' h)

/-- The grid has ten points. -/
theorem N6_eq : cfg6.N = 10 := N_6

/-- Point `t` of the ten, as a point of the grid. -/
abbrev pt6 (t : Fin 10) : Fin cfg6.N := ⟨t.val, by rw [N6_eq]; exact t.isLt⟩

/-- Entry `(p, q)` of the output block at point `t` sits in the array at row `5000 t + p`, column `q`. -/
theorem blk_emb6_2 (t : Fin cfg6.N) (p : Fin 5000) (q : Fin 128) (h : 5000 * t.val + p.val < 50000) :
    ((cfg6.win 2).blk t).view.emb (ix2 p q : S5000x128.Idx) = (ix2 (⟨5000 * t.val + p.val, h⟩ : Fin 50000) q : S50000x128.Idx) := by
  obtain ⟨-, -, e0, e1, -⟩ := index6 t
  funext a; apply Fin.ext
  match a with
  | ⟨0, _⟩ => show win6_2.index t (0 : Fin 2) * 5000 + 1 * p.val = 5000 * t.val + p.val; rw [e0]; omega
  | ⟨1, _⟩ => show win6_2.index t (1 : Fin 2) * 128 + 1 * q.val = q.val; rw [e1]; omega

/-- THE ARRAY'S ENTRY after the run, at a point of the grid: row `5000 t + p`, column `q` of the output array holds entry
    `(p, q)` of what the body left in the output buffer at point `t`. -/
theorem arr_entry6_at (c : Dev nD) (t : Fin cfg6.N) (p : Fin 5000) (q : Fin 128) (h : 5000 * t.val + p.val < 50000) :
    (dat6 V c).arrAt 2 cfg6.N (ix2 (⟨5000 * t.val + p.val, h⟩ : Fin 50000) q : S50000x128.Idx)
      = out6_2 (iblk6 V c 0 t) (iblk6 V c 1 t) (ix2 p q) := by
  have hf := (dat6 V c).arrAt_emb_eq_flushed 2 disjoint6 t (flush6_2 t) (ix2 p q : S5000x128.Idx)
  rw [blk_emb6_2 t p q h] at hf
  refine hf.trans ?_
  show (cfg6.win 2).cut (grid6.coords t) ((dat6 V c).after 2 t) (ix2 p q : S5000x128.Idx) = _
  rw [after6_2]
  rfl

/-- The same over the ten points by number. -/
theorem arr_entry6 (c : Dev nD) (t : Fin 10) (p : Fin 5000) (q : Fin 128) :
    (dat6 V c).arrAt 2 cfg6.N (ix2 (⟨5000 * t.val + p.val, by have := t.isLt; have := p.isLt; omega⟩ : Fin 50000) q : S50000x128.Idx)
      = out6_2 (iblk6 V c 0 (pt6 t)) (iblk6 V c 1 (pt6 t)) (ix2 p q) :=
  arr_entry6_at V c (pt6 t) p q _

/-! ## The input blocks as entries of their arrays -/

/-- Entry `(p, k)` of the left factor's block at point `t` is row `5000 t + p`, column `k` of its array as the region finds it. -/
theorem iblk6_0_apply (c : Dev nD) (t : Fin cfg6.N) (p : Fin 5000) (k : Fin 128) (h : 5000 * t.val + p.val < 50000) :
    (iblk6 V c 0 t : Vec F S5000x128 .f32) (ix2 p k)
      = (V c (Pipeline.arrRef spec6 0) : S50000x128.Idx → Elt F .f32) (ix2 (⟨5000 * t.val + p.val, h⟩ : Fin 50000) k) := by
  obtain ⟨e0, e1, -⟩ := index6 t
  unfold iblk6
  rw [View.read_apply]
  show (V c (Pipeline.arrRef spec6 0) : S50000x128.Idx → Elt F .f32) _ = _
  congr 1
  funext a; apply Fin.ext
  match a with
  | ⟨0, _⟩ => show win6_0.index t (0 : Fin 2) * 5000 + 1 * p.val = 5000 * t.val + p.val; rw [e0]; omega
  | ⟨1, _⟩ => show win6_0.index t (1 : Fin 2) * 128 + 1 * k.val = k.val; rw [e1]; omega

/-- The right factor's block is its whole `[128,128]` array at every point. -/
theorem iblk6_1_eq (c : Dev nD) (t : Fin cfg6.N) :
    (iblk6 V c 1 t : Vec F S128x128 .f32) = (V c (Pipeline.arrRef spec6 1) : S128x128.Idx → Elt F .f32) := by
  obtain ⟨-, -, -, -, e0, e1⟩ := index6 t
  funext j
  unfold iblk6
  rw [View.read_apply]
  show (V c (Pipeline.arrRef spec6 1) : S128x128.Idx → Elt F .f32) _ = _
  congr 1
  funext a; apply Fin.ext
  match a with
  | ⟨0, _⟩ => show win6_1.index t (0 : Fin 2) * 128 + 1 * (j 0).val = (j 0).val; rw [e0]; omega
  | ⟨1, _⟩ => show win6_1.index t (1 : Fin 2) * 128 + 1 * (j 1).val = (j 1).val; rw [e1]; omega

end Cert.KernelIdeal.Reg

end
-- ==== Proof.KI.ValReg3.lean ====
/-
  The second and third matrix-product regions' output arrays, read at an entry.

  As for the first: ten points, point t writing rows 5000 t … 5000 t + 4999 from the same rows of the left factor and
  the whole right factor; here with 128 contraction positions. Entry (i, q) of the output is the sum over k of the
  left factor at (i, k) times the right factor at (k, q).
-/
import proofs.«422700_j84035330113950_1_alg».proof.Proof.KI.ValReg0
import proofs.«422700_j84035330113950_1_alg».proof.Proof.KI.Arr3
import proofs.«422700_j84035330113950_1_alg».proof.Proof.KI.Arr6

open scoped BigOperators

noncomputable section

namespace Cert.KernelIdeal.Val

open Idealize.ShloMosaic Idealize.ShloMosaic.TcCoe Idealize.ShloMosaic.ValueIdx
open Cert.KernelIdeal.Gen Cert.KernelIdeal.Reg

variable (V : (c : Dev nD) → (b : Ref sig .tc) → Buf (Elt Ideal) ((c : Thread nD τ).loc b))

/-- Entry (i, q) of the product of region 3: `x`, `W` the whole arrays the region finds, `out` the array it leaves. -/
theorem mm3_entry (c : Dev nD) (x : Vec Ideal S50000x128 .f32) (W : Vec Ideal S128x128 .f32) (out : Vec Ideal S50000x128 .f32)
    (hx : (V c (Pipeline.arrRef spec3 0) : S50000x128.Idx → Elt Ideal .f32) = x)
    (hW : (V c (Pipeline.arrRef spec3 1) : S128x128.Idx → Elt Ideal .f32) = W)
    (hout : ((dat3 V c).arrAt 2 cfg3.N : S50000x128.Idx → Elt Ideal .f32) = out) (i : Fin 50000) (q : Fin 128) :
    out (ix2 i q) = ∑ k : Fin 128, x (ix2 i k) * W (ix2 k q) := by
  obtain ⟨t, p, rfl⟩ : ∃ t p, i = Cert.KernelIdeal.Fin.rowOf t p := ⟨_, _, (Cert.KernelIdeal.Fin.rowOf_div_mod i).symm⟩
  have h1 := arr_entry3 V c t p q
  rw [Cert.KernelIdeal.Fin.out3_2_eq, Cert.KernelIdeal.Fin.k3_pay1_apply, iblk3_1_eq, hW] at h1
  exact (congrFun hout _).symm.trans (h1.trans
    (sum_left_congr (fun k => W (ix2 k q)) fun k => (iblk3_0_apply V c (pt3 t) p k _).trans (congrFun hx _)))

/-- Entry (i, q) of the product of region 6: `x`, `W` the whole arrays the region finds, `out` the array it leaves. -/
theorem mm6_entry (c : Dev nD) (x : Vec Ideal S50000x128 .f32) (W : Vec Ideal S128x128 .f32) (out : Vec Ideal S50000x128 .f32)
    (hx : (V c (Pipeline.arrRef spec6 0) : S50000x128.Idx → Elt Ideal .f32) = x)
    (hW : (V c (Pipeline.arrRef spec6 1) : S128x128.Idx → Elt Ideal .f32) = W)
    (hout : ((dat6 V c).arrAt 2 cfg6.N : S50000x128.Idx → Elt Ideal .f32) = out) (i : Fin 50000) (q : Fin 128) :
    out (ix2 i q) = ∑ k : Fin 128, x (ix2 i k) * W (ix2 k q) := by
  obtain ⟨t, p, rfl⟩ : ∃ t p, i = Cert.KernelIdeal.Fin.rowOf t p := ⟨_, _, (Cert.KernelIdeal.Fin.rowOf_div_mod i).symm⟩
  have h1 := arr_entry6 V c t p q
  rw [Cert.KernelIdeal.Fin.out6_2_eq, Cert.KernelIdeal.Fin.k6_pay1_apply, iblk6_1_eq, hW] at h1
  exact (congrFun hout _).symm.trans (h1.trans
    (sum_left_congr (fun k => W (ix2 k q)) fun k => (iblk6_0_apply V c (pt6 t) p k _).trans (congrFun hx _)))

end Cert.KernelIdeal.Val

end
-- ==== Proof.KI.Arr5.lean ====
import proofs.«422700_j84035330113950_1_alg».proof.Proof.KI.R5
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-! # Region 5, from blocks to the array

Point `t` of the ten writes back rows `5000 t … 5000 t + 4999` of the output array and reads the same rows of the data
array; the four `[1,128]` row windows are their whole arrays at every point. Distinct points write disjoint row blocks,
so an entry of the array after the run is the entry of what the one point that owns its row wrote back. -/

/-- The printed index maps over the grid: at point `t` the data window and the output window are at block `(t, 0)`, the
    four row windows at block `(0, 0)`. -/
theorem index5 : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Distinct points write back distinct blocks of the output. -/
theorem index_inj5 : ∀ t t' : Fin cfg5.N, win5_5.index t = win5_5.index t' → t = t' :=
  (by decide +kernel : ∀ t t' : Fin grid5.N, win5_5.index t = win5_5.index t' → t = t')

/-- So two points' output blocks share no index of the array. -/
theorem disjoint5 : ∀ t t' : Fin cfg5.N, (cfg5.win 5).flush t = true → (cfg5.win 5).flush t' = true → t ≠ t' →
    Disjoint ((cfg5.win 5).blk t).view.set ((cfg5.win 5).blk t').view.set :=
  fun t t' _ _ hne => (cfg5.win 5).disjoint_blk fun h => hne (index_inj5 t t' h)

/-- The grid has ten points. -/
theorem N5_eq : cfg5.N = 10 := N_5

/-- Point `t` of the ten, as a point of the grid. -/
abbrev pt5 (t : Fin 10) : Fin cfg5.N := ⟨t.val, by rw [N5_eq]; exact t.isLt⟩

/-- Entry `(p, q)` of the output block at point `t` sits in the array at row `5000 t + p`, column `q`. -/
theorem blk_emb5_5 (t : Fin cfg5.N) (p : Fin 5000) (q : Fin 128) (h : 5000 * t.val + p.val < 50000) :
    ((cfg5.win 5).blk t).view.emb (ix2 p q : S5000x128.Idx) = (ix2 (⟨5000 * t.val + p.val, h⟩ : Fin 50000) q : S50000x128.Idx) := by
  obtain ⟨-, -, e0, e1, -⟩ := index5 t
  funext a; apply Fin.ext
  match a with
  | ⟨0, _⟩ => show win5_5.index t (0 : Fin 2) * 5000 + 1 * p.val = 5000 * t.val + p.val; rw [e0]; omega
  | ⟨1, _⟩ => show win5_5.index t (1 : Fin 2) * 128 + 1 * q.val = q.val; rw [e1]; omega

/-- THE ARRAY'S ENTRY after the run, at a point of the grid: row `5000 t + p`, column `q` of the output array holds entry
    `(p, q)` of what the body left in the output buffer at point `t`. -/
theorem arr_entry5_at (c : Dev nD) (t : Fin cfg5.N) (p : Fin 5000) (q : Fin 128) (h : 5000 * t.val + p.val < 50000) :
    (dat5 V c).arrAt 5 cfg5.N (ix2 (⟨5000 * t.val + p.val, h⟩ : Fin 50000) q : S50000x128.Idx)
      = out5_5 (iblk5 V c 0 t) (iblk5 V c 1 t) (iblk5 V c 2 t) (iblk5 V c 3 t) (iblk5 V c 4 t) (ix2 p q) := by
  have hf := (dat5 V c).arrAt_emb_eq_flushed 5 disjoint5 t (flush5_5 t) (ix2 p q : S5000x128.Idx)
  rw [blk_emb5_5 t p q h] at hf
  refine hf.trans ?_
  show (cfg5.win 5).cut (grid5.coords t) ((dat5 V c).after 5 t) (ix2 p q : S5000x128.Idx) = _
  rw [after5_5]
  rfl

/-- The same over the ten points by number. -/
theorem arr_entry5 (c : Dev nD) (t : Fin 10) (p : Fin 5000) (q : Fin 128) :
    (dat5 V c).arrAt 5 cfg5.N (ix2 (⟨5000 * t.val + p.val, by have := t.isLt; have := p.isLt; omega⟩ : Fin 50000) q : S50000x128.Idx)
      = out5_5 (iblk5 V c 0 (pt5 t)) (iblk5 V c 1 (pt5 t)) (iblk5 V c 2 (pt5 t)) (iblk5 V c 3 (pt5 t)) (iblk5 V c 4 (pt5 t)) (ix2 p q) :=
  arr_entry5_at V c (pt5 t) p q _

/-! ## The input blocks as entries of their arrays -/

/-- Entry `(p, k)` of the data block at point `t` is row `5000 t + p`, column `k` of the data array as the region finds it. -/
theorem iblk5_0_apply (c : Dev nD) (t : Fin cfg5.N) (p : Fin 5000) (k : Fin 128) (h : 5000 * t.val + p.val < 50000) :
    (iblk5 V c 0 t : Vec F S5000x128 .f32) (ix2 p k)
      = (V c (Pipeline.arrRef spec5 0) : S50000x128.Idx → Elt F .f32) (ix2 (⟨5000 * t.val + p.val, h⟩ : Fin 50000) k) := by
  obtain ⟨e0, e1, -⟩ := index5 t
  unfold iblk5
  rw [View.read_apply]
  show (V c (Pipeline.arrRef spec5 0) : S50000x128.Idx → Elt F .f32) _ = _
  congr 1
  funext a; apply Fin.ext
  match a with
  | ⟨0, _⟩ => show win5_0.index t (0 : Fin 2) * 5000 + 1 * p.val = 5000 * t.val + p.val; rw [e0]; omega
  | ⟨1, _⟩ => show win5_0.index t (1 : Fin 2) * 128 + 1 * k.val = k.val; rw [e1]; omega

/-- Window 1's block is its whole `[1,128]` array at every point. -/
theorem iblk5_1_eq (c : Dev nD) (t : Fin cfg5.N) :
    (iblk5 V c 1 t : Vec F S1x128 .f32) = (V c (Pipeline.arrRef spec5 1) : S1x128.Idx → Elt F .f32) := by
  obtain ⟨-, -, -, -, e0, e1, -, -, -, -, -, -⟩ := index5 t
  funext j
  unfold iblk5
  rw [View.read_apply]
  show (V c (Pipeline.arrRef spec5 1) : S1x128.Idx → Elt F .f32) _ = _
  congr 1
  funext a; apply Fin.ext
  match a with
  | ⟨0, _⟩ => show win5_1.index t (0 : Fin 2) * 1 + 1 * (j 0).val = (j 0).val; rw [e0]; omega
  | ⟨1, _⟩ => show win5_1.index t (1 : Fin 2) * 128 + 1 * (j 1).val = (j 1).val; rw [e1]; omega

/-- Window 2's block is its whole `[1,128]` array at every point. -/
theorem iblk5_2_eq (c : Dev nD) (t : Fin cfg5.N) :
    (iblk5 V c 2 t : Vec F S1x128 .f32) = (V c (Pipeline.arrRef spec5 2) : S1x128.Idx → Elt F .f32) := by
  obtain ⟨-, -, -, -, -, -, e0, e1, -, -, -, -⟩ := index5 t
  funext j
  unfold iblk5
  rw [View.read_apply]
  show (V c (Pipeline.arrRef spec5 2) : S1x128.Idx → Elt F .f32) _ = _
  congr 1
  funext a; apply Fin.ext
  match a with
  | ⟨0, _⟩ => show win5_2.index t (0 : Fin 2) * 1 + 1 * (j 0).val = (j 0).val; rw [e0]; omega
  | ⟨1, _⟩ => show win5_2.index t (1 : Fin 2) * 128 + 1 * (j 1).val = (j 1).val; rw [e1]; omega

/-- Window 3's block is its whole `[1,128]` array at every point. -/
theorem iblk5_3_eq (c : Dev nD) (t : Fin cfg5.N) :
    (iblk5 V c 3 t : Vec F S1x128 .f32) = (V c (Pipeline.arrRef spec5 3) : S1x128.Idx → Elt F .f32) := by
  obtain ⟨-, -, -, -, -, -, -, -, e0, e1, -, -⟩ := index5 t
  funext j
  unfold iblk5
  rw [View.read_apply]
  show (V c (Pipeline.arrRef spec5 3) : S1x128.Idx → Elt F .f32) _ = _
  congr 1
  funext a; apply Fin.ext
  match a with
  | ⟨0, _⟩ => show win5_3.index t (0 : Fin 2) * 1 + 1 * (j 0).val = (j 0).val; rw [e0]; omega
  | ⟨1, _⟩ => show win5_3.index t (1 : Fin 2) * 128 + 1 * (j 1).val = (j 1).val; rw [e1]; omega

/-- Window 4's block is its whole `[1,128]` array at every point. -/
theorem iblk5_4_eq (c : Dev nD) (t : Fin cfg5.N) :
    (iblk5 V c 4 t : Vec F S1x128 .f32) = (V c (Pipeline.arrRef spec5 4) : S1x128.Idx → Elt F .f32) := by
  obtain ⟨-, -, -, -, -, -, -, -, -, -, e0, e1⟩ := index5 t
  funext j
  unfold iblk5
  rw [View.read_apply]
  show (V c (Pipeline.arrRef spec5 4) : S1x128.Idx → Elt F .f32) _ = _
  congr 1
  funext a; apply Fin.ext
  match a with
  | ⟨0, _⟩ => show win5_4.index t (0 : Fin 2) * 1 + 1 * (j 0).val = (j 0).val; rw [e0]; omega
  | ⟨1, _⟩ => show win5_4.index t (1 : Fin 2) * 128 + 1 * (j 1).val = (j 1).val; rw [e1]; omega

end Cert.KernelIdeal.Reg

end
-- ==== Proof.KI.ValReg5.lean ====
/-
  The normalisation region's output array, entry by entry.

  After the region has run over its ten row blocks, row i and column q of its output array hold
      max (((x(i,q) - mean(q)) * rsqrt (var(q) + eps)) * scale(q) + shift(q)) 0,
  where x, mean, var, scale, shift are the region's five input arrays as it finds them (windows 0 to 4: the
  mean is window 1, the variance window 2). Row i lies in block i / 5000 at position i % 5000; the point that
  owns that block wrote the entry, from its data block and the four rows, each its whole array at every point.

  The arrays are named by typed variables tied to the region's buffers by equations, so that the arithmetic is
  stated over the extended reals.
-/
import proofs.«422700_j84035330113950_1_alg».proof.Proof.KI.Arr5
import proofs.«422700_j84035330113950_1_alg».proof.Proof.KI.Out2
import proofs.«422700_j84035330113950_1_alg».proof.Proof.KI.Final2
import proofs.«422700_j84035330113950_1_alg».proof.Proof.KI.BlockTotals

set_option maxRecDepth 16384

noncomputable section

namespace Cert.KernelIdeal.Val

open Cert.KernelIdeal Cert.KernelIdeal.Gen Cert.KernelIdeal.Reg
open Idealize.ShloMosaic Idealize.ShloMosaic.TcCoe
open Idealize.SL Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

set_option maxHeartbeats 1000000 in
/-- THE OUTPUT ARRAY'S ENTRY at row i, column q: x, mean, var, g, be are the five input arrays at the region's
    entry (windows 0 to 4), out the output array after the run. -/
theorem bn5_entry (c : Dev nD) (x : Vec Ideal S50000x128 .f32) (mean var g be : Vec Ideal S1x128 .f32)
    (out : Vec Ideal S50000x128 .f32)
    (hx : (V c (Pipeline.arrRef spec5 0) : S50000x128.Idx → Elt Ideal .f32) = x)
    (hmean : (V c (Pipeline.arrRef spec5 1) : S1x128.Idx → Elt Ideal .f32) = mean)
    (hvar : (V c (Pipeline.arrRef spec5 2) : S1x128.Idx → Elt Ideal .f32) = var)
    (hg : (V c (Pipeline.arrRef spec5 3) : S1x128.Idx → Elt Ideal .f32) = g)
    (hbe : (V c (Pipeline.arrRef spec5 4) : S1x128.Idx → Elt Ideal .f32) = be)
    (hout : ((dat5 V c).arrAt 5 cfg5.N : S50000x128.Idx → Elt Ideal .f32) = out)
    (i : _root_.Fin 50000) (q : _root_.Fin 128) :
    out (ix2 i q)
      = max ((x (ix2 i q) - mean (ix2 (0 : _root_.Fin 1) q))
            * Ideal.rsqrt (var (ix2 (0 : _root_.Fin 1) q) + Ideal.ofBits .f32 0x3727C5AC#32)
            * g (ix2 (0 : _root_.Fin 1) q) + be (ix2 (0 : _root_.Fin 1) q)) 0 := by
  -- row i is position p of block t
  obtain ⟨t, p, rfl⟩ : ∃ (t : _root_.Fin 10) (p : _root_.Fin 5000), i = Cert.KernelIdeal.Fin.rowOf t p :=
    ⟨_, _, (Cert.KernelIdeal.Fin.rowOf_div_mod i).symm⟩
  have hrow : 5000 * (pt5 t).val + p.val < 50000 := by
    have := t.isLt; have := p.isLt
    show 5000 * t.val + p.val < 50000
    omega
  -- the point that owns block t wrote the entry: the payload of its five blocks at (p, q)
  have hentry := arr_entry5 V c t p q
  rw [Cert.KernelIdeal.Fin.out5_5_eq, Cert.KernelIdeal.Fin.k5_pay1_apply, iblk5_1_eq, iblk5_2_eq, iblk5_3_eq,
    iblk5_4_eq, hmean, hvar, hg, hbe, iblk5_0_apply V c (pt5 t) p q hrow] at hentry
  -- the data block's entry is the data array's at row 5000 t + p
  have hdata : (V c (Pipeline.arrRef spec5 0) : S50000x128.Idx → Elt Ideal .f32)
      (ix2 (⟨5000 * (pt5 t).val + p.val, hrow⟩ : _root_.Fin 50000) q) = x (ix2 (Cert.KernelIdeal.Fin.rowOf t p) q) :=
    congrFun hx _
  rw [hdata] at hentry
  exact (congrFun hout _).symm.trans hentry

end Cert.KernelIdeal.Val

end
-- ==== Proof.KI.ValL2.lean ====
/-
  Graph-convolution layer 2 of the kernel program is the specification's.

  As for the first layer: the product region's output is x·W entry by entry (128 contraction positions, x the previous
  layer's output), the aggregation is the specification's neighbour sum, the combine region adds the self-loop term and
  the bias and totals the columns, the host forms the means and variances, the normalisation region normalises and
  rectifies. With x and the parameters real numbers the output is the specification's layer and is real again.
-/
import proofs.«422700_j84035330113950_1_alg».proof.Proof.KI.ValSmall
import proofs.«422700_j84035330113950_1_alg».proof.Proof.KI.Val2
import proofs.«422700_j84035330113950_1_alg».proof.Proof.KI.ValReg3
import proofs.«422700_j84035330113950_1_alg».proof.Proof.KI.ValReg5
import proofs.«422700_j84035330113950_1_alg».proof.Proof.KI.RunR3
import proofs.«422700_j84035330113950_1_alg».proof.Proof.KI.RunR5
import proofs.«422700_j84035330113950_1_alg».proof.Proof.Val.LayerStep

set_option maxRecDepth 4000

open scoped BigOperators

noncomputable section

namespace Cert.KernelIdeal.Val

open Idealize.ShloMosaic Idealize.ShloMosaic.TcCoe Idealize.ShloMosaic.ValueIdx
open Cert.Spec (IsReal)

variable (m : (ℓ : Loc nD τ sig) → Buf (Elt Ideal) ℓ) (c : Dev nD)

set_option maxHeartbeats 2000000 in
/-- Layer 2. `x` is the previous layer's output, `a1 … a8` name the argument arrays; the aggregation's value (`hagg`)
    and the combine region's three outputs entry by entry (`hpre`, `hs`, `hq`) are taken as given. -/
theorem layer2_value
    (a1 : Vec Ideal S2x800000 .i32) (a5 : Vec Ideal S2x128x128 .f32) (a6 : Vec Ideal S2x128 .f32) (a7 a8 : Vec Ideal S3x128 .f32)
    (e5 : m (c, Proc.devRef .tc main_arg5) = a5) (e7 : m (c, Proc.devRef .tc main_arg7) = a7)
    (e8 : m (c, Proc.devRef .tc main_arg8) = a8)
    (r5 : ∀ i, IsReal (a5 i)) (r6 : ∀ i, IsReal (a6 i)) (r7 : ∀ i, IsReal (a7 i)) (r8 : ∀ i, IsReal (a8 i))
    (x H agg pre xn : Vec Ideal S50000x128 .f32) (s qq : Vec Ideal S1x128 .f32)
    (ex : Run.outs m 8 main_v62 c = x) (rx : ∀ i, IsReal (x i))
    (eH : Run.outs m 10 main_v67 c = H)
    (epre : Run.outs m 14 main_v91_0 c = pre) (es : Run.outs m 14 main_v91_1 c = s) (eq : Run.outs m 14 main_v91_2 c = qq)
    (exn : Run.outs m 16 main_v104 c = xn)
    (hagg : agg = Cert.Val.aggOf H a1)
    (hpre : ∀ (i : Fin 50000) (q : Fin 128), pre (ix2 i q)
      = agg (ix2 i q) + H (ix2 i q) * selfnormK a1 (ix2 i (0 : Fin 1)) + row1 (Cert.Val.row2_0 a6) (ix2 (0 : Fin 1) q))
    (hs : ∀ q : Fin 128, s (ix2 (0 : Fin 1) q) = ∑ i : Fin 50000, pre (ix2 i q))
    (hq : ∀ q : Fin 128, qq (ix2 (0 : Fin 1) q) = ∑ i : Fin 50000, pre (ix2 i q) * pre (ix2 i q)) :
    xn = Cert.Val.layer x a1 (Cert.Val.mat0 a5) (Cert.Val.row2_0 a6) (Cert.Val.row3_1 a7) (Cert.Val.row3_1 a8)
      ∧ ∀ i, IsReal (xn i) := by
  refine Cert.Val.layer_step x a1 (Cert.Val.mat0 a5) (Cert.Val.row2_0 a6) (Cert.Val.row3_1 a7) (Cert.Val.row3_1 a8)
    rx (Cert.Val.isReal_mat0 a5 r5) (Cert.Val.isReal_row2_0 a6 r6)
    (Cert.Val.isReal_row3_1 a7 r7) (Cert.Val.isReal_row3_1 a8 r8)
    H ?hH agg hagg (selfnormK a1) (selfnormK_apply a1) (row1 (Cert.Val.row2_0 a6)) (row1_apply _) pre hpre s qq hs hq
    (row1 (meanK s)) (row1 (varK s qq)) ?hmean ?hvar
    (row1 (Cert.Val.row3_1 a7)) (row1 (Cert.Val.row3_1 a8)) (row1_apply _) (row1_apply _) xn ?hxn
  case hH =>
    exact mm3_entry (fun c b => Gen.V9 m (Run.outs m) c b) c x (Cert.Val.mat0 a5) H
      (((keep9 m (Run.outs m) c (r := main_v62) (by decide)).trans (at8_main_v62 m (Run.outs m) c)).trans ex)
      ((down1_9 m (Run.outs m) c (r := main_v14) (by decide)).trans ((V1_Wh0 m c).trans (by rw [e5])))
      ((Run.outs3_arr m c 2).symm.trans eH)
  case hmean => intro q; rw [row1_apply, meanK_apply]
  case hvar => intro q; rw [row1_apply, varK_apply, row1_apply]
  case hxn =>
    exact bn5_entry (fun c b => Gen.V15 m (Run.outs m) c b) c pre (row1 (meanK s)) (row1 (varK s qq))
      (row1 (Cert.Val.row3_1 a7)) (row1 (Cert.Val.row3_1 a8)) xn
      (((keep15 m (Run.outs m) c (r := main_v91_0) (by decide)).trans (at14_main_v91_0 m (Run.outs m) c)).trans epre)
      ((V15_mean m (Run.outs m) c).trans (by rw [es]))
      ((V15_var m (Run.outs m) c).trans (by rw [es, eq]))
      ((V15_gamma m (Run.outs m) c).trans (by rw [e7]))
      ((V15_beta m (Run.outs m) c).trans (by rw [e8]))
      ((Run.outs5_arr m c 5).symm.trans exn)

end Cert.KernelIdeal.Val

end
-- ==== Proof.KI.Val3.lean ====
/-
  The kernel program's small host stretches of the third layer, read as values.

  The third layer repeats the second's host work on its own buffers: row 2 of the stacked scales and of the stacked
  shifts before the matmul region; the hidden bias's row 1, cut by the very first stretch, laid out as one row before
  the combine region; and after it the column means s/n and variances q/n − (s/n)² from the region's two rows of
  totals, laid out with the scale and the shift as rows for the normalisation region. An operand defined earlier is
  read where it was defined, every item in between leaving it untouched.
-/
import proofs.«422700_j84035330113950_1_alg».proof.Proof.KI.Val1

set_option maxRecDepth 4000

noncomputable section

namespace Cert.KernelIdeal.Val

open Idealize.ShloMosaic Idealize.ShloMosaic.TcCoe
open Idealize.ShloMosaic.StableHlo

variable {F : FTy → Type} [FloatOps F]
variable (m : (ℓ : Loc nD τ sig) → Buf (Elt F) ℓ) (outs : Gen.Outs (F := F))

/-! ## The layer's scale and shift: row 2 of the stacked parameters -/

/-- The scale: row 2 sliced out of argument 7, the unit axis dropped; the argument is as launched. -/
theorem V17_g2 (c : Dev nD) :
    Gen.V17 m outs c (Proc.devRef .tc main_v106) = Cert.Val.row3_2 (F := F) (m (c, Proc.devRef .tc main_arg7)) := by
  show StableHlo.after Gen.hostOps6 (Gen.V16 m outs c) (Proc.devRef .tc main_v106) = _
  after_results
  rw [down0_16 m outs c (r := main_arg7) (by decide)]
  rfl

/-- The shift: the same on argument 8. -/
theorem V17_be2 (c : Dev nD) :
    Gen.V17 m outs c (Proc.devRef .tc main_v108) = Cert.Val.row3_2 (F := F) (m (c, Proc.devRef .tc main_arg8)) := by
  show StableHlo.after Gen.hostOps6 (Gen.V16 m outs c) (Proc.devRef .tc main_v108) = _
  after_results
  rw [down0_16 m outs c (r := main_arg8) (by decide)]
  rfl

/-! ## The bias row for the combine region -/

/-- The hidden bias's row 1 reshaped to one row. None of the three stretches that precede the combine region writes that
    vector, so it is read below them, after the matmul region (item 17); it was cut by the first stretch (`V1_bh1`)
    and no item up to there has written it. -/
theorem V21_bias (c : Dev nD) :
    Gen.V21 m outs c (Proc.devRef .tc main_v132)
      = row1 (Cert.Val.row2_1 (F := F) (m (c, Proc.devRef .tc main_arg6))) := by
  show StableHlo.after Gen.hostOps7_2 (Gen.V20 m outs c) (Proc.devRef .tc main_v132) = _
  after_results
  rw [down1_18 m outs c (r := main_v20) (by decide), V1_bh1]
  rfl

/-! ## The rows for the normalisation region -/

/-- The means, from the row of totals the third combine region left. -/
theorem V23_mean (c : Dev nD) :
    Gen.V23 m outs c (Proc.devRef .tc main_v142) = row1 (meanK (F := F) (outs 22 main_v133_1 c)) := by
  show StableHlo.after Gen.hostOps8 (Gen.V22 m outs c) (Proc.devRef .tc main_v142) = _
  after_results
  rw [at22_main_v133_1]
  rfl

/-- The variances, from the rows of totals and of totals of squares. -/
theorem V23_var (c : Dev nD) :
    Gen.V23 m outs c (Proc.devRef .tc main_v143)
      = row1 (varK (F := F) (outs 22 main_v133_1 c) (outs 22 main_v133_2 c)) := by
  show StableHlo.after Gen.hostOps8 (Gen.V22 m outs c) (Proc.devRef .tc main_v143) = _
  after_results
  rw [at22_main_v133_1, at22_main_v133_2]
  rfl

/-- The scale as a row: the vector of `V17_g2`, which items 17 to 21 (the matmul region, the three stretches before the
    combine region, the combine region) leave as it was. -/
theorem V23_gamma (c : Dev nD) :
    Gen.V23 m outs c (Proc.devRef .tc main_v144)
      = row1 (Cert.Val.row3_2 (F := F) (m (c, Proc.devRef .tc main_arg7))) := by
  show StableHlo.after Gen.hostOps8 (Gen.V22 m outs c) (Proc.devRef .tc main_v144) = _
  after_results
  rw [keep22 m outs c (r := main_v106) (by decide) (by decide) (by decide),
    keep21 m outs c (r := main_v106) (by decide), keep20 m outs c (r := main_v106) (by decide),
    keep19 m outs c (r := main_v106) (by decide), keep18 m outs c (r := main_v106) (by decide), V17_g2]
  rfl

/-- The shift as a row: the same road from `V17_be2`. -/
theorem V23_beta (c : Dev nD) :
    Gen.V23 m outs c (Proc.devRef .tc main_v145)
      = row1 (Cert.Val.row3_2 (F := F) (m (c, Proc.devRef .tc main_arg8))) := by
  show StableHlo.after Gen.hostOps8 (Gen.V22 m outs c) (Proc.devRef .tc main_v145) = _
  after_results
  rw [keep22 m outs c (r := main_v108) (by decide) (by decide) (by decide),
    keep21 m outs c (r := main_v108) (by decide), keep20 m outs c (r := main_v108) (by decide),
    keep19 m outs c (r := main_v108) (by decide), keep18 m outs c (r := main_v108) (by decide), V17_be2]
  rfl

end Cert.KernelIdeal.Val

end
-- ==== Proof.KI.Arr8.lean ====
import proofs.«422700_j84035330113950_1_alg».proof.Proof.KI.R8
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

-- the TensorCore's buffer contents when the region is entered
variable (V : (c : Dev nD) → (b : Ref sig .tc) → Buf (Elt F) ((c : Thread nD τ).loc b))

/-! # Region 8, from blocks to the array

Point `t` of the ten writes back rows `5000 t … 5000 t + 4999` of the output array and reads the same rows of the data
array; the four `[1,128]` row windows are their whole arrays at every point. Distinct points write disjoint row blocks,
so an entry of the array after the run is the entry of what the one point that owns its row wrote back. -/

/-- The printed index maps over the grid: at point `t` the data window and the output window are at block `(t, 0)`, the
    four row windows at block `(0, 0)`. -/
theorem index8 : ∀ t : Fin cfg8.N,
    win8_0.index t (0 : Fin 2) = t.val ∧ win8_0.index t (1 : Fin 2) = 0
    ∧ win8_5.index t (0 : Fin 2) = t.val ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0 :=
  (by decide +kernel : ∀ t : Fin grid8.N, _)

/-- Distinct points write back distinct blocks of the output. -/
theorem index_inj8 : ∀ t t' : Fin cfg8.N, win8_5.index t = win8_5.index t' → t = t' :=
  (by decide +kernel : ∀ t t' : Fin grid8.N, win8_5.index t = win8_5.index t' → t = t')

/-- So two points' output blocks share no index of the array. -/
theorem disjoint8 : ∀ t t' : Fin cfg8.N, (cfg8.win 5).flush t = true → (cfg8.win 5).flush t' = true → t ≠ t' →
    Disjoint ((cfg8.win 5).blk t).view.set ((cfg8.win 5).blk t').view.set :=
  fun t t' _ _ hne => (cfg8.win 5).disjoint_blk fun h => hne (index_inj8 t t' h)

/-- The grid has ten points. -/
theorem N8_eq : cfg8.N = 10 := N_8

/-- Point `t` of the ten, as a point of the grid. -/
abbrev pt8 (t : Fin 10) : Fin cfg8.N := ⟨t.val, by rw [N8_eq]; exact t.isLt⟩

/-- Entry `(p, q)` of the output block at point `t` sits in the array at row `5000 t + p`, column `q`. -/
theorem blk_emb8_5 (t : Fin cfg8.N) (p : Fin 5000) (q : Fin 128) (h : 5000 * t.val + p.val < 50000) :
    ((cfg8.win 5).blk t).view.emb (ix2 p q : S5000x128.Idx) = (ix2 (⟨5000 * t.val + p.val, h⟩ : Fin 50000) q : S50000x128.Idx) := by
  obtain ⟨-, -, e0, e1, -⟩ := index8 t
  funext a; apply Fin.ext
  match a with
  | ⟨0, _⟩ => show win8_5.index t (0 : Fin 2) * 5000 + 1 * p.val = 5000 * t.val + p.val; rw [e0]; omega
  | ⟨1, _⟩ => show win8_5.index t (1 : Fin 2) * 128 + 1 * q.val = q.val; rw [e1]; omega

/-- THE ARRAY'S ENTRY after the run, at a point of the grid: row `5000 t + p`, column `q` of the output array holds entry
    `(p, q)` of what the body left in the output buffer at point `t`. -/
theorem arr_entry8_at (c : Dev nD) (t : Fin cfg8.N) (p : Fin 5000) (q : Fin 128) (h : 5000 * t.val + p.val < 50000) :
    (dat8 V c).arrAt 5 cfg8.N (ix2 (⟨5000 * t.val + p.val, h⟩ : Fin 50000) q : S50000x128.Idx)
      = out8_5 (iblk8 V c 0 t) (iblk8 V c 1 t) (iblk8 V c 2 t) (iblk8 V c 3 t) (iblk8 V c 4 t) (ix2 p q) := by
  have hf := (dat8 V c).arrAt_emb_eq_flushed 5 disjoint8 t (flush8_5 t) (ix2 p q : S5000x128.Idx)
  rw [blk_emb8_5 t p q h] at hf
  refine hf.trans ?_
  show (cfg8.win 5).cut (grid8.coords t) ((dat8 V c).after 5 t) (ix2 p q : S5000x128.Idx) = _
  rw [after8_5]
  rfl

/-- The same over the ten points by number. -/
theorem arr_entry8 (c : Dev nD) (t : Fin 10) (p : Fin 5000) (q : Fin 128) :
    (dat8 V c).arrAt 5 cfg8.N (ix2 (⟨5000 * t.val + p.val, by have := t.isLt; have := p.isLt; omega⟩ : Fin 50000) q : S50000x128.Idx)
      = out8_5 (iblk8 V c 0 (pt8 t)) (iblk8 V c 1 (pt8 t)) (iblk8 V c 2 (pt8 t)) (iblk8 V c 3 (pt8 t)) (iblk8 V c 4 (pt8 t)) (ix2 p q) :=
  arr_entry8_at V c (pt8 t) p q _

/-! ## The input blocks as entries of their arrays -/

/-- Entry `(p, k)` of the data block at point `t` is row `5000 t + p`, column `k` of the data array as the region finds it. -/
theorem iblk8_0_apply (c : Dev nD) (t : Fin cfg8.N) (p : Fin 5000) (k : Fin 128) (h : 5000 * t.val + p.val < 50000) :
    (iblk8 V c 0 t : Vec F S5000x128 .f32) (ix2 p k)
      = (V c (Pipeline.arrRef spec8 0) : S50000x128.Idx → Elt F .f32) (ix2 (⟨5000 * t.val + p.val, h⟩ : Fin 50000) k) := by
  obtain ⟨e0, e1, -⟩ := index8 t
  unfold iblk8
  rw [View.read_apply]
  show (V c (Pipeline.arrRef spec8 0) : S50000x128.Idx → Elt F .f32) _ = _
  congr 1
  funext a; apply Fin.ext
  match a with
  | ⟨0, _⟩ => show win8_0.index t (0 : Fin 2) * 5000 + 1 * p.val = 5000 * t.val + p.val; rw [e0]; omega
  | ⟨1, _⟩ => show win8_0.index t (1 : Fin 2) * 128 + 1 * k.val = k.val; rw [e1]; omega

/-- Window 1's block is its whole `[1,128]` array at every point. -/
theorem iblk8_1_eq (c : Dev nD) (t : Fin cfg8.N) :
    (iblk8 V c 1 t : Vec F S1x128 .f32) = (V c (Pipeline.arrRef spec8 1) : S1x128.Idx → Elt F .f32) := by
  obtain ⟨-, -, -, -, e0, e1, -, -, -, -, -, -⟩ := index8 t
  funext j
  unfold iblk8
  rw [View.read_apply]
  show (V c (Pipeline.arrRef spec8 1) : S1x128.Idx → Elt F .f32) _ = _
  congr 1
  funext a; apply Fin.ext
  match a with
  | ⟨0, _⟩ => show win8_1.index t (0 : Fin 2) * 1 + 1 * (j 0).val = (j 0).val; rw [e0]; omega
  | ⟨1, _⟩ => show win8_1.index t (1 : Fin 2) * 128 + 1 * (j 1).val = (j 1).val; rw [e1]; omega

/-- Window 2's block is its whole `[1,128]` array at every point. -/
theorem iblk8_2_eq (c : Dev nD) (t : Fin cfg8.N) :
    (iblk8 V c 2 t : Vec F S1x128 .f32) = (V c (Pipeline.arrRef spec8 2) : S1x128.Idx → Elt F .f32) := by
  obtain ⟨-, -, -, -, -, -, e0, e1, -, -, -, -⟩ := index8 t
  funext j
  unfold iblk8
  rw [View.read_apply]
  show (V c (Pipeline.arrRef spec8 2) : S1x128.Idx → Elt F .f32) _ = _
  congr 1
  funext a; apply Fin.ext
  match a with
  | ⟨0, _⟩ => show win8_2.index t (0 : Fin 2) * 1 + 1 * (j 0).val = (j 0).val; rw [e0]; omega
  | ⟨1, _⟩ => show win8_2.index t (1 : Fin 2) * 128 + 1 * (j 1).val = (j 1).val; rw [e1]; omega

/-- Window 3's block is its whole `[1,128]` array at every point. -/
theorem iblk8_3_eq (c : Dev nD) (t : Fin cfg8.N) :
    (iblk8 V c 3 t : Vec F S1x128 .f32) = (V c (Pipeline.arrRef spec8 3) : S1x128.Idx → Elt F .f32) := by
  obtain ⟨-, -, -, -, -, -, -, -, e0, e1, -, -⟩ := index8 t
  funext j
  unfold iblk8
  rw [View.read_apply]
  show (V c (Pipeline.arrRef spec8 3) : S1x128.Idx → Elt F .f32) _ = _
  congr 1
  funext a; apply Fin.ext
  match a with
  | ⟨0, _⟩ => show win8_3.index t (0 : Fin 2) * 1 + 1 * (j 0).val = (j 0).val; rw [e0]; omega
  | ⟨1, _⟩ => show win8_3.index t (1 : Fin 2) * 128 + 1 * (j 1).val = (j 1).val; rw [e1]; omega

/-- Window 4's block is its whole `[1,128]` array at every point. -/
theorem iblk8_4_eq (c : Dev nD) (t : Fin cfg8.N) :
    (iblk8 V c 4 t : Vec F S1x128 .f32) = (V c (Pipeline.arrRef spec8 4) : S1x128.Idx → Elt F .f32) := by
  obtain ⟨-, -, -, -, -, -, -, -, -, -, e0, e1⟩ := index8 t
  funext j
  unfold iblk8
  rw [View.read_apply]
  show (V c (Pipeline.arrRef spec8 4) : S1x128.Idx → Elt F .f32) _ = _
  congr 1
  funext a; apply Fin.ext
  match a with
  | ⟨0, _⟩ => show win8_4.index t (0 : Fin 2) * 1 + 1 * (j 0).val = (j 0).val; rw [e0]; omega
  | ⟨1, _⟩ => show win8_4.index t (1 : Fin 2) * 128 + 1 * (j 1).val = (j 1).val; rw [e1]; omega

end Cert.KernelIdeal.Reg

end
-- ==== Proof.KI.ValReg8.lean ====
/-
  The normalisation region's output array, entry by entry.

  After the region has run over its ten row blocks, row i and column q of its output array hold
      max (((x(i,q) - mean(q)) * rsqrt (var(q) + eps)) * scale(q) + shift(q)) 0,
  where x, mean, var, scale, shift are the region's five input arrays as it finds them (windows 0 to 4: the
  mean is window 1, the variance window 2). Row i lies in block i / 5000 at position i % 5000; the point that
  owns that block wrote the entry, from its data block and the four rows, each its whole array at every point.

  The arrays are named by typed variables tied to the region's buffers by equations, so that the arithmetic is
  stated over the extended reals.
-/
import proofs.«422700_j84035330113950_1_alg».proof.Proof.KI.Arr8
import proofs.«422700_j84035330113950_1_alg».proof.Proof.KI.Out2
import proofs.«422700_j84035330113950_1_alg».proof.Proof.KI.Final2
import proofs.«422700_j84035330113950_1_alg».proof.Proof.KI.BlockTotals

set_option maxRecDepth 16384

noncomputable section

namespace Cert.KernelIdeal.Val

open Cert.KernelIdeal Cert.KernelIdeal.Gen Cert.KernelIdeal.Reg
open Idealize.ShloMosaic Idealize.ShloMosaic.TcCoe
open Idealize.SL Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

set_option maxHeartbeats 1000000 in
/-- THE OUTPUT ARRAY'S ENTRY at row i, column q: x, mean, var, g, be are the five input arrays at the region's
    entry (windows 0 to 4), out the output array after the run. -/
theorem bn8_entry (c : Dev nD) (x : Vec Ideal S50000x128 .f32) (mean var g be : Vec Ideal S1x128 .f32)
    (out : Vec Ideal S50000x128 .f32)
    (hx : (V c (Pipeline.arrRef spec8 0) : S50000x128.Idx → Elt Ideal .f32) = x)
    (hmean : (V c (Pipeline.arrRef spec8 1) : S1x128.Idx → Elt Ideal .f32) = mean)
    (hvar : (V c (Pipeline.arrRef spec8 2) : S1x128.Idx → Elt Ideal .f32) = var)
    (hg : (V c (Pipeline.arrRef spec8 3) : S1x128.Idx → Elt Ideal .f32) = g)
    (hbe : (V c (Pipeline.arrRef spec8 4) : S1x128.Idx → Elt Ideal .f32) = be)
    (hout : ((dat8 V c).arrAt 5 cfg8.N : S50000x128.Idx → Elt Ideal .f32) = out)
    (i : _root_.Fin 50000) (q : _root_.Fin 128) :
    out (ix2 i q)
      = max ((x (ix2 i q) - mean (ix2 (0 : _root_.Fin 1) q))
            * Ideal.rsqrt (var (ix2 (0 : _root_.Fin 1) q) + Ideal.ofBits .f32 0x3727C5AC#32)
            * g (ix2 (0 : _root_.Fin 1) q) + be (ix2 (0 : _root_.Fin 1) q)) 0 := by
  -- row i is position p of block t
  obtain ⟨t, p, rfl⟩ : ∃ (t : _root_.Fin 10) (p : _root_.Fin 5000), i = Cert.KernelIdeal.Fin.rowOf t p :=
    ⟨_, _, (Cert.KernelIdeal.Fin.rowOf_div_mod i).symm⟩
  have hrow : 5000 * (pt8 t).val + p.val < 50000 := by
    have := t.isLt; have := p.isLt
    show 5000 * t.val + p.val < 50000
    omega
  -- the point that owns block t wrote the entry: the payload of its five blocks at (p, q)
  have hentry := arr_entry8 V c t p q
  rw [Cert.KernelIdeal.Fin.out8_5_eq, Cert.KernelIdeal.Fin.k8_pay1_apply, iblk8_1_eq, iblk8_2_eq, iblk8_3_eq,
    iblk8_4_eq, hmean, hvar, hg, hbe, iblk8_0_apply V c (pt8 t) p q hrow] at hentry
  -- the data block's entry is the data array's at row 5000 t + p
  have hdata : (V c (Pipeline.arrRef spec8 0) : S50000x128.Idx → Elt Ideal .f32)
      (ix2 (⟨5000 * (pt8 t).val + p.val, hrow⟩ : _root_.Fin 50000) q) = x (ix2 (Cert.KernelIdeal.Fin.rowOf t p) q) :=
    congrFun hx _
  rw [hdata] at hentry
  exact (congrFun hout _).symm.trans hentry

end Cert.KernelIdeal.Val

end
-- ==== Proof.KI.ValL3.lean ====
/-
  Graph-convolution layer 3 of the kernel program is the specification's.

  As for the first layer: the product region's output is x·W entry by entry (128 contraction positions, x the previous
  layer's output), the aggregation is the specification's neighbour sum, the combine region adds the self-loop term and
  the bias and totals the columns, the host forms the means and variances, the normalisation region normalises and
  rectifies. With x and the parameters real numbers the output is the specification's layer and is real again.
-/
import proofs.«422700_j84035330113950_1_alg».proof.Proof.KI.ValSmall
import proofs.«422700_j84035330113950_1_alg».proof.Proof.KI.Val3
import proofs.«422700_j84035330113950_1_alg».proof.Proof.KI.ValReg3
import proofs.«422700_j84035330113950_1_alg».proof.Proof.KI.ValReg8
import proofs.«422700_j84035330113950_1_alg».proof.Proof.KI.RunR6
import proofs.«422700_j84035330113950_1_alg».proof.Proof.KI.RunR8
import proofs.«422700_j84035330113950_1_alg».proof.Proof.Val.LayerStep

set_option maxRecDepth 4000

open scoped BigOperators

noncomputable section

namespace Cert.KernelIdeal.Val

open Idealize.ShloMosaic Idealize.ShloMosaic.TcCoe Idealize.ShloMosaic.ValueIdx
open Cert.Spec (IsReal)

variable (m : (ℓ : Loc nD τ sig) → Buf (Elt Ideal) ℓ) (c : Dev nD)

set_option maxHeartbeats 2000000 in
/-- Layer 3. `x` is the previous layer's output, `a1 … a8` name the argument arrays; the aggregation's value (`hagg`)
    and the combine region's three outputs entry by entry (`hpre`, `hs`, `hq`) are taken as given. -/
theorem layer3_value
    (a1 : Vec Ideal S2x800000 .i32) (a5 : Vec Ideal S2x128x128 .f32) (a6 : Vec Ideal S2x128 .f32) (a7 a8 : Vec Ideal S3x128 .f32)
    (e5 : m (c, Proc.devRef .tc main_arg5) = a5) (e7 : m (c, Proc.devRef .tc main_arg7) = a7)
    (e8 : m (c, Proc.devRef .tc main_arg8) = a8)
    (r5 : ∀ i, IsReal (a5 i)) (r6 : ∀ i, IsReal (a6 i)) (r7 : ∀ i, IsReal (a7 i)) (r8 : ∀ i, IsReal (a8 i))
    (x H agg pre xn : Vec Ideal S50000x128 .f32) (s qq : Vec Ideal S1x128 .f32)
    (ex : Run.outs m 16 main_v104 c = x) (rx : ∀ i, IsReal (x i))
    (eH : Run.outs m 18 main_v109 c = H)
    (epre : Run.outs m 22 main_v133_0 c = pre) (es : Run.outs m 22 main_v133_1 c = s) (eq : Run.outs m 22 main_v133_2 c = qq)
    (exn : Run.outs m 24 main_v146 c = xn)
    (hagg : agg = Cert.Val.aggOf H a1)
    (hpre : ∀ (i : Fin 50000) (q : Fin 128), pre (ix2 i q)
      = agg (ix2 i q) + H (ix2 i q) * selfnormK a1 (ix2 i (0 : Fin 1)) + row1 (Cert.Val.row2_1 a6) (ix2 (0 : Fin 1) q))
    (hs : ∀ q : Fin 128, s (ix2 (0 : Fin 1) q) = ∑ i : Fin 50000, pre (ix2 i q))
    (hq : ∀ q : Fin 128, qq (ix2 (0 : Fin 1) q) = ∑ i : Fin 50000, pre (ix2 i q) * pre (ix2 i q)) :
    xn = Cert.Val.layer x a1 (Cert.Val.mat1 a5) (Cert.Val.row2_1 a6) (Cert.Val.row3_2 a7) (Cert.Val.row3_2 a8)
      ∧ ∀ i, IsReal (xn i) := by
  refine Cert.Val.layer_step x a1 (Cert.Val.mat1 a5) (Cert.Val.row2_1 a6) (Cert.Val.row3_2 a7) (Cert.Val.row3_2 a8)
    rx (Cert.Val.isReal_mat1 a5 r5) (Cert.Val.isReal_row2_1 a6 r6)
    (Cert.Val.isReal_row3_2 a7 r7) (Cert.Val.isReal_row3_2 a8 r8)
    H ?hH agg hagg (selfnormK a1) (selfnormK_apply a1) (row1 (Cert.Val.row2_1 a6)) (row1_apply _) pre hpre s qq hs hq
    (row1 (meanK s)) (row1 (varK s qq)) ?hmean ?hvar
    (row1 (Cert.Val.row3_2 a7)) (row1 (Cert.Val.row3_2 a8)) (row1_apply _) (row1_apply _) xn ?hxn
  case hH =>
    exact mm6_entry (fun c b => Gen.V17 m (Run.outs m) c b) c x (Cert.Val.mat1 a5) H
      (((keep17 m (Run.outs m) c (r := main_v104) (by decide)).trans (at16_main_v104 m (Run.outs m) c)).trans ex)
      ((down1_17 m (Run.outs m) c (r := main_v16) (by decide)).trans ((V1_Wh1 m c).trans (by rw [e5])))
      ((Run.outs6_arr m c 2).symm.trans eH)
  case hmean => intro q; rw [row1_apply, meanK_apply]
  case hvar => intro q; rw [row1_apply, varK_apply, row1_apply]
  case hxn =>
    exact bn8_entry (fun c b => Gen.V23 m (Run.outs m) c b) c pre (row1 (meanK s)) (row1 (varK s qq))
      (row1 (Cert.Val.row3_2 a7)) (row1 (Cert.Val.row3_2 a8)) xn
      (((keep23 m (Run.outs m) c (r := main_v133_0) (by decide)).trans (at22_main_v133_0 m (Run.outs m) c)).trans epre)
      ((V23_mean m (Run.outs m) c).trans (by rw [es]))
      ((V23_var m (Run.outs m) c).trans (by rw [es, eq]))
      ((V23_gamma m (Run.outs m) c).trans (by rw [e7]))
      ((V23_beta m (Run.outs m) c).trans (by rw [e8]))
      ((Run.outs8_arr m c 5).symm.trans exn)

end Cert.KernelIdeal.Val

end
-- ==== Proof.KI.ValOps.lean ====
/-
  What the combine regions find at their operands.

  A combine region reads four arrays: the aggregation, the layer's product, the bias row, the self-loop column. The
  product is what the layer's product region left, carried unchanged across the host stretches in between; the bias row
  and the self-loop column are the small stages of the first host stretch and of the stretch before the region.
-/
import proofs.«422700_j84035330113950_1_alg».proof.Proof.KI.Val1
import proofs.«422700_j84035330113950_1_alg».proof.Proof.KI.Val2
import proofs.«422700_j84035330113950_1_alg».proof.Proof.KI.Val3

set_option maxRecDepth 4000

noncomputable section

namespace Cert.KernelIdeal.Val

open Idealize.ShloMosaic Idealize.ShloMosaic.TcCoe

variable {F : FTy → Type} [FloatOps F]
variable (m : (ℓ : Loc nD τ sig) → Buf (Elt F) ℓ) (outs : Gen.Outs (F := F))

/-! ## Layer 1 (the region of item 5 reads the valuation after item 4) -/

theorem ops1_h (c : Dev nD) : Gen.V5 m outs c (Proc.devRef .tc main_v25) = outs 2 main_v25 c :=
  (keep5 m outs c (r := main_v25) (by decide)).trans ((keep4 m outs c (r := main_v25) (by decide)).trans
    ((keep3 m outs c (r := main_v25) (by decide)).trans (at2_main_v25 m outs c)))

theorem ops1_sn (c : Dev nD) :
    Gen.V5 m outs c (Proc.devRef .tc main_v12) = selfnormK (F := F) (m (c, Proc.devRef .tc main_arg1)) :=
  (down1_5 m outs c (r := main_v12) (by decide)).trans (V1_selfnorm m c)

/-! ## Layer 2 (the region of item 13 reads the valuation after item 12) -/

theorem ops2_h (c : Dev nD) : Gen.V13 m outs c (Proc.devRef .tc main_v67) = outs 10 main_v67 c :=
  (keep13 m outs c (r := main_v67) (by decide)).trans ((keep12 m outs c (r := main_v67) (by decide)).trans
    ((keep11 m outs c (r := main_v67) (by decide)).trans (at10_main_v67 m outs c)))

theorem ops2_sn (c : Dev nD) :
    Gen.V13 m outs c (Proc.devRef .tc main_v12) = selfnormK (F := F) (m (c, Proc.devRef .tc main_arg1)) :=
  (down1_13 m outs c (r := main_v12) (by decide)).trans (V1_selfnorm m c)

/-! ## Layer 3 (the region of item 21 reads the valuation after item 20) -/

theorem ops3_h (c : Dev nD) : Gen.V21 m outs c (Proc.devRef .tc main_v109) = outs 18 main_v109 c :=
  (keep21 m outs c (r := main_v109) (by decide)).trans ((keep20 m outs c (r := main_v109) (by decide)).trans
    ((keep19 m outs c (r := main_v109) (by decide)).trans (at18_main_v109 m outs c)))

theorem ops3_sn (c : Dev nD) :
    Gen.V21 m outs c (Proc.devRef .tc main_v12) = selfnormK (F := F) (m (c, Proc.devRef .tc main_arg1)) :=
  (down1_21 m outs c (r := main_v12) (by decide)).trans (V1_selfnorm m c)

end Cert.KernelIdeal.Val

end
-- ==== Proof.PreFacts.lean ====
/-
  THE PRECONDITION, DECODED. The certificate's precondition is the printed predicate `Cert.Pre_finite_inputs.fn`:
  the conjunction of `jnp.all(|a| < +∞)` over the thirteen float arguments (0, 3, 4, …, 14) and of
  `jnp.all((e[0] ≥ 0) & (e[0] < 50000))` over row 0 of the integer edge table (argument 1), each `jnp.all` a reduction
  by `and` from the constant 1. Stated to be the all-ones `i1` scalar, it says: every entry of every float argument
  is a real number, and every word of the edge table's row 0 is, read signed, an integer in [0, 50000).

  * `conj_of_pre`: the claim splits into its fourteen conjuncts (the thirteen float ones need the ideal instance only in
    their statement; the edge conjunct alone, at any float instance: `edge_of_pre`).
  * `finite_arg0`, `finite_arg3`, …, `finite_arg14`: each float entry is the image of a real.
  * `src_in_range` and its readings: the row-0 word `w` at edge `e` has `0 ≤ w.toInt < 50000`, `w.toNat < 50000`, tests
    `w < 0` false, `w ≥ 0`, `w ≤ 49999` and `w < 50000` true, and the wrap `select (w < 0) (w + 50000) w` returns `w`.
  * `row0_read`: the vector the programs cut out of the edge table (slice of row 0, reshaped) reads, at `e`, the
    table at `(0, e)`; `wrap_eq` / `inRange_mask_eq`: the wrap and the range mask evaluated over a whole vector of such words.
-/
import proofs.«422700_j84035330113950_1_alg».proof.Pre_finite_inputs
import proofs.«422700_j84035330113950_1_alg».proof.Proof.Gen.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-! ## One float entry: `|x| < +∞` makes `x` a real -/

/-- An extended real whose absolute value `max x (−x)` lies strictly below `+∞` (the value of the word `0x7F800000`) is
    neither infinity: it is a real. -/
theorem real_of_abs_lt_inf (x : Ideal .f32)
    (h : FloatOps.cmpf .olt (FloatOps.hostAbsf x) (FloatOps.ofBits (F := Ideal) .f32 0x7F800000#32) = 1#1) :
    ∃ r : ℝ, x = ((r : ℝ) : EReal) := by
  have htop : Ideal.ofBits .f32 0x7F800000#32 = (⊤ : EReal) := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- One `jnp.all(|a| < +∞)`, as printed and read at the result's one index. -/
abbrev allFinite {s : Shape} {axes : List (Fin s.rank)} (a : FVec Ideal s .f32)
    (hb : S_.BroadcastsInDim s (![] : Fin 0 → Fin s.rank)) (hr : s.ReducesTo axes S_) (hu : 0 < S_.numel) : BitVec 1 :=
  Host.reduce IntOp.andi (cmpf .olt (Host.absf a) (broadcastInDim s ![] hb (constant (F := Ideal) S_ .f32 0x7F800000#32)))
    (constantI S_ 1 1#1) hr hu ix0

/-- When it is 1, every entry of `a` is a real: the reduction by `and` met only ones, and each one is `|a i| < +∞`. -/
theorem finite_of_all {s : Shape} {axes : List (Fin s.rank)} (a : FVec Ideal s .f32)
    (hb : S_.BroadcastsInDim s (![] : Fin 0 → Fin s.rank)) (hr : s.ReducesTo axes S_) (hu : 0 < S_.numel)
    (e : allFinite a hb hr hu = 1#1) (i : s.Idx) : ∃ r : ℝ, a i = ((r : ℝ) : EReal) :=
  real_of_abs_lt_inf (a i) (Host.reduce_andi_all _ _ hr hu ix0 e i)

/-! ## One word of the edge table: the two signed tests place it in [0, 50000) -/

/-- A word that tests `≥ 0` and `< 50000`, signed, is an integer of that range. -/
theorem word_range (w : BitVec 32) (h0 : IntOp.cmpi .sge w 0#32 = 1#1) (h1 : IntOp.cmpi .slt w 50000#32 = 1#1) :
    0 ≤ w.toInt ∧ w.toInt < 50000 := by
  rw [IntOp.cmpi_sge] at h0
  rw [IntOp.cmpi_slt] at h1
  rw [show (0#32 : BitVec 32).toInt = 0 from by decide] at h0
  rw [show (50000#32 : BitVec 32).toInt = 50000 from by decide] at h1
  exact ⟨h0, h1⟩

/-- Such a word reads the same signed and unsigned, and is below 50000 unsigned. -/
theorem toNat_of_range (w : BitVec 32) (h : 0 ≤ w.toInt ∧ w.toInt < 50000) :
    w.toNat < 50000 ∧ w.toInt = (w.toNat : Int) := by
  have hlt := w.isLt
  have e := BitVec.toInt_eq_toNat_cond w
  split at e <;> omega

/-- It does not test negative … -/
theorem slt_zero_of_range (w : BitVec 32) (h : 0 ≤ w.toInt ∧ w.toInt < 50000) : IntOp.cmpi .slt w 0#32 = 0#1 := by
  refine eq_zero_of_ne_one fun hc => ?_
  rw [IntOp.cmpi_slt, show (0#32 : BitVec 32).toInt = 0 from by decide] at hc
  omega

/-- … tests nonnegative … -/
theorem sge_zero_of_range (w : BitVec 32) (h : 0 ≤ w.toInt ∧ w.toInt < 50000) : IntOp.cmpi .sge w 0#32 = 1#1 := by
  rw [IntOp.cmpi_sge, show (0#32 : BitVec 32).toInt = 0 from by decide]
  exact h.1

/-- … at most the last node, 49999 … -/
theorem sle_last_of_range (w : BitVec 32) (h : 0 ≤ w.toInt ∧ w.toInt < 50000) : IntOp.cmpi .sle w 49999#32 = 1#1 := by
  rw [IntOp.cmpi_sle, show (49999#32 : BitVec 32).toInt = 49999 from by decide]
  omega

/-- … and below the node count, 50000. -/
theorem slt_count_of_range (w : BitVec 32) (h : 0 ≤ w.toInt ∧ w.toInt < 50000) : IntOp.cmpi .slt w 50000#32 = 1#1 := by
  rw [IntOp.cmpi_slt, show (50000#32 : BitVec 32).toInt = 50000 from by decide]
  exact h.2

/-- The wrap of a negative index, `select (w < 0) (w + 50000) w`, leaves a word of the range alone. -/
theorem wrap_of_range (w : BitVec 32) (h : 0 ≤ w.toInt ∧ w.toInt < 50000) :
    Scalar.select (IntOp.cmpi .slt w 0#32) (IntOp.addi w 50000#32) w = w := by
  rw [slt_zero_of_range w h, select_zero]

/-- The range mask `(w ≥ 0) & (w ≤ 49999)` is 1 at a word of the range. -/
theorem inRange_mask_of_range (w : BitVec 32) (h : 0 ≤ w.toInt ∧ w.toInt < 50000) :
    IntOp.andi (IntOp.cmpi .sge w 0#32) (IntOp.cmpi .sle w 49999#32) = 1#1 :=
  IntOp.andi_eq_one.2 ⟨sge_zero_of_range w h, sle_last_of_range w h⟩

/-! ## The same over a whole vector of such words -/

/-- The wrap evaluated over a vector whose every word lies in the range: the vector itself. -/
theorem wrap_eq {s : Shape} (v : IVec s 32) (hb : (⟨0, ![]⟩ : Shape).BroadcastsInDim s (![] : Fin 0 → Fin s.rank))
    (hv : ∀ i, 0 ≤ (v i).toInt ∧ (v i).toInt < 50000) :
    select (cmpi .slt v (broadcastInDim s ![] hb (constantI (⟨0, ![]⟩ : Shape) 32 0#32)))
        (addi v (broadcastInDim s ![] hb (constantI (⟨0, ![]⟩ : Shape) 32 50000#32))) v = v :=
  funext fun i => wrap_of_range (v i) (hv i)

/-- The compare `v < 0` over such a vector is the zero mask. -/
theorem slt_zero_eq {s : Shape} (v : IVec s 32) (hb : (⟨0, ![]⟩ : Shape).BroadcastsInDim s (![] : Fin 0 → Fin s.rank))
    (hv : ∀ i, 0 ≤ (v i).toInt ∧ (v i).toInt < 50000) :
    cmpi .slt v (broadcastInDim s ![] hb (constantI (⟨0, ![]⟩ : Shape) 32 0#32)) = fun _ => 0#1 :=
  funext fun i => slt_zero_of_range (v i) (hv i)

/-! ## Row 0 of the edge table, as the predicate and the programs read it -/

section Decode
variable [Facts]
open Facts

/-- The slice of row 0 reshaped to a vector reads, at edge `e`, the table at `(0, e)`: the reshape keeps the row-major
    position `0 · 800000 + e`, and the slice has offset 0 on both axes. -/
theorem row0_read (a1 : IVec S2x800000 32) (e : Fin 800000) :
    shapeCast S800000 (extractStridedSlice S1x800000 ![0, 0] a1 slices_S2x800000_S1x800000_0_0) shapeCasts_S1x800000_S800000 (ix1 e)
      = a1 (ix2 ⟨0, by decide⟩ e) := by
  refine (shapeCast_apply _ _ (ix1 e) (ix2 ⟨0, by decide⟩ e) ?_).trans ?_
  · rw [Shape.rowMajor_val_two, Shape.rowMajor_val_one]
    show 0 * 800000 + e.val = e.val
    omega
  · refine extractStridedSlice_apply _ _ _ (ix2 ⟨0, by decide⟩ e) (ix2 ⟨0, by decide⟩ e) fun a => ?_
    match a with
    | ⟨0, _⟩ => rfl
    | ⟨1, _⟩ => show e.val = 0 + e.val; omega

/-- The edge conjunct `jnp.all((e[0] ≥ 0) & (e[0] < 50000))`, as printed and read at the result's one index. -/
abbrev srcAll (a1 : IVec S2x800000 32) : BitVec 1 :=
  Host.reduce IntOp.andi
    (andi
      (cmpi .sge (shapeCast S800000 (extractStridedSlice S1x800000 ![0, 0] a1 slices_S2x800000_S1x800000_0_0) shapeCasts_S1x800000_S800000)
        (broadcastInDim S800000 ![] bcast_S_S800000 (constantI S_ 32 0#32)))
      (cmpi .slt (shapeCast S800000 (extractStridedSlice S1x800000 ![0, 0] a1 slices_S2x800000_S1x800000_0_0) shapeCasts_S1x800000_S800000)
        (broadcastInDim S800000 ![] bcast_S_S800000 (constantI S_ 32 50000#32))))
    (constantI S_ 1 1#1) reducesTo_S800000_S_d0 h_S_ ix0

/-- When it is 1, the row-0 word at every edge is an integer of [0, 50000). -/
theorem range_of_srcAll (a1 : IVec S2x800000 32) (h : srcAll a1 = 1#1) (e : Fin 800000) :
    0 ≤ (a1 (ix2 ⟨0, by decide⟩ e)).toInt ∧ (a1 (ix2 ⟨0, by decide⟩ e)).toInt < 50000 := by
  have he := Host.reduce_andi_all _ _ reducesTo_S800000_S_d0 h_S_ ix0 h (ix1 e)
  change IntOp.andi
      (IntOp.cmpi .sge (shapeCast S800000 (extractStridedSlice S1x800000 ![0, 0] a1 slices_S2x800000_S1x800000_0_0)
        shapeCasts_S1x800000_S800000 (ix1 e)) 0#32)
      (IntOp.cmpi .slt (shapeCast S800000 (extractStridedSlice S1x800000 ![0, 0] a1 slices_S2x800000_S1x800000_0_0)
        shapeCasts_S1x800000_S800000 (ix1 e)) 50000#32) = 1#1 at he
  rw [row0_read, IntOp.andi_eq_one] at he
  exact word_range _ he.1 he.2

/-! ## The claim split into its conjuncts -/

section AnyInstance
variable {F : FTy → Type} [FloatOps F]
variable {a0 : FVec F S50000x64 .f32} {a1 : IVec S2x800000 32} {a2 : IVec S50000 32} {a3 : FVec F S64x128 .f32}
  {a4 : FVec F S128 .f32} {a5 : FVec F S2x128x128 .f32} {a6 : FVec F S2x128 .f32} {a7 : FVec F S3x128 .f32}
  {a8 : FVec F S3x128 .f32} {a9 : FVec F S2x128x128 .f32} {a10 : FVec F S2x128 .f32} {a11 : FVec F S2x128 .f32}
  {a12 : FVec F S2x128 .f32} {a13 : FVec F S128x1 .f32} {a14 : FVec F S1 .f32}

/-- At any float instance, the claim's last conjunct: the edge conjunct is 1. -/
theorem edge_of_pre (h : Cert.Pre_finite_inputs.fn (F := F) a0 a1 a2 a3 a4 a5 a6 a7 a8 a9 a10 a11 a12 a13 a14 = (fun _ => 1#1)) :
    srcAll a1 = 1#1 := by
  have e := congrFun h ix0
  dsimp only [fn, fn_part1, fn_part2, fn_part3, fn_part4, andi] at e
  exact (IntOp.andi_eq_one.1 e).2

/-- THE EDGE CONJUNCT DECODED, at any float instance: the source node of every edge is an integer of [0, 50000). -/
theorem src_in_range (h : Cert.Pre_finite_inputs.fn (F := F) a0 a1 a2 a3 a4 a5 a6 a7 a8 a9 a10 a11 a12 a13 a14 = (fun _ => 1#1))
    (e : Fin 800000) : 0 ≤ (a1 (ix2 ⟨0, by decide⟩ e)).toInt ∧ (a1 (ix2 ⟨0, by decide⟩ e)).toInt < 50000 :=
  range_of_srcAll a1 (edge_of_pre h) e

/-- The same read through the programs' row-0 vector (slice, then reshape), at every index of that vector. -/
theorem src_vec_in_range (h : Cert.Pre_finite_inputs.fn (F := F) a0 a1 a2 a3 a4 a5 a6 a7 a8 a9 a10 a11 a12 a13 a14 = (fun _ => 1#1))
    (i : S800000.Idx) :
    0 ≤ (shapeCast S800000 (extractStridedSlice S1x800000 ![0, 0] a1 slices_S2x800000_S1x800000_0_0) shapeCasts_S1x800000_S800000 i).toInt
      ∧ (shapeCast S800000 (extractStridedSlice S1x800000 ![0, 0] a1 slices_S2x800000_S1x800000_0_0) shapeCasts_S1x800000_S800000 i).toInt < 50000 := by
  obtain ⟨e, rfl⟩ : ∃ e : Fin 800000, i = ix1 e := ⟨i 0, eq_ix1 i⟩
  rw [row0_read]
  exact src_in_range h e

/-- Unsigned: the source word is below 50000 and reads the same signed and unsigned. -/
theorem src_toNat_lt (h : Cert.Pre_finite_inputs.fn (F := F) a0 a1 a2 a3 a4 a5 a6 a7 a8 a9 a10 a11 a12 a13 a14 = (fun _ => 1#1))
    (e : Fin 800000) :
    (a1 (ix2 ⟨0, by decide⟩ e)).toNat < 50000 ∧ (a1 (ix2 ⟨0, by decide⟩ e)).toInt = ((a1 (ix2 ⟨0, by decide⟩ e)).toNat : Int) :=
  toNat_of_range _ (src_in_range h e)

/-- The four signed tests the programs make of a source word, evaluated. -/
theorem src_tests (h : Cert.Pre_finite_inputs.fn (F := F) a0 a1 a2 a3 a4 a5 a6 a7 a8 a9 a10 a11 a12 a13 a14 = (fun _ => 1#1))
    (e : Fin 800000) :
    IntOp.cmpi .slt (a1 (ix2 ⟨0, by decide⟩ e)) 0#32 = 0#1 ∧ IntOp.cmpi .sge (a1 (ix2 ⟨0, by decide⟩ e)) 0#32 = 1#1
      ∧ IntOp.cmpi .sle (a1 (ix2 ⟨0, by decide⟩ e)) 49999#32 = 1#1 ∧ IntOp.cmpi .slt (a1 (ix2 ⟨0, by decide⟩ e)) 50000#32 = 1#1 :=
  ⟨slt_zero_of_range _ (src_in_range h e), sge_zero_of_range _ (src_in_range h e), sle_last_of_range _ (src_in_range h e),
    slt_count_of_range _ (src_in_range h e)⟩

/-- The wrap of a negative index returns the source word itself. -/
theorem src_wrap (h : Cert.Pre_finite_inputs.fn (F := F) a0 a1 a2 a3 a4 a5 a6 a7 a8 a9 a10 a11 a12 a13 a14 = (fun _ => 1#1))
    (e : Fin 800000) :
    Scalar.select (IntOp.cmpi .slt (a1 (ix2 ⟨0, by decide⟩ e)) 0#32) (IntOp.addi (a1 (ix2 ⟨0, by decide⟩ e)) 50000#32)
      (a1 (ix2 ⟨0, by decide⟩ e)) = a1 (ix2 ⟨0, by decide⟩ e) :=
  wrap_of_range _ (src_in_range h e)

end AnyInstance

section AtIdeal
variable {a0 : FVec Ideal S50000x64 .f32} {a1 : IVec S2x800000 32} {a2 : IVec S50000 32} {a3 : FVec Ideal S64x128 .f32}
  {a4 : FVec Ideal S128 .f32} {a5 : FVec Ideal S2x128x128 .f32} {a6 : FVec Ideal S2x128 .f32} {a7 : FVec Ideal S3x128 .f32}
  {a8 : FVec Ideal S3x128 .f32} {a9 : FVec Ideal S2x128x128 .f32} {a10 : FVec Ideal S2x128 .f32} {a11 : FVec Ideal S2x128 .f32}
  {a12 : FVec Ideal S2x128 .f32} {a13 : FVec Ideal S128x1 .f32} {a14 : FVec Ideal S1 .f32}

/-- THE CLAIM SPLIT: an `and` of `i1` words is 1 exactly when both are, so the all-ones result gives each of the fourteen
    conjuncts, in the order of the arguments (the edge conjunct, printed last, is listed last). -/
theorem conj_of_pre (h : Cert.Pre_finite_inputs.fn (F := Ideal) a0 a1 a2 a3 a4 a5 a6 a7 a8 a9 a10 a11 a12 a13 a14 = (fun _ => 1#1)) :
    allFinite a0 bcast_S_S50000x64 reducesTo_S50000x64_S_d0_1 h_S_ = 1#1
      ∧ allFinite a3 bcast_S_S64x128 reducesTo_S64x128_S_d0_1 h_S_ = 1#1
      ∧ allFinite a4 bcast_S_S128 reducesTo_S128_S_d0 h_S_ = 1#1
      ∧ allFinite a5 bcast_S_S2x128x128 reducesTo_S2x128x128_S_d0_1_2 h_S_ = 1#1
      ∧ allFinite a6 bcast_S_S2x128 reducesTo_S2x128_S_d0_1 h_S_ = 1#1
      ∧ allFinite a7 bcast_S_S3x128 reducesTo_S3x128_S_d0_1 h_S_ = 1#1
      ∧ allFinite a8 bcast_S_S3x128 reducesTo_S3x128_S_d0_1 h_S_ = 1#1
      ∧ allFinite a9 bcast_S_S2x128x128 reducesTo_S2x128x128_S_d0_1_2 h_S_ = 1#1
      ∧ allFinite a10 bcast_S_S2x128 reducesTo_S2x128_S_d0_1 h_S_ = 1#1
      ∧ allFinite a11 bcast_S_S2x128 reducesTo_S2x128_S_d0_1 h_S_ = 1#1
      ∧ allFinite a12 bcast_S_S2x128 reducesTo_S2x128_S_d0_1 h_S_ = 1#1
      ∧ allFinite a13 bcast_S_S128x1 reducesTo_S128x1_S_d0_1 h_S_ = 1#1
      ∧ allFinite a14 bcast_S_S1 reducesTo_S1_S_d0 h_S_ = 1#1
      ∧ srcAll a1 = 1#1 := by
  have e := congrFun h ix0
  dsimp only [fn, fn_part1, fn_part2, fn_part3, fn_part4, andi] at e
  simp only [IntOp.andi_eq_one] at e
  obtain ⟨⟨⟨⟨⟨⟨⟨⟨⟨⟨⟨⟨⟨e0, e3⟩, e4⟩, e5⟩, e6⟩, e7⟩, e8⟩, e9⟩, e10⟩, e11⟩, e12⟩, e13⟩, e14⟩, e1⟩ := e
  exact ⟨e0, e3, e4, e5, e6, e7, e8, e9, e10, e11, e12, e13, e14, e1⟩

/-! ## Every float argument's entries are reals -/

theorem finite_arg0 (h : Cert.Pre_finite_inputs.fn (F := Ideal) a0 a1 a2 a3 a4 a5 a6 a7 a8 a9 a10 a11 a12 a13 a14 = (fun _ => 1#1)) :
    ∀ i, ∃ r : ℝ, a0 i = ((r : ℝ) : EReal) :=
  finite_of_all a0 _ _ _ (conj_of_pre h).1
theorem finite_arg3 (h : Cert.Pre_finite_inputs.fn (F := Ideal) a0 a1 a2 a3 a4 a5 a6 a7 a8 a9 a10 a11 a12 a13 a14 = (fun _ => 1#1)) :
    ∀ i, ∃ r : ℝ, a3 i = ((r : ℝ) : EReal) :=
  finite_of_all a3 _ _ _ (conj_of_pre h).2.1
theorem finite_arg4 (h : Cert.Pre_finite_inputs.fn (F := Ideal) a0 a1 a2 a3 a4 a5 a6 a7 a8 a9 a10 a11 a12 a13 a14 = (fun _ => 1#1)) :
    ∀ i, ∃ r : ℝ, a4 i = ((r : ℝ) : EReal) :=
  finite_of_all a4 _ _ _ (conj_of_pre h).2.2.1
theorem finite_arg5 (h : Cert.Pre_finite_inputs.fn (F := Ideal) a0 a1 a2 a3 a4 a5 a6 a7 a8 a9 a10 a11 a12 a13 a14 = (fun _ => 1#1)) :
    ∀ i, ∃ r : ℝ, a5 i = ((r : ℝ) : EReal) :=
  finite_of_all a5 _ _ _ (conj_of_pre h).2.2.2.1
theorem finite_arg6 (h : Cert.Pre_finite_inputs.fn (F := Ideal) a0 a1 a2 a3 a4 a5 a6 a7 a8 a9 a10 a11 a12 a13 a14 = (fun _ => 1#1)) :
    ∀ i, ∃ r : ℝ, a6 i = ((r : ℝ) : EReal) :=
  finite_of_all a6 _ _ _ (conj_of_pre h).2.2.2.2.1
theorem finite_arg7 (h : Cert.Pre_finite_inputs.fn (F := Ideal) a0 a1 a2 a3 a4 a5 a6 a7 a8 a9 a10 a11 a12 a13 a14 = (fun _ => 1#1)) :
    ∀ i, ∃ r : ℝ, a7 i = ((r : ℝ) : EReal) :=
  finite_of_all a7 _ _ _ (conj_of_pre h).2.2.2.2.2.1
theorem finite_arg8 (h : Cert.Pre_finite_inputs.fn (F := Ideal) a0 a1 a2 a3 a4 a5 a6 a7 a8 a9 a10 a11 a12 a13 a14 = (fun _ => 1#1)) :
    ∀ i, ∃ r : ℝ, a8 i = ((r : ℝ) : EReal) :=
  finite_of_all a8 _ _ _ (conj_of_pre h).2.2.2.2.2.2.1
theorem finite_arg9 (h : Cert.Pre_finite_inputs.fn (F := Ideal) a0 a1 a2 a3 a4 a5 a6 a7 a8 a9 a10 a11 a12 a13 a14 = (fun _ => 1#1)) :
    ∀ i, ∃ r : ℝ, a9 i = ((r : ℝ) : EReal) :=
  finite_of_all a9 _ _ _ (conj_of_pre h).2.2.2.2.2.2.2.1
theorem finite_arg10 (h : Cert.Pre_finite_inputs.fn (F := Ideal) a0 a1 a2 a3 a4 a5 a6 a7 a8 a9 a10 a11 a12 a13 a14 = (fun _ => 1#1)) :
    ∀ i, ∃ r : ℝ, a10 i = ((r : ℝ) : EReal) :=
  finite_of_all a10 _ _ _ (conj_of_pre h).2.2.2.2.2.2.2.2.1
theorem finite_arg11 (h : Cert.Pre_finite_inputs.fn (F := Ideal) a0 a1 a2 a3 a4 a5 a6 a7 a8 a9 a10 a11 a12 a13 a14 = (fun _ => 1#1)) :
    ∀ i, ∃ r : ℝ, a11 i = ((r : ℝ) : EReal) :=
  finite_of_all a11 _ _ _ (conj_of_pre h).2.2.2.2.2.2.2.2.2.1
theorem finite_arg12 (h : Cert.Pre_finite_inputs.fn (F := Ideal) a0 a1 a2 a3 a4 a5 a6 a7 a8 a9 a10 a11 a12 a13 a14 = (fun _ => 1#1)) :
    ∀ i, ∃ r : ℝ, a12 i = ((r : ℝ) : EReal) :=
  finite_of_all a12 _ _ _ (conj_of_pre h).2.2.2.2.2.2.2.2.2.2.1
theorem finite_arg13 (h : Cert.Pre_finite_inputs.fn (F := Ideal) a0 a1 a2 a3 a4 a5 a6 a7 a8 a9 a10 a11 a12 a13 a14 = (fun _ => 1#1)) :
    ∀ i, ∃ r : ℝ, a13 i = ((r : ℝ) : EReal) :=
  finite_of_all a13 _ _ _ (conj_of_pre h).2.2.2.2.2.2.2.2.2.2.2.1
theorem finite_arg14 (h : Cert.Pre_finite_inputs.fn (F := Ideal) a0 a1 a2 a3 a4 a5 a6 a7 a8 a9 a10 a11 a12 a13 a14 = (fun _ => 1#1)) :
    ∀ i, ∃ r : ℝ, a14 i = ((r : ℝ) : EReal) :=
  finite_of_all a14 _ _ _ (conj_of_pre h).2.2.2.2.2.2.2.2.2.2.2.2.1

end AtIdeal

end Decode

end Cert.PreFacts

end
-- ==== Proof.LibTypedRef.lean ====
/-
  A general fact about typed buffer references (`StableHlo.TRef`). A typed reference carries a proof that its
  buffer's type is the value's type, and moves contents between the two by transport along that proof. Transporting
  there and back is the identity, whatever the proof is: so a value written through a typed reference and read back
  through the same one is the value, with nothing to compute about the buffer's type.
-/
import Idealize.ShloMosaic.Lib.StableHlo

namespace Idealize.ShloMosaic.StableHlo.TRef

variable {sig : RefSig} {Val : EltTy → Type} {T : BufTy}

/-- Contents put into a typed reference's buffer and taken out again are the contents: the two transports compose to a
    transport along `T.Contents Val = T.Contents Val`, which is the identity. -/
theorem ofBuf_toBuf (x : TRef sig T) (v : T.Contents Val) : x.ofBuf (x.toBuf v) = v := by
  show cast _ (cast _ v) = v
  rw [cast_cast]
  exact cast_eq _ _

end Idealize.ShloMosaic.StableHlo.TRef
-- ==== Proof.KI.ValAgg.lean ====
/-
  THE NEIGHBOUR SUMS OF THE KERNEL PROGRAM. Between its regions the kernel program computes, on the host, each
  graph-convolution layer's neighbour sum  agg[i] = Σ_{e : dst e = i} h[src e] · dis[src e] · dis[dst e]  from the layer's
  product h (a region's output), the edge table and dis = rsqrt (indegree + 1). It takes the rows h[src e] with a TAKE
  THAT FILLS: the source index wrapped (a negative one counted from the end), the row gathered, and a row of
  not-a-numbers put in its place where the wrapped index leaves [0, 49999]. The specification (`Cert.Val.aggOf`)
  gathers the rows plainly. Where every source index lies in [0, 50000) — the precondition's edge conjunct — the wrap
  does nothing, the range test is true at every edge, the fill never happens, and the two neighbour sums are one term.

  * `reduce_andi_of_all`: a reduction by `and` from 1 over an array of ones is 1.
  * `wrapCol`, `takeFill`, `takeFill_of_range`: the take with fill, and that over indices of the range it is the gather.
  * `normK`, `aggK`, `aggK_eq_aggOf`: the edge normalisation and the neighbour sum as functions of their inputs; with the
    plain gather they are the specification's.
  * `norm1`/`take1`/`sum1` (and `…4`, `…7`): what each host stretch of a layer leaves in its result buffer, over ANY
    contents of the buffers it reads.
  * `agg1_value`, `agg2_value`, `agg3_value`: the three layers' neighbour sums are `Cert.Val.aggOf` of the region's
    output and the edge table; `selfnorm_value` (`selfnorm_value'` in the specification's broadcast form, by `col_eq_bcast`):
    the self-loop column dis²; `bias1_value` … `bias3_value`: the bias rows.
-/
import proofs.«422700_j84035330113950_1_alg».proof.Proof.RegionsKernelIdeal
import proofs.«422700_j84035330113950_1_alg».proof.Proof.Val.Spec
import proofs.«422700_j84035330113950_1_alg».proof.Proof.PreFacts
import proofs.«422700_j84035330113950_1_alg».proof.Proof.LibTypedRef
import Idealize.ShloMosaic.Lib.StableHlo.Run

set_option maxRecDepth 8192

noncomputable section

namespace Cert.KernelIdeal.Val

open Idealize.ShloMosaic Idealize.SL.Sem Idealize.ShloMosaic.TcCoe
open Cert.KernelIdeal Cert.KernelIdeal.Gen
open Idealize.ShloMosaic.ValueIdx

variable {F : FTy → Type} [FloatOps F] [Cert.ReferenceIdeal.Facts₀]

/-- One pass that evaluates a valuation at a buffer: each host operation's result at its own buffer is its function of
    the operands' contents, at any other buffer the contents before it; a region's output installed at a buffer is
    read there and nowhere else. -/
macro "vals_simp" : tactic =>
  `(tactic| (simp (disch := decide) only [StableHlo.after_cons, StableHlo.after_nil,
      StableHlo.nullary_result', StableHlo.unary_result', StableHlo.binary_result', StableHlo.ternary_result',
      StableHlo.quaternary_result', StableHlo.reshape_result',
      StableHlo.nullary_result_ne', StableHlo.unary_result_ne', StableHlo.binary_result_ne', StableHlo.ternary_result_ne',
      StableHlo.quaternary_result_ne', StableHlo.reshape_result_ne',
      Function.update_self, Function.update_of_ne]))

/-! ## A reduction by `and` of ones is one -/

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_ones x hx _

/-! ## The take with fill -/

/-- A node index as the gathers read it: a negative one counted from the end, then a column. -/
def wrapCol (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- Rows of `h` taken at the wrapped indices, a row of not-a-numbers where the wrapped index leaves [0, 49999]. -/
def takeFill (h : Vec F S50000x128 .f32) (v : IVec S800000 32) : Vec F S800000x128 .f32 :=
  select
    (broadcastInDim S800000x128 ![0] bcast_S800000_S800000x128_0
      (Host.reduce IntOp.andi
        (andi (cmpi .sge (wrapCol v) (broadcastInDim S800000x1 ![] bcast_S_S800000x1 (constantI S_ 32 0#32)))
          (cmpi .sle (wrapCol v)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 h (wrapCol v))
    (broadcastInDim S800000x128 ![] bcast_S_S800000x128 (constant S_ .f32 0x7FC00000#32))

/-- Over indices of the range the wrap does nothing … -/
theorem wrapCol_of_range (v : IVec S800000 32) (hv : ∀ i, 0 ≤ (v i).toInt ∧ (v i).toInt < 50000) :
    wrapCol v = broadcastInDim S800000x1 ![0] bcast_S800000_S800000x1_0 v := by
  unfold wrapCol
  rw [Cert.PreFacts.wrap_eq v _ hv]

/-- … the range test is true at every edge, so the fill never happens: the take is the plain gather. -/
theorem takeFill_of_range (h : Vec F S50000x128 .f32) (v : IVec S800000 32) (hv : ∀ i, 0 ≤ (v i).toInt ∧ (v i).toInt < 50000) :
    takeFill h v = Host.gather gather_S50000x128_S800000x1_S800000x128_1_0_n_n_0_1_1128 h (wrapCol v) := by
  unfold takeFill
  rw [wrapCol_of_range v hv]
  funext i
  rw [select_apply]
  have hm : broadcastInDim S800000x128 ![0] bcast_S800000_S800000x128_0
      (Host.reduce IntOp.andi
        (andi (cmpi .sge (broadcastInDim S800000x1 ![0] bcast_S800000_S800000x1_0 v) (broadcastInDim S800000x1 ![] bcast_S_S800000x1 (constantI S_ 32 0#32)))
          (cmpi .sle (broadcastInDim S800000x1 ![0] bcast_S800000_S800000x1_0 v)
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_) i = 1#1 := by
    unfold broadcastInDim
    refine reduce_andi_of_all _ _ _ _ (fun j => ?_) rfl _
    exact Cert.PreFacts.inRange_mask_of_range _ (hv _)
  rw [hm, select_one]

/-! ## The stages as functions of their inputs -/

/-- The symmetric normalisation of each edge from `dis`, the sources and the destinations: dis[src]·dis[dst]. -/
def normK (d : Vec F S50000 .f32) (s t : IVec S800000 32) : Vec F S800000 .f32 :=
  mulf (Host.gather gather_S50000_S800000x1_S800000_n_0_n_n_0_1_1 d (wrapCol s))
    (Host.gather gather_S50000_S800000x1_S800000_n_0_n_n_0_1_1 d (wrapCol t))

/-- The neighbour sum from the gathered rows `g`, the destinations and the edges' normalisation. -/
def aggK (g : Vec F S800000x128 .f32) (t : IVec S800000 32) (n : Vec F S800000 .f32) : Vec F S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 t)
    (mulf g (broadcastInDim S800000x128 ![0, 1] bcast_S800000x1_S800000x128_0_1
      (broadcastInDim S800000x1 ![0] bcast_S800000_S800000x1_0 n)))

/-- With the plain gather for the rows, these are the specification's neighbour sum: the same operations in the same
    order, over shape and dimension records that are equal field by field. -/
theorem aggK_eq_aggOf (h : Vec F S50000x128 .f32) (ei : Vec F S2x800000 .i32) :
    aggK (Host.gather gather_S50000x128_S800000x1_S800000x128_1_0_n_n_0_1_1128 h (wrapCol (Cert.Val.srcW (F := F) ei)))
        (Cert.Val.dstW (F := F) ei) (normK (Cert.Val.dis ei) (Cert.Val.srcW (F := F) ei) (Cert.Val.dstW (F := F) ei))
      = Cert.Val.aggOf h ei := rfl

/-! ## The host stretches of a layer, over any contents of the buffers they read -/

section Stretch
variable (V : Valuation τ sig (Elt F))

theorem norm1 : StableHlo.after hostOps1 V (Proc.devRef .tc main_v40)
    = normK (V (Proc.devRef .tc main_v10)) (V (Proc.devRef .tc main_v1)) (V (Proc.devRef .tc main_v3)) := by
  simp only [hostOps1]
  vals_simp
  rfl

theorem take1 : StableHlo.after hostOps1_1 V (Proc.devRef .tc main_v41)
    = takeFill (V (Proc.devRef .tc main_v25)) (V (Proc.devRef .tc main_v1)) := by
  simp only [hostOps1_1]
  vals_simp
  simp only [StableHlo.TRef.ofBuf_toBuf]
  simp only [StableHlo.TRef.ofBuf, StableHlo.TRef.toBuf, cast_eq]
  rfl

theorem sum1 : StableHlo.after hostOps1_2 V (Proc.devRef .tc main_v47)
    = aggK (V (Proc.devRef .tc main_v41)) (V (Proc.devRef .tc main_v3)) (V (Proc.devRef .tc main_v40)) := by
  simp only [hostOps1_2]
  vals_simp
  rfl

theorem norm4 : StableHlo.after hostOps4 V (Proc.devRef .tc main_v82)
    = normK (V (Proc.devRef .tc main_v10)) (V (Proc.devRef .tc main_v1)) (V (Proc.devRef .tc main_v3)) := by
  simp only [hostOps4]
  vals_simp
  rfl

theorem take4 : StableHlo.after hostOps4_1 V (Proc.devRef .tc main_v83)
    = takeFill (V (Proc.devRef .tc main_v67)) (V (Proc.devRef .tc main_v1)) := by
  simp only [hostOps4_1]
  vals_simp
  simp only [StableHlo.TRef.ofBuf_toBuf]
  simp only [StableHlo.TRef.ofBuf, StableHlo.TRef.toBuf, cast_eq]
  rfl

theorem sum4 : StableHlo.after hostOps4_2 V (Proc.devRef .tc main_v89)
    = aggK (V (Proc.devRef .tc main_v83)) (V (Proc.devRef .tc main_v3)) (V (Proc.devRef .tc main_v82)) := by
  simp only [hostOps4_2]
  vals_simp
  rfl

theorem norm7 : StableHlo.after hostOps7 V (Proc.devRef .tc main_v124)
    = normK (V (Proc.devRef .tc main_v10)) (V (Proc.devRef .tc main_v1)) (V (Proc.devRef .tc main_v3)) := by
  simp only [hostOps7]
  vals_simp
  rfl

theorem take7 : StableHlo.after hostOps7_1 V (Proc.devRef .tc main_v125)
    = takeFill (V (Proc.devRef .tc main_v109)) (V (Proc.devRef .tc main_v1)) := by
  simp only [hostOps7_1]
  vals_simp
  simp only [StableHlo.TRef.ofBuf_toBuf]
  simp only [StableHlo.TRef.ofBuf, StableHlo.TRef.toBuf, cast_eq]
  rfl

theorem sum7 : StableHlo.after hostOps7_2 V (Proc.devRef .tc main_v131)
    = aggK (V (Proc.devRef .tc main_v125)) (V (Proc.devRef .tc main_v3)) (V (Proc.devRef .tc main_v124)) := by
  simp only [hostOps7_2]
  vals_simp
  rfl

end Stretch

/-! ## The edge vectors and `dis` on a core, from the first stretch on -/

variable (m : (ℓ : Loc nD τ sig) → Buf (Elt F) ℓ) (outs : Gen.Outs (F := F)) (c : Dev nD)

theorem v1_src : Gen.V1 m c (Proc.devRef .tc main_v1) = Cert.Val.srcW (F := F) (Gen.V0 m c (Proc.devRef .tc main_arg1)) := by
  dsimp only [Gen.V1]
  simp only [hostOps0]
  vals_simp
  rfl

theorem v1_dst : Gen.V1 m c (Proc.devRef .tc main_v3) = Cert.Val.dstW (F := F) (Gen.V0 m c (Proc.devRef .tc main_arg1)) := by
  dsimp only [Gen.V1]
  simp only [hostOps0]
  vals_simp
  rfl

theorem v1_dis : Gen.V1 m c (Proc.devRef .tc main_v10) = Cert.Val.dis (F := F) (Gen.V0 m c (Proc.devRef .tc main_arg1)) := by
  dsimp only [Gen.V1]
  simp only [hostOps0]
  vals_simp
  rfl

/-- The self-loop column: dis² as a [50000, 1] array. -/
theorem selfnorm_value : Gen.V1 m c (Proc.devRef .tc main_v12)
    = shapeCast S50000x1 (mulf (Cert.Val.dis (F := F) (Gen.V0 m c (Proc.devRef .tc main_arg1)))
        (Cert.Val.dis (F := F) (Gen.V0 m c (Proc.devRef .tc main_arg1)))) shapeCasts_S50000_S50000x1 := by
  dsimp only [Gen.V1]
  simp only [hostOps0]
  vals_simp
  rfl

/-- A vector reshaped to a one-column array is the vector broadcast along the rows: both read, at (a, 0), entry `a`. -/
theorem col_eq_bcast (v : Vec F S50000 .f32) :
    shapeCast S50000x1 v shapeCasts_S50000_S50000x1 = broadcastInDim S50000x1 ![0] bcast_S50000_S50000x1_0 v := by
  funext j
  obtain ⟨a, b, rfl⟩ : ∃ (a : Fin 50000) (b : Fin 1), j = ix2 a b := ⟨j 0, j 1, eq_ix2 j⟩
  refine (shapeCast_apply v _ (ix2 a b) (ix1 a) ?_).trans ?_
  · rw [Shape.rowMajor_val_one, Shape.rowMajor_val_two]
    show a.val = a.val * 1 + b.val
    have := b.isLt
    omega
  · unfold broadcastInDim
    refine congrArg v (funext fun d => ?_)
    match d with
    | ⟨0, _⟩ => rfl

/-- The self-loop column in the specification's form: dis² broadcast along the rows of a [50000, 1] array. -/
theorem selfnorm_value' : Gen.V1 m c (Proc.devRef .tc main_v12)
    = broadcastInDim S50000x1 ![0] bcast_S50000_S50000x1_0
        (mulf (Cert.Val.dis (F := F) (Gen.V0 m c (Proc.devRef .tc main_arg1)))
          (Cert.Val.dis (F := F) (Gen.V0 m c (Proc.devRef .tc main_arg1)))) := by
  rw [selfnorm_value, col_eq_bcast]

/-! ## Buffers the later stretches and regions leave alone -/

section Kept
variable {r : Ref sig .tc}

/-- A region's output installed at `y` is not read at another buffer. -/
theorem upd_ne (V : Valuation τ sig (Elt F)) {y : Ref sig .tc} (v : (Proc.devRef (τ := τ) (sig := sig) .tc y).ty.Contents (Elt F))
    (h : r ≠ y) : Function.update V (Proc.devRef .tc y) v (Proc.devRef .tc r) = V (Proc.devRef .tc r) :=
  Function.update_of_ne (fun e => h (Proc.devRef_injective _ e)) _ _

/-- Written by nothing up to the first layer's take. -/
abbrev Kept4 (r : Ref sig .tc) : Prop := r ≠ main_v25 ∧ r ∉ hostOps1_W ∧ r ∉ hostOps1_1_W
/-- … up to the second layer's product. -/
abbrev Kept10 (r : Ref sig .tc) : Prop :=
  Kept4 r ∧ r ∉ hostOps1_2_W ∧ r ≠ main_v49_0 ∧ r ≠ main_v49_1 ∧ r ≠ main_v49_2 ∧ r ∉ hostOps2_W ∧ r ≠ main_v62 ∧ r ∉ hostOps3_W
    ∧ r ≠ main_v67
/-- … up to the second layer's take. -/
abbrev Kept12 (r : Ref sig .tc) : Prop := Kept10 r ∧ r ∉ hostOps4_W ∧ r ∉ hostOps4_1_W
/-- … up to the third layer's product. -/
abbrev Kept18 (r : Ref sig .tc) : Prop :=
  Kept12 r ∧ r ∉ hostOps4_2_W ∧ r ≠ main_v91_0 ∧ r ≠ main_v91_1 ∧ r ≠ main_v91_2 ∧ r ∉ hostOps5_W ∧ r ≠ main_v104 ∧ r ∉ hostOps6_W
    ∧ r ≠ main_v109
/-- … up to the third layer's take. -/
abbrev Kept20 (r : Ref sig .tc) : Prop := Kept18 r ∧ r ∉ hostOps7_W ∧ r ∉ hostOps7_1_W

theorem kept4 (h : Kept4 r) : Gen.V4 m outs c (Proc.devRef .tc r) = Gen.V1 m c (Proc.devRef .tc r) :=
  (StableHlo.after_of_writes_sub _ _ hostOps1_1_writes h.2.2).trans <|
    (StableHlo.after_of_writes_sub _ _ hostOps1_writes h.2.1).trans <| upd_ne _ _ h.1

theorem kept10 (h : Kept10 r) : Gen.V10 m outs c (Proc.devRef .tc r) = Gen.V1 m c (Proc.devRef .tc r) := by
  obtain ⟨h4, h5, ha, hb, hc, h7, h8, h9, h10⟩ := h
  exact (upd_ne _ _ h10).trans <| (StableHlo.after_of_writes_sub _ _ hostOps3_writes h9).trans <| (upd_ne _ _ h8).trans <|
    (StableHlo.after_of_writes_sub _ _ hostOps2_writes h7).trans <| (upd_ne _ _ hc).trans <| (upd_ne _ _ hb).trans <|
    (upd_ne _ _ ha).trans <| (StableHlo.after_of_writes_sub _ _ hostOps1_2_writes h5).trans <| kept4 m outs c h4

theorem kept12 (h : Kept12 r) : Gen.V12 m outs c (Proc.devRef .tc r) = Gen.V1 m c (Proc.devRef .tc r) :=
  (StableHlo.after_of_writes_sub _ _ hostOps4_1_writes h.2.2).trans <|
    (StableHlo.after_of_writes_sub _ _ hostOps4_writes h.2.1).trans <| kept10 m outs c h.1

theorem kept18 (h : Kept18 r) : Gen.V18 m outs c (Proc.devRef .tc r) = Gen.V1 m c (Proc.devRef .tc r) := by
  obtain ⟨h12, h13, ha, hb, hc, h15, h16, h17, h18⟩ := h
  exact (upd_ne _ _ h18).trans <| (StableHlo.after_of_writes_sub _ _ hostOps6_writes h17).trans <| (upd_ne _ _ h16).trans <|
    (StableHlo.after_of_writes_sub _ _ hostOps5_writes h15).trans <| (upd_ne _ _ hc).trans <| (upd_ne _ _ hb).trans <|
    (upd_ne _ _ ha).trans <| (StableHlo.after_of_writes_sub _ _ hostOps4_2_writes h13).trans <| kept12 m outs c h12

theorem kept20 (h : Kept20 r) : Gen.V20 m outs c (Proc.devRef .tc r) = Gen.V1 m c (Proc.devRef .tc r) :=
  (StableHlo.after_of_writes_sub _ _ hostOps7_1_writes h.2.2).trans <|
    (StableHlo.after_of_writes_sub _ _ hostOps7_writes h.2.1).trans <| kept18 m outs c h.1

end Kept

/-! ## The source vector's range from the table's -/

/-- Row 0 of the edge table in [0, 50000) at every edge puts every entry of the source vector there. -/
theorem srcW_range (ei : Vec F S2x800000 .i32)
    (h : ∀ e : Fin 800000, 0 ≤ (ei (ix2 ⟨0, by decide⟩ e)).toInt ∧ (ei (ix2 ⟨0, by decide⟩ e)).toInt < 50000) (i : S800000.Idx) :
    0 ≤ (Cert.Val.srcW (F := F) ei i).toInt ∧ (Cert.Val.srcW (F := F) ei i).toInt < 50000 := by
  obtain ⟨e, rfl⟩ : ∃ e : Fin 800000, i = ix1 e := ⟨i 0, eq_ix1 i⟩
  have hr : Cert.Val.srcW (F := F) ei (ix1 e) = ei (ix2 ⟨0, by decide⟩ e) := Cert.PreFacts.row0_read ei e
  rw [hr]
  exact h e

/-- From the three inputs of a layer's neighbour sum on a core — the product `h`, and the edge vectors and `dis` the
    first stretch computed — to the specification's term, under the range of the sources. -/
theorem agg_of_stages (h : Vec F S50000x128 .f32) (ei : Vec F S2x800000 .i32)
    (hsrc : ∀ e : Fin 800000, 0 ≤ (ei (ix2 ⟨0, by decide⟩ e)).toInt ∧ (ei (ix2 ⟨0, by decide⟩ e)).toInt < 50000) :
    aggK (takeFill h (Cert.Val.srcW (F := F) ei)) (Cert.Val.dstW (F := F) ei)
        (normK (Cert.Val.dis ei) (Cert.Val.srcW (F := F) ei) (Cert.Val.dstW (F := F) ei)) = Cert.Val.aggOf h ei := by
  rw [takeFill_of_range _ _ (srcW_range ei hsrc)]
  exact aggK_eq_aggOf h ei

/-! ## The three layers' neighbour sums -/

/-- LAYER 1: after its three host stretches the buffer the next region reads holds the specification's neighbour sum
    of the first region's output. -/
theorem agg1_value
    (hsrc : ∀ e : Fin 800000, 0 ≤ ((Gen.V0 m c (Proc.devRef .tc main_arg1) : Vec F S2x800000 .i32) (ix2 ⟨0, by decide⟩ e)).toInt
      ∧ ((Gen.V0 m c (Proc.devRef .tc main_arg1) : Vec F S2x800000 .i32) (ix2 ⟨0, by decide⟩ e)).toInt < 50000) :
    Gen.V5 m outs c (Proc.devRef .tc main_v47)
      = Cert.Val.aggOf (outs 2 main_v25 c) (Gen.V0 m c (Proc.devRef .tc main_arg1)) := by
  have e5 : Gen.V5 m outs c (Proc.devRef .tc main_v47)
      = aggK (Gen.V4 m outs c (Proc.devRef .tc main_v41)) (Gen.V4 m outs c (Proc.devRef .tc main_v3))
          (Gen.V4 m outs c (Proc.devRef .tc main_v40)) := sum1 (Gen.V4 m outs c)
  have e41 : Gen.V4 m outs c (Proc.devRef .tc main_v41)
      = takeFill (Gen.V3 m outs c (Proc.devRef .tc main_v25)) (Gen.V3 m outs c (Proc.devRef .tc main_v1)) := take1 (Gen.V3 m outs c)
  have e43 : Gen.V4 m outs c (Proc.devRef .tc main_v3) = Gen.V1 m c (Proc.devRef .tc main_v3) := kept4 m outs c (by decide)
  have e440 : Gen.V4 m outs c (Proc.devRef .tc main_v40) = Gen.V3 m outs c (Proc.devRef .tc main_v40) :=
    StableHlo.after_of_writes_sub _ _ hostOps1_1_writes (by decide)
  have e340 : Gen.V3 m outs c (Proc.devRef .tc main_v40)
      = normK (Gen.V2 m outs c (Proc.devRef .tc main_v10)) (Gen.V2 m outs c (Proc.devRef .tc main_v1))
          (Gen.V2 m outs c (Proc.devRef .tc main_v3)) := norm1 (Gen.V2 m outs c)
  have e325 : Gen.V3 m outs c (Proc.devRef .tc main_v25) = Gen.V2 m outs c (Proc.devRef .tc main_v25) :=
    StableHlo.after_of_writes_sub _ _ hostOps1_writes (by decide)
  have e31 : Gen.V3 m outs c (Proc.devRef .tc main_v1) = Gen.V2 m outs c (Proc.devRef .tc main_v1) :=
    StableHlo.after_of_writes_sub _ _ hostOps1_writes (by decide)
  have e225 : Gen.V2 m outs c (Proc.devRef .tc main_v25) = outs 2 main_v25 c := Function.update_self ..
  have e21 : Gen.V2 m outs c (Proc.devRef .tc main_v1) = Gen.V1 m c (Proc.devRef .tc main_v1) := upd_ne _ _ (by decide)
  have e23 : Gen.V2 m outs c (Proc.devRef .tc main_v3) = Gen.V1 m c (Proc.devRef .tc main_v3) := upd_ne _ _ (by decide)
  have e210 : Gen.V2 m outs c (Proc.devRef .tc main_v10) = Gen.V1 m c (Proc.devRef .tc main_v10) := upd_ne _ _ (by decide)
  rw [e5, e41, e43, e440, e340, e325, e31, e225, e21, e23, e210, v1_src, v1_dst, v1_dis]
  exact agg_of_stages _ _ hsrc

/-- LAYER 2: the same of the second layer's product. -/
theorem agg2_value
    (hsrc : ∀ e : Fin 800000, 0 ≤ ((Gen.V0 m c (Proc.devRef .tc main_arg1) : Vec F S2x800000 .i32) (ix2 ⟨0, by decide⟩ e)).toInt
      ∧ ((Gen.V0 m c (Proc.devRef .tc main_arg1) : Vec F S2x800000 .i32) (ix2 ⟨0, by decide⟩ e)).toInt < 50000) :
    Gen.V13 m outs c (Proc.devRef .tc main_v89)
      = Cert.Val.aggOf (outs 10 main_v67 c) (Gen.V0 m c (Proc.devRef .tc main_arg1)) := by
  have e13 : Gen.V13 m outs c (Proc.devRef .tc main_v89)
      = aggK (Gen.V12 m outs c (Proc.devRef .tc main_v83)) (Gen.V12 m outs c (Proc.devRef .tc main_v3))
          (Gen.V12 m outs c (Proc.devRef .tc main_v82)) := sum4 (Gen.V12 m outs c)
  have e83 : Gen.V12 m outs c (Proc.devRef .tc main_v83)
      = takeFill (Gen.V11 m outs c (Proc.devRef .tc main_v67)) (Gen.V11 m outs c (Proc.devRef .tc main_v1)) := take4 (Gen.V11 m outs c)
  have e123 : Gen.V12 m outs c (Proc.devRef .tc main_v3) = Gen.V1 m c (Proc.devRef .tc main_v3) := kept12 m outs c (by decide)
  have e1282 : Gen.V12 m outs c (Proc.devRef .tc main_v82) = Gen.V11 m outs c (Proc.devRef .tc main_v82) :=
    StableHlo.after_of_writes_sub _ _ hostOps4_1_writes (by decide)
  have e1182 : Gen.V11 m outs c (Proc.devRef .tc main_v82)
      = normK (Gen.V10 m outs c (Proc.devRef .tc main_v10)) (Gen.V10 m outs c (Proc.devRef .tc main_v1))
          (Gen.V10 m outs c (Proc.devRef .tc main_v3)) := norm4 (Gen.V10 m outs c)
  have e1167 : Gen.V11 m outs c (Proc.devRef .tc main_v67) = Gen.V10 m outs c (Proc.devRef .tc main_v67) :=
    StableHlo.after_of_writes_sub _ _ hostOps4_writes (by decide)
  have e111 : Gen.V11 m outs c (Proc.devRef .tc main_v1) = Gen.V10 m outs c (Proc.devRef .tc main_v1) :=
    StableHlo.after_of_writes_sub _ _ hostOps4_writes (by decide)
  have e1067 : Gen.V10 m outs c (Proc.devRef .tc main_v67) = outs 10 main_v67 c := Function.update_self ..
  have e101 : Gen.V10 m outs c (Proc.devRef .tc main_v1) = Gen.V1 m c (Proc.devRef .tc main_v1) := kept10 m outs c (by decide)
  have e103 : Gen.V10 m outs c (Proc.devRef .tc main_v3) = Gen.V1 m c (Proc.devRef .tc main_v3) := kept10 m outs c (by decide)
  have e1010 : Gen.V10 m outs c (Proc.devRef .tc main_v10) = Gen.V1 m c (Proc.devRef .tc main_v10) := kept10 m outs c (by decide)
  rw [e13, e83, e123, e1282, e1182, e1167, e111, e1067, e101, e103, e1010, v1_src, v1_dst, v1_dis]
  exact agg_of_stages _ _ hsrc

/-- LAYER 3: the same of the third layer's product. -/
theorem agg3_value
    (hsrc : ∀ e : Fin 800000, 0 ≤ ((Gen.V0 m c (Proc.devRef .tc main_arg1) : Vec F S2x800000 .i32) (ix2 ⟨0, by decide⟩ e)).toInt
      ∧ ((Gen.V0 m c (Proc.devRef .tc main_arg1) : Vec F S2x800000 .i32) (ix2 ⟨0, by decide⟩ e)).toInt < 50000) :
    Gen.V21 m outs c (Proc.devRef .tc main_v131)
      = Cert.Val.aggOf (outs 18 main_v109 c) (Gen.V0 m c (Proc.devRef .tc main_arg1)) := by
  have e21 : Gen.V21 m outs c (Proc.devRef .tc main_v131)
      = aggK (Gen.V20 m outs c (Proc.devRef .tc main_v125)) (Gen.V20 m outs c (Proc.devRef .tc main_v3))
          (Gen.V20 m outs c (Proc.devRef .tc main_v124)) := sum7 (Gen.V20 m outs c)
  have e125 : Gen.V20 m outs c (Proc.devRef .tc main_v125)
      = takeFill (Gen.V19 m outs c (Proc.devRef .tc main_v109)) (Gen.V19 m outs c (Proc.devRef .tc main_v1)) := take7 (Gen.V19 m outs c)
  have e203 : Gen.V20 m outs c (Proc.devRef .tc main_v3) = Gen.V1 m c (Proc.devRef .tc main_v3) := kept20 m outs c (by decide)
  have e20124 : Gen.V20 m outs c (Proc.devRef .tc main_v124) = Gen.V19 m outs c (Proc.devRef .tc main_v124) :=
    StableHlo.after_of_writes_sub _ _ hostOps7_1_writes (by decide)
  have e19124 : Gen.V19 m outs c (Proc.devRef .tc main_v124)
      = normK (Gen.V18 m outs c (Proc.devRef .tc main_v10)) (Gen.V18 m outs c (Proc.devRef .tc main_v1))
          (Gen.V18 m outs c (Proc.devRef .tc main_v3)) := norm7 (Gen.V18 m outs c)
  have e19109 : Gen.V19 m outs c (Proc.devRef .tc main_v109) = Gen.V18 m outs c (Proc.devRef .tc main_v109) :=
    StableHlo.after_of_writes_sub _ _ hostOps7_writes (by decide)
  have e191 : Gen.V19 m outs c (Proc.devRef .tc main_v1) = Gen.V18 m outs c (Proc.devRef .tc main_v1) :=
    StableHlo.after_of_writes_sub _ _ hostOps7_writes (by decide)
  have e18109 : Gen.V18 m outs c (Proc.devRef .tc main_v109) = outs 18 main_v109 c := Function.update_self ..
  have e181 : Gen.V18 m outs c (Proc.devRef .tc main_v1) = Gen.V1 m c (Proc.devRef .tc main_v1) := kept18 m outs c (by decide)
  have e183 : Gen.V18 m outs c (Proc.devRef .tc main_v3) = Gen.V1 m c (Proc.devRef .tc main_v3) := kept18 m outs c (by decide)
  have e1810 : Gen.V18 m outs c (Proc.devRef .tc main_v10) = Gen.V1 m c (Proc.devRef .tc main_v10) := kept18 m outs c (by decide)
  rw [e21, e125, e203, e20124, e19124, e19109, e191, e18109, e181, e183, e1810, v1_src, v1_dst, v1_dis]
  exact agg_of_stages _ _ hsrc

/-! ## The bias rows -/

section BiasStretch
variable (V : Valuation τ sig (Elt F))

theorem biasrow1 : StableHlo.after hostOps1_2 V (Proc.devRef .tc main_v48)
    = shapeCast S1x128 (V (Proc.devRef .tc main_arg4)) shapeCasts_S128_S1x128 := by
  simp only [hostOps1_2]
  vals_simp
  rfl

theorem biasrow4 : StableHlo.after hostOps4_2 V (Proc.devRef .tc main_v90)
    = shapeCast S1x128 (V (Proc.devRef .tc main_v18)) shapeCasts_S128_S1x128 := by
  simp only [hostOps4_2]
  vals_simp
  rfl

theorem biasrow7 : StableHlo.after hostOps7_2 V (Proc.devRef .tc main_v132)
    = shapeCast S1x128 (V (Proc.devRef .tc main_v20)) shapeCasts_S128_S1x128 := by
  simp only [hostOps7_2]
  vals_simp
  rfl

end BiasStretch

theorem v1_b1 : Gen.V1 m c (Proc.devRef .tc main_v18) = Cert.Val.row2_0 (F := F) (Gen.V0 m c (Proc.devRef .tc main_arg6)) := by
  dsimp only [Gen.V1]
  simp only [hostOps0]
  vals_simp
  rfl

theorem v1_b2 : Gen.V1 m c (Proc.devRef .tc main_v20) = Cert.Val.row2_1 (F := F) (Gen.V0 m c (Proc.devRef .tc main_arg6)) := by
  dsimp only [Gen.V1]
  simp only [hostOps0]
  vals_simp
  rfl

/-- The first layer's bias as the [1, 128] row the next region reads: the bias argument reshaped. -/
theorem bias1_value : Gen.V5 m outs c (Proc.devRef .tc main_v48)
    = shapeCast S1x128 (Gen.V0 m c (Proc.devRef .tc main_arg4)) shapeCasts_S128_S1x128 := by
  have e : Gen.V5 m outs c (Proc.devRef .tc main_v48)
      = shapeCast S1x128 (Gen.V4 m outs c (Proc.devRef .tc main_arg4)) shapeCasts_S128_S1x128 := biasrow1 (Gen.V4 m outs c)
  have e4 : Gen.V4 m outs c (Proc.devRef .tc main_arg4) = Gen.V1 m c (Proc.devRef .tc main_arg4) := kept4 m outs c (by decide)
  have e1 : Gen.V1 m c (Proc.devRef .tc main_arg4) = Gen.V0 m c (Proc.devRef .tc main_arg4) :=
    StableHlo.after_of_writes_sub _ _ hostOps0_writes (by decide)
  rw [e, e4, e1]

/-- The second layer's: row 0 of the stacked biases, reshaped. -/
theorem bias2_value : Gen.V13 m outs c (Proc.devRef .tc main_v90)
    = shapeCast S1x128 (Cert.Val.row2_0 (F := F) (Gen.V0 m c (Proc.devRef .tc main_arg6))) shapeCasts_S128_S1x128 := by
  have e : Gen.V13 m outs c (Proc.devRef .tc main_v90)
      = shapeCast S1x128 (Gen.V12 m outs c (Proc.devRef .tc main_v18)) shapeCasts_S128_S1x128 := biasrow4 (Gen.V12 m outs c)
  have e12 : Gen.V12 m outs c (Proc.devRef .tc main_v18) = Gen.V1 m c (Proc.devRef .tc main_v18) := kept12 m outs c (by decide)
  rw [e, e12, v1_b1]

/-- The third layer's: row 1 of the stacked biases, reshaped. -/
theorem bias3_value : Gen.V21 m outs c (Proc.devRef .tc main_v132)
    = shapeCast S1x128 (Cert.Val.row2_1 (F := F) (Gen.V0 m c (Proc.devRef .tc main_arg6))) shapeCasts_S128_S1x128 := by
  have e : Gen.V21 m outs c (Proc.devRef .tc main_v132)
      = shapeCast S1x128 (Gen.V20 m outs c (Proc.devRef .tc main_v20)) shapeCasts_S128_S1x128 := biasrow7 (Gen.V20 m outs c)
  have e20 : Gen.V20 m outs c (Proc.devRef .tc main_v20) = Gen.V1 m c (Proc.devRef .tc main_v20) := kept20 m outs c (by decide)
  rw [e, e20, v1_b2]

end Cert.KernelIdeal.Val

end
-- ==== Proof.KI.ValTail.lean ====
import proofs.«422700_j84035330113950_1_alg».proof.Proof.RegionsKernelIdeal
import proofs.«422700_j84035330113950_1_alg».proof.Proof.Val.Spec
import proofs.«422700_j84035330113950_1_alg».proof.Proof.LibTypedRef
import Idealize.ShloMosaic.Lib.StableHlo.Run

set_option maxRecDepth 16384

noncomputable section

namespace Cert.KernelIdeal.Val

open Cert.KernelIdeal Cert.KernelIdeal.Gen
open Idealize.ShloMosaic Idealize.ShloMosaic.TcCoe
open Idealize.SL.Sem
open Idealize.ShloMosaic.StableHlo (after)

variable {F : FTy → Type} [FloatOps F]

/-! # The value the last ten host stretches leave in the program's result

After the last region the program runs ten stretches of host operations: the mean pool of the node features over
the graphs, two dense layers each normalised over the 32 graphs and rectified, and the linear head with its
rectifier. Read as one composition of tensor functions over the buffers the stretches start from, that is the
specification's `tail`. -/

set_option maxHeartbeats 4000000 in
/-- The ten stretches as one fold over ANY starting contents `W`: the result buffer holds `tail` of what `W` holds
    in the third layer's output and in the seven arguments the stretches read. Each operation's result is its
    function of its operands' contents and every other buffer is unchanged, so the fold at the result buffer is
    the operations' composition; a value passed through an inlined function's typed buffer is transported to the
    buffer's type and back, which is the identity; what is left is the specification's term, with the program's
    own copies of the dimension records in place of the reference's (equal fields). -/
theorem tail_W (W : Valuation τ sig (Elt F)) :
    (after (hostOps9_9 (F := F)) (after (hostOps9_8 (F := F)) (after (hostOps9_7 (F := F)) (after (hostOps9_6 (F := F)) (after (hostOps9_5 (F := F)) (after (hostOps9_4 (F := F)) (after (hostOps9_3 (F := F)) (after (hostOps9_2 (F := F)) (after (hostOps9_1 (F := F)) (after (hostOps9 (F := F)) W)))))))))) (Proc.devRef .tc main_v227)
      = Cert.Val.tail (W (Proc.devRef .tc main_v146)) (W (Proc.devRef .tc main_arg2)) (W (Proc.devRef .tc main_arg9))
          (W (Proc.devRef .tc main_arg10)) (W (Proc.devRef .tc main_arg11)) (W (Proc.devRef .tc main_arg12))
          (W (Proc.devRef .tc main_arg13)) (W (Proc.devRef .tc main_arg14)) := by
  simp only [hostOps9, hostOps9_1, hostOps9_2, hostOps9_3, hostOps9_4, hostOps9_5, hostOps9_6, hostOps9_7, hostOps9_8, hostOps9_9]
  after_results_simp
  simp only [StableHlo.TRef.ofBuf_toBuf]
  rfl

variable (m : (ℓ : Loc nD τ sig) → Buf (Elt F) ℓ) (outs : Gen.Outs (F := F))

/-! ## What the stretches start from -/

/-- The third layer's output is what the last region left there. -/
theorem V24_v146 (c : Dev nD) : Gen.V24 m outs c (Proc.devRef .tc main_v146) = outs 24 main_v146 c := by
  simp only [Gen.V24, Function.update_self]

/-- No stretch of the tail writes an argument, and at the end of the program each argument still holds its launch
    contents: so it held them when the tail began. -/
theorem V24_arg2 (c : Dev nD) : Gen.V24 m outs c (Proc.devRef .tc main_arg2) = m ((c : Thread nD τ).loc main_arg2) :=
  (Gen.V25_of m outs c main_arg2 (by decide)).symm.trans <| (Gen.V26_of m outs c main_arg2 (by decide)).symm.trans <| (Gen.V27_of m outs c main_arg2 (by decide)).symm.trans <| (Gen.V28_of m outs c main_arg2 (by decide)).symm.trans <| (Gen.V29_of m outs c main_arg2 (by decide)).symm.trans <| (Gen.V30_of m outs c main_arg2 (by decide)).symm.trans <| (Gen.V31_of m outs c main_arg2 (by decide)).symm.trans <| (Gen.V32_of m outs c main_arg2 (by decide)).symm.trans <| (Gen.V33_of m outs c main_arg2 (by decide)).symm.trans <| (Gen.V34_of m outs c main_arg2 (by decide)).symm.trans <| Gen.V34_main_arg2 m outs c
theorem V24_arg9 (c : Dev nD) : Gen.V24 m outs c (Proc.devRef .tc main_arg9) = m ((c : Thread nD τ).loc main_arg9) :=
  (Gen.V25_of m outs c main_arg9 (by decide)).symm.trans <| (Gen.V26_of m outs c main_arg9 (by decide)).symm.trans <| (Gen.V27_of m outs c main_arg9 (by decide)).symm.trans <| (Gen.V28_of m outs c main_arg9 (by decide)).symm.trans <| (Gen.V29_of m outs c main_arg9 (by decide)).symm.trans <| (Gen.V30_of m outs c main_arg9 (by decide)).symm.trans <| (Gen.V31_of m outs c main_arg9 (by decide)).symm.trans <| (Gen.V32_of m outs c main_arg9 (by decide)).symm.trans <| (Gen.V33_of m outs c main_arg9 (by decide)).symm.trans <| (Gen.V34_of m outs c main_arg9 (by decide)).symm.trans <| Gen.V34_main_arg9 m outs c
theorem V24_arg10 (c : Dev nD) : Gen.V24 m outs c (Proc.devRef .tc main_arg10) = m ((c : Thread nD τ).loc main_arg10) :=
  (Gen.V25_of m outs c main_arg10 (by decide)).symm.trans <| (Gen.V26_of m outs c main_arg10 (by decide)).symm.trans <| (Gen.V27_of m outs c main_arg10 (by decide)).symm.trans <| (Gen.V28_of m outs c main_arg10 (by decide)).symm.trans <| (Gen.V29_of m outs c main_arg10 (by decide)).symm.trans <| (Gen.V30_of m outs c main_arg10 (by decide)).symm.trans <| (Gen.V31_of m outs c main_arg10 (by decide)).symm.trans <| (Gen.V32_of m outs c main_arg10 (by decide)).symm.trans <| (Gen.V33_of m outs c main_arg10 (by decide)).symm.trans <| (Gen.V34_of m outs c main_arg10 (by decide)).symm.trans <| Gen.V34_main_arg10 m outs c
theorem V24_arg11 (c : Dev nD) : Gen.V24 m outs c (Proc.devRef .tc main_arg11) = m ((c : Thread nD τ).loc main_arg11) :=
  (Gen.V25_of m outs c main_arg11 (by decide)).symm.trans <| (Gen.V26_of m outs c main_arg11 (by decide)).symm.trans <| (Gen.V27_of m outs c main_arg11 (by decide)).symm.trans <| (Gen.V28_of m outs c main_arg11 (by decide)).symm.trans <| (Gen.V29_of m outs c main_arg11 (by decide)).symm.trans <| (Gen.V30_of m outs c main_arg11 (by decide)).symm.trans <| (Gen.V31_of m outs c main_arg11 (by decide)).symm.trans <| (Gen.V32_of m outs c main_arg11 (by decide)).symm.trans <| (Gen.V33_of m outs c main_arg11 (by decide)).symm.trans <| (Gen.V34_of m outs c main_arg11 (by decide)).symm.trans <| Gen.V34_main_arg11 m outs c
theorem V24_arg12 (c : Dev nD) : Gen.V24 m outs c (Proc.devRef .tc main_arg12) = m ((c : Thread nD τ).loc main_arg12) :=
  (Gen.V25_of m outs c main_arg12 (by decide)).symm.trans <| (Gen.V26_of m outs c main_arg12 (by decide)).symm.trans <| (Gen.V27_of m outs c main_arg12 (by decide)).symm.trans <| (Gen.V28_of m outs c main_arg12 (by decide)).symm.trans <| (Gen.V29_of m outs c main_arg12 (by decide)).symm.trans <| (Gen.V30_of m outs c main_arg12 (by decide)).symm.trans <| (Gen.V31_of m outs c main_arg12 (by decide)).symm.trans <| (Gen.V32_of m outs c main_arg12 (by decide)).symm.trans <| (Gen.V33_of m outs c main_arg12 (by decide)).symm.trans <| (Gen.V34_of m outs c main_arg12 (by decide)).symm.trans <| Gen.V34_main_arg12 m outs c
theorem V24_arg13 (c : Dev nD) : Gen.V24 m outs c (Proc.devRef .tc main_arg13) = m ((c : Thread nD τ).loc main_arg13) :=
  (Gen.V25_of m outs c main_arg13 (by decide)).symm.trans <| (Gen.V26_of m outs c main_arg13 (by decide)).symm.trans <| (Gen.V27_of m outs c main_arg13 (by decide)).symm.trans <| (Gen.V28_of m outs c main_arg13 (by decide)).symm.trans <| (Gen.V29_of m outs c main_arg13 (by decide)).symm.trans <| (Gen.V30_of m outs c main_arg13 (by decide)).symm.trans <| (Gen.V31_of m outs c main_arg13 (by decide)).symm.trans <| (Gen.V32_of m outs c main_arg13 (by decide)).symm.trans <| (Gen.V33_of m outs c main_arg13 (by decide)).symm.trans <| (Gen.V34_of m outs c main_arg13 (by decide)).symm.trans <| Gen.V34_main_arg13 m outs c
theorem V24_arg14 (c : Dev nD) : Gen.V24 m outs c (Proc.devRef .tc main_arg14) = m ((c : Thread nD τ).loc main_arg14) :=
  (Gen.V25_of m outs c main_arg14 (by decide)).symm.trans <| (Gen.V26_of m outs c main_arg14 (by decide)).symm.trans <| (Gen.V27_of m outs c main_arg14 (by decide)).symm.trans <| (Gen.V28_of m outs c main_arg14 (by decide)).symm.trans <| (Gen.V29_of m outs c main_arg14 (by decide)).symm.trans <| (Gen.V30_of m outs c main_arg14 (by decide)).symm.trans <| (Gen.V31_of m outs c main_arg14 (by decide)).symm.trans <| (Gen.V32_of m outs c main_arg14 (by decide)).symm.trans <| (Gen.V33_of m outs c main_arg14 (by decide)).symm.trans <| (Gen.V34_of m outs c main_arg14 (by decide)).symm.trans <| Gen.V34_main_arg14 m outs c

/-! ## The program's result -/

/-- The program's result buffer holds `tail` of the third layer's output and the launch contents of the seven
    arguments the tail reads. -/
theorem tail_value (m : (ℓ : Loc nD τ sig) → Buf (Elt F) ℓ) (outs : Gen.Outs (F := F)) (c : Dev nD) :
    Gen.V34 m outs c (Proc.devRef .tc main_v227)
      = Cert.Val.tail (outs 24 main_v146 c) (m (c, main_arg2)) (m (c, main_arg9)) (m (c, main_arg10)) (m (c, main_arg11))
          (m (c, main_arg12)) (m (c, main_arg13)) (m (c, main_arg14)) := by
  have h := tail_W (Gen.V24 m outs c)
  rw [V24_v146, V24_arg2, V24_arg9, V24_arg10, V24_arg11, V24_arg12, V24_arg13, V24_arg14] at h
  exact h

end Cert.KernelIdeal.Val

end
-- ==== Proof.KI.R1b.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import proofs.«422700_j84035330113950_1_alg».proof.Proof.KI.R1a
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces in payload form

Each case's stores, read back, are the body's payloads of the input blocks (and of the accumulators' earlier
contents): every store covers its whole buffer from offset zero, and every load reads a whole buffer. -/

theorem hz1 : (![0, 0] : Fin 2 → Nat) = fun _ => 0 := funext fun a => by fin_cases a <;> rfl

/-- The first point stores the combined block. -/
theorem out1_A_4_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) :
    out1_A_4 c i a1 ha1 a2 ha2 a3 ha3 a4 ha4 a5 ha5 a6 ha6 a7 ha7 a8 ha8 a9 ha9 hc0 hc1 x0 x1 x2 x3 = k1_pay3 x0 x1 x3 x2 := by
  unfold out1_A_4
  rw [View.read_writes_junk_eq_canon]
  unfold kernelRun1_A
  dsimp only
  sl_unfold_words
  rw [View.canon_unit_zero (S := S5000x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1]

/-- The first point leaves the block's column sums over the zeroed accumulator. -/
theorem sout1_A_0_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) :
    sout1_A_0 c i a1 ha1 a2 ha2 a3 ha3 a4 ha4 a5 ha5 a6 ha6 a7 ha7 a8 ha8 a9 ha9 hc0 hc1 x0 x1 x2 x3 = k1_pay4 x0 x1 x3 x2 (k1_pay1 (F := F)) := by
  unfold sout1_A_0
  rw [View.read_writes_junk_eq_canon]
  unfold kernelRun1_A
  dsimp only
  sl_unfold_words
  rw [View.canon_cons_unit_zero (S := S1x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1, View.readCov_unit_zero (S := S1x128) _ hz1]

/-- The first point leaves the column sums of the block's squares over the zeroed accumulator. -/
theorem sout1_A_1_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond1_0 i) (hc1 : ¬cond1_1 i)
    (x0 : Vec F S5000x128 .f32) (x1 : Vec F S5000x128 .f32) (x2 : Vec F S1x128 .f32) (x3 : Vec F S5000x1 .f32) :
    sout1_A_1 c i a1 ha1 a2 ha2 a3 ha3 a4 ha4 a5 ha5 a6 ha6 a7 ha7 a8 ha8 a9 ha9 hc0 hc1 x0 x1 x2 x3 = k1_pay5 x0 x1 x3 x2 (k1_pay2 (F := F)) := by
  unfold sout1_A_1
  rw [View.read_writes_junk_eq_canon]
  unfold kernelRun1_A
  dsimp only
  sl_unfold_words
  rw [View.canon_cons_unit_zero (S := S1x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1, View.readCov_unit_zero (S := S1x128) _ hz1]

/-- A middle point stores the combined block. -/
theorem out1_B_4_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    out1_B_4 c i a1 ha1 a2 ha2 a3 ha3 a4 ha4 a5 ha5 a6 ha6 a7 ha7 a8 ha8 a9 ha9 hc0 hc1 x0 x1 x2 x3 xs0 xs1 = k1_pay3 x0 x1 x3 x2 := by
  unfold out1_B_4
  rw [View.read_writes_junk_eq_canon]
  unfold kernelRun1_B
  dsimp only
  sl_unfold_words
  rw [View.canon_unit_zero (S := S5000x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1, ha8.read_unread, ha9.read_unread]

/-- A middle point adds the block's column sums to the accumulator. -/
theorem sout1_B_0_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout1_B_0 c i a1 ha1 a2 ha2 a3 ha3 a4 ha4 a5 ha5 a6 ha6 a7 ha7 a8 ha8 a9 ha9 hc0 hc1 x0 x1 x2 x3 xs0 xs1 = k1_pay4 x0 x1 x3 x2 xs0 := by
  unfold sout1_B_0
  rw [View.read_writes_junk_eq_canon]
  unfold kernelRun1_B
  dsimp only
  sl_unfold_words
  rw [View.canon_unit_zero (S := S1x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1, ha8.read_unread, ha9.read_unread]

/-- A middle point adds the column sums of the block's squares to the accumulator. -/
theorem sout1_B_1_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : ¬cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout1_B_1 c i a1 ha1 a2 ha2 a3 ha3 a4 ha4 a5 ha5 a6 ha6 a7 ha7 a8 ha8 a9 ha9 hc0 hc1 x0 x1 x2 x3 xs0 xs1 = k1_pay5 x0 x1 x3 x2 xs1 := by
  unfold sout1_B_1
  rw [View.read_writes_junk_eq_canon]
  unfold kernelRun1_B
  dsimp only
  sl_unfold_words
  rw [View.canon_unit_zero (S := S1x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1, ha8.read_unread, ha9.read_unread]

/-- The last point stores the combined block. -/
theorem out1_C_4_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    out1_C_4 c i a1 ha1 a2 ha2 a3 ha3 a4 ha4 a5 ha5 a6 ha6 a7 ha7 a8 ha8 a9 ha9 hc0 hc1 x0 x1 x2 x3 xs0 xs1 = k1_pay3 x0 x1 x3 x2 := by
  unfold out1_C_4
  rw [View.read_writes_junk_eq_canon]
  unfold kernelRun1_C
  dsimp only
  sl_unfold_words
  rw [View.canon_unit_zero (S := S5000x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1, ha8.read_unread, ha9.read_unread]

/-- The last point adds the block's column sums to the accumulator. -/
theorem sout1_C_0_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout1_C_0 c i a1 ha1 a2 ha2 a3 ha3 a4 ha4 a5 ha5 a6 ha6 a7 ha7 a8 ha8 a9 ha9 hc0 hc1 x0 x1 x2 x3 xs0 xs1 = k1_pay4 x0 x1 x3 x2 xs0 := by
  unfold sout1_C_0
  rw [View.read_writes_junk_eq_canon]
  unfold kernelRun1_C
  dsimp only
  sl_unfold_words
  rw [View.canon_unit_zero (S := S1x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1, ha8.read_unread, ha9.read_unread]

/-- The last point adds the column sums of the block's squares to the accumulator. -/
theorem sout1_C_1_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout1_C_1 c i a1 ha1 a2 ha2 a3 ha3 a4 ha4 a5 ha5 a6 ha6 a7 ha7 a8 ha8 a9 ha9 hc0 hc1 x0 x1 x2 x3 xs0 xs1 = k1_pay5 x0 x1 x3 x2 xs1 := by
  unfold sout1_C_1
  rw [View.read_writes_junk_eq_canon]
  unfold kernelRun1_C
  dsimp only
  sl_unfold_words
  rw [View.canon_unit_zero (S := S1x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1, ha8.read_unread, ha9.read_unread]

/-- The last point copies the sum accumulator, as it has just left it, to the sum output. -/
theorem out1_C_5_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    out1_C_5 c i a1 ha1 a2 ha2 a3 ha3 a4 ha4 a5 ha5 a6 ha6 a7 ha7 a8 ha8 a9 ha9 hc0 hc1 x0 x1 x2 x3 xs0 xs1 = k1_pay4 x0 x1 x3 x2 xs0 := by
  unfold out1_C_5
  rw [View.read_writes_junk_eq_canon]
  unfold kernelRun1_C
  dsimp only
  sl_unfold_words
  rw [View.canon_unit_zero (S := S1x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1, ha8.read_unread, ha9.read_unread, View.readCov_unit_zero (S := S1x128) _ hz1]

/-- The last point copies the sum-of-squares accumulator, as it has just left it, to its output. -/
theorem out1_C_6_eq (c : Dev nD) (i : grid1.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond1_0 i) (hc1 : cond1_1 i)
    (x0 : Vec F S5000x128 .f32) (x1 : Vec F S5000x128 .f32) (x2 : Vec F S1x128 .f32) (x3 : Vec F S5000x1 .f32) (xs0 : Vec F S1x128 .f32) (xs1 : Vec F S1x128 .f32) :
    out1_C_6 c i a1 ha1 a2 ha2 a3 ha3 a4 ha4 a5 ha5 a6 ha6 a7 ha7 a8 ha8 a9 ha9 hc0 hc1 x0 x1 x2 x3 xs0 xs1 = k1_pay5 x0 x1 x3 x2 xs1 := by
  unfold out1_C_6
  rw [View.read_writes_junk_eq_canon]
  unfold kernelRun1_C
  dsimp only
  sl_unfold_words
  rw [View.canon_unit_zero (S := S1x128) hz1]
  simp only [View.readAt_eq_ld, ha1.read_unread, ha2.read_unread, ha3.read_unread, ha4.read_unread, View.ld_unit_zero (S := S5000x128) hz1, View.ld_unit_zero (S := S1x128) hz1, View.ld_unit_zero (S := S5000x1) hz1, ha8.read_unread, ha9.read_unread, View.readCov_unit_zero (S := S1x128) _ hz1]

end Cert.KernelIdeal.Reg

end
-- ==== Proof.KI.R1c.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import proofs.«422700_j84035330113950_1_alg».proof.Proof.KI.R1
import proofs.«422700_j84035330113950_1_alg».proof.Proof.KI.R1b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulation in closed form -/

/-- The case equations of `outsAt1` at a successor position. -/
theorem outsAt1_succ_C (c : Dev nD) (n : ℕ) (hn : n + 1 < cfg1.N) (h1 : n + 1 = 9) :
    outsAt1 V c (n + 1) hn = (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2.2.1 (outsAt1 V c n (Nat.lt_of_succ_lt hn)).2.2.2.2, out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2.2.1 (outsAt1 V c n (Nat.lt_of_succ_lt hn)).2.2.2.2, out1_C_6 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2.2.1 (outsAt1 V c n (Nat.lt_of_succ_lt hn)).2.2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2.2.1 (outsAt1 V c n (Nat.lt_of_succ_lt hn)).2.2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2.2.1 (outsAt1 V c n (Nat.lt_of_succ_lt hn)).2.2.2.2) :=
  dif_pos h1

theorem outsAt1_succ_B (c : Dev nD) (n : ℕ) (hn : n + 1 < cfg1.N) (h1 : ¬n + 1 = 9) :
    outsAt1 V c (n + 1) hn = (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2.2.1 (outsAt1 V c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2.2.1 (outsAt1 V c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2.2.1 (outsAt1 V c n (Nat.lt_of_succ_lt hn)).2.2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2.2.1 (outsAt1 V c n (Nat.lt_of_succ_lt hn)).2.2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 V c n (Nat.lt_of_succ_lt hn)).2.2.2.1 (outsAt1 V c n (Nat.lt_of_succ_lt hn)).2.2.2.2) :=
  dif_neg h1

theorem outsAt1_zero (c : Dev nD) (hn : 0 < cfg1.N) :
    outsAt1 V c 0 hn = (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩)) :=
  rfl

/-- THE TWO ACCUMULATORS after point `n`, in closed form: at the first point the column sums of the combined block
    (resp. of its squares) over the zero row, afterwards over what the point before left. -/
noncomputable def acc1 (c : Dev nD) : (n : ℕ) → n < cfg1.N → Vec F S1x128 .f32 × Vec F S1x128 .f32
  | 0, hn => (k1_pay4 (iblk1 V c 0 ⟨0, hn⟩) (iblk1 V c 1 ⟨0, hn⟩) (iblk1 V c 3 ⟨0, hn⟩) (iblk1 V c 2 ⟨0, hn⟩) (k1_pay1 (F := F)), k1_pay5 (iblk1 V c 0 ⟨0, hn⟩) (iblk1 V c 1 ⟨0, hn⟩) (iblk1 V c 3 ⟨0, hn⟩) (iblk1 V c 2 ⟨0, hn⟩) (k1_pay2 (F := F)))
  | n + 1, hn => (k1_pay4 (iblk1 V c 0 ⟨n + 1, hn⟩) (iblk1 V c 1 ⟨n + 1, hn⟩) (iblk1 V c 3 ⟨n + 1, hn⟩) (iblk1 V c 2 ⟨n + 1, hn⟩) (acc1 c n (Nat.lt_of_succ_lt hn)).1, k1_pay5 (iblk1 V c 0 ⟨n + 1, hn⟩) (iblk1 V c 1 ⟨n + 1, hn⟩) (iblk1 V c 3 ⟨n + 1, hn⟩) (iblk1 V c 2 ⟨n + 1, hn⟩) (acc1 c n (Nat.lt_of_succ_lt hn)).2)

theorem acc1_zero (c : Dev nD) (hn : 0 < cfg1.N) :
    acc1 V c 0 hn = (k1_pay4 (iblk1 V c 0 ⟨0, hn⟩) (iblk1 V c 1 ⟨0, hn⟩) (iblk1 V c 3 ⟨0, hn⟩) (iblk1 V c 2 ⟨0, hn⟩) (k1_pay1 (F := F)), k1_pay5 (iblk1 V c 0 ⟨0, hn⟩) (iblk1 V c 1 ⟨0, hn⟩) (iblk1 V c 3 ⟨0, hn⟩) (iblk1 V c 2 ⟨0, hn⟩) (k1_pay2 (F := F))) := rfl

theorem acc1_succ (c : Dev nD) (n : ℕ) (hn : n + 1 < cfg1.N) :
    acc1 V c (n + 1) hn = (k1_pay4 (iblk1 V c 0 ⟨n + 1, hn⟩) (iblk1 V c 1 ⟨n + 1, hn⟩) (iblk1 V c 3 ⟨n + 1, hn⟩) (iblk1 V c 2 ⟨n + 1, hn⟩) (acc1 V c n (Nat.lt_of_succ_lt hn)).1, k1_pay5 (iblk1 V c 0 ⟨n + 1, hn⟩) (iblk1 V c 1 ⟨n + 1, hn⟩) (iblk1 V c 3 ⟨n + 1, hn⟩) (iblk1 V c 2 ⟨n + 1, hn⟩) (acc1 V c n (Nat.lt_of_succ_lt hn)).2) := rfl

/-- After every point the two accumulators hold the closed form, and so do the two statistics components (which
    repeat them before the last point and are copied from them at the last). -/
theorem accAt1 (c : Dev nD) : ∀ (n : ℕ) (hn : n < cfg1.N),
    (outsAt1 V c n hn).2.1 = (acc1 V c n hn).1 ∧ (outsAt1 V c n hn).2.2.1 = (acc1 V c n hn).2
      ∧ (outsAt1 V c n hn).2.2.2.1 = (acc1 V c n hn).1 ∧ (outsAt1 V c n hn).2.2.2.2 = (acc1 V c n hn).2 := by
  intro n
  induction n with
  | zero =>
    intro hn
    rw [outsAt1_zero V c hn, acc1_zero V c hn]; dsimp only
    exact ⟨sout1_A_0_eq (F := F) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩),
      sout1_A_1_eq (F := F) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩),
      sout1_A_0_eq (F := F) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩),
      sout1_A_1_eq (F := F) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) scM1_0 (Memref.isWhole_whole _) scM1_1 (Memref.isWhole_whole _) ((hcond1_0 ⟨0, hn⟩).mpr rfl) (fun h => (fun h9 : (0 : ℕ) = 9 => absurd h9 (by decide)) ((hcond1_1 ⟨0, hn⟩).mp h)) (iblk1 V c 0 ⟨0, hn⟩) (iblk1 V c 1 ⟨0, hn⟩) (iblk1 V c 2 ⟨0, hn⟩) (iblk1 V c 3 ⟨0, hn⟩)⟩
  | succ n ih =>
    intro hn
    obtain ⟨-, -, e0, e1⟩ := ih (Nat.lt_of_succ_lt hn)
    by_cases h1 : n + 1 = 9
    · rw [outsAt1_succ_C V c n hn h1, acc1_succ V c n hn]; dsimp only
      rw [e0, e1]
      exact ⟨out1_C_5_eq (F := F) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).1 (acc1 V c n (Nat.lt_of_succ_lt hn)).2,
        out1_C_6_eq (F := F) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).1 (acc1 V c n (Nat.lt_of_succ_lt hn)).2,
        sout1_C_0_eq (F := F) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).1 (acc1 V c n (Nat.lt_of_succ_lt hn)).2,
        sout1_C_1_eq (F := F) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).1 (acc1 V c n (Nat.lt_of_succ_lt hn)).2⟩
    · rw [outsAt1_succ_B V c n hn h1, acc1_succ V c n hn]; dsimp only
      rw [e0, e1]
      exact ⟨sout1_B_0_eq (F := F) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).1 (acc1 V c n (Nat.lt_of_succ_lt hn)).2,
        sout1_B_1_eq (F := F) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).1 (acc1 V c n (Nat.lt_of_succ_lt hn)).2,
        sout1_B_0_eq (F := F) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).1 (acc1 V c n (Nat.lt_of_succ_lt hn)).2,
        sout1_B_1_eq (F := F) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) scM1_0 (Memref.isWhole_whole _) scM1_1 (Memref.isWhole_whole _) (fun h => (Nat.succ_ne_zero n) ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (acc1 V c n (Nat.lt_of_succ_lt hn)).1 (acc1 V c n (Nat.lt_of_succ_lt hn)).2⟩

/-! ## What the proof data's outputs hold, in payload form -/

/-- The block output after point `t`: the combined block of the four input blocks (aggregate, projection, self-loop
    norm, bias). -/
theorem after1_4_eq (c : Dev nD) (t : Fin cfg1.N) :
    (dat1 V c).after 4 t = k1_pay3 (iblk1 V c 0 t) (iblk1 V c 1 t) (iblk1 V c 3 t) (iblk1 V c 2 t) := by
  rw [after1_4]
  by_cases h0 : t.val = 0
  · have h1 : ¬t.val = 9 := by omega
    rw [outsAt1_A V c t h0 h1]; dsimp only
    exact out1_A_4_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t)
  · by_cases h1 : t.val = 9
    · rw [outsAt1_C V c t h0 h1]; dsimp only
      exact out1_C_4_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2
    · rw [outsAt1_B V c t h0 h1]; dsimp only
      exact out1_B_4_eq (F := F) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.2.1 (outsAt1 V c (t.val - 1) (Nat.lt_of_le_of_lt (Nat.sub_le _ _) t.isLt)).2.2.2.2

/-- The sum output's component after point `t` is the sum accumulator's closed form there (what the last point
    writes back is its value at the last point). -/
theorem after1_5_eq (c : Dev nD) (t : Fin cfg1.N) : (dat1 V c).after 5 t = (acc1 V c t.val t.isLt).1 :=
  (after1_5 V c t).trans (accAt1 V c t.val t.isLt).1

/-- The same for the sum-of-squares output. -/
theorem after1_6_eq (c : Dev nD) (t : Fin cfg1.N) : (dat1 V c).after 6 t = (acc1 V c t.val t.isLt).2 :=
  (after1_6 V c t).trans (accAt1 V c t.val t.isLt).2.1

/-- At the last point, spelled at the literal position. -/
theorem after1_5_last (c : Dev nD) (hn : 9 < cfg1.N) : (dat1 V c).after 5 ⟨9, hn⟩ = (acc1 V c 9 hn).1 :=
  after1_5_eq V c ⟨9, hn⟩
theorem after1_6_last (c : Dev nD) (hn : 9 < cfg1.N) : (dat1 V c).after 6 ⟨9, hn⟩ = (acc1 V c 9 hn).2 :=
  after1_6_eq V c ⟨9, hn⟩

end Cert.KernelIdeal.Reg

end
-- ==== Proof.KI.Arr1.lean ====
import proofs.«422700_j84035330113950_1_alg».proof.Proof.Gen.KernelIdeal.Launch
import proofs.«422700_j84035330113950_1_alg».proof.Proof.Gen.KernelIdeal.Points
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

/-! # Region 1, from blocks to the arrays, for any proof data of the pipeline

Seven windows on a grid of ten points. Windows 0, 1 (`[5000,128]` blocks), 3 (`[5000,1]` blocks) and the output window 4
(`[5000,128]` blocks) are at block `(t, 0)` at point `t`: rows `5000 t … 5000 t + 4999` of their arrays. Window 2 and the
output windows 5, 6 (`[1,128]`) are their whole arrays at every point; windows 5 and 6 are written back once, at the last
point. Nothing here depends on what the body computes: the statements are about any proof data `dat` of the pipeline. -/

/-- The printed index maps over the grid: at point `t` windows 0, 1, 3, 4 are at block `(t, 0)`, windows 2, 5, 6 at
    block `(0, 0)`. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_2.index t (0 : Fin 2) = 0 ∧ win1_2.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The grid has ten points. -/
theorem N1_eq : cfg1.N = 10 := N_1

/-- Point `t` of the ten, as a point of the grid. -/
abbrev pt1 (t : Fin 10) : Fin cfg1.N := ⟨t.val, by rw [N1_eq]; exact t.isLt⟩

/-! ## The blocked output, window 4 -/

/-- Distinct points write back distinct blocks of window 4. -/
theorem index_inj1_4 : ∀ t t' : Fin cfg1.N, win1_4.index t = win1_4.index t' → t = t' :=
  (by decide +kernel : ∀ t t' : Fin grid1.N, win1_4.index t = win1_4.index t' → t = t')

/-- So two points' blocks of window 4 share no index of the array. -/
theorem disjoint1_4 : ∀ t t' : Fin cfg1.N, (cfg1.win 4).flush t = true → (cfg1.win 4).flush t' = true → t ≠ t' →
    Disjoint ((cfg1.win 4).blk t).view.set ((cfg1.win 4).blk t').view.set :=
  fun t t' _ _ hne => (cfg1.win 4).disjoint_blk fun h => hne (index_inj1_4 t t' h)

/-- Entry `(p, q)` of window 4's block at point `t` sits in the array at row `5000 t + p`, column `q`. -/
theorem blk_emb1_4 (t : Fin cfg1.N) (p : Fin 5000) (q : Fin 128) (h : 5000 * t.val + p.val < 50000) :
    ((cfg1.win 4).blk t).view.emb (ix2 p q : S5000x128.Idx) = (ix2 (⟨5000 * t.val + p.val, h⟩ : Fin 50000) q : S50000x128.Idx) := by
  obtain ⟨-, -, -, -, -, -, e0, e1, -, -, -, -, -, -⟩ := index1 t
  funext a; apply Fin.ext
  match a with
  | ⟨0, _⟩ => show win1_4.index t (0 : Fin 2) * 5000 + 1 * p.val = 5000 * t.val + p.val; rw [e0]; omega
  | ⟨1, _⟩ => show win1_4.index t (1 : Fin 2) * 128 + 1 * q.val = q.val; rw [e1]; omega

section
variable {c : Dev nD} (dat : Dat τ (Elt F) Unit ℕ (UR sig nD τ) ℕ cfg1 c)

/-- WINDOW 4'S ARRAY after the run, at a point of the grid: row `5000 t + p`, column `q` holds entry `(p, q)` of what the
    body left in the window's buffer at point `t` (every point writes its own block back, and no other point's block meets it). -/
theorem arr_entry1_4_at (t : Fin cfg1.N) (p : Fin 5000) (q : Fin 128) (h : 5000 * t.val + p.val < 50000) :
    dat.arrAt 4 cfg1.N (ix2 (⟨5000 * t.val + p.val, h⟩ : Fin 50000) q : S50000x128.Idx)
      = (dat.after 4 t : Vec F S5000x128 .f32) (ix2 p q) := by
  have hf := dat.arrAt_emb_eq_flushed 4 disjoint1_4 t (flush1_4 t) (ix2 p q : S5000x128.Idx)
  rw [blk_emb1_4 t p q h] at hf
  refine hf.trans ?_
  show (cfg1.win 4).cut (grid1.coords t) (dat.after 4 t) (ix2 p q : S5000x128.Idx) = _
  rfl

/-- The same over the ten points by number. -/
theorem arr_entry1_4 (t : Fin 10) (p : Fin 5000) (q : Fin 128) :
    dat.arrAt 4 cfg1.N (ix2 (⟨5000 * t.val + p.val, by have := t.isLt; have := p.isLt; omega⟩ : Fin 50000) q : S50000x128.Idx)
      = (dat.after 4 (pt1 t) : Vec F S5000x128 .f32) (ix2 p q) :=
  arr_entry1_4_at dat (pt1 t) p q _

end

/-! ## The two row outputs, windows 5 and 6: written back once, after the last point -/

/-- Window 5 is written back at the last point only. -/
theorem flush_last1_5 (t : Fin cfg1.N) (hf : (cfg1.win 5).flush t = true) : t = pt1 9 := by
  have h := (flush1_5 t).mp hf
  have hN : t.val < 10 := t.isLt.trans_eq N1_eq
  exact Fin.ext (by show t.val = 9; omega)

/-- So no two distinct points write window 5 back. -/
theorem disjoint1_5 : ∀ t t' : Fin cfg1.N, (cfg1.win 5).flush t = true → (cfg1.win 5).flush t' = true → t ≠ t' →
    Disjoint ((cfg1.win 5).blk t).view.set ((cfg1.win 5).blk t').view.set :=
  fun t t' hf hf' hne => absurd ((flush_last1_5 t hf).trans (flush_last1_5 t' hf').symm) hne

/-- Window 5's block is its whole `[1,128]` array: an index of the block is the same index of the array. -/
theorem whole_emb1_5 (t : Fin cfg1.N) (j : S1x128.Idx) : ((cfg1.win 5).blk t).view.emb j = (j : S1x128.Idx) := by
  obtain ⟨-, -, -, -, -, -, -, -, -, -, e0, e1, -, -⟩ := index1 t
  funext a; apply Fin.ext
  match a with
  | ⟨0, _⟩ => show win1_5.index t (0 : Fin 2) * 1 + 1 * (j 0).val = (j 0).val; rw [e0]; omega
  | ⟨1, _⟩ => show win1_5.index t (1 : Fin 2) * 128 + 1 * (j 1).val = (j 1).val; rw [e1]; omega

/-- Window 6 is written back at the last point only. -/
theorem flush_last1_6 (t : Fin cfg1.N) (hf : (cfg1.win 6).flush t = true) : t = pt1 9 := by
  have h := (flush1_6 t).mp hf
  have hN : t.val < 10 := t.isLt.trans_eq N1_eq
  exact Fin.ext (by show t.val = 9; omega)

/-- So no two distinct points write window 6 back. -/
theorem disjoint1_6 : ∀ t t' : Fin cfg1.N, (cfg1.win 6).flush t = true → (cfg1.win 6).flush t' = true → t ≠ t' →
    Disjoint ((cfg1.win 6).blk t).view.set ((cfg1.win 6).blk t').view.set :=
  fun t t' hf hf' hne => absurd ((flush_last1_6 t hf).trans (flush_last1_6 t' hf').symm) hne

/-- Window 6's block is its whole `[1,128]` array: an index of the block is the same index of the array. -/
theorem whole_emb1_6 (t : Fin cfg1.N) (j : S1x128.Idx) : ((cfg1.win 6).blk t).view.emb j = (j : S1x128.Idx) := by
  obtain ⟨-, -, -, -, -, -, -, -, -, -, -, -, e0, e1⟩ := index1 t
  funext a; apply Fin.ext
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

section
variable {c : Dev nD} (dat : Dat τ (Elt F) Unit ℕ (UR sig nD τ) ℕ cfg1 c)

/-- WINDOW 5'S ARRAY after the run is what the body left in the window's buffer at the last point. -/
theorem arr1_5 : (dat.arrAt 5 cfg1.N : S1x128.Idx → Elt F .f32) = (dat.after 5 (pt1 9) : Vec F S1x128 .f32) := by
  funext j
  have hf := dat.arrAt_emb_eq_flushed 5 disjoint1_5 (pt1 9) ((flush1_5 (pt1 9)).mpr rfl) (j : S1x128.Idx)
  rw [whole_emb1_5 (pt1 9) j] at hf
  refine hf.trans ?_
  show (cfg1.win 5).cut (grid1.coords (pt1 9)) (dat.after 5 (pt1 9)) (j : S1x128.Idx) = _
  rfl

/-- WINDOW 6'S ARRAY after the run is what the body left in the window's buffer at the last point. -/
theorem arr1_6 : (dat.arrAt 6 cfg1.N : S1x128.Idx → Elt F .f32) = (dat.after 6 (pt1 9) : Vec F S1x128 .f32) := by
  funext j
  have hf := dat.arrAt_emb_eq_flushed 6 disjoint1_6 (pt1 9) ((flush1_6 (pt1 9)).mpr rfl) (j : S1x128.Idx)
  rw [whole_emb1_6 (pt1 9) j] at hf
  refine hf.trans ?_
  show (cfg1.win 6).cut (grid1.coords (pt1 9)) (dat.after 6 (pt1 9)) (j : S1x128.Idx) = _
  rfl

end

/-! ## The input blocks as entries of their arrays -/

/-- Window 2's block is its whole `[1,128]` array: an index of the block is the same index of the array. -/
theorem whole_emb1_2 (t : Fin cfg1.N) (j : S1x128.Idx) : ((cfg1.win 2).blk t).view.emb j = (j : S1x128.Idx) := by
  obtain ⟨-, -, -, -, -, -, -, -, e0, e1, -, -, -, -⟩ := index1 t
  funext a; apply Fin.ext
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

section
variable {c : Dev nD} (dat : Dat τ (Elt F) Unit ℕ (UR sig nD τ) ℕ cfg1 c)

/-- Entry `(p, q)` of window 0's block at point `t` is row `5000 t + p`, column `q` of its array at entry. -/
theorem blockOf1_0_apply (t : Fin cfg1.N) (p : Fin 5000) (q : Fin 128) (h : 5000 * t.val + p.val < 50000) :
    (dat.blockOf 0 t : Vec F S5000x128 .f32) (ix2 p q)
      = (dat.A 0 : S50000x128.Idx → Elt F .f32) (ix2 (⟨5000 * t.val + p.val, h⟩ : Fin 50000) q) := by
  obtain ⟨e0, e1, -, -, -, -, -, -, -, -, -, -, -, -⟩ := index1 t
  unfold Dat.blockOf
  rw [View.read_apply]
  show (dat.A 0 : S50000x128.Idx → Elt F .f32) _ = _
  congr 1
  funext a; apply Fin.ext
  match a with
  | ⟨0, _⟩ => show win1_0.index t (0 : Fin 2) * 5000 + 1 * p.val = 5000 * t.val + p.val; rw [e0]; omega
  | ⟨1, _⟩ => show win1_0.index t (1 : Fin 2) * 128 + 1 * q.val = q.val; rw [e1]; omega

/-- Entry `(p, q)` of window 1's block at point `t` is row `5000 t + p`, column `q` of its array at entry. -/
theorem blockOf1_1_apply (t : Fin cfg1.N) (p : Fin 5000) (q : Fin 128) (h : 5000 * t.val + p.val < 50000) :
    (dat.blockOf 1 t : Vec F S5000x128 .f32) (ix2 p q)
      = (dat.A 1 : S50000x128.Idx → Elt F .f32) (ix2 (⟨5000 * t.val + p.val, h⟩ : Fin 50000) q) := by
  obtain ⟨-, -, e0, e1, -, -, -, -, -, -, -, -, -, -⟩ := index1 t
  unfold Dat.blockOf
  rw [View.read_apply]
  show (dat.A 1 : S50000x128.Idx → Elt F .f32) _ = _
  congr 1
  funext a; apply Fin.ext
  match a with
  | ⟨0, _⟩ => show win1_1.index t (0 : Fin 2) * 5000 + 1 * p.val = 5000 * t.val + p.val; rw [e0]; omega
  | ⟨1, _⟩ => show win1_1.index t (1 : Fin 2) * 128 + 1 * q.val = q.val; rw [e1]; omega

/-- Entry `(p, z)` of window 3's `[5000,1]` block at point `t` is row `5000 t + p` of its one-column array at entry. -/
theorem blockOf1_3_apply (t : Fin cfg1.N) (p : Fin 5000) (z : Fin 1) (h : 5000 * t.val + p.val < 50000) :
    (dat.blockOf 3 t : Vec F S5000x1 .f32) (ix2 p z)
      = (dat.A 3 : S50000x1.Idx → Elt F .f32) (ix2 (⟨5000 * t.val + p.val, h⟩ : Fin 50000) z) := by
  obtain ⟨-, -, -, -, e0, e1, -, -, -, -, -, -, -, -⟩ := index1 t
  unfold Dat.blockOf
  rw [View.read_apply]
  show (dat.A 3 : S50000x1.Idx → Elt F .f32) _ = _
  congr 1
  funext a; apply Fin.ext
  match a with
  | ⟨0, _⟩ => show win1_3.index t (0 : Fin 2) * 5000 + 1 * p.val = 5000 * t.val + p.val; rw [e0]; omega
  | ⟨1, _⟩ => show win1_3.index t (1 : Fin 2) * 1 + 1 * z.val = z.val; rw [e1]; omega

/-- Window 2's block is its whole `[1,128]` array at every point. -/
theorem blockOf1_2_eq (t : Fin cfg1.N) :
    (dat.blockOf 2 t : Vec F S1x128 .f32) = (dat.A 2 : S1x128.Idx → Elt F .f32) := by
  funext j
  unfold Dat.blockOf
  rw [View.read_apply, whole_emb1_2 t j]
  rfl

end

end Cert.KernelIdeal.Reg

end
-- ==== Proof.KI.Final1.lean ====
/-
  The combine regions' payloads, read at an index.

  Each of the three regions takes, per block of 5000 rows, the aggregated block a, the product block h, the
  self-normalisation column s (one entry per row), and the bias row b, and forms
      pre(p,q) = a(p,q) + h(p,q) * s(p) + b(q).
  It also carries two rows of 128 column totals over the blocks visited so far: the totals of pre and of its square.
  They start at zero, and each block adds its own column sums.
-/
import proofs.«422700_j84035330113950_1_alg».proof.Proof.Gen.KernelIdeal.Skeleton
import Idealize.ShloMosaic.PureOps.Ideal.Laws
import Idealize.ShloMosaic.Lib.ValueIdx
import Idealize.ShloMosaic.Lib.ValueLayout

open scoped BigOperators

namespace Cert.KernelIdeal.Fin

open Idealize.ShloMosaic Idealize.ShloMosaic.ValueIdx Cert.KernelIdeal.Gen

/-! ## Two readings the library leaves to its user -/

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the 5000 rows of a block, read at column q. The neutral-word argument is the one a payload carries. -/
theorem colsum_apply (src : FVec Ideal S5000x128 .f32) (hred : S5000x128.Reduces [0] S128) (hφ : FKind.Formats .f32)
    (hacc : (0x00000000#32 : BitVec 32) = FKind.add.neutral .f32 hφ) (q : Fin 128) :
    multiReduction (F := Ideal) .add [0] S128 src 0x00000000#32 hred hφ hacc (ix1 q) = ∑ p : Fin 5000, src (ix2 p q) := by
  refine (Ideal.multiReduction_add_single src 0x00000000#32 hred hφ hacc (ix1 q)).trans ?_
  refine Finset.sum_congr rfl fun p _ => congrArg src ?_
  funext ax
  apply Fin.ext
  match ax with
  | ⟨0, _⟩ => rfl
  | ⟨1, _⟩ => rfl

/-! ## The first layer's combine -/

/-- The pre-normalisation value at row p, column q. -/
theorem k1_pay3_apply (a h : Vec Ideal S5000x128 .f32) (s : Vec Ideal S5000x1 .f32) (b : Vec Ideal S1x128 .f32)
    (p : Fin 5000) (q : Fin 128) :
    k1_pay3 a h s b (ix2 p q) = a (ix2 p q) + h (ix2 p q) * s (ix2 p (0 : Fin 1)) + b (ix2 (0 : Fin 1) q) := by
  unfold k1_pay3
  simp only [addf_apply, mulf_apply, shapeCast_self, broadcastTo_1b_ab_apply, broadcastTo_a1_ab_apply]

/-- The two rows of totals start at zero. -/
theorem k1_pay1_apply (j : S1x128.Idx) : (k1_pay1 (F := Ideal)) j = 0 := by
  unfold k1_pay1
  simp only [shapeCast_self, broadcast_apply]
  exact Ideal.ofBits_zero_f32

theorem k1_pay2_apply (j : S1x128.Idx) : (k1_pay2 (F := Ideal)) j = 0 := by
  unfold k1_pay2
  simp only [shapeCast_self, broadcast_apply]
  exact Ideal.ofBits_zero_f32

/-- A block adds to the running total of column q the sum of its 5000 pre-normalisation values in that column. -/
theorem k1_pay4_apply (a h : Vec Ideal S5000x128 .f32) (s : Vec Ideal S5000x1 .f32) (b acc : Vec Ideal S1x128 .f32)
    (q : Fin 128) :
    k1_pay4 a h s b acc (ix2 (0 : Fin 1) q) = acc (ix2 (0 : Fin 1) q) + ∑ p : Fin 5000, k1_pay3 a h s b (ix2 p q) := by
  unfold k1_pay4
  simp only [shapeCast_self, addf_apply, shapeCast_a_1a_apply]
  exact congrArg (acc (ix2 (0 : Fin 1) q) + ·) (colsum_apply (k1_pay3 a h s b) _ _ _ q)

/-- And to the running total of squares the sum of their squares. -/
theorem k1_pay5_apply (a h : Vec Ideal S5000x128 .f32) (s : Vec Ideal S5000x1 .f32) (b acc : Vec Ideal S1x128 .f32)
    (q : Fin 128) :
    k1_pay5 a h s b acc (ix2 (0 : Fin 1) q)
      = acc (ix2 (0 : Fin 1) q) + ∑ p : Fin 5000, k1_pay3 a h s b (ix2 p q) * k1_pay3 a h s b (ix2 p q) := by
  unfold k1_pay5
  simp only [shapeCast_self, addf_apply, shapeCast_a_1a_apply]
  exact congrArg (acc (ix2 (0 : Fin 1) q) + ·)
    ((colsum_apply (mulf (k1_pay3 a h s b) (k1_pay3 a h s b)) _ _ _ q).trans (Finset.sum_congr rfl fun p _ => rfl))

/-! ## The second layer's combine: the same payloads -/

theorem k4_pay3_eq (a h : Vec Ideal S5000x128 .f32) (s : Vec Ideal S5000x1 .f32) (b : Vec Ideal S1x128 .f32) :
    k4_pay3 a h s b = k1_pay3 a h s b := rfl
theorem k4_pay4_eq (a h : Vec Ideal S5000x128 .f32) (s : Vec Ideal S5000x1 .f32) (b acc : Vec Ideal S1x128 .f32) :
    k4_pay4 a h s b acc = k1_pay4 a h s b acc := rfl
theorem k4_pay5_eq (a h : Vec Ideal S5000x128 .f32) (s : Vec Ideal S5000x1 .f32) (b acc : Vec Ideal S1x128 .f32) :
    k4_pay5 a h s b acc = k1_pay5 a h s b acc := rfl

theorem k4_pay3_apply (a h : Vec Ideal S5000x128 .f32) (s : Vec Ideal S5000x1 .f32) (b : Vec Ideal S1x128 .f32)
    (p : Fin 5000) (q : Fin 128) :
    k4_pay3 a h s b (ix2 p q) = a (ix2 p q) + h (ix2 p q) * s (ix2 p (0 : Fin 1)) + b (ix2 (0 : Fin 1) q) :=
  k1_pay3_apply a h s b p q

theorem k4_pay1_apply (j : S1x128.Idx) : (k4_pay1 (F := Ideal)) j = 0 := k1_pay1_apply j
theorem k4_pay2_apply (j : S1x128.Idx) : (k4_pay2 (F := Ideal)) j = 0 := k1_pay2_apply j

theorem k4_pay4_apply (a h : Vec Ideal S5000x128 .f32) (s : Vec Ideal S5000x1 .f32) (b acc : Vec Ideal S1x128 .f32)
    (q : Fin 128) :
    k4_pay4 a h s b acc (ix2 (0 : Fin 1) q) = acc (ix2 (0 : Fin 1) q) + ∑ p : Fin 5000, k4_pay3 a h s b (ix2 p q) :=
  k1_pay4_apply a h s b acc q

theorem k4_pay5_apply (a h : Vec Ideal S5000x128 .f32) (s : Vec Ideal S5000x1 .f32) (b acc : Vec Ideal S1x128 .f32)
    (q : Fin 128) :
    k4_pay5 a h s b acc (ix2 (0 : Fin 1) q)
      = acc (ix2 (0 : Fin 1) q) + ∑ p : Fin 5000, k4_pay3 a h s b (ix2 p q) * k4_pay3 a h s b (ix2 p q) :=
  k1_pay5_apply a h s b acc q

/-! ## The third layer's combine: the same payloads -/

theorem k7_pay3_eq (a h : Vec Ideal S5000x128 .f32) (s : Vec Ideal S5000x1 .f32) (b : Vec Ideal S1x128 .f32) :
    k7_pay3 a h s b = k1_pay3 a h s b := rfl
theorem k7_pay4_eq (a h : Vec Ideal S5000x128 .f32) (s : Vec Ideal S5000x1 .f32) (b acc : Vec Ideal S1x128 .f32) :
    k7_pay4 a h s b acc = k1_pay4 a h s b acc := rfl
theorem k7_pay5_eq (a h : Vec Ideal S5000x128 .f32) (s : Vec Ideal S5000x1 .f32) (b acc : Vec Ideal S1x128 .f32) :
    k7_pay5 a h s b acc = k1_pay5 a h s b acc := rfl

theorem k7_pay3_apply (a h : Vec Ideal S5000x128 .f32) (s : Vec Ideal S5000x1 .f32) (b : Vec Ideal S1x128 .f32)
    (p : Fin 5000) (q : Fin 128) :
    k7_pay3 a h s b (ix2 p q) = a (ix2 p q) + h (ix2 p q) * s (ix2 p (0 : Fin 1)) + b (ix2 (0 : Fin 1) q) :=
  k1_pay3_apply a h s b p q

theorem k7_pay1_apply (j : S1x128.Idx) : (k7_pay1 (F := Ideal)) j = 0 := k1_pay1_apply j
theorem k7_pay2_apply (j : S1x128.Idx) : (k7_pay2 (F := Ideal)) j = 0 := k1_pay2_apply j

theorem k7_pay4_apply (a h : Vec Ideal S5000x128 .f32) (s : Vec Ideal S5000x1 .f32) (b acc : Vec Ideal S1x128 .f32)
    (q : Fin 128) :
    k7_pay4 a h s b acc (ix2 (0 : Fin 1) q) = acc (ix2 (0 : Fin 1) q) + ∑ p : Fin 5000, k7_pay3 a h s b (ix2 p q) :=
  k1_pay4_apply a h s b acc q

theorem k7_pay5_apply (a h : Vec Ideal S5000x128 .f32) (s : Vec Ideal S5000x1 .f32) (b acc : Vec Ideal S1x128 .f32)
    (q : Fin 128) :
    k7_pay5 a h s b acc (ix2 (0 : Fin 1) q)
      = acc (ix2 (0 : Fin 1) q) + ∑ p : Fin 5000, k7_pay3 a h s b (ix2 p q) * k7_pay3 a h s b (ix2 p q) :=
  k1_pay5_apply a h s b acc q

end Cert.KernelIdeal.Fin
-- ==== Proof.KI.Totals1.lean ====
/-
  The combine regions' two rows of column totals, after the ten blocks.

  The region carries, per column, the total of the pre-normalisation values and the total of their squares over
  the blocks visited so far: both start at zero, and each block adds its own column sums. Whenever the value a
  block computes at its row p is the value of one whole-array function at row 5000 t + p, the totals after the
  tenth block are that function's column sums over all 50000 rows.
-/
import proofs.«422700_j84035330113950_1_alg».proof.Proof.KI.Final1
import proofs.«422700_j84035330113950_1_alg».proof.Proof.KI.BlockTotals

open scoped BigOperators

namespace Cert.KernelIdeal.Fin

open Idealize.ShloMosaic Idealize.ShloMosaic.ValueIdx Cert.KernelIdeal.Gen

/-- The total of the values: `a t`, `h t`, `s t`, `b t` are the four input blocks at point `t`, `A n` the carried row
    after point `n`, `P` the whole array's column `q`. -/
theorem sum_total (a h : ℕ → Vec Ideal S5000x128 .f32) (s : ℕ → Vec Ideal S5000x1 .f32) (b : ℕ → Vec Ideal S1x128 .f32)
    (A : ℕ → Vec Ideal S1x128 .f32)
    (h0 : A 0 = k1_pay4 (a 0) (h 0) (s 0) (b 0) (k1_pay1 (F := Ideal)))
    (hs : ∀ n, n + 1 < 10 → A (n + 1) = k1_pay4 (a (n + 1)) (h (n + 1)) (s (n + 1)) (b (n + 1)) (A n))
    (q : Fin 128) (P : Fin 50000 → EReal)
    (hP : ∀ (t : Fin 10) (p : Fin 5000), k1_pay3 (a t.val) (h t.val) (s t.val) (b t.val) (ix2 p q) = P (rowOf t p)) :
    A 9 (ix2 (0 : Fin 1) q) = ∑ r, P r := by
  refine acc_total (M := EReal) (fun n => A n (ix2 (0 : Fin 1) q))
    (fun n => ∑ p : Fin 5000, k1_pay3 (a n) (h n) (s n) (b n) (ix2 p q)) ?_ ?_ P ?_
  · show A 0 (ix2 (0 : Fin 1) q) = 0 + _
    rw [h0, k1_pay4_apply, k1_pay1_apply]
  · intro n hn
    show A (n + 1) (ix2 (0 : Fin 1) q) = A n (ix2 (0 : Fin 1) q) + _
    rw [hs n hn, k1_pay4_apply]
  · intro t
    exact Finset.sum_congr rfl fun p _ => hP t p

/-- The total of the squares. -/
theorem sumsq_total (a h : ℕ → Vec Ideal S5000x128 .f32) (s : ℕ → Vec Ideal S5000x1 .f32) (b : ℕ → Vec Ideal S1x128 .f32)
    (A : ℕ → Vec Ideal S1x128 .f32)
    (h0 : A 0 = k1_pay5 (a 0) (h 0) (s 0) (b 0) (k1_pay2 (F := Ideal)))
    (hs : ∀ n, n + 1 < 10 → A (n + 1) = k1_pay5 (a (n + 1)) (h (n + 1)) (s (n + 1)) (b (n + 1)) (A n))
    (q : Fin 128) (P : Fin 50000 → EReal)
    (hP : ∀ (t : Fin 10) (p : Fin 5000), k1_pay3 (a t.val) (h t.val) (s t.val) (b t.val) (ix2 p q) = P (rowOf t p)) :
    A 9 (ix2 (0 : Fin 1) q) = ∑ r, P r * P r := by
  refine acc_total (M := EReal) (fun n => A n (ix2 (0 : Fin 1) q))
    (fun n => ∑ p : Fin 5000, k1_pay3 (a n) (h n) (s n) (b n) (ix2 p q) * k1_pay3 (a n) (h n) (s n) (b n) (ix2 p q))
    ?_ ?_ (fun r => P r * P r) ?_
  · show A 0 (ix2 (0 : Fin 1) q) = 0 + _
    rw [h0, k1_pay5_apply, k1_pay2_apply]
  · intro n hn
    show A (n + 1) (ix2 (0 : Fin 1) q) = A n (ix2 (0 : Fin 1) q) + _
    rw [hs n hn, k1_pay5_apply]
  · intro t
    exact Finset.sum_congr rfl fun p _ => by rw [hP t p]

end Cert.KernelIdeal.Fin
-- ==== Proof.KI.TotalsDep.lean ====
/-
  The combine regions' totals, for sequences given only at the ten points.

  The carried rows and the input blocks exist at point n only together with the fact n < 10. The totals after the
  tenth block are read off the same recurrence as before: the sequences are extended by anything beyond the grid,
  where nothing consults them.
-/
import proofs.«422700_j84035330113950_1_alg».proof.Proof.KI.Totals1

open scoped BigOperators

namespace Cert.KernelIdeal.Fin

open Idealize.ShloMosaic Idealize.ShloMosaic.ValueIdx Cert.KernelIdeal.Gen

/-- A sequence given at the ten points, extended by zero rows. -/
private noncomputable def ext {S : Shape} (x : (n : ℕ) → n < 10 → Vec Ideal S .f32) (n : ℕ) : Vec Ideal S .f32 :=
  if hn : n < 10 then x n hn else fun _ => (0 : EReal)

private theorem ext_of_lt {S : Shape} (x : (n : ℕ) → n < 10 → Vec Ideal S .f32) (n : ℕ) (hn : n < 10) : ext x n = x n hn :=
  dif_pos hn

/-- The total of the values. -/
theorem sum_total_dep (a h : (n : ℕ) → n < 10 → Vec Ideal S5000x128 .f32) (s : (n : ℕ) → n < 10 → Vec Ideal S5000x1 .f32)
    (b : (n : ℕ) → n < 10 → Vec Ideal S1x128 .f32) (A : (n : ℕ) → n < 10 → Vec Ideal S1x128 .f32)
    (h0 : A 0 (by decide) = k1_pay4 (a 0 (by decide)) (h 0 (by decide)) (s 0 (by decide)) (b 0 (by decide)) (k1_pay1 (F := Ideal)))
    (hs : ∀ n (hn : n + 1 < 10), A (n + 1) hn
      = k1_pay4 (a (n + 1) hn) (h (n + 1) hn) (s (n + 1) hn) (b (n + 1) hn) (A n (Nat.lt_of_succ_lt hn)))
    (q : Fin 128) (P : Fin 50000 → EReal)
    (hP : ∀ (t : Fin 10) (p : Fin 5000),
      k1_pay3 (a t.val t.isLt) (h t.val t.isLt) (s t.val t.isLt) (b t.val t.isLt) (ix2 p q) = P (rowOf t p)) :
    A 9 (by decide) (ix2 (0 : Fin 1) q) = ∑ r, P r := by
  have key := sum_total (ext a) (ext h) (ext s) (ext b) (ext A)
    (by rw [ext_of_lt A 0 (by decide), ext_of_lt a 0 (by decide), ext_of_lt h 0 (by decide), ext_of_lt s 0 (by decide),
          ext_of_lt b 0 (by decide)]; exact h0)
    (fun n hn => by
      rw [ext_of_lt A (n + 1) hn, ext_of_lt a (n + 1) hn, ext_of_lt h (n + 1) hn, ext_of_lt s (n + 1) hn,
        ext_of_lt b (n + 1) hn, ext_of_lt A n (Nat.lt_of_succ_lt hn)]; exact hs n hn)
    q P
    (fun t p => by
      rw [ext_of_lt a t.val t.isLt, ext_of_lt h t.val t.isLt, ext_of_lt s t.val t.isLt, ext_of_lt b t.val t.isLt]
      exact hP t p)
  rw [ext_of_lt A 9 (by decide)] at key
  exact key

/-- The total of the squares. -/
theorem sumsq_total_dep (a h : (n : ℕ) → n < 10 → Vec Ideal S5000x128 .f32) (s : (n : ℕ) → n < 10 → Vec Ideal S5000x1 .f32)
    (b : (n : ℕ) → n < 10 → Vec Ideal S1x128 .f32) (A : (n : ℕ) → n < 10 → Vec Ideal S1x128 .f32)
    (h0 : A 0 (by decide) = k1_pay5 (a 0 (by decide)) (h 0 (by decide)) (s 0 (by decide)) (b 0 (by decide)) (k1_pay2 (F := Ideal)))
    (hs : ∀ n (hn : n + 1 < 10), A (n + 1) hn
      = k1_pay5 (a (n + 1) hn) (h (n + 1) hn) (s (n + 1) hn) (b (n + 1) hn) (A n (Nat.lt_of_succ_lt hn)))
    (q : Fin 128) (P : Fin 50000 → EReal)
    (hP : ∀ (t : Fin 10) (p : Fin 5000),
      k1_pay3 (a t.val t.isLt) (h t.val t.isLt) (s t.val t.isLt) (b t.val t.isLt) (ix2 p q) = P (rowOf t p)) :
    A 9 (by decide) (ix2 (0 : Fin 1) q) = ∑ r, P r * P r := by
  have key := sumsq_total (ext a) (ext h) (ext s) (ext b) (ext A)
    (by rw [ext_of_lt A 0 (by decide), ext_of_lt a 0 (by decide), ext_of_lt h 0 (by decide), ext_of_lt s 0 (by decide),
          ext_of_lt b 0 (by decide)]; exact h0)
    (fun n hn => by
      rw [ext_of_lt A (n + 1) hn, ext_of_lt a (n + 1) hn, ext_of_lt h (n + 1) hn, ext_of_lt s (n + 1) hn,
        ext_of_lt b (n + 1) hn, ext_of_lt A n (Nat.lt_of_succ_lt hn)]; exact hs n hn)
    q P
    (fun t p => by
      rw [ext_of_lt a t.val t.isLt, ext_of_lt h t.val t.isLt, ext_of_lt s t.val t.isLt, ext_of_lt b t.val t.isLt]
      exact hP t p)
  rw [ext_of_lt A 9 (by decide)] at key
  exact key

end Cert.KernelIdeal.Fin
-- ==== Proof.KI.Comb1.lean ====
/-
  The first combine region, read as whole arrays.

  The region leaves three arrays. The pre-normalisation array holds, at row i and column q,
      pre(i,q) = agg(i,q) + h(i,q) * selfnorm(i) + bias(q),
  each block of 5000 rows written by its own point of the grid. The two rows of totals are written once, after the
  last point, and hold the column sums of pre and of its squares over all 50000 rows: they are carried from point to
  point, starting at zero, each point adding its block's column sums.
-/
import proofs.«422700_j84035330113950_1_alg».proof.Proof.KI.R1c
import proofs.«422700_j84035330113950_1_alg».proof.Proof.KI.Arr1
import proofs.«422700_j84035330113950_1_alg».proof.Proof.KI.TotalsDep

set_option maxRecDepth 16384

noncomputable section

open scoped BigOperators

namespace Cert.KernelIdeal.Fin

open Cert.KernelIdeal Cert.KernelIdeal.Gen Cert.KernelIdeal.Reg
open Idealize.ShloMosaic Idealize.ShloMosaic.TcCoe
open Idealize.SL Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- A point of the ten is a point of the grid. -/
theorem lt_N1 {n : ℕ} (hn : n < 10) : n < cfg1.N := by rw [N1_eq]; exact hn

/-! ## The blocks and the carried rows at the ten points, as arrays of their literal shapes -/

/-- The aggregate block at point n. -/
def iblk1_A (c : Dev nD) (n : ℕ) (hn : n < 10) : Vec Ideal S5000x128 .f32 := iblk1 V c 0 ⟨n, lt_N1 hn⟩
/-- The product block at point n. -/
def iblk1_H (c : Dev nD) (n : ℕ) (hn : n < 10) : Vec Ideal S5000x128 .f32 := iblk1 V c 1 ⟨n, lt_N1 hn⟩
/-- The self-normalisation block at point n. -/
def iblk1_S (c : Dev nD) (n : ℕ) (hn : n < 10) : Vec Ideal S5000x1 .f32 := iblk1 V c 3 ⟨n, lt_N1 hn⟩
/-- The bias row at point n. -/
def iblk1_B (c : Dev nD) (n : ℕ) (hn : n < 10) : Vec Ideal S1x128 .f32 := iblk1 V c 2 ⟨n, lt_N1 hn⟩
/-- The carried total of the values after point n. -/
def acc1_fst (c : Dev nD) (n : ℕ) (hn : n < 10) : Vec Ideal S1x128 .f32 := (acc1 V c n (lt_N1 hn)).1
/-- The carried total of the squares after point n. -/
def acc1_snd (c : Dev nD) (n : ℕ) (hn : n < 10) : Vec Ideal S1x128 .f32 := (acc1 V c n (lt_N1 hn)).2

/-! ## The input blocks as entries of the named arrays -/

theorem iblk1_0_entry (c : Dev nD) (a : Vec Ideal S50000x128 .f32)
    (ha : (V c (Pipeline.arrRef spec1 0) : S50000x128.Idx → Elt Ideal .f32) = a) (t : Fin 10) (p : Fin 5000) (q : Fin 128) :
    iblk1_A V c t.val t.isLt (ix2 p q) = a (ix2 (rowOf t p) q) := by
  subst ha
  exact blockOf1_0_apply (dat1 V c) (pt1 t) p q _

theorem iblk1_1_entry (c : Dev nD) (h : Vec Ideal S50000x128 .f32)
    (hh : (V c (Pipeline.arrRef spec1 1) : S50000x128.Idx → Elt Ideal .f32) = h) (t : Fin 10) (p : Fin 5000) (q : Fin 128) :
    iblk1_H V c t.val t.isLt (ix2 p q) = h (ix2 (rowOf t p) q) := by
  subst hh
  exact blockOf1_1_apply (dat1 V c) (pt1 t) p q _

theorem iblk1_3_entry (c : Dev nD) (s : Vec Ideal S50000x1 .f32)
    (hs : (V c (Pipeline.arrRef spec1 3) : S50000x1.Idx → Elt Ideal .f32) = s) (t : Fin 10) (p : Fin 5000) :
    iblk1_S V c t.val t.isLt (ix2 p (0 : Fin 1)) = s (ix2 (rowOf t p) (0 : Fin 1)) := by
  subst hs
  exact blockOf1_3_apply (dat1 V c) (pt1 t) p 0 _

theorem iblk1_2_whole (c : Dev nD) (b : Vec Ideal S1x128 .f32)
    (hb : (V c (Pipeline.arrRef spec1 2) : S1x128.Idx → Elt Ideal .f32) = b) (t : Fin 10) :
    iblk1_B V c t.val t.isLt = b := by
  subst hb
  exact blockOf1_2_eq (dat1 V c) (pt1 t)

/-- What a point computes at its row p is the whole-array expression at row 5000 t + p. -/
theorem block_pre1 (c : Dev nD) (a h : Vec Ideal S50000x128 .f32) (b : Vec Ideal S1x128 .f32) (s : Vec Ideal S50000x1 .f32)
    (ha : (V c (Pipeline.arrRef spec1 0) : S50000x128.Idx → Elt Ideal .f32) = a)
    (hh : (V c (Pipeline.arrRef spec1 1) : S50000x128.Idx → Elt Ideal .f32) = h)
    (hb : (V c (Pipeline.arrRef spec1 2) : S1x128.Idx → Elt Ideal .f32) = b)
    (hs : (V c (Pipeline.arrRef spec1 3) : S50000x1.Idx → Elt Ideal .f32) = s)
    (t : Fin 10) (p : Fin 5000) (q : Fin 128) :
    k1_pay3 (iblk1_A V c t.val t.isLt) (iblk1_H V c t.val t.isLt) (iblk1_S V c t.val t.isLt) (iblk1_B V c t.val t.isLt) (ix2 p q)
      = a (ix2 (rowOf t p) q) + h (ix2 (rowOf t p) q) * s (ix2 (rowOf t p) (0 : Fin 1)) + b (ix2 (0 : Fin 1) q) := by
  rw [k1_pay3_apply, iblk1_0_entry V c a ha, iblk1_1_entry V c h hh, iblk1_3_entry V c s hs, iblk1_2_whole V c b hb]

/-! ## The three arrays -/

/-- A block's entries of the pre-normalisation array: what its point computed. -/
theorem arr1_4_block (c : Dev nD) (pre : Vec Ideal S50000x128 .f32)
    (hpre : ((dat1 V c).arrAt 4 cfg1.N : S50000x128.Idx → Elt Ideal .f32) = pre) (t : Fin 10) (p : Fin 5000) (q : Fin 128) :
    pre (ix2 (rowOf t p) q)
      = k1_pay3 (iblk1_A V c t.val t.isLt) (iblk1_H V c t.val t.isLt) (iblk1_S V c t.val t.isLt) (iblk1_B V c t.val t.isLt) (ix2 p q) := by
  rw [← hpre]
  refine (arr_entry1_4 (dat1 V c) t p q).trans ?_
  rw [after1_4_eq V c (pt1 t)]
  rfl

/-- The pre-normalisation array, entry by entry. -/
theorem arr1_4_entry (c : Dev nD) (a h : Vec Ideal S50000x128 .f32) (b : Vec Ideal S1x128 .f32) (s : Vec Ideal S50000x1 .f32)
    (pre : Vec Ideal S50000x128 .f32)
    (ha : (V c (Pipeline.arrRef spec1 0) : S50000x128.Idx → Elt Ideal .f32) = a)
    (hh : (V c (Pipeline.arrRef spec1 1) : S50000x128.Idx → Elt Ideal .f32) = h)
    (hb : (V c (Pipeline.arrRef spec1 2) : S1x128.Idx → Elt Ideal .f32) = b)
    (hs : (V c (Pipeline.arrRef spec1 3) : S50000x1.Idx → Elt Ideal .f32) = s)
    (hpre : ((dat1 V c).arrAt 4 cfg1.N : S50000x128.Idx → Elt Ideal .f32) = pre) (i : Fin 50000) (q : Fin 128) :
    pre (ix2 i q) = a (ix2 i q) + h (ix2 i q) * s (ix2 i (0 : Fin 1)) + b (ix2 (0 : Fin 1) q) := by
  obtain ⟨t, p, rfl⟩ : ∃ (t : Fin 10) (p : Fin 5000), i = rowOf t p := ⟨_, _, (rowOf_div_mod i).symm⟩
  rw [arr1_4_block V c pre hpre t p q]
  exact block_pre1 V c a h b s ha hh hb hs t p q

/-- The first row of totals: the column sums of the pre-normalisation array. -/
theorem arr1_5_total (c : Dev nD) (pre : Vec Ideal S50000x128 .f32) (sum : Vec Ideal S1x128 .f32)
    (hpre : ((dat1 V c).arrAt 4 cfg1.N : S50000x128.Idx → Elt Ideal .f32) = pre)
    (hsum : ((dat1 V c).arrAt 5 cfg1.N : S1x128.Idx → Elt Ideal .f32) = sum) (q : Fin 128) :
    sum (ix2 (0 : Fin 1) q) = ∑ i : Fin 50000, pre (ix2 i q) := by
  rw [← hsum, arr1_5 (dat1 V c), after1_5_eq V c (pt1 9)]
  exact sum_total_dep (iblk1_A V c) (iblk1_H V c) (iblk1_S V c) (iblk1_B V c) (acc1_fst V c)
    (congrArg Prod.fst (acc1_zero V c _))
    (fun n hn => congrArg Prod.fst (acc1_succ V c n _))
    q (fun r => pre (ix2 r q)) (fun t p => (arr1_4_block V c pre hpre t p q).symm)

/-- The second row of totals: the column sums of its squares. -/
theorem arr1_6_total (c : Dev nD) (pre : Vec Ideal S50000x128 .f32) (sumsq : Vec Ideal S1x128 .f32)
    (hpre : ((dat1 V c).arrAt 4 cfg1.N : S50000x128.Idx → Elt Ideal .f32) = pre)
    (hsumsq : ((dat1 V c).arrAt 6 cfg1.N : S1x128.Idx → Elt Ideal .f32) = sumsq) (q : Fin 128) :
    sumsq (ix2 (0 : Fin 1) q) = ∑ i : Fin 50000, pre (ix2 i q) * pre (ix2 i q) := by
  rw [← hsumsq, arr1_6 (dat1 V c), after1_6_eq V c (pt1 9)]
  exact sumsq_total_dep (iblk1_A V c) (iblk1_H V c) (iblk1_S V c) (iblk1_B V c) (acc1_snd V c)
    (congrArg Prod.snd (acc1_zero V c _))
    (fun n hn => congrArg Prod.snd (acc1_succ V c n _))
    q (fun r => pre (ix2 r q)) (fun t p => (arr1_4_block V c pre hpre t p q).symm)

/-- THE COMBINE REGION'S ARRAYS: with the four input arrays and the three output arrays named, the
    pre-normalisation array entry by entry, and the two rows of totals as sums over all rows. -/
theorem comb1_entry (c : Dev nD) (a h : Vec Ideal S50000x128 .f32) (b : Vec Ideal S1x128 .f32) (s : Vec Ideal S50000x1 .f32)
    (pre : Vec Ideal S50000x128 .f32) (sum sumsq : Vec Ideal S1x128 .f32)
    (ha : (V c (Pipeline.arrRef spec1 0) : S50000x128.Idx → Elt Ideal .f32) = a)
    (hh : (V c (Pipeline.arrRef spec1 1) : S50000x128.Idx → Elt Ideal .f32) = h)
    (hb : (V c (Pipeline.arrRef spec1 2) : S1x128.Idx → Elt Ideal .f32) = b)
    (hs : (V c (Pipeline.arrRef spec1 3) : S50000x1.Idx → Elt Ideal .f32) = s)
    (hpre : ((dat1 V c).arrAt 4 cfg1.N : S50000x128.Idx → Elt Ideal .f32) = pre)
    (hsum : ((dat1 V c).arrAt 5 cfg1.N : S1x128.Idx → Elt Ideal .f32) = sum)
    (hsumsq : ((dat1 V c).arrAt 6 cfg1.N : S1x128.Idx → Elt Ideal .f32) = sumsq) :
    (∀ (i : Fin 50000) (q : Fin 128),
        pre (ix2 i q) = a (ix2 i q) + h (ix2 i q) * s (ix2 i (0 : Fin 1)) + b (ix2 (0 : Fin 1) q))
    ∧ (∀ q : Fin 128, sum (ix2 (0 : Fin 1) q) = ∑ i : Fin 50000, pre (ix2 i q))
    ∧ (∀ q : Fin 128, sumsq (ix2 (0 : Fin 1) q) = ∑ i : Fin 50000, pre (ix2 i q) * pre (ix2 i q)) :=
  ⟨arr1_4_entry V c a h b s pre ha hh hb hs hpre, arr1_5_total V c pre sum hpre hsum, arr1_6_total V c pre sumsq hpre hsumsq⟩

end Cert.KernelIdeal.Fin

end
-- ==== Proof.KI.R4b.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import proofs.«422700_j84035330113950_1_alg».proof.Proof.KI.R4a
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces in payload form

Each case's stores, read back, are the body's payloads of the input blocks (and of the accumulators' earlier
contents): every store covers its whole buffer from offset zero, and every load reads a whole buffer. -/

theorem hz4 : (![0, 0] : Fin 2 → Nat) = fun _ => 0 := funext fun a => by fin_cases a <;> rfl

/-- The first point stores the combined block. -/
theorem out4_A_4_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) :
    out4_A_4 c i a1 ha1 a2 ha2 a3 ha3 a4 ha4 a5 ha5 a6 ha6 a7 ha7 a8 ha8 a9 ha9 hc0 hc1 x0 x1 x2 x3 = k4_pay3 x0 x1 x3 x2 := by
  unfold out4_A_4
  rw [View.read_writes_junk_eq_canon]
  unfold kernelRun4_A
  dsimp only
  sl_unfold_words
  rw [View.canon_unit_zero (S := S5000x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4]

/-- The first point leaves the block's column sums over the zeroed accumulator. -/
theorem sout4_A_0_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) :
    sout4_A_0 c i a1 ha1 a2 ha2 a3 ha3 a4 ha4 a5 ha5 a6 ha6 a7 ha7 a8 ha8 a9 ha9 hc0 hc1 x0 x1 x2 x3 = k4_pay4 x0 x1 x3 x2 (k4_pay1 (F := F)) := by
  unfold sout4_A_0
  rw [View.read_writes_junk_eq_canon]
  unfold kernelRun4_A
  dsimp only
  sl_unfold_words
  rw [View.canon_cons_unit_zero (S := S1x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4, View.readCov_unit_zero (S := S1x128) _ hz4]

/-- The first point leaves the column sums of the block's squares over the zeroed accumulator. -/
theorem sout4_A_1_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond4_0 i) (hc1 : ¬cond4_1 i)
    (x0 : Vec F S5000x128 .f32) (x1 : Vec F S5000x128 .f32) (x2 : Vec F S1x128 .f32) (x3 : Vec F S5000x1 .f32) :
    sout4_A_1 c i a1 ha1 a2 ha2 a3 ha3 a4 ha4 a5 ha5 a6 ha6 a7 ha7 a8 ha8 a9 ha9 hc0 hc1 x0 x1 x2 x3 = k4_pay5 x0 x1 x3 x2 (k4_pay2 (F := F)) := by
  unfold sout4_A_1
  rw [View.read_writes_junk_eq_canon]
  unfold kernelRun4_A
  dsimp only
  sl_unfold_words
  rw [View.canon_cons_unit_zero (S := S1x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4, View.readCov_unit_zero (S := S1x128) _ hz4]

/-- A middle point stores the combined block. -/
theorem out4_B_4_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    out4_B_4 c i a1 ha1 a2 ha2 a3 ha3 a4 ha4 a5 ha5 a6 ha6 a7 ha7 a8 ha8 a9 ha9 hc0 hc1 x0 x1 x2 x3 xs0 xs1 = k4_pay3 x0 x1 x3 x2 := by
  unfold out4_B_4
  rw [View.read_writes_junk_eq_canon]
  unfold kernelRun4_B
  dsimp only
  sl_unfold_words
  rw [View.canon_unit_zero (S := S5000x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4, ha8.read_unread, ha9.read_unread]

/-- A middle point adds the block's column sums to the accumulator. -/
theorem sout4_B_0_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout4_B_0 c i a1 ha1 a2 ha2 a3 ha3 a4 ha4 a5 ha5 a6 ha6 a7 ha7 a8 ha8 a9 ha9 hc0 hc1 x0 x1 x2 x3 xs0 xs1 = k4_pay4 x0 x1 x3 x2 xs0 := by
  unfold sout4_B_0
  rw [View.read_writes_junk_eq_canon]
  unfold kernelRun4_B
  dsimp only
  sl_unfold_words
  rw [View.canon_unit_zero (S := S1x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4, ha8.read_unread, ha9.read_unread]

/-- A middle point adds the column sums of the block's squares to the accumulator. -/
theorem sout4_B_1_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : ¬cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout4_B_1 c i a1 ha1 a2 ha2 a3 ha3 a4 ha4 a5 ha5 a6 ha6 a7 ha7 a8 ha8 a9 ha9 hc0 hc1 x0 x1 x2 x3 xs0 xs1 = k4_pay5 x0 x1 x3 x2 xs1 := by
  unfold sout4_B_1
  rw [View.read_writes_junk_eq_canon]
  unfold kernelRun4_B
  dsimp only
  sl_unfold_words
  rw [View.canon_unit_zero (S := S1x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4, ha8.read_unread, ha9.read_unread]

/-- The last point stores the combined block. -/
theorem out4_C_4_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    out4_C_4 c i a1 ha1 a2 ha2 a3 ha3 a4 ha4 a5 ha5 a6 ha6 a7 ha7 a8 ha8 a9 ha9 hc0 hc1 x0 x1 x2 x3 xs0 xs1 = k4_pay3 x0 x1 x3 x2 := by
  unfold out4_C_4
  rw [View.read_writes_junk_eq_canon]
  unfold kernelRun4_C
  dsimp only
  sl_unfold_words
  rw [View.canon_unit_zero (S := S5000x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4, ha8.read_unread, ha9.read_unread]

/-- The last point adds the block's column sums to the accumulator. -/
theorem sout4_C_0_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout4_C_0 c i a1 ha1 a2 ha2 a3 ha3 a4 ha4 a5 ha5 a6 ha6 a7 ha7 a8 ha8 a9 ha9 hc0 hc1 x0 x1 x2 x3 xs0 xs1 = k4_pay4 x0 x1 x3 x2 xs0 := by
  unfold sout4_C_0
  rw [View.read_writes_junk_eq_canon]
  unfold kernelRun4_C
  dsimp only
  sl_unfold_words
  rw [View.canon_unit_zero (S := S1x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4, ha8.read_unread, ha9.read_unread]

/-- The last point adds the column sums of the block's squares to the accumulator. -/
theorem sout4_C_1_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout4_C_1 c i a1 ha1 a2 ha2 a3 ha3 a4 ha4 a5 ha5 a6 ha6 a7 ha7 a8 ha8 a9 ha9 hc0 hc1 x0 x1 x2 x3 xs0 xs1 = k4_pay5 x0 x1 x3 x2 xs1 := by
  unfold sout4_C_1
  rw [View.read_writes_junk_eq_canon]
  unfold kernelRun4_C
  dsimp only
  sl_unfold_words
  rw [View.canon_unit_zero (S := S1x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4, ha8.read_unread, ha9.read_unread]

/-- The last point copies the sum accumulator, as it has just left it, to the sum output. -/
theorem out4_C_5_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    out4_C_5 c i a1 ha1 a2 ha2 a3 ha3 a4 ha4 a5 ha5 a6 ha6 a7 ha7 a8 ha8 a9 ha9 hc0 hc1 x0 x1 x2 x3 xs0 xs1 = k4_pay4 x0 x1 x3 x2 xs0 := by
  unfold out4_C_5
  rw [View.read_writes_junk_eq_canon]
  unfold kernelRun4_C
  dsimp only
  sl_unfold_words
  rw [View.canon_unit_zero (S := S1x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4, ha8.read_unread, ha9.read_unread, View.readCov_unit_zero (S := S1x128) _ hz4]

/-- The last point copies the sum-of-squares accumulator, as it has just left it, to its output. -/
theorem out4_C_6_eq (c : Dev nD) (i : grid4.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond4_0 i) (hc1 : cond4_1 i)
    (x0 : Vec F S5000x128 .f32) (x1 : Vec F S5000x128 .f32) (x2 : Vec F S1x128 .f32) (x3 : Vec F S5000x1 .f32) (xs0 : Vec F S1x128 .f32) (xs1 : Vec F S1x128 .f32) :
    out4_C_6 c i a1 ha1 a2 ha2 a3 ha3 a4 ha4 a5 ha5 a6 ha6 a7 ha7 a8 ha8 a9 ha9 hc0 hc1 x0 x1 x2 x3 xs0 xs1 = k4_pay5 x0 x1 x3 x2 xs1 := by
  unfold out4_C_6
  rw [View.read_writes_junk_eq_canon]
  unfold kernelRun4_C
  dsimp only
  sl_unfold_words
  rw [View.canon_unit_zero (S := S1x128) hz4]
  simp only [View.readAt_eq_ld, ha1.read_unread, ha2.read_unread, ha3.read_unread, ha4.read_unread, View.ld_unit_zero (S := S5000x128) hz4, View.ld_unit_zero (S := S1x128) hz4, View.ld_unit_zero (S := S5000x1) hz4, ha8.read_unread, ha9.read_unread, View.readCov_unit_zero (S := S1x128) _ hz4]

end Cert.KernelIdeal.Reg

end
-- ==== Proof.KI.R4c.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import proofs.«422700_j84035330113950_1_alg».proof.Proof.KI.R4
import proofs.«422700_j84035330113950_1_alg».proof.Proof.KI.R4b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulation in closed form -/

/-- The case equations of `outsAt4` at a successor position. -/
theorem outsAt4_succ_C (c : Dev nD) (n : ℕ) (hn : n + 1 < cfg4.N) (h1 : n + 1 = 9) :
    outsAt4 V c (n + 1) hn = (out4_C_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, out4_C_6 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2) :=
  dif_pos h1

theorem outsAt4_succ_B (c : Dev nD) (n : ℕ) (hn : n + 1 < cfg4.N) (h1 : ¬n + 1 = 9) :
    outsAt4 V c (n + 1) hn = (out4_B_4 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (outsAt4 V c n (Nat.lt_of_succ_lt hn)).2.2.2.1 (outsAt4 V c n (Nat.lt_of_succ_lt hn)).2.2.2.2) :=
  dif_neg h1

theorem outsAt4_zero (c : Dev nD) (hn : 0 < cfg4.N) :
    outsAt4 V c 0 hn = (out4_A_4 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩)) :=
  rfl

/-- THE TWO ACCUMULATORS after point `n`, in closed form: at the first point the column sums of the combined block
    (resp. of its squares) over the zero row, afterwards over what the point before left. -/
noncomputable def acc4 (c : Dev nD) : (n : ℕ) → n < cfg4.N → Vec F S1x128 .f32 × Vec F S1x128 .f32
  | 0, hn => (k4_pay4 (iblk4 V c 0 ⟨0, hn⟩) (iblk4 V c 1 ⟨0, hn⟩) (iblk4 V c 3 ⟨0, hn⟩) (iblk4 V c 2 ⟨0, hn⟩) (k4_pay1 (F := F)), k4_pay5 (iblk4 V c 0 ⟨0, hn⟩) (iblk4 V c 1 ⟨0, hn⟩) (iblk4 V c 3 ⟨0, hn⟩) (iblk4 V c 2 ⟨0, hn⟩) (k4_pay2 (F := F)))
  | n + 1, hn => (k4_pay4 (iblk4 V c 0 ⟨n + 1, hn⟩) (iblk4 V c 1 ⟨n + 1, hn⟩) (iblk4 V c 3 ⟨n + 1, hn⟩) (iblk4 V c 2 ⟨n + 1, hn⟩) (acc4 c n (Nat.lt_of_succ_lt hn)).1, k4_pay5 (iblk4 V c 0 ⟨n + 1, hn⟩) (iblk4 V c 1 ⟨n + 1, hn⟩) (iblk4 V c 3 ⟨n + 1, hn⟩) (iblk4 V c 2 ⟨n + 1, hn⟩) (acc4 c n (Nat.lt_of_succ_lt hn)).2)

theorem acc4_zero (c : Dev nD) (hn : 0 < cfg4.N) :
    acc4 V c 0 hn = (k4_pay4 (iblk4 V c 0 ⟨0, hn⟩) (iblk4 V c 1 ⟨0, hn⟩) (iblk4 V c 3 ⟨0, hn⟩) (iblk4 V c 2 ⟨0, hn⟩) (k4_pay1 (F := F)), k4_pay5 (iblk4 V c 0 ⟨0, hn⟩) (iblk4 V c 1 ⟨0, hn⟩) (iblk4 V c 3 ⟨0, hn⟩) (iblk4 V c 2 ⟨0, hn⟩) (k4_pay2 (F := F))) := rfl

theorem acc4_succ (c : Dev nD) (n : ℕ) (hn : n + 1 < cfg4.N) :
    acc4 V c (n + 1) hn = (k4_pay4 (iblk4 V c 0 ⟨n + 1, hn⟩) (iblk4 V c 1 ⟨n + 1, hn⟩) (iblk4 V c 3 ⟨n + 1, hn⟩) (iblk4 V c 2 ⟨n + 1, hn⟩) (acc4 V c n (Nat.lt_of_succ_lt hn)).1, k4_pay5 (iblk4 V c 0 ⟨n + 1, hn⟩) (iblk4 V c 1 ⟨n + 1, hn⟩) (iblk4 V c 3 ⟨n + 1, hn⟩) (iblk4 V c 2 ⟨n + 1, hn⟩) (acc4 V c n (Nat.lt_of_succ_lt hn)).2) := rfl

/-- After every point the two accumulators hold the closed form, and so do the two statistics components (which
    repeat them before the last point and are copied from them at the last). -/
theorem accAt4 (c : Dev nD) : ∀ (n : ℕ) (hn : n < cfg4.N),
    (outsAt4 V c n hn).2.1 = (acc4 V c n hn).1 ∧ (outsAt4 V c n hn).2.2.1 = (acc4 V c n hn).2
      ∧ (outsAt4 V c n hn).2.2.2.1 = (acc4 V c n hn).1 ∧ (outsAt4 V c n hn).2.2.2.2 = (acc4 V c n hn).2 := by
  intro n
  induction n with
  | zero =>
    intro hn
    rw [outsAt4_zero V c hn, acc4_zero V c hn]; dsimp only
    exact ⟨sout4_A_0_eq (F := F) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩),
      sout4_A_1_eq (F := F) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩),
      sout4_A_0_eq (F := F) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩),
      sout4_A_1_eq (F := F) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) scM4_0 (Memref.isWhole_whole _) scM4_1 (Memref.isWhole_whole _) ((hcond4_0 ⟨0, hn⟩).mpr rfl) (fun h => (fun h9 : (0 : ℕ) = 9 => absurd h9 (by decide)) ((hcond4_1 ⟨0, hn⟩).mp h)) (iblk4 V c 0 ⟨0, hn⟩) (iblk4 V c 1 ⟨0, hn⟩) (iblk4 V c 2 ⟨0, hn⟩) (iblk4 V c 3 ⟨0, hn⟩)⟩
  | succ n ih =>
    intro hn
    obtain ⟨-, -, e0, e1⟩ := ih (Nat.lt_of_succ_lt hn)
    by_cases h1 : n + 1 = 9
    · rw [outsAt4_succ_C V c n hn h1, acc4_succ V c n hn]; dsimp only
      rw [e0, e1]
      exact ⟨out4_C_5_eq (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (acc4 V c n (Nat.lt_of_succ_lt hn)).1 (acc4 V c n (Nat.lt_of_succ_lt hn)).2,
        out4_C_6_eq (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (acc4 V c n (Nat.lt_of_succ_lt hn)).1 (acc4 V c n (Nat.lt_of_succ_lt hn)).2,
        sout4_C_0_eq (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (acc4 V c n (Nat.lt_of_succ_lt hn)).1 (acc4 V c n (Nat.lt_of_succ_lt hn)).2,
        sout4_C_1_eq (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (acc4 V c n (Nat.lt_of_succ_lt hn)).1 (acc4 V c n (Nat.lt_of_succ_lt hn)).2⟩
    · rw [outsAt4_succ_B V c n hn h1, acc4_succ V c n hn]; dsimp only
      rw [e0, e1]
      exact ⟨sout4_B_0_eq (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (acc4 V c n (Nat.lt_of_succ_lt hn)).1 (acc4 V c n (Nat.lt_of_succ_lt hn)).2,
        sout4_B_1_eq (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (acc4 V c n (Nat.lt_of_succ_lt hn)).1 (acc4 V c n (Nat.lt_of_succ_lt hn)).2,
        sout4_B_0_eq (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (acc4 V c n (Nat.lt_of_succ_lt hn)).1 (acc4 V c n (Nat.lt_of_succ_lt hn)).2,
        sout4_B_1_eq (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) scM4_0 (Memref.isWhole_whole _) scM4_1 (Memref.isWhole_whole _) (fun h => (Nat.succ_ne_zero n) ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (acc4 V c n (Nat.lt_of_succ_lt hn)).1 (acc4 V c n (Nat.lt_of_succ_lt hn)).2⟩

/-! ## What the proof data's outputs hold, in payload form -/

/-- The block output after point `t`: the combined block of the four input blocks (aggregate, projection, self-loop
    norm, bias). -/
theorem after4_4_eq (c : Dev nD) (t : Fin cfg4.N) :
    (dat4 V c).after 4 t = k4_pay3 (iblk4 V c 0 t) (iblk4 V c 1 t) (iblk4 V c 3 t) (iblk4 V c 2 t) := by
  rw [after4_4]
  by_cases h0 : t.val = 0
  · have h1 : ¬t.val = 9 := by omega
    rw [outsAt4_A V c t h0 h1]; dsimp only
    exact out4_A_4_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t)
  · by_cases h1 : t.val = 9
    · rw [outsAt4_C V c t h0 h1]; dsimp only
      exact out4_C_4_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2
    · rw [outsAt4_B V c t h0 h1]; dsimp only
      exact out4_B_4_eq (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (outsAt4 V c (t.val - 1) (Nat.lt_of_le_of_lt (Nat.sub_le _ _) t.isLt)).2.2.2.1 (outsAt4 V c (t.val - 1) (Nat.lt_of_le_of_lt (Nat.sub_le _ _) t.isLt)).2.2.2.2

/-- The sum output's component after point `t` is the sum accumulator's closed form there (what the last point
    writes back is its value at the last point). -/
theorem after4_5_eq (c : Dev nD) (t : Fin cfg4.N) : (dat4 V c).after 5 t = (acc4 V c t.val t.isLt).1 :=
  (after4_5 V c t).trans (accAt4 V c t.val t.isLt).1

/-- The same for the sum-of-squares output. -/
theorem after4_6_eq (c : Dev nD) (t : Fin cfg4.N) : (dat4 V c).after 6 t = (acc4 V c t.val t.isLt).2 :=
  (after4_6 V c t).trans (accAt4 V c t.val t.isLt).2.1

/-- At the last point, spelled at the literal position. -/
theorem after4_5_last (c : Dev nD) (hn : 9 < cfg4.N) : (dat4 V c).after 5 ⟨9, hn⟩ = (acc4 V c 9 hn).1 :=
  after4_5_eq V c ⟨9, hn⟩
theorem after4_6_last (c : Dev nD) (hn : 9 < cfg4.N) : (dat4 V c).after 6 ⟨9, hn⟩ = (acc4 V c 9 hn).2 :=
  after4_6_eq V c ⟨9, hn⟩

end Cert.KernelIdeal.Reg

end
-- ==== Proof.KI.Arr4.lean ====
import proofs.«422700_j84035330113950_1_alg».proof.Proof.Gen.KernelIdeal.Launch
import proofs.«422700_j84035330113950_1_alg».proof.Proof.Gen.KernelIdeal.Points
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

/-! # Region 4, from blocks to the arrays, for any proof data of the pipeline

Seven windows on a grid of ten points. Windows 0, 1 (`[5000,128]` blocks), 3 (`[5000,1]` blocks) and the output window 4
(`[5000,128]` blocks) are at block `(t, 0)` at point `t`: rows `5000 t … 5000 t + 4999` of their arrays. Window 2 and the
output windows 5, 6 (`[1,128]`) are their whole arrays at every point; windows 5 and 6 are written back once, at the last
point. Nothing here depends on what the body computes: the statements are about any proof data `dat` of the pipeline. -/

/-- The printed index maps over the grid: at point `t` windows 0, 1, 3, 4 are at block `(t, 0)`, windows 2, 5, 6 at
    block `(0, 0)`. -/
theorem index4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_3.index t (0 : Fin 2) = t.val ∧ win4_3.index t (1 : Fin 2) = 0
    ∧ win4_4.index t (0 : Fin 2) = t.val ∧ win4_4.index t (1 : Fin 2) = 0
    ∧ win4_2.index t (0 : Fin 2) = 0 ∧ win4_2.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- The grid has ten points. -/
theorem N4_eq : cfg4.N = 10 := N_4

/-- Point `t` of the ten, as a point of the grid. -/
abbrev pt4 (t : Fin 10) : Fin cfg4.N := ⟨t.val, by rw [N4_eq]; exact t.isLt⟩

/-! ## The blocked output, window 4 -/

/-- Distinct points write back distinct blocks of window 4. -/
theorem index_inj4_4 : ∀ t t' : Fin cfg4.N, win4_4.index t = win4_4.index t' → t = t' :=
  (by decide +kernel : ∀ t t' : Fin grid4.N, win4_4.index t = win4_4.index t' → t = t')

/-- So two points' blocks of window 4 share no index of the array. -/
theorem disjoint4_4 : ∀ t t' : Fin cfg4.N, (cfg4.win 4).flush t = true → (cfg4.win 4).flush t' = true → t ≠ t' →
    Disjoint ((cfg4.win 4).blk t).view.set ((cfg4.win 4).blk t').view.set :=
  fun t t' _ _ hne => (cfg4.win 4).disjoint_blk fun h => hne (index_inj4_4 t t' h)

/-- Entry `(p, q)` of window 4's block at point `t` sits in the array at row `5000 t + p`, column `q`. -/
theorem blk_emb4_4 (t : Fin cfg4.N) (p : Fin 5000) (q : Fin 128) (h : 5000 * t.val + p.val < 50000) :
    ((cfg4.win 4).blk t).view.emb (ix2 p q : S5000x128.Idx) = (ix2 (⟨5000 * t.val + p.val, h⟩ : Fin 50000) q : S50000x128.Idx) := by
  obtain ⟨-, -, -, -, -, -, e0, e1, -, -, -, -, -, -⟩ := index4 t
  funext a; apply Fin.ext
  match a with
  | ⟨0, _⟩ => show win4_4.index t (0 : Fin 2) * 5000 + 1 * p.val = 5000 * t.val + p.val; rw [e0]; omega
  | ⟨1, _⟩ => show win4_4.index t (1 : Fin 2) * 128 + 1 * q.val = q.val; rw [e1]; omega

section
variable {c : Dev nD} (dat : Dat τ (Elt F) Unit ℕ (UR sig nD τ) ℕ cfg4 c)

/-- WINDOW 4'S ARRAY after the run, at a point of the grid: row `5000 t + p`, column `q` holds entry `(p, q)` of what the
    body left in the window's buffer at point `t` (every point writes its own block back, and no other point's block meets it). -/
theorem arr_entry4_4_at (t : Fin cfg4.N) (p : Fin 5000) (q : Fin 128) (h : 5000 * t.val + p.val < 50000) :
    dat.arrAt 4 cfg4.N (ix2 (⟨5000 * t.val + p.val, h⟩ : Fin 50000) q : S50000x128.Idx)
      = (dat.after 4 t : Vec F S5000x128 .f32) (ix2 p q) := by
  have hf := dat.arrAt_emb_eq_flushed 4 disjoint4_4 t (flush4_4 t) (ix2 p q : S5000x128.Idx)
  rw [blk_emb4_4 t p q h] at hf
  refine hf.trans ?_
  show (cfg4.win 4).cut (grid4.coords t) (dat.after 4 t) (ix2 p q : S5000x128.Idx) = _
  rfl

/-- The same over the ten points by number. -/
theorem arr_entry4_4 (t : Fin 10) (p : Fin 5000) (q : Fin 128) :
    dat.arrAt 4 cfg4.N (ix2 (⟨5000 * t.val + p.val, by have := t.isLt; have := p.isLt; omega⟩ : Fin 50000) q : S50000x128.Idx)
      = (dat.after 4 (pt4 t) : Vec F S5000x128 .f32) (ix2 p q) :=
  arr_entry4_4_at dat (pt4 t) p q _

end

/-! ## The two row outputs, windows 5 and 6: written back once, after the last point -/

/-- Window 5 is written back at the last point only. -/
theorem flush_last4_5 (t : Fin cfg4.N) (hf : (cfg4.win 5).flush t = true) : t = pt4 9 := by
  have h := (flush4_5 t).mp hf
  have hN : t.val < 10 := t.isLt.trans_eq N4_eq
  exact Fin.ext (by show t.val = 9; omega)

/-- So no two distinct points write window 5 back. -/
theorem disjoint4_5 : ∀ t t' : Fin cfg4.N, (cfg4.win 5).flush t = true → (cfg4.win 5).flush t' = true → t ≠ t' →
    Disjoint ((cfg4.win 5).blk t).view.set ((cfg4.win 5).blk t').view.set :=
  fun t t' hf hf' hne => absurd ((flush_last4_5 t hf).trans (flush_last4_5 t' hf').symm) hne

/-- Window 5's block is its whole `[1,128]` array: an index of the block is the same index of the array. -/
theorem whole_emb4_5 (t : Fin cfg4.N) (j : S1x128.Idx) : ((cfg4.win 5).blk t).view.emb j = (j : S1x128.Idx) := by
  obtain ⟨-, -, -, -, -, -, -, -, -, -, e0, e1, -, -⟩ := index4 t
  funext a; apply Fin.ext
  match a with
  | ⟨0, _⟩ => show win4_5.index t (0 : Fin 2) * 1 + 1 * (j 0).val = (j 0).val; rw [e0]; omega
  | ⟨1, _⟩ => show win4_5.index t (1 : Fin 2) * 128 + 1 * (j 1).val = (j 1).val; rw [e1]; omega

/-- Window 6 is written back at the last point only. -/
theorem flush_last4_6 (t : Fin cfg4.N) (hf : (cfg4.win 6).flush t = true) : t = pt4 9 := by
  have h := (flush4_6 t).mp hf
  have hN : t.val < 10 := t.isLt.trans_eq N4_eq
  exact Fin.ext (by show t.val = 9; omega)

/-- So no two distinct points write window 6 back. -/
theorem disjoint4_6 : ∀ t t' : Fin cfg4.N, (cfg4.win 6).flush t = true → (cfg4.win 6).flush t' = true → t ≠ t' →
    Disjoint ((cfg4.win 6).blk t).view.set ((cfg4.win 6).blk t').view.set :=
  fun t t' hf hf' hne => absurd ((flush_last4_6 t hf).trans (flush_last4_6 t' hf').symm) hne

/-- Window 6's block is its whole `[1,128]` array: an index of the block is the same index of the array. -/
theorem whole_emb4_6 (t : Fin cfg4.N) (j : S1x128.Idx) : ((cfg4.win 6).blk t).view.emb j = (j : S1x128.Idx) := by
  obtain ⟨-, -, -, -, -, -, -, -, -, -, -, -, e0, e1⟩ := index4 t
  funext a; apply Fin.ext
  match a with
  | ⟨0, _⟩ => show win4_6.index t (0 : Fin 2) * 1 + 1 * (j 0).val = (j 0).val; rw [e0]; omega
  | ⟨1, _⟩ => show win4_6.index t (1 : Fin 2) * 128 + 1 * (j 1).val = (j 1).val; rw [e1]; omega

section
variable {c : Dev nD} (dat : Dat τ (Elt F) Unit ℕ (UR sig nD τ) ℕ cfg4 c)

/-- WINDOW 5'S ARRAY after the run is what the body left in the window's buffer at the last point. -/
theorem arr4_5 : (dat.arrAt 5 cfg4.N : S1x128.Idx → Elt F .f32) = (dat.after 5 (pt4 9) : Vec F S1x128 .f32) := by
  funext j
  have hf := dat.arrAt_emb_eq_flushed 5 disjoint4_5 (pt4 9) ((flush4_5 (pt4 9)).mpr rfl) (j : S1x128.Idx)
  rw [whole_emb4_5 (pt4 9) j] at hf
  refine hf.trans ?_
  show (cfg4.win 5).cut (grid4.coords (pt4 9)) (dat.after 5 (pt4 9)) (j : S1x128.Idx) = _
  rfl

/-- WINDOW 6'S ARRAY after the run is what the body left in the window's buffer at the last point. -/
theorem arr4_6 : (dat.arrAt 6 cfg4.N : S1x128.Idx → Elt F .f32) = (dat.after 6 (pt4 9) : Vec F S1x128 .f32) := by
  funext j
  have hf := dat.arrAt_emb_eq_flushed 6 disjoint4_6 (pt4 9) ((flush4_6 (pt4 9)).mpr rfl) (j : S1x128.Idx)
  rw [whole_emb4_6 (pt4 9) j] at hf
  refine hf.trans ?_
  show (cfg4.win 6).cut (grid4.coords (pt4 9)) (dat.after 6 (pt4 9)) (j : S1x128.Idx) = _
  rfl

end

/-! ## The input blocks as entries of their arrays -/

/-- Window 2's block is its whole `[1,128]` array: an index of the block is the same index of the array. -/
theorem whole_emb4_2 (t : Fin cfg4.N) (j : S1x128.Idx) : ((cfg4.win 2).blk t).view.emb j = (j : S1x128.Idx) := by
  obtain ⟨-, -, -, -, -, -, -, -, e0, e1, -, -, -, -⟩ := index4 t
  funext a; apply Fin.ext
  match a with
  | ⟨0, _⟩ => show win4_2.index t (0 : Fin 2) * 1 + 1 * (j 0).val = (j 0).val; rw [e0]; omega
  | ⟨1, _⟩ => show win4_2.index t (1 : Fin 2) * 128 + 1 * (j 1).val = (j 1).val; rw [e1]; omega

section
variable {c : Dev nD} (dat : Dat τ (Elt F) Unit ℕ (UR sig nD τ) ℕ cfg4 c)

/-- Entry `(p, q)` of window 0's block at point `t` is row `5000 t + p`, column `q` of its array at entry. -/
theorem blockOf4_0_apply (t : Fin cfg4.N) (p : Fin 5000) (q : Fin 128) (h : 5000 * t.val + p.val < 50000) :
    (dat.blockOf 0 t : Vec F S5000x128 .f32) (ix2 p q)
      = (dat.A 0 : S50000x128.Idx → Elt F .f32) (ix2 (⟨5000 * t.val + p.val, h⟩ : Fin 50000) q) := by
  obtain ⟨e0, e1, -, -, -, -, -, -, -, -, -, -, -, -⟩ := index4 t
  unfold Dat.blockOf
  rw [View.read_apply]
  show (dat.A 0 : S50000x128.Idx → Elt F .f32) _ = _
  congr 1
  funext a; apply Fin.ext
  match a with
  | ⟨0, _⟩ => show win4_0.index t (0 : Fin 2) * 5000 + 1 * p.val = 5000 * t.val + p.val; rw [e0]; omega
  | ⟨1, _⟩ => show win4_0.index t (1 : Fin 2) * 128 + 1 * q.val = q.val; rw [e1]; omega

/-- Entry `(p, q)` of window 1's block at point `t` is row `5000 t + p`, column `q` of its array at entry. -/
theorem blockOf4_1_apply (t : Fin cfg4.N) (p : Fin 5000) (q : Fin 128) (h : 5000 * t.val + p.val < 50000) :
    (dat.blockOf 1 t : Vec F S5000x128 .f32) (ix2 p q)
      = (dat.A 1 : S50000x128.Idx → Elt F .f32) (ix2 (⟨5000 * t.val + p.val, h⟩ : Fin 50000) q) := by
  obtain ⟨-, -, e0, e1, -, -, -, -, -, -, -, -, -, -⟩ := index4 t
  unfold Dat.blockOf
  rw [View.read_apply]
  show (dat.A 1 : S50000x128.Idx → Elt F .f32) _ = _
  congr 1
  funext a; apply Fin.ext
  match a with
  | ⟨0, _⟩ => show win4_1.index t (0 : Fin 2) * 5000 + 1 * p.val = 5000 * t.val + p.val; rw [e0]; omega
  | ⟨1, _⟩ => show win4_1.index t (1 : Fin 2) * 128 + 1 * q.val = q.val; rw [e1]; omega

/-- Entry `(p, z)` of window 3's `[5000,1]` block at point `t` is row `5000 t + p` of its one-column array at entry. -/
theorem blockOf4_3_apply (t : Fin cfg4.N) (p : Fin 5000) (z : Fin 1) (h : 5000 * t.val + p.val < 50000) :
    (dat.blockOf 3 t : Vec F S5000x1 .f32) (ix2 p z)
      = (dat.A 3 : S50000x1.Idx → Elt F .f32) (ix2 (⟨5000 * t.val + p.val, h⟩ : Fin 50000) z) := by
  obtain ⟨-, -, -, -, e0, e1, -, -, -, -, -, -, -, -⟩ := index4 t
  unfold Dat.blockOf
  rw [View.read_apply]
  show (dat.A 3 : S50000x1.Idx → Elt F .f32) _ = _
  congr 1
  funext a; apply Fin.ext
  match a with
  | ⟨0, _⟩ => show win4_3.index t (0 : Fin 2) * 5000 + 1 * p.val = 5000 * t.val + p.val; rw [e0]; omega
  | ⟨1, _⟩ => show win4_3.index t (1 : Fin 2) * 1 + 1 * z.val = z.val; rw [e1]; omega

/-- Window 2's block is its whole `[1,128]` array at every point. -/
theorem blockOf4_2_eq (t : Fin cfg4.N) :
    (dat.blockOf 2 t : Vec F S1x128 .f32) = (dat.A 2 : S1x128.Idx → Elt F .f32) := by
  funext j
  unfold Dat.blockOf
  rw [View.read_apply, whole_emb4_2 t j]
  rfl

end

end Cert.KernelIdeal.Reg

end
-- ==== Proof.KI.Comb4.lean ====
/-
  The second combine region, read as whole arrays.

  The region leaves three arrays. The pre-normalisation array holds, at row i and column q,
      pre(i,q) = agg(i,q) + h(i,q) * selfnorm(i) + bias(q),
  each block of 5000 rows written by its own point of the grid. The two rows of totals are written once, after the
  last point, and hold the column sums of pre and of its squares over all 50000 rows: they are carried from point to
  point, starting at zero, each point adding its block's column sums.
-/
import proofs.«422700_j84035330113950_1_alg».proof.Proof.KI.R4c
import proofs.«422700_j84035330113950_1_alg».proof.Proof.KI.Arr4
import proofs.«422700_j84035330113950_1_alg».proof.Proof.KI.TotalsDep

set_option maxRecDepth 16384

noncomputable section

open scoped BigOperators

namespace Cert.KernelIdeal.Fin

open Cert.KernelIdeal Cert.KernelIdeal.Gen Cert.KernelIdeal.Reg
open Idealize.ShloMosaic Idealize.ShloMosaic.TcCoe
open Idealize.SL Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- A point of the ten is a point of the grid. -/
theorem lt_N4 {n : ℕ} (hn : n < 10) : n < cfg4.N := by rw [N4_eq]; exact hn

/-! ## The blocks and the carried rows at the ten points, as arrays of their literal shapes -/

/-- The aggregate block at point n. -/
def iblk4_A (c : Dev nD) (n : ℕ) (hn : n < 10) : Vec Ideal S5000x128 .f32 := iblk4 V c 0 ⟨n, lt_N4 hn⟩
/-- The product block at point n. -/
def iblk4_H (c : Dev nD) (n : ℕ) (hn : n < 10) : Vec Ideal S5000x128 .f32 := iblk4 V c 1 ⟨n, lt_N4 hn⟩
/-- The self-normalisation block at point n. -/
def iblk4_S (c : Dev nD) (n : ℕ) (hn : n < 10) : Vec Ideal S5000x1 .f32 := iblk4 V c 3 ⟨n, lt_N4 hn⟩
/-- The bias row at point n. -/
def iblk4_B (c : Dev nD) (n : ℕ) (hn : n < 10) : Vec Ideal S1x128 .f32 := iblk4 V c 2 ⟨n, lt_N4 hn⟩
/-- The carried total of the values after point n. -/
def acc4_fst (c : Dev nD) (n : ℕ) (hn : n < 10) : Vec Ideal S1x128 .f32 := (acc4 V c n (lt_N4 hn)).1
/-- The carried total of the squares after point n. -/
def acc4_snd (c : Dev nD) (n : ℕ) (hn : n < 10) : Vec Ideal S1x128 .f32 := (acc4 V c n (lt_N4 hn)).2

/-! ## The input blocks as entries of the named arrays -/

theorem iblk4_0_entry (c : Dev nD) (a : Vec Ideal S50000x128 .f32)
    (ha : (V c (Pipeline.arrRef spec4 0) : S50000x128.Idx → Elt Ideal .f32) = a) (t : Fin 10) (p : Fin 5000) (q : Fin 128) :
    iblk4_A V c t.val t.isLt (ix2 p q) = a (ix2 (rowOf t p) q) := by
  subst ha
  exact blockOf4_0_apply (dat4 V c) (pt4 t) p q _

theorem iblk4_1_entry (c : Dev nD) (h : Vec Ideal S50000x128 .f32)
    (hh : (V c (Pipeline.arrRef spec4 1) : S50000x128.Idx → Elt Ideal .f32) = h) (t : Fin 10) (p : Fin 5000) (q : Fin 128) :
    iblk4_H V c t.val t.isLt (ix2 p q) = h (ix2 (rowOf t p) q) := by
  subst hh
  exact blockOf4_1_apply (dat4 V c) (pt4 t) p q _

theorem iblk4_3_entry (c : Dev nD) (s : Vec Ideal S50000x1 .f32)
    (hs : (V c (Pipeline.arrRef spec4 3) : S50000x1.Idx → Elt Ideal .f32) = s) (t : Fin 10) (p : Fin 5000) :
    iblk4_S V c t.val t.isLt (ix2 p (0 : Fin 1)) = s (ix2 (rowOf t p) (0 : Fin 1)) := by
  subst hs
  exact blockOf4_3_apply (dat4 V c) (pt4 t) p 0 _

theorem iblk4_2_whole (c : Dev nD) (b : Vec Ideal S1x128 .f32)
    (hb : (V c (Pipeline.arrRef spec4 2) : S1x128.Idx → Elt Ideal .f32) = b) (t : Fin 10) :
    iblk4_B V c t.val t.isLt = b := by
  subst hb
  exact blockOf4_2_eq (dat4 V c) (pt4 t)

/-- What a point computes at its row p is the whole-array expression at row 5000 t + p. -/
theorem block_pre4 (c : Dev nD) (a h : Vec Ideal S50000x128 .f32) (b : Vec Ideal S1x128 .f32) (s : Vec Ideal S50000x1 .f32)
    (ha : (V c (Pipeline.arrRef spec4 0) : S50000x128.Idx → Elt Ideal .f32) = a)
    (hh : (V c (Pipeline.arrRef spec4 1) : S50000x128.Idx → Elt Ideal .f32) = h)
    (hb : (V c (Pipeline.arrRef spec4 2) : S1x128.Idx → Elt Ideal .f32) = b)
    (hs : (V c (Pipeline.arrRef spec4 3) : S50000x1.Idx → Elt Ideal .f32) = s)
    (t : Fin 10) (p : Fin 5000) (q : Fin 128) :
    k4_pay3 (iblk4_A V c t.val t.isLt) (iblk4_H V c t.val t.isLt) (iblk4_S V c t.val t.isLt) (iblk4_B V c t.val t.isLt) (ix2 p q)
      = a (ix2 (rowOf t p) q) + h (ix2 (rowOf t p) q) * s (ix2 (rowOf t p) (0 : Fin 1)) + b (ix2 (0 : Fin 1) q) := by
  rw [k4_pay3_apply, iblk4_0_entry V c a ha, iblk4_1_entry V c h hh, iblk4_3_entry V c s hs, iblk4_2_whole V c b hb]

/-! ## The three arrays -/

/-- A block's entries of the pre-normalisation array: what its point computed. -/
theorem arr4_4_block (c : Dev nD) (pre : Vec Ideal S50000x128 .f32)
    (hpre : ((dat4 V c).arrAt 4 cfg4.N : S50000x128.Idx → Elt Ideal .f32) = pre) (t : Fin 10) (p : Fin 5000) (q : Fin 128) :
    pre (ix2 (rowOf t p) q)
      = k4_pay3 (iblk4_A V c t.val t.isLt) (iblk4_H V c t.val t.isLt) (iblk4_S V c t.val t.isLt) (iblk4_B V c t.val t.isLt) (ix2 p q) := by
  rw [← hpre]
  refine (arr_entry4_4 (dat4 V c) t p q).trans ?_
  rw [after4_4_eq V c (pt4 t)]
  rfl

/-- The pre-normalisation array, entry by entry. -/
theorem arr4_4_entry (c : Dev nD) (a h : Vec Ideal S50000x128 .f32) (b : Vec Ideal S1x128 .f32) (s : Vec Ideal S50000x1 .f32)
    (pre : Vec Ideal S50000x128 .f32)
    (ha : (V c (Pipeline.arrRef spec4 0) : S50000x128.Idx → Elt Ideal .f32) = a)
    (hh : (V c (Pipeline.arrRef spec4 1) : S50000x128.Idx → Elt Ideal .f32) = h)
    (hb : (V c (Pipeline.arrRef spec4 2) : S1x128.Idx → Elt Ideal .f32) = b)
    (hs : (V c (Pipeline.arrRef spec4 3) : S50000x1.Idx → Elt Ideal .f32) = s)
    (hpre : ((dat4 V c).arrAt 4 cfg4.N : S50000x128.Idx → Elt Ideal .f32) = pre) (i : Fin 50000) (q : Fin 128) :
    pre (ix2 i q) = a (ix2 i q) + h (ix2 i q) * s (ix2 i (0 : Fin 1)) + b (ix2 (0 : Fin 1) q) := by
  obtain ⟨t, p, rfl⟩ : ∃ (t : Fin 10) (p : Fin 5000), i = rowOf t p := ⟨_, _, (rowOf_div_mod i).symm⟩
  rw [arr4_4_block V c pre hpre t p q]
  exact block_pre4 V c a h b s ha hh hb hs t p q

/-- The first row of totals: the column sums of the pre-normalisation array. -/
theorem arr4_5_total (c : Dev nD) (pre : Vec Ideal S50000x128 .f32) (sum : Vec Ideal S1x128 .f32)
    (hpre : ((dat4 V c).arrAt 4 cfg4.N : S50000x128.Idx → Elt Ideal .f32) = pre)
    (hsum : ((dat4 V c).arrAt 5 cfg4.N : S1x128.Idx → Elt Ideal .f32) = sum) (q : Fin 128) :
    sum (ix2 (0 : Fin 1) q) = ∑ i : Fin 50000, pre (ix2 i q) := by
  rw [← hsum, arr4_5 (dat4 V c), after4_5_eq V c (pt4 9)]
  exact sum_total_dep (iblk4_A V c) (iblk4_H V c) (iblk4_S V c) (iblk4_B V c) (acc4_fst V c)
    (congrArg Prod.fst (acc4_zero V c _))
    (fun n hn => congrArg Prod.fst (acc4_succ V c n _))
    q (fun r => pre (ix2 r q)) (fun t p => (arr4_4_block V c pre hpre t p q).symm)

/-- The second row of totals: the column sums of its squares. -/
theorem arr4_6_total (c : Dev nD) (pre : Vec Ideal S50000x128 .f32) (sumsq : Vec Ideal S1x128 .f32)
    (hpre : ((dat4 V c).arrAt 4 cfg4.N : S50000x128.Idx → Elt Ideal .f32) = pre)
    (hsumsq : ((dat4 V c).arrAt 6 cfg4.N : S1x128.Idx → Elt Ideal .f32) = sumsq) (q : Fin 128) :
    sumsq (ix2 (0 : Fin 1) q) = ∑ i : Fin 50000, pre (ix2 i q) * pre (ix2 i q) := by
  rw [← hsumsq, arr4_6 (dat4 V c), after4_6_eq V c (pt4 9)]
  exact sumsq_total_dep (iblk4_A V c) (iblk4_H V c) (iblk4_S V c) (iblk4_B V c) (acc4_snd V c)
    (congrArg Prod.snd (acc4_zero V c _))
    (fun n hn => congrArg Prod.snd (acc4_succ V c n _))
    q (fun r => pre (ix2 r q)) (fun t p => (arr4_4_block V c pre hpre t p q).symm)

/-- THE COMBINE REGION'S ARRAYS: with the four input arrays and the three output arrays named, the
    pre-normalisation array entry by entry, and the two rows of totals as sums over all rows. -/
theorem comb4_entry (c : Dev nD) (a h : Vec Ideal S50000x128 .f32) (b : Vec Ideal S1x128 .f32) (s : Vec Ideal S50000x1 .f32)
    (pre : Vec Ideal S50000x128 .f32) (sum sumsq : Vec Ideal S1x128 .f32)
    (ha : (V c (Pipeline.arrRef spec4 0) : S50000x128.Idx → Elt Ideal .f32) = a)
    (hh : (V c (Pipeline.arrRef spec4 1) : S50000x128.Idx → Elt Ideal .f32) = h)
    (hb : (V c (Pipeline.arrRef spec4 2) : S1x128.Idx → Elt Ideal .f32) = b)
    (hs : (V c (Pipeline.arrRef spec4 3) : S50000x1.Idx → Elt Ideal .f32) = s)
    (hpre : ((dat4 V c).arrAt 4 cfg4.N : S50000x128.Idx → Elt Ideal .f32) = pre)
    (hsum : ((dat4 V c).arrAt 5 cfg4.N : S1x128.Idx → Elt Ideal .f32) = sum)
    (hsumsq : ((dat4 V c).arrAt 6 cfg4.N : S1x128.Idx → Elt Ideal .f32) = sumsq) :
    (∀ (i : Fin 50000) (q : Fin 128),
        pre (ix2 i q) = a (ix2 i q) + h (ix2 i q) * s (ix2 i (0 : Fin 1)) + b (ix2 (0 : Fin 1) q))
    ∧ (∀ q : Fin 128, sum (ix2 (0 : Fin 1) q) = ∑ i : Fin 50000, pre (ix2 i q))
    ∧ (∀ q : Fin 128, sumsq (ix2 (0 : Fin 1) q) = ∑ i : Fin 50000, pre (ix2 i q) * pre (ix2 i q)) :=
  ⟨arr4_4_entry V c a h b s pre ha hh hb hs hpre, arr4_5_total V c pre sum hpre hsum, arr4_6_total V c pre sumsq hpre hsumsq⟩

end Cert.KernelIdeal.Fin

end
-- ==== Proof.KI.R7b.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import proofs.«422700_j84035330113950_1_alg».proof.Proof.KI.R7a
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The found pieces in payload form

Each case's stores, read back, are the body's payloads of the input blocks (and of the accumulators' earlier
contents): every store covers its whole buffer from offset zero, and every load reads a whole buffer. -/

theorem hz7 : (![0, 0] : Fin 2 → Nat) = fun _ => 0 := funext fun a => by fin_cases a <;> rfl

/-- The first point stores the combined block. -/
theorem out7_A_4_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) :
    out7_A_4 c i a1 ha1 a2 ha2 a3 ha3 a4 ha4 a5 ha5 a6 ha6 a7 ha7 a8 ha8 a9 ha9 hc0 hc1 x0 x1 x2 x3 = k7_pay3 x0 x1 x3 x2 := by
  unfold out7_A_4
  rw [View.read_writes_junk_eq_canon]
  unfold kernelRun7_A
  dsimp only
  sl_unfold_words
  rw [View.canon_unit_zero (S := S5000x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7]

/-- The first point leaves the block's column sums over the zeroed accumulator. -/
theorem sout7_A_0_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) :
    sout7_A_0 c i a1 ha1 a2 ha2 a3 ha3 a4 ha4 a5 ha5 a6 ha6 a7 ha7 a8 ha8 a9 ha9 hc0 hc1 x0 x1 x2 x3 = k7_pay4 x0 x1 x3 x2 (k7_pay1 (F := F)) := by
  unfold sout7_A_0
  rw [View.read_writes_junk_eq_canon]
  unfold kernelRun7_A
  dsimp only
  sl_unfold_words
  rw [View.canon_cons_unit_zero (S := S1x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7, View.readCov_unit_zero (S := S1x128) _ hz7]

/-- The first point leaves the column sums of the block's squares over the zeroed accumulator. -/
theorem sout7_A_1_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : cond7_0 i) (hc1 : ¬cond7_1 i)
    (x0 : Vec F S5000x128 .f32) (x1 : Vec F S5000x128 .f32) (x2 : Vec F S1x128 .f32) (x3 : Vec F S5000x1 .f32) :
    sout7_A_1 c i a1 ha1 a2 ha2 a3 ha3 a4 ha4 a5 ha5 a6 ha6 a7 ha7 a8 ha8 a9 ha9 hc0 hc1 x0 x1 x2 x3 = k7_pay5 x0 x1 x3 x2 (k7_pay2 (F := F)) := by
  unfold sout7_A_1
  rw [View.read_writes_junk_eq_canon]
  unfold kernelRun7_A
  dsimp only
  sl_unfold_words
  rw [View.canon_cons_unit_zero (S := S1x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7, View.readCov_unit_zero (S := S1x128) _ hz7]

/-- A middle point stores the combined block. -/
theorem out7_B_4_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    out7_B_4 c i a1 ha1 a2 ha2 a3 ha3 a4 ha4 a5 ha5 a6 ha6 a7 ha7 a8 ha8 a9 ha9 hc0 hc1 x0 x1 x2 x3 xs0 xs1 = k7_pay3 x0 x1 x3 x2 := by
  unfold out7_B_4
  rw [View.read_writes_junk_eq_canon]
  unfold kernelRun7_B
  dsimp only
  sl_unfold_words
  rw [View.canon_unit_zero (S := S5000x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7, ha8.read_unread, ha9.read_unread]

/-- A middle point adds the block's column sums to the accumulator. -/
theorem sout7_B_0_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout7_B_0 c i a1 ha1 a2 ha2 a3 ha3 a4 ha4 a5 ha5 a6 ha6 a7 ha7 a8 ha8 a9 ha9 hc0 hc1 x0 x1 x2 x3 xs0 xs1 = k7_pay4 x0 x1 x3 x2 xs0 := by
  unfold sout7_B_0
  rw [View.read_writes_junk_eq_canon]
  unfold kernelRun7_B
  dsimp only
  sl_unfold_words
  rw [View.canon_unit_zero (S := S1x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7, ha8.read_unread, ha9.read_unread]

/-- A middle point adds the column sums of the block's squares to the accumulator. -/
theorem sout7_B_1_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : ¬cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout7_B_1 c i a1 ha1 a2 ha2 a3 ha3 a4 ha4 a5 ha5 a6 ha6 a7 ha7 a8 ha8 a9 ha9 hc0 hc1 x0 x1 x2 x3 xs0 xs1 = k7_pay5 x0 x1 x3 x2 xs1 := by
  unfold sout7_B_1
  rw [View.read_writes_junk_eq_canon]
  unfold kernelRun7_B
  dsimp only
  sl_unfold_words
  rw [View.canon_unit_zero (S := S1x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7, ha8.read_unread, ha9.read_unread]

/-- The last point stores the combined block. -/
theorem out7_C_4_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    out7_C_4 c i a1 ha1 a2 ha2 a3 ha3 a4 ha4 a5 ha5 a6 ha6 a7 ha7 a8 ha8 a9 ha9 hc0 hc1 x0 x1 x2 x3 xs0 xs1 = k7_pay3 x0 x1 x3 x2 := by
  unfold out7_C_4
  rw [View.read_writes_junk_eq_canon]
  unfold kernelRun7_C
  dsimp only
  sl_unfold_words
  rw [View.canon_unit_zero (S := S5000x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7, ha8.read_unread, ha9.read_unread]

/-- The last point adds the block's column sums to the accumulator. -/
theorem sout7_C_0_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout7_C_0 c i a1 ha1 a2 ha2 a3 ha3 a4 ha4 a5 ha5 a6 ha6 a7 ha7 a8 ha8 a9 ha9 hc0 hc1 x0 x1 x2 x3 xs0 xs1 = k7_pay4 x0 x1 x3 x2 xs0 := by
  unfold sout7_C_0
  rw [View.read_writes_junk_eq_canon]
  unfold kernelRun7_C
  dsimp only
  sl_unfold_words
  rw [View.canon_unit_zero (S := S1x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7, ha8.read_unread, ha9.read_unread]

/-- The last point adds the column sums of the block's squares to the accumulator. -/
theorem sout7_C_1_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    sout7_C_1 c i a1 ha1 a2 ha2 a3 ha3 a4 ha4 a5 ha5 a6 ha6 a7 ha7 a8 ha8 a9 ha9 hc0 hc1 x0 x1 x2 x3 xs0 xs1 = k7_pay5 x0 x1 x3 x2 xs1 := by
  unfold sout7_C_1
  rw [View.read_writes_junk_eq_canon]
  unfold kernelRun7_C
  dsimp only
  sl_unfold_words
  rw [View.canon_unit_zero (S := S1x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7, ha8.read_unread, ha9.read_unread]

/-- The last point copies the sum accumulator, as it has just left it, to the sum output. -/
theorem out7_C_5_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    out7_C_5 c i a1 ha1 a2 ha2 a3 ha3 a4 ha4 a5 ha5 a6 ha6 a7 ha7 a8 ha8 a9 ha9 hc0 hc1 x0 x1 x2 x3 xs0 xs1 = k7_pay4 x0 x1 x3 x2 xs0 := by
  unfold out7_C_5
  rw [View.read_writes_junk_eq_canon]
  unfold kernelRun7_C
  dsimp only
  sl_unfold_words
  rw [View.canon_unit_zero (S := S1x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7, ha8.read_unread, ha9.read_unread, View.readCov_unit_zero (S := S1x128) _ hz7]

/-- The last point copies the sum-of-squares accumulator, as it has just left it, to its output. -/
theorem out7_C_6_eq (c : Dev nD) (i : grid7.Coords) (a1 : Memref sig .tc .vmem S5000x128 .f32) (ha1 : a1.IsWhole) (a2 : Memref sig .tc .vmem S5000x128 .f32) (ha2 : a2.IsWhole) (a3 : Memref sig .tc .vmem S1x128 .f32) (ha3 : a3.IsWhole) (a4 : Memref sig .tc .vmem S5000x1 .f32) (ha4 : a4.IsWhole) (a5 : Memref sig .tc .vmem S5000x128 .f32) (ha5 : a5.IsWhole) (a6 : Memref sig .tc .vmem S1x128 .f32) (ha6 : a6.IsWhole) (a7 : Memref sig .tc .vmem S1x128 .f32) (ha7 : a7.IsWhole) (a8 : Memref sig .tc .vmem S1x128 .f32) (ha8 : a8.IsWhole) (a9 : Memref sig .tc .vmem S1x128 .f32) (ha9 : a9.IsWhole) (hc0 : ¬cond7_0 i) (hc1 : cond7_1 i)
    (x0 : Vec F S5000x128 .f32) (x1 : Vec F S5000x128 .f32) (x2 : Vec F S1x128 .f32) (x3 : Vec F S5000x1 .f32) (xs0 : Vec F S1x128 .f32) (xs1 : Vec F S1x128 .f32) :
    out7_C_6 c i a1 ha1 a2 ha2 a3 ha3 a4 ha4 a5 ha5 a6 ha6 a7 ha7 a8 ha8 a9 ha9 hc0 hc1 x0 x1 x2 x3 xs0 xs1 = k7_pay5 x0 x1 x3 x2 xs1 := by
  unfold out7_C_6
  rw [View.read_writes_junk_eq_canon]
  unfold kernelRun7_C
  dsimp only
  sl_unfold_words
  rw [View.canon_unit_zero (S := S1x128) hz7]
  simp only [View.readAt_eq_ld, ha1.read_unread, ha2.read_unread, ha3.read_unread, ha4.read_unread, View.ld_unit_zero (S := S5000x128) hz7, View.ld_unit_zero (S := S1x128) hz7, View.ld_unit_zero (S := S5000x1) hz7, ha8.read_unread, ha9.read_unread, View.readCov_unit_zero (S := S1x128) _ hz7]

end Cert.KernelIdeal.Reg

end
-- ==== Proof.KI.R7c.lean ====
import proofs.«422700_j84035330113950_1_alg».proof.Proof.Gen.KernelIdeal.Launch
import proofs.«422700_j84035330113950_1_alg».proof.Proof.Gen.KernelIdeal.Skeleton
import proofs.«422700_j84035330113950_1_alg».proof.Proof.Gen.KernelIdeal.Points
import proofs.«422700_j84035330113950_1_alg».proof.Proof.KI.R7
import proofs.«422700_j84035330113950_1_alg».proof.Proof.KI.R7b
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulation in closed form -/

/-- The case equations of `outsAt7` at a successor position. -/
theorem outsAt7_succ_C (c : Dev nD) (n : ℕ) (hn : n + 1 < cfg7.N) (h1 : n + 1 = 9) :
    outsAt7 V c (n + 1) hn = (out7_C_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2.2.1 (outsAt7 V c n (Nat.lt_of_succ_lt hn)).2.2.2.2, out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2.2.1 (outsAt7 V c n (Nat.lt_of_succ_lt hn)).2.2.2.2, out7_C_6 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2.2.1 (outsAt7 V c n (Nat.lt_of_succ_lt hn)).2.2.2.2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2.2.1 (outsAt7 V c n (Nat.lt_of_succ_lt hn)).2.2.2.2, sout7_C_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2.2.1 (outsAt7 V c n (Nat.lt_of_succ_lt hn)).2.2.2.2) :=
  dif_pos h1

theorem outsAt7_succ_B (c : Dev nD) (n : ℕ) (hn : n + 1 < cfg7.N) (h1 : ¬n + 1 = 9) :
    outsAt7 V c (n + 1) hn = (out7_B_4 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2.2.1 (outsAt7 V c n (Nat.lt_of_succ_lt hn)).2.2.2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2.2.1 (outsAt7 V c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2.2.1 (outsAt7 V c n (Nat.lt_of_succ_lt hn)).2.2.2.2, sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2.2.1 (outsAt7 V c n (Nat.lt_of_succ_lt hn)).2.2.2.2, sout7_B_1 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (outsAt7 V c n (Nat.lt_of_succ_lt hn)).2.2.2.1 (outsAt7 V c n (Nat.lt_of_succ_lt hn)).2.2.2.2) :=
  dif_neg h1

theorem outsAt7_zero (c : Dev nD) (hn : 0 < cfg7.N) :
    outsAt7 V c 0 hn = (out7_A_4 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩), sout7_A_1 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩)) :=
  rfl

/-- THE TWO ACCUMULATORS after point `n`, in closed form: at the first point the column sums of the combined block
    (resp. of its squares) over the zero row, afterwards over what the point before left. -/
noncomputable def acc7 (c : Dev nD) : (n : ℕ) → n < cfg7.N → Vec F S1x128 .f32 × Vec F S1x128 .f32
  | 0, hn => (k7_pay4 (iblk7 V c 0 ⟨0, hn⟩) (iblk7 V c 1 ⟨0, hn⟩) (iblk7 V c 3 ⟨0, hn⟩) (iblk7 V c 2 ⟨0, hn⟩) (k7_pay1 (F := F)), k7_pay5 (iblk7 V c 0 ⟨0, hn⟩) (iblk7 V c 1 ⟨0, hn⟩) (iblk7 V c 3 ⟨0, hn⟩) (iblk7 V c 2 ⟨0, hn⟩) (k7_pay2 (F := F)))
  | n + 1, hn => (k7_pay4 (iblk7 V c 0 ⟨n + 1, hn⟩) (iblk7 V c 1 ⟨n + 1, hn⟩) (iblk7 V c 3 ⟨n + 1, hn⟩) (iblk7 V c 2 ⟨n + 1, hn⟩) (acc7 c n (Nat.lt_of_succ_lt hn)).1, k7_pay5 (iblk7 V c 0 ⟨n + 1, hn⟩) (iblk7 V c 1 ⟨n + 1, hn⟩) (iblk7 V c 3 ⟨n + 1, hn⟩) (iblk7 V c 2 ⟨n + 1, hn⟩) (acc7 c n (Nat.lt_of_succ_lt hn)).2)

theorem acc7_zero (c : Dev nD) (hn : 0 < cfg7.N) :
    acc7 V c 0 hn = (k7_pay4 (iblk7 V c 0 ⟨0, hn⟩) (iblk7 V c 1 ⟨0, hn⟩) (iblk7 V c 3 ⟨0, hn⟩) (iblk7 V c 2 ⟨0, hn⟩) (k7_pay1 (F := F)), k7_pay5 (iblk7 V c 0 ⟨0, hn⟩) (iblk7 V c 1 ⟨0, hn⟩) (iblk7 V c 3 ⟨0, hn⟩) (iblk7 V c 2 ⟨0, hn⟩) (k7_pay2 (F := F))) := rfl

theorem acc7_succ (c : Dev nD) (n : ℕ) (hn : n + 1 < cfg7.N) :
    acc7 V c (n + 1) hn = (k7_pay4 (iblk7 V c 0 ⟨n + 1, hn⟩) (iblk7 V c 1 ⟨n + 1, hn⟩) (iblk7 V c 3 ⟨n + 1, hn⟩) (iblk7 V c 2 ⟨n + 1, hn⟩) (acc7 V c n (Nat.lt_of_succ_lt hn)).1, k7_pay5 (iblk7 V c 0 ⟨n + 1, hn⟩) (iblk7 V c 1 ⟨n + 1, hn⟩) (iblk7 V c 3 ⟨n + 1, hn⟩) (iblk7 V c 2 ⟨n + 1, hn⟩) (acc7 V c n (Nat.lt_of_succ_lt hn)).2) := rfl

/-- After every point the two accumulators hold the closed form, and so do the two statistics components (which
    repeat them before the last point and are copied from them at the last). -/
theorem accAt7 (c : Dev nD) : ∀ (n : ℕ) (hn : n < cfg7.N),
    (outsAt7 V c n hn).2.1 = (acc7 V c n hn).1 ∧ (outsAt7 V c n hn).2.2.1 = (acc7 V c n hn).2
      ∧ (outsAt7 V c n hn).2.2.2.1 = (acc7 V c n hn).1 ∧ (outsAt7 V c n hn).2.2.2.2 = (acc7 V c n hn).2 := by
  intro n
  induction n with
  | zero =>
    intro hn
    rw [outsAt7_zero V c hn, acc7_zero V c hn]; dsimp only
    exact ⟨sout7_A_0_eq (F := F) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩),
      sout7_A_1_eq (F := F) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩),
      sout7_A_0_eq (F := F) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩),
      sout7_A_1_eq (F := F) c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) (ms7_6 ⟨0, hn⟩) (hs7_6 ⟨0, hn⟩) scM7_0 (Memref.isWhole_whole _) scM7_1 (Memref.isWhole_whole _) ((hcond7_0 ⟨0, hn⟩).mpr rfl) (fun h => (fun h9 : (0 : ℕ) = 9 => absurd h9 (by decide)) ((hcond7_1 ⟨0, hn⟩).mp h)) (iblk7 V c 0 ⟨0, hn⟩) (iblk7 V c 1 ⟨0, hn⟩) (iblk7 V c 2 ⟨0, hn⟩) (iblk7 V c 3 ⟨0, hn⟩)⟩
  | succ n ih =>
    intro hn
    obtain ⟨-, -, e0, e1⟩ := ih (Nat.lt_of_succ_lt hn)
    by_cases h1 : n + 1 = 9
    · rw [outsAt7_succ_C V c n hn h1, acc7_succ V c n hn]; dsimp only
      rw [e0, e1]
      exact ⟨out7_C_5_eq (F := F) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (acc7 V c n (Nat.lt_of_succ_lt hn)).1 (acc7 V c n (Nat.lt_of_succ_lt hn)).2,
        out7_C_6_eq (F := F) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (acc7 V c n (Nat.lt_of_succ_lt hn)).1 (acc7 V c n (Nat.lt_of_succ_lt hn)).2,
        sout7_C_0_eq (F := F) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (acc7 V c n (Nat.lt_of_succ_lt hn)).1 (acc7 V c n (Nat.lt_of_succ_lt hn)).2,
        sout7_C_1_eq (F := F) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (acc7 V c n (Nat.lt_of_succ_lt hn)).1 (acc7 V c n (Nat.lt_of_succ_lt hn)).2⟩
    · rw [outsAt7_succ_B V c n hn h1, acc7_succ V c n hn]; dsimp only
      rw [e0, e1]
      exact ⟨sout7_B_0_eq (F := F) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (acc7 V c n (Nat.lt_of_succ_lt hn)).1 (acc7 V c n (Nat.lt_of_succ_lt hn)).2,
        sout7_B_1_eq (F := F) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (acc7 V c n (Nat.lt_of_succ_lt hn)).1 (acc7 V c n (Nat.lt_of_succ_lt hn)).2,
        sout7_B_0_eq (F := F) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (acc7 V c n (Nat.lt_of_succ_lt hn)).1 (acc7 V c n (Nat.lt_of_succ_lt hn)).2,
        sout7_B_1_eq (F := F) c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (ms7_6 ⟨n + 1, hn⟩) (hs7_6 ⟨n + 1, hn⟩) scM7_0 (Memref.isWhole_whole _) scM7_1 (Memref.isWhole_whole _) (fun h => (Nat.succ_ne_zero n) ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (acc7 V c n (Nat.lt_of_succ_lt hn)).1 (acc7 V c n (Nat.lt_of_succ_lt hn)).2⟩

/-! ## What the proof data's outputs hold, in payload form -/

/-- The block output after point `t`: the combined block of the four input blocks (aggregate, projection, self-loop
    norm, bias). -/
theorem after7_4_eq (c : Dev nD) (t : Fin cfg7.N) :
    (dat7 V c).after 4 t = k7_pay3 (iblk7 V c 0 t) (iblk7 V c 1 t) (iblk7 V c 3 t) (iblk7 V c 2 t) := by
  rw [after7_4]
  by_cases h0 : t.val = 0
  · have h1 : ¬t.val = 9 := by omega
    rw [outsAt7_A V c t h0 h1]; dsimp only
    exact out7_A_4_eq (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) ((hcond7_0 t).mpr h0) (fun h => h1 ((hcond7_1 t).mp h)) (iblk7 V c 0 t) (iblk7 V c 1 t) (iblk7 V c 2 t) (iblk7 V c 3 t)
  · by_cases h1 : t.val = 9
    · rw [outsAt7_C V c t h0 h1]; dsimp only
      exact out7_C_4_eq (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) ((hcond7_1 t).mpr h1) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2
    · rw [outsAt7_B V c t h0 h1]; dsimp only
      exact out7_B_4_eq (F := F) c (grid7.coords t) (ms7_0 t) (hs7_0 t) (ms7_1 t) (hs7_1 t) (ms7_2 t) (hs7_2 t) (ms7_3 t) (hs7_3 t) (ms7_4 t) (hs7_4 t) (ms7_5 t) (hs7_5 t) (ms7_6 t) (hs7_6 t) scM7_0 (Memref.isWhole_whole _) scM7_1 (Memref.isWhole_whole _) (fun h => h0 ((hcond7_0 t).mp h)) (fun h => h1 ((hcond7_1 t).mp h)) (iblk7 V c 0 t) (iblk7 V c 1 t) (iblk7 V c 2 t) (iblk7 V c 3 t) (outsAt7 V c (t.val - 1) (Nat.lt_of_le_of_lt (Nat.sub_le _ _) t.isLt)).2.2.2.1 (outsAt7 V c (t.val - 1) (Nat.lt_of_le_of_lt (Nat.sub_le _ _) t.isLt)).2.2.2.2

/-- The sum output's component after point `t` is the sum accumulator's closed form there (what the last point
    writes back is its value at the last point). -/
theorem after7_5_eq (c : Dev nD) (t : Fin cfg7.N) : (dat7 V c).after 5 t = (acc7 V c t.val t.isLt).1 :=
  (after7_5 V c t).trans (accAt7 V c t.val t.isLt).1

/-- The same for the sum-of-squares output. -/
theorem after7_6_eq (c : Dev nD) (t : Fin cfg7.N) : (dat7 V c).after 6 t = (acc7 V c t.val t.isLt).2 :=
  (after7_6 V c t).trans (accAt7 V c t.val t.isLt).2.1

/-- At the last point, spelled at the literal position. -/
theorem after7_5_last (c : Dev nD) (hn : 9 < cfg7.N) : (dat7 V c).after 5 ⟨9, hn⟩ = (acc7 V c 9 hn).1 :=
  after7_5_eq V c ⟨9, hn⟩
theorem after7_6_last (c : Dev nD) (hn : 9 < cfg7.N) : (dat7 V c).after 6 ⟨9, hn⟩ = (acc7 V c 9 hn).2 :=
  after7_6_eq V c ⟨9, hn⟩

end Cert.KernelIdeal.Reg

end
-- ==== Proof.KI.Arr7.lean ====
import proofs.«422700_j84035330113950_1_alg».proof.Proof.Gen.KernelIdeal.Launch
import proofs.«422700_j84035330113950_1_alg».proof.Proof.Gen.KernelIdeal.Points
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

variable {F : FTy → Type} [FloatOps F]

/-! # Region 7, from blocks to the arrays, for any proof data of the pipeline

Seven windows on a grid of ten points. Windows 0, 1 (`[5000,128]` blocks), 3 (`[5000,1]` blocks) and the output window 4
(`[5000,128]` blocks) are at block `(t, 0)` at point `t`: rows `5000 t … 5000 t + 4999` of their arrays. Window 2 and the
output windows 5, 6 (`[1,128]`) are their whole arrays at every point; windows 5 and 6 are written back once, at the last
point. Nothing here depends on what the body computes: the statements are about any proof data `dat` of the pipeline. -/

/-- The printed index maps over the grid: at point `t` windows 0, 1, 3, 4 are at block `(t, 0)`, windows 2, 5, 6 at
    block `(0, 0)`. -/
theorem index7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_3.index t (0 : Fin 2) = t.val ∧ win7_3.index t (1 : Fin 2) = 0
    ∧ win7_4.index t (0 : Fin 2) = t.val ∧ win7_4.index t (1 : Fin 2) = 0
    ∧ win7_2.index t (0 : Fin 2) = 0 ∧ win7_2.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- The grid has ten points. -/
theorem N7_eq : cfg7.N = 10 := N_7

/-- Point `t` of the ten, as a point of the grid. -/
abbrev pt7 (t : Fin 10) : Fin cfg7.N := ⟨t.val, by rw [N7_eq]; exact t.isLt⟩

/-! ## The blocked output, window 4 -/

/-- Distinct points write back distinct blocks of window 4. -/
theorem index_inj7_4 : ∀ t t' : Fin cfg7.N, win7_4.index t = win7_4.index t' → t = t' :=
  (by decide +kernel : ∀ t t' : Fin grid7.N, win7_4.index t = win7_4.index t' → t = t')

/-- So two points' blocks of window 4 share no index of the array. -/
theorem disjoint7_4 : ∀ t t' : Fin cfg7.N, (cfg7.win 4).flush t = true → (cfg7.win 4).flush t' = true → t ≠ t' →
    Disjoint ((cfg7.win 4).blk t).view.set ((cfg7.win 4).blk t').view.set :=
  fun t t' _ _ hne => (cfg7.win 4).disjoint_blk fun h => hne (index_inj7_4 t t' h)

/-- Entry `(p, q)` of window 4's block at point `t` sits in the array at row `5000 t + p`, column `q`. -/
theorem blk_emb7_4 (t : Fin cfg7.N) (p : Fin 5000) (q : Fin 128) (h : 5000 * t.val + p.val < 50000) :
    ((cfg7.win 4).blk t).view.emb (ix2 p q : S5000x128.Idx) = (ix2 (⟨5000 * t.val + p.val, h⟩ : Fin 50000) q : S50000x128.Idx) := by
  obtain ⟨-, -, -, -, -, -, e0, e1, -, -, -, -, -, -⟩ := index7 t
  funext a; apply Fin.ext
  match a with
  | ⟨0, _⟩ => show win7_4.index t (0 : Fin 2) * 5000 + 1 * p.val = 5000 * t.val + p.val; rw [e0]; omega
  | ⟨1, _⟩ => show win7_4.index t (1 : Fin 2) * 128 + 1 * q.val = q.val; rw [e1]; omega

section
variable {c : Dev nD} (dat : Dat τ (Elt F) Unit ℕ (UR sig nD τ) ℕ cfg7 c)

/-- WINDOW 4'S ARRAY after the run, at a point of the grid: row `5000 t + p`, column `q` holds entry `(p, q)` of what the
    body left in the window's buffer at point `t` (every point writes its own block back, and no other point's block meets it). -/
theorem arr_entry7_4_at (t : Fin cfg7.N) (p : Fin 5000) (q : Fin 128) (h : 5000 * t.val + p.val < 50000) :
    dat.arrAt 4 cfg7.N (ix2 (⟨5000 * t.val + p.val, h⟩ : Fin 50000) q : S50000x128.Idx)
      = (dat.after 4 t : Vec F S5000x128 .f32) (ix2 p q) := by
  have hf := dat.arrAt_emb_eq_flushed 4 disjoint7_4 t (flush7_4 t) (ix2 p q : S5000x128.Idx)
  rw [blk_emb7_4 t p q h] at hf
  refine hf.trans ?_
  show (cfg7.win 4).cut (grid7.coords t) (dat.after 4 t) (ix2 p q : S5000x128.Idx) = _
  rfl

/-- The same over the ten points by number. -/
theorem arr_entry7_4 (t : Fin 10) (p : Fin 5000) (q : Fin 128) :
    dat.arrAt 4 cfg7.N (ix2 (⟨5000 * t.val + p.val, by have := t.isLt; have := p.isLt; omega⟩ : Fin 50000) q : S50000x128.Idx)
      = (dat.after 4 (pt7 t) : Vec F S5000x128 .f32) (ix2 p q) :=
  arr_entry7_4_at dat (pt7 t) p q _

end

/-! ## The two row outputs, windows 5 and 6: written back once, after the last point -/

/-- Window 5 is written back at the last point only. -/
theorem flush_last7_5 (t : Fin cfg7.N) (hf : (cfg7.win 5).flush t = true) : t = pt7 9 := by
  have h := (flush7_5 t).mp hf
  have hN : t.val < 10 := t.isLt.trans_eq N7_eq
  exact Fin.ext (by show t.val = 9; omega)

/-- So no two distinct points write window 5 back. -/
theorem disjoint7_5 : ∀ t t' : Fin cfg7.N, (cfg7.win 5).flush t = true → (cfg7.win 5).flush t' = true → t ≠ t' →
    Disjoint ((cfg7.win 5).blk t).view.set ((cfg7.win 5).blk t').view.set :=
  fun t t' hf hf' hne => absurd ((flush_last7_5 t hf).trans (flush_last7_5 t' hf').symm) hne

/-- Window 5's block is its whole `[1,128]` array: an index of the block is the same index of the array. -/
theorem whole_emb7_5 (t : Fin cfg7.N) (j : S1x128.Idx) : ((cfg7.win 5).blk t).view.emb j = (j : S1x128.Idx) := by
  obtain ⟨-, -, -, -, -, -, -, -, -, -, e0, e1, -, -⟩ := index7 t
  funext a; apply Fin.ext
  match a with
  | ⟨0, _⟩ => show win7_5.index t (0 : Fin 2) * 1 + 1 * (j 0).val = (j 0).val; rw [e0]; omega
  | ⟨1, _⟩ => show win7_5.index t (1 : Fin 2) * 128 + 1 * (j 1).val = (j 1).val; rw [e1]; omega

/-- Window 6 is written back at the last point only. -/
theorem flush_last7_6 (t : Fin cfg7.N) (hf : (cfg7.win 6).flush t = true) : t = pt7 9 := by
  have h := (flush7_6 t).mp hf
  have hN : t.val < 10 := t.isLt.trans_eq N7_eq
  exact Fin.ext (by show t.val = 9; omega)

/-- So no two distinct points write window 6 back. -/
theorem disjoint7_6 : ∀ t t' : Fin cfg7.N, (cfg7.win 6).flush t = true → (cfg7.win 6).flush t' = true → t ≠ t' →
    Disjoint ((cfg7.win 6).blk t).view.set ((cfg7.win 6).blk t').view.set :=
  fun t t' hf hf' hne => absurd ((flush_last7_6 t hf).trans (flush_last7_6 t' hf').symm) hne

/-- Window 6's block is its whole `[1,128]` array: an index of the block is the same index of the array. -/
theorem whole_emb7_6 (t : Fin cfg7.N) (j : S1x128.Idx) : ((cfg7.win 6).blk t).view.emb j = (j : S1x128.Idx) := by
  obtain ⟨-, -, -, -, -, -, -, -, -, -, -, -, e0, e1⟩ := index7 t
  funext a; apply Fin.ext
  match a with
  | ⟨0, _⟩ => show win7_6.index t (0 : Fin 2) * 1 + 1 * (j 0).val = (j 0).val; rw [e0]; omega
  | ⟨1, _⟩ => show win7_6.index t (1 : Fin 2) * 128 + 1 * (j 1).val = (j 1).val; rw [e1]; omega

section
variable {c : Dev nD} (dat : Dat τ (Elt F) Unit ℕ (UR sig nD τ) ℕ cfg7 c)

/-- WINDOW 5'S ARRAY after the run is what the body left in the window's buffer at the last point. -/
theorem arr7_5 : (dat.arrAt 5 cfg7.N : S1x128.Idx → Elt F .f32) = (dat.after 5 (pt7 9) : Vec F S1x128 .f32) := by
  funext j
  have hf := dat.arrAt_emb_eq_flushed 5 disjoint7_5 (pt7 9) ((flush7_5 (pt7 9)).mpr rfl) (j : S1x128.Idx)
  rw [whole_emb7_5 (pt7 9) j] at hf
  refine hf.trans ?_
  show (cfg7.win 5).cut (grid7.coords (pt7 9)) (dat.after 5 (pt7 9)) (j : S1x128.Idx) = _
  rfl

/-- WINDOW 6'S ARRAY after the run is what the body left in the window's buffer at the last point. -/
theorem arr7_6 : (dat.arrAt 6 cfg7.N : S1x128.Idx → Elt F .f32) = (dat.after 6 (pt7 9) : Vec F S1x128 .f32) := by
  funext j
  have hf := dat.arrAt_emb_eq_flushed 6 disjoint7_6 (pt7 9) ((flush7_6 (pt7 9)).mpr rfl) (j : S1x128.Idx)
  rw [whole_emb7_6 (pt7 9) j] at hf
  refine hf.trans ?_
  show (cfg7.win 6).cut (grid7.coords (pt7 9)) (dat.after 6 (pt7 9)) (j : S1x128.Idx) = _
  rfl

end

/-! ## The input blocks as entries of their arrays -/

/-- Window 2's block is its whole `[1,128]` array: an index of the block is the same index of the array. -/
theorem whole_emb7_2 (t : Fin cfg7.N) (j : S1x128.Idx) : ((cfg7.win 2).blk t).view.emb j = (j : S1x128.Idx) := by
  obtain ⟨-, -, -, -, -, -, -, -, e0, e1, -, -, -, -⟩ := index7 t
  funext a; apply Fin.ext
  match a with
  | ⟨0, _⟩ => show win7_2.index t (0 : Fin 2) * 1 + 1 * (j 0).val = (j 0).val; rw [e0]; omega
  | ⟨1, _⟩ => show win7_2.index t (1 : Fin 2) * 128 + 1 * (j 1).val = (j 1).val; rw [e1]; omega

section
variable {c : Dev nD} (dat : Dat τ (Elt F) Unit ℕ (UR sig nD τ) ℕ cfg7 c)

/-- Entry `(p, q)` of window 0's block at point `t` is row `5000 t + p`, column `q` of its array at entry. -/
theorem blockOf7_0_apply (t : Fin cfg7.N) (p : Fin 5000) (q : Fin 128) (h : 5000 * t.val + p.val < 50000) :
    (dat.blockOf 0 t : Vec F S5000x128 .f32) (ix2 p q)
      = (dat.A 0 : S50000x128.Idx → Elt F .f32) (ix2 (⟨5000 * t.val + p.val, h⟩ : Fin 50000) q) := by
  obtain ⟨e0, e1, -, -, -, -, -, -, -, -, -, -, -, -⟩ := index7 t
  unfold Dat.blockOf
  rw [View.read_apply]
  show (dat.A 0 : S50000x128.Idx → Elt F .f32) _ = _
  congr 1
  funext a; apply Fin.ext
  match a with
  | ⟨0, _⟩ => show win7_0.index t (0 : Fin 2) * 5000 + 1 * p.val = 5000 * t.val + p.val; rw [e0]; omega
  | ⟨1, _⟩ => show win7_0.index t (1 : Fin 2) * 128 + 1 * q.val = q.val; rw [e1]; omega

/-- Entry `(p, q)` of window 1's block at point `t` is row `5000 t + p`, column `q` of its array at entry. -/
theorem blockOf7_1_apply (t : Fin cfg7.N) (p : Fin 5000) (q : Fin 128) (h : 5000 * t.val + p.val < 50000) :
    (dat.blockOf 1 t : Vec F S5000x128 .f32) (ix2 p q)
      = (dat.A 1 : S50000x128.Idx → Elt F .f32) (ix2 (⟨5000 * t.val + p.val, h⟩ : Fin 50000) q) := by
  obtain ⟨-, -, e0, e1, -, -, -, -, -, -, -, -, -, -⟩ := index7 t
  unfold Dat.blockOf
  rw [View.read_apply]
  show (dat.A 1 : S50000x128.Idx → Elt F .f32) _ = _
  congr 1
  funext a; apply Fin.ext
  match a with
  | ⟨0, _⟩ => show win7_1.index t (0 : Fin 2) * 5000 + 1 * p.val = 5000 * t.val + p.val; rw [e0]; omega
  | ⟨1, _⟩ => show win7_1.index t (1 : Fin 2) * 128 + 1 * q.val = q.val; rw [e1]; omega

/-- Entry `(p, z)` of window 3's `[5000,1]` block at point `t` is row `5000 t + p` of its one-column array at entry. -/
theorem blockOf7_3_apply (t : Fin cfg7.N) (p : Fin 5000) (z : Fin 1) (h : 5000 * t.val + p.val < 50000) :
    (dat.blockOf 3 t : Vec F S5000x1 .f32) (ix2 p z)
      = (dat.A 3 : S50000x1.Idx → Elt F .f32) (ix2 (⟨5000 * t.val + p.val, h⟩ : Fin 50000) z) := by
  obtain ⟨-, -, -, -, e0, e1, -, -, -, -, -, -, -, -⟩ := index7 t
  unfold Dat.blockOf
  rw [View.read_apply]
  show (dat.A 3 : S50000x1.Idx → Elt F .f32) _ = _
  congr 1
  funext a; apply Fin.ext
  match a with
  | ⟨0, _⟩ => show win7_3.index t (0 : Fin 2) * 5000 + 1 * p.val = 5000 * t.val + p.val; rw [e0]; omega
  | ⟨1, _⟩ => show win7_3.index t (1 : Fin 2) * 1 + 1 * z.val = z.val; rw [e1]; omega

/-- Window 2's block is its whole `[1,128]` array at every point. -/
theorem blockOf7_2_eq (t : Fin cfg7.N) :
    (dat.blockOf 2 t : Vec F S1x128 .f32) = (dat.A 2 : S1x128.Idx → Elt F .f32) := by
  funext j
  unfold Dat.blockOf
  rw [View.read_apply, whole_emb7_2 t j]
  rfl

end

end Cert.KernelIdeal.Reg

end
-- ==== Proof.KI.Comb7.lean ====
/-
  The third combine region, read as whole arrays.

  The region leaves three arrays. The pre-normalisation array holds, at row i and column q,
      pre(i,q) = agg(i,q) + h(i,q) * selfnorm(i) + bias(q),
  each block of 5000 rows written by its own point of the grid. The two rows of totals are written once, after the
  last point, and hold the column sums of pre and of its squares over all 50000 rows: they are carried from point to
  point, starting at zero, each point adding its block's column sums.
-/
import proofs.«422700_j84035330113950_1_alg».proof.Proof.KI.R7c
import proofs.«422700_j84035330113950_1_alg».proof.Proof.KI.Arr7
import proofs.«422700_j84035330113950_1_alg».proof.Proof.KI.TotalsDep

set_option maxRecDepth 16384

noncomputable section

open scoped BigOperators

namespace Cert.KernelIdeal.Fin

open Cert.KernelIdeal Cert.KernelIdeal.Gen Cert.KernelIdeal.Reg
open Idealize.ShloMosaic Idealize.ShloMosaic.TcCoe
open Idealize.SL Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-- A point of the ten is a point of the grid. -/
theorem lt_N7 {n : ℕ} (hn : n < 10) : n < cfg7.N := by rw [N7_eq]; exact hn

/-! ## The blocks and the carried rows at the ten points, as arrays of their literal shapes -/

/-- The aggregate block at point n. -/
def iblk7_A (c : Dev nD) (n : ℕ) (hn : n < 10) : Vec Ideal S5000x128 .f32 := iblk7 V c 0 ⟨n, lt_N7 hn⟩
/-- The product block at point n. -/
def iblk7_H (c : Dev nD) (n : ℕ) (hn : n < 10) : Vec Ideal S5000x128 .f32 := iblk7 V c 1 ⟨n, lt_N7 hn⟩
/-- The self-normalisation block at point n. -/
def iblk7_S (c : Dev nD) (n : ℕ) (hn : n < 10) : Vec Ideal S5000x1 .f32 := iblk7 V c 3 ⟨n, lt_N7 hn⟩
/-- The bias row at point n. -/
def iblk7_B (c : Dev nD) (n : ℕ) (hn : n < 10) : Vec Ideal S1x128 .f32 := iblk7 V c 2 ⟨n, lt_N7 hn⟩
/-- The carried total of the values after point n. -/
def acc7_fst (c : Dev nD) (n : ℕ) (hn : n < 10) : Vec Ideal S1x128 .f32 := (acc7 V c n (lt_N7 hn)).1
/-- The carried total of the squares after point n. -/
def acc7_snd (c : Dev nD) (n : ℕ) (hn : n < 10) : Vec Ideal S1x128 .f32 := (acc7 V c n (lt_N7 hn)).2

/-! ## The input blocks as entries of the named arrays -/

theorem iblk7_0_entry (c : Dev nD) (a : Vec Ideal S50000x128 .f32)
    (ha : (V c (Pipeline.arrRef spec7 0) : S50000x128.Idx → Elt Ideal .f32) = a) (t : Fin 10) (p : Fin 5000) (q : Fin 128) :
    iblk7_A V c t.val t.isLt (ix2 p q) = a (ix2 (rowOf t p) q) := by
  subst ha
  exact blockOf7_0_apply (dat7 V c) (pt7 t) p q _

theorem iblk7_1_entry (c : Dev nD) (h : Vec Ideal S50000x128 .f32)
    (hh : (V c (Pipeline.arrRef spec7 1) : S50000x128.Idx → Elt Ideal .f32) = h) (t : Fin 10) (p : Fin 5000) (q : Fin 128) :
    iblk7_H V c t.val t.isLt (ix2 p q) = h (ix2 (rowOf t p) q) := by
  subst hh
  exact blockOf7_1_apply (dat7 V c) (pt7 t) p q _

theorem iblk7_3_entry (c : Dev nD) (s : Vec Ideal S50000x1 .f32)
    (hs : (V c (Pipeline.arrRef spec7 3) : S50000x1.Idx → Elt Ideal .f32) = s) (t : Fin 10) (p : Fin 5000) :
    iblk7_S V c t.val t.isLt (ix2 p (0 : Fin 1)) = s (ix2 (rowOf t p) (0 : Fin 1)) := by
  subst hs
  exact blockOf7_3_apply (dat7 V c) (pt7 t) p 0 _

theorem iblk7_2_whole (c : Dev nD) (b : Vec Ideal S1x128 .f32)
    (hb : (V c (Pipeline.arrRef spec7 2) : S1x128.Idx → Elt Ideal .f32) = b) (t : Fin 10) :
    iblk7_B V c t.val t.isLt = b := by
  subst hb
  exact blockOf7_2_eq (dat7 V c) (pt7 t)

/-- What a point computes at its row p is the whole-array expression at row 5000 t + p. -/
theorem block_pre7 (c : Dev nD) (a h : Vec Ideal S50000x128 .f32) (b : Vec Ideal S1x128 .f32) (s : Vec Ideal S50000x1 .f32)
    (ha : (V c (Pipeline.arrRef spec7 0) : S50000x128.Idx → Elt Ideal .f32) = a)
    (hh : (V c (Pipeline.arrRef spec7 1) : S50000x128.Idx → Elt Ideal .f32) = h)
    (hb : (V c (Pipeline.arrRef spec7 2) : S1x128.Idx → Elt Ideal .f32) = b)
    (hs : (V c (Pipeline.arrRef spec7 3) : S50000x1.Idx → Elt Ideal .f32) = s)
    (t : Fin 10) (p : Fin 5000) (q : Fin 128) :
    k7_pay3 (iblk7_A V c t.val t.isLt) (iblk7_H V c t.val t.isLt) (iblk7_S V c t.val t.isLt) (iblk7_B V c t.val t.isLt) (ix2 p q)
      = a (ix2 (rowOf t p) q) + h (ix2 (rowOf t p) q) * s (ix2 (rowOf t p) (0 : Fin 1)) + b (ix2 (0 : Fin 1) q) := by
  rw [k7_pay3_apply, iblk7_0_entry V c a ha, iblk7_1_entry V c h hh, iblk7_3_entry V c s hs, iblk7_2_whole V c b hb]

/-! ## The three arrays -/

/-- A block's entries of the pre-normalisation array: what its point computed. -/
theorem arr7_4_block (c : Dev nD) (pre : Vec Ideal S50000x128 .f32)
    (hpre : ((dat7 V c).arrAt 4 cfg7.N : S50000x128.Idx → Elt Ideal .f32) = pre) (t : Fin 10) (p : Fin 5000) (q : Fin 128) :
    pre (ix2 (rowOf t p) q)
      = k7_pay3 (iblk7_A V c t.val t.isLt) (iblk7_H V c t.val t.isLt) (iblk7_S V c t.val t.isLt) (iblk7_B V c t.val t.isLt) (ix2 p q) := by
  rw [← hpre]
  refine (arr_entry7_4 (dat7 V c) t p q).trans ?_
  rw [after7_4_eq V c (pt7 t)]
  rfl

/-- The pre-normalisation array, entry by entry. -/
theorem arr7_4_entry (c : Dev nD) (a h : Vec Ideal S50000x128 .f32) (b : Vec Ideal S1x128 .f32) (s : Vec Ideal S50000x1 .f32)
    (pre : Vec Ideal S50000x128 .f32)
    (ha : (V c (Pipeline.arrRef spec7 0) : S50000x128.Idx → Elt Ideal .f32) = a)
    (hh : (V c (Pipeline.arrRef spec7 1) : S50000x128.Idx → Elt Ideal .f32) = h)
    (hb : (V c (Pipeline.arrRef spec7 2) : S1x128.Idx → Elt Ideal .f32) = b)
    (hs : (V c (Pipeline.arrRef spec7 3) : S50000x1.Idx → Elt Ideal .f32) = s)
    (hpre : ((dat7 V c).arrAt 4 cfg7.N : S50000x128.Idx → Elt Ideal .f32) = pre) (i : Fin 50000) (q : Fin 128) :
    pre (ix2 i q) = a (ix2 i q) + h (ix2 i q) * s (ix2 i (0 : Fin 1)) + b (ix2 (0 : Fin 1) q) := by
  obtain ⟨t, p, rfl⟩ : ∃ (t : Fin 10) (p : Fin 5000), i = rowOf t p := ⟨_, _, (rowOf_div_mod i).symm⟩
  rw [arr7_4_block V c pre hpre t p q]
  exact block_pre7 V c a h b s ha hh hb hs t p q

/-- The first row of totals: the column sums of the pre-normalisation array. -/
theorem arr7_5_total (c : Dev nD) (pre : Vec Ideal S50000x128 .f32) (sum : Vec Ideal S1x128 .f32)
    (hpre : ((dat7 V c).arrAt 4 cfg7.N : S50000x128.Idx → Elt Ideal .f32) = pre)
    (hsum : ((dat7 V c).arrAt 5 cfg7.N : S1x128.Idx → Elt Ideal .f32) = sum) (q : Fin 128) :
    sum (ix2 (0 : Fin 1) q) = ∑ i : Fin 50000, pre (ix2 i q) := by
  rw [← hsum, arr7_5 (dat7 V c), after7_5_eq V c (pt7 9)]
  exact sum_total_dep (iblk7_A V c) (iblk7_H V c) (iblk7_S V c) (iblk7_B V c) (acc7_fst V c)
    (congrArg Prod.fst (acc7_zero V c _))
    (fun n hn => congrArg Prod.fst (acc7_succ V c n _))
    q (fun r => pre (ix2 r q)) (fun t p => (arr7_4_block V c pre hpre t p q).symm)

/-- The second row of totals: the column sums of its squares. -/
theorem arr7_6_total (c : Dev nD) (pre : Vec Ideal S50000x128 .f32) (sumsq : Vec Ideal S1x128 .f32)
    (hpre : ((dat7 V c).arrAt 4 cfg7.N : S50000x128.Idx → Elt Ideal .f32) = pre)
    (hsumsq : ((dat7 V c).arrAt 6 cfg7.N : S1x128.Idx → Elt Ideal .f32) = sumsq) (q : Fin 128) :
    sumsq (ix2 (0 : Fin 1) q) = ∑ i : Fin 50000, pre (ix2 i q) * pre (ix2 i q) := by
  rw [← hsumsq, arr7_6 (dat7 V c), after7_6_eq V c (pt7 9)]
  exact sumsq_total_dep (iblk7_A V c) (iblk7_H V c) (iblk7_S V c) (iblk7_B V c) (acc7_snd V c)
    (congrArg Prod.snd (acc7_zero V c _))
    (fun n hn => congrArg Prod.snd (acc7_succ V c n _))
    q (fun r => pre (ix2 r q)) (fun t p => (arr7_4_block V c pre hpre t p q).symm)

/-- THE COMBINE REGION'S ARRAYS: with the four input arrays and the three output arrays named, the
    pre-normalisation array entry by entry, and the two rows of totals as sums over all rows. -/
theorem comb7_entry (c : Dev nD) (a h : Vec Ideal S50000x128 .f32) (b : Vec Ideal S1x128 .f32) (s : Vec Ideal S50000x1 .f32)
    (pre : Vec Ideal S50000x128 .f32) (sum sumsq : Vec Ideal S1x128 .f32)
    (ha : (V c (Pipeline.arrRef spec7 0) : S50000x128.Idx → Elt Ideal .f32) = a)
    (hh : (V c (Pipeline.arrRef spec7 1) : S50000x128.Idx → Elt Ideal .f32) = h)
    (hb : (V c (Pipeline.arrRef spec7 2) : S1x128.Idx → Elt Ideal .f32) = b)
    (hs : (V c (Pipeline.arrRef spec7 3) : S50000x1.Idx → Elt Ideal .f32) = s)
    (hpre : ((dat7 V c).arrAt 4 cfg7.N : S50000x128.Idx → Elt Ideal .f32) = pre)
    (hsum : ((dat7 V c).arrAt 5 cfg7.N : S1x128.Idx → Elt Ideal .f32) = sum)
    (hsumsq : ((dat7 V c).arrAt 6 cfg7.N : S1x128.Idx → Elt Ideal .f32) = sumsq) :
    (∀ (i : Fin 50000) (q : Fin 128),
        pre (ix2 i q) = a (ix2 i q) + h (ix2 i q) * s (ix2 i (0 : Fin 1)) + b (ix2 (0 : Fin 1) q))
    ∧ (∀ q : Fin 128, sum (ix2 (0 : Fin 1) q) = ∑ i : Fin 50000, pre (ix2 i q))
    ∧ (∀ q : Fin 128, sumsq (ix2 (0 : Fin 1) q) = ∑ i : Fin 50000, pre (ix2 i q) * pre (ix2 i q)) :=
  ⟨arr7_4_entry V c a h b s pre ha hh hb hs hpre, arr7_5_total V c pre sum hpre hsum, arr7_6_total V c pre sumsq hpre hsumsq⟩

end Cert.KernelIdeal.Fin

end
-- ==== Proof.KI.Value.lean ====
/-
  The kernel program's result is the specification's network of its fifteen arguments.

  Under the precondition every float argument is an array of real numbers and every source node of the edge table lies
  in [0, 50000). Layer by layer: the combine region's three outputs are read entry by entry at the arrays it finds —
  the layer's neighbour sum, the layer's product, the bias row, the self-loop column —, and with the product region's and
  the normalisation region's entries and the host's small stages each layer's output is the specification's layer of the
  previous one and is real again. The host's tail of the program is the specification's tail of the third layer's output.
-/
import proofs.«422700_j84035330113950_1_alg».proof.Proof.KI.ValL1
import proofs.«422700_j84035330113950_1_alg».proof.Proof.KI.ValL2
import proofs.«422700_j84035330113950_1_alg».proof.Proof.KI.ValL3
import proofs.«422700_j84035330113950_1_alg».proof.Proof.KI.ValOps
import proofs.«422700_j84035330113950_1_alg».proof.Proof.KI.ValAgg
import proofs.«422700_j84035330113950_1_alg».proof.Proof.KI.ValTail
import proofs.«422700_j84035330113950_1_alg».proof.Proof.KI.Comb1
import proofs.«422700_j84035330113950_1_alg».proof.Proof.KI.Comb4
import proofs.«422700_j84035330113950_1_alg».proof.Proof.KI.Comb7
import proofs.«422700_j84035330113950_1_alg».proof.Proof.KI.RunR1
import proofs.«422700_j84035330113950_1_alg».proof.Proof.KI.RunR4
import proofs.«422700_j84035330113950_1_alg».proof.Proof.KI.RunR7
import proofs.«422700_j84035330113950_1_alg».proof.Proof.PreFacts

set_option maxRecDepth 4000

open scoped BigOperators

noncomputable section

namespace Cert.KernelIdeal.Val

open Idealize.ShloMosaic Idealize.ShloMosaic.TcCoe Idealize.ShloMosaic.ValueIdx
open Cert.Spec (IsReal)

set_option maxHeartbeats 4000000 in
/-- THE KERNEL PROGRAM'S VALUE: under the precondition, what the program leaves in its result buffer on core `c` is the
    specification's network of the fifteen arguments' launch contents. -/
theorem kernel_value (m : (ℓ : Loc nD τ sig) → Buf (Elt Ideal) ℓ) (c : Dev nD)
    (hpre : Cert.Pre_finite_inputs.fn (F := Ideal) (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12)) (m (c, Proc.devRef .tc main_arg13)) (m (c, Proc.devRef .tc main_arg14))
      = fun _ => 1#1) :
    Gen.V34 m (Run.outs m) c (Proc.devRef .tc main_v227)
      = Cert.Val.net (m (c, Proc.devRef .tc main_arg0)) (m (c, Proc.devRef .tc main_arg1)) (m (c, Proc.devRef .tc main_arg2)) (m (c, Proc.devRef .tc main_arg3)) (m (c, Proc.devRef .tc main_arg4)) (m (c, Proc.devRef .tc main_arg5)) (m (c, Proc.devRef .tc main_arg6)) (m (c, Proc.devRef .tc main_arg7)) (m (c, Proc.devRef .tc main_arg8)) (m (c, Proc.devRef .tc main_arg9)) (m (c, Proc.devRef .tc main_arg10)) (m (c, Proc.devRef .tc main_arg11)) (m (c, Proc.devRef .tc main_arg12)) (m (c, Proc.devRef .tc main_arg13)) (m (c, Proc.devRef .tc main_arg14)) := by
  have hsrc := fun e => Cert.PreFacts.src_in_range hpre e
  have r0 := Cert.PreFacts.finite_arg0 hpre
  have r3 := Cert.PreFacts.finite_arg3 hpre
  have r4 := Cert.PreFacts.finite_arg4 hpre
  have r5 := Cert.PreFacts.finite_arg5 hpre
  have r6 := Cert.PreFacts.finite_arg6 hpre
  have r7 := Cert.PreFacts.finite_arg7 hpre
  have r8 := Cert.PreFacts.finite_arg8 hpre
  -- layer 1
  obtain ⟨c1p, c1s, c1q⟩ := Cert.KernelIdeal.Fin.comb1_entry (fun c b => Gen.V5 m (Run.outs m) c b) c
    (Gen.V5 m (Run.outs m) c (Proc.devRef .tc main_v47)) (Run.outs m 2 main_v25 c) (row1 (m (c, Proc.devRef .tc main_arg4))) (selfnormK (m (c, Proc.devRef .tc main_arg1)))
    (Run.outs m 6 main_v49_0 c) (Run.outs m 6 main_v49_1 c) (Run.outs m 6 main_v49_2 c)
    rfl (ops1_h m (Run.outs m) c) (V5_bias m (Run.outs m) c) (ops1_sn m (Run.outs m) c)
    (Run.outs1_arr m c 4).symm (Run.outs1_arr m c 5).symm (Run.outs1_arr m c 6).symm
  obtain ⟨h1, x1r⟩ := layer1_value m c (m (c, Proc.devRef .tc main_arg0)) (m (c, Proc.devRef .tc main_arg1)) (m (c, Proc.devRef .tc main_arg3)) (m (c, Proc.devRef .tc main_arg4)) (m (c, Proc.devRef .tc main_arg7)) (m (c, Proc.devRef .tc main_arg8)) rfl rfl rfl rfl rfl rfl r0 r3 r4 r7 r8
    (Run.outs m 2 main_v25 c) (Gen.V5 m (Run.outs m) c (Proc.devRef .tc main_v47)) (Run.outs m 6 main_v49_0 c)
    (Run.outs m 8 main_v62 c) (Run.outs m 6 main_v49_1 c) (Run.outs m 6 main_v49_2 c) rfl rfl rfl rfl rfl rfl
    (agg1_value m (Run.outs m) c hsrc) c1p c1s c1q
  -- layer 2
  obtain ⟨c2p, c2s, c2q⟩ := Cert.KernelIdeal.Fin.comb4_entry (fun c b => Gen.V13 m (Run.outs m) c b) c
    (Gen.V13 m (Run.outs m) c (Proc.devRef .tc main_v89)) (Run.outs m 10 main_v67 c) (row1 (Cert.Val.row2_0 (m (c, Proc.devRef .tc main_arg6)))) (selfnormK (m (c, Proc.devRef .tc main_arg1)))
    (Run.outs m 14 main_v91_0 c) (Run.outs m 14 main_v91_1 c) (Run.outs m 14 main_v91_2 c)
    rfl (ops2_h m (Run.outs m) c) (V13_bias m (Run.outs m) c) (ops2_sn m (Run.outs m) c)
    (Run.outs4_arr m c 4).symm (Run.outs4_arr m c 5).symm (Run.outs4_arr m c 6).symm
  obtain ⟨h2, x2r⟩ := layer2_value m c (m (c, Proc.devRef .tc main_arg1)) (m (c, Proc.devRef .tc main_arg5)) (m (c, Proc.devRef .tc main_arg6)) (m (c, Proc.devRef .tc main_arg7)) (m (c, Proc.devRef .tc main_arg8)) rfl rfl rfl r5 r6 r7 r8
    (Run.outs m 8 main_v62 c) (Run.outs m 10 main_v67 c) (Gen.V13 m (Run.outs m) c (Proc.devRef .tc main_v89)) (Run.outs m 14 main_v91_0 c)
    (Run.outs m 16 main_v104 c) (Run.outs m 14 main_v91_1 c) (Run.outs m 14 main_v91_2 c) rfl x1r rfl rfl rfl rfl rfl
    (agg2_value m (Run.outs m) c hsrc) c2p c2s c2q
  -- layer 3
  obtain ⟨c3p, c3s, c3q⟩ := Cert.KernelIdeal.Fin.comb7_entry (fun c b => Gen.V21 m (Run.outs m) c b) c
    (Gen.V21 m (Run.outs m) c (Proc.devRef .tc main_v131)) (Run.outs m 18 main_v109 c) (row1 (Cert.Val.row2_1 (m (c, Proc.devRef .tc main_arg6)))) (selfnormK (m (c, Proc.devRef .tc main_arg1)))
    (Run.outs m 22 main_v133_0 c) (Run.outs m 22 main_v133_1 c) (Run.outs m 22 main_v133_2 c)
    rfl (ops3_h m (Run.outs m) c) (V21_bias m (Run.outs m) c) (ops3_sn m (Run.outs m) c)
    (Run.outs7_arr m c 4).symm (Run.outs7_arr m c 5).symm (Run.outs7_arr m c 6).symm
  obtain ⟨h3, _⟩ := layer3_value m c (m (c, Proc.devRef .tc main_arg1)) (m (c, Proc.devRef .tc main_arg5)) (m (c, Proc.devRef .tc main_arg6)) (m (c, Proc.devRef .tc main_arg7)) (m (c, Proc.devRef .tc main_arg8)) rfl rfl rfl r5 r6 r7 r8
    (Run.outs m 16 main_v104 c) (Run.outs m 18 main_v109 c) (Gen.V21 m (Run.outs m) c (Proc.devRef .tc main_v131)) (Run.outs m 22 main_v133_0 c)
    (Run.outs m 24 main_v146 c) (Run.outs m 22 main_v133_1 c) (Run.outs m 22 main_v133_2 c) rfl x2r rfl rfl rfl rfl rfl
    (agg3_value m (Run.outs m) c hsrc) c3p c3s c3q
  rw [tail_value, h3, h2, h1]
  rfl

end Cert.KernelIdeal.Val

end
-- ==== Proof.Val.RefValue.lean ====
/-
  The reference program's value. Its 448 tensor operations, folded in order over the launch contents, leave at the
  result buffer the network of `Spec` applied to the contents of the fifteen argument buffers: each operation's result
  is its function of its operands' results, every buffer is written once, before it is read, and the stage functions
  of the specification are by definition the same compositions, so the two sides are one term once the stages are
  unfolded. Nothing about the float values is used: the statement holds at every instance.
-/
import proofs.«422700_j84035330113950_1_alg».proof.Proof.Val.Spec
import proofs.«422700_j84035330113950_1_alg».proof.Proof.Ref.Ops0
import proofs.«422700_j84035330113950_1_alg».proof.Proof.Ref.Ops1
import proofs.«422700_j84035330113950_1_alg».proof.Proof.Ref.Ops2
import proofs.«422700_j84035330113950_1_alg».proof.Proof.Ref.Ops3
import proofs.«422700_j84035330113950_1_alg».proof.Proof.Ref.Ops4
import proofs.«422700_j84035330113950_1_alg».proof.Proof.Ref.Ops5
import proofs.«422700_j84035330113950_1_alg».proof.Proof.Ref.Ops6
import proofs.«422700_j84035330113950_1_alg».proof.Proof.Ref.Ops7
import proofs.«422700_j84035330113950_1_alg».proof.Proof.Ref.Ops8
import proofs.«422700_j84035330113950_1_alg».proof.Proof.Ref.Ops9
import proofs.«422700_j84035330113950_1_alg».proof.Proof.Ref.Ops10
import proofs.«422700_j84035330113950_1_alg».proof.Proof.Ref.Ops11
import Idealize.ShloMosaic.Lib.StableHlo.Run

noncomputable section

namespace Cert.Val

open Cert.ReferenceIdeal Cert.ReferenceIdeal.Gen Cert.ReferenceIdeal.Hand
open Idealize.ShloMosaic Idealize.ShloMosaic.TcCoe Idealize.SL.Sem Idealize.ShloMosaic.StableHlo

variable {F : FTy → Type} [FloatOps F]

set_option maxRecDepth 65536 in
set_option maxHeartbeats 64000000 in
/-- After the reference's operations, from any contents `V`, the result buffer holds the network of the argument
    buffers' contents in `V`. The fold is read at the result buffer operation by operation, from the last back to the
    arguments: at its own result buffer an operation leaves its function of what its operands held, at any other buffer
    what was there. The term reached is the specification's, stage for stage. -/
theorem ref_value (V : Valuation τ sig (Elt F)) :
    after (ops0 ++ ops1 ++ ops2 ++ ops3 ++ ops4 ++ ops5 ++ ops6 ++ ops7 ++ ops8 ++ ops9 ++ ops10 ++ ops11) V
        (Proc.devRef .tc main_v282)
      = net (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) (V (Proc.devRef .tc main_arg14)) := by
  simp only [List.append_assoc, List.cons_append, List.nil_append]
  after_results_simp
  rfl

end Cert.Val

end
-- ==== Proof.Val.Algebraic.lean ====
/-
  The value claim. Both programs, run at the extended reals from memories that agree on the fifteen arguments and
  satisfy the precondition, terminate with equal results and unchanged arguments. Each program's result is the
  network of `Spec` applied to its own arguments: the kernel program's by its run (the result buffer ends at the last
  valuation of its items) and that valuation's value under the precondition; the reference program's by its run (every
  buffer ends at the fold of its operations over the launch contents) and that fold's value, which needs no
  precondition. Equal arguments then give equal results.
-/
import proofs.«422700_j84035330113950_1_alg».proof.Defs
import proofs.«422700_j84035330113950_1_alg».proof.Proof.KI.Run
import proofs.«422700_j84035330113950_1_alg».proof.Proof.KI.Value
import proofs.«422700_j84035330113950_1_alg».proof.Proof.Ref.Run
import proofs.«422700_j84035330113950_1_alg».proof.Proof.Val.RefValue
import proofs.«422700_j84035330113950_1_alg».proof.Proof.Gen.KernelIdeal
import proofs.«422700_j84035330113950_1_alg».proof.Proof.Gen.ReferenceIdeal
import proofs.«422700_j84035330113950_1_alg».proof.Proof.Gen.Pre_finite_inputs

noncomputable section

namespace Cert.Val

open Idealize.ShloMosaic Idealize.ShloMosaic.TcCoe Idealize.SL.Sem Idealize.ShloMosaic.StableHlo

set_option maxRecDepth 16384 in
/-- The two programs, run at the extended reals from memories that agree on the fifteen arguments and satisfy the
    precondition, end with equal results and unchanged arguments. The common result is the kernel program's own: its run
    ends with the result buffer at its last valuation, which is the network of its arguments; the reference's run ends
    with its result buffer at the fold of its operations, which is the same network of its arguments; and the arguments
    agree. -/
theorem algebraic : Cert.algebraic_KernelIdeal_ReferenceIdeal := by
  intro m ρ m' ρ' hpre hagree
  refine ⟨fun c => Cert.KernelIdeal.Gen.V34 m (Cert.KernelIdeal.Run.outs m) c (Proc.devRef .tc Cert.KernelIdeal.main_v227),
    Cert.KernelIdeal.Run.result (F := Ideal) m ρ, ?_⟩
  refine (θ_run (Cert.ReferenceIdeal.defs (F := Ideal)) _ _).mono (fun r h c => ?_)
    (Cert.ReferenceIdeal.Hand.run (F := Ideal) m' ρ')
  -- an argument array ends as launched: no operation writes it
  have harg : ∀ b ∈ Cert.ReferenceIdeal.Hand.argRefs,
      r.2.mem ((c.tc : Thread Cert.ReferenceIdeal.nD Cert.ReferenceIdeal.τ).loc b)
        = m' ((c.tc : Thread Cert.ReferenceIdeal.nD Cert.ReferenceIdeal.τ).loc b) := fun b hb =>
    (h c b).trans (Cert.ReferenceIdeal.Hand.after_ops_arg (launchContents m' c) hb)
  obtain ⟨e0, e1, e2, e3, e4, e5, e6, e7, e8, e9, e10, e11, e12, e13, e14⟩ := hagree c
  refine ⟨?_, harg _ (by decide), harg _ (by decide), harg _ (by decide), harg _ (by decide), harg _ (by decide),
    harg _ (by decide), harg _ (by decide), harg _ (by decide), harg _ (by decide), harg _ (by decide),
    harg _ (by decide), harg _ (by decide), harg _ (by decide), harg _ (by decide), harg _ (by decide)⟩
  -- the result: the fold is the network of the reference's arguments, those are the kernel's, and the kernel's
  -- last valuation is the network of the kernel's
  refine (h c Cert.ReferenceIdeal.main_v282).trans ((ref_value (F := Ideal) (launchContents m' c)).trans ?_)
  refine Eq.trans ?_ (Cert.KernelIdeal.Val.kernel_value m c (hpre c)).symm
  exact congr (congr (congr (congr (congr (congr (congr (congr (congr (congr (congr (congr (congr (congr
    (congrArg net e0) e1) e2) e3) e4) e5) e6) e7) e8) e9) e10) e11) e12) e13) e14

end Cert.Val

end
-- ==== Proof.lean ====
/-
  The certificate of a three-layer graph convolution network: per layer a dense projection `h = x · W`, the
  symmetric-normalised aggregation over the edges `agg[d] = Σ_{e : dst e = d} h[src e] · dis[src e] · dis[dst e]`
  with `dis = (1 + in-degree)^(-1/2)`, the self-loop and bias `pre = agg + h · dis² + b`, batch normalisation over
  the 50000 nodes and a rectifier; then a mean pool over 32 graphs, two small normalised layers and a linear head.

  The kernel program computes each layer with three pipelined kernel regions over ten blocks of 5000 nodes — the
  projection block by block; `pre` block by block together with the column sums `s = Σ pre` and `q = Σ pre²`
  carried in two accumulators across the blocks; the normalisation `max(((pre − μ) · (v + ε)^(-1/2)) · γ + β, 0)`
  with `μ = s / n` and the ONE-PASS variance `v = q / n − μ²` — and the aggregation by the host's gather and
  scatter-add; the reference computes the same layer on the host with the CENTRED variance `Σ (pre − μ)² / n`.
  Over the extended reals the two variances are the same real number exactly when every `pre[i,j]` is finite,
  which the precondition (every float input finite) gives through every stage: the degree is a count, so
  `dis` is a positive real; a gather reads an element; a scatter-add is a finite sum. The kernel's gather fills
  reads outside `[0, 50000)` with a not-a-number where the reference's clamps: the added conjunct on the source
  indices makes the fill unreachable, so both aggregations are one function of the projection. Everything after
  the third layer is the same composition of host operations in both programs.

  The three frame claims: the kernel program (read at either float family) runs its nine regions among the host
  stretches, each region from the pipeline library's launch rule given its body's triple per grid point (the
  accumulating region in three control cases: first, middle and last point, its accumulators' contents after each
  point defined by recursion on the point); the reference is a plain list of host operations. No operation and no
  region writes an argument.
-/
import proofs.«422700_j84035330113950_1_alg».proof.Defs
import proofs.«422700_j84035330113950_1_alg».proof.Proof.Gen.Kernel
import proofs.«422700_j84035330113950_1_alg».proof.Proof.Gen.KernelIdeal
import proofs.«422700_j84035330113950_1_alg».proof.Proof.Gen.ReferenceIdeal
import proofs.«422700_j84035330113950_1_alg».proof.Proof.Gen.Pre_finite_inputs
import proofs.«422700_j84035330113950_1_alg».proof.Proof.K.Run
import proofs.«422700_j84035330113950_1_alg».proof.Proof.KI.Run
import proofs.«422700_j84035330113950_1_alg».proof.Proof.Ref.Run
import proofs.«422700_j84035330113950_1_alg».proof.Proof.Val.Algebraic

noncomputable section

namespace Cert.Proof

open Idealize.ShloMosaic Idealize.SL.Sem

/-- The five claims: the three programs run to the end leaving their arguments as launched; the idealisation
    rewrote nothing; and the idealised kernel program and the idealised reference end with equal results. -/
theorem claim : Cert.Claim :=
  ⟨Cert.Kernel.Gen.facts, Cert.KernelIdeal.Gen.facts, Cert.ReferenceIdeal.Gen.facts, Cert.Pre_finite_inputs.Gen.facts,
    fun m ρ _ => Cert.Kernel.Run.frame (F := Bits) m ρ,
    fun m ρ _ => Cert.KernelIdeal.Run.frame (F := Ideal) m ρ,
    fun m ρ _ => Cert.ReferenceIdeal.Hand.frame (F := Ideal) m ρ,
    trivial,
    Cert.Val.algebraic⟩

end Cert.Proof

end
